-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v125)) (v1 : (c : Dev Cert.KernelIdeal.nD) → Buf (Elt Ideal) ((c.tc : Thread Cert.KernelIdeal.nD Cert.KernelIdeal.τ).loc Cert.KernelIdeal.main_v25)) (v2 : (c : Dev Cert.KernelIdeal.nD) → Buf (Elt Ideal) ((c.tc : Thread Cert.KernelIdeal.nD Cert.KernelIdeal.τ).loc Cert.KernelIdeal.main_v56)) (v3 : (c : Dev Cert.KernelIdeal.nD) → Buf (Elt Ideal) ((c.tc : Thread Cert.KernelIdeal.nD Cert.KernelIdeal.τ).loc Cert.KernelIdeal.main_v120)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v125) = v0 c
          ∧ r.2.mem ((c.tc : Thread Cert.KernelIdeal.nD Cert.KernelIdeal.τ).loc Cert.KernelIdeal.main_v25) = v1 c
          ∧ r.2.mem ((c.tc : Thread Cert.KernelIdeal.nD Cert.KernelIdeal.τ).loc Cert.KernelIdeal.main_v56) = v2 c
          ∧ r.2.mem ((c.tc : Thread Cert.KernelIdeal.nD Cert.KernelIdeal.τ).loc Cert.KernelIdeal.main_v120) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v224) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_v59) = v2 c
          ∧ r.2.mem ((c.tc : Thread Cert.ReferenceIdeal.nD Cert.ReferenceIdeal.τ).loc Cert.ReferenceIdeal.main_v219) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x64x64 : Shape := ⟨4, ![8, 256, 64, 64]⟩
abbrev S8x2x256x256 : Shape := ⟨4, ![8, 2, 256, 256]⟩
abbrev S8x1x64x64 : Shape := ⟨4, ![8, 1, 64, 64]⟩
abbrev S_ : Shape := ⟨0, ![]⟩

class Facts : Prop where
  bcast_S_S8x256x64x64 : S_.BroadcastsInDim S8x256x64x64 (![] : Fin 0 → Fin S8x256x64x64.rank)
  reducesTo_S8x256x64x64_S_d0_1_2_3 : S8x256x64x64.ReducesTo [0, 1, 2, 3] S_
  h_S_ : 0 < S_.numel
  bcast_S_S8x2x256x256 : S_.BroadcastsInDim S8x2x256x256 (![] : Fin 0 → Fin S8x2x256x256.rank)
  reducesTo_S8x2x256x256_S_d0_1_2_3 : S8x2x256x256.ReducesTo [0, 1, 2, 3] S_
  bcast_S_S8x1x64x64 : S_.BroadcastsInDim S8x1x64x64 (![] : Fin 0 → Fin S8x1x64x64.rank)
  reducesTo_S8x1x64x64_S_d0_1_2_3 : S8x1x64x64.ReducesTo [0, 1, 2, 3] S_

variable [Facts]

def fn_part2 {F : FTy → Type} [FloatOps F] (main_arg7 : FVec F S8x1x64x64 .f32) (main_v33 : IVec S_ 1) : IVec S_ 1 :=
  let main_v34 : FVec F S8x1x64x64 .f32 := Host.absf main_arg7
  let main_cst_12 : FVec F S_ .f32 := constant S_ .f32 0x7F800000#32
  let main_v35 : FVec F S8x1x64x64 .f32 := broadcastInDim S8x1x64x64 ![] bcast_S_S8x1x64x64 main_cst_12
  let main_v36 : IVec S8x1x64x64 1 := cmpf .olt main_v34 main_v35
  let main_c_13 : IVec S_ 1 := constantI S_ 1 1#1
  let main_v37 : IVec S_ 1 := (fun x v => Host.reduce IntOp.andi x v reducesTo_S8x1x64x64_S_d0_1_2_3 h_S_) main_v36 main_c_13
  let main_v38 : IVec S_ 1 := andi main_v33 main_v37
  main_v38

def fn_part1 {F : FTy → Type} [FloatOps F] (main_arg4 : FVec F S8x256x64x64 .f32) (main_arg5 : FVec F S8x256x64x64 .f32) (main_arg6 : FVec F S8x256x64x64 .f32) (main_arg7 : FVec F S8x1x64x64 .f32) (main_v13 : IVec S_ 1) (main_v16 : IVec S8x2x256x256 1) : IVec S_ 1 :=
  let main_c_5 : IVec S_ 1 := constantI S_ 1 1#1
  let main_v17 : IVec S_ 1 := (fun x v => Host.reduce IntOp.andi x v reducesTo_S8x2x256x256_S_d0_1_2_3 h_S_) main_v16 main_c_5
  let main_v18 : IVec S_ 1 := andi main_v13 main_v17
  let main_v19 : FVec F S8x256x64x64 .f32 := Host.absf main_arg4
  let main_cst_6 : FVec F S_ .f32 := constant S_ .f32 0x7F800000#32
  let main_v20 : FVec F S8x256x64x64 .f32 := broadcastInDim S8x256x64x64 ![] bcast_S_S8x256x64x64 main_cst_6
  let main_v21 : IVec S8x256x64x64 1 := cmpf .olt main_v19 main_v20
  let main_c_7 : IVec S_ 1 := constantI S_ 1 1#1
  let main_v22 : IVec S_ 1 := (fun x v => Host.reduce IntOp.andi x v reducesTo_S8x256x64x64_S_d0_1_2_3 h_S_) main_v21 main_c_7
  let main_v23 : IVec S_ 1 := andi main_v18 main_v22
  let main_v24 : FVec F S8x256x64x64 .f32 := Host.absf main_arg5
  let main_cst_8 : FVec F S_ .f32 := constant S_ .f32 0x7F800000#32
  let main_v25 : FVec F S8x256x64x64 .f32 := broadcastInDim S8x256x64x64 ![] bcast_S_S8x256x64x64 main_cst_8
  let main_v26 : IVec S8x256x64x64 1 := cmpf .olt main_v24 main_v25
  let main_c_9 : IVec S_ 1 := constantI S_ 1 1#1
  let main_v27 : IVec S_ 1 := (fun x v => Host.reduce IntOp.andi x v reducesTo_S8x256x64x64_S_d0_1_2_3 h_S_) main_v26 main_c_9
  let main_v28 : IVec S_ 1 := andi main_v23 main_v27
  let main_v29 : FVec F S8x256x64x64 .f32 := Host.absf main_arg6
  let main_cst_10 : FVec F S_ .f32 := constant S_ .f32 0x7F800000#32
  let main_v30 : FVec F S8x256x64x64 .f32 := broadcastInDim S8x256x64x64 ![] bcast_S_S8x256x64x64 main_cst_10
  let main_v31 : IVec S8x256x64x64 1 := cmpf .olt main_v29 main_v30
  let main_c_11 : IVec S_ 1 := constantI S_ 1 1#1
  let main_v32 : IVec S_ 1 := (fun x v => Host.reduce IntOp.andi x v reducesTo_S8x256x64x64_S_d0_1_2_3 h_S_) main_v31 main_c_11
  let main_v33 : IVec S_ 1 := andi main_v28 main_v32
  fn_part2 (F := F) main_arg7 main_v33

def fn {F : FTy → Type} [FloatOps F] (main_arg0 : FVec F S8x256x64x64 .f32) (main_arg1 : FVec F S8x256x64x64 .f32) (main_arg2 : FVec F S8x2x256x256 .f32) (main_arg3 : FVec F S8x2x256x256 .f32) (main_arg4 : FVec F S8x256x64x64 .f32) (main_arg5 : FVec F S8x256x64x64 .f32) (main_arg6 : FVec F S8x256x64x64 .f32) (main_arg7 : FVec F S8x1x64x64 .f32) : IVec S_ 1 :=
  let main_v0 : FVec F S8x256x64x64 .f32 := Host.absf main_arg0
  let main_cst : FVec F S_ .f32 := constant S_ .f32 0x7F800000#32
  let main_v1 : FVec F S8x256x64x64 .f32 := broadcastInDim S8x256x64x64 ![] bcast_S_S8x256x64x64 main_cst
  let main_v2 : IVec S8x256x64x64 1 := cmpf .olt main_v0 main_v1
  let main_c : IVec S_ 1 := constantI S_ 1 1#1
  let main_v3 : IVec S_ 1 := (fun x v => Host.reduce IntOp.andi x v reducesTo_S8x256x64x64_S_d0_1_2_3 h_S_) main_v2 main_c
  let main_v4 : FVec F S8x256x64x64 .f32 := Host.absf main_arg1
  let main_cst_0 : FVec F S_ .f32 := constant S_ .f32 0x7F800000#32
  let main_v5 : FVec F S8x256x64x64 .f32 := broadcastInDim S8x256x64x64 ![] bcast_S_S8x256x64x64 main_cst_0
  let main_v6 : IVec S8x256x64x64 1 := cmpf .olt main_v4 main_v5
  let main_c_1 : IVec S_ 1 := constantI S_ 1 1#1
  let main_v7 : IVec S_ 1 := (fun x v => Host.reduce IntOp.andi x v reducesTo_S8x256x64x64_S_d0_1_2_3 h_S_) main_v6 main_c_1
  let main_v8 : IVec S_ 1 := andi main_v3 main_v7
  let main_v9 : FVec F S8x2x256x256 .f32 := Host.absf main_arg2
  let main_cst_2 : FVec F S_ .f32 := constant S_ .f32 0x7F800000#32
  let main_v10 : FVec F S8x2x256x256 .f32 := broadcastInDim S8x2x256x256 ![] bcast_S_S8x2x256x256 main_cst_2
  let main_v11 : IVec S8x2x256x256 1 := cmpf .olt main_v9 main_v10
  let main_c_3 : IVec S_ 1 := constantI S_ 1 1#1
  let main_v12 : IVec S_ 1 := (fun x v => Host.reduce IntOp.andi x v reducesTo_S8x2x256x256_S_d0_1_2_3 h_S_) main_v11 main_c_3
  let main_v13 : IVec S_ 1 := andi main_v8 main_v12
  let main_v14 : FVec F S8x2x256x256 .f32 := Host.absf main_arg3
  let main_cst_4 : FVec F S_ .f32 := constant S_ .f32 0x7F800000#32
  let main_v15 : FVec F S8x2x256x256 .f32 := broadcastInDim S8x2x256x256 ![] bcast_S_S8x2x256x256 main_cst_4
  let main_v16 : IVec S8x2x256x256 1 := cmpf .olt main_v14 main_v15
  fn_part1 (F := F) main_arg4 main_arg5 main_arg6 main_arg7 main_v13 main_v16
-- ==== Kernel.lean ====
abbrev S8x256x64x64 : Shape := ⟨4, ![8, 256, 64, 64]⟩
abbrev S8x2x256x256 : Shape := ⟨4, ![8, 2, 256, 256]⟩
abbrev S8x1x64x64 : Shape := ⟨4, ![8, 1, 64, 64]⟩
abbrev S8x256x32x128 : Shape := ⟨4, ![8, 256, 32, 128]⟩
abbrev S8x1x32x128 : Shape := ⟨4, ![8, 1, 32, 128]⟩
abbrev S8x2x1x128 : Shape := ⟨4, ![8, 2, 1, 128]⟩
abbrev S8x32x128 : Shape := ⟨3, ![8, 32, 128]⟩
abbrev S8x2x128 : Shape := ⟨3, ![8, 2, 128]⟩
abbrev S1x128x32x128 : Shape := ⟨4, ![1, 128, 32, 128]⟩
abbrev S1x1x32x128 : Shape := ⟨4, ![1, 1, 32, 128]⟩
abbrev S1x1x1x128 : Shape := ⟨4, ![1, 1, 1, 128]⟩
abbrev S1x32x128 : Shape := ⟨3, ![1, 32, 128]⟩
abbrev S1x2x128 : Shape := ⟨3, ![1, 2, 128]⟩
abbrev S32x128 : Shape := ⟨2, ![32, 128]⟩
abbrev S128x32x128 : Shape := ⟨3, ![128, 32, 128]⟩
abbrev S128x32 : Shape := ⟨2, ![128, 32]⟩
abbrev S128 : Shape := ⟨1, ![128]⟩
abbrev S1x128 : Shape := ⟨2, ![1, 128]⟩
abbrev S32 : Shape := ⟨1, ![32]⟩
abbrev S32x1 : Shape := ⟨2, ![32, 1]⟩
abbrev S1 : Shape := ⟨1, ![1]⟩
abbrev S1x1 : Shape := ⟨2, ![1, 1]⟩
abbrev S1x1x128 : Shape := ⟨3, ![1, 1, 128]⟩
abbrev S8x256 : Shape := ⟨2, ![8, 256]⟩
abbrev S8x1x1 : Shape := ⟨3, ![8, 1, 1]⟩
abbrev S8 : Shape := ⟨1, ![8]⟩
abbrev S_ : Shape := ⟨0, ![]⟩
abbrev S8x256x256 : Shape := ⟨3, ![8, 256, 256]⟩
abbrev S8x1x256x256 : Shape := ⟨4, ![8, 1, 256, 256]⟩

abbrev nBuf : Space → Nat
  | .hbm => 206
  | .vmem => 36
  | .smem => 0
  | _ => 0

abbrev hbmTy0_0 (i : Nat) : BufTy := match i % 128 with
  | 0 => ⟨S8x256x64x64, .f32⟩
  | 1 => ⟨S8x256x64x64, .f32⟩
  | 2 => ⟨S8x2x256x256, .f32⟩
  | 3 => ⟨S8x2x256x256, .f32⟩
  | 4 => ⟨S8x256x64x64, .f32⟩
  | 5 => ⟨S8x256x64x64, .f32⟩
  | 6 => ⟨S8x256x64x64, .f32⟩
  | 7 => ⟨S8x1x64x64, .f32⟩
  | 8 => ⟨S8x256x32x128, .f32⟩
  | 9 => ⟨S8x256x32x128, .f32⟩
  | 10 => ⟨S8x256x32x128, .f32⟩
  | 11 => ⟨S8x256x32x128, .f32⟩
  | 12 => ⟨S8x256x32x128, .f32⟩
  | 13 => ⟨S8x1x32x128, .f32⟩
  | 14 => ⟨S8x2x1x128, .f32⟩
  | 15 => ⟨S8x2x1x128, .f32⟩
  | 16 => ⟨S8x32x128, .f32⟩
  | 17 => ⟨S8x32x128, .f32⟩
  | 18 => ⟨S8x32x128, .f32⟩
  | 19 => ⟨S8x32x128, .f32⟩
  | 20 => ⟨S8x2x128, .f32⟩
  | 21 => ⟨S8x256, .f32⟩
  | 22 => ⟨S8x256, .f32⟩
  | 23 => ⟨S8x1x1, .f32⟩
  | 24 => ⟨S8, .f32⟩
  | 25 => ⟨S_, .f32⟩
  | 26 => ⟨S_, .f32⟩
  | 27 => ⟨S8x1x1, .f32⟩
  | 28 => ⟨S8, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S8x256, .f32⟩
  | 36 => ⟨S8x256, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S8x2x256x256, .f32⟩
  | 51 => ⟨S8x2x256x256, .f32⟩
  | 52 => ⟨S_, .f32⟩
  | 53 => ⟨S8x256x256, .f32⟩
  | 54 => ⟨S_, .f32⟩
  | 55 => ⟨S8x256x256, .f32⟩
  | 56 => ⟨S8x256x256, .f32⟩
  | 57 => ⟨S8x1x256x256, .f32⟩
  | 58 => ⟨S8x2x256x256, .f32⟩
  | 59 => ⟨S8x2x256x256, .f32⟩
  | 60 => ⟨S8x2x256x256, .f32⟩
  | 61 => ⟨S_, .f32⟩
  | 62 => ⟨S8x256x256, .f32⟩
  | 63 => ⟨S8x1x256x256, .f32⟩
  | 64 => ⟨S8x1x256x256, .f32⟩
  | 65 => ⟨S8x2x256x256, .f32⟩
  | 66 => ⟨S8x2x256x256, .f32⟩
  | 67 => ⟨S_, .f32⟩
  | 68 => ⟨S8x2x256x256, .f32⟩
  | 69 => ⟨S8x2x256x256, .f32⟩
  | 70 => ⟨S_, .f32⟩
  | 71 => ⟨S8x256x256, .f32⟩
  | 72 => ⟨S_, .f32⟩
  | 73 => ⟨S8x256x256, .f32⟩
  | 74 => ⟨S8x256x256, .f32⟩
  | 75 => ⟨S8x1x256x256, .f32⟩
  | 76 => ⟨S8x2x256x256, .f32⟩
  | 77 => ⟨S8x2x256x256, .f32⟩
  | 78 => ⟨S8x2x256x256, .f32⟩
  | 79 => ⟨S_, .f32⟩
  | 80 => ⟨S8x256x256, .f32⟩
  | 81 => ⟨S8x1x256x256, .f32⟩
  | 82 => ⟨S8x2x256x256, .f32⟩
  | 83 => ⟨S8x2x256x256, .f32⟩
  | 84 => ⟨S8x2x256x256, .f32⟩
  | 85 => ⟨S8x2x256x256, .f32⟩
  | 86 => ⟨S8x2x256x256, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S8x1x256x256, .f32⟩
  | 94 => ⟨S8x1x256x256, .f32⟩
  | 95 => ⟨S8x1x256x256, .f32⟩
  | 96 => ⟨S8x1x256x256, .f32⟩
  | 97 => ⟨S8x1x256x256, .f32⟩
  | 98 => ⟨S_, .f32⟩
  | 99 => ⟨S_, .f32⟩
  | 100 => ⟨S_, .f32⟩
  | 101 => ⟨S_, .f32⟩
  | 102 => ⟨S_, .f32⟩
  | 103 => ⟨S_, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S8x32x128, .f32⟩
  | 112 => ⟨S8x32x128, .i1⟩
  | 113 => ⟨S8x32x128, .f32⟩
  | 114 => ⟨S_, .f32⟩
  | 115 => ⟨S8x32x128, .f32⟩
  | 116 => ⟨S8x32x128, .f32⟩
  | 117 => ⟨S_, .f32⟩
  | 118 => ⟨S8x32x128, .f32⟩
  | 119 => ⟨S8x32x128, .f32⟩
  | 120 => ⟨S_, .f32⟩
  | 121 => ⟨S8x32x128, .f32⟩
  | 122 => ⟨S8x32x128, .f32⟩
  | 123 => ⟨S8x32x128, .f32⟩
  | 124 => ⟨S8x32x128, .f32⟩
  | 125 => ⟨S8x32x128, .f32⟩
  | 126 => ⟨S8x32x128, .f32⟩
  | 127 => ⟨S8x32x128, .f32⟩
  | _ => ⟨S8x256x64x64, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S8x256, .f32⟩
  | 5 => ⟨S8x256, .f32⟩
  | 6 => ⟨S_, .f32⟩
  | 7 => ⟨S8x256, .f32⟩
  | 8 => ⟨S8x256, .f32⟩
  | 9 => ⟨S_, .f32⟩
  | 10 => ⟨S8x256, .f32⟩
  | 11 => ⟨S8x256, .f32⟩
  | 12 => ⟨S8x256, .f32⟩
  | 13 => ⟨S8x256, .f32⟩
  | 14 => ⟨S_, .f32⟩
  | 15 => ⟨S8x256, .f32⟩
  | 16 => ⟨S8x256, .f32⟩
  | 17 => ⟨S_, .f32⟩
  | 18 => ⟨S8x256, .f32⟩
  | 19 => ⟨S8x256, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S8x32x128, .f32⟩
  | 29 => ⟨S8x32x128, .f32⟩
  | 30 => ⟨S_, .f32⟩
  | 31 => ⟨S8x32x128, .f32⟩
  | 32 => ⟨S8x32x128, .f32⟩
  | 33 => ⟨S8x32x128, .f32⟩
  | 34 => ⟨S8x32x128, .f32⟩
  | 35 => ⟨S8x32x128, .f32⟩
  | 36 => ⟨S8x32x128, .f32⟩
  | 37 => ⟨S_, .f32⟩
  | 38 => ⟨S_, .f32⟩
  | 39 => ⟨S_, .f32⟩
  | 40 => ⟨S_, .f32⟩
  | 41 => ⟨S8x256, .f32⟩
  | 42 => ⟨S8x256, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | _ => ⟨S8x256x64x64, .f32⟩

abbrev hbmTy (i : Nat) : BufTy := match i / 128 with
  | 0 => hbmTy0_0 i
  | 1 => hbmTy0_1 i
  | _ => ⟨S8x256x64x64, .f32⟩

abbrev bufTy : (tb : Table) → Fin (tcTables nBuf tb) → BufTy
  | .hbm, ⟨i, _⟩ => hbmTy i
  | .local _ .vmem, ⟨0, _⟩ => ⟨S1x128x32x128, .f32⟩
  | .local _ .vmem, ⟨1, _⟩ => ⟨S1x128x32x128, .f32⟩
  | .local _ .vmem, ⟨2, _⟩ => ⟨S1x128x32x128, .f32⟩
  | .local _ .vmem, ⟨3, _⟩ => ⟨S1x128x32x128, .f32⟩
  | .local _ .vmem, ⟨4, _⟩ => ⟨S1x128x32x128, .f32⟩
  | .local _ .vmem, ⟨5, _⟩ => ⟨S1x128x32x128, .f32⟩
  | .local _ .vmem, ⟨6, _⟩ => ⟨S1x128x32x128, .f32⟩
  | .local _ .vmem, ⟨7, _⟩ => ⟨S1x128x32x128, .f32⟩
  | .local _ .vmem, ⟨8, _⟩ => ⟨S1x128x32x128, .f32⟩
  | .local _ .vmem, ⟨9, _⟩ => ⟨S1x128x32x128, .f32⟩
  | .local _ .vmem, ⟨10, _⟩ => ⟨S1x1x32x128, .f32⟩
  | .local _ .vmem, ⟨11, _⟩ => ⟨S1x1x32x128, .f32⟩
  | .local _ .vmem, ⟨12, _⟩ => ⟨S1x1x1x128, .f32⟩
  | .local _ .vmem, ⟨13, _⟩ => ⟨S1x1x1x128, .f32⟩
  | .local _ .vmem, ⟨14, _⟩ => ⟨S1x1x1x128, .f32⟩
  | .local _ .vmem, ⟨15, _⟩ => ⟨S1x1x1x128, .f32⟩
  | .local _ .vmem, ⟨16, _⟩ => ⟨S1x32x128, .f32⟩
  | .local _ .vmem, ⟨17, _⟩ => ⟨S1x32x128, .f32⟩
  | .local _ .vmem, ⟨18, _⟩ => ⟨S1x32x128, .f32⟩
  | .local _ .vmem, ⟨19, _⟩ => ⟨S1x32x128, .f32⟩
  | .local _ .vmem, ⟨20, _⟩ => ⟨S1x32x128, .f32⟩
  | .local _ .vmem, ⟨21, _⟩ => ⟨S1x32x128, .f32⟩
  | .local _ .vmem, ⟨22, _⟩ => ⟨S1x32x128, .f32⟩
  | .local _ .vmem, ⟨23, _⟩ => ⟨S1x32x128, .f32⟩
  | .local _ .vmem, ⟨24, _⟩ => ⟨S1x2x128, .f32⟩
  | .local _ .vmem, ⟨25, _⟩ => ⟨S1x2x128, .f32⟩
  | .local _ .vmem, ⟨26, _⟩ => ⟨S32x128, .f32⟩
  | .local _ .vmem, ⟨27, _⟩ => ⟨S32x128, .f32⟩
  | .local _ .vmem, ⟨28, _⟩ => ⟨S32x128, .f32⟩
  | .local _ .vmem, ⟨29, _⟩ => ⟨S32x128, .f32⟩
  | .local _ .vmem, ⟨30, _⟩ => ⟨S32x128, .f32⟩
  | .local _ .vmem, ⟨31, _⟩ => ⟨S32x128, .f32⟩
  | .local _ .vmem, ⟨32, _⟩ => ⟨S32x128, .f32⟩
  | .local _ .vmem, ⟨33, _⟩ => ⟨S32x128, .f32⟩
  | .local _ .vmem, ⟨34, _⟩ => ⟨S32x128, .f32⟩
  | .local _ .vmem, ⟨35, _⟩ => ⟨S32x128, .f32⟩
  | _, _ => ⟨S8x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev main_v6_4 : Ref sig .tc := ⟨.hbm, 18, rfl⟩
abbrev main_v6_5 : Ref sig .tc := ⟨.hbm, 19, rfl⟩
abbrev main_v6_6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_0 : Ref sig .tc := ⟨.hbm, 29, rfl⟩
abbrev main_v14 : Ref sig .tc := ⟨.hbm, 30, rfl⟩
abbrev main_cst_1 : Ref sig .tc := ⟨.hbm, 31, rfl⟩
abbrev main_v15 : Ref sig .tc := ⟨.hbm, 32, rfl⟩
abbrev main_cst_2 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_3 : Ref sig .tc := ⟨.hbm, 37, rfl⟩
abbrev main_v19 : Ref sig .tc := ⟨.hbm, 38, rfl⟩
abbrev main_cst_4 : Ref sig .tc := ⟨.hbm, 39, rfl⟩
abbrev main_v20 : Ref sig .tc := ⟨.hbm, 40, rfl⟩
abbrev main_cst_5 : Ref sig .tc := ⟨.hbm, 41, rfl⟩
abbrev main_v21 : Ref sig .tc := ⟨.hbm, 42, rfl⟩
abbrev main_cst_6 : Ref sig .tc := ⟨.hbm, 43, rfl⟩
abbrev main_v22 : Ref sig .tc := ⟨.hbm, 44, rfl⟩
abbrev main_v23 : Ref sig .tc := ⟨.hbm, 45, rfl⟩
abbrev main_cst_7 : Ref sig .tc := ⟨.hbm, 46, rfl⟩
abbrev main_v24 : Ref sig .tc := ⟨.hbm, 47, rfl⟩
abbrev main_v25 : Ref sig .tc := ⟨.hbm, 48, rfl⟩
abbrev main_cst_8 : Ref sig .tc := ⟨.hbm, 49, rfl⟩
abbrev main_v26 : Ref sig .tc := ⟨.hbm, 50, rfl⟩
abbrev main_v27 : Ref sig .tc := ⟨.hbm, 51, rfl⟩
abbrev main_call0_cst : Ref sig .tc := ⟨.hbm, 52, rfl⟩
abbrev main_call0_v0 : Ref sig .tc := ⟨.hbm, 53, rfl⟩
abbrev main_call0_cst_0 : Ref sig .tc := ⟨.hbm, 54, rfl⟩
abbrev main_call0_v1 : Ref sig .tc := ⟨.hbm, 55, rfl⟩
abbrev main_call0_v2 : Ref sig .tc := ⟨.hbm, 56, rfl⟩
abbrev main_call0_v3 : Ref sig .tc := ⟨.hbm, 57, rfl⟩
abbrev main_call0_v4 : Ref sig .tc := ⟨.hbm, 58, rfl⟩
abbrev main_call0_v5 : Ref sig .tc := ⟨.hbm, 59, rfl⟩
abbrev main_call0_v6 : Ref sig .tc := ⟨.hbm, 60, rfl⟩
abbrev main_call0_cst_1 : Ref sig .tc := ⟨.hbm, 61, rfl⟩
abbrev main_call0_v7 : Ref sig .tc := ⟨.hbm, 62, rfl⟩
abbrev main_call0_v8 : Ref sig .tc := ⟨.hbm, 63, rfl⟩
abbrev main_call0_v9 : Ref sig .tc := ⟨.hbm, 64, rfl⟩
abbrev main_call0_v10 : Ref sig .tc := ⟨.hbm, 65, rfl⟩
abbrev main_v28 : Ref sig .tc := ⟨.hbm, 66, rfl⟩
abbrev main_cst_9 : Ref sig .tc := ⟨.hbm, 67, rfl⟩
abbrev main_v29 : Ref sig .tc := ⟨.hbm, 68, rfl⟩
abbrev main_v30 : Ref sig .tc := ⟨.hbm, 69, rfl⟩
abbrev main_cst_10 : Ref sig .tc := ⟨.hbm, 70, rfl⟩
abbrev main_v31 : Ref sig .tc := ⟨.hbm, 71, rfl⟩
abbrev main_cst_11 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_cst_12 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_cst_13 : Ref sig .tc := ⟨.hbm, 87, rfl⟩
abbrev main_v45 : Ref sig .tc := ⟨.hbm, 88, rfl⟩
abbrev main_cst_14 : Ref sig .tc := ⟨.hbm, 89, rfl⟩
abbrev main_v46 : Ref sig .tc := ⟨.hbm, 90, rfl⟩
abbrev main_cst_15 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_cst_16 : Ref sig .tc := ⟨.hbm, 98, rfl⟩
abbrev main_v53 : Ref sig .tc := ⟨.hbm, 99, rfl⟩
abbrev main_cst_17 : Ref sig .tc := ⟨.hbm, 100, rfl⟩
abbrev main_v54 : Ref sig .tc := ⟨.hbm, 101, rfl⟩
abbrev main_cst_18 : Ref sig .tc := ⟨.hbm, 102, rfl⟩
abbrev main_v55 : Ref sig .tc := ⟨.hbm, 103, rfl⟩
abbrev main_v56 : Ref sig .tc := ⟨.hbm, 104, rfl⟩
abbrev main_cst_19 : Ref sig .tc := ⟨.hbm, 105, rfl⟩
abbrev main_v57 : Ref sig .tc := ⟨.hbm, 106, rfl⟩
abbrev main_cst_20 : Ref sig .tc := ⟨.hbm, 107, rfl⟩
abbrev main_v58 : Ref sig .tc := ⟨.hbm, 108, rfl⟩
abbrev main_cst_21 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_cst_22 : Ref sig .tc := ⟨.hbm, 114, rfl⟩
abbrev main_v63 : Ref sig .tc := ⟨.hbm, 115, rfl⟩
abbrev main_v64 : Ref sig .tc := ⟨.hbm, 116, rfl⟩
abbrev main_cst_23 : Ref sig .tc := ⟨.hbm, 117, rfl⟩
abbrev main_v65 : Ref sig .tc := ⟨.hbm, 118, rfl⟩
abbrev main_v66 : Ref sig .tc := ⟨.hbm, 119, rfl⟩
abbrev main_cst_24 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_cst_25 : Ref sig .tc := ⟨.hbm, 128, rfl⟩
abbrev main_v74 : Ref sig .tc := ⟨.hbm, 129, rfl⟩
abbrev main_cst_26 : Ref sig .tc := ⟨.hbm, 130, rfl⟩
abbrev main_v75 : Ref sig .tc := ⟨.hbm, 131, rfl⟩
abbrev main_v76 : Ref sig .tc := ⟨.hbm, 132, rfl⟩
abbrev main_v77 : Ref sig .tc := ⟨.hbm, 133, rfl⟩
abbrev main_cst_27 : Ref sig .tc := ⟨.hbm, 134, rfl⟩
abbrev main_v78 : Ref sig .tc := ⟨.hbm, 135, rfl⟩
abbrev main_v79 : Ref sig .tc := ⟨.hbm, 136, rfl⟩
abbrev main_cst_28 : Ref sig .tc := ⟨.hbm, 137, rfl⟩
abbrev main_v80 : Ref sig .tc := ⟨.hbm, 138, rfl⟩
abbrev main_v81 : Ref sig .tc := ⟨.hbm, 139, rfl⟩
abbrev main_v82 : Ref sig .tc := ⟨.hbm, 140, rfl⟩
abbrev main_v83 : Ref sig .tc := ⟨.hbm, 141, rfl⟩
abbrev main_cst_29 : Ref sig .tc := ⟨.hbm, 142, rfl⟩
abbrev main_v84 : Ref sig .tc := ⟨.hbm, 143, rfl⟩
abbrev main_v85 : Ref sig .tc := ⟨.hbm, 144, rfl⟩
abbrev main_cst_30 : Ref sig .tc := ⟨.hbm, 145, rfl⟩
abbrev main_v86 : Ref sig .tc := ⟨.hbm, 146, rfl⟩
abbrev main_v87 : Ref sig .tc := ⟨.hbm, 147, rfl⟩
abbrev main_cst_31 : Ref sig .tc := ⟨.hbm, 148, rfl⟩
abbrev main_v88 : Ref sig .tc := ⟨.hbm, 149, rfl⟩
abbrev main_v89 : Ref sig .tc := ⟨.hbm, 150, rfl⟩
abbrev main_v90 : Ref sig .tc := ⟨.hbm, 151, rfl⟩
abbrev main_cst_32 : Ref sig .tc := ⟨.hbm, 152, rfl⟩
abbrev main_v91 : Ref sig .tc := ⟨.hbm, 153, rfl⟩
abbrev main_cst_33 : Ref sig .tc := ⟨.hbm, 154, rfl⟩
abbrev main_v92 : Ref sig .tc := ⟨.hbm, 155, rfl⟩
abbrev main_v93 : Ref sig .tc := ⟨.hbm, 156, rfl⟩
abbrev main_v94 : Ref sig .tc := ⟨.hbm, 157, rfl⟩
abbrev main_cst_34 : Ref sig .tc := ⟨.hbm, 158, rfl⟩
abbrev main_v95 : Ref sig .tc := ⟨.hbm, 159, rfl⟩
abbrev main_v96 : Ref sig .tc := ⟨.hbm, 160, rfl⟩
abbrev main_v97 : Ref sig .tc := ⟨.hbm, 161, rfl⟩
abbrev main_v98 : Ref sig .tc := ⟨.hbm, 162, rfl⟩
abbrev main_v99 : Ref sig .tc := ⟨.hbm, 163, rfl⟩
abbrev main_v100 : Ref sig .tc := ⟨.hbm, 164, rfl⟩
abbrev main_cst_35 : Ref sig .tc := ⟨.hbm, 165, rfl⟩
abbrev main_v101 : Ref sig .tc := ⟨.hbm, 166, rfl⟩
abbrev main_cst_36 : Ref sig .tc := ⟨.hbm, 167, rfl⟩
abbrev main_v102 : Ref sig .tc := ⟨.hbm, 168, rfl⟩
abbrev main_v103 : Ref sig .tc := ⟨.hbm, 169, rfl⟩
abbrev main_v104 : Ref sig .tc := ⟨.hbm, 170, rfl⟩
abbrev main_cst_37 : Ref sig .tc := ⟨.hbm, 171, rfl⟩
abbrev main_v105 : Ref sig .tc := ⟨.hbm, 172, rfl⟩
abbrev main_cst_38 : Ref sig .tc := ⟨.hbm, 173, rfl⟩
abbrev main_v106 : Ref sig .tc := ⟨.hbm, 174, rfl⟩
abbrev main_cst_39 : Ref sig .tc := ⟨.hbm, 175, rfl⟩
abbrev main_v107 : Ref sig .tc := ⟨.hbm, 176, rfl⟩
abbrev main_cst_40 : Ref sig .tc := ⟨.hbm, 177, rfl⟩
abbrev main_v108 : Ref sig .tc := ⟨.hbm, 178, rfl⟩
abbrev main_cst_41 : Ref sig .tc := ⟨.hbm, 179, rfl⟩
abbrev main_v109 : Ref sig .tc := ⟨.hbm, 180, rfl⟩
abbrev main_cst_42 : Ref sig .tc := ⟨.hbm, 181, rfl⟩
abbrev main_v110 : Ref sig .tc := ⟨.hbm, 182, rfl⟩
abbrev main_cst_43 : Ref sig .tc := ⟨.hbm, 183, rfl⟩
abbrev main_v111 : Ref sig .tc := ⟨.hbm, 184, rfl⟩
abbrev main_cst_44 : Ref sig .tc := ⟨.hbm, 185, rfl⟩
abbrev main_v112 : Ref sig .tc := ⟨.hbm, 186, rfl⟩
abbrev main_cst_45 : Ref sig .tc := ⟨.hbm, 187, rfl⟩
abbrev main_v113 : Ref sig .tc := ⟨.hbm, 188, rfl⟩
abbrev main_cst_46 : Ref sig .tc := ⟨.hbm, 189, rfl⟩
abbrev main_v114 : Ref sig .tc := ⟨.hbm, 190, rfl⟩
abbrev main_cst_47 : Ref sig .tc := ⟨.hbm, 191, rfl⟩
abbrev main_v115 : Ref sig .tc := ⟨.hbm, 192, rfl⟩
abbrev main_v116 : Ref sig .tc := ⟨.hbm, 193, rfl⟩
abbrev main_v117 : Ref sig .tc := ⟨.hbm, 194, rfl⟩
abbrev main_v118 : Ref sig .tc := ⟨.hbm, 195, rfl⟩
abbrev main_v119 : Ref sig .tc := ⟨.hbm, 196, rfl⟩
abbrev main_v120 : Ref sig .tc := ⟨.hbm, 197, rfl⟩
abbrev main_cst_48 : Ref sig .tc := ⟨.hbm, 198, rfl⟩
abbrev main_v121 : Ref sig .tc := ⟨.hbm, 199, rfl⟩
abbrev main_cst_49 : Ref sig .tc := ⟨.hbm, 200, rfl⟩
abbrev main_v122 : Ref sig .tc := ⟨.hbm, 201, rfl⟩
abbrev main_v123 : Ref sig .tc := ⟨.hbm, 202, rfl⟩
abbrev main_cst_50 : Ref sig .tc := ⟨.hbm, 203, rfl⟩
abbrev main_v124 : Ref sig .tc := ⟨.hbm, 204, rfl⟩
abbrev main_v125 : Ref sig .tc := ⟨.hbm, 205, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_scratch4 : Ref sig .tc := ⟨.vmem, 30, rfl⟩
abbrev cc0_scratch5 : Ref sig .tc := ⟨.vmem, 31, rfl⟩
abbrev cc0_scratch6 : Ref sig .tc := ⟨.vmem, 32, rfl⟩
abbrev cc0_scratch7 : Ref sig .tc := ⟨.vmem, 33, rfl⟩
abbrev cc0_scratch8 : Ref sig .tc := ⟨.vmem, 34, rfl⟩
abbrev cc0_scratch9 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![8, 2], ![false, false]⟩

def k0_cond2 (i : grid0.Coords) : BitVec 1 :=
  let arg1 : BitVec 32 := BitVec.ofNat 32 (i 1).val
  let c1_i32 : BitVec 32 := 1#32
  let v115 : BitVec 1 := Scalar.cmpi .eq arg1 c1_i32
  let v116 : BitVec 32 := Scalar.extui v115
  let c0_i32_89 : BitVec 32 := 0#32
  let v117 : BitVec 1 := Scalar.cmpi .ne v116 c0_i32_89
  v117

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x32x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x32x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x32x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x32x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x32x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x32x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x2x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

class Facts₀ : Prop where
  shapeCasts_S8x256x64x64_S8x256x32x128 : S8x256x64x64.ShapeCasts S8x256x32x128
  shapeCasts_S8x1x64x64_S8x1x32x128 : S8x1x64x64.ShapeCasts S8x1x32x128
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S1x128x32x128_S1x128x32x128_0_0_0_0 : ∀ a, (![0, 0, 0, 0] : Fin 4 → Nat) a + S1x128x32x128.size a ≤ S1x128x32x128.size a
  h_S1x128x32x128 : 0 < S1x128x32x128.numel
  shapeCasts_S1x128x32x128_S128x32x128 : S1x128x32x128.ShapeCasts S128x32x128
  inb_S1x1x32x128_S1x1x32x128_0_0_0_0 : ∀ a, (![0, 0, 0, 0] : Fin 4 → Nat) a + S1x1x32x128.size a ≤ S1x1x32x128.size a
  h_S1x1x32x128 : 0 < S1x1x32x128.numel
  shapeCasts_S1x1x32x128_S32x128 : S1x1x32x128.ShapeCasts S32x128
  reduces_S128x32x128_S128x32 : S128x32x128.Reduces [2] S128x32
  reduces_S128x32_S128 : S128x32.Reduces [1] S128
  shapeCasts_S128_S1x128 : S128.ShapeCasts S1x128
  inb_S1x1x1x128_S1x1x1x128_0_0_0_0 : ∀ a, (![0, 0, 0, 0] : Fin 4 → Nat) a + S1x1x1x128.size a ≤ S1x1x1x128.size a
  h_S1x1x1x128 : 0 < S1x1x1x128.numel
  shapeCasts_S1x1x1x128_S1x128 : S1x1x1x128.ShapeCasts S1x128
  shapeCasts_S1x128_S1x1x1x128 : S1x128.ShapeCasts S1x1x1x128
  reduces_S128x32x128_S32x128 : S128x32x128.Reduces [0] S32x128
  shapeCasts_S32x128_S1x32x128 : S32x128.ShapeCasts S1x32x128
  broadcasts_S1x32x128_S128x32x128 : S1x32x128.Broadcasts S128x32x128
  inb_S1x32x128_S1x32x128_0_0_0 : ∀ a, (![0, 0, 0] : Fin 3 → Nat) a + S1x32x128.size a ≤ S1x32x128.size a
  h_S1x32x128 : 0 < S1x32x128.numel
  shapeCasts_S1x32x128_S32x128 : S1x32x128.ShapeCasts S32x128
  reduces_S32x128_S32 : S32x128.Reduces [1] S32
  shapeCasts_S32_S32x1 : S32.ShapeCasts S32x1
  reduces_S32x1_S1 : S32x1.Reduces [0] S1
  shapeCasts_S1_S1x1 : S1.ShapeCasts S1x1
  inpos_S1x1_p0_0 : ∀ a, (![0, 0] : Fin 2 → Nat) a < S1x1.size a
  inb_S1x2x128_S1x1x128_0_0_0 : ∀ a, (![0, 0, 0] : Fin 3 → Nat) a + S1x1x128.size a ≤ S1x2x128.size a
  h_S1x1x128 : 0 < S1x1x128.numel
  shapeCasts_S1x1x128_S128 : S1x1x128.ShapeCasts S128
  shapeCasts_S128_S1x1x128 : S128.ShapeCasts S1x1x128
  inb_S1x2x128_S1x1x128_0_1_0 : ∀ a, (![0, 1, 0] : Fin 3 → Nat) a + S1x1x128.size a ≤ S1x2x128.size a
  shapeCasts_S8x2x1x128_S8x256 : S8x2x1x128.ShapeCasts S8x256
  slices_S8x2x128_S8x1x1_0_0_0 : S8x2x128.Slices ![0, 0, 0] S8x1x1
  shapeCasts_S8x1x1_S8 : S8x1x1.ShapeCasts S8
  reducesTo_S8_S_d0 : S8.ReducesTo [0] S_
  h_S_ : 0 < S_.numel
  slices_S8x2x128_S8x1x1_0_1_0 : S8x2x128.Slices ![0, 1, 0] S8x1x1
  reducesTo_S8x256_S_d0_1 : S8x256.ReducesTo [0, 1] S_
  bcast_S_S8x2x256x256 : S_.BroadcastsInDim S8x2x256x256 (![] : Fin 0 → Fin S8x2x256x256.rank)
  reducesTo_S8x2x256x256_S8x256x256_d1 : S8x2x256x256.ReducesTo [1] S8x256x256
  bcast_S_S8x256x256 : S_.BroadcastsInDim S8x256x256 (![] : Fin 0 → Fin S8x256x256.rank)
  bcast_S8x256x256_S8x1x256x256_0_2_3 : S8x256x256.BroadcastsInDim S8x1x256x256 (![0, 2, 3] : Fin 3 → Fin S8x1x256x256.rank)
  bcast_S8x1x256x256_S8x2x256x256_0_1_2_3 : S8x1x256x256.BroadcastsInDim S8x2x256x256 (![0, 1, 2, 3] : Fin 4 → Fin S8x2x256x256.rank)
  reducesTo_S8x2x256x256_S_d0_1_2_3 : S8x2x256x256.ReducesTo [0, 1, 2, 3] S_
  slices_S8x2x256x256_S8x1x256x256_0_1_0_0 : S8x2x256x256.Slices ![0, 1, 0, 0] S8x1x256x256
  reducesTo_S8x1x256x256_S_d0_1_2_3 : S8x1x256x256.ReducesTo [0, 1, 2, 3] S_
  reducesTo_S8x32x128_S_d0_1_2 : S8x32x128.ReducesTo [0, 1, 2] S_
  bcast_S_S8x32x128 : S_.BroadcastsInDim S8x32x128 (![] : Fin 0 → Fin S8x32x128.rank)
  bcast_S_S8x256 : S_.BroadcastsInDim S8x256 (![] : Fin 0 → Fin S8x256.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x32x128.size a ≤ S8x256x32x128.size a
  hwx0_0 : ∀ i : grid0.Coords, EltTy.bits .f32 = 32 ∨ (Rect.block (s := S8x256x32x128) S1x128x32x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x32x128.size a ≤ S8x256x32x128.size a
  hwx0_1 : ∀ i : grid0.Coords, EltTy.bits .f32 = 32 ∨ (Rect.block (s := S8x256x32x128) S1x128x32x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x32x128.size a ≤ S8x256x32x128.size a
  hwx0_2 : ∀ i : grid0.Coords, EltTy.bits .f32 = 32 ∨ (Rect.block (s := S8x256x32x128) S1x128x32x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x32x128.size a ≤ S8x256x32x128.size a
  hwx0_3 : ∀ i : grid0.Coords, EltTy.bits .f32 = 32 ∨ (Rect.block (s := S8x256x32x128) S1x128x32x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x32x128.size a ≤ S8x256x32x128.size a
  hwx0_4 : ∀ i : grid0.Coords, EltTy.bits .f32 = 32 ∨ (Rect.block (s := S8x256x32x128) S1x128x32x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x32x128.size a ≤ S8x1x32x128.size a
  hwx0_5 : ∀ i : grid0.Coords, EltTy.bits .f32 = 32 ∨ (Rect.block (s := S8x1x32x128) S1x1x32x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x1x128.size a ≤ S8x2x1x128.size a
  hwx0_6 : ∀ i : grid0.Coords, EltTy.bits .f32 = 32 ∨ (Rect.block (s := S8x2x1x128) S1x1x1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x1x128.size a ≤ S8x2x1x128.size a
  hwx0_7 : ∀ i : grid0.Coords, EltTy.bits .f32 = 32 ∨ (Rect.block (s := S8x2x1x128) S1x1x1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x32x128.size a ≤ S8x32x128.size a
  hwx0_8 : ∀ i : grid0.Coords, EltTy.bits .f32 = 32 ∨ (Rect.block (s := S8x32x128) S1x32x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x32x128.size a ≤ S8x32x128.size a
  hwx0_9 : ∀ i : grid0.Coords, EltTy.bits .f32 = 32 ∨ (Rect.block (s := S8x32x128) S1x32x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x32x128.size a ≤ S8x32x128.size a
  hwx0_10 : ∀ i : grid0.Coords, EltTy.bits .f32 = 32 ∨ (Rect.block (s := S8x32x128) S1x32x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x32x128.size a ≤ S8x32x128.size a
  hwx0_11 : ∀ i : grid0.Coords, EltTy.bits .f32 = 32 ∨ (Rect.block (s := S8x32x128) S1x32x128.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x2x128.size a ≤ S8x2x128.size a
  hwx0_12 : ∀ i : grid0.Coords, EltTy.bits .f32 = 32 ∨ (Rect.block (s := S8x2x128) S1x2x128.size (cc0_transform_12 i) (hinb0_12 i)).WholeWords (EltTy.packing .f32)

variable [Facts₀]

abbrev win0_0 : Pipeline.Window sig grid0 :=
  Pipeline.Window.ofSpec (Memref.whole main_v0) S1x128x32x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x128x32x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x128x32x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x128x32x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x128x32x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x1x32x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6_0) S1x1x1x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v6_1) S1x1x1x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v6_2) S1x32x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v6_3) S1x32x128.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v6_4) S1x32x128.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v6_5) S1x32x128.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v6_6) S1x2x128.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev idle0 : Fin 13 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | 9 => fun i => !(k0_cond2 i == 1#1) | 10 => fun i => !(k0_cond2 i == 1#1) | 11 => fun i => !(k0_cond2 i == 1#1) | 12 => fun i => !(k0_cond2 i == 1#1) | ⟨_ + 13, h⟩ => absurd h (Nat.not_lt.2 (Nat.le_add_left _ _))

class Facts : Prop extends Facts₀ where

variable [Facts]
-- ==== ReferenceIdeal.lean ====
abbrev S8x256x64x64 : Shape := ⟨4, ![8, 256, 64, 64]⟩
abbrev S8x2x256x256 : Shape := ⟨4, ![8, 2, 256, 256]⟩
abbrev S8x1x64x64 : Shape := ⟨4, ![8, 1, 64, 64]⟩
abbrev S_ : Shape := ⟨0, ![]⟩
abbrev S8x256 : Shape := ⟨2, ![8, 256]⟩
abbrev S8x256x1x1 : Shape := ⟨4, ![8, 256, 1, 1]⟩
abbrev S8x256x256 : Shape := ⟨3, ![8, 256, 256]⟩
abbrev S8x1x256x256 : Shape := ⟨4, ![8, 1, 256, 256]⟩
abbrev S8x64x64 : Shape := ⟨3, ![8, 64, 64]⟩

abbrev nBuf : Space → Nat
  | .hbm => 337
  | .vmem => 0
  | .smem => 0
  | _ => 0

abbrev hbmTy0_0 (i : Nat) : BufTy := match i % 128 with
  | 0 => ⟨S8x256x64x64, .f32⟩
  | 1 => ⟨S8x256x64x64, .f32⟩
  | 2 => ⟨S8x2x256x256, .f32⟩
  | 3 => ⟨S8x2x256x256, .f32⟩
  | 4 => ⟨S8x256x64x64, .f32⟩
  | 5 => ⟨S8x256x64x64, .f32⟩
  | 6 => ⟨S8x256x64x64, .f32⟩
  | 7 => ⟨S8x1x64x64, .f32⟩
  | 8 => ⟨S8x256x64x64, .f32⟩
  | 9 => ⟨S8x256x64x64, .f32⟩
  | 10 => ⟨S_, .f32⟩
  | 11 => ⟨S_, .f32⟩
  | 12 => ⟨S_, .f32⟩
  | 13 => ⟨S_, .f32⟩
  | 14 => ⟨S8x256x64x64, .f32⟩
  | 15 => ⟨S8x256x64x64, .f32⟩
  | 16 => ⟨S8x256x64x64, .f32⟩
  | 17 => ⟨S8x256x64x64, .f32⟩
  | 18 => ⟨S8x256x64x64, .f32⟩
  | 19 => ⟨S8x256x64x64, .f32⟩
  | 20 => ⟨S_, .f32⟩
  | 21 => ⟨S_, .f32⟩
  | 22 => ⟨S_, .f32⟩
  | 23 => ⟨S_, .f32⟩
  | 24 => ⟨S_, .f32⟩
  | 25 => ⟨S8x256, .f32⟩
  | 26 => ⟨S8x256x1x1, .f32⟩
  | 27 => ⟨S_, .f32⟩
  | 28 => ⟨S8x256x1x1, .f32⟩
  | 29 => ⟨S8x256x1x1, .f32⟩
  | 30 => ⟨S_, .f32⟩
  | 31 => ⟨S8x256, .f32⟩
  | 32 => ⟨S8x256x1x1, .f32⟩
  | 33 => ⟨S_, .f32⟩
  | 34 => ⟨S8x256x1x1, .f32⟩
  | 35 => ⟨S8x256x1x1, .f32⟩
  | 36 => ⟨S8x256x1x1, .f32⟩
  | 37 => ⟨S8x256x1x1, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S8x2x256x256, .f32⟩
  | 52 => ⟨S8x2x256x256, .f32⟩
  | 53 => ⟨S_, .f32⟩
  | 54 => ⟨S8x256x256, .f32⟩
  | 55 => ⟨S_, .f32⟩
  | 56 => ⟨S8x256x256, .f32⟩
  | 57 => ⟨S8x256x256, .f32⟩
  | 58 => ⟨S8x1x256x256, .f32⟩
  | 59 => ⟨S8x2x256x256, .f32⟩
  | 60 => ⟨S8x2x256x256, .f32⟩
  | 61 => ⟨S8x2x256x256, .f32⟩
  | 62 => ⟨S_, .f32⟩
  | 63 => ⟨S8x256x256, .f32⟩
  | 64 => ⟨S8x1x256x256, .f32⟩
  | 65 => ⟨S8x1x256x256, .f32⟩
  | 66 => ⟨S8x2x256x256, .f32⟩
  | 67 => ⟨S8x2x256x256, .f32⟩
  | 68 => ⟨S_, .f32⟩
  | 69 => ⟨S8x2x256x256, .f32⟩
  | 70 => ⟨S8x2x256x256, .f32⟩
  | 71 => ⟨S_, .f32⟩
  | 72 => ⟨S8x256x256, .f32⟩
  | 73 => ⟨S_, .f32⟩
  | 74 => ⟨S8x256x256, .f32⟩
  | 75 => ⟨S8x256x256, .f32⟩
  | 76 => ⟨S8x1x256x256, .f32⟩
  | 77 => ⟨S8x2x256x256, .f32⟩
  | 78 => ⟨S8x2x256x256, .f32⟩
  | 79 => ⟨S8x2x256x256, .f32⟩
  | 80 => ⟨S_, .f32⟩
  | 81 => ⟨S8x256x256, .f32⟩
  | 82 => ⟨S8x1x256x256, .f32⟩
  | 83 => ⟨S8x2x256x256, .f32⟩
  | 84 => ⟨S8x2x256x256, .f32⟩
  | 85 => ⟨S8x2x256x256, .f32⟩
  | 86 => ⟨S8x2x256x256, .f32⟩
  | 87 => ⟨S8x2x256x256, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S8x1x256x256, .f32⟩
  | 95 => ⟨S8x1x256x256, .f32⟩
  | 96 => ⟨S8x1x256x256, .f32⟩
  | 97 => ⟨S8x1x256x256, .f32⟩
  | 98 => ⟨S8x1x256x256, .f32⟩
  | 99 => ⟨S_, .f32⟩
  | 100 => ⟨S_, .f32⟩
  | 101 => ⟨S_, .f32⟩
  | 102 => ⟨S_, .f32⟩
  | 103 => ⟨S_, .f32⟩
  | 104 => ⟨S_, .f32⟩
  | 105 => ⟨S_, .f32⟩
  | 106 => ⟨S8x256x64x64, .f32⟩
  | 107 => ⟨S8x256x64x64, .f32⟩
  | 108 => ⟨S_, .f32⟩
  | 109 => ⟨S8x64x64, .f32⟩
  | 110 => ⟨S8x1x64x64, .f32⟩
  | 111 => ⟨S_, .f32⟩
  | 112 => ⟨S8x1x64x64, .f32⟩
  | 113 => ⟨S8x1x64x64, .f32⟩
  | 114 => ⟨S8x1x64x64, .f32⟩
  | 115 => ⟨S8x256x64x64, .f32⟩
  | 116 => ⟨S8x256x64x64, .f32⟩
  | 117 => ⟨S8x256x64x64, .f32⟩
  | 118 => ⟨S8x256x64x64, .f32⟩
  | 119 => ⟨S_, .f32⟩
  | 120 => ⟨S8x256x64x64, .f32⟩
  | 121 => ⟨S8x256x64x64, .f32⟩
  | 122 => ⟨S8x256x64x64, .f32⟩
  | 123 => ⟨S_, .f32⟩
  | 124 => ⟨S8x64x64, .f32⟩
  | 125 => ⟨S8x1x64x64, .f32⟩
  | 126 => ⟨S_, .f32⟩
  | 127 => ⟨S8x1x64x64, .f32⟩
  | _ => ⟨S8x256x64x64, .f32⟩

abbrev hbmTy0_1 (i : Nat) : BufTy := match i % 128 with
  | 0 => ⟨S8x1x64x64, .f32⟩
  | 1 => ⟨S_, .f32⟩
  | 2 => ⟨S8x1x64x64, .f32⟩
  | 3 => ⟨S8x1x64x64, .f32⟩
  | 4 => ⟨S8x1x64x64, .f32⟩
  | 5 => ⟨S_, .f32⟩
  | 6 => ⟨S8x1x64x64, .f32⟩
  | 7 => ⟨S8x1x64x64, .f32⟩
  | 8 => ⟨S8x1x64x64, .f32⟩
  | 9 => ⟨S8x1x64x64, .f32⟩
  | 10 => ⟨S_, .f32⟩
  | 11 => ⟨S8x1x64x64, .f32⟩
  | 12 => ⟨S8x1x64x64, .f32⟩
  | 13 => ⟨S_, .f32⟩
  | 14 => ⟨S8x1x64x64, .f32⟩
  | 15 => ⟨S8x1x64x64, .f32⟩
  | 16 => ⟨S8x1x64x64, .f32⟩
  | 17 => ⟨S8x256x64x64, .f32⟩
  | 18 => ⟨S8x256x64x64, .f32⟩
  | 19 => ⟨S_, .f32⟩
  | 20 => ⟨S8x64x64, .f32⟩
  | 21 => ⟨S8x1x64x64, .f32⟩
  | 22 => ⟨S_, .f32⟩
  | 23 => ⟨S8x1x64x64, .f32⟩
  | 24 => ⟨S8x1x64x64, .f32⟩
  | 25 => ⟨S8x1x64x64, .f32⟩
  | 26 => ⟨S8x256x64x64, .f32⟩
  | 27 => ⟨S8x256x64x64, .f32⟩
  | 28 => ⟨S8x256x64x64, .f32⟩
  | 29 => ⟨S8x256x64x64, .f32⟩
  | 30 => ⟨S_, .f32⟩
  | 31 => ⟨S8x256x64x64, .f32⟩
  | 32 => ⟨S8x256x64x64, .f32⟩
  | 33 => ⟨S8x256x64x64, .f32⟩
  | 34 => ⟨S_, .f32⟩
  | 35 => ⟨S8x64x64, .f32⟩
  | 36 => ⟨S8x1x64x64, .f32⟩
  | 37 => ⟨S_, .f32⟩
  | 38 => ⟨S8x1x64x64, .f32⟩
  | 39 => ⟨S8x1x64x64, .f32⟩
  | 40 => ⟨S_, .f32⟩
  | 41 => ⟨S8x1x64x64, .f32⟩
  | 42 => ⟨S8x1x64x64, .f32⟩
  | 43 => ⟨S8x1x64x64, .f32⟩
  | 44 => ⟨S_, .f32⟩
  | 45 => ⟨S8x1x64x64, .f32⟩
  | 46 => ⟨S8x1x64x64, .f32⟩
  | 47 => ⟨S8x1x64x64, .f32⟩
  | 48 => ⟨S8x1x64x64, .f32⟩
  | 49 => ⟨S_, .f32⟩
  | 50 => ⟨S8x1x64x64, .f32⟩
  | 51 => ⟨S8x1x64x64, .f32⟩
  | 52 => ⟨S_, .f32⟩
  | 53 => ⟨S8x1x64x64, .f32⟩
  | 54 => ⟨S8x1x64x64, .f32⟩
  | 55 => ⟨S8x1x64x64, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S8x1x64x64, .f32⟩
  | 63 => ⟨S8x1x64x64, .i1⟩
  | 64 => ⟨S8x1x64x64, .f32⟩
  | 65 => ⟨S_, .f32⟩
  | 66 => ⟨S8x1x64x64, .f32⟩
  | 67 => ⟨S8x1x64x64, .f32⟩
  | 68 => ⟨S_, .f32⟩
  | 69 => ⟨S8x1x64x64, .f32⟩
  | 70 => ⟨S8x1x64x64, .f32⟩
  | 71 => ⟨S_, .f32⟩
  | 72 => ⟨S8x1x64x64, .f32⟩
  | 73 => ⟨S8x1x64x64, .f32⟩
  | 74 => ⟨S8x1x64x64, .f32⟩
  | 75 => ⟨S8x1x64x64, .f32⟩
  | 76 => ⟨S8x1x64x64, .f32⟩
  | 77 => ⟨S8x1x64x64, .f32⟩
  | 78 => ⟨S8x1x64x64, .f32⟩
  | 79 => ⟨S_, .f32⟩
  | 80 => ⟨S_, .f32⟩
  | 81 => ⟨S_, .f32⟩
  | 82 => ⟨S_, .f32⟩
  | 83 => ⟨S_, .f32⟩
  | 84 => ⟨S8x256, .f32⟩
  | 85 => ⟨S8x256x1x1, .f32⟩
  | 86 => ⟨S_, .f32⟩
  | 87 => ⟨S8x256x1x1, .f32⟩
  | 88 => ⟨S8x256x1x1, .f32⟩
  | 89 => ⟨S8x256x1x1, .f32⟩
  | 90 => ⟨S8x256x1x1, .f32⟩
  | 91 => ⟨S_, .f32⟩
  | 92 => ⟨S8x256x1x1, .f32⟩
  | 93 => ⟨S8x256x1x1, .f32⟩
  | 94 => ⟨S_, .f32⟩
  | 95 => ⟨S8x256x1x1, .f32⟩
  | 96 => ⟨S8x256x1x1, .f32⟩
  | 97 => ⟨S_, .f32⟩
  | 98 => ⟨S8x64x64, .f32⟩
  | 99 => ⟨S8x1x64x64, .f32⟩
  | 100 => ⟨S_, .f32⟩
  | 101 => ⟨S8x1x64x64, .f32⟩
  | 102 => ⟨S8x1x64x64, .f32⟩
  | 103 => ⟨S_, .f32⟩
  | 104 => ⟨S8x64x64, .f32⟩
  | 105 => ⟨S8x1x64x64, .f32⟩
  | 106 => ⟨S8x1x64x64, .f32⟩
  | 107 => ⟨S8x1x64x64, .f32⟩
  | 108 => ⟨S8x1x64x64, .f32⟩
  | 109 => ⟨S_, .f32⟩
  | 110 => ⟨S8x1x64x64, .f32⟩
  | 111 => ⟨S8x1x64x64, .f32⟩
  | 112 => ⟨S_, .f32⟩
  | 113 => ⟨S8x1x64x64, .f32⟩
  | 114 => ⟨S8x1x64x64, .f32⟩
  | 115 => ⟨S_, .f32⟩
  | 116 => ⟨S8x256, .f32⟩
  | 117 => ⟨S8x256x1x1, .f32⟩
  | 118 => ⟨S_, .f32⟩
  | 119 => ⟨S8x256x1x1, .f32⟩
  | 120 => ⟨S8x256x1x1, .f32⟩
  | 121 => ⟨S8x256x1x1, .f32⟩
  | 122 => ⟨S8x256x1x1, .f32⟩
  | 123 => ⟨S_, .f32⟩
  | 124 => ⟨S8x256x1x1, .f32⟩
  | 125 => ⟨S8x256x1x1, .f32⟩
  | 126 => ⟨S_, .f32⟩
  | 127 => ⟨S8x256x1x1, .f32⟩
  | _ => ⟨S8x256x64x64, .f32⟩

abbrev hbmTy0_2 (i : Nat) : BufTy := match i % 128 with
  | 0 => ⟨S8x256x1x1, .f32⟩
  | 1 => ⟨S_, .f32⟩
  | 2 => ⟨S8x64x64, .f32⟩
  | 3 => ⟨S8x1x64x64, .f32⟩
  | 4 => ⟨S_, .f32⟩
  | 5 => ⟨S8x1x64x64, .f32⟩
  | 6 => ⟨S8x1x64x64, .f32⟩
  | 7 => ⟨S_, .f32⟩
  | 8 => ⟨S8x64x64, .f32⟩
  | 9 => ⟨S8x1x64x64, .f32⟩
  | 10 => ⟨S8x1x64x64, .f32⟩
  | 11 => ⟨S8x1x64x64, .f32⟩
  | 12 => ⟨S8x1x64x64, .f32⟩
  | 13 => ⟨S_, .f32⟩
  | 14 => ⟨S8x1x64x64, .f32⟩
  | 15 => ⟨S8x1x64x64, .f32⟩
  | 16 => ⟨S_, .f32⟩
  | 17 => ⟨S8x1x64x64, .f32⟩
  | 18 => ⟨S8x1x64x64, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S8x1x64x64, .f32⟩
  | 32 => ⟨S8x1x64x64, .f32⟩
  | 33 => ⟨S_, .f32⟩
  | 34 => ⟨S8x1x64x64, .f32⟩
  | 35 => ⟨S8x1x64x64, .f32⟩
  | 36 => ⟨S8x1x64x64, .f32⟩
  | 37 => ⟨S8x1x64x64, .f32⟩
  | 38 => ⟨S8x1x64x64, .f32⟩
  | 39 => ⟨S8x1x64x64, .f32⟩
  | 40 => ⟨S_, .f32⟩
  | 41 => ⟨S_, .f32⟩
  | 42 => ⟨S_, .f32⟩
  | 43 => ⟨S_, .f32⟩
  | 44 => ⟨S8x256x1x1, .f32⟩
  | 45 => ⟨S8x256x1x1, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | _ => ⟨S8x256x64x64, .f32⟩

abbrev hbmTy (i : Nat) : BufTy := match i / 128 with
  | 0 => hbmTy0_0 i
  | 1 => hbmTy0_1 i
  | 2 => hbmTy0_2 i
  | _ => ⟨S8x256x64x64, .f32⟩

abbrev bufTy : (tb : Table) → Fin (tcTables nBuf tb) → BufTy
  | .hbm, ⟨i, _⟩ => hbmTy i
  | _, _ => ⟨S8x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_cst_4 : Ref sig .tc := ⟨.hbm, 27, rfl⟩
abbrev main_v14 : Ref sig .tc := ⟨.hbm, 28, rfl⟩
abbrev main_v15 : Ref sig .tc := ⟨.hbm, 29, rfl⟩
abbrev main_cst_5 : Ref sig .tc := ⟨.hbm, 30, rfl⟩
abbrev main_v16 : Ref sig .tc := ⟨.hbm, 31, rfl⟩
abbrev main_v17 : Ref sig .tc := ⟨.hbm, 32, rfl⟩
abbrev main_cst_6 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_7 : Ref sig .tc := ⟨.hbm, 38, rfl⟩
abbrev main_v22 : Ref sig .tc := ⟨.hbm, 39, rfl⟩
abbrev main_cst_8 : Ref sig .tc := ⟨.hbm, 40, rfl⟩
abbrev main_v23 : Ref sig .tc := ⟨.hbm, 41, rfl⟩
abbrev main_cst_9 : Ref sig .tc := ⟨.hbm, 42, rfl⟩
abbrev main_v24 : Ref sig .tc := ⟨.hbm, 43, rfl⟩
abbrev main_cst_10 : Ref sig .tc := ⟨.hbm, 44, rfl⟩
abbrev main_v25 : Ref sig .tc := ⟨.hbm, 45, rfl⟩
abbrev main_v26 : Ref sig .tc := ⟨.hbm, 46, rfl⟩
abbrev main_cst_11 : Ref sig .tc := ⟨.hbm, 47, rfl⟩
abbrev main_v27 : Ref sig .tc := ⟨.hbm, 48, rfl⟩
abbrev main_v28 : Ref sig .tc := ⟨.hbm, 49, rfl⟩
abbrev main_cst_12 : Ref sig .tc := ⟨.hbm, 50, rfl⟩
abbrev main_v29 : Ref sig .tc := ⟨.hbm, 51, rfl⟩
abbrev main_v30 : Ref sig .tc := ⟨.hbm, 52, rfl⟩
abbrev main_call0_cst : Ref sig .tc := ⟨.hbm, 53, rfl⟩
abbrev main_call0_v0 : Ref sig .tc := ⟨.hbm, 54, rfl⟩
abbrev main_call0_cst_0 : Ref sig .tc := ⟨.hbm, 55, rfl⟩
abbrev main_call0_v1 : Ref sig .tc := ⟨.hbm, 56, rfl⟩
abbrev main_call0_v2 : Ref sig .tc := ⟨.hbm, 57, rfl⟩
abbrev main_call0_v3 : Ref sig .tc := ⟨.hbm, 58, rfl⟩
abbrev main_call0_v4 : Ref sig .tc := ⟨.hbm, 59, rfl⟩
abbrev main_call0_v5 : Ref sig .tc := ⟨.hbm, 60, rfl⟩
abbrev main_call0_v6 : Ref sig .tc := ⟨.hbm, 61, rfl⟩
abbrev main_call0_cst_1 : Ref sig .tc := ⟨.hbm, 62, rfl⟩
abbrev main_call0_v7 : Ref sig .tc := ⟨.hbm, 63, rfl⟩
abbrev main_call0_v8 : Ref sig .tc := ⟨.hbm, 64, rfl⟩
abbrev main_call0_v9 : Ref sig .tc := ⟨.hbm, 65, rfl⟩
abbrev main_call0_v10 : Ref sig .tc := ⟨.hbm, 66, rfl⟩
abbrev main_v31 : Ref sig .tc := ⟨.hbm, 67, rfl⟩
abbrev main_cst_13 : Ref sig .tc := ⟨.hbm, 68, rfl⟩
abbrev main_v32 : Ref sig .tc := ⟨.hbm, 69, rfl⟩
abbrev main_v33 : Ref sig .tc := ⟨.hbm, 70, rfl⟩
abbrev main_cst_14 : Ref sig .tc := ⟨.hbm, 71, rfl⟩
abbrev main_v34 : Ref sig .tc := ⟨.hbm, 72, rfl⟩
abbrev main_cst_15 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_cst_16 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_cst_17 : Ref sig .tc := ⟨.hbm, 88, rfl⟩
abbrev main_v48 : Ref sig .tc := ⟨.hbm, 89, rfl⟩
abbrev main_cst_18 : Ref sig .tc := ⟨.hbm, 90, rfl⟩
abbrev main_v49 : Ref sig .tc := ⟨.hbm, 91, rfl⟩
abbrev main_cst_19 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_cst_20 : Ref sig .tc := ⟨.hbm, 99, rfl⟩
abbrev main_v56 : Ref sig .tc := ⟨.hbm, 100, rfl⟩
abbrev main_cst_21 : Ref sig .tc := ⟨.hbm, 101, rfl⟩
abbrev main_v57 : Ref sig .tc := ⟨.hbm, 102, rfl⟩
abbrev main_cst_22 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_cst_23 : Ref sig .tc := ⟨.hbm, 108, rfl⟩
abbrev main_v62 : Ref sig .tc := ⟨.hbm, 109, rfl⟩
abbrev main_v63 : Ref sig .tc := ⟨.hbm, 110, rfl⟩
abbrev main_cst_24 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_cst_25 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_cst_26 : Ref sig .tc := ⟨.hbm, 123, rfl⟩
abbrev main_v74 : Ref sig .tc := ⟨.hbm, 124, rfl⟩
abbrev main_v75 : Ref sig .tc := ⟨.hbm, 125, rfl⟩
abbrev main_cst_27 : Ref sig .tc := ⟨.hbm, 126, rfl⟩
abbrev main_v76 : Ref sig .tc := ⟨.hbm, 127, rfl⟩
abbrev main_v77 : Ref sig .tc := ⟨.hbm, 128, rfl⟩
abbrev main_cst_28 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_cst_29 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_cst_30 : Ref sig .tc := ⟨.hbm, 138, rfl⟩
abbrev main_v85 : Ref sig .tc := ⟨.hbm, 139, rfl⟩
abbrev main_v86 : Ref sig .tc := ⟨.hbm, 140, rfl⟩
abbrev main_cst_31 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_cst_32 : Ref sig .tc := ⟨.hbm, 147, rfl⟩
abbrev main_v92 : Ref sig .tc := ⟨.hbm, 148, rfl⟩
abbrev main_v93 : Ref sig .tc := ⟨.hbm, 149, rfl⟩
abbrev main_cst_33 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_v99 : Ref sig .tc := ⟨.hbm, 156, rfl⟩
abbrev main_v100 : Ref sig .tc := ⟨.hbm, 157, rfl⟩
abbrev main_cst_34 : Ref sig .tc := ⟨.hbm, 158, rfl⟩
abbrev main_v101 : Ref sig .tc := ⟨.hbm, 159, rfl⟩
abbrev main_v102 : Ref sig .tc := ⟨.hbm, 160, rfl⟩
abbrev main_v103 : Ref sig .tc := ⟨.hbm, 161, rfl⟩
abbrev main_cst_35 : Ref sig .tc := ⟨.hbm, 162, rfl⟩
abbrev main_v104 : Ref sig .tc := ⟨.hbm, 163, rfl⟩
abbrev main_v105 : Ref sig .tc := ⟨.hbm, 164, rfl⟩
abbrev main_cst_36 : Ref sig .tc := ⟨.hbm, 165, rfl⟩
abbrev main_v106 : Ref sig .tc := ⟨.hbm, 166, rfl⟩
abbrev main_v107 : Ref sig .tc := ⟨.hbm, 167, rfl⟩
abbrev main_cst_37 : Ref sig .tc := ⟨.hbm, 168, rfl⟩
abbrev main_v108 : Ref sig .tc := ⟨.hbm, 169, rfl⟩
abbrev main_v109 : Ref sig .tc := ⟨.hbm, 170, rfl⟩
abbrev main_v110 : Ref sig .tc := ⟨.hbm, 171, rfl⟩
abbrev main_cst_38 : Ref sig .tc := ⟨.hbm, 172, rfl⟩
abbrev main_v111 : Ref sig .tc := ⟨.hbm, 173, rfl⟩
abbrev main_v112 : Ref sig .tc := ⟨.hbm, 174, rfl⟩
abbrev main_v113 : Ref sig .tc := ⟨.hbm, 175, rfl⟩
abbrev main_v114 : Ref sig .tc := ⟨.hbm, 176, rfl⟩
abbrev main_cst_39 : Ref sig .tc := ⟨.hbm, 177, rfl⟩
abbrev main_v115 : Ref sig .tc := ⟨.hbm, 178, rfl⟩
abbrev main_v116 : Ref sig .tc := ⟨.hbm, 179, rfl⟩
abbrev main_cst_40 : Ref sig .tc := ⟨.hbm, 180, rfl⟩
abbrev main_v117 : Ref sig .tc := ⟨.hbm, 181, rfl⟩
abbrev main_v118 : Ref sig .tc := ⟨.hbm, 182, rfl⟩
abbrev main_v119 : Ref sig .tc := ⟨.hbm, 183, rfl⟩
abbrev main_cst_41 : Ref sig .tc := ⟨.hbm, 184, rfl⟩
abbrev main_v120 : Ref sig .tc := ⟨.hbm, 185, rfl⟩
abbrev main_cst_42 : Ref sig .tc := ⟨.hbm, 186, rfl⟩
abbrev main_v121 : Ref sig .tc := ⟨.hbm, 187, rfl⟩
abbrev main_cst_43 : Ref sig .tc := ⟨.hbm, 188, rfl⟩
abbrev main_v122 : Ref sig .tc := ⟨.hbm, 189, rfl⟩
abbrev main_v123 : Ref sig .tc := ⟨.hbm, 190, rfl⟩
abbrev main_v124 : Ref sig .tc := ⟨.hbm, 191, rfl⟩
abbrev main_v125 : Ref sig .tc := ⟨.hbm, 192, rfl⟩
abbrev main_cst_44 : Ref sig .tc := ⟨.hbm, 193, rfl⟩
abbrev main_v126 : Ref sig .tc := ⟨.hbm, 194, rfl⟩
abbrev main_v127 : Ref sig .tc := ⟨.hbm, 195, rfl⟩
abbrev main_cst_45 : Ref sig .tc := ⟨.hbm, 196, rfl⟩
abbrev main_v128 : Ref sig .tc := ⟨.hbm, 197, rfl⟩
abbrev main_v129 : Ref sig .tc := ⟨.hbm, 198, rfl⟩
abbrev main_cst_46 : Ref sig .tc := ⟨.hbm, 199, rfl⟩
abbrev main_v130 : Ref sig .tc := ⟨.hbm, 200, rfl⟩
abbrev main_v131 : Ref sig .tc := ⟨.hbm, 201, rfl⟩
abbrev main_v132 : Ref sig .tc := ⟨.hbm, 202, rfl⟩
abbrev main_v133 : Ref sig .tc := ⟨.hbm, 203, rfl⟩
abbrev main_v134 : Ref sig .tc := ⟨.hbm, 204, rfl⟩
abbrev main_v135 : Ref sig .tc := ⟨.hbm, 205, rfl⟩
abbrev main_v136 : Ref sig .tc := ⟨.hbm, 206, rfl⟩
abbrev main_cst_47 : Ref sig .tc := ⟨.hbm, 207, rfl⟩
abbrev main_v137 : Ref sig .tc := ⟨.hbm, 208, rfl⟩
abbrev main_cst_48 : Ref sig .tc := ⟨.hbm, 209, rfl⟩
abbrev main_v138 : Ref sig .tc := ⟨.hbm, 210, rfl⟩
abbrev main_cst_49 : Ref sig .tc := ⟨.hbm, 211, rfl⟩
abbrev main_v139 : Ref sig .tc := ⟨.hbm, 212, rfl⟩
abbrev main_v140 : Ref sig .tc := ⟨.hbm, 213, rfl⟩
abbrev main_cst_50 : Ref sig .tc := ⟨.hbm, 214, rfl⟩
abbrev main_v141 : Ref sig .tc := ⟨.hbm, 215, rfl⟩
abbrev main_v142 : Ref sig .tc := ⟨.hbm, 216, rfl⟩
abbrev main_v143 : Ref sig .tc := ⟨.hbm, 217, rfl⟩
abbrev main_v144 : Ref sig .tc := ⟨.hbm, 218, rfl⟩
abbrev main_cst_51 : Ref sig .tc := ⟨.hbm, 219, rfl⟩
abbrev main_v145 : Ref sig .tc := ⟨.hbm, 220, rfl⟩
abbrev main_v146 : Ref sig .tc := ⟨.hbm, 221, rfl⟩
abbrev main_cst_52 : Ref sig .tc := ⟨.hbm, 222, rfl⟩
abbrev main_v147 : Ref sig .tc := ⟨.hbm, 223, rfl⟩
abbrev main_v148 : Ref sig .tc := ⟨.hbm, 224, rfl⟩
abbrev main_cst_53 : Ref sig .tc := ⟨.hbm, 225, rfl⟩
abbrev main_v149 : Ref sig .tc := ⟨.hbm, 226, rfl⟩
abbrev main_v150 : Ref sig .tc := ⟨.hbm, 227, rfl⟩
abbrev main_cst_54 : Ref sig .tc := ⟨.hbm, 228, rfl⟩
abbrev main_v151 : Ref sig .tc := ⟨.hbm, 229, rfl⟩
abbrev main_v152 : Ref sig .tc := ⟨.hbm, 230, rfl⟩
abbrev main_cst_55 : Ref sig .tc := ⟨.hbm, 231, rfl⟩
abbrev main_v153 : Ref sig .tc := ⟨.hbm, 232, rfl⟩
abbrev main_v154 : Ref sig .tc := ⟨.hbm, 233, rfl⟩
abbrev main_v155 : Ref sig .tc := ⟨.hbm, 234, rfl⟩
abbrev main_v156 : Ref sig .tc := ⟨.hbm, 235, rfl⟩
abbrev main_v157 : Ref sig .tc := ⟨.hbm, 236, rfl⟩
abbrev main_cst_56 : Ref sig .tc := ⟨.hbm, 237, rfl⟩
abbrev main_v158 : Ref sig .tc := ⟨.hbm, 238, rfl⟩
abbrev main_v159 : Ref sig .tc := ⟨.hbm, 239, rfl⟩
abbrev main_cst_57 : Ref sig .tc := ⟨.hbm, 240, rfl⟩
abbrev main_v160 : Ref sig .tc := ⟨.hbm, 241, rfl⟩
abbrev main_v161 : Ref sig .tc := ⟨.hbm, 242, rfl⟩
abbrev main_cst_58 : Ref sig .tc := ⟨.hbm, 243, rfl⟩
abbrev main_v162 : Ref sig .tc := ⟨.hbm, 244, rfl⟩
abbrev main_v163 : Ref sig .tc := ⟨.hbm, 245, rfl⟩
abbrev main_cst_59 : Ref sig .tc := ⟨.hbm, 246, rfl⟩
abbrev main_v164 : Ref sig .tc := ⟨.hbm, 247, rfl⟩
abbrev main_v165 : Ref sig .tc := ⟨.hbm, 248, rfl⟩
abbrev main_v166 : Ref sig .tc := ⟨.hbm, 249, rfl⟩
abbrev main_v167 : Ref sig .tc := ⟨.hbm, 250, rfl⟩
abbrev main_cst_60 : Ref sig .tc := ⟨.hbm, 251, rfl⟩
abbrev main_v168 : Ref sig .tc := ⟨.hbm, 252, rfl⟩
abbrev main_v169 : Ref sig .tc := ⟨.hbm, 253, rfl⟩
abbrev main_cst_61 : Ref sig .tc := ⟨.hbm, 254, rfl⟩
abbrev main_v170 : Ref sig .tc := ⟨.hbm, 255, rfl⟩
abbrev main_v171 : Ref sig .tc := ⟨.hbm, 256, rfl⟩
abbrev main_cst_62 : Ref sig .tc := ⟨.hbm, 257, rfl⟩
abbrev main_v172 : Ref sig .tc := ⟨.hbm, 258, rfl⟩
abbrev main_v173 : Ref sig .tc := ⟨.hbm, 259, rfl⟩
abbrev main_cst_63 : Ref sig .tc := ⟨.hbm, 260, rfl⟩
abbrev main_v174 : Ref sig .tc := ⟨.hbm, 261, rfl⟩
abbrev main_v175 : Ref sig .tc := ⟨.hbm, 262, rfl⟩
abbrev main_cst_64 : Ref sig .tc := ⟨.hbm, 263, rfl⟩
abbrev main_v176 : Ref sig .tc := ⟨.hbm, 264, rfl⟩
abbrev main_v177 : Ref sig .tc := ⟨.hbm, 265, rfl⟩
abbrev main_v178 : Ref sig .tc := ⟨.hbm, 266, rfl⟩
abbrev main_v179 : Ref sig .tc := ⟨.hbm, 267, rfl⟩
abbrev main_v180 : Ref sig .tc := ⟨.hbm, 268, rfl⟩
abbrev main_cst_65 : Ref sig .tc := ⟨.hbm, 269, rfl⟩
abbrev main_v181 : Ref sig .tc := ⟨.hbm, 270, rfl⟩
abbrev main_v182 : Ref sig .tc := ⟨.hbm, 271, rfl⟩
abbrev main_cst_66 : Ref sig .tc := ⟨.hbm, 272, rfl⟩
abbrev main_v183 : Ref sig .tc := ⟨.hbm, 273, rfl⟩
abbrev main_v184 : Ref sig .tc := ⟨.hbm, 274, rfl⟩
abbrev main_cst_67 : Ref sig .tc := ⟨.hbm, 275, rfl⟩
abbrev main_v185 : Ref sig .tc := ⟨.hbm, 276, rfl⟩
abbrev main_cst_68 : Ref sig .tc := ⟨.hbm, 277, rfl⟩
abbrev main_v186 : Ref sig .tc := ⟨.hbm, 278, rfl⟩
abbrev main_cst_69 : Ref sig .tc := ⟨.hbm, 279, rfl⟩
abbrev main_v187 : Ref sig .tc := ⟨.hbm, 280, rfl⟩
abbrev main_v188 : Ref sig .tc := ⟨.hbm, 281, rfl⟩
abbrev main_v189 : Ref sig .tc := ⟨.hbm, 282, rfl⟩
abbrev main_cst_70 : Ref sig .tc := ⟨.hbm, 283, rfl⟩
abbrev main_v190 : Ref sig .tc := ⟨.hbm, 284, rfl⟩
abbrev main_cst_71 : Ref sig .tc := ⟨.hbm, 285, rfl⟩
abbrev main_v191 : Ref sig .tc := ⟨.hbm, 286, rfl⟩
abbrev main_v192 : Ref sig .tc := ⟨.hbm, 287, rfl⟩
abbrev main_v193 : Ref sig .tc := ⟨.hbm, 288, rfl⟩
abbrev main_cst_72 : Ref sig .tc := ⟨.hbm, 289, rfl⟩
abbrev main_v194 : Ref sig .tc := ⟨.hbm, 290, rfl⟩
abbrev main_v195 : Ref sig .tc := ⟨.hbm, 291, rfl⟩
abbrev main_v196 : Ref sig .tc := ⟨.hbm, 292, rfl⟩
abbrev main_v197 : Ref sig .tc := ⟨.hbm, 293, rfl⟩
abbrev main_v198 : Ref sig .tc := ⟨.hbm, 294, rfl⟩
abbrev main_v199 : Ref sig .tc := ⟨.hbm, 295, rfl⟩
abbrev main_cst_73 : Ref sig .tc := ⟨.hbm, 296, rfl⟩
abbrev main_v200 : Ref sig .tc := ⟨.hbm, 297, rfl⟩
abbrev main_cst_74 : Ref sig .tc := ⟨.hbm, 298, rfl⟩
abbrev main_v201 : Ref sig .tc := ⟨.hbm, 299, rfl⟩
abbrev main_v202 : Ref sig .tc := ⟨.hbm, 300, rfl⟩
abbrev main_v203 : Ref sig .tc := ⟨.hbm, 301, rfl⟩
abbrev main_cst_75 : Ref sig .tc := ⟨.hbm, 302, rfl⟩
abbrev main_v204 : Ref sig .tc := ⟨.hbm, 303, rfl⟩
abbrev main_cst_76 : Ref sig .tc := ⟨.hbm, 304, rfl⟩
abbrev main_v205 : Ref sig .tc := ⟨.hbm, 305, rfl⟩
abbrev main_cst_77 : Ref sig .tc := ⟨.hbm, 306, rfl⟩
abbrev main_v206 : Ref sig .tc := ⟨.hbm, 307, rfl⟩
abbrev main_cst_78 : Ref sig .tc := ⟨.hbm, 308, rfl⟩
abbrev main_v207 : Ref sig .tc := ⟨.hbm, 309, rfl⟩
abbrev main_cst_79 : Ref sig .tc := ⟨.hbm, 310, rfl⟩
abbrev main_v208 : Ref sig .tc := ⟨.hbm, 311, rfl⟩
abbrev main_cst_80 : Ref sig .tc := ⟨.hbm, 312, rfl⟩
abbrev main_v209 : Ref sig .tc := ⟨.hbm, 313, rfl⟩
abbrev main_cst_81 : Ref sig .tc := ⟨.hbm, 314, rfl⟩
abbrev main_v210 : Ref sig .tc := ⟨.hbm, 315, rfl⟩
abbrev main_cst_82 : Ref sig .tc := ⟨.hbm, 316, rfl⟩
abbrev main_v211 : Ref sig .tc := ⟨.hbm, 317, rfl⟩
abbrev main_cst_83 : Ref sig .tc := ⟨.hbm, 318, rfl⟩
abbrev main_v212 : Ref sig .tc := ⟨.hbm, 319, rfl⟩
abbrev main_cst_84 : Ref sig .tc := ⟨.hbm, 320, rfl⟩
abbrev main_v213 : Ref sig .tc := ⟨.hbm, 321, rfl⟩
abbrev main_cst_85 : Ref sig .tc := ⟨.hbm, 322, rfl⟩
abbrev main_v214 : Ref sig .tc := ⟨.hbm, 323, rfl⟩
abbrev main_v215 : Ref sig .tc := ⟨.hbm, 324, rfl⟩
abbrev main_v216 : Ref sig .tc := ⟨.hbm, 325, rfl⟩
abbrev main_v217 : Ref sig .tc := ⟨.hbm, 326, rfl⟩
abbrev main_v218 : Ref sig .tc := ⟨.hbm, 327, rfl⟩
abbrev main_v219 : Ref sig .tc := ⟨.hbm, 328, rfl⟩
abbrev main_cst_86 : Ref sig .tc := ⟨.hbm, 329, rfl⟩
abbrev main_v220 : Ref sig .tc := ⟨.hbm, 330, rfl⟩
abbrev main_cst_87 : Ref sig .tc := ⟨.hbm, 331, rfl⟩
abbrev main_v221 : Ref sig .tc := ⟨.hbm, 332, rfl⟩
abbrev main_v222 : Ref sig .tc := ⟨.hbm, 333, rfl⟩
abbrev main_cst_88 : Ref sig .tc := ⟨.hbm, 334, rfl⟩
abbrev main_v223 : Ref sig .tc := ⟨.hbm, 335, rfl⟩
abbrev main_v224 : Ref sig .tc := ⟨.hbm, 336, rfl⟩

abbrev nD : Nat := 1
abbrev τ : Topo := Topo.v7x

variable {F : FTy → Type} [FloatOps F]

class Facts₀ : Prop where
  reducesTo_S8x256x64x64_S_d0_1_2_3 : S8x256x64x64.ReducesTo [0, 1, 2, 3] S_
  h_S_ : 0 < S_.numel
  bcast_S8x1x64x64_S8x256x64x64_0_1_2_3 : S8x1x64x64.BroadcastsInDim S8x256x64x64 (![0, 1, 2, 3] : Fin 4 → Fin S8x256x64x64.rank)
  reducesTo_S8x256x64x64_S8x256_d2_3 : S8x256x64x64.ReducesTo [2, 3] S8x256
  bcast_S8x256_S8x256x1x1_0_1 : S8x256.BroadcastsInDim S8x256x1x1 (![0, 1] : Fin 2 → Fin S8x256x1x1.rank)
  bcast_S_S8x256x1x1 : S_.BroadcastsInDim S8x256x1x1 (![] : Fin 0 → Fin S8x256x1x1.rank)
  reducesTo_S8x256x1x1_S_d0_1_2_3 : S8x256x1x1.ReducesTo [0, 1, 2, 3] S_
  bcast_S_S8x2x256x256 : S_.BroadcastsInDim S8x2x256x256 (![] : Fin 0 → Fin S8x2x256x256.rank)
  reducesTo_S8x2x256x256_S8x256x256_d1 : S8x2x256x256.ReducesTo [1] S8x256x256
  bcast_S_S8x256x256 : S_.BroadcastsInDim S8x256x256 (![] : Fin 0 → Fin S8x256x256.rank)
  bcast_S8x256x256_S8x1x256x256_0_2_3 : S8x256x256.BroadcastsInDim S8x1x256x256 (![0, 2, 3] : Fin 3 → Fin S8x1x256x256.rank)
  bcast_S8x1x256x256_S8x2x256x256_0_1_2_3 : S8x1x256x256.BroadcastsInDim S8x2x256x256 (![0, 1, 2, 3] : Fin 4 → Fin S8x2x256x256.rank)
  reducesTo_S8x2x256x256_S_d0_1_2_3 : S8x2x256x256.ReducesTo [0, 1, 2, 3] S_
  slices_S8x2x256x256_S8x1x256x256_0_1_0_0 : S8x2x256x256.Slices ![0, 1, 0, 0] S8x1x256x256
  reducesTo_S8x1x256x256_S_d0_1_2_3 : S8x1x256x256.ReducesTo [0, 1, 2, 3] S_
  reducesTo_S8x256x64x64_S8x64x64_d1 : S8x256x64x64.ReducesTo [1] S8x64x64
  bcast_S8x64x64_S8x1x64x64_0_2_3 : S8x64x64.BroadcastsInDim S8x1x64x64 (![0, 2, 3] : Fin 3 → Fin S8x1x64x64.rank)
  bcast_S_S8x1x64x64 : S_.BroadcastsInDim S8x1x64x64 (![] : Fin 0 → Fin S8x1x64x64.rank)
  bcast_S_S8x256x64x64 : S_.BroadcastsInDim S8x256x64x64 (![] : Fin 0 → Fin S8x256x64x64.rank)
  reducesTo_S8x1x64x64_S_d0_1_2_3 : S8x1x64x64.ReducesTo [0, 1, 2, 3] S_

variable [Facts₀]

class Facts : Prop extends Facts₀ where

variable [Facts]
-- ==== Proof.Bits.KitKeeps.lean ====
/- The kernel program around its one region, first part: the host lines before the region (six reshapes of the
   argument arrays to lane-dense blocks), the region, and the host lines after it; what the region finds in
   every buffer, each window's block at a grid point, and that no host line after the region allocates or writes an argument array or an array of the region. Stated for any float instance. -/
import proofs.«129784_j68891275428342_2_alg».proof.Proof.Gen.Kernel.Launch
import proofs.«129784_j68891275428342_2_alg».proof.Proof.Gen.Kernel.Skeleton
import proofs.«129784_j68891275428342_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- Core `c`'s buffer contents when the region is entered: after the six reshapes. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The three stretches of host lines after the region. -/
abbrev tailOps : List (List (HloOp τ sig (Elt F))) := [hostOps1, hostOps1_1, hostOps1_2]

set_option maxRecDepth 65536 in
theorem hostOps0_fresh : (hostOps0 : List (HloOp τ sig (Elt F))).Forall fun op => op.fresh = ∅ :=
  ⟨rfl, rfl, rfl, rfl, rfl, rfl⟩
set_option maxRecDepth 65536 in
theorem hostOps1_fresh : (hostOps1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 65536 in
theorem hostOps1_1_fresh : (hostOps1_1 : List (HloOp τ sig (Elt F))).Forall fun op => op.fresh = ∅ :=
  ⟨rfl, rfl, rfl, rfl, rfl, rfl, rfl, rfl, rfl, rfl, rfl, rfl, rfl, rfl, rfl⟩
set_option maxRecDepth 65536 in
theorem hostOps1_2_fresh : (hostOps1_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- The later lines touch the region's arrays and the buffers that bypass it only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
/-- They allocate nothing. -/
theorem sfx_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop

/-- No line of a stretch writes the buffer `b`: every line writes its own result buffer only. -/
abbrev Keeps (ops : List (HloOp τ sig (Elt F))) (b : Ref sig .tc) : Prop :=
  ops.Forall fun op => Proc.devRef .tc b ∉ op.writes

set_option maxRecDepth 65536 in
set_option maxHeartbeats 16000000 in
/-- No line of `hostOps1` writes an argument array or an array of the region. -/
theorem hostOps1_keeps : ∀ b ∈ ([main_arg0, main_arg1, main_arg2, main_arg3, main_arg4, main_arg5, main_arg6, main_arg7, main_v0, main_v1, main_v2, main_v3, main_v4, main_v5, main_v6_0, main_v6_1, main_v6_2, main_v6_3, main_v6_4, main_v6_5, main_v6_6] : List (Ref sig .tc)), Keeps (F := F) hostOps1 b := by
  intro b hb
  simp only [List.mem_cons, List.mem_nil_iff, or_false] at hb
  rcases hb with rfl | rfl | rfl | rfl | rfl | rfl | rfl | rfl | rfl | rfl | rfl | rfl | rfl | rfl | rfl | rfl | rfl | rfl | rfl | rfl | rfl
  all_goals
    simp only [Keeps, hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)

set_option maxRecDepth 65536 in
set_option maxHeartbeats 16000000 in
/-- No line of `hostOps1_1` writes an argument array or an array of the region. -/
theorem hostOps1_1_keeps : ∀ b ∈ ([main_arg0, main_arg1, main_arg2, main_arg3, main_arg4, main_arg5, main_arg6, main_arg7, main_v0, main_v1, main_v2, main_v3, main_v4, main_v5, main_v6_0, main_v6_1, main_v6_2, main_v6_3, main_v6_4, main_v6_5, main_v6_6] : List (Ref sig .tc)), Keeps (F := F) hostOps1_1 b := by
  intro b hb
  simp only [List.mem_cons, List.mem_nil_iff, or_false] at hb
  rcases hb with rfl | rfl | rfl | rfl | rfl | rfl | rfl | rfl | rfl | rfl | rfl | rfl | rfl | rfl | rfl | rfl | rfl | rfl | rfl | rfl | rfl
  all_goals
    simp only [Keeps, hostOps1_1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)

set_option maxRecDepth 65536 in
set_option maxHeartbeats 16000000 in
/-- No line of `hostOps1_2` writes an argument array or an array of the region. -/
theorem hostOps1_2_keeps : ∀ b ∈ ([main_arg0, main_arg1, main_arg2, main_arg3, main_arg4, main_arg5, main_arg6, main_arg7, main_v0, main_v1, main_v2, main_v3, main_v4, main_v5, main_v6_0, main_v6_1, main_v6_2, main_v6_3, main_v6_4, main_v6_5, main_v6_6] : List (Ref sig .tc)), Keeps (F := F) hostOps1_2 b := by
  intro b hb
  simp only [List.mem_cons, List.mem_nil_iff, or_false] at hb
  rcases hb with rfl | rfl | rfl | rfl | rfl | rfl | rfl | rfl | rfl | rfl | rfl | rfl | rfl | rfl | rfl | rfl | rfl | rfl | rfl | rfl | rfl
  all_goals
    simp only [Keeps, hostOps1_2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)

theorem arrRef_mem (w : Fin 13) : Pipeline.arrRef spec0 w ∈ ([main_arg0, main_arg1, main_arg2, main_arg3, main_arg4, main_arg5, main_arg6, main_arg7, main_v0, main_v1, main_v2, main_v3, main_v4, main_v5, main_v6_0, main_v6_1, main_v6_2, main_v6_3, main_v6_4, main_v6_5, main_v6_6] : List (Ref sig .tc)) := by
  fin_cases w <;> simp [Pipeline.arrRef]

/-- The later lines write no array of the region. -/
theorem sfx_keeps : ∀ ops ∈ (tailOps : List (List (HloOp τ sig (Elt F)))), ∀ op ∈ ops,
    ∀ w, Proc.devRef .tc (Pipeline.arrRef spec0 w) ∉ op.writes := by
  intro ops hops op hop w
  simp only [tailOps, List.mem_cons, List.mem_nil_iff, or_false] at hops
  rcases hops with rfl | rfl | rfl
  · exact (List.forall_iff_forall_mem.mp (hostOps1_keeps _ (arrRef_mem w))) op hop
  · exact (List.forall_iff_forall_mem.mp (hostOps1_1_keeps _ (arrRef_mem w))) op hop
  · exact (List.forall_iff_forall_mem.mp (hostOps1_2_keeps _ (arrRef_mem w))) op hop

/-- No reshape before the region writes an argument array. -/
theorem hostOps0_keeps : ∀ b ∈ ([main_arg0, main_arg1, main_arg2, main_arg3, main_arg4, main_arg5, main_arg6, main_arg7] : List (Ref sig .tc)), Keeps (F := F) hostOps0 b := by
  intro b hb
  simp only [List.mem_cons, List.mem_nil_iff, or_false] at hb
  rcases hb with rfl | rfl | rfl | rfl | rfl | rfl | rfl | rfl
  all_goals
    simp only [Keeps, hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)

/-- The region finds an argument array as launched. -/
theorem V_arg (c : Dev nD) (b : Ref sig .tc) (hb : b ∈ ([main_arg0, main_arg1, main_arg2, main_arg3, main_arg4, main_arg5, main_arg6, main_arg7] : List (Ref sig .tc))) :
    V m c b = m ((c : Thread nD τ).loc b) :=
  StableHlo.after_of_forall_not_mem (b := Proc.devRef .tc b) _ _ (fun op hop => by
    simp only [List.flatten_cons, List.flatten_nil, List.append_nil] at hop
    exact (List.forall_iff_forall_mem.mp (hostOps0_keeps b hb)) op hop)

/-- An argument array ends as launched: no later line writes it and it is no array of the region. -/
theorem W_arg (dats : (p : Fin _) → (c : Dev nD) → Dat τ (Elt F) Unit ℕ (UR sig nD τ) ℕ (cfgs p) c) (c : Dev nD)
    (b : Ref sig .tc) (hb : b ∈ ([main_arg0, main_arg1, main_arg2, main_arg3, main_arg4, main_arg5, main_arg6, main_arg7] : List (Ref sig .tc))) :
    Pipeline.afterTail₀ cfgs dats 0 (V0 m) tailOps c b = m ((c : Thread nD τ).loc b) := by
  have hb' : b ∈ ([main_arg0, main_arg1, main_arg2, main_arg3, main_arg4, main_arg5, main_arg6, main_arg7, main_v0, main_v1, main_v2, main_v3, main_v4, main_v5, main_v6_0, main_v6_1, main_v6_2, main_v6_3, main_v6_4, main_v6_5, main_v6_6] : List (Ref sig .tc)) := by
    simp only [List.mem_cons, List.mem_nil_iff, or_false] at hb ⊢
    rcases hb with rfl | rfl | rfl | rfl | rfl | rfl | rfl | rfl <;> simp
  have hne : ∀ w, Pipeline.arrRef spec0 w ≠ b := by
    simp only [List.mem_cons, List.mem_nil_iff, or_false] at hb
    rcases hb with rfl | rfl | rfl | rfl | rfl | rfl | rfl | rfl <;> exact (by decide)
  unfold Pipeline.afterTail₀
  rw [StableHlo.after_of_forall_not_mem (b := Proc.devRef .tc b) _ _ (fun op hop => by
      simp only [tailOps, List.flatten_cons, List.flatten_nil, List.append_nil, List.mem_append] at hop
      rcases hop with hop | hop | hop
      · exact (List.forall_iff_forall_mem.mp (hostOps1_keeps b hb')) op hop
      · exact (List.forall_iff_forall_mem.mp (hostOps1_1_keeps b hb')) op hop
      · exact (List.forall_iff_forall_mem.mp (hostOps1_2_keeps b hb')) op hop),
    Pipeline.withArrays_of_ne _ c (V0 m c) _ b hne]
  exact V_arg m c b hb

end Cert.Kernel.Fr

end
-- ==== Proof.Bits.Kit.lean ====
/- The kernel program around its one region, continued: the reduction of the program to the region followed by the
   later host lines, each window's block at a grid point, the frame claim's post from a frame run, the two branch
   conditions of the body decided over the grid, where the windows are idle, and the staging and scratch memrefs.
   Stated for any float instance. -/
import proofs.«129784_j68891275428342_2_alg».proof.Proof.Bits.KitKeeps

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The reduction for any four stretches of host lines of which the program is the chain: the lines before the region,
    the region, the lines after it. -/
theorem hmain_gen (𝒱₀ : Variants) (o0 o1 o2 o3 : List (HloOp τ sig (Elt F)))
    (hs : o0.Forall fun op => op.bufs ⊆ StableHlo.tcRefs τ sig) (hf : o0.Forall fun op => op.fresh = ∅)
    (hm : ∀ c, main (F := F) c = Pipeline.chain [StableHlo.seq o0, Prog.lift (.customCall (Pipeline.entry 0) ()), StableHlo.seq o1, StableHlo.seq o2, StableHlo.seq o3]) :
    Pipeline.HMainK (Ix := Unit) (Name := ℕ) (U := UR sig nD τ) (Lvl := ℕ) cfgs 0 defs₀ 𝒱₀ m (main (F := F))
      (fun c b => StableHlo.after (List.flatten [o0]) (fun b => m (c, b)) (Proc.devRef .tc b))
      (fun _ => Pipeline.chain [StableHlo.seq o1, StableHlo.seq o2, StableHlo.seq o3]) :=
  Pipeline.hmain_around cfgs 0 defs₀ 𝒱₀ m main [o0] [o1, o2, o3] (by simp only [List.Forall]; exact hs)
    (by simp only [List.Forall]; exact hf) hm

/-- The program reduces to the region continued by the later lines, at the contents after the earlier ones. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2]) :=
  hmain_gen m 𝒱₀ hostOps0 hostOps1 hostOps1_1 hostOps1_2 hostOps0_sub hostOps0_fresh main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run -/

/-- For any proof data whose arrays are the region-entry contents, a run to the library's frame post read at the
    eight argument arrays (none is an array of the region: each is a buffer the region bypasses, and no later
    line writes it) is the frame claim's post. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Pipeline.mem_restRefs_of main_arg0 (by decide) (by decide))).trans (W_arg m dats c main_arg0 (by simp)),
    ((h c).2 main_arg1 (Pipeline.mem_restRefs_of main_arg1 (by decide) (by decide))).trans (W_arg m dats c main_arg1 (by simp)),
    ((h c).2 main_arg2 (Pipeline.mem_restRefs_of main_arg2 (by decide) (by decide))).trans (W_arg m dats c main_arg2 (by simp)),
    ((h c).2 main_arg3 (Pipeline.mem_restRefs_of main_arg3 (by decide) (by decide))).trans (W_arg m dats c main_arg3 (by simp)),
    ((h c).2 main_arg4 (Pipeline.mem_restRefs_of main_arg4 (by decide) (by decide))).trans (W_arg m dats c main_arg4 (by simp)),
    ((h c).2 main_arg5 (Pipeline.mem_restRefs_of main_arg5 (by decide) (by decide))).trans (W_arg m dats c main_arg5 (by simp)),
    ((h c).2 main_arg6 (Pipeline.mem_restRefs_of main_arg6 (by decide) (by decide))).trans (W_arg m dats c main_arg6 (by simp)),
    ((h c).2 main_arg7 (Pipeline.mem_restRefs_of main_arg7 (by decide) (by decide))).trans (W_arg m dats c main_arg7 (by simp))⟩) h

/-! ## The body's two branch conditions -/

/-- The first conditional (reset of the ten accumulators): the channel-chunk coordinate is 0. -/
abbrev cond0_0 (i : grid0.Coords) : Prop := (Scalar.cmpi .ne (Scalar.extui (Scalar.cmpi .eq (BitVec.ofNat 32 (i 1).val) 0#32)) 0#32) = 1#1
/-- It holds at the even points. -/
theorem hcond0_0 : ∀ t : Fin cfg0.N, cond0_0 (grid0.coords t) ↔ t.val % 2 = 0 :=
  (by decide +kernel : ∀ t : Fin grid0.N, cond0_0 (grid0.coords t) ↔ t.val % 2 = 0)

/-- The second conditional (the maps and the two sums are finalized): the channel-chunk coordinate is 1. -/
abbrev cond0_1 (i : grid0.Coords) : Prop := k0_cond2 i = 1#1
/-- It holds at the odd points. -/
theorem hcond0_1 : ∀ t : Fin cfg0.N, cond0_1 (grid0.coords t) ↔ t.val % 2 = 1 :=
  (by decide +kernel : ∀ t : Fin grid0.N, cond0_1 (grid0.coords t) ↔ t.val % 2 = 1)

/-! ## Where the windows are idle -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
/-- At the even points output 8 is idle: nothing is stored into it, and its block is not written back. -/
theorem idleAt0_8_A : ∀ t : Fin cfg0.N, cond0_0 (grid0.coords t) → ¬cond0_1 (grid0.coords t) → cfg0.idle 8 (grid0.coords t) = true := by decide +kernel
theorem noFlush0_8_A : ∀ t : Fin cfg0.N, cond0_0 (grid0.coords t) → ¬cond0_1 (grid0.coords t) → (cfg0.win 8).flush t = false := by decide +kernel
/-- At the odd points output 8 is live. -/
theorem liveAt0_8_B : ∀ t : Fin cfg0.N, ¬cond0_0 (grid0.coords t) → cond0_1 (grid0.coords t) → cfg0.idle 8 (grid0.coords t) = false := by decide +kernel
/-- At the even points output 9 is idle: nothing is stored into it, and its block is not written back. -/
theorem idleAt0_9_A : ∀ t : Fin cfg0.N, cond0_0 (grid0.coords t) → ¬cond0_1 (grid0.coords t) → cfg0.idle 9 (grid0.coords t) = true := by decide +kernel
theorem noFlush0_9_A : ∀ t : Fin cfg0.N, cond0_0 (grid0.coords t) → ¬cond0_1 (grid0.coords t) → (cfg0.win 9).flush t = false := by decide +kernel
/-- At the odd points output 9 is live. -/
theorem liveAt0_9_B : ∀ t : Fin cfg0.N, ¬cond0_0 (grid0.coords t) → cond0_1 (grid0.coords t) → cfg0.idle 9 (grid0.coords t) = false := by decide +kernel
/-- At the even points output 10 is idle: nothing is stored into it, and its block is not written back. -/
theorem idleAt0_10_A : ∀ t : Fin cfg0.N, cond0_0 (grid0.coords t) → ¬cond0_1 (grid0.coords t) → cfg0.idle 10 (grid0.coords t) = true := by decide +kernel
theorem noFlush0_10_A : ∀ t : Fin cfg0.N, cond0_0 (grid0.coords t) → ¬cond0_1 (grid0.coords t) → (cfg0.win 10).flush t = false := by decide +kernel
/-- At the odd points output 10 is live. -/
theorem liveAt0_10_B : ∀ t : Fin cfg0.N, ¬cond0_0 (grid0.coords t) → cond0_1 (grid0.coords t) → cfg0.idle 10 (grid0.coords t) = false := by decide +kernel
/-- At the even points output 11 is idle: nothing is stored into it, and its block is not written back. -/
theorem idleAt0_11_A : ∀ t : Fin cfg0.N, cond0_0 (grid0.coords t) → ¬cond0_1 (grid0.coords t) → cfg0.idle 11 (grid0.coords t) = true := by decide +kernel
theorem noFlush0_11_A : ∀ t : Fin cfg0.N, cond0_0 (grid0.coords t) → ¬cond0_1 (grid0.coords t) → (cfg0.win 11).flush t = false := by decide +kernel
/-- At the odd points output 11 is live. -/
theorem liveAt0_11_B : ∀ t : Fin cfg0.N, ¬cond0_0 (grid0.coords t) → cond0_1 (grid0.coords t) → cfg0.idle 11 (grid0.coords t) = false := by decide +kernel
/-- At the even points output 12 is idle: nothing is stored into it, and its block is not written back. -/
theorem idleAt0_12_A : ∀ t : Fin cfg0.N, cond0_0 (grid0.coords t) → ¬cond0_1 (grid0.coords t) → cfg0.idle 12 (grid0.coords t) = true := by decide +kernel
theorem noFlush0_12_A : ∀ t : Fin cfg0.N, cond0_0 (grid0.coords t) → ¬cond0_1 (grid0.coords t) → (cfg0.win 12).flush t = false := by decide +kernel
/-- At the odd points output 12 is live. -/
theorem liveAt0_12_B : ∀ t : Fin cfg0.N, ¬cond0_0 (grid0.coords t) → cond0_1 (grid0.coords t) → cfg0.idle 12 (grid0.coords t) = false := by decide +kernel

/-! ## The staging and scratch memrefs -/
abbrev ms0_0 (t : Fin cfg0.N) : Memref sig .tc .vmem S1x128x32x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x128x32x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128x32x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128x32x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128x32x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x32x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x1x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x1x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x32x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x32x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x32x128 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x32x128 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x2x128 .f32 := win0_12.stage (cfg0.slots t 12)
abbrev hs0_12 (t : Fin cfg0.N) : (ms0_12 t).IsWhole := hstage0_12 ((cfg0.slots t 12).cast nbuf0_12)
/-- One staging buffer of output window 6, through which its contents are stated. -/
abbrev VO0_6 : View sig .tc .vmem S1x1x1x128 .f32 := (Memref.whole cc0_stg6_0 : Memref sig .tc .vmem S1x1x1x128 .f32).view
/-- One staging buffer of output window 7, through which its contents are stated. -/
abbrev VO0_7 : View sig .tc .vmem S1x1x1x128 .f32 := (Memref.whole cc0_stg7_0 : Memref sig .tc .vmem S1x1x1x128 .f32).view
/-- One staging buffer of output window 8, through which its contents are stated. -/
abbrev VO0_8 : View sig .tc .vmem S1x32x128 .f32 := (Memref.whole cc0_stg8_0 : Memref sig .tc .vmem S1x32x128 .f32).view
/-- One staging buffer of output window 9, through which its contents are stated. -/
abbrev VO0_9 : View sig .tc .vmem S1x32x128 .f32 := (Memref.whole cc0_stg9_0 : Memref sig .tc .vmem S1x32x128 .f32).view
/-- One staging buffer of output window 10, through which its contents are stated. -/
abbrev VO0_10 : View sig .tc .vmem S1x32x128 .f32 := (Memref.whole cc0_stg10_0 : Memref sig .tc .vmem S1x32x128 .f32).view
/-- One staging buffer of output window 11, through which its contents are stated. -/
abbrev VO0_11 : View sig .tc .vmem S1x32x128 .f32 := (Memref.whole cc0_stg11_0 : Memref sig .tc .vmem S1x32x128 .f32).view
/-- One staging buffer of output window 12, through which its contents are stated. -/
abbrev VO0_12 : View sig .tc .vmem S1x2x128 .f32 := (Memref.whole cc0_stg12_0 : Memref sig .tc .vmem S1x2x128 .f32).view
/-- Accumulator 0: a whole scoped buffer of the kernel's own, carried between points. -/
abbrev scM0_0 : Memref sig .tc .vmem S32x128 .f32 := Memref.whole cc0_scratch0
abbrev VS0_0 : View sig .tc .vmem S32x128 .f32 := scM0_0.view
/-- Accumulator 1: a whole scoped buffer of the kernel's own, carried between points. -/
abbrev scM0_1 : Memref sig .tc .vmem S32x128 .f32 := Memref.whole cc0_scratch1
abbrev VS0_1 : View sig .tc .vmem S32x128 .f32 := scM0_1.view
/-- Accumulator 2: a whole scoped buffer of the kernel's own, carried between points. -/
abbrev scM0_2 : Memref sig .tc .vmem S32x128 .f32 := Memref.whole cc0_scratch2
abbrev VS0_2 : View sig .tc .vmem S32x128 .f32 := scM0_2.view
/-- Accumulator 3: a whole scoped buffer of the kernel's own, carried between points. -/
abbrev scM0_3 : Memref sig .tc .vmem S32x128 .f32 := Memref.whole cc0_scratch3
abbrev VS0_3 : View sig .tc .vmem S32x128 .f32 := scM0_3.view
/-- Accumulator 4: a whole scoped buffer of the kernel's own, carried between points. -/
abbrev scM0_4 : Memref sig .tc .vmem S32x128 .f32 := Memref.whole cc0_scratch4
abbrev VS0_4 : View sig .tc .vmem S32x128 .f32 := scM0_4.view
/-- Accumulator 5: a whole scoped buffer of the kernel's own, carried between points. -/
abbrev scM0_5 : Memref sig .tc .vmem S32x128 .f32 := Memref.whole cc0_scratch5
abbrev VS0_5 : View sig .tc .vmem S32x128 .f32 := scM0_5.view
/-- Accumulator 6: a whole scoped buffer of the kernel's own, carried between points. -/
abbrev scM0_6 : Memref sig .tc .vmem S32x128 .f32 := Memref.whole cc0_scratch6
abbrev VS0_6 : View sig .tc .vmem S32x128 .f32 := scM0_6.view
/-- Accumulator 7: a whole scoped buffer of the kernel's own, carried between points. -/
abbrev scM0_7 : Memref sig .tc .vmem S32x128 .f32 := Memref.whole cc0_scratch7
abbrev VS0_7 : View sig .tc .vmem S32x128 .f32 := scM0_7.view
/-- Accumulator 8: a whole scoped buffer of the kernel's own, carried between points. -/
abbrev scM0_8 : Memref sig .tc .vmem S32x128 .f32 := Memref.whole cc0_scratch8
abbrev VS0_8 : View sig .tc .vmem S32x128 .f32 := scM0_8.view
/-- Accumulator 9: a whole scoped buffer of the kernel's own, carried between points. -/
abbrev scM0_9 : Memref sig .tc .vmem S32x128 .f32 := Memref.whole cc0_scratch9
abbrev VS0_9 : View sig .tc .vmem S32x128 .f32 := scM0_9.view

/-- The region invariant of a kernel that describes nothing of its own, with the ten accumulators as memrefs owned at
    some contents: what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d)) ∗ (∃ r, prngReg c r)) := by
  unfold Pipeline.ΦA; rw [scopedRest0_eq]; simp only [scM0_0, scM0_1, scM0_2, scM0_3, scM0_4, scM0_5, scM0_6, scM0_7, scM0_8, scM0_9, owns_whole]; try rfl

end Cert.Kernel.Fr

end
-- ==== Proof.Bits.RunA.lean ====
/- The kernel body run whole at a grid point of one kind: the channel-chunk coordinate is 0 (the ten accumulators are reset, then the chunk's sums and maxima are added in; the two per-channel mean rows are stored; the five map outputs are left untouched).
   The pieces each buffer ends with are the witness the run finds. Stated for any float instance. -/
import proofs.«129784_j68891275428342_2_alg».proof.Proof.Bits.Kit

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords) (arg2 : Memref sig .tc .vmem S1x128x32x128 .f32) (harg2 : arg2.IsWhole) (arg3 : Memref sig .tc .vmem S1x128x32x128 .f32) (harg3 : arg3.IsWhole) (arg4 : Memref sig .tc .vmem S1x128x32x128 .f32) (harg4 : arg4.IsWhole) (arg5 : Memref sig .tc .vmem S1x128x32x128 .f32) (harg5 : arg5.IsWhole) (arg6 : Memref sig .tc .vmem S1x128x32x128 .f32) (harg6 : arg6.IsWhole) (arg7 : Memref sig .tc .vmem S1x1x32x128 .f32) (harg7 : arg7.IsWhole) (arg8 : Memref sig .tc .vmem S1x1x1x128 .f32) (harg8 : arg8.IsWhole) (arg9 : Memref sig .tc .vmem S1x1x1x128 .f32) (harg9 : arg9.IsWhole) (arg10 : Memref sig .tc .vmem S1x32x128 .f32) (harg10 : arg10.IsWhole) (arg11 : Memref sig .tc .vmem S1x32x128 .f32) (harg11 : arg11.IsWhole) (arg12 : Memref sig .tc .vmem S1x32x128 .f32) (harg12 : arg12.IsWhole) (arg13 : Memref sig .tc .vmem S1x32x128 .f32) (harg13 : arg13.IsWhole) (arg14 : Memref sig .tc .vmem S1x2x128 .f32) (harg14 : arg14.IsWhole) (arg15 : Memref sig .tc .vmem S32x128 .f32) (harg15 : arg15.IsWhole) (arg16 : Memref sig .tc .vmem S32x128 .f32) (harg16 : arg16.IsWhole) (arg17 : Memref sig .tc .vmem S32x128 .f32) (harg17 : arg17.IsWhole) (arg18 : Memref sig .tc .vmem S32x128 .f32) (harg18 : arg18.IsWhole) (arg19 : Memref sig .tc .vmem S32x128 .f32) (harg19 : arg19.IsWhole) (arg20 : Memref sig .tc .vmem S32x128 .f32) (harg20 : arg20.IsWhole) (arg21 : Memref sig .tc .vmem S32x128 .f32) (harg21 : arg21.IsWhole) (arg22 : Memref sig .tc .vmem S32x128 .f32) (harg22 : arg22.IsWhole) (arg23 : Memref sig .tc .vmem S32x128 .f32) (harg23 : arg23.IsWhole) (arg24 : Memref sig .tc .vmem S32x128 .f32) (harg24 : arg24.IsWhole) (hc0 : cond0_0 i) (hc1 : ¬cond0_1 i)
    (x0 x1 x2 x3 x4 : Vec F S1x128x32x128 .f32) (x5 : Vec F S1x1x32x128 .f32) :
    Σ' (L6 : List (View.Piece (Elt F) S1x1x1x128 .f32)) (L7 : List (View.Piece (Elt F) S1x1x1x128 .f32)) (LS0 : List (View.Piece (Elt F) S32x128 .f32)) (LS1 : List (View.Piece (Elt F) S32x128 .f32)) (LS2 : List (View.Piece (Elt F) S32x128 .f32)) (LS3 : List (View.Piece (Elt F) S32x128 .f32)) (LS4 : List (View.Piece (Elt F) S32x128 .f32)) (LS5 : List (View.Piece (Elt F) S32x128 .f32)) (LS6 : List (View.Piece (Elt F) S32x128 .f32)) (LS7 : List (View.Piece (Elt F) S32x128 .f32)) (LS8 : List (View.Piece (Elt F) S32x128 .f32)), { LS9 : List (View.Piece (Elt F) S32x128 .f32) //
      ∀ (xi8 xi9 xi10 xi11 : Vec F S1x32x128 .f32) (xi12 : Vec F S1x2x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ (∃ d, owns (c : Thread nD τ) arg8 fullShare d)
            ∗ (∃ d, owns (c : Thread nD τ) arg9 fullShare d)
            ∗ owns (c : Thread nD τ) arg10 fullShare xi8
            ∗ owns (c : Thread nD τ) arg11 fullShare xi9
            ∗ owns (c : Thread nD τ) arg12 fullShare xi10
            ∗ owns (c : Thread nD τ) arg13 fullShare xi11
            ∗ owns (c : Thread nD τ) arg14 fullShare xi12
            ∗ (∃ d, owns (c : Thread nD τ) arg15 fullShare d)
            ∗ (∃ d, owns (c : Thread nD τ) arg16 fullShare d)
            ∗ (∃ d, owns (c : Thread nD τ) arg17 fullShare d)
            ∗ (∃ d, owns (c : Thread nD τ) arg18 fullShare d)
            ∗ (∃ d, owns (c : Thread nD τ) arg19 fullShare d)
            ∗ (∃ d, owns (c : Thread nD τ) arg20 fullShare d)
            ∗ (∃ d, owns (c : Thread nD τ) arg21 fullShare d)
            ∗ (∃ d, owns (c : Thread nD τ) arg22 fullShare d)
            ∗ (∃ d, owns (c : Thread nD τ) arg23 fullShare d)
            ∗ (∃ d, owns (c : Thread nD τ) arg24 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
              ∗ (∃ f, arg8.view.loc (c : Thread nD τ) ↦[arg8.view.set]{fullShare} arg8.view.writes (Elt F) f L6)
              ∗ (∃ f, arg9.view.loc (c : Thread nD τ) ↦[arg9.view.set]{fullShare} arg9.view.writes (Elt F) f L7)
              ∗ owns (c : Thread nD τ) arg10 fullShare xi8
              ∗ owns (c : Thread nD τ) arg11 fullShare xi9
              ∗ owns (c : Thread nD τ) arg12 fullShare xi10
              ∗ owns (c : Thread nD τ) arg13 fullShare xi11
              ∗ owns (c : Thread nD τ) arg14 fullShare xi12
              ∗ (∃ f, arg15.view.loc (c : Thread nD τ) ↦[arg15.view.set]{fullShare} arg15.view.writes (Elt F) f LS0)
              ∗ (∃ f, arg16.view.loc (c : Thread nD τ) ↦[arg16.view.set]{fullShare} arg16.view.writes (Elt F) f LS1)
              ∗ (∃ f, arg17.view.loc (c : Thread nD τ) ↦[arg17.view.set]{fullShare} arg17.view.writes (Elt F) f LS2)
              ∗ (∃ f, arg18.view.loc (c : Thread nD τ) ↦[arg18.view.set]{fullShare} arg18.view.writes (Elt F) f LS3)
              ∗ (∃ f, arg19.view.loc (c : Thread nD τ) ↦[arg19.view.set]{fullShare} arg19.view.writes (Elt F) f LS4)
              ∗ (∃ f, arg20.view.loc (c : Thread nD τ) ↦[arg20.view.set]{fullShare} arg20.view.writes (Elt F) f LS5)
              ∗ (∃ f, arg21.view.loc (c : Thread nD τ) ↦[arg21.view.set]{fullShare} arg21.view.writes (Elt F) f LS6)
              ∗ (∃ f, arg22.view.loc (c : Thread nD τ) ↦[arg22.view.set]{fullShare} arg22.view.writes (Elt F) f LS7)
              ∗ (∃ f, arg23.view.loc (c : Thread nD τ) ↦[arg23.view.set]{fullShare} arg23.view.writes (Elt F) f LS8)
              ∗ (∃ f, arg24.view.loc (c : Thread nD τ) ↦[arg24.view.set]{fullShare} arg24.view.writes (Elt F) f LS9)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K } := by
  refine ⟨?_, ?_, ?_, ?_, ?_, ?_, ?_, ?_, ?_, ?_, ?_, ?_, fun xi8 xi9 xi10 xi11 xi12 E K => ?run⟩
  case run =>
    -- the printed body and its six parts, as their skeletons of memory operations over the payload names
    simp only [cc0__kernel_eq_skeleton]; unfold cc0__kernel_skel
    simp only [k0_part4_eq_skeleton, k0_part1_eq_skeleton, k0_part5_eq_skeleton, k0_part6_eq_skeleton,
      k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩,
      ⟨%d6, %f6, -, H6⟩, ⟨%d7, %f7, -, H7⟩,
      ⟨%f8, %hf8, H8⟩, ⟨%f9, %hf9, H9⟩, ⟨%f10, %hf10, H10⟩, ⟨%f11, %hf11, H11⟩, ⟨%f12, %hf12, H12⟩,
      ⟨%ds0, %fs0, -, HS0⟩, ⟨%ds1, %fs1, -, HS1⟩, ⟨%ds2, %fs2, -, HS2⟩, ⟨%ds3, %fs3, -, HS3⟩, ⟨%ds4, %fs4, -, HS4⟩,
      ⟨%ds5, %fs5, -, HS5⟩, ⟨%ds6, %fs6, -, HS6⟩, ⟨%ds7, %fs7, -, HS7⟩, ⟨%ds8, %fs8, -, HS8⟩, ⟨%ds9, %fs9, -, HS9⟩, Hk⟩
    -- a whole memref read at known contents holds exactly those contents, unread
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg10.eq_unread hf8; obtain rfl := harg11.eq_unread hf9; obtain rfl := harg12.eq_unread hf10
    obtain rfl := harg13.eq_unread hf11; obtain rfl := harg14.eq_unread hf12
    -- the run: the reset branch is taken (hc0), the finalizing branch is not (hc1)
    sl_exec (disch := first | exact hc0 | exact hc1)
    sl_step
    iapply Hk
    -- the six inputs, as they were
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    -- the two mean rows, with the one piece each was stored
    isplitl [H6]; · iexists _; iexact H6
    isplitl [H7]; · iexists _; iexact H7
    -- the five idle outputs, untouched
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    -- the ten accumulators, each with its reset and then its update written
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    isplitl [HS7]; · iexists _; iexact HS7
    isplitl [HS8]; · iexists _; iexact HS8
    iexists _; iexact HS9

end Cert.Kernel.Fr

end
-- ==== Proof.Bits.RunB.lean ====
/- The kernel body run whole at a grid point of one kind: the channel-chunk coordinate is 1 (the chunk's sums and maxima are added to what the point before left in the ten accumulators; the two per-channel mean rows, the four maps and the two sums are stored).
   The pieces each buffer ends with are the witness the run finds. Stated for any float instance. -/
import proofs.«129784_j68891275428342_2_alg».proof.Proof.Bits.RunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg2 : Memref sig .tc .vmem S1x128x32x128 .f32) (harg2 : arg2.IsWhole) (arg3 : Memref sig .tc .vmem S1x128x32x128 .f32) (harg3 : arg3.IsWhole) (arg4 : Memref sig .tc .vmem S1x128x32x128 .f32) (harg4 : arg4.IsWhole) (arg5 : Memref sig .tc .vmem S1x128x32x128 .f32) (harg5 : arg5.IsWhole) (arg6 : Memref sig .tc .vmem S1x128x32x128 .f32) (harg6 : arg6.IsWhole) (arg7 : Memref sig .tc .vmem S1x1x32x128 .f32) (harg7 : arg7.IsWhole) (arg8 : Memref sig .tc .vmem S1x1x1x128 .f32) (harg8 : arg8.IsWhole) (arg9 : Memref sig .tc .vmem S1x1x1x128 .f32) (harg9 : arg9.IsWhole) (arg10 : Memref sig .tc .vmem S1x32x128 .f32) (harg10 : arg10.IsWhole) (arg11 : Memref sig .tc .vmem S1x32x128 .f32) (harg11 : arg11.IsWhole) (arg12 : Memref sig .tc .vmem S1x32x128 .f32) (harg12 : arg12.IsWhole) (arg13 : Memref sig .tc .vmem S1x32x128 .f32) (harg13 : arg13.IsWhole) (arg14 : Memref sig .tc .vmem S1x2x128 .f32) (harg14 : arg14.IsWhole) (arg15 : Memref sig .tc .vmem S32x128 .f32) (harg15 : arg15.IsWhole) (arg16 : Memref sig .tc .vmem S32x128 .f32) (harg16 : arg16.IsWhole) (arg17 : Memref sig .tc .vmem S32x128 .f32) (harg17 : arg17.IsWhole) (arg18 : Memref sig .tc .vmem S32x128 .f32) (harg18 : arg18.IsWhole) (arg19 : Memref sig .tc .vmem S32x128 .f32) (harg19 : arg19.IsWhole) (arg20 : Memref sig .tc .vmem S32x128 .f32) (harg20 : arg20.IsWhole) (arg21 : Memref sig .tc .vmem S32x128 .f32) (harg21 : arg21.IsWhole) (arg22 : Memref sig .tc .vmem S32x128 .f32) (harg22 : arg22.IsWhole) (arg23 : Memref sig .tc .vmem S32x128 .f32) (harg23 : arg23.IsWhole) (arg24 : Memref sig .tc .vmem S32x128 .f32) (harg24 : arg24.IsWhole) (hc0 : ¬cond0_0 i) (hc1 : cond0_1 i)
    (x0 x1 x2 x3 x4 : Vec F S1x128x32x128 .f32) (x5 : Vec F S1x1x32x128 .f32) (xs0 xs1 xs2 xs3 xs4 xs5 xs6 xs7 xs8 xs9 : Vec F S32x128 .f32) :
    Σ' (L6 : List (View.Piece (Elt F) S1x1x1x128 .f32)) (L7 : List (View.Piece (Elt F) S1x1x1x128 .f32)) (L8 : List (View.Piece (Elt F) S1x32x128 .f32)) (L9 : List (View.Piece (Elt F) S1x32x128 .f32)) (L10 : List (View.Piece (Elt F) S1x32x128 .f32)) (L11 : List (View.Piece (Elt F) S1x32x128 .f32)) (L12 : List (View.Piece (Elt F) S1x2x128 .f32)) (LS0 : List (View.Piece (Elt F) S32x128 .f32)) (LS1 : List (View.Piece (Elt F) S32x128 .f32)) (LS2 : List (View.Piece (Elt F) S32x128 .f32)) (LS3 : List (View.Piece (Elt F) S32x128 .f32)) (LS4 : List (View.Piece (Elt F) S32x128 .f32)) (LS5 : List (View.Piece (Elt F) S32x128 .f32)) (LS6 : List (View.Piece (Elt F) S32x128 .f32)) (LS7 : List (View.Piece (Elt F) S32x128 .f32)) (LS8 : List (View.Piece (Elt F) S32x128 .f32)), { LS9 : List (View.Piece (Elt F) S32x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ (∃ d, owns (c : Thread nD τ) arg8 fullShare d)
            ∗ (∃ d, owns (c : Thread nD τ) arg9 fullShare d)
            ∗ (∃ d, owns (c : Thread nD τ) arg10 fullShare d)
            ∗ (∃ d, owns (c : Thread nD τ) arg11 fullShare d)
            ∗ (∃ d, owns (c : Thread nD τ) arg12 fullShare d)
            ∗ (∃ d, owns (c : Thread nD τ) arg13 fullShare d)
            ∗ (∃ d, owns (c : Thread nD τ) arg14 fullShare d)
            ∗ owns (c : Thread nD τ) arg15 fullShare xs0
            ∗ owns (c : Thread nD τ) arg16 fullShare xs1
            ∗ owns (c : Thread nD τ) arg17 fullShare xs2
            ∗ owns (c : Thread nD τ) arg18 fullShare xs3
            ∗ owns (c : Thread nD τ) arg19 fullShare xs4
            ∗ owns (c : Thread nD τ) arg20 fullShare xs5
            ∗ owns (c : Thread nD τ) arg21 fullShare xs6
            ∗ owns (c : Thread nD τ) arg22 fullShare xs7
            ∗ owns (c : Thread nD τ) arg23 fullShare xs8
            ∗ owns (c : Thread nD τ) arg24 fullShare xs9
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
              ∗ (∃ f, arg8.view.loc (c : Thread nD τ) ↦[arg8.view.set]{fullShare} arg8.view.writes (Elt F) f L6)
              ∗ (∃ f, arg9.view.loc (c : Thread nD τ) ↦[arg9.view.set]{fullShare} arg9.view.writes (Elt F) f L7)
              ∗ (∃ f, arg10.view.loc (c : Thread nD τ) ↦[arg10.view.set]{fullShare} arg10.view.writes (Elt F) f L8)
              ∗ (∃ f, arg11.view.loc (c : Thread nD τ) ↦[arg11.view.set]{fullShare} arg11.view.writes (Elt F) f L9)
              ∗ (∃ f, arg12.view.loc (c : Thread nD τ) ↦[arg12.view.set]{fullShare} arg12.view.writes (Elt F) f L10)
              ∗ (∃ f, arg13.view.loc (c : Thread nD τ) ↦[arg13.view.set]{fullShare} arg13.view.writes (Elt F) f L11)
              ∗ (∃ f, arg14.view.loc (c : Thread nD τ) ↦[arg14.view.set]{fullShare} arg14.view.writes (Elt F) f L12)
              ∗ (∃ f, arg15.view.loc (c : Thread nD τ) ↦[arg15.view.set]{fullShare} arg15.view.writes (Elt F) f LS0)
              ∗ (∃ f, arg16.view.loc (c : Thread nD τ) ↦[arg16.view.set]{fullShare} arg16.view.writes (Elt F) f LS1)
              ∗ (∃ f, arg17.view.loc (c : Thread nD τ) ↦[arg17.view.set]{fullShare} arg17.view.writes (Elt F) f LS2)
              ∗ (∃ f, arg18.view.loc (c : Thread nD τ) ↦[arg18.view.set]{fullShare} arg18.view.writes (Elt F) f LS3)
              ∗ (∃ f, arg19.view.loc (c : Thread nD τ) ↦[arg19.view.set]{fullShare} arg19.view.writes (Elt F) f LS4)
              ∗ (∃ f, arg20.view.loc (c : Thread nD τ) ↦[arg20.view.set]{fullShare} arg20.view.writes (Elt F) f LS5)
              ∗ (∃ f, arg21.view.loc (c : Thread nD τ) ↦[arg21.view.set]{fullShare} arg21.view.writes (Elt F) f LS6)
              ∗ (∃ f, arg22.view.loc (c : Thread nD τ) ↦[arg22.view.set]{fullShare} arg22.view.writes (Elt F) f LS7)
              ∗ (∃ f, arg23.view.loc (c : Thread nD τ) ↦[arg23.view.set]{fullShare} arg23.view.writes (Elt F) f LS8)
              ∗ (∃ f, arg24.view.loc (c : Thread nD τ) ↦[arg24.view.set]{fullShare} arg24.view.writes (Elt F) f LS9)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K } := by
  refine ⟨?_, ?_, ?_, ?_, ?_, ?_, ?_, ?_, ?_, ?_, ?_, ?_, ?_, ?_, ?_, ?_, ?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, ⟨%fs6, %hfs6, HS6⟩, ⟨%fs7, %hfs7, HS7⟩, ⟨%fs8, %hfs8, HS8⟩, ⟨%fs9, %hfs9, HS9⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg15.eq_unread hfs0; obtain rfl := harg16.eq_unread hfs1; obtain rfl := harg17.eq_unread hfs2; obtain rfl := harg18.eq_unread hfs3; obtain rfl := harg19.eq_unread hfs4; obtain rfl := harg20.eq_unread hfs5; obtain rfl := harg21.eq_unread hfs6; obtain rfl := harg22.eq_unread hfs7; obtain rfl := harg23.eq_unread hfs8; obtain rfl := harg24.eq_unread hfs9
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    isplitl [HS7]; · iexists _; iexact HS7
    isplitl [HS8]; · iexists _; iexact HS8
    iexists _; iexact HS9

end Cert.Kernel.Fr

end
-- ==== Proof.Bits.Frame.lean ====
/- The kernel program's frame: what the seven output blocks and the ten accumulators hold after the body at each
   grid point (at an even point the reset-and-first-chunk case, at an odd point the second chunk added to what the
   point before left, and the maps finalized), and the region's proof data over that.
   Stated for any float instance. -/
import proofs.«129784_j68891275428342_2_alg».proof.Proof.Bits.RunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two kinds of point -/

theorem hcA0 (t : Fin cfg0.N) (h0 : t.val % 2 = 0) : cond0_0 (grid0.coords t) := (hcond0_0 t).mpr h0
theorem hcA1 (t : Fin cfg0.N) (h0 : t.val % 2 = 0) : ¬cond0_1 (grid0.coords t) := fun h => by
  have := (hcond0_1 t).mp h; omega
theorem hcB0 (t : Fin cfg0.N) (h0 : ¬t.val % 2 = 0) : ¬cond0_0 (grid0.coords t) := fun h => h0 ((hcond0_0 t).mp h)
theorem hcB1 (t : Fin cfg0.N) (h0 : ¬t.val % 2 = 0) : cond0_1 (grid0.coords t) := (hcond0_1 t).mpr (by omega)

/-- What the body leaves at a point: the seven output blocks and the ten accumulators. -/
structure Pt (F : FTy → Type) [FloatOps F] where
  o6 : Vec F S1x1x1x128 .f32
  o7 : Vec F S1x1x1x128 .f32
  o8 : Vec F S1x32x128 .f32
  o9 : Vec F S1x32x128 .f32
  o10 : Vec F S1x32x128 .f32
  o11 : Vec F S1x32x128 .f32
  o12 : Vec F S1x2x128 .f32
  s0 : Vec F S32x128 .f32
  s1 : Vec F S32x128 .f32
  s2 : Vec F S32x128 .f32
  s3 : Vec F S32x128 .f32
  s4 : Vec F S32x128 .f32
  s5 : Vec F S32x128 .f32
  s6 : Vec F S32x128 .f32
  s7 : Vec F S32x128 .f32
  s8 : Vec F S32x128 .f32
  s9 : Vec F S32x128 .f32

/-- The body's run at an even point, on that point's staging memrefs and input blocks. -/
abbrev runA (c : Dev nD) (t : Fin cfg0.N) (h0 : t.val % 2 = 0) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (hcA0 t h0) (hcA1 t h0) (iblk m c 0 t) (iblk m c 1 t) (iblk m c 2 t) (iblk m c 3 t) (iblk m c 4 t) (iblk m c 5 t)

/-- The body's run at an odd point, over what the point before left in the accumulators. -/
abbrev runB (c : Dev nD) (t : Fin cfg0.N) (h0 : ¬t.val % 2 = 0) (xs0 xs1 xs2 xs3 xs4 xs5 xs6 xs7 xs8 xs9 : Vec F S32x128 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (hcB0 t h0) (hcB1 t h0) (iblk m c 0 t) (iblk m c 1 t) (iblk m c 2 t) (iblk m c 3 t) (iblk m c 4 t) (iblk m c 5 t) xs0 xs1 xs2 xs3 xs4 xs5 xs6 xs7 xs8 xs9

/-- After an even point: the two mean rows and the accumulators hold the run's pieces read back; the five maps'
    blocks are not consulted there (idle, not written back). -/
def ptA (c : Dev nD) (t : Fin cfg0.N) (h0 : t.val % 2 = 0) : Pt F where
  o6 := VO0_6.read (Elt F) (VO0_6.writes (Elt F) VO0_6.junk (runA m c t h0).1)
  o7 := VO0_7.read (Elt F) (VO0_7.writes (Elt F) VO0_7.junk (runA m c t h0).2.1)
  o8 := VO0_8.read (Elt F) VO0_8.junk
  o9 := VO0_9.read (Elt F) VO0_9.junk
  o10 := VO0_10.read (Elt F) VO0_10.junk
  o11 := VO0_11.read (Elt F) VO0_11.junk
  o12 := VO0_12.read (Elt F) VO0_12.junk
  s0 := VS0_0.read (Elt F) (VS0_0.writes (Elt F) VS0_0.junk (runA m c t h0).2.2.1)
  s1 := VS0_1.read (Elt F) (VS0_1.writes (Elt F) VS0_1.junk (runA m c t h0).2.2.2.1)
  s2 := VS0_2.read (Elt F) (VS0_2.writes (Elt F) VS0_2.junk (runA m c t h0).2.2.2.2.1)
  s3 := VS0_3.read (Elt F) (VS0_3.writes (Elt F) VS0_3.junk (runA m c t h0).2.2.2.2.2.1)
  s4 := VS0_4.read (Elt F) (VS0_4.writes (Elt F) VS0_4.junk (runA m c t h0).2.2.2.2.2.2.1)
  s5 := VS0_5.read (Elt F) (VS0_5.writes (Elt F) VS0_5.junk (runA m c t h0).2.2.2.2.2.2.2.1)
  s6 := VS0_6.read (Elt F) (VS0_6.writes (Elt F) VS0_6.junk (runA m c t h0).2.2.2.2.2.2.2.2.1)
  s7 := VS0_7.read (Elt F) (VS0_7.writes (Elt F) VS0_7.junk (runA m c t h0).2.2.2.2.2.2.2.2.2.1)
  s8 := VS0_8.read (Elt F) (VS0_8.writes (Elt F) VS0_8.junk (runA m c t h0).2.2.2.2.2.2.2.2.2.2.1)
  s9 := VS0_9.read (Elt F) (VS0_9.writes (Elt F) VS0_9.junk (runA m c t h0).2.2.2.2.2.2.2.2.2.2.2.1)

/-- After an odd point, over the accumulators `p` the point before left. -/
def ptB (c : Dev nD) (t : Fin cfg0.N) (h0 : ¬t.val % 2 = 0) (p : Pt F) : Pt F where
  o6 := VO0_6.read (Elt F) (VO0_6.writes (Elt F) VO0_6.junk (runB m c t h0 p.s0 p.s1 p.s2 p.s3 p.s4 p.s5 p.s6 p.s7 p.s8 p.s9).1)
  o7 := VO0_7.read (Elt F) (VO0_7.writes (Elt F) VO0_7.junk (runB m c t h0 p.s0 p.s1 p.s2 p.s3 p.s4 p.s5 p.s6 p.s7 p.s8 p.s9).2.1)
  o8 := VO0_8.read (Elt F) (VO0_8.writes (Elt F) VO0_8.junk (runB m c t h0 p.s0 p.s1 p.s2 p.s3 p.s4 p.s5 p.s6 p.s7 p.s8 p.s9).2.2.1)
  o9 := VO0_9.read (Elt F) (VO0_9.writes (Elt F) VO0_9.junk (runB m c t h0 p.s0 p.s1 p.s2 p.s3 p.s4 p.s5 p.s6 p.s7 p.s8 p.s9).2.2.2.1)
  o10 := VO0_10.read (Elt F) (VO0_10.writes (Elt F) VO0_10.junk (runB m c t h0 p.s0 p.s1 p.s2 p.s3 p.s4 p.s5 p.s6 p.s7 p.s8 p.s9).2.2.2.2.1)
  o11 := VO0_11.read (Elt F) (VO0_11.writes (Elt F) VO0_11.junk (runB m c t h0 p.s0 p.s1 p.s2 p.s3 p.s4 p.s5 p.s6 p.s7 p.s8 p.s9).2.2.2.2.2.1)
  o12 := VO0_12.read (Elt F) (VO0_12.writes (Elt F) VO0_12.junk (runB m c t h0 p.s0 p.s1 p.s2 p.s3 p.s4 p.s5 p.s6 p.s7 p.s8 p.s9).2.2.2.2.2.2.1)
  s0 := VS0_0.read (Elt F) (VS0_0.writes (Elt F) VS0_0.junk (runB m c t h0 p.s0 p.s1 p.s2 p.s3 p.s4 p.s5 p.s6 p.s7 p.s8 p.s9).2.2.2.2.2.2.2.1)
  s1 := VS0_1.read (Elt F) (VS0_1.writes (Elt F) VS0_1.junk (runB m c t h0 p.s0 p.s1 p.s2 p.s3 p.s4 p.s5 p.s6 p.s7 p.s8 p.s9).2.2.2.2.2.2.2.2.1)
  s2 := VS0_2.read (Elt F) (VS0_2.writes (Elt F) VS0_2.junk (runB m c t h0 p.s0 p.s1 p.s2 p.s3 p.s4 p.s5 p.s6 p.s7 p.s8 p.s9).2.2.2.2.2.2.2.2.2.1)
  s3 := VS0_3.read (Elt F) (VS0_3.writes (Elt F) VS0_3.junk (runB m c t h0 p.s0 p.s1 p.s2 p.s3 p.s4 p.s5 p.s6 p.s7 p.s8 p.s9).2.2.2.2.2.2.2.2.2.2.1)
  s4 := VS0_4.read (Elt F) (VS0_4.writes (Elt F) VS0_4.junk (runB m c t h0 p.s0 p.s1 p.s2 p.s3 p.s4 p.s5 p.s6 p.s7 p.s8 p.s9).2.2.2.2.2.2.2.2.2.2.2.1)
  s5 := VS0_5.read (Elt F) (VS0_5.writes (Elt F) VS0_5.junk (runB m c t h0 p.s0 p.s1 p.s2 p.s3 p.s4 p.s5 p.s6 p.s7 p.s8 p.s9).2.2.2.2.2.2.2.2.2.2.2.2.1)
  s6 := VS0_6.read (Elt F) (VS0_6.writes (Elt F) VS0_6.junk (runB m c t h0 p.s0 p.s1 p.s2 p.s3 p.s4 p.s5 p.s6 p.s7 p.s8 p.s9).2.2.2.2.2.2.2.2.2.2.2.2.2.1)
  s7 := VS0_7.read (Elt F) (VS0_7.writes (Elt F) VS0_7.junk (runB m c t h0 p.s0 p.s1 p.s2 p.s3 p.s4 p.s5 p.s6 p.s7 p.s8 p.s9).2.2.2.2.2.2.2.2.2.2.2.2.2.2.1)
  s8 := VS0_8.read (Elt F) (VS0_8.writes (Elt F) VS0_8.junk (runB m c t h0 p.s0 p.s1 p.s2 p.s3 p.s4 p.s5 p.s6 p.s7 p.s8 p.s9).2.2.2.2.2.2.2.2.2.2.2.2.2.2.2.1)
  s9 := VS0_9.read (Elt F) (VS0_9.writes (Elt F) VS0_9.junk (runB m c t h0 p.s0 p.s1 p.s2 p.s3 p.s4 p.s5 p.s6 p.s7 p.s8 p.s9).2.2.2.2.2.2.2.2.2.2.2.2.2.2.2.2.1)

/-! ## The pieces cover their buffers -/
theorem cover0_A_6 (c : Dev nD) (t : Fin cfg0.N) (h0 : t.val % 2 = 0) (y : S1x1x1x128.Idx) :
    ∃ pc ∈ (runA m c t h0).1, y ∈ pc.1.set :=
  View.cover_of_tiledL (runA m c t h0).1 S1x1x1x128.size (by sl_kernel_rfl) y
theorem cover0_A_7 (c : Dev nD) (t : Fin cfg0.N) (h0 : t.val % 2 = 0) (y : S1x1x1x128.Idx) :
    ∃ pc ∈ (runA m c t h0).2.1, y ∈ pc.1.set :=
  View.cover_of_tiledL (runA m c t h0).2.1 S1x1x1x128.size (by sl_kernel_rfl) y
theorem scover0_A_0 (c : Dev nD) (t : Fin cfg0.N) (h0 : t.val % 2 = 0) (y : S32x128.Idx) :
    ∃ pc ∈ (runA m c t h0).2.2.1, y ∈ pc.1.set :=
  View.cover_of_tiledL (runA m c t h0).2.2.1 S32x128.size (by sl_kernel_rfl) y
theorem scover0_A_1 (c : Dev nD) (t : Fin cfg0.N) (h0 : t.val % 2 = 0) (y : S32x128.Idx) :
    ∃ pc ∈ (runA m c t h0).2.2.2.1, y ∈ pc.1.set :=
  View.cover_of_tiledL (runA m c t h0).2.2.2.1 S32x128.size (by sl_kernel_rfl) y
theorem scover0_A_2 (c : Dev nD) (t : Fin cfg0.N) (h0 : t.val % 2 = 0) (y : S32x128.Idx) :
    ∃ pc ∈ (runA m c t h0).2.2.2.2.1, y ∈ pc.1.set :=
  View.cover_of_tiledL (runA m c t h0).2.2.2.2.1 S32x128.size (by sl_kernel_rfl) y
theorem scover0_A_3 (c : Dev nD) (t : Fin cfg0.N) (h0 : t.val % 2 = 0) (y : S32x128.Idx) :
    ∃ pc ∈ (runA m c t h0).2.2.2.2.2.1, y ∈ pc.1.set :=
  View.cover_of_tiledL (runA m c t h0).2.2.2.2.2.1 S32x128.size (by sl_kernel_rfl) y
theorem scover0_A_4 (c : Dev nD) (t : Fin cfg0.N) (h0 : t.val % 2 = 0) (y : S32x128.Idx) :
    ∃ pc ∈ (runA m c t h0).2.2.2.2.2.2.1, y ∈ pc.1.set :=
  View.cover_of_tiledL (runA m c t h0).2.2.2.2.2.2.1 S32x128.size (by sl_kernel_rfl) y
theorem scover0_A_5 (c : Dev nD) (t : Fin cfg0.N) (h0 : t.val % 2 = 0) (y : S32x128.Idx) :
    ∃ pc ∈ (runA m c t h0).2.2.2.2.2.2.2.1, y ∈ pc.1.set :=
  View.cover_of_tiledL (runA m c t h0).2.2.2.2.2.2.2.1 S32x128.size (by sl_kernel_rfl) y
theorem scover0_A_6 (c : Dev nD) (t : Fin cfg0.N) (h0 : t.val % 2 = 0) (y : S32x128.Idx) :
    ∃ pc ∈ (runA m c t h0).2.2.2.2.2.2.2.2.1, y ∈ pc.1.set :=
  View.cover_of_tiledL (runA m c t h0).2.2.2.2.2.2.2.2.1 S32x128.size (by sl_kernel_rfl) y
theorem scover0_A_7 (c : Dev nD) (t : Fin cfg0.N) (h0 : t.val % 2 = 0) (y : S32x128.Idx) :
    ∃ pc ∈ (runA m c t h0).2.2.2.2.2.2.2.2.2.1, y ∈ pc.1.set :=
  View.cover_of_tiledL (runA m c t h0).2.2.2.2.2.2.2.2.2.1 S32x128.size (by sl_kernel_rfl) y
theorem scover0_A_8 (c : Dev nD) (t : Fin cfg0.N) (h0 : t.val % 2 = 0) (y : S32x128.Idx) :
    ∃ pc ∈ (runA m c t h0).2.2.2.2.2.2.2.2.2.2.1, y ∈ pc.1.set :=
  View.cover_of_tiledL (runA m c t h0).2.2.2.2.2.2.2.2.2.2.1 S32x128.size (by sl_kernel_rfl) y
theorem scover0_A_9 (c : Dev nD) (t : Fin cfg0.N) (h0 : t.val % 2 = 0) (y : S32x128.Idx) :
    ∃ pc ∈ (runA m c t h0).2.2.2.2.2.2.2.2.2.2.2.1, y ∈ pc.1.set :=
  View.cover_of_tiledL (runA m c t h0).2.2.2.2.2.2.2.2.2.2.2.1 S32x128.size (by sl_kernel_rfl) y
theorem cover0_B_6 (c : Dev nD) (t : Fin cfg0.N) (h0 : ¬t.val % 2 = 0) (xs0 xs1 xs2 xs3 xs4 xs5 xs6 xs7 xs8 xs9 : Vec F S32x128 .f32) (y : S1x1x1x128.Idx) :
    ∃ pc ∈ (runB m c t h0 xs0 xs1 xs2 xs3 xs4 xs5 xs6 xs7 xs8 xs9).1, y ∈ pc.1.set :=
  View.cover_of_tiledL (runB m c t h0 xs0 xs1 xs2 xs3 xs4 xs5 xs6 xs7 xs8 xs9).1 S1x1x1x128.size (by sl_kernel_rfl) y
theorem cover0_B_7 (c : Dev nD) (t : Fin cfg0.N) (h0 : ¬t.val % 2 = 0) (xs0 xs1 xs2 xs3 xs4 xs5 xs6 xs7 xs8 xs9 : Vec F S32x128 .f32) (y : S1x1x1x128.Idx) :
    ∃ pc ∈ (runB m c t h0 xs0 xs1 xs2 xs3 xs4 xs5 xs6 xs7 xs8 xs9).2.1, y ∈ pc.1.set :=
  View.cover_of_tiledL (runB m c t h0 xs0 xs1 xs2 xs3 xs4 xs5 xs6 xs7 xs8 xs9).2.1 S1x1x1x128.size (by sl_kernel_rfl) y
theorem cover0_B_8 (c : Dev nD) (t : Fin cfg0.N) (h0 : ¬t.val % 2 = 0) (xs0 xs1 xs2 xs3 xs4 xs5 xs6 xs7 xs8 xs9 : Vec F S32x128 .f32) (y : S1x32x128.Idx) :
    ∃ pc ∈ (runB m c t h0 xs0 xs1 xs2 xs3 xs4 xs5 xs6 xs7 xs8 xs9).2.2.1, y ∈ pc.1.set :=
  View.cover_of_tiledL (runB m c t h0 xs0 xs1 xs2 xs3 xs4 xs5 xs6 xs7 xs8 xs9).2.2.1 S1x32x128.size (by sl_kernel_rfl) y
theorem cover0_B_9 (c : Dev nD) (t : Fin cfg0.N) (h0 : ¬t.val % 2 = 0) (xs0 xs1 xs2 xs3 xs4 xs5 xs6 xs7 xs8 xs9 : Vec F S32x128 .f32) (y : S1x32x128.Idx) :
    ∃ pc ∈ (runB m c t h0 xs0 xs1 xs2 xs3 xs4 xs5 xs6 xs7 xs8 xs9).2.2.2.1, y ∈ pc.1.set :=
  View.cover_of_tiledL (runB m c t h0 xs0 xs1 xs2 xs3 xs4 xs5 xs6 xs7 xs8 xs9).2.2.2.1 S1x32x128.size (by sl_kernel_rfl) y
theorem cover0_B_10 (c : Dev nD) (t : Fin cfg0.N) (h0 : ¬t.val % 2 = 0) (xs0 xs1 xs2 xs3 xs4 xs5 xs6 xs7 xs8 xs9 : Vec F S32x128 .f32) (y : S1x32x128.Idx) :
    ∃ pc ∈ (runB m c t h0 xs0 xs1 xs2 xs3 xs4 xs5 xs6 xs7 xs8 xs9).2.2.2.2.1, y ∈ pc.1.set :=
  View.cover_of_tiledL (runB m c t h0 xs0 xs1 xs2 xs3 xs4 xs5 xs6 xs7 xs8 xs9).2.2.2.2.1 S1x32x128.size (by sl_kernel_rfl) y
theorem cover0_B_11 (c : Dev nD) (t : Fin cfg0.N) (h0 : ¬t.val % 2 = 0) (xs0 xs1 xs2 xs3 xs4 xs5 xs6 xs7 xs8 xs9 : Vec F S32x128 .f32) (y : S1x32x128.Idx) :
    ∃ pc ∈ (runB m c t h0 xs0 xs1 xs2 xs3 xs4 xs5 xs6 xs7 xs8 xs9).2.2.2.2.2.1, y ∈ pc.1.set :=
  View.cover_of_tiledL (runB m c t h0 xs0 xs1 xs2 xs3 xs4 xs5 xs6 xs7 xs8 xs9).2.2.2.2.2.1 S1x32x128.size (by sl_kernel_rfl) y
theorem cover0_B_12 (c : Dev nD) (t : Fin cfg0.N) (h0 : ¬t.val % 2 = 0) (xs0 xs1 xs2 xs3 xs4 xs5 xs6 xs7 xs8 xs9 : Vec F S32x128 .f32) (y : S1x2x128.Idx) :
    ∃ pc ∈ (runB m c t h0 xs0 xs1 xs2 xs3 xs4 xs5 xs6 xs7 xs8 xs9).2.2.2.2.2.2.1, y ∈ pc.1.set :=
  View.cover_of_tiledL (runB m c t h0 xs0 xs1 xs2 xs3 xs4 xs5 xs6 xs7 xs8 xs9).2.2.2.2.2.2.1 S1x1x128.size (by sl_kernel_rfl) y
theorem scover0_B_0 (c : Dev nD) (t : Fin cfg0.N) (h0 : ¬t.val % 2 = 0) (xs0 xs1 xs2 xs3 xs4 xs5 xs6 xs7 xs8 xs9 : Vec F S32x128 .f32) (y : S32x128.Idx) :
    ∃ pc ∈ (runB m c t h0 xs0 xs1 xs2 xs3 xs4 xs5 xs6 xs7 xs8 xs9).2.2.2.2.2.2.2.1, y ∈ pc.1.set :=
  View.cover_of_tiledL (runB m c t h0 xs0 xs1 xs2 xs3 xs4 xs5 xs6 xs7 xs8 xs9).2.2.2.2.2.2.2.1 S32x128.size (by sl_kernel_rfl) y
theorem scover0_B_1 (c : Dev nD) (t : Fin cfg0.N) (h0 : ¬t.val % 2 = 0) (xs0 xs1 xs2 xs3 xs4 xs5 xs6 xs7 xs8 xs9 : Vec F S32x128 .f32) (y : S32x128.Idx) :
    ∃ pc ∈ (runB m c t h0 xs0 xs1 xs2 xs3 xs4 xs5 xs6 xs7 xs8 xs9).2.2.2.2.2.2.2.2.1, y ∈ pc.1.set :=
  View.cover_of_tiledL (runB m c t h0 xs0 xs1 xs2 xs3 xs4 xs5 xs6 xs7 xs8 xs9).2.2.2.2.2.2.2.2.1 S32x128.size (by sl_kernel_rfl) y
theorem scover0_B_2 (c : Dev nD) (t : Fin cfg0.N) (h0 : ¬t.val % 2 = 0) (xs0 xs1 xs2 xs3 xs4 xs5 xs6 xs7 xs8 xs9 : Vec F S32x128 .f32) (y : S32x128.Idx) :
    ∃ pc ∈ (runB m c t h0 xs0 xs1 xs2 xs3 xs4 xs5 xs6 xs7 xs8 xs9).2.2.2.2.2.2.2.2.2.1, y ∈ pc.1.set :=
  View.cover_of_tiledL (runB m c t h0 xs0 xs1 xs2 xs3 xs4 xs5 xs6 xs7 xs8 xs9).2.2.2.2.2.2.2.2.2.1 S32x128.size (by sl_kernel_rfl) y
theorem scover0_B_3 (c : Dev nD) (t : Fin cfg0.N) (h0 : ¬t.val % 2 = 0) (xs0 xs1 xs2 xs3 xs4 xs5 xs6 xs7 xs8 xs9 : Vec F S32x128 .f32) (y : S32x128.Idx) :
    ∃ pc ∈ (runB m c t h0 xs0 xs1 xs2 xs3 xs4 xs5 xs6 xs7 xs8 xs9).2.2.2.2.2.2.2.2.2.2.1, y ∈ pc.1.set :=
  View.cover_of_tiledL (runB m c t h0 xs0 xs1 xs2 xs3 xs4 xs5 xs6 xs7 xs8 xs9).2.2.2.2.2.2.2.2.2.2.1 S32x128.size (by sl_kernel_rfl) y
theorem scover0_B_4 (c : Dev nD) (t : Fin cfg0.N) (h0 : ¬t.val % 2 = 0) (xs0 xs1 xs2 xs3 xs4 xs5 xs6 xs7 xs8 xs9 : Vec F S32x128 .f32) (y : S32x128.Idx) :
    ∃ pc ∈ (runB m c t h0 xs0 xs1 xs2 xs3 xs4 xs5 xs6 xs7 xs8 xs9).2.2.2.2.2.2.2.2.2.2.2.1, y ∈ pc.1.set :=
  View.cover_of_tiledL (runB m c t h0 xs0 xs1 xs2 xs3 xs4 xs5 xs6 xs7 xs8 xs9).2.2.2.2.2.2.2.2.2.2.2.1 S32x128.size (by sl_kernel_rfl) y
theorem scover0_B_5 (c : Dev nD) (t : Fin cfg0.N) (h0 : ¬t.val % 2 = 0) (xs0 xs1 xs2 xs3 xs4 xs5 xs6 xs7 xs8 xs9 : Vec F S32x128 .f32) (y : S32x128.Idx) :
    ∃ pc ∈ (runB m c t h0 xs0 xs1 xs2 xs3 xs4 xs5 xs6 xs7 xs8 xs9).2.2.2.2.2.2.2.2.2.2.2.2.1, y ∈ pc.1.set :=
  View.cover_of_tiledL (runB m c t h0 xs0 xs1 xs2 xs3 xs4 xs5 xs6 xs7 xs8 xs9).2.2.2.2.2.2.2.2.2.2.2.2.1 S32x128.size (by sl_kernel_rfl) y
theorem scover0_B_6 (c : Dev nD) (t : Fin cfg0.N) (h0 : ¬t.val % 2 = 0) (xs0 xs1 xs2 xs3 xs4 xs5 xs6 xs7 xs8 xs9 : Vec F S32x128 .f32) (y : S32x128.Idx) :
    ∃ pc ∈ (runB m c t h0 xs0 xs1 xs2 xs3 xs4 xs5 xs6 xs7 xs8 xs9).2.2.2.2.2.2.2.2.2.2.2.2.2.1, y ∈ pc.1.set :=
  View.cover_of_tiledL (runB m c t h0 xs0 xs1 xs2 xs3 xs4 xs5 xs6 xs7 xs8 xs9).2.2.2.2.2.2.2.2.2.2.2.2.2.1 S32x128.size (by sl_kernel_rfl) y
theorem scover0_B_7 (c : Dev nD) (t : Fin cfg0.N) (h0 : ¬t.val % 2 = 0) (xs0 xs1 xs2 xs3 xs4 xs5 xs6 xs7 xs8 xs9 : Vec F S32x128 .f32) (y : S32x128.Idx) :
    ∃ pc ∈ (runB m c t h0 xs0 xs1 xs2 xs3 xs4 xs5 xs6 xs7 xs8 xs9).2.2.2.2.2.2.2.2.2.2.2.2.2.2.1, y ∈ pc.1.set :=
  View.cover_of_tiledL (runB m c t h0 xs0 xs1 xs2 xs3 xs4 xs5 xs6 xs7 xs8 xs9).2.2.2.2.2.2.2.2.2.2.2.2.2.2.1 S32x128.size (by sl_kernel_rfl) y
theorem scover0_B_8 (c : Dev nD) (t : Fin cfg0.N) (h0 : ¬t.val % 2 = 0) (xs0 xs1 xs2 xs3 xs4 xs5 xs6 xs7 xs8 xs9 : Vec F S32x128 .f32) (y : S32x128.Idx) :
    ∃ pc ∈ (runB m c t h0 xs0 xs1 xs2 xs3 xs4 xs5 xs6 xs7 xs8 xs9).2.2.2.2.2.2.2.2.2.2.2.2.2.2.2.1, y ∈ pc.1.set :=
  View.cover_of_tiledL (runB m c t h0 xs0 xs1 xs2 xs3 xs4 xs5 xs6 xs7 xs8 xs9).2.2.2.2.2.2.2.2.2.2.2.2.2.2.2.1 S32x128.size (by sl_kernel_rfl) y
theorem scover0_B_9 (c : Dev nD) (t : Fin cfg0.N) (h0 : ¬t.val % 2 = 0) (xs0 xs1 xs2 xs3 xs4 xs5 xs6 xs7 xs8 xs9 : Vec F S32x128 .f32) (y : S32x128.Idx) :
    ∃ pc ∈ (runB m c t h0 xs0 xs1 xs2 xs3 xs4 xs5 xs6 xs7 xs8 xs9).2.2.2.2.2.2.2.2.2.2.2.2.2.2.2.2.1, y ∈ pc.1.set :=
  View.cover_of_tiledL (runB m c t h0 xs0 xs1 xs2 xs3 xs4 xs5 xs6 xs7 xs8 xs9).2.2.2.2.2.2.2.2.2.2.2.2.2.2.2.2.1 S32x128.size (by sl_kernel_rfl) y

/-! ## What the buffers hold after each point -/

/-- By recursion on the point: an even point starts afresh, an odd point adds to what the point before left. -/
def outsAt0 (c : Dev nD) : (n : ℕ) → n < cfg0.N → Pt F
  | 0, hn => ptA m c ⟨0, hn⟩ (Nat.zero_mod 2)
  | n + 1, hn =>
    if h0 : (n + 1) % 2 = 0 then ptA m c ⟨n + 1, hn⟩ h0
    else ptB m c ⟨n + 1, hn⟩ h0 (outsAt0 c n (Nat.lt_of_succ_lt hn))

theorem outsAt0_A (c : Dev nD) (t : Fin cfg0.N) (h0 : t.val % 2 = 0) :
    outsAt0 m c t.val t.isLt = ptA m c t h0 := by
  obtain ⟨n, hn⟩ := t
  cases n with
  | zero => exact rfl
  | succ n => exact (dif_pos h0).trans rfl

theorem outsAt0_B (c : Dev nD) (t : Fin cfg0.N) (h0 : ¬t.val % 2 = 0) :
    outsAt0 m c t.val t.isLt = ptB m c t h0 (outsAt0 m c (t.val - 1) (Nat.lt_of_le_of_lt (Nat.sub_le _ _) t.isLt)) := by
  obtain ⟨n, hn⟩ := t
  cases n with
  | zero => exact absurd (Nat.zero_mod 2) h0
  | succ n => exact (dif_neg h0).trans rfl

/-- The region invariant before position `n`: before the first point every accumulator at anything; afterwards each
    at what the point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).s0) ∗ owns (c : Thread nD τ) scM0_1 fullShare ((outsAt0 m c n hn).s1) ∗ owns (c : Thread nD τ) scM0_2 fullShare ((outsAt0 m c n hn).s2) ∗ owns (c : Thread nD τ) scM0_3 fullShare ((outsAt0 m c n hn).s3) ∗ owns (c : Thread nD τ) scM0_4 fullShare ((outsAt0 m c n hn).s4) ∗ owns (c : Thread nD τ) scM0_5 fullShare ((outsAt0 m c n hn).s5) ∗ owns (c : Thread nD τ) scM0_6 fullShare ((outsAt0 m c n hn).s6) ∗ owns (c : Thread nD τ) scM0_7 fullShare ((outsAt0 m c n hn).s7) ∗ owns (c : Thread nD τ) scM0_8 fullShare ((outsAt0 m c n hn).s8) ∗ owns (c : Thread nD τ) scM0_9 fullShare ((outsAt0 m c n hn).s9)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).s0) ∗ owns (c : Thread nD τ) scM0_1 fullShare ((outsAt0 m c n hn).s1) ∗ owns (c : Thread nD τ) scM0_2 fullShare ((outsAt0 m c n hn).s2) ∗ owns (c : Thread nD τ) scM0_3 fullShare ((outsAt0 m c n hn).s3) ∗ owns (c : Thread nD τ) scM0_4 fullShare ((outsAt0 m c n hn).s4) ∗ owns (c : Thread nD τ) scM0_5 fullShare ((outsAt0 m c n hn).s5) ∗ owns (c : Thread nD τ) scM0_6 fullShare ((outsAt0 m c n hn).s6) ∗ owns (c : Thread nD τ) scM0_7 fullShare ((outsAt0 m c n hn).s7) ∗ owns (c : Thread nD τ) scM0_8 fullShare ((outsAt0 m c n hn).s8) ∗ owns (c : Thread nD τ) scM0_9 fullShare ((outsAt0 m c n hn).s9)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).s0) ∗ owns (c : Thread nD τ) scM0_1 fullShare ((outsAt0 m c (n - 1) (by omega)).s1) ∗ owns (c : Thread nD τ) scM0_2 fullShare ((outsAt0 m c (n - 1) (by omega)).s2) ∗ owns (c : Thread nD τ) scM0_3 fullShare ((outsAt0 m c (n - 1) (by omega)).s3) ∗ owns (c : Thread nD τ) scM0_4 fullShare ((outsAt0 m c (n - 1) (by omega)).s4) ∗ owns (c : Thread nD τ) scM0_5 fullShare ((outsAt0 m c (n - 1) (by omega)).s5) ∗ owns (c : Thread nD τ) scM0_6 fullShare ((outsAt0 m c (n - 1) (by omega)).s6) ∗ owns (c : Thread nD τ) scM0_7 fullShare ((outsAt0 m c (n - 1) (by omega)).s7) ∗ owns (c : Thread nD τ) scM0_8 fullShare ((outsAt0 m c (n - 1) (by omega)).s8) ∗ owns (c : Thread nD τ) scM0_9 fullShare ((outsAt0 m c (n - 1) (by omega)).s9)) ∗ (∃ r, prngReg c r)) := by
  cases n with
  | zero => exact absurd rfl hz
  | succ n => rfl

/-! ## The region's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).o6
    | ⟨7, _⟩ => (outsAt0 m c t.val t.isLt).o7
    | ⟨8, _⟩ => (outsAt0 m c t.val t.isLt).o8
    | ⟨9, _⟩ => (outsAt0 m c t.val t.isLt).o9
    | ⟨10, _⟩ => (outsAt0 m c t.val t.isLt).o10
    | ⟨11, _⟩ => (outsAt0 m c t.val t.isLt).o11
    | ⟨12, _⟩ => (outsAt0 m c t.val t.isLt).o12
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).o6 := by dsimp only [dats]
theorem after0_7 (c : Dev nD) (t : Fin cfg0.N) : (dats m 0 c).after 7 t = (outsAt0 m c t.val t.isLt).o7 := by dsimp only [dats]
theorem after0_8 (c : Dev nD) (t : Fin cfg0.N) : (dats m 0 c).after 8 t = (outsAt0 m c t.val t.isLt).o8 := by dsimp only [dats]
theorem after0_9 (c : Dev nD) (t : Fin cfg0.N) : (dats m 0 c).after 9 t = (outsAt0 m c t.val t.isLt).o9 := by dsimp only [dats]
theorem after0_10 (c : Dev nD) (t : Fin cfg0.N) : (dats m 0 c).after 10 t = (outsAt0 m c t.val t.isLt).o10 := by dsimp only [dats]
theorem after0_11 (c : Dev nD) (t : Fin cfg0.N) : (dats m 0 c).after 11 t = (outsAt0 m c t.val t.isLt).o11 := by dsimp only [dats]
theorem after0_12 (c : Dev nD) (t : Fin cfg0.N) : (dats m 0 c).after 12 t = (outsAt0 m c t.val t.isLt).o12 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

end Cert.Kernel.Fr

end
-- ==== Proof.Bits.BodyAbs.lean ====
/- The body obligation's separation-logic step, for ANY program, memrefs, contents and piece lists: if the program has
   the whole-body triple of one kind of grid point (the inputs handed back, every written buffer ending with its pieces
   written) and every piece list reads back as a named content whatever it is written over, then from the region's
   invariant, the core's duty and the thirteen windows the program runs to the invariant at the named accumulator
   contents, the duty, and the windows at the named contents. Stated for any float instance. -/
import proofs.«129784_j68891275428342_2_alg».proof.Proof.Bits.Kit

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- A point of the first kind: the accumulators come at anything (`hΦ`), outputs 6, 7 are written, 8–12 handed back. -/
theorem body_abs_A (c : Dev nD) (prog : Prog (TpuEff nD τ sig (Elt F) Λ₀ .tc) PUnit) (arg2 : Memref sig .tc .vmem S1x128x32x128 .f32) (arg3 : Memref sig .tc .vmem S1x128x32x128 .f32) (arg4 : Memref sig .tc .vmem S1x128x32x128 .f32) (arg5 : Memref sig .tc .vmem S1x128x32x128 .f32) (arg6 : Memref sig .tc .vmem S1x128x32x128 .f32) (arg7 : Memref sig .tc .vmem S1x1x32x128 .f32) (arg8 : Memref sig .tc .vmem S1x1x1x128 .f32) (arg9 : Memref sig .tc .vmem S1x1x1x128 .f32) (arg10 : Memref sig .tc .vmem S1x32x128 .f32) (arg11 : Memref sig .tc .vmem S1x32x128 .f32) (arg12 : Memref sig .tc .vmem S1x32x128 .f32) (arg13 : Memref sig .tc .vmem S1x32x128 .f32) (arg14 : Memref sig .tc .vmem S1x2x128 .f32) (arg15 : Memref sig .tc .vmem S32x128 .f32) (arg16 : Memref sig .tc .vmem S32x128 .f32) (arg17 : Memref sig .tc .vmem S32x128 .f32) (arg18 : Memref sig .tc .vmem S32x128 .f32) (arg19 : Memref sig .tc .vmem S32x128 .f32) (arg20 : Memref sig .tc .vmem S32x128 .f32) (arg21 : Memref sig .tc .vmem S32x128 .f32) (arg22 : Memref sig .tc .vmem S32x128 .f32) (arg23 : Memref sig .tc .vmem S32x128 .f32) (arg24 : Memref sig .tc .vmem S32x128 .f32)
    (x0 x1 x2 x3 x4 : Vec F S1x128x32x128 .f32) (x5 : Vec F S1x1x32x128 .f32)
    (b6 : Vec F S1x1x1x128 .f32 → Vec F S1x1x1x128 .f32) (b7 : Vec F S1x1x1x128 .f32 → Vec F S1x1x1x128 .f32) (b8 : Vec F S1x32x128 .f32 → Vec F S1x32x128 .f32) (b9 : Vec F S1x32x128 .f32 → Vec F S1x32x128 .f32) (b10 : Vec F S1x32x128 .f32 → Vec F S1x32x128 .f32) (b11 : Vec F S1x32x128 .f32 → Vec F S1x32x128 .f32) (b12 : Vec F S1x2x128 .f32 → Vec F S1x2x128 .f32)
    (L6 L7 : List (View.Piece (Elt F) S1x1x1x128 .f32)) (LS0 LS1 LS2 LS3 LS4 LS5 LS6 LS7 LS8 LS9 : List (View.Piece (Elt F) S32x128 .f32))
    (o6 o7 : Vec F S1x1x1x128 .f32) (s0 s1 s2 s3 s4 s5 s6 s7 s8 s9 : Vec F S32x128 .f32)
    (hrun : ∀ (xi8 xi9 xi10 xi11 : Vec F S1x32x128 .f32) (xi12 : Vec F S1x2x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ (∃ d, owns (c : Thread nD τ) arg8 fullShare d)
            ∗ (∃ d, owns (c : Thread nD τ) arg9 fullShare d)
            ∗ owns (c : Thread nD τ) arg10 fullShare xi8
            ∗ owns (c : Thread nD τ) arg11 fullShare xi9
            ∗ owns (c : Thread nD τ) arg12 fullShare xi10
            ∗ owns (c : Thread nD τ) arg13 fullShare xi11
            ∗ owns (c : Thread nD τ) arg14 fullShare xi12
            ∗ (∃ d, owns (c : Thread nD τ) arg15 fullShare d)
            ∗ (∃ d, owns (c : Thread nD τ) arg16 fullShare d)
            ∗ (∃ d, owns (c : Thread nD τ) arg17 fullShare d)
            ∗ (∃ d, owns (c : Thread nD τ) arg18 fullShare d)
            ∗ (∃ d, owns (c : Thread nD τ) arg19 fullShare d)
            ∗ (∃ d, owns (c : Thread nD τ) arg20 fullShare d)
            ∗ (∃ d, owns (c : Thread nD τ) arg21 fullShare d)
            ∗ (∃ d, owns (c : Thread nD τ) arg22 fullShare d)
            ∗ (∃ d, owns (c : Thread nD τ) arg23 fullShare d)
            ∗ (∃ d, owns (c : Thread nD τ) arg24 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
              ∗ (∃ f, arg8.view.loc (c : Thread nD τ) ↦[arg8.view.set]{fullShare} arg8.view.writes (Elt F) f L6)
              ∗ (∃ f, arg9.view.loc (c : Thread nD τ) ↦[arg9.view.set]{fullShare} arg9.view.writes (Elt F) f L7)
              ∗ owns (c : Thread nD τ) arg10 fullShare xi8
              ∗ owns (c : Thread nD τ) arg11 fullShare xi9
              ∗ owns (c : Thread nD τ) arg12 fullShare xi10
              ∗ owns (c : Thread nD τ) arg13 fullShare xi11
              ∗ owns (c : Thread nD τ) arg14 fullShare xi12
              ∗ (∃ f, arg15.view.loc (c : Thread nD τ) ↦[arg15.view.set]{fullShare} arg15.view.writes (Elt F) f LS0)
              ∗ (∃ f, arg16.view.loc (c : Thread nD τ) ↦[arg16.view.set]{fullShare} arg16.view.writes (Elt F) f LS1)
              ∗ (∃ f, arg17.view.loc (c : Thread nD τ) ↦[arg17.view.set]{fullShare} arg17.view.writes (Elt F) f LS2)
              ∗ (∃ f, arg18.view.loc (c : Thread nD τ) ↦[arg18.view.set]{fullShare} arg18.view.writes (Elt F) f LS3)
              ∗ (∃ f, arg19.view.loc (c : Thread nD τ) ↦[arg19.view.set]{fullShare} arg19.view.writes (Elt F) f LS4)
              ∗ (∃ f, arg20.view.loc (c : Thread nD τ) ↦[arg20.view.set]{fullShare} arg20.view.writes (Elt F) f LS5)
              ∗ (∃ f, arg21.view.loc (c : Thread nD τ) ↦[arg21.view.set]{fullShare} arg21.view.writes (Elt F) f LS6)
              ∗ (∃ f, arg22.view.loc (c : Thread nD τ) ↦[arg22.view.set]{fullShare} arg22.view.writes (Elt F) f LS7)
              ∗ (∃ f, arg23.view.loc (c : Thread nD τ) ↦[arg23.view.set]{fullShare} arg23.view.writes (Elt F) f LS8)
              ∗ (∃ f, arg24.view.loc (c : Thread nD τ) ↦[arg24.view.set]{fullShare} arg24.view.writes (Elt F) f LS9)) -∗ K ⟨⟩))
          ⊢ wp frame (wpE (defs₀ (F := F)) Variants.none c none) E prog K)
    (cov_o6 : ∀ f, arg8.view.read (Elt F) (arg8.view.writes (Elt F) f L6) = o6) (cov_o7 : ∀ f, arg9.view.read (Elt F) (arg9.view.writes (Elt F) f L7) = o7)
    (cov_s0 : ∀ f, arg15.view.read (Elt F) (arg15.view.writes (Elt F) f LS0) = s0) (cov_s1 : ∀ f, arg16.view.read (Elt F) (arg16.view.writes (Elt F) f LS1) = s1) (cov_s2 : ∀ f, arg17.view.read (Elt F) (arg17.view.writes (Elt F) f LS2) = s2) (cov_s3 : ∀ f, arg18.view.read (Elt F) (arg18.view.writes (Elt F) f LS3) = s3) (cov_s4 : ∀ f, arg19.view.read (Elt F) (arg19.view.writes (Elt F) f LS4) = s4) (cov_s5 : ∀ f, arg20.view.read (Elt F) (arg20.view.writes (Elt F) f LS5) = s5) (cov_s6 : ∀ f, arg21.view.read (Elt F) (arg21.view.writes (Elt F) f LS6) = s6) (cov_s7 : ∀ f, arg22.view.read (Elt F) (arg22.view.writes (Elt F) f LS7) = s7) (cov_s8 : ∀ f, arg23.view.read (Elt F) (arg23.view.writes (Elt F) f LS8) = s8) (cov_s9 : ∀ f, arg24.view.read (Elt F) (arg24.view.writes (Elt F) f LS9) = s9)
    (Φin Ow : sProp 𝕄) (hΦ : Φin ⊢ iprop(iprop((∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d)) ∗ (∃ r, prngReg c r))) :
    iprop(Φin
      ∗ Ow
      ∗ (∃ d : Vec F S1x128x32x128 .f32, owns (c : Thread nD τ) arg2 fullShare x0)
      ∗ (∃ d : Vec F S1x128x32x128 .f32, owns (c : Thread nD τ) arg3 fullShare x1)
      ∗ (∃ d : Vec F S1x128x32x128 .f32, owns (c : Thread nD τ) arg4 fullShare x2)
      ∗ (∃ d : Vec F S1x128x32x128 .f32, owns (c : Thread nD τ) arg5 fullShare x3)
      ∗ (∃ d : Vec F S1x128x32x128 .f32, owns (c : Thread nD τ) arg6 fullShare x4)
      ∗ (∃ d : Vec F S1x1x32x128 .f32, owns (c : Thread nD τ) arg7 fullShare x5)
      ∗ (∃ d : Vec F S1x1x1x128 .f32, owns (c : Thread nD τ) arg8 fullShare (b6 d))
      ∗ (∃ d : Vec F S1x1x1x128 .f32, owns (c : Thread nD τ) arg9 fullShare (b7 d))
      ∗ (∃ d : Vec F S1x32x128 .f32, owns (c : Thread nD τ) arg10 fullShare (b8 d))
      ∗ (∃ d : Vec F S1x32x128 .f32, owns (c : Thread nD τ) arg11 fullShare (b9 d))
      ∗ (∃ d : Vec F S1x32x128 .f32, owns (c : Thread nD τ) arg12 fullShare (b10 d))
      ∗ (∃ d : Vec F S1x32x128 .f32, owns (c : Thread nD τ) arg13 fullShare (b11 d))
      ∗ (∃ d : Vec F S1x2x128 .f32, owns (c : Thread nD τ) arg14 fullShare (b12 d)))
      ⊢ wp frame (wpE (defs₀ (F := F)) Variants.none c none) Set.univ prog (fun _ =>
        iprop(iprop(iprop(owns (c : Thread nD τ) arg15 fullShare s0 ∗ owns (c : Thread nD τ) arg16 fullShare s1 ∗ owns (c : Thread nD τ) arg17 fullShare s2 ∗ owns (c : Thread nD τ) arg18 fullShare s3 ∗ owns (c : Thread nD τ) arg19 fullShare s4 ∗ owns (c : Thread nD τ) arg20 fullShare s5 ∗ owns (c : Thread nD τ) arg21 fullShare s6 ∗ owns (c : Thread nD τ) arg22 fullShare s7 ∗ owns (c : Thread nD τ) arg23 fullShare s8 ∗ owns (c : Thread nD τ) arg24 fullShare s9) ∗ (∃ r, prngReg c r))
          ∗ Ow
          ∗ owns (c : Thread nD τ) arg2 fullShare x0
          ∗ owns (c : Thread nD τ) arg3 fullShare x1
          ∗ owns (c : Thread nD τ) arg4 fullShare x2
          ∗ owns (c : Thread nD τ) arg5 fullShare x3
          ∗ owns (c : Thread nD τ) arg6 fullShare x4
          ∗ owns (c : Thread nD τ) arg7 fullShare x5
          ∗ owns (c : Thread nD τ) arg8 fullShare o6
          ∗ owns (c : Thread nD τ) arg9 fullShare o7
          ∗ (∃ d : Vec F S1x32x128 .f32, owns (c : Thread nD τ) arg10 fullShare (b8 d))
          ∗ (∃ d : Vec F S1x32x128 .f32, owns (c : Thread nD τ) arg11 fullShare (b9 d))
          ∗ (∃ d : Vec F S1x32x128 .f32, owns (c : Thread nD τ) arg12 fullShare (b10 d))
          ∗ (∃ d : Vec F S1x32x128 .f32, owns (c : Thread nD τ) arg13 fullShare (b11 d))
          ∗ (∃ d : Vec F S1x2x128 .f32, owns (c : Thread nD τ) arg14 fullShare (b12 d)))) := by
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  icases (hΦ) $$ HΦ with ⟨⟨HS0, HS1, HS2, HS3, HS4, HS5, HS6, HS7, HS8, HS9⟩, Hg⟩
  iapply (hrun _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexact H8
  isplitl [H9]; · iexact H9
  isplitl [H10]; · iexact H10
  isplitl [H11]; · iexact H11
  isplitl [H12]; · iexact H12
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  iintro ⟨H0, H1, H2, H3, H4, H5, ⟨%e6, H6⟩, ⟨%e7, H7⟩, H8, H9, H10, H11, H12, ⟨%es0, HS0⟩, ⟨%es1, HS1⟩, ⟨%es2, HS2⟩, ⟨%es3, HS3⟩, ⟨%es4, HS4⟩, ⟨%es5, HS5⟩, ⟨%es6, HS6⟩, ⟨%es7, HS7⟩, ⟨%es8, HS8⟩, ⟨%es9, HS9⟩⟩
  isplitl [HS0 HS1 HS2 HS3 HS4 HS5 HS6 HS7 HS8 HS9 Hg]
  · isplitl [HS0 HS1 HS2 HS3 HS4 HS5 HS6 HS7 HS8 HS9]
    · isplitl [HS0]
      · unfold owns; iexists _; isplitr
        swap; · iexact HS0
        ipureintro; exact cov_s0 _
      isplitl [HS1]
      · unfold owns; iexists _; isplitr
        swap; · iexact HS1
        ipureintro; exact cov_s1 _
      isplitl [HS2]
      · unfold owns; iexists _; isplitr
        swap; · iexact HS2
        ipureintro; exact cov_s2 _
      isplitl [HS3]
      · unfold owns; iexists _; isplitr
        swap; · iexact HS3
        ipureintro; exact cov_s3 _
      isplitl [HS4]
      · unfold owns; iexists _; isplitr
        swap; · iexact HS4
        ipureintro; exact cov_s4 _
      isplitl [HS5]
      · unfold owns; iexists _; isplitr
        swap; · iexact HS5
        ipureintro; exact cov_s5 _
      isplitl [HS6]
      · unfold owns; iexists _; isplitr
        swap; · iexact HS6
        ipureintro; exact cov_s6 _
      isplitl [HS7]
      · unfold owns; iexists _; isplitr
        swap; · iexact HS7
        ipureintro; exact cov_s7 _
      isplitl [HS8]
      · unfold owns; iexists _; isplitr
        swap; · iexact HS8
        ipureintro; exact cov_s8 _
      unfold owns; iexists _; isplitr
      swap; · iexact HS9
      ipureintro; exact cov_s9 _
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact cov_o6 _
  isplitl [H7]
  · unfold owns; iexists _; isplitr
    swap; · iexact H7
    ipureintro; exact cov_o7 _
  isplitl [H8]; · iexists _; iexact H8
  isplitl [H9]; · iexists _; iexact H9
  isplitl [H10]; · iexists _; iexact H10
  isplitl [H11]; · iexists _; iexact H11
  iexists _; iexact H12

set_option maxHeartbeats 4000000 in
/-- A point of the second kind: the accumulators come at the contents the point before left; every output is written. -/
theorem body_abs_B (c : Dev nD) (prog : Prog (TpuEff nD τ sig (Elt F) Λ₀ .tc) PUnit) (arg2 : Memref sig .tc .vmem S1x128x32x128 .f32) (arg3 : Memref sig .tc .vmem S1x128x32x128 .f32) (arg4 : Memref sig .tc .vmem S1x128x32x128 .f32) (arg5 : Memref sig .tc .vmem S1x128x32x128 .f32) (arg6 : Memref sig .tc .vmem S1x128x32x128 .f32) (arg7 : Memref sig .tc .vmem S1x1x32x128 .f32) (arg8 : Memref sig .tc .vmem S1x1x1x128 .f32) (arg9 : Memref sig .tc .vmem S1x1x1x128 .f32) (arg10 : Memref sig .tc .vmem S1x32x128 .f32) (arg11 : Memref sig .tc .vmem S1x32x128 .f32) (arg12 : Memref sig .tc .vmem S1x32x128 .f32) (arg13 : Memref sig .tc .vmem S1x32x128 .f32) (arg14 : Memref sig .tc .vmem S1x2x128 .f32) (arg15 : Memref sig .tc .vmem S32x128 .f32) (arg16 : Memref sig .tc .vmem S32x128 .f32) (arg17 : Memref sig .tc .vmem S32x128 .f32) (arg18 : Memref sig .tc .vmem S32x128 .f32) (arg19 : Memref sig .tc .vmem S32x128 .f32) (arg20 : Memref sig .tc .vmem S32x128 .f32) (arg21 : Memref sig .tc .vmem S32x128 .f32) (arg22 : Memref sig .tc .vmem S32x128 .f32) (arg23 : Memref sig .tc .vmem S32x128 .f32) (arg24 : Memref sig .tc .vmem S32x128 .f32)
    (x0 x1 x2 x3 x4 : Vec F S1x128x32x128 .f32) (x5 : Vec F S1x1x32x128 .f32)
    (b6 : Vec F S1x1x1x128 .f32 → Vec F S1x1x1x128 .f32) (b7 : Vec F S1x1x1x128 .f32 → Vec F S1x1x1x128 .f32) (b8 : Vec F S1x32x128 .f32 → Vec F S1x32x128 .f32) (b9 : Vec F S1x32x128 .f32 → Vec F S1x32x128 .f32) (b10 : Vec F S1x32x128 .f32 → Vec F S1x32x128 .f32) (b11 : Vec F S1x32x128 .f32 → Vec F S1x32x128 .f32) (b12 : Vec F S1x2x128 .f32 → Vec F S1x2x128 .f32)
    (xs0 xs1 xs2 xs3 xs4 xs5 xs6 xs7 xs8 xs9 : Vec F S32x128 .f32)
    (L6 : List (View.Piece (Elt F) S1x1x1x128 .f32)) (L7 : List (View.Piece (Elt F) S1x1x1x128 .f32)) (L8 : List (View.Piece (Elt F) S1x32x128 .f32)) (L9 : List (View.Piece (Elt F) S1x32x128 .f32)) (L10 : List (View.Piece (Elt F) S1x32x128 .f32)) (L11 : List (View.Piece (Elt F) S1x32x128 .f32)) (L12 : List (View.Piece (Elt F) S1x2x128 .f32)) (LS0 LS1 LS2 LS3 LS4 LS5 LS6 LS7 LS8 LS9 : List (View.Piece (Elt F) S32x128 .f32))
    (o6 : Vec F S1x1x1x128 .f32) (o7 : Vec F S1x1x1x128 .f32) (o8 : Vec F S1x32x128 .f32) (o9 : Vec F S1x32x128 .f32) (o10 : Vec F S1x32x128 .f32) (o11 : Vec F S1x32x128 .f32) (o12 : Vec F S1x2x128 .f32) (s0 s1 s2 s3 s4 s5 s6 s7 s8 s9 : Vec F S32x128 .f32)
    (hrun : ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ (∃ d, owns (c : Thread nD τ) arg8 fullShare d)
            ∗ (∃ d, owns (c : Thread nD τ) arg9 fullShare d)
            ∗ (∃ d, owns (c : Thread nD τ) arg10 fullShare d)
            ∗ (∃ d, owns (c : Thread nD τ) arg11 fullShare d)
            ∗ (∃ d, owns (c : Thread nD τ) arg12 fullShare d)
            ∗ (∃ d, owns (c : Thread nD τ) arg13 fullShare d)
            ∗ (∃ d, owns (c : Thread nD τ) arg14 fullShare d)
            ∗ owns (c : Thread nD τ) arg15 fullShare xs0
            ∗ owns (c : Thread nD τ) arg16 fullShare xs1
            ∗ owns (c : Thread nD τ) arg17 fullShare xs2
            ∗ owns (c : Thread nD τ) arg18 fullShare xs3
            ∗ owns (c : Thread nD τ) arg19 fullShare xs4
            ∗ owns (c : Thread nD τ) arg20 fullShare xs5
            ∗ owns (c : Thread nD τ) arg21 fullShare xs6
            ∗ owns (c : Thread nD τ) arg22 fullShare xs7
            ∗ owns (c : Thread nD τ) arg23 fullShare xs8
            ∗ owns (c : Thread nD τ) arg24 fullShare xs9
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
              ∗ (∃ f, arg8.view.loc (c : Thread nD τ) ↦[arg8.view.set]{fullShare} arg8.view.writes (Elt F) f L6)
              ∗ (∃ f, arg9.view.loc (c : Thread nD τ) ↦[arg9.view.set]{fullShare} arg9.view.writes (Elt F) f L7)
              ∗ (∃ f, arg10.view.loc (c : Thread nD τ) ↦[arg10.view.set]{fullShare} arg10.view.writes (Elt F) f L8)
              ∗ (∃ f, arg11.view.loc (c : Thread nD τ) ↦[arg11.view.set]{fullShare} arg11.view.writes (Elt F) f L9)
              ∗ (∃ f, arg12.view.loc (c : Thread nD τ) ↦[arg12.view.set]{fullShare} arg12.view.writes (Elt F) f L10)
              ∗ (∃ f, arg13.view.loc (c : Thread nD τ) ↦[arg13.view.set]{fullShare} arg13.view.writes (Elt F) f L11)
              ∗ (∃ f, arg14.view.loc (c : Thread nD τ) ↦[arg14.view.set]{fullShare} arg14.view.writes (Elt F) f L12)
              ∗ (∃ f, arg15.view.loc (c : Thread nD τ) ↦[arg15.view.set]{fullShare} arg15.view.writes (Elt F) f LS0)
              ∗ (∃ f, arg16.view.loc (c : Thread nD τ) ↦[arg16.view.set]{fullShare} arg16.view.writes (Elt F) f LS1)
              ∗ (∃ f, arg17.view.loc (c : Thread nD τ) ↦[arg17.view.set]{fullShare} arg17.view.writes (Elt F) f LS2)
              ∗ (∃ f, arg18.view.loc (c : Thread nD τ) ↦[arg18.view.set]{fullShare} arg18.view.writes (Elt F) f LS3)
              ∗ (∃ f, arg19.view.loc (c : Thread nD τ) ↦[arg19.view.set]{fullShare} arg19.view.writes (Elt F) f LS4)
              ∗ (∃ f, arg20.view.loc (c : Thread nD τ) ↦[arg20.view.set]{fullShare} arg20.view.writes (Elt F) f LS5)
              ∗ (∃ f, arg21.view.loc (c : Thread nD τ) ↦[arg21.view.set]{fullShare} arg21.view.writes (Elt F) f LS6)
              ∗ (∃ f, arg22.view.loc (c : Thread nD τ) ↦[arg22.view.set]{fullShare} arg22.view.writes (Elt F) f LS7)
              ∗ (∃ f, arg23.view.loc (c : Thread nD τ) ↦[arg23.view.set]{fullShare} arg23.view.writes (Elt F) f LS8)
              ∗ (∃ f, arg24.view.loc (c : Thread nD τ) ↦[arg24.view.set]{fullShare} arg24.view.writes (Elt F) f LS9)) -∗ K ⟨⟩))
          ⊢ wp frame (wpE (defs₀ (F := F)) Variants.none c none) E prog K)
    (cov_o6 : ∀ f, arg8.view.read (Elt F) (arg8.view.writes (Elt F) f L6) = o6) (cov_o7 : ∀ f, arg9.view.read (Elt F) (arg9.view.writes (Elt F) f L7) = o7) (cov_o8 : ∀ f, arg10.view.read (Elt F) (arg10.view.writes (Elt F) f L8) = o8) (cov_o9 : ∀ f, arg11.view.read (Elt F) (arg11.view.writes (Elt F) f L9) = o9) (cov_o10 : ∀ f, arg12.view.read (Elt F) (arg12.view.writes (Elt F) f L10) = o10) (cov_o11 : ∀ f, arg13.view.read (Elt F) (arg13.view.writes (Elt F) f L11) = o11) (cov_o12 : ∀ f, arg14.view.read (Elt F) (arg14.view.writes (Elt F) f L12) = o12)
    (cov_s0 : ∀ f, arg15.view.read (Elt F) (arg15.view.writes (Elt F) f LS0) = s0) (cov_s1 : ∀ f, arg16.view.read (Elt F) (arg16.view.writes (Elt F) f LS1) = s1) (cov_s2 : ∀ f, arg17.view.read (Elt F) (arg17.view.writes (Elt F) f LS2) = s2) (cov_s3 : ∀ f, arg18.view.read (Elt F) (arg18.view.writes (Elt F) f LS3) = s3) (cov_s4 : ∀ f, arg19.view.read (Elt F) (arg19.view.writes (Elt F) f LS4) = s4) (cov_s5 : ∀ f, arg20.view.read (Elt F) (arg20.view.writes (Elt F) f LS5) = s5) (cov_s6 : ∀ f, arg21.view.read (Elt F) (arg21.view.writes (Elt F) f LS6) = s6) (cov_s7 : ∀ f, arg22.view.read (Elt F) (arg22.view.writes (Elt F) f LS7) = s7) (cov_s8 : ∀ f, arg23.view.read (Elt F) (arg23.view.writes (Elt F) f LS8) = s8) (cov_s9 : ∀ f, arg24.view.read (Elt F) (arg24.view.writes (Elt F) f LS9) = s9)
    (Ow : sProp 𝕄) :
    iprop(iprop(iprop(owns (c : Thread nD τ) arg15 fullShare xs0 ∗ owns (c : Thread nD τ) arg16 fullShare xs1 ∗ owns (c : Thread nD τ) arg17 fullShare xs2 ∗ owns (c : Thread nD τ) arg18 fullShare xs3 ∗ owns (c : Thread nD τ) arg19 fullShare xs4 ∗ owns (c : Thread nD τ) arg20 fullShare xs5 ∗ owns (c : Thread nD τ) arg21 fullShare xs6 ∗ owns (c : Thread nD τ) arg22 fullShare xs7 ∗ owns (c : Thread nD τ) arg23 fullShare xs8 ∗ owns (c : Thread nD τ) arg24 fullShare xs9) ∗ (∃ r, prngReg c r))
      ∗ Ow
      ∗ (∃ d : Vec F S1x128x32x128 .f32, owns (c : Thread nD τ) arg2 fullShare x0)
      ∗ (∃ d : Vec F S1x128x32x128 .f32, owns (c : Thread nD τ) arg3 fullShare x1)
      ∗ (∃ d : Vec F S1x128x32x128 .f32, owns (c : Thread nD τ) arg4 fullShare x2)
      ∗ (∃ d : Vec F S1x128x32x128 .f32, owns (c : Thread nD τ) arg5 fullShare x3)
      ∗ (∃ d : Vec F S1x128x32x128 .f32, owns (c : Thread nD τ) arg6 fullShare x4)
      ∗ (∃ d : Vec F S1x1x32x128 .f32, owns (c : Thread nD τ) arg7 fullShare x5)
      ∗ (∃ d : Vec F S1x1x1x128 .f32, owns (c : Thread nD τ) arg8 fullShare (b6 d))
      ∗ (∃ d : Vec F S1x1x1x128 .f32, owns (c : Thread nD τ) arg9 fullShare (b7 d))
      ∗ (∃ d : Vec F S1x32x128 .f32, owns (c : Thread nD τ) arg10 fullShare (b8 d))
      ∗ (∃ d : Vec F S1x32x128 .f32, owns (c : Thread nD τ) arg11 fullShare (b9 d))
      ∗ (∃ d : Vec F S1x32x128 .f32, owns (c : Thread nD τ) arg12 fullShare (b10 d))
      ∗ (∃ d : Vec F S1x32x128 .f32, owns (c : Thread nD τ) arg13 fullShare (b11 d))
      ∗ (∃ d : Vec F S1x2x128 .f32, owns (c : Thread nD τ) arg14 fullShare (b12 d)))
      ⊢ wp frame (wpE (defs₀ (F := F)) Variants.none c none) Set.univ prog (fun _ =>
        iprop(iprop(iprop(owns (c : Thread nD τ) arg15 fullShare s0 ∗ owns (c : Thread nD τ) arg16 fullShare s1 ∗ owns (c : Thread nD τ) arg17 fullShare s2 ∗ owns (c : Thread nD τ) arg18 fullShare s3 ∗ owns (c : Thread nD τ) arg19 fullShare s4 ∗ owns (c : Thread nD τ) arg20 fullShare s5 ∗ owns (c : Thread nD τ) arg21 fullShare s6 ∗ owns (c : Thread nD τ) arg22 fullShare s7 ∗ owns (c : Thread nD τ) arg23 fullShare s8 ∗ owns (c : Thread nD τ) arg24 fullShare s9) ∗ (∃ r, prngReg c r))
          ∗ Ow
          ∗ owns (c : Thread nD τ) arg2 fullShare x0
          ∗ owns (c : Thread nD τ) arg3 fullShare x1
          ∗ owns (c : Thread nD τ) arg4 fullShare x2
          ∗ owns (c : Thread nD τ) arg5 fullShare x3
          ∗ owns (c : Thread nD τ) arg6 fullShare x4
          ∗ owns (c : Thread nD τ) arg7 fullShare x5
          ∗ owns (c : Thread nD τ) arg8 fullShare o6
          ∗ owns (c : Thread nD τ) arg9 fullShare o7
          ∗ owns (c : Thread nD τ) arg10 fullShare o8
          ∗ owns (c : Thread nD τ) arg11 fullShare o9
          ∗ owns (c : Thread nD τ) arg12 fullShare o10
          ∗ owns (c : Thread nD τ) arg13 fullShare o11
          ∗ owns (c : Thread nD τ) arg14 fullShare o12)) := by
  iintro ⟨⟨⟨HS0, HS1, HS2, HS3, HS4, HS5, HS6, HS7, HS8, HS9⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (hrun Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  iintro ⟨H0, H1, H2, H3, H4, H5, ⟨%e6, H6⟩, ⟨%e7, H7⟩, ⟨%e8, H8⟩, ⟨%e9, H9⟩, ⟨%e10, H10⟩, ⟨%e11, H11⟩, ⟨%e12, H12⟩, ⟨%es0, HS0⟩, ⟨%es1, HS1⟩, ⟨%es2, HS2⟩, ⟨%es3, HS3⟩, ⟨%es4, HS4⟩, ⟨%es5, HS5⟩, ⟨%es6, HS6⟩, ⟨%es7, HS7⟩, ⟨%es8, HS8⟩, ⟨%es9, HS9⟩⟩
  isplitl [HS0 HS1 HS2 HS3 HS4 HS5 HS6 HS7 HS8 HS9 Hg]
  · isplitl [HS0 HS1 HS2 HS3 HS4 HS5 HS6 HS7 HS8 HS9]
    · isplitl [HS0]
      · unfold owns; iexists _; isplitr
        swap; · iexact HS0
        ipureintro; exact cov_s0 _
      isplitl [HS1]
      · unfold owns; iexists _; isplitr
        swap; · iexact HS1
        ipureintro; exact cov_s1 _
      isplitl [HS2]
      · unfold owns; iexists _; isplitr
        swap; · iexact HS2
        ipureintro; exact cov_s2 _
      isplitl [HS3]
      · unfold owns; iexists _; isplitr
        swap; · iexact HS3
        ipureintro; exact cov_s3 _
      isplitl [HS4]
      · unfold owns; iexists _; isplitr
        swap; · iexact HS4
        ipureintro; exact cov_s4 _
      isplitl [HS5]
      · unfold owns; iexists _; isplitr
        swap; · iexact HS5
        ipureintro; exact cov_s5 _
      isplitl [HS6]
      · unfold owns; iexists _; isplitr
        swap; · iexact HS6
        ipureintro; exact cov_s6 _
      isplitl [HS7]
      · unfold owns; iexists _; isplitr
        swap; · iexact HS7
        ipureintro; exact cov_s7 _
      isplitl [HS8]
      · unfold owns; iexists _; isplitr
        swap; · iexact HS8
        ipureintro; exact cov_s8 _
      unfold owns; iexists _; isplitr
      swap; · iexact HS9
      ipureintro; exact cov_s9 _
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact cov_o6 _
  isplitl [H7]
  · unfold owns; iexists _; isplitr
    swap; · iexact H7
    ipureintro; exact cov_o7 _
  isplitl [H8]
  · unfold owns; iexists _; isplitr
    swap; · iexact H8
    ipureintro; exact cov_o8 _
  isplitl [H9]
  · unfold owns; iexists _; isplitr
    swap; · iexact H9
    ipureintro; exact cov_o9 _
  isplitl [H10]
  · unfold owns; iexists _; isplitr
    swap; · iexact H10
    ipureintro; exact cov_o10 _
  isplitl [H11]
  · unfold owns; iexists _; isplitr
    swap; · iexact H11
    ipureintro; exact cov_o11 _
  unfold owns; iexists _; isplitr
  swap; · iexact H12
  ipureintro; exact cov_o12 _

end Cert.Kernel.Fr

end
-- ==== Proof.Bits.SoundA0.lean ====
/- The body obligation at the very first grid point: the launch's invariant hands the ten accumulators at anything; the run of the first kind applies, and each buffer is taken back at the pieces read back, which cover it. Stated for any float instance. -/
import proofs.«129784_j68891275428342_2_alg».proof.Proof.Bits.Frame
import proofs.«129784_j68891275428342_2_alg».proof.Proof.Bits.BodyAbs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 16000000 in
theorem sound_body_A0 (c : Dev nD) (t : Fin cfg0.N) (h0 : t.val % 2 = 0) (hz : t.val = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 16 := lt_of_lt_of_eq t.isLt (show cfg0.N = 16 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [Dat.leavesExact_idle (dats m 0 c) 8 t (idleAt0_8_A t (hcA0 t h0) (hcA1 t h0)) (noFlush0_8_A t (hcA0 t h0) (hcA1 t h0))]
  rw [Dat.leavesExact_idle (dats m 0 c) 9 t (idleAt0_9_A t (hcA0 t h0) (hcA1 t h0)) (noFlush0_9_A t (hcA0 t h0) (hcA1 t h0))]
  rw [Dat.leavesExact_idle (dats m 0 c) 10 t (idleAt0_10_A t (hcA0 t h0) (hcA1 t h0)) (noFlush0_10_A t (hcA0 t h0) (hcA1 t h0))]
  rw [Dat.leavesExact_idle (dats m 0 c) 11 t (idleAt0_11_A t (hcA0 t h0) (hcA1 t h0)) (noFlush0_11_A t (hcA0 t h0) (hcA1 t h0))]
  rw [Dat.leavesExact_idle (dats m 0 c) 12 t (idleAt0_12_A t (hcA0 t h0) (hcA1 t h0)) (noFlush0_12_A t (hcA0 t h0) (hcA1 t h0))]
  rw [outsAt0_A m c t h0]
  have cov_o6 : ∀ f, (ms0_6 t).view.read (Elt F) ((ms0_6 t).view.writes (Elt F) f (runA m c t h0).1) = (ptA m c t h0).o6 := by
    intro f; unfold ptA; dsimp only
    exact View.read_writes_of_cover _ _ _ _ _ (cover0_A_6 m c t h0)
  have cov_o7 : ∀ f, (ms0_7 t).view.read (Elt F) ((ms0_7 t).view.writes (Elt F) f (runA m c t h0).2.1) = (ptA m c t h0).o7 := by
    intro f; unfold ptA; dsimp only
    exact View.read_writes_of_cover _ _ _ _ _ (cover0_A_7 m c t h0)
  have cov_s0 : ∀ f, (scM0_0).view.read (Elt F) ((scM0_0).view.writes (Elt F) f (runA m c t h0).2.2.1) = (ptA m c t h0).s0 := by
    intro f; unfold ptA; dsimp only
    exact View.read_writes_of_cover _ _ _ _ _ (scover0_A_0 m c t h0)
  have cov_s1 : ∀ f, (scM0_1).view.read (Elt F) ((scM0_1).view.writes (Elt F) f (runA m c t h0).2.2.2.1) = (ptA m c t h0).s1 := by
    intro f; unfold ptA; dsimp only
    exact View.read_writes_of_cover _ _ _ _ _ (scover0_A_1 m c t h0)
  have cov_s2 : ∀ f, (scM0_2).view.read (Elt F) ((scM0_2).view.writes (Elt F) f (runA m c t h0).2.2.2.2.1) = (ptA m c t h0).s2 := by
    intro f; unfold ptA; dsimp only
    exact View.read_writes_of_cover _ _ _ _ _ (scover0_A_2 m c t h0)
  have cov_s3 : ∀ f, (scM0_3).view.read (Elt F) ((scM0_3).view.writes (Elt F) f (runA m c t h0).2.2.2.2.2.1) = (ptA m c t h0).s3 := by
    intro f; unfold ptA; dsimp only
    exact View.read_writes_of_cover _ _ _ _ _ (scover0_A_3 m c t h0)
  have cov_s4 : ∀ f, (scM0_4).view.read (Elt F) ((scM0_4).view.writes (Elt F) f (runA m c t h0).2.2.2.2.2.2.1) = (ptA m c t h0).s4 := by
    intro f; unfold ptA; dsimp only
    exact View.read_writes_of_cover _ _ _ _ _ (scover0_A_4 m c t h0)
  have cov_s5 : ∀ f, (scM0_5).view.read (Elt F) ((scM0_5).view.writes (Elt F) f (runA m c t h0).2.2.2.2.2.2.2.1) = (ptA m c t h0).s5 := by
    intro f; unfold ptA; dsimp only
    exact View.read_writes_of_cover _ _ _ _ _ (scover0_A_5 m c t h0)
  have cov_s6 : ∀ f, (scM0_6).view.read (Elt F) ((scM0_6).view.writes (Elt F) f (runA m c t h0).2.2.2.2.2.2.2.2.1) = (ptA m c t h0).s6 := by
    intro f; unfold ptA; dsimp only
    exact View.read_writes_of_cover _ _ _ _ _ (scover0_A_6 m c t h0)
  have cov_s7 : ∀ f, (scM0_7).view.read (Elt F) ((scM0_7).view.writes (Elt F) f (runA m c t h0).2.2.2.2.2.2.2.2.2.1) = (ptA m c t h0).s7 := by
    intro f; unfold ptA; dsimp only
    exact View.read_writes_of_cover _ _ _ _ _ (scover0_A_7 m c t h0)
  have cov_s8 : ∀ f, (scM0_8).view.read (Elt F) ((scM0_8).view.writes (Elt F) f (runA m c t h0).2.2.2.2.2.2.2.2.2.2.1) = (ptA m c t h0).s8 := by
    intro f; unfold ptA; dsimp only
    exact View.read_writes_of_cover _ _ _ _ _ (scover0_A_8 m c t h0)
  have cov_s9 : ∀ f, (scM0_9).view.read (Elt F) ((scM0_9).view.writes (Elt F) f (runA m c t h0).2.2.2.2.2.2.2.2.2.2.2.1) = (ptA m c t h0).s9 := by
    intro f; unfold ptA; dsimp only
    exact View.read_writes_of_cover _ _ _ _ _ (scover0_A_9 m c t h0)
  have hΦ : (dats m 0 c).Φ t.castSucc ⊢ (iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d)) ∗ (∃ r, prngReg c r)) : sProp 𝕄) := by
    rw [PhiS_castSucc m c t, PhiS_zero m c _ _ hz, PhiA0_eq]
  exact body_abs_A c _ (ms0_0 t) (ms0_1 t) (ms0_2 t) (ms0_3 t) (ms0_4 t) (ms0_5 t) (ms0_6 t) (ms0_7 t) (ms0_8 t) (ms0_9 t) (ms0_10 t) (ms0_11 t) (ms0_12 t) scM0_0 scM0_1 scM0_2 scM0_3 scM0_4 scM0_5 scM0_6 scM0_7 scM0_8 scM0_9 (iblk m c 0 t) (iblk m c 1 t) (iblk m c 2 t) (iblk m c 3 t) (iblk m c 4 t) (iblk m c 5 t) (fun d => (dats m 0 c).before 6 t d) (fun d => (dats m 0 c).before 7 t d) (fun d => (dats m 0 c).before 8 t d) (fun d => (dats m 0 c).before 9 t d) (fun d => (dats m 0 c).before 10 t d) (fun d => (dats m 0 c).before 11 t d) (fun d => (dats m 0 c).before 12 t d)
    (runA m c t h0).1 (runA m c t h0).2.1 (runA m c t h0).2.2.1 (runA m c t h0).2.2.2.1 (runA m c t h0).2.2.2.2.1 (runA m c t h0).2.2.2.2.2.1 (runA m c t h0).2.2.2.2.2.2.1 (runA m c t h0).2.2.2.2.2.2.2.1 (runA m c t h0).2.2.2.2.2.2.2.2.1 (runA m c t h0).2.2.2.2.2.2.2.2.2.1 (runA m c t h0).2.2.2.2.2.2.2.2.2.2.1 (runA m c t h0).2.2.2.2.2.2.2.2.2.2.2.1
    (ptA m c t h0).o6 (ptA m c t h0).o7 (ptA m c t h0).s0 (ptA m c t h0).s1 (ptA m c t h0).s2 (ptA m c t h0).s3 (ptA m c t h0).s4 (ptA m c t h0).s5 (ptA m c t h0).s6 (ptA m c t h0).s7 (ptA m c t h0).s8 (ptA m c t h0).s9
    (runA m c t h0).2.2.2.2.2.2.2.2.2.2.2.2 cov_o6 cov_o7 cov_s0 cov_s1 cov_s2 cov_s3 cov_s4 cov_s5 cov_s6 cov_s7 cov_s8 cov_s9
    ((dats m 0 c).Φ t.castSucc) ((dats m 0 c).owesAt () t.castSucc) hΦ

end Cert.Kernel.Fr

end
-- ==== Proof.Bits.SoundA1.lean ====
/- The body obligation at a later even grid point: the accumulators come at what the point before left, which the reset forgets; the run of the first kind applies. Stated for any float instance. -/
import proofs.«129784_j68891275428342_2_alg».proof.Proof.Bits.Frame
import proofs.«129784_j68891275428342_2_alg».proof.Proof.Bits.BodyAbs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 16000000 in
theorem sound_body_A1 (c : Dev nD) (t : Fin cfg0.N) (h0 : t.val % 2 = 0) (hz : ¬t.val = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 16 := lt_of_lt_of_eq t.isLt (show cfg0.N = 16 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [Dat.leavesExact_idle (dats m 0 c) 8 t (idleAt0_8_A t (hcA0 t h0) (hcA1 t h0)) (noFlush0_8_A t (hcA0 t h0) (hcA1 t h0))]
  rw [Dat.leavesExact_idle (dats m 0 c) 9 t (idleAt0_9_A t (hcA0 t h0) (hcA1 t h0)) (noFlush0_9_A t (hcA0 t h0) (hcA1 t h0))]
  rw [Dat.leavesExact_idle (dats m 0 c) 10 t (idleAt0_10_A t (hcA0 t h0) (hcA1 t h0)) (noFlush0_10_A t (hcA0 t h0) (hcA1 t h0))]
  rw [Dat.leavesExact_idle (dats m 0 c) 11 t (idleAt0_11_A t (hcA0 t h0) (hcA1 t h0)) (noFlush0_11_A t (hcA0 t h0) (hcA1 t h0))]
  rw [Dat.leavesExact_idle (dats m 0 c) 12 t (idleAt0_12_A t (hcA0 t h0) (hcA1 t h0)) (noFlush0_12_A t (hcA0 t h0) (hcA1 t h0))]
  rw [outsAt0_A m c t h0]
  have cov_o6 : ∀ f, (ms0_6 t).view.read (Elt F) ((ms0_6 t).view.writes (Elt F) f (runA m c t h0).1) = (ptA m c t h0).o6 := by
    intro f; unfold ptA; dsimp only
    exact View.read_writes_of_cover _ _ _ _ _ (cover0_A_6 m c t h0)
  have cov_o7 : ∀ f, (ms0_7 t).view.read (Elt F) ((ms0_7 t).view.writes (Elt F) f (runA m c t h0).2.1) = (ptA m c t h0).o7 := by
    intro f; unfold ptA; dsimp only
    exact View.read_writes_of_cover _ _ _ _ _ (cover0_A_7 m c t h0)
  have cov_s0 : ∀ f, (scM0_0).view.read (Elt F) ((scM0_0).view.writes (Elt F) f (runA m c t h0).2.2.1) = (ptA m c t h0).s0 := by
    intro f; unfold ptA; dsimp only
    exact View.read_writes_of_cover _ _ _ _ _ (scover0_A_0 m c t h0)
  have cov_s1 : ∀ f, (scM0_1).view.read (Elt F) ((scM0_1).view.writes (Elt F) f (runA m c t h0).2.2.2.1) = (ptA m c t h0).s1 := by
    intro f; unfold ptA; dsimp only
    exact View.read_writes_of_cover _ _ _ _ _ (scover0_A_1 m c t h0)
  have cov_s2 : ∀ f, (scM0_2).view.read (Elt F) ((scM0_2).view.writes (Elt F) f (runA m c t h0).2.2.2.2.1) = (ptA m c t h0).s2 := by
    intro f; unfold ptA; dsimp only
    exact View.read_writes_of_cover _ _ _ _ _ (scover0_A_2 m c t h0)
  have cov_s3 : ∀ f, (scM0_3).view.read (Elt F) ((scM0_3).view.writes (Elt F) f (runA m c t h0).2.2.2.2.2.1) = (ptA m c t h0).s3 := by
    intro f; unfold ptA; dsimp only
    exact View.read_writes_of_cover _ _ _ _ _ (scover0_A_3 m c t h0)
  have cov_s4 : ∀ f, (scM0_4).view.read (Elt F) ((scM0_4).view.writes (Elt F) f (runA m c t h0).2.2.2.2.2.2.1) = (ptA m c t h0).s4 := by
    intro f; unfold ptA; dsimp only
    exact View.read_writes_of_cover _ _ _ _ _ (scover0_A_4 m c t h0)
  have cov_s5 : ∀ f, (scM0_5).view.read (Elt F) ((scM0_5).view.writes (Elt F) f (runA m c t h0).2.2.2.2.2.2.2.1) = (ptA m c t h0).s5 := by
    intro f; unfold ptA; dsimp only
    exact View.read_writes_of_cover _ _ _ _ _ (scover0_A_5 m c t h0)
  have cov_s6 : ∀ f, (scM0_6).view.read (Elt F) ((scM0_6).view.writes (Elt F) f (runA m c t h0).2.2.2.2.2.2.2.2.1) = (ptA m c t h0).s6 := by
    intro f; unfold ptA; dsimp only
    exact View.read_writes_of_cover _ _ _ _ _ (scover0_A_6 m c t h0)
  have cov_s7 : ∀ f, (scM0_7).view.read (Elt F) ((scM0_7).view.writes (Elt F) f (runA m c t h0).2.2.2.2.2.2.2.2.2.1) = (ptA m c t h0).s7 := by
    intro f; unfold ptA; dsimp only
    exact View.read_writes_of_cover _ _ _ _ _ (scover0_A_7 m c t h0)
  have cov_s8 : ∀ f, (scM0_8).view.read (Elt F) ((scM0_8).view.writes (Elt F) f (runA m c t h0).2.2.2.2.2.2.2.2.2.2.1) = (ptA m c t h0).s8 := by
    intro f; unfold ptA; dsimp only
    exact View.read_writes_of_cover _ _ _ _ _ (scover0_A_8 m c t h0)
  have cov_s9 : ∀ f, (scM0_9).view.read (Elt F) ((scM0_9).view.writes (Elt F) f (runA m c t h0).2.2.2.2.2.2.2.2.2.2.2.1) = (ptA m c t h0).s9 := by
    intro f; unfold ptA; dsimp only
    exact View.read_writes_of_cover _ _ _ _ _ (scover0_A_9 m c t h0)
  have hΦ : (dats m 0 c).Φ t.castSucc ⊢ (iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d)) ∗ (∃ r, prngReg c r)) : sProp 𝕄) := by
    rw [PhiS_castSucc m c t, PhiS_pos m c _ _ hz]
    iintro ⟨⟨HS0, HS1, HS2, HS3, HS4, HS5, HS6, HS7, HS8, HS9⟩, Hg⟩
    isplitl [HS0 HS1 HS2 HS3 HS4 HS5 HS6 HS7 HS8 HS9]
    · isplitl [HS0]; · iexists _; iexact HS0
      isplitl [HS1]; · iexists _; iexact HS1
      isplitl [HS2]; · iexists _; iexact HS2
      isplitl [HS3]; · iexists _; iexact HS3
      isplitl [HS4]; · iexists _; iexact HS4
      isplitl [HS5]; · iexists _; iexact HS5
      isplitl [HS6]; · iexists _; iexact HS6
      isplitl [HS7]; · iexists _; iexact HS7
      isplitl [HS8]; · iexists _; iexact HS8
      iexists _; iexact HS9
    iexact Hg
  exact body_abs_A c _ (ms0_0 t) (ms0_1 t) (ms0_2 t) (ms0_3 t) (ms0_4 t) (ms0_5 t) (ms0_6 t) (ms0_7 t) (ms0_8 t) (ms0_9 t) (ms0_10 t) (ms0_11 t) (ms0_12 t) scM0_0 scM0_1 scM0_2 scM0_3 scM0_4 scM0_5 scM0_6 scM0_7 scM0_8 scM0_9 (iblk m c 0 t) (iblk m c 1 t) (iblk m c 2 t) (iblk m c 3 t) (iblk m c 4 t) (iblk m c 5 t) (fun d => (dats m 0 c).before 6 t d) (fun d => (dats m 0 c).before 7 t d) (fun d => (dats m 0 c).before 8 t d) (fun d => (dats m 0 c).before 9 t d) (fun d => (dats m 0 c).before 10 t d) (fun d => (dats m 0 c).before 11 t d) (fun d => (dats m 0 c).before 12 t d)
    (runA m c t h0).1 (runA m c t h0).2.1 (runA m c t h0).2.2.1 (runA m c t h0).2.2.2.1 (runA m c t h0).2.2.2.2.1 (runA m c t h0).2.2.2.2.2.1 (runA m c t h0).2.2.2.2.2.2.1 (runA m c t h0).2.2.2.2.2.2.2.1 (runA m c t h0).2.2.2.2.2.2.2.2.1 (runA m c t h0).2.2.2.2.2.2.2.2.2.1 (runA m c t h0).2.2.2.2.2.2.2.2.2.2.1 (runA m c t h0).2.2.2.2.2.2.2.2.2.2.2.1
    (ptA m c t h0).o6 (ptA m c t h0).o7 (ptA m c t h0).s0 (ptA m c t h0).s1 (ptA m c t h0).s2 (ptA m c t h0).s3 (ptA m c t h0).s4 (ptA m c t h0).s5 (ptA m c t h0).s6 (ptA m c t h0).s7 (ptA m c t h0).s8 (ptA m c t h0).s9
    (runA m c t h0).2.2.2.2.2.2.2.2.2.2.2.2 cov_o6 cov_o7 cov_s0 cov_s1 cov_s2 cov_s3 cov_s4 cov_s5 cov_s6 cov_s7 cov_s8 cov_s9
    ((dats m 0 c).Φ t.castSucc) ((dats m 0 c).owesAt () t.castSucc) hΦ

end Cert.Kernel.Fr

end
-- ==== Proof.Bits.SoundB.lean ====
/- The body obligation at an odd grid point: the run of the second kind applies over what the point before left in the accumulators. Stated for any float instance. -/
import proofs.«129784_j68891275428342_2_alg».proof.Proof.Bits.Frame
import proofs.«129784_j68891275428342_2_alg».proof.Proof.Bits.BodyAbs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 16000000 in
theorem sound_body_B (c : Dev nD) (t : Fin cfg0.N) (h0 : ¬t.val % 2 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 16 := lt_of_lt_of_eq t.isLt (show cfg0.N = 16 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8_B t (hcB0 t h0) (hcB1 t h0)], after0_8]
  rw [show (dats m 0 c).leavesExact 9 t = owns (c : Thread nD τ) (ms0_9 t) fullShare ((dats m 0 c).after 9 t) from by
    unfold Dat.leavesExact; rw [liveAt0_9_B t (hcB0 t h0) (hcB1 t h0)], after0_9]
  rw [show (dats m 0 c).leavesExact 10 t = owns (c : Thread nD τ) (ms0_10 t) fullShare ((dats m 0 c).after 10 t) from by
    unfold Dat.leavesExact; rw [liveAt0_10_B t (hcB0 t h0) (hcB1 t h0)], after0_10]
  rw [show (dats m 0 c).leavesExact 11 t = owns (c : Thread nD τ) (ms0_11 t) fullShare ((dats m 0 c).after 11 t) from by
    unfold Dat.leavesExact; rw [liveAt0_11_B t (hcB0 t h0) (hcB1 t h0)], after0_11]
  rw [show (dats m 0 c).leavesExact 12 t = owns (c : Thread nD τ) (ms0_12 t) fullShare ((dats m 0 c).after 12 t) from by
    unfold Dat.leavesExact; rw [liveAt0_12_B t (hcB0 t h0) (hcB1 t h0)], after0_12]
  rw [outsAt0_B m c t h0]
  have hz : t.val ≠ 0 := fun hz => h0 (by rw [hz])
  rw [PhiS_castSucc m c t, PhiS_pos m c _ _ hz]
  generalize outsAt0 m c (t.val - 1) _ = p
  have cov_o6 : ∀ f, (ms0_6 t).view.read (Elt F) ((ms0_6 t).view.writes (Elt F) f (runB m c t h0 p.s0 p.s1 p.s2 p.s3 p.s4 p.s5 p.s6 p.s7 p.s8 p.s9).1) = (ptB m c t h0 p).o6 := by
    intro f; unfold ptB; dsimp only
    exact View.read_writes_of_cover _ _ _ _ _ (cover0_B_6 m c t h0 p.s0 p.s1 p.s2 p.s3 p.s4 p.s5 p.s6 p.s7 p.s8 p.s9)
  have cov_o7 : ∀ f, (ms0_7 t).view.read (Elt F) ((ms0_7 t).view.writes (Elt F) f (runB m c t h0 p.s0 p.s1 p.s2 p.s3 p.s4 p.s5 p.s6 p.s7 p.s8 p.s9).2.1) = (ptB m c t h0 p).o7 := by
    intro f; unfold ptB; dsimp only
    exact View.read_writes_of_cover _ _ _ _ _ (cover0_B_7 m c t h0 p.s0 p.s1 p.s2 p.s3 p.s4 p.s5 p.s6 p.s7 p.s8 p.s9)
  have cov_o8 : ∀ f, (ms0_8 t).view.read (Elt F) ((ms0_8 t).view.writes (Elt F) f (runB m c t h0 p.s0 p.s1 p.s2 p.s3 p.s4 p.s5 p.s6 p.s7 p.s8 p.s9).2.2.1) = (ptB m c t h0 p).o8 := by
    intro f; unfold ptB; dsimp only
    exact View.read_writes_of_cover _ _ _ _ _ (cover0_B_8 m c t h0 p.s0 p.s1 p.s2 p.s3 p.s4 p.s5 p.s6 p.s7 p.s8 p.s9)
  have cov_o9 : ∀ f, (ms0_9 t).view.read (Elt F) ((ms0_9 t).view.writes (Elt F) f (runB m c t h0 p.s0 p.s1 p.s2 p.s3 p.s4 p.s5 p.s6 p.s7 p.s8 p.s9).2.2.2.1) = (ptB m c t h0 p).o9 := by
    intro f; unfold ptB; dsimp only
    exact View.read_writes_of_cover _ _ _ _ _ (cover0_B_9 m c t h0 p.s0 p.s1 p.s2 p.s3 p.s4 p.s5 p.s6 p.s7 p.s8 p.s9)
  have cov_o10 : ∀ f, (ms0_10 t).view.read (Elt F) ((ms0_10 t).view.writes (Elt F) f (runB m c t h0 p.s0 p.s1 p.s2 p.s3 p.s4 p.s5 p.s6 p.s7 p.s8 p.s9).2.2.2.2.1) = (ptB m c t h0 p).o10 := by
    intro f; unfold ptB; dsimp only
    exact View.read_writes_of_cover _ _ _ _ _ (cover0_B_10 m c t h0 p.s0 p.s1 p.s2 p.s3 p.s4 p.s5 p.s6 p.s7 p.s8 p.s9)
  have cov_o11 : ∀ f, (ms0_11 t).view.read (Elt F) ((ms0_11 t).view.writes (Elt F) f (runB m c t h0 p.s0 p.s1 p.s2 p.s3 p.s4 p.s5 p.s6 p.s7 p.s8 p.s9).2.2.2.2.2.1) = (ptB m c t h0 p).o11 := by
    intro f; unfold ptB; dsimp only
    exact View.read_writes_of_cover _ _ _ _ _ (cover0_B_11 m c t h0 p.s0 p.s1 p.s2 p.s3 p.s4 p.s5 p.s6 p.s7 p.s8 p.s9)
  have cov_o12 : ∀ f, (ms0_12 t).view.read (Elt F) ((ms0_12 t).view.writes (Elt F) f (runB m c t h0 p.s0 p.s1 p.s2 p.s3 p.s4 p.s5 p.s6 p.s7 p.s8 p.s9).2.2.2.2.2.2.1) = (ptB m c t h0 p).o12 := by
    intro f; unfold ptB; dsimp only
    exact View.read_writes_of_cover _ _ _ _ _ (cover0_B_12 m c t h0 p.s0 p.s1 p.s2 p.s3 p.s4 p.s5 p.s6 p.s7 p.s8 p.s9)
  have cov_s0 : ∀ f, (scM0_0).view.read (Elt F) ((scM0_0).view.writes (Elt F) f (runB m c t h0 p.s0 p.s1 p.s2 p.s3 p.s4 p.s5 p.s6 p.s7 p.s8 p.s9).2.2.2.2.2.2.2.1) = (ptB m c t h0 p).s0 := by
    intro f; unfold ptB; dsimp only
    exact View.read_writes_of_cover _ _ _ _ _ (scover0_B_0 m c t h0 p.s0 p.s1 p.s2 p.s3 p.s4 p.s5 p.s6 p.s7 p.s8 p.s9)
  have cov_s1 : ∀ f, (scM0_1).view.read (Elt F) ((scM0_1).view.writes (Elt F) f (runB m c t h0 p.s0 p.s1 p.s2 p.s3 p.s4 p.s5 p.s6 p.s7 p.s8 p.s9).2.2.2.2.2.2.2.2.1) = (ptB m c t h0 p).s1 := by
    intro f; unfold ptB; dsimp only
    exact View.read_writes_of_cover _ _ _ _ _ (scover0_B_1 m c t h0 p.s0 p.s1 p.s2 p.s3 p.s4 p.s5 p.s6 p.s7 p.s8 p.s9)
  have cov_s2 : ∀ f, (scM0_2).view.read (Elt F) ((scM0_2).view.writes (Elt F) f (runB m c t h0 p.s0 p.s1 p.s2 p.s3 p.s4 p.s5 p.s6 p.s7 p.s8 p.s9).2.2.2.2.2.2.2.2.2.1) = (ptB m c t h0 p).s2 := by
    intro f; unfold ptB; dsimp only
    exact View.read_writes_of_cover _ _ _ _ _ (scover0_B_2 m c t h0 p.s0 p.s1 p.s2 p.s3 p.s4 p.s5 p.s6 p.s7 p.s8 p.s9)
  have cov_s3 : ∀ f, (scM0_3).view.read (Elt F) ((scM0_3).view.writes (Elt F) f (runB m c t h0 p.s0 p.s1 p.s2 p.s3 p.s4 p.s5 p.s6 p.s7 p.s8 p.s9).2.2.2.2.2.2.2.2.2.2.1) = (ptB m c t h0 p).s3 := by
    intro f; unfold ptB; dsimp only
    exact View.read_writes_of_cover _ _ _ _ _ (scover0_B_3 m c t h0 p.s0 p.s1 p.s2 p.s3 p.s4 p.s5 p.s6 p.s7 p.s8 p.s9)
  have cov_s4 : ∀ f, (scM0_4).view.read (Elt F) ((scM0_4).view.writes (Elt F) f (runB m c t h0 p.s0 p.s1 p.s2 p.s3 p.s4 p.s5 p.s6 p.s7 p.s8 p.s9).2.2.2.2.2.2.2.2.2.2.2.1) = (ptB m c t h0 p).s4 := by
    intro f; unfold ptB; dsimp only
    exact View.read_writes_of_cover _ _ _ _ _ (scover0_B_4 m c t h0 p.s0 p.s1 p.s2 p.s3 p.s4 p.s5 p.s6 p.s7 p.s8 p.s9)
  have cov_s5 : ∀ f, (scM0_5).view.read (Elt F) ((scM0_5).view.writes (Elt F) f (runB m c t h0 p.s0 p.s1 p.s2 p.s3 p.s4 p.s5 p.s6 p.s7 p.s8 p.s9).2.2.2.2.2.2.2.2.2.2.2.2.1) = (ptB m c t h0 p).s5 := by
    intro f; unfold ptB; dsimp only
    exact View.read_writes_of_cover _ _ _ _ _ (scover0_B_5 m c t h0 p.s0 p.s1 p.s2 p.s3 p.s4 p.s5 p.s6 p.s7 p.s8 p.s9)
  have cov_s6 : ∀ f, (scM0_6).view.read (Elt F) ((scM0_6).view.writes (Elt F) f (runB m c t h0 p.s0 p.s1 p.s2 p.s3 p.s4 p.s5 p.s6 p.s7 p.s8 p.s9).2.2.2.2.2.2.2.2.2.2.2.2.2.1) = (ptB m c t h0 p).s6 := by
    intro f; unfold ptB; dsimp only
    exact View.read_writes_of_cover _ _ _ _ _ (scover0_B_6 m c t h0 p.s0 p.s1 p.s2 p.s3 p.s4 p.s5 p.s6 p.s7 p.s8 p.s9)
  have cov_s7 : ∀ f, (scM0_7).view.read (Elt F) ((scM0_7).view.writes (Elt F) f (runB m c t h0 p.s0 p.s1 p.s2 p.s3 p.s4 p.s5 p.s6 p.s7 p.s8 p.s9).2.2.2.2.2.2.2.2.2.2.2.2.2.2.1) = (ptB m c t h0 p).s7 := by
    intro f; unfold ptB; dsimp only
    exact View.read_writes_of_cover _ _ _ _ _ (scover0_B_7 m c t h0 p.s0 p.s1 p.s2 p.s3 p.s4 p.s5 p.s6 p.s7 p.s8 p.s9)
  have cov_s8 : ∀ f, (scM0_8).view.read (Elt F) ((scM0_8).view.writes (Elt F) f (runB m c t h0 p.s0 p.s1 p.s2 p.s3 p.s4 p.s5 p.s6 p.s7 p.s8 p.s9).2.2.2.2.2.2.2.2.2.2.2.2.2.2.2.1) = (ptB m c t h0 p).s8 := by
    intro f; unfold ptB; dsimp only
    exact View.read_writes_of_cover _ _ _ _ _ (scover0_B_8 m c t h0 p.s0 p.s1 p.s2 p.s3 p.s4 p.s5 p.s6 p.s7 p.s8 p.s9)
  have cov_s9 : ∀ f, (scM0_9).view.read (Elt F) ((scM0_9).view.writes (Elt F) f (runB m c t h0 p.s0 p.s1 p.s2 p.s3 p.s4 p.s5 p.s6 p.s7 p.s8 p.s9).2.2.2.2.2.2.2.2.2.2.2.2.2.2.2.2.1) = (ptB m c t h0 p).s9 := by
    intro f; unfold ptB; dsimp only
    exact View.read_writes_of_cover _ _ _ _ _ (scover0_B_9 m c t h0 p.s0 p.s1 p.s2 p.s3 p.s4 p.s5 p.s6 p.s7 p.s8 p.s9)
  exact body_abs_B c _ (ms0_0 t) (ms0_1 t) (ms0_2 t) (ms0_3 t) (ms0_4 t) (ms0_5 t) (ms0_6 t) (ms0_7 t) (ms0_8 t) (ms0_9 t) (ms0_10 t) (ms0_11 t) (ms0_12 t) scM0_0 scM0_1 scM0_2 scM0_3 scM0_4 scM0_5 scM0_6 scM0_7 scM0_8 scM0_9 (iblk m c 0 t) (iblk m c 1 t) (iblk m c 2 t) (iblk m c 3 t) (iblk m c 4 t) (iblk m c 5 t) (fun d => (dats m 0 c).before 6 t d) (fun d => (dats m 0 c).before 7 t d) (fun d => (dats m 0 c).before 8 t d) (fun d => (dats m 0 c).before 9 t d) (fun d => (dats m 0 c).before 10 t d) (fun d => (dats m 0 c).before 11 t d) (fun d => (dats m 0 c).before 12 t d)
    p.s0 p.s1 p.s2 p.s3 p.s4 p.s5 p.s6 p.s7 p.s8 p.s9
    (runB m c t h0 p.s0 p.s1 p.s2 p.s3 p.s4 p.s5 p.s6 p.s7 p.s8 p.s9).1 (runB m c t h0 p.s0 p.s1 p.s2 p.s3 p.s4 p.s5 p.s6 p.s7 p.s8 p.s9).2.1 (runB m c t h0 p.s0 p.s1 p.s2 p.s3 p.s4 p.s5 p.s6 p.s7 p.s8 p.s9).2.2.1 (runB m c t h0 p.s0 p.s1 p.s2 p.s3 p.s4 p.s5 p.s6 p.s7 p.s8 p.s9).2.2.2.1 (runB m c t h0 p.s0 p.s1 p.s2 p.s3 p.s4 p.s5 p.s6 p.s7 p.s8 p.s9).2.2.2.2.1 (runB m c t h0 p.s0 p.s1 p.s2 p.s3 p.s4 p.s5 p.s6 p.s7 p.s8 p.s9).2.2.2.2.2.1 (runB m c t h0 p.s0 p.s1 p.s2 p.s3 p.s4 p.s5 p.s6 p.s7 p.s8 p.s9).2.2.2.2.2.2.1 (runB m c t h0 p.s0 p.s1 p.s2 p.s3 p.s4 p.s5 p.s6 p.s7 p.s8 p.s9).2.2.2.2.2.2.2.1 (runB m c t h0 p.s0 p.s1 p.s2 p.s3 p.s4 p.s5 p.s6 p.s7 p.s8 p.s9).2.2.2.2.2.2.2.2.1 (runB m c t h0 p.s0 p.s1 p.s2 p.s3 p.s4 p.s5 p.s6 p.s7 p.s8 p.s9).2.2.2.2.2.2.2.2.2.1 (runB m c t h0 p.s0 p.s1 p.s2 p.s3 p.s4 p.s5 p.s6 p.s7 p.s8 p.s9).2.2.2.2.2.2.2.2.2.2.1 (runB m c t h0 p.s0 p.s1 p.s2 p.s3 p.s4 p.s5 p.s6 p.s7 p.s8 p.s9).2.2.2.2.2.2.2.2.2.2.2.1 (runB m c t h0 p.s0 p.s1 p.s2 p.s3 p.s4 p.s5 p.s6 p.s7 p.s8 p.s9).2.2.2.2.2.2.2.2.2.2.2.2.1 (runB m c t h0 p.s0 p.s1 p.s2 p.s3 p.s4 p.s5 p.s6 p.s7 p.s8 p.s9).2.2.2.2.2.2.2.2.2.2.2.2.2.1 (runB m c t h0 p.s0 p.s1 p.s2 p.s3 p.s4 p.s5 p.s6 p.s7 p.s8 p.s9).2.2.2.2.2.2.2.2.2.2.2.2.2.2.1 (runB m c t h0 p.s0 p.s1 p.s2 p.s3 p.s4 p.s5 p.s6 p.s7 p.s8 p.s9).2.2.2.2.2.2.2.2.2.2.2.2.2.2.2.1 (runB m c t h0 p.s0 p.s1 p.s2 p.s3 p.s4 p.s5 p.s6 p.s7 p.s8 p.s9).2.2.2.2.2.2.2.2.2.2.2.2.2.2.2.2.1
    (ptB m c t h0 p).o6 (ptB m c t h0 p).o7 (ptB m c t h0 p).o8 (ptB m c t h0 p).o9 (ptB m c t h0 p).o10 (ptB m c t h0 p).o11 (ptB m c t h0 p).o12 (ptB m c t h0 p).s0 (ptB m c t h0 p).s1 (ptB m c t h0 p).s2 (ptB m c t h0 p).s3 (ptB m c t h0 p).s4 (ptB m c t h0 p).s5 (ptB m c t h0 p).s6 (ptB m c t h0 p).s7 (ptB m c t h0 p).s8 (ptB m c t h0 p).s9
    (runB m c t h0 p.s0 p.s1 p.s2 p.s3 p.s4 p.s5 p.s6 p.s7 p.s8 p.s9).2.2.2.2.2.2.2.2.2.2.2.2.2.2.2.2.2 cov_o6 cov_o7 cov_o8 cov_o9 cov_o10 cov_o11 cov_o12 cov_s0 cov_s1 cov_s2 cov_s3 cov_s4 cov_s5 cov_s6 cov_s7 cov_s8 cov_s9
    ((dats m 0 c).owesAt () t.castSucc)

end Cert.Kernel.Fr

end
-- ==== Proof.Bits.FrameRun.lean ====
/- The kernel program's frame, concluded: the body obligation at a generic grid point from the two whole-body runs (each
   buffer taken back at the pieces read back, which cover it), the run of the whole program around the region, and
   the frame claim. Stated for any float instance. -/
import proofs.«129784_j68891275428342_2_alg».proof.Proof.Bits.SoundA0
import proofs.«129784_j68891275428342_2_alg».proof.Proof.Bits.SoundA1
import proofs.«129784_j68891275428342_2_alg».proof.Proof.Bits.SoundB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At an even point the run of the first kind applies (at the very first point from the launch's invariant, later
    from what the point before left); at an odd point the run of the second kind. -/
theorem sound_body (c : Dev nD) (t : Fin cfg0.N) :
    bodyPre m c t ⊢ wp frame (wpE (defs₀ (F := F)) Variants.none c none) Set.univ (bodyAt0 t) (fun _ => bodyPost m c t) := by
  by_cases h0 : t.val % 2 = 0
  · by_cases hz : t.val = 0
    · exact sound_body_A0 m c t h0 hz
    · exact sound_body_A1 m c t h0 hz
  · exact sound_body_B m c t h0

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5, HS6, HS7, HS8, HS9⟩, Hg⟩
  isplitl [HS0 HS1 HS2 HS3 HS4 HS5 HS6 HS7 HS8 HS9]
  · isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    isplitl [HS7]; · iexists _; iexact HS7
    isplitl [HS8]; · iexists _; iexact HS8
    iexists _; iexact HS9
  iexact Hg

theorem hout (c : Dev nD) : (dats m 0 c).Φ (Fin.last cfg0.N) ⊢ Pipeline.ΦA spec0 c :=
  Phi_out m c _ (by rw [Fin.val_last]; have : cfg0.N = 16 := N_0; omega)

/-! ## The run and the frame -/

set_option backward.isDefEq.respectTransparency.types false in
/-- The frame run for any four stretches of host lines of which the program is the chain (the lines before the region,
    the region, three stretches after it), the later ones staying within the region's arrays and the bypassing
    buffers, allocating nothing and writing no array of the region. -/
theorem run_main_gen (o0 o1 o2 o3 : List (HloOp τ sig (Elt F)))
    (hs0 : o0.Forall fun op => op.bufs ⊆ StableHlo.tcRefs τ sig) (hf0 : o0.Forall fun op => op.fresh = ∅)
    (hm : ∀ c, main (F := F) c = Pipeline.chain [StableHlo.seq o0, Prog.lift (.customCall (Pipeline.entry 0) ()), StableHlo.seq o1, StableHlo.seq o2, StableHlo.seq o3])
    (hsub : ∀ ops ∈ [o1, o2, o3], ∀ op ∈ ops, op.bufs ⊆ Pipeline.tailRefs sig Pipeline.Prefetch.none spec0)
    (hfresh : ∀ ops ∈ [o1, o2, o3], ∀ op ∈ ops, op.fresh = ∅)
    (hkeep : ∀ ops ∈ [o1, o2, o3], ∀ op ∈ ops, ∀ w, Proc.devRef .tc (Pipeline.arrRef spec0 w) ∉ op.writes)
    (hA : ∀ c w, (dats m 0 c).A w = StableHlo.after (List.flatten [o0]) (fun b => m (c, b)) (Proc.devRef .tc (Pipeline.arrRef spec0 w))) :
    θ_run defs (onTc (τ := τ) (main (F := F))) (s₀ m ρ)
      (Pipeline.FramePost cfgs (dats m) 0 (Pipeline.afterTail₀ cfgs (dats m) 0 (fun c => StableHlo.after (List.flatten [o0]) (fun b => m (c, b))) [o1, o2, o3])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := fun c => StableHlo.after (List.flatten [o0]) (fun b => m (c, b))) (opss := [o1, o2, o3])
    (hsub := hsub) (hfresh := hfresh) (hkeep := hkeep)
    (hmain := hmain_gen m Variants.none o0 o1 o2 o3 hs0 hf0 hm) (hA := hA) (hin := hin m) (hout := hout m)

/-- Every weakly fair execution of the program terminates, every array of the region ending at what the library
    computes from the proof data and every other buffer as the later lines leave it. -/
theorem run_main : θ_run defs (onTc (τ := τ) (main (F := F))) (s₀ m ρ) (Pipeline.FramePost cfgs (dats m) 0 (Pipeline.afterTail₀ cfgs (dats m) 0 (V0 m) tailOps)) :=
  run_main_gen m ρ hostOps0 hostOps1 hostOps1_1 hostOps1_2 hostOps0_sub hostOps0_fresh main_chain sfx_sub sfx_fresh sfx_keeps (A_eq m)

/-- The frame claim, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (run_main m ρ)

end Cert.Kernel.Fr

end
-- ==== Proof.Ideal.KitKeeps.lean ====
/- The kernel program around its one region, first part: the host lines before the region (six reshapes of the
   argument arrays to lane-dense blocks), the region, and the host lines after it; what the region finds in
   every buffer, each window's block at a grid point, and that no host line after the region allocates or writes an argument array or an array of the region. Stated for any float instance. -/
import proofs.«129784_j68891275428342_2_alg».proof.Proof.Gen.KernelIdeal.Launch
import proofs.«129784_j68891275428342_2_alg».proof.Proof.Gen.KernelIdeal.Skeleton
import proofs.«129784_j68891275428342_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- Core `c`'s buffer contents when the region is entered: after the six reshapes. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The three stretches of host lines after the region. -/
abbrev tailOps : List (List (HloOp τ sig (Elt F))) := [hostOps1, hostOps1_1, hostOps1_2]

set_option maxRecDepth 65536 in
theorem hostOps0_fresh : (hostOps0 : List (HloOp τ sig (Elt F))).Forall fun op => op.fresh = ∅ :=
  ⟨rfl, rfl, rfl, rfl, rfl, rfl⟩
set_option maxRecDepth 65536 in
theorem hostOps1_fresh : (hostOps1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 65536 in
theorem hostOps1_1_fresh : (hostOps1_1 : List (HloOp τ sig (Elt F))).Forall fun op => op.fresh = ∅ :=
  ⟨rfl, rfl, rfl, rfl, rfl, rfl, rfl, rfl, rfl, rfl, rfl, rfl, rfl, rfl, rfl⟩
set_option maxRecDepth 65536 in
theorem hostOps1_2_fresh : (hostOps1_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- The later lines touch the region's arrays and the buffers that bypass it only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
/-- They allocate nothing. -/
theorem sfx_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop

/-- No line of a stretch writes the buffer `b`: every line writes its own result buffer only. -/
abbrev Keeps (ops : List (HloOp τ sig (Elt F))) (b : Ref sig .tc) : Prop :=
  ops.Forall fun op => Proc.devRef .tc b ∉ op.writes

set_option maxRecDepth 65536 in
set_option maxHeartbeats 16000000 in
/-- No line of `hostOps1` writes an argument array or an array of the region. -/
theorem hostOps1_keeps : ∀ b ∈ ([main_arg0, main_arg1, main_arg2, main_arg3, main_arg4, main_arg5, main_arg6, main_arg7, main_v0, main_v1, main_v2, main_v3, main_v4, main_v5, main_v6_0, main_v6_1, main_v6_2, main_v6_3, main_v6_4, main_v6_5, main_v6_6] : List (Ref sig .tc)), Keeps (F := F) hostOps1 b := by
  intro b hb
  simp only [List.mem_cons, List.mem_nil_iff, or_false] at hb
  rcases hb with rfl | rfl | rfl | rfl | rfl | rfl | rfl | rfl | rfl | rfl | rfl | rfl | rfl | rfl | rfl | rfl | rfl | rfl | rfl | rfl | rfl
  all_goals
    simp only [Keeps, hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)

set_option maxRecDepth 65536 in
set_option maxHeartbeats 16000000 in
/-- No line of `hostOps1_1` writes an argument array or an array of the region. -/
theorem hostOps1_1_keeps : ∀ b ∈ ([main_arg0, main_arg1, main_arg2, main_arg3, main_arg4, main_arg5, main_arg6, main_arg7, main_v0, main_v1, main_v2, main_v3, main_v4, main_v5, main_v6_0, main_v6_1, main_v6_2, main_v6_3, main_v6_4, main_v6_5, main_v6_6] : List (Ref sig .tc)), Keeps (F := F) hostOps1_1 b := by
  intro b hb
  simp only [List.mem_cons, List.mem_nil_iff, or_false] at hb
  rcases hb with rfl | rfl | rfl | rfl | rfl | rfl | rfl | rfl | rfl | rfl | rfl | rfl | rfl | rfl | rfl | rfl | rfl | rfl | rfl | rfl | rfl
  all_goals
    simp only [Keeps, hostOps1_1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)

set_option maxRecDepth 65536 in
set_option maxHeartbeats 16000000 in
/-- No line of `hostOps1_2` writes an argument array or an array of the region. -/
theorem hostOps1_2_keeps : ∀ b ∈ ([main_arg0, main_arg1, main_arg2, main_arg3, main_arg4, main_arg5, main_arg6, main_arg7, main_v0, main_v1, main_v2, main_v3, main_v4, main_v5, main_v6_0, main_v6_1, main_v6_2, main_v6_3, main_v6_4, main_v6_5, main_v6_6] : List (Ref sig .tc)), Keeps (F := F) hostOps1_2 b := by
  intro b hb
  simp only [List.mem_cons, List.mem_nil_iff, or_false] at hb
  rcases hb with rfl | rfl | rfl | rfl | rfl | rfl | rfl | rfl | rfl | rfl | rfl | rfl | rfl | rfl | rfl | rfl | rfl | rfl | rfl | rfl | rfl
  all_goals
    simp only [Keeps, hostOps1_2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)

theorem arrRef_mem (w : Fin 13) : Pipeline.arrRef spec0 w ∈ ([main_arg0, main_arg1, main_arg2, main_arg3, main_arg4, main_arg5, main_arg6, main_arg7, main_v0, main_v1, main_v2, main_v3, main_v4, main_v5, main_v6_0, main_v6_1, main_v6_2, main_v6_3, main_v6_4, main_v6_5, main_v6_6] : List (Ref sig .tc)) := by
  fin_cases w <;> simp [Pipeline.arrRef]

/-- The later lines write no array of the region. -/
theorem sfx_keeps : ∀ ops ∈ (tailOps : List (List (HloOp τ sig (Elt F)))), ∀ op ∈ ops,
    ∀ w, Proc.devRef .tc (Pipeline.arrRef spec0 w) ∉ op.writes := by
  intro ops hops op hop w
  simp only [tailOps, List.mem_cons, List.mem_nil_iff, or_false] at hops
  rcases hops with rfl | rfl | rfl
  · exact (List.forall_iff_forall_mem.mp (hostOps1_keeps _ (arrRef_mem w))) op hop
  · exact (List.forall_iff_forall_mem.mp (hostOps1_1_keeps _ (arrRef_mem w))) op hop
  · exact (List.forall_iff_forall_mem.mp (hostOps1_2_keeps _ (arrRef_mem w))) op hop

/-- No reshape before the region writes an argument array. -/
theorem hostOps0_keeps : ∀ b ∈ ([main_arg0, main_arg1, main_arg2, main_arg3, main_arg4, main_arg5, main_arg6, main_arg7] : List (Ref sig .tc)), Keeps (F := F) hostOps0 b := by
  intro b hb
  simp only [List.mem_cons, List.mem_nil_iff, or_false] at hb
  rcases hb with rfl | rfl | rfl | rfl | rfl | rfl | rfl | rfl
  all_goals
    simp only [Keeps, hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)

/-- The region finds an argument array as launched. -/
theorem V_arg (c : Dev nD) (b : Ref sig .tc) (hb : b ∈ ([main_arg0, main_arg1, main_arg2, main_arg3, main_arg4, main_arg5, main_arg6, main_arg7] : List (Ref sig .tc))) :
    V m c b = m ((c : Thread nD τ).loc b) :=
  StableHlo.after_of_forall_not_mem (b := Proc.devRef .tc b) _ _ (fun op hop => by
    simp only [List.flatten_cons, List.flatten_nil, List.append_nil] at hop
    exact (List.forall_iff_forall_mem.mp (hostOps0_keeps b hb)) op hop)

/-- An argument array ends as launched: no later line writes it and it is no array of the region. -/
theorem W_arg (dats : (p : Fin _) → (c : Dev nD) → Dat τ (Elt F) Unit ℕ (UR sig nD τ) ℕ (cfgs p) c) (c : Dev nD)
    (b : Ref sig .tc) (hb : b ∈ ([main_arg0, main_arg1, main_arg2, main_arg3, main_arg4, main_arg5, main_arg6, main_arg7] : List (Ref sig .tc))) :
    Pipeline.afterTail₀ cfgs dats 0 (V0 m) tailOps c b = m ((c : Thread nD τ).loc b) := by
  have hb' : b ∈ ([main_arg0, main_arg1, main_arg2, main_arg3, main_arg4, main_arg5, main_arg6, main_arg7, main_v0, main_v1, main_v2, main_v3, main_v4, main_v5, main_v6_0, main_v6_1, main_v6_2, main_v6_3, main_v6_4, main_v6_5, main_v6_6] : List (Ref sig .tc)) := by
    simp only [List.mem_cons, List.mem_nil_iff, or_false] at hb ⊢
    rcases hb with rfl | rfl | rfl | rfl | rfl | rfl | rfl | rfl <;> simp
  have hne : ∀ w, Pipeline.arrRef spec0 w ≠ b := by
    simp only [List.mem_cons, List.mem_nil_iff, or_false] at hb
    rcases hb with rfl | rfl | rfl | rfl | rfl | rfl | rfl | rfl <;> exact (by decide)
  unfold Pipeline.afterTail₀
  rw [StableHlo.after_of_forall_not_mem (b := Proc.devRef .tc b) _ _ (fun op hop => by
      simp only [tailOps, List.flatten_cons, List.flatten_nil, List.append_nil, List.mem_append] at hop
      rcases hop with hop | hop | hop
      · exact (List.forall_iff_forall_mem.mp (hostOps1_keeps b hb')) op hop
      · exact (List.forall_iff_forall_mem.mp (hostOps1_1_keeps b hb')) op hop
      · exact (List.forall_iff_forall_mem.mp (hostOps1_2_keeps b hb')) op hop),
    Pipeline.withArrays_of_ne _ c (V0 m c) _ b hne]
  exact V_arg m c b hb

end Cert.KernelIdeal.Fr

end
-- ==== Proof.Ideal.Kit.lean ====
/- The kernel program around its one region, continued: the reduction of the program to the region followed by the
   later host lines, each window's block at a grid point, the frame claim's post from a frame run, the two branch
   conditions of the body decided over the grid, where the windows are idle, and the staging and scratch memrefs.
   Stated for any float instance. -/
import proofs.«129784_j68891275428342_2_alg».proof.Proof.Ideal.KitKeeps

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The reduction for any four stretches of host lines of which the program is the chain: the lines before the region,
    the region, the lines after it. -/
theorem hmain_gen (𝒱₀ : Variants) (o0 o1 o2 o3 : List (HloOp τ sig (Elt F)))
    (hs : o0.Forall fun op => op.bufs ⊆ StableHlo.tcRefs τ sig) (hf : o0.Forall fun op => op.fresh = ∅)
    (hm : ∀ c, main (F := F) c = Pipeline.chain [StableHlo.seq o0, Prog.lift (.customCall (Pipeline.entry 0) ()), StableHlo.seq o1, StableHlo.seq o2, StableHlo.seq o3]) :
    Pipeline.HMainK (Ix := Unit) (Name := ℕ) (U := UR sig nD τ) (Lvl := ℕ) cfgs 0 defs₀ 𝒱₀ m (main (F := F))
      (fun c b => StableHlo.after (List.flatten [o0]) (fun b => m (c, b)) (Proc.devRef .tc b))
      (fun _ => Pipeline.chain [StableHlo.seq o1, StableHlo.seq o2, StableHlo.seq o3]) :=
  Pipeline.hmain_around cfgs 0 defs₀ 𝒱₀ m main [o0] [o1, o2, o3] (by simp only [List.Forall]; exact hs)
    (by simp only [List.Forall]; exact hf) hm

/-- The program reduces to the region continued by the later lines, at the contents after the earlier ones. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2]) :=
  hmain_gen m 𝒱₀ hostOps0 hostOps1 hostOps1_1 hostOps1_2 hostOps0_sub hostOps0_fresh main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run -/

/-- For any proof data whose arrays are the region-entry contents, a run to the library's frame post read at the
    eight argument arrays (none is an array of the region: each is a buffer the region bypasses, and no later
    line writes it) is the frame claim's post. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Pipeline.mem_restRefs_of main_arg0 (by decide) (by decide))).trans (W_arg m dats c main_arg0 (by simp)),
    ((h c).2 main_arg1 (Pipeline.mem_restRefs_of main_arg1 (by decide) (by decide))).trans (W_arg m dats c main_arg1 (by simp)),
    ((h c).2 main_arg2 (Pipeline.mem_restRefs_of main_arg2 (by decide) (by decide))).trans (W_arg m dats c main_arg2 (by simp)),
    ((h c).2 main_arg3 (Pipeline.mem_restRefs_of main_arg3 (by decide) (by decide))).trans (W_arg m dats c main_arg3 (by simp)),
    ((h c).2 main_arg4 (Pipeline.mem_restRefs_of main_arg4 (by decide) (by decide))).trans (W_arg m dats c main_arg4 (by simp)),
    ((h c).2 main_arg5 (Pipeline.mem_restRefs_of main_arg5 (by decide) (by decide))).trans (W_arg m dats c main_arg5 (by simp)),
    ((h c).2 main_arg6 (Pipeline.mem_restRefs_of main_arg6 (by decide) (by decide))).trans (W_arg m dats c main_arg6 (by simp)),
    ((h c).2 main_arg7 (Pipeline.mem_restRefs_of main_arg7 (by decide) (by decide))).trans (W_arg m dats c main_arg7 (by simp))⟩) h

/-! ## The body's two branch conditions -/

/-- The first conditional (reset of the ten accumulators): the channel-chunk coordinate is 0. -/
abbrev cond0_0 (i : grid0.Coords) : Prop := (Scalar.cmpi .ne (Scalar.extui (Scalar.cmpi .eq (BitVec.ofNat 32 (i 1).val) 0#32)) 0#32) = 1#1
/-- It holds at the even points. -/
theorem hcond0_0 : ∀ t : Fin cfg0.N, cond0_0 (grid0.coords t) ↔ t.val % 2 = 0 :=
  (by decide +kernel : ∀ t : Fin grid0.N, cond0_0 (grid0.coords t) ↔ t.val % 2 = 0)

/-- The second conditional (the maps and the two sums are finalized): the channel-chunk coordinate is 1. -/
abbrev cond0_1 (i : grid0.Coords) : Prop := k0_cond2 i = 1#1
/-- It holds at the odd points. -/
theorem hcond0_1 : ∀ t : Fin cfg0.N, cond0_1 (grid0.coords t) ↔ t.val % 2 = 1 :=
  (by decide +kernel : ∀ t : Fin grid0.N, cond0_1 (grid0.coords t) ↔ t.val % 2 = 1)

/-! ## Where the windows are idle -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
/-- At the even points output 8 is idle: nothing is stored into it, and its block is not written back. -/
theorem idleAt0_8_A : ∀ t : Fin cfg0.N, cond0_0 (grid0.coords t) → ¬cond0_1 (grid0.coords t) → cfg0.idle 8 (grid0.coords t) = true := by decide +kernel
theorem noFlush0_8_A : ∀ t : Fin cfg0.N, cond0_0 (grid0.coords t) → ¬cond0_1 (grid0.coords t) → (cfg0.win 8).flush t = false := by decide +kernel
/-- At the odd points output 8 is live. -/
theorem liveAt0_8_B : ∀ t : Fin cfg0.N, ¬cond0_0 (grid0.coords t) → cond0_1 (grid0.coords t) → cfg0.idle 8 (grid0.coords t) = false := by decide +kernel
/-- At the even points output 9 is idle: nothing is stored into it, and its block is not written back. -/
theorem idleAt0_9_A : ∀ t : Fin cfg0.N, cond0_0 (grid0.coords t) → ¬cond0_1 (grid0.coords t) → cfg0.idle 9 (grid0.coords t) = true := by decide +kernel
theorem noFlush0_9_A : ∀ t : Fin cfg0.N, cond0_0 (grid0.coords t) → ¬cond0_1 (grid0.coords t) → (cfg0.win 9).flush t = false := by decide +kernel
/-- At the odd points output 9 is live. -/
theorem liveAt0_9_B : ∀ t : Fin cfg0.N, ¬cond0_0 (grid0.coords t) → cond0_1 (grid0.coords t) → cfg0.idle 9 (grid0.coords t) = false := by decide +kernel
/-- At the even points output 10 is idle: nothing is stored into it, and its block is not written back. -/
theorem idleAt0_10_A : ∀ t : Fin cfg0.N, cond0_0 (grid0.coords t) → ¬cond0_1 (grid0.coords t) → cfg0.idle 10 (grid0.coords t) = true := by decide +kernel
theorem noFlush0_10_A : ∀ t : Fin cfg0.N, cond0_0 (grid0.coords t) → ¬cond0_1 (grid0.coords t) → (cfg0.win 10).flush t = false := by decide +kernel
/-- At the odd points output 10 is live. -/
theorem liveAt0_10_B : ∀ t : Fin cfg0.N, ¬cond0_0 (grid0.coords t) → cond0_1 (grid0.coords t) → cfg0.idle 10 (grid0.coords t) = false := by decide +kernel
/-- At the even points output 11 is idle: nothing is stored into it, and its block is not written back. -/
theorem idleAt0_11_A : ∀ t : Fin cfg0.N, cond0_0 (grid0.coords t) → ¬cond0_1 (grid0.coords t) → cfg0.idle 11 (grid0.coords t) = true := by decide +kernel
theorem noFlush0_11_A : ∀ t : Fin cfg0.N, cond0_0 (grid0.coords t) → ¬cond0_1 (grid0.coords t) → (cfg0.win 11).flush t = false := by decide +kernel
/-- At the odd points output 11 is live. -/
theorem liveAt0_11_B : ∀ t : Fin cfg0.N, ¬cond0_0 (grid0.coords t) → cond0_1 (grid0.coords t) → cfg0.idle 11 (grid0.coords t) = false := by decide +kernel
/-- At the even points output 12 is idle: nothing is stored into it, and its block is not written back. -/
theorem idleAt0_12_A : ∀ t : Fin cfg0.N, cond0_0 (grid0.coords t) → ¬cond0_1 (grid0.coords t) → cfg0.idle 12 (grid0.coords t) = true := by decide +kernel
theorem noFlush0_12_A : ∀ t : Fin cfg0.N, cond0_0 (grid0.coords t) → ¬cond0_1 (grid0.coords t) → (cfg0.win 12).flush t = false := by decide +kernel
/-- At the odd points output 12 is live. -/
theorem liveAt0_12_B : ∀ t : Fin cfg0.N, ¬cond0_0 (grid0.coords t) → cond0_1 (grid0.coords t) → cfg0.idle 12 (grid0.coords t) = false := by decide +kernel

/-! ## The staging and scratch memrefs -/
abbrev ms0_0 (t : Fin cfg0.N) : Memref sig .tc .vmem S1x128x32x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x128x32x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128x32x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128x32x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128x32x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x32x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x1x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x1x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x32x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x32x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x32x128 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x32x128 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x2x128 .f32 := win0_12.stage (cfg0.slots t 12)
abbrev hs0_12 (t : Fin cfg0.N) : (ms0_12 t).IsWhole := hstage0_12 ((cfg0.slots t 12).cast nbuf0_12)
/-- One staging buffer of output window 6, through which its contents are stated. -/
abbrev VO0_6 : View sig .tc .vmem S1x1x1x128 .f32 := (Memref.whole cc0_stg6_0 : Memref sig .tc .vmem S1x1x1x128 .f32).view
/-- One staging buffer of output window 7, through which its contents are stated. -/
abbrev VO0_7 : View sig .tc .vmem S1x1x1x128 .f32 := (Memref.whole cc0_stg7_0 : Memref sig .tc .vmem S1x1x1x128 .f32).view
/-- One staging buffer of output window 8, through which its contents are stated. -/
abbrev VO0_8 : View sig .tc .vmem S1x32x128 .f32 := (Memref.whole cc0_stg8_0 : Memref sig .tc .vmem S1x32x128 .f32).view
/-- One staging buffer of output window 9, through which its contents are stated. -/
abbrev VO0_9 : View sig .tc .vmem S1x32x128 .f32 := (Memref.whole cc0_stg9_0 : Memref sig .tc .vmem S1x32x128 .f32).view
/-- One staging buffer of output window 10, through which its contents are stated. -/
abbrev VO0_10 : View sig .tc .vmem S1x32x128 .f32 := (Memref.whole cc0_stg10_0 : Memref sig .tc .vmem S1x32x128 .f32).view
/-- One staging buffer of output window 11, through which its contents are stated. -/
abbrev VO0_11 : View sig .tc .vmem S1x32x128 .f32 := (Memref.whole cc0_stg11_0 : Memref sig .tc .vmem S1x32x128 .f32).view
/-- One staging buffer of output window 12, through which its contents are stated. -/
abbrev VO0_12 : View sig .tc .vmem S1x2x128 .f32 := (Memref.whole cc0_stg12_0 : Memref sig .tc .vmem S1x2x128 .f32).view
/-- Accumulator 0: a whole scoped buffer of the kernel's own, carried between points. -/
abbrev scM0_0 : Memref sig .tc .vmem S32x128 .f32 := Memref.whole cc0_scratch0
abbrev VS0_0 : View sig .tc .vmem S32x128 .f32 := scM0_0.view
/-- Accumulator 1: a whole scoped buffer of the kernel's own, carried between points. -/
abbrev scM0_1 : Memref sig .tc .vmem S32x128 .f32 := Memref.whole cc0_scratch1
abbrev VS0_1 : View sig .tc .vmem S32x128 .f32 := scM0_1.view
/-- Accumulator 2: a whole scoped buffer of the kernel's own, carried between points. -/
abbrev scM0_2 : Memref sig .tc .vmem S32x128 .f32 := Memref.whole cc0_scratch2
abbrev VS0_2 : View sig .tc .vmem S32x128 .f32 := scM0_2.view
/-- Accumulator 3: a whole scoped buffer of the kernel's own, carried between points. -/
abbrev scM0_3 : Memref sig .tc .vmem S32x128 .f32 := Memref.whole cc0_scratch3
abbrev VS0_3 : View sig .tc .vmem S32x128 .f32 := scM0_3.view
/-- Accumulator 4: a whole scoped buffer of the kernel's own, carried between points. -/
abbrev scM0_4 : Memref sig .tc .vmem S32x128 .f32 := Memref.whole cc0_scratch4
abbrev VS0_4 : View sig .tc .vmem S32x128 .f32 := scM0_4.view
/-- Accumulator 5: a whole scoped buffer of the kernel's own, carried between points. -/
abbrev scM0_5 : Memref sig .tc .vmem S32x128 .f32 := Memref.whole cc0_scratch5
abbrev VS0_5 : View sig .tc .vmem S32x128 .f32 := scM0_5.view
/-- Accumulator 6: a whole scoped buffer of the kernel's own, carried between points. -/
abbrev scM0_6 : Memref sig .tc .vmem S32x128 .f32 := Memref.whole cc0_scratch6
abbrev VS0_6 : View sig .tc .vmem S32x128 .f32 := scM0_6.view
/-- Accumulator 7: a whole scoped buffer of the kernel's own, carried between points. -/
abbrev scM0_7 : Memref sig .tc .vmem S32x128 .f32 := Memref.whole cc0_scratch7
abbrev VS0_7 : View sig .tc .vmem S32x128 .f32 := scM0_7.view
/-- Accumulator 8: a whole scoped buffer of the kernel's own, carried between points. -/
abbrev scM0_8 : Memref sig .tc .vmem S32x128 .f32 := Memref.whole cc0_scratch8
abbrev VS0_8 : View sig .tc .vmem S32x128 .f32 := scM0_8.view
/-- Accumulator 9: a whole scoped buffer of the kernel's own, carried between points. -/
abbrev scM0_9 : Memref sig .tc .vmem S32x128 .f32 := Memref.whole cc0_scratch9
abbrev VS0_9 : View sig .tc .vmem S32x128 .f32 := scM0_9.view

/-- The region invariant of a kernel that describes nothing of its own, with the ten accumulators as memrefs owned at
    some contents: what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d)) ∗ (∃ r, prngReg c r)) := by
  unfold Pipeline.ΦA; rw [scopedRest0_eq]; simp only [scM0_0, scM0_1, scM0_2, scM0_3, scM0_4, scM0_5, scM0_6, scM0_7, scM0_8, scM0_9, owns_whole]; try rfl

end Cert.KernelIdeal.Fr

end
-- ==== Proof.Ideal.RunA.lean ====
/- The kernel body run whole at a grid point of one kind: the channel-chunk coordinate is 0 (the ten accumulators are reset, then the chunk's sums and maxima are added in; the two per-channel mean rows are stored; the five map outputs are left untouched).
   The pieces each buffer ends with are the witness the run finds. Stated for any float instance. -/
import proofs.«129784_j68891275428342_2_alg».proof.Proof.Ideal.Kit

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords) (arg2 : Memref sig .tc .vmem S1x128x32x128 .f32) (harg2 : arg2.IsWhole) (arg3 : Memref sig .tc .vmem S1x128x32x128 .f32) (harg3 : arg3.IsWhole) (arg4 : Memref sig .tc .vmem S1x128x32x128 .f32) (harg4 : arg4.IsWhole) (arg5 : Memref sig .tc .vmem S1x128x32x128 .f32) (harg5 : arg5.IsWhole) (arg6 : Memref sig .tc .vmem S1x128x32x128 .f32) (harg6 : arg6.IsWhole) (arg7 : Memref sig .tc .vmem S1x1x32x128 .f32) (harg7 : arg7.IsWhole) (arg8 : Memref sig .tc .vmem S1x1x1x128 .f32) (harg8 : arg8.IsWhole) (arg9 : Memref sig .tc .vmem S1x1x1x128 .f32) (harg9 : arg9.IsWhole) (arg10 : Memref sig .tc .vmem S1x32x128 .f32) (harg10 : arg10.IsWhole) (arg11 : Memref sig .tc .vmem S1x32x128 .f32) (harg11 : arg11.IsWhole) (arg12 : Memref sig .tc .vmem S1x32x128 .f32) (harg12 : arg12.IsWhole) (arg13 : Memref sig .tc .vmem S1x32x128 .f32) (harg13 : arg13.IsWhole) (arg14 : Memref sig .tc .vmem S1x2x128 .f32) (harg14 : arg14.IsWhole) (arg15 : Memref sig .tc .vmem S32x128 .f32) (harg15 : arg15.IsWhole) (arg16 : Memref sig .tc .vmem S32x128 .f32) (harg16 : arg16.IsWhole) (arg17 : Memref sig .tc .vmem S32x128 .f32) (harg17 : arg17.IsWhole) (arg18 : Memref sig .tc .vmem S32x128 .f32) (harg18 : arg18.IsWhole) (arg19 : Memref sig .tc .vmem S32x128 .f32) (harg19 : arg19.IsWhole) (arg20 : Memref sig .tc .vmem S32x128 .f32) (harg20 : arg20.IsWhole) (arg21 : Memref sig .tc .vmem S32x128 .f32) (harg21 : arg21.IsWhole) (arg22 : Memref sig .tc .vmem S32x128 .f32) (harg22 : arg22.IsWhole) (arg23 : Memref sig .tc .vmem S32x128 .f32) (harg23 : arg23.IsWhole) (arg24 : Memref sig .tc .vmem S32x128 .f32) (harg24 : arg24.IsWhole) (hc0 : cond0_0 i) (hc1 : ¬cond0_1 i)
    (x0 x1 x2 x3 x4 : Vec F S1x128x32x128 .f32) (x5 : Vec F S1x1x32x128 .f32) :
    Σ' (L6 : List (View.Piece (Elt F) S1x1x1x128 .f32)) (L7 : List (View.Piece (Elt F) S1x1x1x128 .f32)) (LS0 : List (View.Piece (Elt F) S32x128 .f32)) (LS1 : List (View.Piece (Elt F) S32x128 .f32)) (LS2 : List (View.Piece (Elt F) S32x128 .f32)) (LS3 : List (View.Piece (Elt F) S32x128 .f32)) (LS4 : List (View.Piece (Elt F) S32x128 .f32)) (LS5 : List (View.Piece (Elt F) S32x128 .f32)) (LS6 : List (View.Piece (Elt F) S32x128 .f32)) (LS7 : List (View.Piece (Elt F) S32x128 .f32)) (LS8 : List (View.Piece (Elt F) S32x128 .f32)), { LS9 : List (View.Piece (Elt F) S32x128 .f32) //
      ∀ (xi8 xi9 xi10 xi11 : Vec F S1x32x128 .f32) (xi12 : Vec F S1x2x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ (∃ d, owns (c : Thread nD τ) arg8 fullShare d)
            ∗ (∃ d, owns (c : Thread nD τ) arg9 fullShare d)
            ∗ owns (c : Thread nD τ) arg10 fullShare xi8
            ∗ owns (c : Thread nD τ) arg11 fullShare xi9
            ∗ owns (c : Thread nD τ) arg12 fullShare xi10
            ∗ owns (c : Thread nD τ) arg13 fullShare xi11
            ∗ owns (c : Thread nD τ) arg14 fullShare xi12
            ∗ (∃ d, owns (c : Thread nD τ) arg15 fullShare d)
            ∗ (∃ d, owns (c : Thread nD τ) arg16 fullShare d)
            ∗ (∃ d, owns (c : Thread nD τ) arg17 fullShare d)
            ∗ (∃ d, owns (c : Thread nD τ) arg18 fullShare d)
            ∗ (∃ d, owns (c : Thread nD τ) arg19 fullShare d)
            ∗ (∃ d, owns (c : Thread nD τ) arg20 fullShare d)
            ∗ (∃ d, owns (c : Thread nD τ) arg21 fullShare d)
            ∗ (∃ d, owns (c : Thread nD τ) arg22 fullShare d)
            ∗ (∃ d, owns (c : Thread nD τ) arg23 fullShare d)
            ∗ (∃ d, owns (c : Thread nD τ) arg24 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
              ∗ (∃ f, arg8.view.loc (c : Thread nD τ) ↦[arg8.view.set]{fullShare} arg8.view.writes (Elt F) f L6)
              ∗ (∃ f, arg9.view.loc (c : Thread nD τ) ↦[arg9.view.set]{fullShare} arg9.view.writes (Elt F) f L7)
              ∗ owns (c : Thread nD τ) arg10 fullShare xi8
              ∗ owns (c : Thread nD τ) arg11 fullShare xi9
              ∗ owns (c : Thread nD τ) arg12 fullShare xi10
              ∗ owns (c : Thread nD τ) arg13 fullShare xi11
              ∗ owns (c : Thread nD τ) arg14 fullShare xi12
              ∗ (∃ f, arg15.view.loc (c : Thread nD τ) ↦[arg15.view.set]{fullShare} arg15.view.writes (Elt F) f LS0)
              ∗ (∃ f, arg16.view.loc (c : Thread nD τ) ↦[arg16.view.set]{fullShare} arg16.view.writes (Elt F) f LS1)
              ∗ (∃ f, arg17.view.loc (c : Thread nD τ) ↦[arg17.view.set]{fullShare} arg17.view.writes (Elt F) f LS2)
              ∗ (∃ f, arg18.view.loc (c : Thread nD τ) ↦[arg18.view.set]{fullShare} arg18.view.writes (Elt F) f LS3)
              ∗ (∃ f, arg19.view.loc (c : Thread nD τ) ↦[arg19.view.set]{fullShare} arg19.view.writes (Elt F) f LS4)
              ∗ (∃ f, arg20.view.loc (c : Thread nD τ) ↦[arg20.view.set]{fullShare} arg20.view.writes (Elt F) f LS5)
              ∗ (∃ f, arg21.view.loc (c : Thread nD τ) ↦[arg21.view.set]{fullShare} arg21.view.writes (Elt F) f LS6)
              ∗ (∃ f, arg22.view.loc (c : Thread nD τ) ↦[arg22.view.set]{fullShare} arg22.view.writes (Elt F) f LS7)
              ∗ (∃ f, arg23.view.loc (c : Thread nD τ) ↦[arg23.view.set]{fullShare} arg23.view.writes (Elt F) f LS8)
              ∗ (∃ f, arg24.view.loc (c : Thread nD τ) ↦[arg24.view.set]{fullShare} arg24.view.writes (Elt F) f LS9)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K } := by
  refine ⟨?_, ?_, ?_, ?_, ?_, ?_, ?_, ?_, ?_, ?_, ?_, ?_, fun xi8 xi9 xi10 xi11 xi12 E K => ?run⟩
  case run =>
    -- the printed body and its six parts, as their skeletons of memory operations over the payload names
    simp only [cc0__kernel_eq_skeleton]; unfold cc0__kernel_skel
    simp only [k0_part4_eq_skeleton, k0_part1_eq_skeleton, k0_part5_eq_skeleton, k0_part6_eq_skeleton,
      k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩,
      ⟨%d6, %f6, -, H6⟩, ⟨%d7, %f7, -, H7⟩,
      ⟨%f8, %hf8, H8⟩, ⟨%f9, %hf9, H9⟩, ⟨%f10, %hf10, H10⟩, ⟨%f11, %hf11, H11⟩, ⟨%f12, %hf12, H12⟩,
      ⟨%ds0, %fs0, -, HS0⟩, ⟨%ds1, %fs1, -, HS1⟩, ⟨%ds2, %fs2, -, HS2⟩, ⟨%ds3, %fs3, -, HS3⟩, ⟨%ds4, %fs4, -, HS4⟩,
      ⟨%ds5, %fs5, -, HS5⟩, ⟨%ds6, %fs6, -, HS6⟩, ⟨%ds7, %fs7, -, HS7⟩, ⟨%ds8, %fs8, -, HS8⟩, ⟨%ds9, %fs9, -, HS9⟩, Hk⟩
    -- a whole memref read at known contents holds exactly those contents, unread
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg10.eq_unread hf8; obtain rfl := harg11.eq_unread hf9; obtain rfl := harg12.eq_unread hf10
    obtain rfl := harg13.eq_unread hf11; obtain rfl := harg14.eq_unread hf12
    -- the run: the reset branch is taken (hc0), the finalizing branch is not (hc1)
    sl_exec (disch := first | exact hc0 | exact hc1)
    sl_step
    iapply Hk
    -- the six inputs, as they were
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    -- the two mean rows, with the one piece each was stored
    isplitl [H6]; · iexists _; iexact H6
    isplitl [H7]; · iexists _; iexact H7
    -- the five idle outputs, untouched
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    -- the ten accumulators, each with its reset and then its update written
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    isplitl [HS7]; · iexists _; iexact HS7
    isplitl [HS8]; · iexists _; iexact HS8
    iexists _; iexact HS9

end Cert.KernelIdeal.Fr

end
-- ==== Proof.Ideal.RunB.lean ====
/- The kernel body run whole at a grid point of one kind: the channel-chunk coordinate is 1 (the chunk's sums and maxima are added to what the point before left in the ten accumulators; the two per-channel mean rows, the four maps and the two sums are stored).
   The pieces each buffer ends with are the witness the run finds. Stated for any float instance. -/
import proofs.«129784_j68891275428342_2_alg».proof.Proof.Ideal.RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg2 : Memref sig .tc .vmem S1x128x32x128 .f32) (harg2 : arg2.IsWhole) (arg3 : Memref sig .tc .vmem S1x128x32x128 .f32) (harg3 : arg3.IsWhole) (arg4 : Memref sig .tc .vmem S1x128x32x128 .f32) (harg4 : arg4.IsWhole) (arg5 : Memref sig .tc .vmem S1x128x32x128 .f32) (harg5 : arg5.IsWhole) (arg6 : Memref sig .tc .vmem S1x128x32x128 .f32) (harg6 : arg6.IsWhole) (arg7 : Memref sig .tc .vmem S1x1x32x128 .f32) (harg7 : arg7.IsWhole) (arg8 : Memref sig .tc .vmem S1x1x1x128 .f32) (harg8 : arg8.IsWhole) (arg9 : Memref sig .tc .vmem S1x1x1x128 .f32) (harg9 : arg9.IsWhole) (arg10 : Memref sig .tc .vmem S1x32x128 .f32) (harg10 : arg10.IsWhole) (arg11 : Memref sig .tc .vmem S1x32x128 .f32) (harg11 : arg11.IsWhole) (arg12 : Memref sig .tc .vmem S1x32x128 .f32) (harg12 : arg12.IsWhole) (arg13 : Memref sig .tc .vmem S1x32x128 .f32) (harg13 : arg13.IsWhole) (arg14 : Memref sig .tc .vmem S1x2x128 .f32) (harg14 : arg14.IsWhole) (arg15 : Memref sig .tc .vmem S32x128 .f32) (harg15 : arg15.IsWhole) (arg16 : Memref sig .tc .vmem S32x128 .f32) (harg16 : arg16.IsWhole) (arg17 : Memref sig .tc .vmem S32x128 .f32) (harg17 : arg17.IsWhole) (arg18 : Memref sig .tc .vmem S32x128 .f32) (harg18 : arg18.IsWhole) (arg19 : Memref sig .tc .vmem S32x128 .f32) (harg19 : arg19.IsWhole) (arg20 : Memref sig .tc .vmem S32x128 .f32) (harg20 : arg20.IsWhole) (arg21 : Memref sig .tc .vmem S32x128 .f32) (harg21 : arg21.IsWhole) (arg22 : Memref sig .tc .vmem S32x128 .f32) (harg22 : arg22.IsWhole) (arg23 : Memref sig .tc .vmem S32x128 .f32) (harg23 : arg23.IsWhole) (arg24 : Memref sig .tc .vmem S32x128 .f32) (harg24 : arg24.IsWhole) (hc0 : ¬cond0_0 i) (hc1 : cond0_1 i)
    (x0 x1 x2 x3 x4 : Vec F S1x128x32x128 .f32) (x5 : Vec F S1x1x32x128 .f32) (xs0 xs1 xs2 xs3 xs4 xs5 xs6 xs7 xs8 xs9 : Vec F S32x128 .f32) :
    Σ' (L6 : List (View.Piece (Elt F) S1x1x1x128 .f32)) (L7 : List (View.Piece (Elt F) S1x1x1x128 .f32)) (L8 : List (View.Piece (Elt F) S1x32x128 .f32)) (L9 : List (View.Piece (Elt F) S1x32x128 .f32)) (L10 : List (View.Piece (Elt F) S1x32x128 .f32)) (L11 : List (View.Piece (Elt F) S1x32x128 .f32)) (L12 : List (View.Piece (Elt F) S1x2x128 .f32)) (LS0 : List (View.Piece (Elt F) S32x128 .f32)) (LS1 : List (View.Piece (Elt F) S32x128 .f32)) (LS2 : List (View.Piece (Elt F) S32x128 .f32)) (LS3 : List (View.Piece (Elt F) S32x128 .f32)) (LS4 : List (View.Piece (Elt F) S32x128 .f32)) (LS5 : List (View.Piece (Elt F) S32x128 .f32)) (LS6 : List (View.Piece (Elt F) S32x128 .f32)) (LS7 : List (View.Piece (Elt F) S32x128 .f32)) (LS8 : List (View.Piece (Elt F) S32x128 .f32)), { LS9 : List (View.Piece (Elt F) S32x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ (∃ d, owns (c : Thread nD τ) arg8 fullShare d)
            ∗ (∃ d, owns (c : Thread nD τ) arg9 fullShare d)
            ∗ (∃ d, owns (c : Thread nD τ) arg10 fullShare d)
            ∗ (∃ d, owns (c : Thread nD τ) arg11 fullShare d)
            ∗ (∃ d, owns (c : Thread nD τ) arg12 fullShare d)
            ∗ (∃ d, owns (c : Thread nD τ) arg13 fullShare d)
            ∗ (∃ d, owns (c : Thread nD τ) arg14 fullShare d)
            ∗ owns (c : Thread nD τ) arg15 fullShare xs0
            ∗ owns (c : Thread nD τ) arg16 fullShare xs1
            ∗ owns (c : Thread nD τ) arg17 fullShare xs2
            ∗ owns (c : Thread nD τ) arg18 fullShare xs3
            ∗ owns (c : Thread nD τ) arg19 fullShare xs4
            ∗ owns (c : Thread nD τ) arg20 fullShare xs5
            ∗ owns (c : Thread nD τ) arg21 fullShare xs6
            ∗ owns (c : Thread nD τ) arg22 fullShare xs7
            ∗ owns (c : Thread nD τ) arg23 fullShare xs8
            ∗ owns (c : Thread nD τ) arg24 fullShare xs9
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
              ∗ (∃ f, arg8.view.loc (c : Thread nD τ) ↦[arg8.view.set]{fullShare} arg8.view.writes (Elt F) f L6)
              ∗ (∃ f, arg9.view.loc (c : Thread nD τ) ↦[arg9.view.set]{fullShare} arg9.view.writes (Elt F) f L7)
              ∗ (∃ f, arg10.view.loc (c : Thread nD τ) ↦[arg10.view.set]{fullShare} arg10.view.writes (Elt F) f L8)
              ∗ (∃ f, arg11.view.loc (c : Thread nD τ) ↦[arg11.view.set]{fullShare} arg11.view.writes (Elt F) f L9)
              ∗ (∃ f, arg12.view.loc (c : Thread nD τ) ↦[arg12.view.set]{fullShare} arg12.view.writes (Elt F) f L10)
              ∗ (∃ f, arg13.view.loc (c : Thread nD τ) ↦[arg13.view.set]{fullShare} arg13.view.writes (Elt F) f L11)
              ∗ (∃ f, arg14.view.loc (c : Thread nD τ) ↦[arg14.view.set]{fullShare} arg14.view.writes (Elt F) f L12)
              ∗ (∃ f, arg15.view.loc (c : Thread nD τ) ↦[arg15.view.set]{fullShare} arg15.view.writes (Elt F) f LS0)
              ∗ (∃ f, arg16.view.loc (c : Thread nD τ) ↦[arg16.view.set]{fullShare} arg16.view.writes (Elt F) f LS1)
              ∗ (∃ f, arg17.view.loc (c : Thread nD τ) ↦[arg17.view.set]{fullShare} arg17.view.writes (Elt F) f LS2)
              ∗ (∃ f, arg18.view.loc (c : Thread nD τ) ↦[arg18.view.set]{fullShare} arg18.view.writes (Elt F) f LS3)
              ∗ (∃ f, arg19.view.loc (c : Thread nD τ) ↦[arg19.view.set]{fullShare} arg19.view.writes (Elt F) f LS4)
              ∗ (∃ f, arg20.view.loc (c : Thread nD τ) ↦[arg20.view.set]{fullShare} arg20.view.writes (Elt F) f LS5)
              ∗ (∃ f, arg21.view.loc (c : Thread nD τ) ↦[arg21.view.set]{fullShare} arg21.view.writes (Elt F) f LS6)
              ∗ (∃ f, arg22.view.loc (c : Thread nD τ) ↦[arg22.view.set]{fullShare} arg22.view.writes (Elt F) f LS7)
              ∗ (∃ f, arg23.view.loc (c : Thread nD τ) ↦[arg23.view.set]{fullShare} arg23.view.writes (Elt F) f LS8)
              ∗ (∃ f, arg24.view.loc (c : Thread nD τ) ↦[arg24.view.set]{fullShare} arg24.view.writes (Elt F) f LS9)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K } := by
  refine ⟨?_, ?_, ?_, ?_, ?_, ?_, ?_, ?_, ?_, ?_, ?_, ?_, ?_, ?_, ?_, ?_, ?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, ⟨%fs6, %hfs6, HS6⟩, ⟨%fs7, %hfs7, HS7⟩, ⟨%fs8, %hfs8, HS8⟩, ⟨%fs9, %hfs9, HS9⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg15.eq_unread hfs0; obtain rfl := harg16.eq_unread hfs1; obtain rfl := harg17.eq_unread hfs2; obtain rfl := harg18.eq_unread hfs3; obtain rfl := harg19.eq_unread hfs4; obtain rfl := harg20.eq_unread hfs5; obtain rfl := harg21.eq_unread hfs6; obtain rfl := harg22.eq_unread hfs7; obtain rfl := harg23.eq_unread hfs8; obtain rfl := harg24.eq_unread hfs9
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    isplitl [HS7]; · iexists _; iexact HS7
    isplitl [HS8]; · iexists _; iexact HS8
    iexists _; iexact HS9

end Cert.KernelIdeal.Fr

end
-- ==== Proof.Ideal.Frame.lean ====
/- The kernel program's frame: what the seven output blocks and the ten accumulators hold after the body at each
   grid point (at an even point the reset-and-first-chunk case, at an odd point the second chunk added to what the
   point before left, and the maps finalized), and the region's proof data over that.
   Stated for any float instance. -/
import proofs.«129784_j68891275428342_2_alg».proof.Proof.Ideal.RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two kinds of point -/

theorem hcA0 (t : Fin cfg0.N) (h0 : t.val % 2 = 0) : cond0_0 (grid0.coords t) := (hcond0_0 t).mpr h0
theorem hcA1 (t : Fin cfg0.N) (h0 : t.val % 2 = 0) : ¬cond0_1 (grid0.coords t) := fun h => by
  have := (hcond0_1 t).mp h; omega
theorem hcB0 (t : Fin cfg0.N) (h0 : ¬t.val % 2 = 0) : ¬cond0_0 (grid0.coords t) := fun h => h0 ((hcond0_0 t).mp h)
theorem hcB1 (t : Fin cfg0.N) (h0 : ¬t.val % 2 = 0) : cond0_1 (grid0.coords t) := (hcond0_1 t).mpr (by omega)

/-- What the body leaves at a point: the seven output blocks and the ten accumulators. -/
structure Pt (F : FTy → Type) [FloatOps F] where
  o6 : Vec F S1x1x1x128 .f32
  o7 : Vec F S1x1x1x128 .f32
  o8 : Vec F S1x32x128 .f32
  o9 : Vec F S1x32x128 .f32
  o10 : Vec F S1x32x128 .f32
  o11 : Vec F S1x32x128 .f32
  o12 : Vec F S1x2x128 .f32
  s0 : Vec F S32x128 .f32
  s1 : Vec F S32x128 .f32
  s2 : Vec F S32x128 .f32
  s3 : Vec F S32x128 .f32
  s4 : Vec F S32x128 .f32
  s5 : Vec F S32x128 .f32
  s6 : Vec F S32x128 .f32
  s7 : Vec F S32x128 .f32
  s8 : Vec F S32x128 .f32
  s9 : Vec F S32x128 .f32

/-- The body's run at an even point, on that point's staging memrefs and input blocks. -/
abbrev runA (c : Dev nD) (t : Fin cfg0.N) (h0 : t.val % 2 = 0) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (hcA0 t h0) (hcA1 t h0) (iblk m c 0 t) (iblk m c 1 t) (iblk m c 2 t) (iblk m c 3 t) (iblk m c 4 t) (iblk m c 5 t)

/-- The body's run at an odd point, over what the point before left in the accumulators. -/
abbrev runB (c : Dev nD) (t : Fin cfg0.N) (h0 : ¬t.val % 2 = 0) (xs0 xs1 xs2 xs3 xs4 xs5 xs6 xs7 xs8 xs9 : Vec F S32x128 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (hcB0 t h0) (hcB1 t h0) (iblk m c 0 t) (iblk m c 1 t) (iblk m c 2 t) (iblk m c 3 t) (iblk m c 4 t) (iblk m c 5 t) xs0 xs1 xs2 xs3 xs4 xs5 xs6 xs7 xs8 xs9

/-- After an even point: the two mean rows and the accumulators hold the run's pieces read back; the five maps'
    blocks are not consulted there (idle, not written back). -/
def ptA (c : Dev nD) (t : Fin cfg0.N) (h0 : t.val % 2 = 0) : Pt F where
  o6 := VO0_6.read (Elt F) (VO0_6.writes (Elt F) VO0_6.junk (runA m c t h0).1)
  o7 := VO0_7.read (Elt F) (VO0_7.writes (Elt F) VO0_7.junk (runA m c t h0).2.1)
  o8 := VO0_8.read (Elt F) VO0_8.junk
  o9 := VO0_9.read (Elt F) VO0_9.junk
  o10 := VO0_10.read (Elt F) VO0_10.junk
  o11 := VO0_11.read (Elt F) VO0_11.junk
  o12 := VO0_12.read (Elt F) VO0_12.junk
  s0 := VS0_0.read (Elt F) (VS0_0.writes (Elt F) VS0_0.junk (runA m c t h0).2.2.1)
  s1 := VS0_1.read (Elt F) (VS0_1.writes (Elt F) VS0_1.junk (runA m c t h0).2.2.2.1)
  s2 := VS0_2.read (Elt F) (VS0_2.writes (Elt F) VS0_2.junk (runA m c t h0).2.2.2.2.1)
  s3 := VS0_3.read (Elt F) (VS0_3.writes (Elt F) VS0_3.junk (runA m c t h0).2.2.2.2.2.1)
  s4 := VS0_4.read (Elt F) (VS0_4.writes (Elt F) VS0_4.junk (runA m c t h0).2.2.2.2.2.2.1)
  s5 := VS0_5.read (Elt F) (VS0_5.writes (Elt F) VS0_5.junk (runA m c t h0).2.2.2.2.2.2.2.1)
  s6 := VS0_6.read (Elt F) (VS0_6.writes (Elt F) VS0_6.junk (runA m c t h0).2.2.2.2.2.2.2.2.1)
  s7 := VS0_7.read (Elt F) (VS0_7.writes (Elt F) VS0_7.junk (runA m c t h0).2.2.2.2.2.2.2.2.2.1)
  s8 := VS0_8.read (Elt F) (VS0_8.writes (Elt F) VS0_8.junk (runA m c t h0).2.2.2.2.2.2.2.2.2.2.1)
  s9 := VS0_9.read (Elt F) (VS0_9.writes (Elt F) VS0_9.junk (runA m c t h0).2.2.2.2.2.2.2.2.2.2.2.1)

/-- After an odd point, over the accumulators `p` the point before left. -/
def ptB (c : Dev nD) (t : Fin cfg0.N) (h0 : ¬t.val % 2 = 0) (p : Pt F) : Pt F where
  o6 := VO0_6.read (Elt F) (VO0_6.writes (Elt F) VO0_6.junk (runB m c t h0 p.s0 p.s1 p.s2 p.s3 p.s4 p.s5 p.s6 p.s7 p.s8 p.s9).1)
  o7 := VO0_7.read (Elt F) (VO0_7.writes (Elt F) VO0_7.junk (runB m c t h0 p.s0 p.s1 p.s2 p.s3 p.s4 p.s5 p.s6 p.s7 p.s8 p.s9).2.1)
  o8 := VO0_8.read (Elt F) (VO0_8.writes (Elt F) VO0_8.junk (runB m c t h0 p.s0 p.s1 p.s2 p.s3 p.s4 p.s5 p.s6 p.s7 p.s8 p.s9).2.2.1)
  o9 := VO0_9.read (Elt F) (VO0_9.writes (Elt F) VO0_9.junk (runB m c t h0 p.s0 p.s1 p.s2 p.s3 p.s4 p.s5 p.s6 p.s7 p.s8 p.s9).2.2.2.1)
  o10 := VO0_10.read (Elt F) (VO0_10.writes (Elt F) VO0_10.junk (runB m c t h0 p.s0 p.s1 p.s2 p.s3 p.s4 p.s5 p.s6 p.s7 p.s8 p.s9).2.2.2.2.1)
  o11 := VO0_11.read (Elt F) (VO0_11.writes (Elt F) VO0_11.junk (runB m c t h0 p.s0 p.s1 p.s2 p.s3 p.s4 p.s5 p.s6 p.s7 p.s8 p.s9).2.2.2.2.2.1)
  o12 := VO0_12.read (Elt F) (VO0_12.writes (Elt F) VO0_12.junk (runB m c t h0 p.s0 p.s1 p.s2 p.s3 p.s4 p.s5 p.s6 p.s7 p.s8 p.s9).2.2.2.2.2.2.1)
  s0 := VS0_0.read (Elt F) (VS0_0.writes (Elt F) VS0_0.junk (runB m c t h0 p.s0 p.s1 p.s2 p.s3 p.s4 p.s5 p.s6 p.s7 p.s8 p.s9).2.2.2.2.2.2.2.1)
  s1 := VS0_1.read (Elt F) (VS0_1.writes (Elt F) VS0_1.junk (runB m c t h0 p.s0 p.s1 p.s2 p.s3 p.s4 p.s5 p.s6 p.s7 p.s8 p.s9).2.2.2.2.2.2.2.2.1)
  s2 := VS0_2.read (Elt F) (VS0_2.writes (Elt F) VS0_2.junk (runB m c t h0 p.s0 p.s1 p.s2 p.s3 p.s4 p.s5 p.s6 p.s7 p.s8 p.s9).2.2.2.2.2.2.2.2.2.1)
  s3 := VS0_3.read (Elt F) (VS0_3.writes (Elt F) VS0_3.junk (runB m c t h0 p.s0 p.s1 p.s2 p.s3 p.s4 p.s5 p.s6 p.s7 p.s8 p.s9).2.2.2.2.2.2.2.2.2.2.1)
  s4 := VS0_4.read (Elt F) (VS0_4.writes (Elt F) VS0_4.junk (runB m c t h0 p.s0 p.s1 p.s2 p.s3 p.s4 p.s5 p.s6 p.s7 p.s8 p.s9).2.2.2.2.2.2.2.2.2.2.2.1)
  s5 := VS0_5.read (Elt F) (VS0_5.writes (Elt F) VS0_5.junk (runB m c t h0 p.s0 p.s1 p.s2 p.s3 p.s4 p.s5 p.s6 p.s7 p.s8 p.s9).2.2.2.2.2.2.2.2.2.2.2.2.1)
  s6 := VS0_6.read (Elt F) (VS0_6.writes (Elt F) VS0_6.junk (runB m c t h0 p.s0 p.s1 p.s2 p.s3 p.s4 p.s5 p.s6 p.s7 p.s8 p.s9).2.2.2.2.2.2.2.2.2.2.2.2.2.1)
  s7 := VS0_7.read (Elt F) (VS0_7.writes (Elt F) VS0_7.junk (runB m c t h0 p.s0 p.s1 p.s2 p.s3 p.s4 p.s5 p.s6 p.s7 p.s8 p.s9).2.2.2.2.2.2.2.2.2.2.2.2.2.2.1)
  s8 := VS0_8.read (Elt F) (VS0_8.writes (Elt F) VS0_8.junk (runB m c t h0 p.s0 p.s1 p.s2 p.s3 p.s4 p.s5 p.s6 p.s7 p.s8 p.s9).2.2.2.2.2.2.2.2.2.2.2.2.2.2.2.1)
  s9 := VS0_9.read (Elt F) (VS0_9.writes (Elt F) VS0_9.junk (runB m c t h0 p.s0 p.s1 p.s2 p.s3 p.s4 p.s5 p.s6 p.s7 p.s8 p.s9).2.2.2.2.2.2.2.2.2.2.2.2.2.2.2.2.1)

/-! ## The pieces cover their buffers -/
theorem cover0_A_6 (c : Dev nD) (t : Fin cfg0.N) (h0 : t.val % 2 = 0) (y : S1x1x1x128.Idx) :
    ∃ pc ∈ (runA m c t h0).1, y ∈ pc.1.set :=
  View.cover_of_tiledL (runA m c t h0).1 S1x1x1x128.size (by sl_kernel_rfl) y
theorem cover0_A_7 (c : Dev nD) (t : Fin cfg0.N) (h0 : t.val % 2 = 0) (y : S1x1x1x128.Idx) :
    ∃ pc ∈ (runA m c t h0).2.1, y ∈ pc.1.set :=
  View.cover_of_tiledL (runA m c t h0).2.1 S1x1x1x128.size (by sl_kernel_rfl) y
theorem scover0_A_0 (c : Dev nD) (t : Fin cfg0.N) (h0 : t.val % 2 = 0) (y : S32x128.Idx) :
    ∃ pc ∈ (runA m c t h0).2.2.1, y ∈ pc.1.set :=
  View.cover_of_tiledL (runA m c t h0).2.2.1 S32x128.size (by sl_kernel_rfl) y
theorem scover0_A_1 (c : Dev nD) (t : Fin cfg0.N) (h0 : t.val % 2 = 0) (y : S32x128.Idx) :
    ∃ pc ∈ (runA m c t h0).2.2.2.1, y ∈ pc.1.set :=
  View.cover_of_tiledL (runA m c t h0).2.2.2.1 S32x128.size (by sl_kernel_rfl) y
theorem scover0_A_2 (c : Dev nD) (t : Fin cfg0.N) (h0 : t.val % 2 = 0) (y : S32x128.Idx) :
    ∃ pc ∈ (runA m c t h0).2.2.2.2.1, y ∈ pc.1.set :=
  View.cover_of_tiledL (runA m c t h0).2.2.2.2.1 S32x128.size (by sl_kernel_rfl) y
theorem scover0_A_3 (c : Dev nD) (t : Fin cfg0.N) (h0 : t.val % 2 = 0) (y : S32x128.Idx) :
    ∃ pc ∈ (runA m c t h0).2.2.2.2.2.1, y ∈ pc.1.set :=
  View.cover_of_tiledL (runA m c t h0).2.2.2.2.2.1 S32x128.size (by sl_kernel_rfl) y
theorem scover0_A_4 (c : Dev nD) (t : Fin cfg0.N) (h0 : t.val % 2 = 0) (y : S32x128.Idx) :
    ∃ pc ∈ (runA m c t h0).2.2.2.2.2.2.1, y ∈ pc.1.set :=
  View.cover_of_tiledL (runA m c t h0).2.2.2.2.2.2.1 S32x128.size (by sl_kernel_rfl) y
theorem scover0_A_5 (c : Dev nD) (t : Fin cfg0.N) (h0 : t.val % 2 = 0) (y : S32x128.Idx) :
    ∃ pc ∈ (runA m c t h0).2.2.2.2.2.2.2.1, y ∈ pc.1.set :=
  View.cover_of_tiledL (runA m c t h0).2.2.2.2.2.2.2.1 S32x128.size (by sl_kernel_rfl) y
theorem scover0_A_6 (c : Dev nD) (t : Fin cfg0.N) (h0 : t.val % 2 = 0) (y : S32x128.Idx) :
    ∃ pc ∈ (runA m c t h0).2.2.2.2.2.2.2.2.1, y ∈ pc.1.set :=
  View.cover_of_tiledL (runA m c t h0).2.2.2.2.2.2.2.2.1 S32x128.size (by sl_kernel_rfl) y
theorem scover0_A_7 (c : Dev nD) (t : Fin cfg0.N) (h0 : t.val % 2 = 0) (y : S32x128.Idx) :
    ∃ pc ∈ (runA m c t h0).2.2.2.2.2.2.2.2.2.1, y ∈ pc.1.set :=
  View.cover_of_tiledL (runA m c t h0).2.2.2.2.2.2.2.2.2.1 S32x128.size (by sl_kernel_rfl) y
theorem scover0_A_8 (c : Dev nD) (t : Fin cfg0.N) (h0 : t.val % 2 = 0) (y : S32x128.Idx) :
    ∃ pc ∈ (runA m c t h0).2.2.2.2.2.2.2.2.2.2.1, y ∈ pc.1.set :=
  View.cover_of_tiledL (runA m c t h0).2.2.2.2.2.2.2.2.2.2.1 S32x128.size (by sl_kernel_rfl) y
theorem scover0_A_9 (c : Dev nD) (t : Fin cfg0.N) (h0 : t.val % 2 = 0) (y : S32x128.Idx) :
    ∃ pc ∈ (runA m c t h0).2.2.2.2.2.2.2.2.2.2.2.1, y ∈ pc.1.set :=
  View.cover_of_tiledL (runA m c t h0).2.2.2.2.2.2.2.2.2.2.2.1 S32x128.size (by sl_kernel_rfl) y
theorem cover0_B_6 (c : Dev nD) (t : Fin cfg0.N) (h0 : ¬t.val % 2 = 0) (xs0 xs1 xs2 xs3 xs4 xs5 xs6 xs7 xs8 xs9 : Vec F S32x128 .f32) (y : S1x1x1x128.Idx) :
    ∃ pc ∈ (runB m c t h0 xs0 xs1 xs2 xs3 xs4 xs5 xs6 xs7 xs8 xs9).1, y ∈ pc.1.set :=
  View.cover_of_tiledL (runB m c t h0 xs0 xs1 xs2 xs3 xs4 xs5 xs6 xs7 xs8 xs9).1 S1x1x1x128.size (by sl_kernel_rfl) y
theorem cover0_B_7 (c : Dev nD) (t : Fin cfg0.N) (h0 : ¬t.val % 2 = 0) (xs0 xs1 xs2 xs3 xs4 xs5 xs6 xs7 xs8 xs9 : Vec F S32x128 .f32) (y : S1x1x1x128.Idx) :
    ∃ pc ∈ (runB m c t h0 xs0 xs1 xs2 xs3 xs4 xs5 xs6 xs7 xs8 xs9).2.1, y ∈ pc.1.set :=
  View.cover_of_tiledL (runB m c t h0 xs0 xs1 xs2 xs3 xs4 xs5 xs6 xs7 xs8 xs9).2.1 S1x1x1x128.size (by sl_kernel_rfl) y
theorem cover0_B_8 (c : Dev nD) (t : Fin cfg0.N) (h0 : ¬t.val % 2 = 0) (xs0 xs1 xs2 xs3 xs4 xs5 xs6 xs7 xs8 xs9 : Vec F S32x128 .f32) (y : S1x32x128.Idx) :
    ∃ pc ∈ (runB m c t h0 xs0 xs1 xs2 xs3 xs4 xs5 xs6 xs7 xs8 xs9).2.2.1, y ∈ pc.1.set :=
  View.cover_of_tiledL (runB m c t h0 xs0 xs1 xs2 xs3 xs4 xs5 xs6 xs7 xs8 xs9).2.2.1 S1x32x128.size (by sl_kernel_rfl) y
theorem cover0_B_9 (c : Dev nD) (t : Fin cfg0.N) (h0 : ¬t.val % 2 = 0) (xs0 xs1 xs2 xs3 xs4 xs5 xs6 xs7 xs8 xs9 : Vec F S32x128 .f32) (y : S1x32x128.Idx) :
    ∃ pc ∈ (runB m c t h0 xs0 xs1 xs2 xs3 xs4 xs5 xs6 xs7 xs8 xs9).2.2.2.1, y ∈ pc.1.set :=
  View.cover_of_tiledL (runB m c t h0 xs0 xs1 xs2 xs3 xs4 xs5 xs6 xs7 xs8 xs9).2.2.2.1 S1x32x128.size (by sl_kernel_rfl) y
theorem cover0_B_10 (c : Dev nD) (t : Fin cfg0.N) (h0 : ¬t.val % 2 = 0) (xs0 xs1 xs2 xs3 xs4 xs5 xs6 xs7 xs8 xs9 : Vec F S32x128 .f32) (y : S1x32x128.Idx) :
    ∃ pc ∈ (runB m c t h0 xs0 xs1 xs2 xs3 xs4 xs5 xs6 xs7 xs8 xs9).2.2.2.2.1, y ∈ pc.1.set :=
  View.cover_of_tiledL (runB m c t h0 xs0 xs1 xs2 xs3 xs4 xs5 xs6 xs7 xs8 xs9).2.2.2.2.1 S1x32x128.size (by sl_kernel_rfl) y
theorem cover0_B_11 (c : Dev nD) (t : Fin cfg0.N) (h0 : ¬t.val % 2 = 0) (xs0 xs1 xs2 xs3 xs4 xs5 xs6 xs7 xs8 xs9 : Vec F S32x128 .f32) (y : S1x32x128.Idx) :
    ∃ pc ∈ (runB m c t h0 xs0 xs1 xs2 xs3 xs4 xs5 xs6 xs7 xs8 xs9).2.2.2.2.2.1, y ∈ pc.1.set :=
  View.cover_of_tiledL (runB m c t h0 xs0 xs1 xs2 xs3 xs4 xs5 xs6 xs7 xs8 xs9).2.2.2.2.2.1 S1x32x128.size (by sl_kernel_rfl) y
theorem cover0_B_12 (c : Dev nD) (t : Fin cfg0.N) (h0 : ¬t.val % 2 = 0) (xs0 xs1 xs2 xs3 xs4 xs5 xs6 xs7 xs8 xs9 : Vec F S32x128 .f32) (y : S1x2x128.Idx) :
    ∃ pc ∈ (runB m c t h0 xs0 xs1 xs2 xs3 xs4 xs5 xs6 xs7 xs8 xs9).2.2.2.2.2.2.1, y ∈ pc.1.set :=
  View.cover_of_tiledL (runB m c t h0 xs0 xs1 xs2 xs3 xs4 xs5 xs6 xs7 xs8 xs9).2.2.2.2.2.2.1 S1x1x128.size (by sl_kernel_rfl) y
theorem scover0_B_0 (c : Dev nD) (t : Fin cfg0.N) (h0 : ¬t.val % 2 = 0) (xs0 xs1 xs2 xs3 xs4 xs5 xs6 xs7 xs8 xs9 : Vec F S32x128 .f32) (y : S32x128.Idx) :
    ∃ pc ∈ (runB m c t h0 xs0 xs1 xs2 xs3 xs4 xs5 xs6 xs7 xs8 xs9).2.2.2.2.2.2.2.1, y ∈ pc.1.set :=
  View.cover_of_tiledL (runB m c t h0 xs0 xs1 xs2 xs3 xs4 xs5 xs6 xs7 xs8 xs9).2.2.2.2.2.2.2.1 S32x128.size (by sl_kernel_rfl) y
theorem scover0_B_1 (c : Dev nD) (t : Fin cfg0.N) (h0 : ¬t.val % 2 = 0) (xs0 xs1 xs2 xs3 xs4 xs5 xs6 xs7 xs8 xs9 : Vec F S32x128 .f32) (y : S32x128.Idx) :
    ∃ pc ∈ (runB m c t h0 xs0 xs1 xs2 xs3 xs4 xs5 xs6 xs7 xs8 xs9).2.2.2.2.2.2.2.2.1, y ∈ pc.1.set :=
  View.cover_of_tiledL (runB m c t h0 xs0 xs1 xs2 xs3 xs4 xs5 xs6 xs7 xs8 xs9).2.2.2.2.2.2.2.2.1 S32x128.size (by sl_kernel_rfl) y
theorem scover0_B_2 (c : Dev nD) (t : Fin cfg0.N) (h0 : ¬t.val % 2 = 0) (xs0 xs1 xs2 xs3 xs4 xs5 xs6 xs7 xs8 xs9 : Vec F S32x128 .f32) (y : S32x128.Idx) :
    ∃ pc ∈ (runB m c t h0 xs0 xs1 xs2 xs3 xs4 xs5 xs6 xs7 xs8 xs9).2.2.2.2.2.2.2.2.2.1, y ∈ pc.1.set :=
  View.cover_of_tiledL (runB m c t h0 xs0 xs1 xs2 xs3 xs4 xs5 xs6 xs7 xs8 xs9).2.2.2.2.2.2.2.2.2.1 S32x128.size (by sl_kernel_rfl) y
theorem scover0_B_3 (c : Dev nD) (t : Fin cfg0.N) (h0 : ¬t.val % 2 = 0) (xs0 xs1 xs2 xs3 xs4 xs5 xs6 xs7 xs8 xs9 : Vec F S32x128 .f32) (y : S32x128.Idx) :
    ∃ pc ∈ (runB m c t h0 xs0 xs1 xs2 xs3 xs4 xs5 xs6 xs7 xs8 xs9).2.2.2.2.2.2.2.2.2.2.1, y ∈ pc.1.set :=
  View.cover_of_tiledL (runB m c t h0 xs0 xs1 xs2 xs3 xs4 xs5 xs6 xs7 xs8 xs9).2.2.2.2.2.2.2.2.2.2.1 S32x128.size (by sl_kernel_rfl) y
theorem scover0_B_4 (c : Dev nD) (t : Fin cfg0.N) (h0 : ¬t.val % 2 = 0) (xs0 xs1 xs2 xs3 xs4 xs5 xs6 xs7 xs8 xs9 : Vec F S32x128 .f32) (y : S32x128.Idx) :
    ∃ pc ∈ (runB m c t h0 xs0 xs1 xs2 xs3 xs4 xs5 xs6 xs7 xs8 xs9).2.2.2.2.2.2.2.2.2.2.2.1, y ∈ pc.1.set :=
  View.cover_of_tiledL (runB m c t h0 xs0 xs1 xs2 xs3 xs4 xs5 xs6 xs7 xs8 xs9).2.2.2.2.2.2.2.2.2.2.2.1 S32x128.size (by sl_kernel_rfl) y
theorem scover0_B_5 (c : Dev nD) (t : Fin cfg0.N) (h0 : ¬t.val % 2 = 0) (xs0 xs1 xs2 xs3 xs4 xs5 xs6 xs7 xs8 xs9 : Vec F S32x128 .f32) (y : S32x128.Idx) :
    ∃ pc ∈ (runB m c t h0 xs0 xs1 xs2 xs3 xs4 xs5 xs6 xs7 xs8 xs9).2.2.2.2.2.2.2.2.2.2.2.2.1, y ∈ pc.1.set :=
  View.cover_of_tiledL (runB m c t h0 xs0 xs1 xs2 xs3 xs4 xs5 xs6 xs7 xs8 xs9).2.2.2.2.2.2.2.2.2.2.2.2.1 S32x128.size (by sl_kernel_rfl) y
theorem scover0_B_6 (c : Dev nD) (t : Fin cfg0.N) (h0 : ¬t.val % 2 = 0) (xs0 xs1 xs2 xs3 xs4 xs5 xs6 xs7 xs8 xs9 : Vec F S32x128 .f32) (y : S32x128.Idx) :
    ∃ pc ∈ (runB m c t h0 xs0 xs1 xs2 xs3 xs4 xs5 xs6 xs7 xs8 xs9).2.2.2.2.2.2.2.2.2.2.2.2.2.1, y ∈ pc.1.set :=
  View.cover_of_tiledL (runB m c t h0 xs0 xs1 xs2 xs3 xs4 xs5 xs6 xs7 xs8 xs9).2.2.2.2.2.2.2.2.2.2.2.2.2.1 S32x128.size (by sl_kernel_rfl) y
theorem scover0_B_7 (c : Dev nD) (t : Fin cfg0.N) (h0 : ¬t.val % 2 = 0) (xs0 xs1 xs2 xs3 xs4 xs5 xs6 xs7 xs8 xs9 : Vec F S32x128 .f32) (y : S32x128.Idx) :
    ∃ pc ∈ (runB m c t h0 xs0 xs1 xs2 xs3 xs4 xs5 xs6 xs7 xs8 xs9).2.2.2.2.2.2.2.2.2.2.2.2.2.2.1, y ∈ pc.1.set :=
  View.cover_of_tiledL (runB m c t h0 xs0 xs1 xs2 xs3 xs4 xs5 xs6 xs7 xs8 xs9).2.2.2.2.2.2.2.2.2.2.2.2.2.2.1 S32x128.size (by sl_kernel_rfl) y
theorem scover0_B_8 (c : Dev nD) (t : Fin cfg0.N) (h0 : ¬t.val % 2 = 0) (xs0 xs1 xs2 xs3 xs4 xs5 xs6 xs7 xs8 xs9 : Vec F S32x128 .f32) (y : S32x128.Idx) :
    ∃ pc ∈ (runB m c t h0 xs0 xs1 xs2 xs3 xs4 xs5 xs6 xs7 xs8 xs9).2.2.2.2.2.2.2.2.2.2.2.2.2.2.2.1, y ∈ pc.1.set :=
  View.cover_of_tiledL (runB m c t h0 xs0 xs1 xs2 xs3 xs4 xs5 xs6 xs7 xs8 xs9).2.2.2.2.2.2.2.2.2.2.2.2.2.2.2.1 S32x128.size (by sl_kernel_rfl) y
theorem scover0_B_9 (c : Dev nD) (t : Fin cfg0.N) (h0 : ¬t.val % 2 = 0) (xs0 xs1 xs2 xs3 xs4 xs5 xs6 xs7 xs8 xs9 : Vec F S32x128 .f32) (y : S32x128.Idx) :
    ∃ pc ∈ (runB m c t h0 xs0 xs1 xs2 xs3 xs4 xs5 xs6 xs7 xs8 xs9).2.2.2.2.2.2.2.2.2.2.2.2.2.2.2.2.1, y ∈ pc.1.set :=
  View.cover_of_tiledL (runB m c t h0 xs0 xs1 xs2 xs3 xs4 xs5 xs6 xs7 xs8 xs9).2.2.2.2.2.2.2.2.2.2.2.2.2.2.2.2.1 S32x128.size (by sl_kernel_rfl) y

/-! ## What the buffers hold after each point -/

/-- By recursion on the point: an even point starts afresh, an odd point adds to what the point before left. -/
def outsAt0 (c : Dev nD) : (n : ℕ) → n < cfg0.N → Pt F
  | 0, hn => ptA m c ⟨0, hn⟩ (Nat.zero_mod 2)
  | n + 1, hn =>
    if h0 : (n + 1) % 2 = 0 then ptA m c ⟨n + 1, hn⟩ h0
    else ptB m c ⟨n + 1, hn⟩ h0 (outsAt0 c n (Nat.lt_of_succ_lt hn))

theorem outsAt0_A (c : Dev nD) (t : Fin cfg0.N) (h0 : t.val % 2 = 0) :
    outsAt0 m c t.val t.isLt = ptA m c t h0 := by
  obtain ⟨n, hn⟩ := t
  cases n with
  | zero => exact rfl
  | succ n => exact (dif_pos h0).trans rfl

theorem outsAt0_B (c : Dev nD) (t : Fin cfg0.N) (h0 : ¬t.val % 2 = 0) :
    outsAt0 m c t.val t.isLt = ptB m c t h0 (outsAt0 m c (t.val - 1) (Nat.lt_of_le_of_lt (Nat.sub_le _ _) t.isLt)) := by
  obtain ⟨n, hn⟩ := t
  cases n with
  | zero => exact absurd (Nat.zero_mod 2) h0
  | succ n => exact (dif_neg h0).trans rfl

/-- The region invariant before position `n`: before the first point every accumulator at anything; afterwards each
    at what the point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).s0) ∗ owns (c : Thread nD τ) scM0_1 fullShare ((outsAt0 m c n hn).s1) ∗ owns (c : Thread nD τ) scM0_2 fullShare ((outsAt0 m c n hn).s2) ∗ owns (c : Thread nD τ) scM0_3 fullShare ((outsAt0 m c n hn).s3) ∗ owns (c : Thread nD τ) scM0_4 fullShare ((outsAt0 m c n hn).s4) ∗ owns (c : Thread nD τ) scM0_5 fullShare ((outsAt0 m c n hn).s5) ∗ owns (c : Thread nD τ) scM0_6 fullShare ((outsAt0 m c n hn).s6) ∗ owns (c : Thread nD τ) scM0_7 fullShare ((outsAt0 m c n hn).s7) ∗ owns (c : Thread nD τ) scM0_8 fullShare ((outsAt0 m c n hn).s8) ∗ owns (c : Thread nD τ) scM0_9 fullShare ((outsAt0 m c n hn).s9)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).s0) ∗ owns (c : Thread nD τ) scM0_1 fullShare ((outsAt0 m c n hn).s1) ∗ owns (c : Thread nD τ) scM0_2 fullShare ((outsAt0 m c n hn).s2) ∗ owns (c : Thread nD τ) scM0_3 fullShare ((outsAt0 m c n hn).s3) ∗ owns (c : Thread nD τ) scM0_4 fullShare ((outsAt0 m c n hn).s4) ∗ owns (c : Thread nD τ) scM0_5 fullShare ((outsAt0 m c n hn).s5) ∗ owns (c : Thread nD τ) scM0_6 fullShare ((outsAt0 m c n hn).s6) ∗ owns (c : Thread nD τ) scM0_7 fullShare ((outsAt0 m c n hn).s7) ∗ owns (c : Thread nD τ) scM0_8 fullShare ((outsAt0 m c n hn).s8) ∗ owns (c : Thread nD τ) scM0_9 fullShare ((outsAt0 m c n hn).s9)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).s0) ∗ owns (c : Thread nD τ) scM0_1 fullShare ((outsAt0 m c (n - 1) (by omega)).s1) ∗ owns (c : Thread nD τ) scM0_2 fullShare ((outsAt0 m c (n - 1) (by omega)).s2) ∗ owns (c : Thread nD τ) scM0_3 fullShare ((outsAt0 m c (n - 1) (by omega)).s3) ∗ owns (c : Thread nD τ) scM0_4 fullShare ((outsAt0 m c (n - 1) (by omega)).s4) ∗ owns (c : Thread nD τ) scM0_5 fullShare ((outsAt0 m c (n - 1) (by omega)).s5) ∗ owns (c : Thread nD τ) scM0_6 fullShare ((outsAt0 m c (n - 1) (by omega)).s6) ∗ owns (c : Thread nD τ) scM0_7 fullShare ((outsAt0 m c (n - 1) (by omega)).s7) ∗ owns (c : Thread nD τ) scM0_8 fullShare ((outsAt0 m c (n - 1) (by omega)).s8) ∗ owns (c : Thread nD τ) scM0_9 fullShare ((outsAt0 m c (n - 1) (by omega)).s9)) ∗ (∃ r, prngReg c r)) := by
  cases n with
  | zero => exact absurd rfl hz
  | succ n => rfl

/-! ## The region's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).o6
    | ⟨7, _⟩ => (outsAt0 m c t.val t.isLt).o7
    | ⟨8, _⟩ => (outsAt0 m c t.val t.isLt).o8
    | ⟨9, _⟩ => (outsAt0 m c t.val t.isLt).o9
    | ⟨10, _⟩ => (outsAt0 m c t.val t.isLt).o10
    | ⟨11, _⟩ => (outsAt0 m c t.val t.isLt).o11
    | ⟨12, _⟩ => (outsAt0 m c t.val t.isLt).o12
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).o6 := by dsimp only [dats]
theorem after0_7 (c : Dev nD) (t : Fin cfg0.N) : (dats m 0 c).after 7 t = (outsAt0 m c t.val t.isLt).o7 := by dsimp only [dats]
theorem after0_8 (c : Dev nD) (t : Fin cfg0.N) : (dats m 0 c).after 8 t = (outsAt0 m c t.val t.isLt).o8 := by dsimp only [dats]
theorem after0_9 (c : Dev nD) (t : Fin cfg0.N) : (dats m 0 c).after 9 t = (outsAt0 m c t.val t.isLt).o9 := by dsimp only [dats]
theorem after0_10 (c : Dev nD) (t : Fin cfg0.N) : (dats m 0 c).after 10 t = (outsAt0 m c t.val t.isLt).o10 := by dsimp only [dats]
theorem after0_11 (c : Dev nD) (t : Fin cfg0.N) : (dats m 0 c).after 11 t = (outsAt0 m c t.val t.isLt).o11 := by dsimp only [dats]
theorem after0_12 (c : Dev nD) (t : Fin cfg0.N) : (dats m 0 c).after 12 t = (outsAt0 m c t.val t.isLt).o12 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

end Cert.KernelIdeal.Fr

end
-- ==== Proof.Ideal.BodyAbs.lean ====
/- The body obligation's separation-logic step, for ANY program, memrefs, contents and piece lists: if the program has
   the whole-body triple of one kind of grid point (the inputs handed back, every written buffer ending with its pieces
   written) and every piece list reads back as a named content whatever it is written over, then from the region's
   invariant, the core's duty and the thirteen windows the program runs to the invariant at the named accumulator
   contents, the duty, and the windows at the named contents. Stated for any float instance. -/
import proofs.«129784_j68891275428342_2_alg».proof.Proof.Ideal.Kit

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- A point of the first kind: the accumulators come at anything (`hΦ`), outputs 6, 7 are written, 8–12 handed back. -/
theorem body_abs_A (c : Dev nD) (prog : Prog (TpuEff nD τ sig (Elt F) Λ₀ .tc) PUnit) (arg2 : Memref sig .tc .vmem S1x128x32x128 .f32) (arg3 : Memref sig .tc .vmem S1x128x32x128 .f32) (arg4 : Memref sig .tc .vmem S1x128x32x128 .f32) (arg5 : Memref sig .tc .vmem S1x128x32x128 .f32) (arg6 : Memref sig .tc .vmem S1x128x32x128 .f32) (arg7 : Memref sig .tc .vmem S1x1x32x128 .f32) (arg8 : Memref sig .tc .vmem S1x1x1x128 .f32) (arg9 : Memref sig .tc .vmem S1x1x1x128 .f32) (arg10 : Memref sig .tc .vmem S1x32x128 .f32) (arg11 : Memref sig .tc .vmem S1x32x128 .f32) (arg12 : Memref sig .tc .vmem S1x32x128 .f32) (arg13 : Memref sig .tc .vmem S1x32x128 .f32) (arg14 : Memref sig .tc .vmem S1x2x128 .f32) (arg15 : Memref sig .tc .vmem S32x128 .f32) (arg16 : Memref sig .tc .vmem S32x128 .f32) (arg17 : Memref sig .tc .vmem S32x128 .f32) (arg18 : Memref sig .tc .vmem S32x128 .f32) (arg19 : Memref sig .tc .vmem S32x128 .f32) (arg20 : Memref sig .tc .vmem S32x128 .f32) (arg21 : Memref sig .tc .vmem S32x128 .f32) (arg22 : Memref sig .tc .vmem S32x128 .f32) (arg23 : Memref sig .tc .vmem S32x128 .f32) (arg24 : Memref sig .tc .vmem S32x128 .f32)
    (x0 x1 x2 x3 x4 : Vec F S1x128x32x128 .f32) (x5 : Vec F S1x1x32x128 .f32)
    (b6 : Vec F S1x1x1x128 .f32 → Vec F S1x1x1x128 .f32) (b7 : Vec F S1x1x1x128 .f32 → Vec F S1x1x1x128 .f32) (b8 : Vec F S1x32x128 .f32 → Vec F S1x32x128 .f32) (b9 : Vec F S1x32x128 .f32 → Vec F S1x32x128 .f32) (b10 : Vec F S1x32x128 .f32 → Vec F S1x32x128 .f32) (b11 : Vec F S1x32x128 .f32 → Vec F S1x32x128 .f32) (b12 : Vec F S1x2x128 .f32 → Vec F S1x2x128 .f32)
    (L6 L7 : List (View.Piece (Elt F) S1x1x1x128 .f32)) (LS0 LS1 LS2 LS3 LS4 LS5 LS6 LS7 LS8 LS9 : List (View.Piece (Elt F) S32x128 .f32))
    (o6 o7 : Vec F S1x1x1x128 .f32) (s0 s1 s2 s3 s4 s5 s6 s7 s8 s9 : Vec F S32x128 .f32)
    (hrun : ∀ (xi8 xi9 xi10 xi11 : Vec F S1x32x128 .f32) (xi12 : Vec F S1x2x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ (∃ d, owns (c : Thread nD τ) arg8 fullShare d)
            ∗ (∃ d, owns (c : Thread nD τ) arg9 fullShare d)
            ∗ owns (c : Thread nD τ) arg10 fullShare xi8
            ∗ owns (c : Thread nD τ) arg11 fullShare xi9
            ∗ owns (c : Thread nD τ) arg12 fullShare xi10
            ∗ owns (c : Thread nD τ) arg13 fullShare xi11
            ∗ owns (c : Thread nD τ) arg14 fullShare xi12
            ∗ (∃ d, owns (c : Thread nD τ) arg15 fullShare d)
            ∗ (∃ d, owns (c : Thread nD τ) arg16 fullShare d)
            ∗ (∃ d, owns (c : Thread nD τ) arg17 fullShare d)
            ∗ (∃ d, owns (c : Thread nD τ) arg18 fullShare d)
            ∗ (∃ d, owns (c : Thread nD τ) arg19 fullShare d)
            ∗ (∃ d, owns (c : Thread nD τ) arg20 fullShare d)
            ∗ (∃ d, owns (c : Thread nD τ) arg21 fullShare d)
            ∗ (∃ d, owns (c : Thread nD τ) arg22 fullShare d)
            ∗ (∃ d, owns (c : Thread nD τ) arg23 fullShare d)
            ∗ (∃ d, owns (c : Thread nD τ) arg24 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
              ∗ (∃ f, arg8.view.loc (c : Thread nD τ) ↦[arg8.view.set]{fullShare} arg8.view.writes (Elt F) f L6)
              ∗ (∃ f, arg9.view.loc (c : Thread nD τ) ↦[arg9.view.set]{fullShare} arg9.view.writes (Elt F) f L7)
              ∗ owns (c : Thread nD τ) arg10 fullShare xi8
              ∗ owns (c : Thread nD τ) arg11 fullShare xi9
              ∗ owns (c : Thread nD τ) arg12 fullShare xi10
              ∗ owns (c : Thread nD τ) arg13 fullShare xi11
              ∗ owns (c : Thread nD τ) arg14 fullShare xi12
              ∗ (∃ f, arg15.view.loc (c : Thread nD τ) ↦[arg15.view.set]{fullShare} arg15.view.writes (Elt F) f LS0)
              ∗ (∃ f, arg16.view.loc (c : Thread nD τ) ↦[arg16.view.set]{fullShare} arg16.view.writes (Elt F) f LS1)
              ∗ (∃ f, arg17.view.loc (c : Thread nD τ) ↦[arg17.view.set]{fullShare} arg17.view.writes (Elt F) f LS2)
              ∗ (∃ f, arg18.view.loc (c : Thread nD τ) ↦[arg18.view.set]{fullShare} arg18.view.writes (Elt F) f LS3)
              ∗ (∃ f, arg19.view.loc (c : Thread nD τ) ↦[arg19.view.set]{fullShare} arg19.view.writes (Elt F) f LS4)
              ∗ (∃ f, arg20.view.loc (c : Thread nD τ) ↦[arg20.view.set]{fullShare} arg20.view.writes (Elt F) f LS5)
              ∗ (∃ f, arg21.view.loc (c : Thread nD τ) ↦[arg21.view.set]{fullShare} arg21.view.writes (Elt F) f LS6)
              ∗ (∃ f, arg22.view.loc (c : Thread nD τ) ↦[arg22.view.set]{fullShare} arg22.view.writes (Elt F) f LS7)
              ∗ (∃ f, arg23.view.loc (c : Thread nD τ) ↦[arg23.view.set]{fullShare} arg23.view.writes (Elt F) f LS8)
              ∗ (∃ f, arg24.view.loc (c : Thread nD τ) ↦[arg24.view.set]{fullShare} arg24.view.writes (Elt F) f LS9)) -∗ K ⟨⟩))
          ⊢ wp frame (wpE (defs₀ (F := F)) Variants.none c none) E prog K)
    (cov_o6 : ∀ f, arg8.view.read (Elt F) (arg8.view.writes (Elt F) f L6) = o6) (cov_o7 : ∀ f, arg9.view.read (Elt F) (arg9.view.writes (Elt F) f L7) = o7)
    (cov_s0 : ∀ f, arg15.view.read (Elt F) (arg15.view.writes (Elt F) f LS0) = s0) (cov_s1 : ∀ f, arg16.view.read (Elt F) (arg16.view.writes (Elt F) f LS1) = s1) (cov_s2 : ∀ f, arg17.view.read (Elt F) (arg17.view.writes (Elt F) f LS2) = s2) (cov_s3 : ∀ f, arg18.view.read (Elt F) (arg18.view.writes (Elt F) f LS3) = s3) (cov_s4 : ∀ f, arg19.view.read (Elt F) (arg19.view.writes (Elt F) f LS4) = s4) (cov_s5 : ∀ f, arg20.view.read (Elt F) (arg20.view.writes (Elt F) f LS5) = s5) (cov_s6 : ∀ f, arg21.view.read (Elt F) (arg21.view.writes (Elt F) f LS6) = s6) (cov_s7 : ∀ f, arg22.view.read (Elt F) (arg22.view.writes (Elt F) f LS7) = s7) (cov_s8 : ∀ f, arg23.view.read (Elt F) (arg23.view.writes (Elt F) f LS8) = s8) (cov_s9 : ∀ f, arg24.view.read (Elt F) (arg24.view.writes (Elt F) f LS9) = s9)
    (Φin Ow : sProp 𝕄) (hΦ : Φin ⊢ iprop(iprop((∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d)) ∗ (∃ r, prngReg c r))) :
    iprop(Φin
      ∗ Ow
      ∗ (∃ d : Vec F S1x128x32x128 .f32, owns (c : Thread nD τ) arg2 fullShare x0)
      ∗ (∃ d : Vec F S1x128x32x128 .f32, owns (c : Thread nD τ) arg3 fullShare x1)
      ∗ (∃ d : Vec F S1x128x32x128 .f32, owns (c : Thread nD τ) arg4 fullShare x2)
      ∗ (∃ d : Vec F S1x128x32x128 .f32, owns (c : Thread nD τ) arg5 fullShare x3)
      ∗ (∃ d : Vec F S1x128x32x128 .f32, owns (c : Thread nD τ) arg6 fullShare x4)
      ∗ (∃ d : Vec F S1x1x32x128 .f32, owns (c : Thread nD τ) arg7 fullShare x5)
      ∗ (∃ d : Vec F S1x1x1x128 .f32, owns (c : Thread nD τ) arg8 fullShare (b6 d))
      ∗ (∃ d : Vec F S1x1x1x128 .f32, owns (c : Thread nD τ) arg9 fullShare (b7 d))
      ∗ (∃ d : Vec F S1x32x128 .f32, owns (c : Thread nD τ) arg10 fullShare (b8 d))
      ∗ (∃ d : Vec F S1x32x128 .f32, owns (c : Thread nD τ) arg11 fullShare (b9 d))
      ∗ (∃ d : Vec F S1x32x128 .f32, owns (c : Thread nD τ) arg12 fullShare (b10 d))
      ∗ (∃ d : Vec F S1x32x128 .f32, owns (c : Thread nD τ) arg13 fullShare (b11 d))
      ∗ (∃ d : Vec F S1x2x128 .f32, owns (c : Thread nD τ) arg14 fullShare (b12 d)))
      ⊢ wp frame (wpE (defs₀ (F := F)) Variants.none c none) Set.univ prog (fun _ =>
        iprop(iprop(iprop(owns (c : Thread nD τ) arg15 fullShare s0 ∗ owns (c : Thread nD τ) arg16 fullShare s1 ∗ owns (c : Thread nD τ) arg17 fullShare s2 ∗ owns (c : Thread nD τ) arg18 fullShare s3 ∗ owns (c : Thread nD τ) arg19 fullShare s4 ∗ owns (c : Thread nD τ) arg20 fullShare s5 ∗ owns (c : Thread nD τ) arg21 fullShare s6 ∗ owns (c : Thread nD τ) arg22 fullShare s7 ∗ owns (c : Thread nD τ) arg23 fullShare s8 ∗ owns (c : Thread nD τ) arg24 fullShare s9) ∗ (∃ r, prngReg c r))
          ∗ Ow
          ∗ owns (c : Thread nD τ) arg2 fullShare x0
          ∗ owns (c : Thread nD τ) arg3 fullShare x1
          ∗ owns (c : Thread nD τ) arg4 fullShare x2
          ∗ owns (c : Thread nD τ) arg5 fullShare x3
          ∗ owns (c : Thread nD τ) arg6 fullShare x4
          ∗ owns (c : Thread nD τ) arg7 fullShare x5
          ∗ owns (c : Thread nD τ) arg8 fullShare o6
          ∗ owns (c : Thread nD τ) arg9 fullShare o7
          ∗ (∃ d : Vec F S1x32x128 .f32, owns (c : Thread nD τ) arg10 fullShare (b8 d))
          ∗ (∃ d : Vec F S1x32x128 .f32, owns (c : Thread nD τ) arg11 fullShare (b9 d))
          ∗ (∃ d : Vec F S1x32x128 .f32, owns (c : Thread nD τ) arg12 fullShare (b10 d))
          ∗ (∃ d : Vec F S1x32x128 .f32, owns (c : Thread nD τ) arg13 fullShare (b11 d))
          ∗ (∃ d : Vec F S1x2x128 .f32, owns (c : Thread nD τ) arg14 fullShare (b12 d)))) := by
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  icases (hΦ) $$ HΦ with ⟨⟨HS0, HS1, HS2, HS3, HS4, HS5, HS6, HS7, HS8, HS9⟩, Hg⟩
  iapply (hrun _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexact H8
  isplitl [H9]; · iexact H9
  isplitl [H10]; · iexact H10
  isplitl [H11]; · iexact H11
  isplitl [H12]; · iexact H12
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  iintro ⟨H0, H1, H2, H3, H4, H5, ⟨%e6, H6⟩, ⟨%e7, H7⟩, H8, H9, H10, H11, H12, ⟨%es0, HS0⟩, ⟨%es1, HS1⟩, ⟨%es2, HS2⟩, ⟨%es3, HS3⟩, ⟨%es4, HS4⟩, ⟨%es5, HS5⟩, ⟨%es6, HS6⟩, ⟨%es7, HS7⟩, ⟨%es8, HS8⟩, ⟨%es9, HS9⟩⟩
  isplitl [HS0 HS1 HS2 HS3 HS4 HS5 HS6 HS7 HS8 HS9 Hg]
  · isplitl [HS0 HS1 HS2 HS3 HS4 HS5 HS6 HS7 HS8 HS9]
    · isplitl [HS0]
      · unfold owns; iexists _; isplitr
        swap; · iexact HS0
        ipureintro; exact cov_s0 _
      isplitl [HS1]
      · unfold owns; iexists _; isplitr
        swap; · iexact HS1
        ipureintro; exact cov_s1 _
      isplitl [HS2]
      · unfold owns; iexists _; isplitr
        swap; · iexact HS2
        ipureintro; exact cov_s2 _
      isplitl [HS3]
      · unfold owns; iexists _; isplitr
        swap; · iexact HS3
        ipureintro; exact cov_s3 _
      isplitl [HS4]
      · unfold owns; iexists _; isplitr
        swap; · iexact HS4
        ipureintro; exact cov_s4 _
      isplitl [HS5]
      · unfold owns; iexists _; isplitr
        swap; · iexact HS5
        ipureintro; exact cov_s5 _
      isplitl [HS6]
      · unfold owns; iexists _; isplitr
        swap; · iexact HS6
        ipureintro; exact cov_s6 _
      isplitl [HS7]
      · unfold owns; iexists _; isplitr
        swap; · iexact HS7
        ipureintro; exact cov_s7 _
      isplitl [HS8]
      · unfold owns; iexists _; isplitr
        swap; · iexact HS8
        ipureintro; exact cov_s8 _
      unfold owns; iexists _; isplitr
      swap; · iexact HS9
      ipureintro; exact cov_s9 _
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact cov_o6 _
  isplitl [H7]
  · unfold owns; iexists _; isplitr
    swap; · iexact H7
    ipureintro; exact cov_o7 _
  isplitl [H8]; · iexists _; iexact H8
  isplitl [H9]; · iexists _; iexact H9
  isplitl [H10]; · iexists _; iexact H10
  isplitl [H11]; · iexists _; iexact H11
  iexists _; iexact H12

set_option maxHeartbeats 4000000 in
/-- A point of the second kind: the accumulators come at the contents the point before left; every output is written. -/
theorem body_abs_B (c : Dev nD) (prog : Prog (TpuEff nD τ sig (Elt F) Λ₀ .tc) PUnit) (arg2 : Memref sig .tc .vmem S1x128x32x128 .f32) (arg3 : Memref sig .tc .vmem S1x128x32x128 .f32) (arg4 : Memref sig .tc .vmem S1x128x32x128 .f32) (arg5 : Memref sig .tc .vmem S1x128x32x128 .f32) (arg6 : Memref sig .tc .vmem S1x128x32x128 .f32) (arg7 : Memref sig .tc .vmem S1x1x32x128 .f32) (arg8 : Memref sig .tc .vmem S1x1x1x128 .f32) (arg9 : Memref sig .tc .vmem S1x1x1x128 .f32) (arg10 : Memref sig .tc .vmem S1x32x128 .f32) (arg11 : Memref sig .tc .vmem S1x32x128 .f32) (arg12 : Memref sig .tc .vmem S1x32x128 .f32) (arg13 : Memref sig .tc .vmem S1x32x128 .f32) (arg14 : Memref sig .tc .vmem S1x2x128 .f32) (arg15 : Memref sig .tc .vmem S32x128 .f32) (arg16 : Memref sig .tc .vmem S32x128 .f32) (arg17 : Memref sig .tc .vmem S32x128 .f32) (arg18 : Memref sig .tc .vmem S32x128 .f32) (arg19 : Memref sig .tc .vmem S32x128 .f32) (arg20 : Memref sig .tc .vmem S32x128 .f32) (arg21 : Memref sig .tc .vmem S32x128 .f32) (arg22 : Memref sig .tc .vmem S32x128 .f32) (arg23 : Memref sig .tc .vmem S32x128 .f32) (arg24 : Memref sig .tc .vmem S32x128 .f32)
    (x0 x1 x2 x3 x4 : Vec F S1x128x32x128 .f32) (x5 : Vec F S1x1x32x128 .f32)
    (b6 : Vec F S1x1x1x128 .f32 → Vec F S1x1x1x128 .f32) (b7 : Vec F S1x1x1x128 .f32 → Vec F S1x1x1x128 .f32) (b8 : Vec F S1x32x128 .f32 → Vec F S1x32x128 .f32) (b9 : Vec F S1x32x128 .f32 → Vec F S1x32x128 .f32) (b10 : Vec F S1x32x128 .f32 → Vec F S1x32x128 .f32) (b11 : Vec F S1x32x128 .f32 → Vec F S1x32x128 .f32) (b12 : Vec F S1x2x128 .f32 → Vec F S1x2x128 .f32)
    (xs0 xs1 xs2 xs3 xs4 xs5 xs6 xs7 xs8 xs9 : Vec F S32x128 .f32)
    (L6 : List (View.Piece (Elt F) S1x1x1x128 .f32)) (L7 : List (View.Piece (Elt F) S1x1x1x128 .f32)) (L8 : List (View.Piece (Elt F) S1x32x128 .f32)) (L9 : List (View.Piece (Elt F) S1x32x128 .f32)) (L10 : List (View.Piece (Elt F) S1x32x128 .f32)) (L11 : List (View.Piece (Elt F) S1x32x128 .f32)) (L12 : List (View.Piece (Elt F) S1x2x128 .f32)) (LS0 LS1 LS2 LS3 LS4 LS5 LS6 LS7 LS8 LS9 : List (View.Piece (Elt F) S32x128 .f32))
    (o6 : Vec F S1x1x1x128 .f32) (o7 : Vec F S1x1x1x128 .f32) (o8 : Vec F S1x32x128 .f32) (o9 : Vec F S1x32x128 .f32) (o10 : Vec F S1x32x128 .f32) (o11 : Vec F S1x32x128 .f32) (o12 : Vec F S1x2x128 .f32) (s0 s1 s2 s3 s4 s5 s6 s7 s8 s9 : Vec F S32x128 .f32)
    (hrun : ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ (∃ d, owns (c : Thread nD τ) arg8 fullShare d)
            ∗ (∃ d, owns (c : Thread nD τ) arg9 fullShare d)
            ∗ (∃ d, owns (c : Thread nD τ) arg10 fullShare d)
            ∗ (∃ d, owns (c : Thread nD τ) arg11 fullShare d)
            ∗ (∃ d, owns (c : Thread nD τ) arg12 fullShare d)
            ∗ (∃ d, owns (c : Thread nD τ) arg13 fullShare d)
            ∗ (∃ d, owns (c : Thread nD τ) arg14 fullShare d)
            ∗ owns (c : Thread nD τ) arg15 fullShare xs0
            ∗ owns (c : Thread nD τ) arg16 fullShare xs1
            ∗ owns (c : Thread nD τ) arg17 fullShare xs2
            ∗ owns (c : Thread nD τ) arg18 fullShare xs3
            ∗ owns (c : Thread nD τ) arg19 fullShare xs4
            ∗ owns (c : Thread nD τ) arg20 fullShare xs5
            ∗ owns (c : Thread nD τ) arg21 fullShare xs6
            ∗ owns (c : Thread nD τ) arg22 fullShare xs7
            ∗ owns (c : Thread nD τ) arg23 fullShare xs8
            ∗ owns (c : Thread nD τ) arg24 fullShare xs9
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
              ∗ (∃ f, arg8.view.loc (c : Thread nD τ) ↦[arg8.view.set]{fullShare} arg8.view.writes (Elt F) f L6)
              ∗ (∃ f, arg9.view.loc (c : Thread nD τ) ↦[arg9.view.set]{fullShare} arg9.view.writes (Elt F) f L7)
              ∗ (∃ f, arg10.view.loc (c : Thread nD τ) ↦[arg10.view.set]{fullShare} arg10.view.writes (Elt F) f L8)
              ∗ (∃ f, arg11.view.loc (c : Thread nD τ) ↦[arg11.view.set]{fullShare} arg11.view.writes (Elt F) f L9)
              ∗ (∃ f, arg12.view.loc (c : Thread nD τ) ↦[arg12.view.set]{fullShare} arg12.view.writes (Elt F) f L10)
              ∗ (∃ f, arg13.view.loc (c : Thread nD τ) ↦[arg13.view.set]{fullShare} arg13.view.writes (Elt F) f L11)
              ∗ (∃ f, arg14.view.loc (c : Thread nD τ) ↦[arg14.view.set]{fullShare} arg14.view.writes (Elt F) f L12)
              ∗ (∃ f, arg15.view.loc (c : Thread nD τ) ↦[arg15.view.set]{fullShare} arg15.view.writes (Elt F) f LS0)
              ∗ (∃ f, arg16.view.loc (c : Thread nD τ) ↦[arg16.view.set]{fullShare} arg16.view.writes (Elt F) f LS1)
              ∗ (∃ f, arg17.view.loc (c : Thread nD τ) ↦[arg17.view.set]{fullShare} arg17.view.writes (Elt F) f LS2)
              ∗ (∃ f, arg18.view.loc (c : Thread nD τ) ↦[arg18.view.set]{fullShare} arg18.view.writes (Elt F) f LS3)
              ∗ (∃ f, arg19.view.loc (c : Thread nD τ) ↦[arg19.view.set]{fullShare} arg19.view.writes (Elt F) f LS4)
              ∗ (∃ f, arg20.view.loc (c : Thread nD τ) ↦[arg20.view.set]{fullShare} arg20.view.writes (Elt F) f LS5)
              ∗ (∃ f, arg21.view.loc (c : Thread nD τ) ↦[arg21.view.set]{fullShare} arg21.view.writes (Elt F) f LS6)
              ∗ (∃ f, arg22.view.loc (c : Thread nD τ) ↦[arg22.view.set]{fullShare} arg22.view.writes (Elt F) f LS7)
              ∗ (∃ f, arg23.view.loc (c : Thread nD τ) ↦[arg23.view.set]{fullShare} arg23.view.writes (Elt F) f LS8)
              ∗ (∃ f, arg24.view.loc (c : Thread nD τ) ↦[arg24.view.set]{fullShare} arg24.view.writes (Elt F) f LS9)) -∗ K ⟨⟩))
          ⊢ wp frame (wpE (defs₀ (F := F)) Variants.none c none) E prog K)
    (cov_o6 : ∀ f, arg8.view.read (Elt F) (arg8.view.writes (Elt F) f L6) = o6) (cov_o7 : ∀ f, arg9.view.read (Elt F) (arg9.view.writes (Elt F) f L7) = o7) (cov_o8 : ∀ f, arg10.view.read (Elt F) (arg10.view.writes (Elt F) f L8) = o8) (cov_o9 : ∀ f, arg11.view.read (Elt F) (arg11.view.writes (Elt F) f L9) = o9) (cov_o10 : ∀ f, arg12.view.read (Elt F) (arg12.view.writes (Elt F) f L10) = o10) (cov_o11 : ∀ f, arg13.view.read (Elt F) (arg13.view.writes (Elt F) f L11) = o11) (cov_o12 : ∀ f, arg14.view.read (Elt F) (arg14.view.writes (Elt F) f L12) = o12)
    (cov_s0 : ∀ f, arg15.view.read (Elt F) (arg15.view.writes (Elt F) f LS0) = s0) (cov_s1 : ∀ f, arg16.view.read (Elt F) (arg16.view.writes (Elt F) f LS1) = s1) (cov_s2 : ∀ f, arg17.view.read (Elt F) (arg17.view.writes (Elt F) f LS2) = s2) (cov_s3 : ∀ f, arg18.view.read (Elt F) (arg18.view.writes (Elt F) f LS3) = s3) (cov_s4 : ∀ f, arg19.view.read (Elt F) (arg19.view.writes (Elt F) f LS4) = s4) (cov_s5 : ∀ f, arg20.view.read (Elt F) (arg20.view.writes (Elt F) f LS5) = s5) (cov_s6 : ∀ f, arg21.view.read (Elt F) (arg21.view.writes (Elt F) f LS6) = s6) (cov_s7 : ∀ f, arg22.view.read (Elt F) (arg22.view.writes (Elt F) f LS7) = s7) (cov_s8 : ∀ f, arg23.view.read (Elt F) (arg23.view.writes (Elt F) f LS8) = s8) (cov_s9 : ∀ f, arg24.view.read (Elt F) (arg24.view.writes (Elt F) f LS9) = s9)
    (Ow : sProp 𝕄) :
    iprop(iprop(iprop(owns (c : Thread nD τ) arg15 fullShare xs0 ∗ owns (c : Thread nD τ) arg16 fullShare xs1 ∗ owns (c : Thread nD τ) arg17 fullShare xs2 ∗ owns (c : Thread nD τ) arg18 fullShare xs3 ∗ owns (c : Thread nD τ) arg19 fullShare xs4 ∗ owns (c : Thread nD τ) arg20 fullShare xs5 ∗ owns (c : Thread nD τ) arg21 fullShare xs6 ∗ owns (c : Thread nD τ) arg22 fullShare xs7 ∗ owns (c : Thread nD τ) arg23 fullShare xs8 ∗ owns (c : Thread nD τ) arg24 fullShare xs9) ∗ (∃ r, prngReg c r))
      ∗ Ow
      ∗ (∃ d : Vec F S1x128x32x128 .f32, owns (c : Thread nD τ) arg2 fullShare x0)
      ∗ (∃ d : Vec F S1x128x32x128 .f32, owns (c : Thread nD τ) arg3 fullShare x1)
      ∗ (∃ d : Vec F S1x128x32x128 .f32, owns (c : Thread nD τ) arg4 fullShare x2)
      ∗ (∃ d : Vec F S1x128x32x128 .f32, owns (c : Thread nD τ) arg5 fullShare x3)
      ∗ (∃ d : Vec F S1x128x32x128 .f32, owns (c : Thread nD τ) arg6 fullShare x4)
      ∗ (∃ d : Vec F S1x1x32x128 .f32, owns (c : Thread nD τ) arg7 fullShare x5)
      ∗ (∃ d : Vec F S1x1x1x128 .f32, owns (c : Thread nD τ) arg8 fullShare (b6 d))
      ∗ (∃ d : Vec F S1x1x1x128 .f32, owns (c : Thread nD τ) arg9 fullShare (b7 d))
      ∗ (∃ d : Vec F S1x32x128 .f32, owns (c : Thread nD τ) arg10 fullShare (b8 d))
      ∗ (∃ d : Vec F S1x32x128 .f32, owns (c : Thread nD τ) arg11 fullShare (b9 d))
      ∗ (∃ d : Vec F S1x32x128 .f32, owns (c : Thread nD τ) arg12 fullShare (b10 d))
      ∗ (∃ d : Vec F S1x32x128 .f32, owns (c : Thread nD τ) arg13 fullShare (b11 d))
      ∗ (∃ d : Vec F S1x2x128 .f32, owns (c : Thread nD τ) arg14 fullShare (b12 d)))
      ⊢ wp frame (wpE (defs₀ (F := F)) Variants.none c none) Set.univ prog (fun _ =>
        iprop(iprop(iprop(owns (c : Thread nD τ) arg15 fullShare s0 ∗ owns (c : Thread nD τ) arg16 fullShare s1 ∗ owns (c : Thread nD τ) arg17 fullShare s2 ∗ owns (c : Thread nD τ) arg18 fullShare s3 ∗ owns (c : Thread nD τ) arg19 fullShare s4 ∗ owns (c : Thread nD τ) arg20 fullShare s5 ∗ owns (c : Thread nD τ) arg21 fullShare s6 ∗ owns (c : Thread nD τ) arg22 fullShare s7 ∗ owns (c : Thread nD τ) arg23 fullShare s8 ∗ owns (c : Thread nD τ) arg24 fullShare s9) ∗ (∃ r, prngReg c r))
          ∗ Ow
          ∗ owns (c : Thread nD τ) arg2 fullShare x0
          ∗ owns (c : Thread nD τ) arg3 fullShare x1
          ∗ owns (c : Thread nD τ) arg4 fullShare x2
          ∗ owns (c : Thread nD τ) arg5 fullShare x3
          ∗ owns (c : Thread nD τ) arg6 fullShare x4
          ∗ owns (c : Thread nD τ) arg7 fullShare x5
          ∗ owns (c : Thread nD τ) arg8 fullShare o6
          ∗ owns (c : Thread nD τ) arg9 fullShare o7
          ∗ owns (c : Thread nD τ) arg10 fullShare o8
          ∗ owns (c : Thread nD τ) arg11 fullShare o9
          ∗ owns (c : Thread nD τ) arg12 fullShare o10
          ∗ owns (c : Thread nD τ) arg13 fullShare o11
          ∗ owns (c : Thread nD τ) arg14 fullShare o12)) := by
  iintro ⟨⟨⟨HS0, HS1, HS2, HS3, HS4, HS5, HS6, HS7, HS8, HS9⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (hrun Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  iintro ⟨H0, H1, H2, H3, H4, H5, ⟨%e6, H6⟩, ⟨%e7, H7⟩, ⟨%e8, H8⟩, ⟨%e9, H9⟩, ⟨%e10, H10⟩, ⟨%e11, H11⟩, ⟨%e12, H12⟩, ⟨%es0, HS0⟩, ⟨%es1, HS1⟩, ⟨%es2, HS2⟩, ⟨%es3, HS3⟩, ⟨%es4, HS4⟩, ⟨%es5, HS5⟩, ⟨%es6, HS6⟩, ⟨%es7, HS7⟩, ⟨%es8, HS8⟩, ⟨%es9, HS9⟩⟩
  isplitl [HS0 HS1 HS2 HS3 HS4 HS5 HS6 HS7 HS8 HS9 Hg]
  · isplitl [HS0 HS1 HS2 HS3 HS4 HS5 HS6 HS7 HS8 HS9]
    · isplitl [HS0]
      · unfold owns; iexists _; isplitr
        swap; · iexact HS0
        ipureintro; exact cov_s0 _
      isplitl [HS1]
      · unfold owns; iexists _; isplitr
        swap; · iexact HS1
        ipureintro; exact cov_s1 _
      isplitl [HS2]
      · unfold owns; iexists _; isplitr
        swap; · iexact HS2
        ipureintro; exact cov_s2 _
      isplitl [HS3]
      · unfold owns; iexists _; isplitr
        swap; · iexact HS3
        ipureintro; exact cov_s3 _
      isplitl [HS4]
      · unfold owns; iexists _; isplitr
        swap; · iexact HS4
        ipureintro; exact cov_s4 _
      isplitl [HS5]
      · unfold owns; iexists _; isplitr
        swap; · iexact HS5
        ipureintro; exact cov_s5 _
      isplitl [HS6]
      · unfold owns; iexists _; isplitr
        swap; · iexact HS6
        ipureintro; exact cov_s6 _
      isplitl [HS7]
      · unfold owns; iexists _; isplitr
        swap; · iexact HS7
        ipureintro; exact cov_s7 _
      isplitl [HS8]
      · unfold owns; iexists _; isplitr
        swap; · iexact HS8
        ipureintro; exact cov_s8 _
      unfold owns; iexists _; isplitr
      swap; · iexact HS9
      ipureintro; exact cov_s9 _
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact cov_o6 _
  isplitl [H7]
  · unfold owns; iexists _; isplitr
    swap; · iexact H7
    ipureintro; exact cov_o7 _
  isplitl [H8]
  · unfold owns; iexists _; isplitr
    swap; · iexact H8
    ipureintro; exact cov_o8 _
  isplitl [H9]
  · unfold owns; iexists _; isplitr
    swap; · iexact H9
    ipureintro; exact cov_o9 _
  isplitl [H10]
  · unfold owns; iexists _; isplitr
    swap; · iexact H10
    ipureintro; exact cov_o10 _
  isplitl [H11]
  · unfold owns; iexists _; isplitr
    swap; · iexact H11
    ipureintro; exact cov_o11 _
  unfold owns; iexists _; isplitr
  swap; · iexact H12
  ipureintro; exact cov_o12 _

end Cert.KernelIdeal.Fr

end
-- ==== Proof.Ideal.SoundA0.lean ====
/- The body obligation at the very first grid point: the launch's invariant hands the ten accumulators at anything; the run of the first kind applies, and each buffer is taken back at the pieces read back, which cover it. Stated for any float instance. -/
import proofs.«129784_j68891275428342_2_alg».proof.Proof.Ideal.Frame
import proofs.«129784_j68891275428342_2_alg».proof.Proof.Ideal.BodyAbs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 16000000 in
theorem sound_body_A0 (c : Dev nD) (t : Fin cfg0.N) (h0 : t.val % 2 = 0) (hz : t.val = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 16 := lt_of_lt_of_eq t.isLt (show cfg0.N = 16 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [Dat.leavesExact_idle (dats m 0 c) 8 t (idleAt0_8_A t (hcA0 t h0) (hcA1 t h0)) (noFlush0_8_A t (hcA0 t h0) (hcA1 t h0))]
  rw [Dat.leavesExact_idle (dats m 0 c) 9 t (idleAt0_9_A t (hcA0 t h0) (hcA1 t h0)) (noFlush0_9_A t (hcA0 t h0) (hcA1 t h0))]
  rw [Dat.leavesExact_idle (dats m 0 c) 10 t (idleAt0_10_A t (hcA0 t h0) (hcA1 t h0)) (noFlush0_10_A t (hcA0 t h0) (hcA1 t h0))]
  rw [Dat.leavesExact_idle (dats m 0 c) 11 t (idleAt0_11_A t (hcA0 t h0) (hcA1 t h0)) (noFlush0_11_A t (hcA0 t h0) (hcA1 t h0))]
  rw [Dat.leavesExact_idle (dats m 0 c) 12 t (idleAt0_12_A t (hcA0 t h0) (hcA1 t h0)) (noFlush0_12_A t (hcA0 t h0) (hcA1 t h0))]
  rw [outsAt0_A m c t h0]
  have cov_o6 : ∀ f, (ms0_6 t).view.read (Elt F) ((ms0_6 t).view.writes (Elt F) f (runA m c t h0).1) = (ptA m c t h0).o6 := by
    intro f; unfold ptA; dsimp only
    exact View.read_writes_of_cover _ _ _ _ _ (cover0_A_6 m c t h0)
  have cov_o7 : ∀ f, (ms0_7 t).view.read (Elt F) ((ms0_7 t).view.writes (Elt F) f (runA m c t h0).2.1) = (ptA m c t h0).o7 := by
    intro f; unfold ptA; dsimp only
    exact View.read_writes_of_cover _ _ _ _ _ (cover0_A_7 m c t h0)
  have cov_s0 : ∀ f, (scM0_0).view.read (Elt F) ((scM0_0).view.writes (Elt F) f (runA m c t h0).2.2.1) = (ptA m c t h0).s0 := by
    intro f; unfold ptA; dsimp only
    exact View.read_writes_of_cover _ _ _ _ _ (scover0_A_0 m c t h0)
  have cov_s1 : ∀ f, (scM0_1).view.read (Elt F) ((scM0_1).view.writes (Elt F) f (runA m c t h0).2.2.2.1) = (ptA m c t h0).s1 := by
    intro f; unfold ptA; dsimp only
    exact View.read_writes_of_cover _ _ _ _ _ (scover0_A_1 m c t h0)
  have cov_s2 : ∀ f, (scM0_2).view.read (Elt F) ((scM0_2).view.writes (Elt F) f (runA m c t h0).2.2.2.2.1) = (ptA m c t h0).s2 := by
    intro f; unfold ptA; dsimp only
    exact View.read_writes_of_cover _ _ _ _ _ (scover0_A_2 m c t h0)
  have cov_s3 : ∀ f, (scM0_3).view.read (Elt F) ((scM0_3).view.writes (Elt F) f (runA m c t h0).2.2.2.2.2.1) = (ptA m c t h0).s3 := by
    intro f; unfold ptA; dsimp only
    exact View.read_writes_of_cover _ _ _ _ _ (scover0_A_3 m c t h0)
  have cov_s4 : ∀ f, (scM0_4).view.read (Elt F) ((scM0_4).view.writes (Elt F) f (runA m c t h0).2.2.2.2.2.2.1) = (ptA m c t h0).s4 := by
    intro f; unfold ptA; dsimp only
    exact View.read_writes_of_cover _ _ _ _ _ (scover0_A_4 m c t h0)
  have cov_s5 : ∀ f, (scM0_5).view.read (Elt F) ((scM0_5).view.writes (Elt F) f (runA m c t h0).2.2.2.2.2.2.2.1) = (ptA m c t h0).s5 := by
    intro f; unfold ptA; dsimp only
    exact View.read_writes_of_cover _ _ _ _ _ (scover0_A_5 m c t h0)
  have cov_s6 : ∀ f, (scM0_6).view.read (Elt F) ((scM0_6).view.writes (Elt F) f (runA m c t h0).2.2.2.2.2.2.2.2.1) = (ptA m c t h0).s6 := by
    intro f; unfold ptA; dsimp only
    exact View.read_writes_of_cover _ _ _ _ _ (scover0_A_6 m c t h0)
  have cov_s7 : ∀ f, (scM0_7).view.read (Elt F) ((scM0_7).view.writes (Elt F) f (runA m c t h0).2.2.2.2.2.2.2.2.2.1) = (ptA m c t h0).s7 := by
    intro f; unfold ptA; dsimp only
    exact View.read_writes_of_cover _ _ _ _ _ (scover0_A_7 m c t h0)
  have cov_s8 : ∀ f, (scM0_8).view.read (Elt F) ((scM0_8).view.writes (Elt F) f (runA m c t h0).2.2.2.2.2.2.2.2.2.2.1) = (ptA m c t h0).s8 := by
    intro f; unfold ptA; dsimp only
    exact View.read_writes_of_cover _ _ _ _ _ (scover0_A_8 m c t h0)
  have cov_s9 : ∀ f, (scM0_9).view.read (Elt F) ((scM0_9).view.writes (Elt F) f (runA m c t h0).2.2.2.2.2.2.2.2.2.2.2.1) = (ptA m c t h0).s9 := by
    intro f; unfold ptA; dsimp only
    exact View.read_writes_of_cover _ _ _ _ _ (scover0_A_9 m c t h0)
  have hΦ : (dats m 0 c).Φ t.castSucc ⊢ (iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d)) ∗ (∃ r, prngReg c r)) : sProp 𝕄) := by
    rw [PhiS_castSucc m c t, PhiS_zero m c _ _ hz, PhiA0_eq]
  exact body_abs_A c _ (ms0_0 t) (ms0_1 t) (ms0_2 t) (ms0_3 t) (ms0_4 t) (ms0_5 t) (ms0_6 t) (ms0_7 t) (ms0_8 t) (ms0_9 t) (ms0_10 t) (ms0_11 t) (ms0_12 t) scM0_0 scM0_1 scM0_2 scM0_3 scM0_4 scM0_5 scM0_6 scM0_7 scM0_8 scM0_9 (iblk m c 0 t) (iblk m c 1 t) (iblk m c 2 t) (iblk m c 3 t) (iblk m c 4 t) (iblk m c 5 t) (fun d => (dats m 0 c).before 6 t d) (fun d => (dats m 0 c).before 7 t d) (fun d => (dats m 0 c).before 8 t d) (fun d => (dats m 0 c).before 9 t d) (fun d => (dats m 0 c).before 10 t d) (fun d => (dats m 0 c).before 11 t d) (fun d => (dats m 0 c).before 12 t d)
    (runA m c t h0).1 (runA m c t h0).2.1 (runA m c t h0).2.2.1 (runA m c t h0).2.2.2.1 (runA m c t h0).2.2.2.2.1 (runA m c t h0).2.2.2.2.2.1 (runA m c t h0).2.2.2.2.2.2.1 (runA m c t h0).2.2.2.2.2.2.2.1 (runA m c t h0).2.2.2.2.2.2.2.2.1 (runA m c t h0).2.2.2.2.2.2.2.2.2.1 (runA m c t h0).2.2.2.2.2.2.2.2.2.2.1 (runA m c t h0).2.2.2.2.2.2.2.2.2.2.2.1
    (ptA m c t h0).o6 (ptA m c t h0).o7 (ptA m c t h0).s0 (ptA m c t h0).s1 (ptA m c t h0).s2 (ptA m c t h0).s3 (ptA m c t h0).s4 (ptA m c t h0).s5 (ptA m c t h0).s6 (ptA m c t h0).s7 (ptA m c t h0).s8 (ptA m c t h0).s9
    (runA m c t h0).2.2.2.2.2.2.2.2.2.2.2.2 cov_o6 cov_o7 cov_s0 cov_s1 cov_s2 cov_s3 cov_s4 cov_s5 cov_s6 cov_s7 cov_s8 cov_s9
    ((dats m 0 c).Φ t.castSucc) ((dats m 0 c).owesAt () t.castSucc) hΦ

end Cert.KernelIdeal.Fr

end
-- ==== Proof.Ideal.SoundA1.lean ====
/- The body obligation at a later even grid point: the accumulators come at what the point before left, which the reset forgets; the run of the first kind applies. Stated for any float instance. -/
import proofs.«129784_j68891275428342_2_alg».proof.Proof.Ideal.Frame
import proofs.«129784_j68891275428342_2_alg».proof.Proof.Ideal.BodyAbs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 16000000 in
theorem sound_body_A1 (c : Dev nD) (t : Fin cfg0.N) (h0 : t.val % 2 = 0) (hz : ¬t.val = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 16 := lt_of_lt_of_eq t.isLt (show cfg0.N = 16 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [Dat.leavesExact_idle (dats m 0 c) 8 t (idleAt0_8_A t (hcA0 t h0) (hcA1 t h0)) (noFlush0_8_A t (hcA0 t h0) (hcA1 t h0))]
  rw [Dat.leavesExact_idle (dats m 0 c) 9 t (idleAt0_9_A t (hcA0 t h0) (hcA1 t h0)) (noFlush0_9_A t (hcA0 t h0) (hcA1 t h0))]
  rw [Dat.leavesExact_idle (dats m 0 c) 10 t (idleAt0_10_A t (hcA0 t h0) (hcA1 t h0)) (noFlush0_10_A t (hcA0 t h0) (hcA1 t h0))]
  rw [Dat.leavesExact_idle (dats m 0 c) 11 t (idleAt0_11_A t (hcA0 t h0) (hcA1 t h0)) (noFlush0_11_A t (hcA0 t h0) (hcA1 t h0))]
  rw [Dat.leavesExact_idle (dats m 0 c) 12 t (idleAt0_12_A t (hcA0 t h0) (hcA1 t h0)) (noFlush0_12_A t (hcA0 t h0) (hcA1 t h0))]
  rw [outsAt0_A m c t h0]
  have cov_o6 : ∀ f, (ms0_6 t).view.read (Elt F) ((ms0_6 t).view.writes (Elt F) f (runA m c t h0).1) = (ptA m c t h0).o6 := by
    intro f; unfold ptA; dsimp only
    exact View.read_writes_of_cover _ _ _ _ _ (cover0_A_6 m c t h0)
  have cov_o7 : ∀ f, (ms0_7 t).view.read (Elt F) ((ms0_7 t).view.writes (Elt F) f (runA m c t h0).2.1) = (ptA m c t h0).o7 := by
    intro f; unfold ptA; dsimp only
    exact View.read_writes_of_cover _ _ _ _ _ (cover0_A_7 m c t h0)
  have cov_s0 : ∀ f, (scM0_0).view.read (Elt F) ((scM0_0).view.writes (Elt F) f (runA m c t h0).2.2.1) = (ptA m c t h0).s0 := by
    intro f; unfold ptA; dsimp only
    exact View.read_writes_of_cover _ _ _ _ _ (scover0_A_0 m c t h0)
  have cov_s1 : ∀ f, (scM0_1).view.read (Elt F) ((scM0_1).view.writes (Elt F) f (runA m c t h0).2.2.2.1) = (ptA m c t h0).s1 := by
    intro f; unfold ptA; dsimp only
    exact View.read_writes_of_cover _ _ _ _ _ (scover0_A_1 m c t h0)
  have cov_s2 : ∀ f, (scM0_2).view.read (Elt F) ((scM0_2).view.writes (Elt F) f (runA m c t h0).2.2.2.2.1) = (ptA m c t h0).s2 := by
    intro f; unfold ptA; dsimp only
    exact View.read_writes_of_cover _ _ _ _ _ (scover0_A_2 m c t h0)
  have cov_s3 : ∀ f, (scM0_3).view.read (Elt F) ((scM0_3).view.writes (Elt F) f (runA m c t h0).2.2.2.2.2.1) = (ptA m c t h0).s3 := by
    intro f; unfold ptA; dsimp only
    exact View.read_writes_of_cover _ _ _ _ _ (scover0_A_3 m c t h0)
  have cov_s4 : ∀ f, (scM0_4).view.read (Elt F) ((scM0_4).view.writes (Elt F) f (runA m c t h0).2.2.2.2.2.2.1) = (ptA m c t h0).s4 := by
    intro f; unfold ptA; dsimp only
    exact View.read_writes_of_cover _ _ _ _ _ (scover0_A_4 m c t h0)
  have cov_s5 : ∀ f, (scM0_5).view.read (Elt F) ((scM0_5).view.writes (Elt F) f (runA m c t h0).2.2.2.2.2.2.2.1) = (ptA m c t h0).s5 := by
    intro f; unfold ptA; dsimp only
    exact View.read_writes_of_cover _ _ _ _ _ (scover0_A_5 m c t h0)
  have cov_s6 : ∀ f, (scM0_6).view.read (Elt F) ((scM0_6).view.writes (Elt F) f (runA m c t h0).2.2.2.2.2.2.2.2.1) = (ptA m c t h0).s6 := by
    intro f; unfold ptA; dsimp only
    exact View.read_writes_of_cover _ _ _ _ _ (scover0_A_6 m c t h0)
  have cov_s7 : ∀ f, (scM0_7).view.read (Elt F) ((scM0_7).view.writes (Elt F) f (runA m c t h0).2.2.2.2.2.2.2.2.2.1) = (ptA m c t h0).s7 := by
    intro f; unfold ptA; dsimp only
    exact View.read_writes_of_cover _ _ _ _ _ (scover0_A_7 m c t h0)
  have cov_s8 : ∀ f, (scM0_8).view.read (Elt F) ((scM0_8).view.writes (Elt F) f (runA m c t h0).2.2.2.2.2.2.2.2.2.2.1) = (ptA m c t h0).s8 := by
    intro f; unfold ptA; dsimp only
    exact View.read_writes_of_cover _ _ _ _ _ (scover0_A_8 m c t h0)
  have cov_s9 : ∀ f, (scM0_9).view.read (Elt F) ((scM0_9).view.writes (Elt F) f (runA m c t h0).2.2.2.2.2.2.2.2.2.2.2.1) = (ptA m c t h0).s9 := by
    intro f; unfold ptA; dsimp only
    exact View.read_writes_of_cover _ _ _ _ _ (scover0_A_9 m c t h0)
  have hΦ : (dats m 0 c).Φ t.castSucc ⊢ (iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d)) ∗ (∃ r, prngReg c r)) : sProp 𝕄) := by
    rw [PhiS_castSucc m c t, PhiS_pos m c _ _ hz]
    iintro ⟨⟨HS0, HS1, HS2, HS3, HS4, HS5, HS6, HS7, HS8, HS9⟩, Hg⟩
    isplitl [HS0 HS1 HS2 HS3 HS4 HS5 HS6 HS7 HS8 HS9]
    · isplitl [HS0]; · iexists _; iexact HS0
      isplitl [HS1]; · iexists _; iexact HS1
      isplitl [HS2]; · iexists _; iexact HS2
      isplitl [HS3]; · iexists _; iexact HS3
      isplitl [HS4]; · iexists _; iexact HS4
      isplitl [HS5]; · iexists _; iexact HS5
      isplitl [HS6]; · iexists _; iexact HS6
      isplitl [HS7]; · iexists _; iexact HS7
      isplitl [HS8]; · iexists _; iexact HS8
      iexists _; iexact HS9
    iexact Hg
  exact body_abs_A c _ (ms0_0 t) (ms0_1 t) (ms0_2 t) (ms0_3 t) (ms0_4 t) (ms0_5 t) (ms0_6 t) (ms0_7 t) (ms0_8 t) (ms0_9 t) (ms0_10 t) (ms0_11 t) (ms0_12 t) scM0_0 scM0_1 scM0_2 scM0_3 scM0_4 scM0_5 scM0_6 scM0_7 scM0_8 scM0_9 (iblk m c 0 t) (iblk m c 1 t) (iblk m c 2 t) (iblk m c 3 t) (iblk m c 4 t) (iblk m c 5 t) (fun d => (dats m 0 c).before 6 t d) (fun d => (dats m 0 c).before 7 t d) (fun d => (dats m 0 c).before 8 t d) (fun d => (dats m 0 c).before 9 t d) (fun d => (dats m 0 c).before 10 t d) (fun d => (dats m 0 c).before 11 t d) (fun d => (dats m 0 c).before 12 t d)
    (runA m c t h0).1 (runA m c t h0).2.1 (runA m c t h0).2.2.1 (runA m c t h0).2.2.2.1 (runA m c t h0).2.2.2.2.1 (runA m c t h0).2.2.2.2.2.1 (runA m c t h0).2.2.2.2.2.2.1 (runA m c t h0).2.2.2.2.2.2.2.1 (runA m c t h0).2.2.2.2.2.2.2.2.1 (runA m c t h0).2.2.2.2.2.2.2.2.2.1 (runA m c t h0).2.2.2.2.2.2.2.2.2.2.1 (runA m c t h0).2.2.2.2.2.2.2.2.2.2.2.1
    (ptA m c t h0).o6 (ptA m c t h0).o7 (ptA m c t h0).s0 (ptA m c t h0).s1 (ptA m c t h0).s2 (ptA m c t h0).s3 (ptA m c t h0).s4 (ptA m c t h0).s5 (ptA m c t h0).s6 (ptA m c t h0).s7 (ptA m c t h0).s8 (ptA m c t h0).s9
    (runA m c t h0).2.2.2.2.2.2.2.2.2.2.2.2 cov_o6 cov_o7 cov_s0 cov_s1 cov_s2 cov_s3 cov_s4 cov_s5 cov_s6 cov_s7 cov_s8 cov_s9
    ((dats m 0 c).Φ t.castSucc) ((dats m 0 c).owesAt () t.castSucc) hΦ

end Cert.KernelIdeal.Fr

end
-- ==== Proof.Ideal.SoundB.lean ====
/- The body obligation at an odd grid point: the run of the second kind applies over what the point before left in the accumulators. Stated for any float instance. -/
import proofs.«129784_j68891275428342_2_alg».proof.Proof.Ideal.Frame
import proofs.«129784_j68891275428342_2_alg».proof.Proof.Ideal.BodyAbs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 16000000 in
theorem sound_body_B (c : Dev nD) (t : Fin cfg0.N) (h0 : ¬t.val % 2 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 16 := lt_of_lt_of_eq t.isLt (show cfg0.N = 16 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8_B t (hcB0 t h0) (hcB1 t h0)], after0_8]
  rw [show (dats m 0 c).leavesExact 9 t = owns (c : Thread nD τ) (ms0_9 t) fullShare ((dats m 0 c).after 9 t) from by
    unfold Dat.leavesExact; rw [liveAt0_9_B t (hcB0 t h0) (hcB1 t h0)], after0_9]
  rw [show (dats m 0 c).leavesExact 10 t = owns (c : Thread nD τ) (ms0_10 t) fullShare ((dats m 0 c).after 10 t) from by
    unfold Dat.leavesExact; rw [liveAt0_10_B t (hcB0 t h0) (hcB1 t h0)], after0_10]
  rw [show (dats m 0 c).leavesExact 11 t = owns (c : Thread nD τ) (ms0_11 t) fullShare ((dats m 0 c).after 11 t) from by
    unfold Dat.leavesExact; rw [liveAt0_11_B t (hcB0 t h0) (hcB1 t h0)], after0_11]
  rw [show (dats m 0 c).leavesExact 12 t = owns (c : Thread nD τ) (ms0_12 t) fullShare ((dats m 0 c).after 12 t) from by
    unfold Dat.leavesExact; rw [liveAt0_12_B t (hcB0 t h0) (hcB1 t h0)], after0_12]
  rw [outsAt0_B m c t h0]
  have hz : t.val ≠ 0 := fun hz => h0 (by rw [hz])
  rw [PhiS_castSucc m c t, PhiS_pos m c _ _ hz]
  generalize outsAt0 m c (t.val - 1) _ = p
  have cov_o6 : ∀ f, (ms0_6 t).view.read (Elt F) ((ms0_6 t).view.writes (Elt F) f (runB m c t h0 p.s0 p.s1 p.s2 p.s3 p.s4 p.s5 p.s6 p.s7 p.s8 p.s9).1) = (ptB m c t h0 p).o6 := by
    intro f; unfold ptB; dsimp only
    exact View.read_writes_of_cover _ _ _ _ _ (cover0_B_6 m c t h0 p.s0 p.s1 p.s2 p.s3 p.s4 p.s5 p.s6 p.s7 p.s8 p.s9)
  have cov_o7 : ∀ f, (ms0_7 t).view.read (Elt F) ((ms0_7 t).view.writes (Elt F) f (runB m c t h0 p.s0 p.s1 p.s2 p.s3 p.s4 p.s5 p.s6 p.s7 p.s8 p.s9).2.1) = (ptB m c t h0 p).o7 := by
    intro f; unfold ptB; dsimp only
    exact View.read_writes_of_cover _ _ _ _ _ (cover0_B_7 m c t h0 p.s0 p.s1 p.s2 p.s3 p.s4 p.s5 p.s6 p.s7 p.s8 p.s9)
  have cov_o8 : ∀ f, (ms0_8 t).view.read (Elt F) ((ms0_8 t).view.writes (Elt F) f (runB m c t h0 p.s0 p.s1 p.s2 p.s3 p.s4 p.s5 p.s6 p.s7 p.s8 p.s9).2.2.1) = (ptB m c t h0 p).o8 := by
    intro f; unfold ptB; dsimp only
    exact View.read_writes_of_cover _ _ _ _ _ (cover0_B_8 m c t h0 p.s0 p.s1 p.s2 p.s3 p.s4 p.s5 p.s6 p.s7 p.s8 p.s9)
  have cov_o9 : ∀ f, (ms0_9 t).view.read (Elt F) ((ms0_9 t).view.writes (Elt F) f (runB m c t h0 p.s0 p.s1 p.s2 p.s3 p.s4 p.s5 p.s6 p.s7 p.s8 p.s9).2.2.2.1) = (ptB m c t h0 p).o9 := by
    intro f; unfold ptB; dsimp only
    exact View.read_writes_of_cover _ _ _ _ _ (cover0_B_9 m c t h0 p.s0 p.s1 p.s2 p.s3 p.s4 p.s5 p.s6 p.s7 p.s8 p.s9)
  have cov_o10 : ∀ f, (ms0_10 t).view.read (Elt F) ((ms0_10 t).view.writes (Elt F) f (runB m c t h0 p.s0 p.s1 p.s2 p.s3 p.s4 p.s5 p.s6 p.s7 p.s8 p.s9).2.2.2.2.1) = (ptB m c t h0 p).o10 := by
    intro f; unfold ptB; dsimp only
    exact View.read_writes_of_cover _ _ _ _ _ (cover0_B_10 m c t h0 p.s0 p.s1 p.s2 p.s3 p.s4 p.s5 p.s6 p.s7 p.s8 p.s9)
  have cov_o11 : ∀ f, (ms0_11 t).view.read (Elt F) ((ms0_11 t).view.writes (Elt F) f (runB m c t h0 p.s0 p.s1 p.s2 p.s3 p.s4 p.s5 p.s6 p.s7 p.s8 p.s9).2.2.2.2.2.1) = (ptB m c t h0 p).o11 := by
    intro f; unfold ptB; dsimp only
    exact View.read_writes_of_cover _ _ _ _ _ (cover0_B_11 m c t h0 p.s0 p.s1 p.s2 p.s3 p.s4 p.s5 p.s6 p.s7 p.s8 p.s9)
  have cov_o12 : ∀ f, (ms0_12 t).view.read (Elt F) ((ms0_12 t).view.writes (Elt F) f (runB m c t h0 p.s0 p.s1 p.s2 p.s3 p.s4 p.s5 p.s6 p.s7 p.s8 p.s9).2.2.2.2.2.2.1) = (ptB m c t h0 p).o12 := by
    intro f; unfold ptB; dsimp only
    exact View.read_writes_of_cover _ _ _ _ _ (cover0_B_12 m c t h0 p.s0 p.s1 p.s2 p.s3 p.s4 p.s5 p.s6 p.s7 p.s8 p.s9)
  have cov_s0 : ∀ f, (scM0_0).view.read (Elt F) ((scM0_0).view.writes (Elt F) f (runB m c t h0 p.s0 p.s1 p.s2 p.s3 p.s4 p.s5 p.s6 p.s7 p.s8 p.s9).2.2.2.2.2.2.2.1) = (ptB m c t h0 p).s0 := by
    intro f; unfold ptB; dsimp only
    exact View.read_writes_of_cover _ _ _ _ _ (scover0_B_0 m c t h0 p.s0 p.s1 p.s2 p.s3 p.s4 p.s5 p.s6 p.s7 p.s8 p.s9)
  have cov_s1 : ∀ f, (scM0_1).view.read (Elt F) ((scM0_1).view.writes (Elt F) f (runB m c t h0 p.s0 p.s1 p.s2 p.s3 p.s4 p.s5 p.s6 p.s7 p.s8 p.s9).2.2.2.2.2.2.2.2.1) = (ptB m c t h0 p).s1 := by
    intro f; unfold ptB; dsimp only
    exact View.read_writes_of_cover _ _ _ _ _ (scover0_B_1 m c t h0 p.s0 p.s1 p.s2 p.s3 p.s4 p.s5 p.s6 p.s7 p.s8 p.s9)
  have cov_s2 : ∀ f, (scM0_2).view.read (Elt F) ((scM0_2).view.writes (Elt F) f (runB m c t h0 p.s0 p.s1 p.s2 p.s3 p.s4 p.s5 p.s6 p.s7 p.s8 p.s9).2.2.2.2.2.2.2.2.2.1) = (ptB m c t h0 p).s2 := by
    intro f; unfold ptB; dsimp only
    exact View.read_writes_of_cover _ _ _ _ _ (scover0_B_2 m c t h0 p.s0 p.s1 p.s2 p.s3 p.s4 p.s5 p.s6 p.s7 p.s8 p.s9)
  have cov_s3 : ∀ f, (scM0_3).view.read (Elt F) ((scM0_3).view.writes (Elt F) f (runB m c t h0 p.s0 p.s1 p.s2 p.s3 p.s4 p.s5 p.s6 p.s7 p.s8 p.s9).2.2.2.2.2.2.2.2.2.2.1) = (ptB m c t h0 p).s3 := by
    intro f; unfold ptB; dsimp only
    exact View.read_writes_of_cover _ _ _ _ _ (scover0_B_3 m c t h0 p.s0 p.s1 p.s2 p.s3 p.s4 p.s5 p.s6 p.s7 p.s8 p.s9)
  have cov_s4 : ∀ f, (scM0_4).view.read (Elt F) ((scM0_4).view.writes (Elt F) f (runB m c t h0 p.s0 p.s1 p.s2 p.s3 p.s4 p.s5 p.s6 p.s7 p.s8 p.s9).2.2.2.2.2.2.2.2.2.2.2.1) = (ptB m c t h0 p).s4 := by
    intro f; unfold ptB; dsimp only
    exact View.read_writes_of_cover _ _ _ _ _ (scover0_B_4 m c t h0 p.s0 p.s1 p.s2 p.s3 p.s4 p.s5 p.s6 p.s7 p.s8 p.s9)
  have cov_s5 : ∀ f, (scM0_5).view.read (Elt F) ((scM0_5).view.writes (Elt F) f (runB m c t h0 p.s0 p.s1 p.s2 p.s3 p.s4 p.s5 p.s6 p.s7 p.s8 p.s9).2.2.2.2.2.2.2.2.2.2.2.2.1) = (ptB m c t h0 p).s5 := by
    intro f; unfold ptB; dsimp only
    exact View.read_writes_of_cover _ _ _ _ _ (scover0_B_5 m c t h0 p.s0 p.s1 p.s2 p.s3 p.s4 p.s5 p.s6 p.s7 p.s8 p.s9)
  have cov_s6 : ∀ f, (scM0_6).view.read (Elt F) ((scM0_6).view.writes (Elt F) f (runB m c t h0 p.s0 p.s1 p.s2 p.s3 p.s4 p.s5 p.s6 p.s7 p.s8 p.s9).2.2.2.2.2.2.2.2.2.2.2.2.2.1) = (ptB m c t h0 p).s6 := by
    intro f; unfold ptB; dsimp only
    exact View.read_writes_of_cover _ _ _ _ _ (scover0_B_6 m c t h0 p.s0 p.s1 p.s2 p.s3 p.s4 p.s5 p.s6 p.s7 p.s8 p.s9)
  have cov_s7 : ∀ f, (scM0_7).view.read (Elt F) ((scM0_7).view.writes (Elt F) f (runB m c t h0 p.s0 p.s1 p.s2 p.s3 p.s4 p.s5 p.s6 p.s7 p.s8 p.s9).2.2.2.2.2.2.2.2.2.2.2.2.2.2.1) = (ptB m c t h0 p).s7 := by
    intro f; unfold ptB; dsimp only
    exact View.read_writes_of_cover _ _ _ _ _ (scover0_B_7 m c t h0 p.s0 p.s1 p.s2 p.s3 p.s4 p.s5 p.s6 p.s7 p.s8 p.s9)
  have cov_s8 : ∀ f, (scM0_8).view.read (Elt F) ((scM0_8).view.writes (Elt F) f (runB m c t h0 p.s0 p.s1 p.s2 p.s3 p.s4 p.s5 p.s6 p.s7 p.s8 p.s9).2.2.2.2.2.2.2.2.2.2.2.2.2.2.2.1) = (ptB m c t h0 p).s8 := by
    intro f; unfold ptB; dsimp only
    exact View.read_writes_of_cover _ _ _ _ _ (scover0_B_8 m c t h0 p.s0 p.s1 p.s2 p.s3 p.s4 p.s5 p.s6 p.s7 p.s8 p.s9)
  have cov_s9 : ∀ f, (scM0_9).view.read (Elt F) ((scM0_9).view.writes (Elt F) f (runB m c t h0 p.s0 p.s1 p.s2 p.s3 p.s4 p.s5 p.s6 p.s7 p.s8 p.s9).2.2.2.2.2.2.2.2.2.2.2.2.2.2.2.2.1) = (ptB m c t h0 p).s9 := by
    intro f; unfold ptB; dsimp only
    exact View.read_writes_of_cover _ _ _ _ _ (scover0_B_9 m c t h0 p.s0 p.s1 p.s2 p.s3 p.s4 p.s5 p.s6 p.s7 p.s8 p.s9)
  exact body_abs_B c _ (ms0_0 t) (ms0_1 t) (ms0_2 t) (ms0_3 t) (ms0_4 t) (ms0_5 t) (ms0_6 t) (ms0_7 t) (ms0_8 t) (ms0_9 t) (ms0_10 t) (ms0_11 t) (ms0_12 t) scM0_0 scM0_1 scM0_2 scM0_3 scM0_4 scM0_5 scM0_6 scM0_7 scM0_8 scM0_9 (iblk m c 0 t) (iblk m c 1 t) (iblk m c 2 t) (iblk m c 3 t) (iblk m c 4 t) (iblk m c 5 t) (fun d => (dats m 0 c).before 6 t d) (fun d => (dats m 0 c).before 7 t d) (fun d => (dats m 0 c).before 8 t d) (fun d => (dats m 0 c).before 9 t d) (fun d => (dats m 0 c).before 10 t d) (fun d => (dats m 0 c).before 11 t d) (fun d => (dats m 0 c).before 12 t d)
    p.s0 p.s1 p.s2 p.s3 p.s4 p.s5 p.s6 p.s7 p.s8 p.s9
    (runB m c t h0 p.s0 p.s1 p.s2 p.s3 p.s4 p.s5 p.s6 p.s7 p.s8 p.s9).1 (runB m c t h0 p.s0 p.s1 p.s2 p.s3 p.s4 p.s5 p.s6 p.s7 p.s8 p.s9).2.1 (runB m c t h0 p.s0 p.s1 p.s2 p.s3 p.s4 p.s5 p.s6 p.s7 p.s8 p.s9).2.2.1 (runB m c t h0 p.s0 p.s1 p.s2 p.s3 p.s4 p.s5 p.s6 p.s7 p.s8 p.s9).2.2.2.1 (runB m c t h0 p.s0 p.s1 p.s2 p.s3 p.s4 p.s5 p.s6 p.s7 p.s8 p.s9).2.2.2.2.1 (runB m c t h0 p.s0 p.s1 p.s2 p.s3 p.s4 p.s5 p.s6 p.s7 p.s8 p.s9).2.2.2.2.2.1 (runB m c t h0 p.s0 p.s1 p.s2 p.s3 p.s4 p.s5 p.s6 p.s7 p.s8 p.s9).2.2.2.2.2.2.1 (runB m c t h0 p.s0 p.s1 p.s2 p.s3 p.s4 p.s5 p.s6 p.s7 p.s8 p.s9).2.2.2.2.2.2.2.1 (runB m c t h0 p.s0 p.s1 p.s2 p.s3 p.s4 p.s5 p.s6 p.s7 p.s8 p.s9).2.2.2.2.2.2.2.2.1 (runB m c t h0 p.s0 p.s1 p.s2 p.s3 p.s4 p.s5 p.s6 p.s7 p.s8 p.s9).2.2.2.2.2.2.2.2.2.1 (runB m c t h0 p.s0 p.s1 p.s2 p.s3 p.s4 p.s5 p.s6 p.s7 p.s8 p.s9).2.2.2.2.2.2.2.2.2.2.1 (runB m c t h0 p.s0 p.s1 p.s2 p.s3 p.s4 p.s5 p.s6 p.s7 p.s8 p.s9).2.2.2.2.2.2.2.2.2.2.2.1 (runB m c t h0 p.s0 p.s1 p.s2 p.s3 p.s4 p.s5 p.s6 p.s7 p.s8 p.s9).2.2.2.2.2.2.2.2.2.2.2.2.1 (runB m c t h0 p.s0 p.s1 p.s2 p.s3 p.s4 p.s5 p.s6 p.s7 p.s8 p.s9).2.2.2.2.2.2.2.2.2.2.2.2.2.1 (runB m c t h0 p.s0 p.s1 p.s2 p.s3 p.s4 p.s5 p.s6 p.s7 p.s8 p.s9).2.2.2.2.2.2.2.2.2.2.2.2.2.2.1 (runB m c t h0 p.s0 p.s1 p.s2 p.s3 p.s4 p.s5 p.s6 p.s7 p.s8 p.s9).2.2.2.2.2.2.2.2.2.2.2.2.2.2.2.1 (runB m c t h0 p.s0 p.s1 p.s2 p.s3 p.s4 p.s5 p.s6 p.s7 p.s8 p.s9).2.2.2.2.2.2.2.2.2.2.2.2.2.2.2.2.1
    (ptB m c t h0 p).o6 (ptB m c t h0 p).o7 (ptB m c t h0 p).o8 (ptB m c t h0 p).o9 (ptB m c t h0 p).o10 (ptB m c t h0 p).o11 (ptB m c t h0 p).o12 (ptB m c t h0 p).s0 (ptB m c t h0 p).s1 (ptB m c t h0 p).s2 (ptB m c t h0 p).s3 (ptB m c t h0 p).s4 (ptB m c t h0 p).s5 (ptB m c t h0 p).s6 (ptB m c t h0 p).s7 (ptB m c t h0 p).s8 (ptB m c t h0 p).s9
    (runB m c t h0 p.s0 p.s1 p.s2 p.s3 p.s4 p.s5 p.s6 p.s7 p.s8 p.s9).2.2.2.2.2.2.2.2.2.2.2.2.2.2.2.2.2 cov_o6 cov_o7 cov_o8 cov_o9 cov_o10 cov_o11 cov_o12 cov_s0 cov_s1 cov_s2 cov_s3 cov_s4 cov_s5 cov_s6 cov_s7 cov_s8 cov_s9
    ((dats m 0 c).owesAt () t.castSucc)

end Cert.KernelIdeal.Fr

end
-- ==== Proof.Ideal.FrameRun.lean ====
/- The kernel program's frame, concluded: the body obligation at a generic grid point from the two whole-body runs (each
   buffer taken back at the pieces read back, which cover it), the run of the whole program around the region, and
   the frame claim. Stated for any float instance. -/
import proofs.«129784_j68891275428342_2_alg».proof.Proof.Ideal.SoundA0
import proofs.«129784_j68891275428342_2_alg».proof.Proof.Ideal.SoundA1
import proofs.«129784_j68891275428342_2_alg».proof.Proof.Ideal.SoundB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At an even point the run of the first kind applies (at the very first point from the launch's invariant, later
    from what the point before left); at an odd point the run of the second kind. -/
theorem sound_body (c : Dev nD) (t : Fin cfg0.N) :
    bodyPre m c t ⊢ wp frame (wpE (defs₀ (F := F)) Variants.none c none) Set.univ (bodyAt0 t) (fun _ => bodyPost m c t) := by
  by_cases h0 : t.val % 2 = 0
  · by_cases hz : t.val = 0
    · exact sound_body_A0 m c t h0 hz
    · exact sound_body_A1 m c t h0 hz
  · exact sound_body_B m c t h0

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5, HS6, HS7, HS8, HS9⟩, Hg⟩
  isplitl [HS0 HS1 HS2 HS3 HS4 HS5 HS6 HS7 HS8 HS9]
  · isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    isplitl [HS7]; · iexists _; iexact HS7
    isplitl [HS8]; · iexists _; iexact HS8
    iexists _; iexact HS9
  iexact Hg

theorem hout (c : Dev nD) : (dats m 0 c).Φ (Fin.last cfg0.N) ⊢ Pipeline.ΦA spec0 c :=
  Phi_out m c _ (by rw [Fin.val_last]; have : cfg0.N = 16 := N_0; omega)

/-! ## The run and the frame -/

set_option backward.isDefEq.respectTransparency.types false in
/-- The frame run for any four stretches of host lines of which the program is the chain (the lines before the region,
    the region, three stretches after it), the later ones staying within the region's arrays and the bypassing
    buffers, allocating nothing and writing no array of the region. -/
theorem run_main_gen (o0 o1 o2 o3 : List (HloOp τ sig (Elt F)))
    (hs0 : o0.Forall fun op => op.bufs ⊆ StableHlo.tcRefs τ sig) (hf0 : o0.Forall fun op => op.fresh = ∅)
    (hm : ∀ c, main (F := F) c = Pipeline.chain [StableHlo.seq o0, Prog.lift (.customCall (Pipeline.entry 0) ()), StableHlo.seq o1, StableHlo.seq o2, StableHlo.seq o3])
    (hsub : ∀ ops ∈ [o1, o2, o3], ∀ op ∈ ops, op.bufs ⊆ Pipeline.tailRefs sig Pipeline.Prefetch.none spec0)
    (hfresh : ∀ ops ∈ [o1, o2, o3], ∀ op ∈ ops, op.fresh = ∅)
    (hkeep : ∀ ops ∈ [o1, o2, o3], ∀ op ∈ ops, ∀ w, Proc.devRef .tc (Pipeline.arrRef spec0 w) ∉ op.writes)
    (hA : ∀ c w, (dats m 0 c).A w = StableHlo.after (List.flatten [o0]) (fun b => m (c, b)) (Proc.devRef .tc (Pipeline.arrRef spec0 w))) :
    θ_run defs (onTc (τ := τ) (main (F := F))) (s₀ m ρ)
      (Pipeline.FramePost cfgs (dats m) 0 (Pipeline.afterTail₀ cfgs (dats m) 0 (fun c => StableHlo.after (List.flatten [o0]) (fun b => m (c, b))) [o1, o2, o3])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := fun c => StableHlo.after (List.flatten [o0]) (fun b => m (c, b))) (opss := [o1, o2, o3])
    (hsub := hsub) (hfresh := hfresh) (hkeep := hkeep)
    (hmain := hmain_gen m Variants.none o0 o1 o2 o3 hs0 hf0 hm) (hA := hA) (hin := hin m) (hout := hout m)

/-- Every weakly fair execution of the program terminates, every array of the region ending at what the library
    computes from the proof data and every other buffer as the later lines leave it. -/
theorem run_main : θ_run defs (onTc (τ := τ) (main (F := F))) (s₀ m ρ) (Pipeline.FramePost cfgs (dats m) 0 (Pipeline.afterTail₀ cfgs (dats m) 0 (V0 m) tailOps)) :=
  run_main_gen m ρ hostOps0 hostOps1 hostOps1_1 hostOps1_2 hostOps0_sub hostOps0_fresh main_chain sfx_sub sfx_fresh sfx_keeps (A_eq m)

/-- The frame claim, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (run_main m ρ)

end Cert.KernelIdeal.Fr

end
-- ==== Proof.Ideal.TailDefs.lean ====
/- The host tail of the kernel program: the 185 whole-array operations that follow the one kernel region, read as
   structured pure functions of the region's seven output arrays and of the two logit arrays, the definitions.
   Stated for any float instance. -/
import proofs.«129784_j68891275428342_2_alg».proof.Proof.Gen.KernelIdeal.Launch
import Idealize.ShloMosaic.Lib.StableHlo.Run

set_option maxRecDepth 8192

noncomputable section

namespace Cert.KernelIdeal.Tail

open Cert.KernelIdeal Cert.KernelIdeal.Gen
open Idealize.ShloMosaic Idealize.ShloMosaic.TcCoe Idealize.SL.Sem

variable {F : FTy → Type} [FloatOps F]

/-! ## The feature loss: 0.3 · (row 0 sum / 2^23) + 0.5 · (row 1 sum / 2^23) + 0.2 · (channel mean-square difference) -/

/-- A pooled 8×2×1×128 array read as 8×256 (a reshape). -/
def flat (c : FVec F S8x2x1x128 .f32) : FVec F S8x256 .f32 :=
  shapeCast S8x256 c shapeCasts_S8x2x1x128_S8x256

/-- Row 0, lane 0 of the eight per-batch scalar rows, summed over the batch. -/
def sumRow0 (sc : FVec F S8x2x128 .f32) : FVec F S_ .f32 :=
  Host.reduceAdd (shapeCast S8 (extractStridedSlice S8x1x1 ![0, 0, 0] sc slices_S8x2x128_S8x1x1_0_0_0) shapeCasts_S8x1x1_S8)
    (constant S_ .f32 0x00000000#32) reducesTo_S8_S_d0 h_S_

/-- Row 1, lane 0 of the eight per-batch scalar rows, summed over the batch. -/
def sumRow1 (sc : FVec F S8x2x128 .f32) : FVec F S_ .f32 :=
  Host.reduceAdd (shapeCast S8 (extractStridedSlice S8x1x1 ![0, 1, 0] sc slices_S8x2x128_S8x1x1_0_1_0) shapeCasts_S8x1x1_S8)
    (constant S_ .f32 0x00000000#32) reducesTo_S8_S_d0 h_S_

/-- The mean over 8×256 of the squared difference of the two pooled arrays (sum, then divided by 2048). -/
def chanLossF (c6 c7 : FVec F S8x2x1x128 .f32) : FVec F S_ .f32 :=
  Host.divf
    (Host.reduceAdd (mulf (subf (flat c6) (flat c7)) (subf (flat c6) (flat c7)))
      (constant S_ .f32 0x00000000#32) reducesTo_S8x256_S_d0_1 h_S_)
    (constant S_ .f32 0x45000000#32)

/-- The feature loss. -/
def feat (c6 c7 : FVec F S8x2x1x128 .f32) (sc : FVec F S8x2x128 .f32) : FVec F S_ .f32 :=
  addf
    (addf
      (mulf (constant S_ .f32 0x3E99999A#32) (Host.divf (sumRow0 sc) (constant S_ .f32 0x4B000000#32)))
      (mulf (constant S_ .f32 0x3F000000#32) (Host.divf (sumRow1 sc) (constant S_ .f32 0x4B000000#32))))
    (mulf (constant S_ .f32 0x3E4CCCCD#32) (chanLossF c6 c7))

/-! ## The output loss: 16 · (KL sum / 8) + 2 · (mean-square difference of the class-1 probabilities) -/

/-- Logits divided by the temperature 4. -/
def scaled (a : FVec F S8x2x256x256 .f32) : FVec F S8x2x256x256 .f32 :=
  Host.divf a (broadcastInDim S8x2x256x256 ![] bcast_S_S8x2x256x256 (constant S_ .f32 0x40800000#32))

/-- The maximum over the class axis, floored at minus infinity. -/
def classMax (x : FVec F S8x2x256x256 .f32) : FVec F S8x256x256 .f32 :=
  maximumf (broadcastInDim S8x256x256 ![] bcast_S_S8x256x256 (constant S_ .f32 0xFF800000#32))
    (Host.reduce FloatOps.maximumf x (constant S_ .f32 0xFF800000#32) reducesTo_S8x2x256x256_S8x256x256_d1 h_S_)

/-- An 8×256×256 array repeated along a new class axis of size 2. -/
def overClasses (y : FVec F S8x256x256 .f32) : FVec F S8x2x256x256 .f32 :=
  broadcastInDim S8x2x256x256 ![0, 1, 2, 3] bcast_S8x1x256x256_S8x2x256x256_0_1_2_3
    (broadcastInDim S8x1x256x256 ![0, 2, 3] bcast_S8x256x256_S8x1x256x256_0_2_3 y)

/-- The array minus its maximum over the class axis. -/
def shifted (x : FVec F S8x2x256x256 .f32) : FVec F S8x2x256x256 .f32 :=
  subf x (overClasses (classMax x))

/-- The sum over the class axis of the exponentials. -/
def expSum (e : FVec F S8x2x256x256 .f32) : FVec F S8x256x256 .f32 :=
  Host.reduceAdd e (constant S_ .f32 0x00000000#32) reducesTo_S8x2x256x256_S8x256x256_d1 h_S_

/-- The logarithm of the softmax over the class axis (the inlined callee). -/
def logSoftmax (x : FVec F S8x2x256x256 .f32) : FVec F S8x2x256x256 .f32 :=
  subf (shifted x)
    (broadcastInDim S8x2x256x256 ![0, 1, 2, 3] bcast_S8x1x256x256_S8x2x256x256_0_1_2_3
      (Host.log (broadcastInDim S8x1x256x256 ![0, 2, 3] bcast_S8x256x256_S8x1x256x256_0_2_3
        (expSum (Host.exp (shifted x))))))

/-- The softmax over the class axis. -/
def softmax (x : FVec F S8x2x256x256 .f32) : FVec F S8x2x256x256 .f32 :=
  Host.divf (Host.exp (shifted x)) (overClasses (expSum (Host.exp (shifted x))))

/-- Class 1 of an 8×2×256×256 array. -/
def class1 (x : FVec F S8x2x256x256 .f32) : FVec F S8x1x256x256 .f32 :=
  extractStridedSlice S8x1x256x256 ![0, 1, 0, 0] x slices_S8x2x256x256_S8x1x256x256_0_1_0_0

/-- The divergence term: the sum of p · (log p − log q), divided by 8, times 16. -/
def klTerm (ls p : FVec F S8x2x256x256 .f32) : FVec F S_ .f32 :=
  mulf
    (Host.divf
      (Host.reduceAdd (mulf p (subf (Host.log p) ls)) (constant S_ .f32 0x00000000#32)
        reducesTo_S8x2x256x256_S_d0_1_2_3 h_S_)
      (constant S_ .f32 0x41000000#32))
    (constant S_ .f32 0x41800000#32)

/-- The class-1 term: the sum of (exp(log q₁) − p₁)², divided by 2^19, times 2. -/
def fgTerm (ls p : FVec F S8x2x256x256 .f32) : FVec F S_ .f32 :=
  mulf
    (Host.divf
      (Host.reduceAdd
        (mulf (subf (Host.exp (class1 ls)) (class1 p)) (subf (Host.exp (class1 ls)) (class1 p)))
        (constant S_ .f32 0x00000000#32) reducesTo_S8x1x256x256_S_d0_1_2_3 h_S_)
      (constant S_ .f32 0x49000000#32))
    (constant S_ .f32 0x40000000#32)

/-- The output loss of the two logit arrays. -/
def outl (a2 a3 : FVec F S8x2x256x256 .f32) : FVec F S_ .f32 :=
  addf (klTerm (logSoftmax (scaled a2)) (softmax (scaled a3)))
    (fgTerm (logSoftmax (scaled a2)) (softmax (scaled a3)))

/-! ## The difference-attention loss -/

/-- The mean of the difference map (sum over 8×32×128, divided by 32768). -/
def optMean (d8 : FVec F S8x32x128 .f32) : FVec F S_ .f32 :=
  Host.divf (Host.reduceAdd d8 (constant S_ .f32 0x00000000#32) reducesTo_S8x32x128_S_d0_1_2 h_S_)
    (constant S_ .f32 0x47000000#32)

/-- 1 where the difference map exceeds 1.5 times its mean, else 0. -/
def diffMask (d8 : FVec F S8x32x128 .f32) : FVec F S8x32x128 .f32 :=
  uitofp .f32 (cmpf .ogt d8
    (broadcastInDim S8x32x128 ![] bcast_S_S8x32x128 (mulf (optMean d8) (constant S_ .f32 0x3FC00000#32))))

/-- The weight map: 2 · mask + 0.5 · (1 − mask). -/
def wgt (d8 : FVec F S8x32x128 .f32) : FVec F S8x32x128 .f32 :=
  addf
    (mulf (diffMask d8) (broadcastInDim S8x32x128 ![] bcast_S_S8x32x128 (constant S_ .f32 0x40000000#32)))
    (mulf (subf (broadcastInDim S8x32x128 ![] bcast_S_S8x32x128 (constant S_ .f32 0x3F800000#32)) (diffMask d8))
      (broadcastInDim S8x32x128 ![] bcast_S_S8x32x128 (constant S_ .f32 0x3F000000#32)))

/-- The weighted mean-square difference of the two difference maps. -/
def diffLoss (d8 d9 : FVec F S8x32x128 .f32) : FVec F S_ .f32 :=
  Host.divf
    (Host.reduceAdd
      (mulf (subf (mulf d9 (wgt d8)) (mulf d8 (wgt d8))) (subf (mulf d9 (wgt d8)) (mulf d8 (wgt d8))))
      (constant S_ .f32 0x00000000#32) reducesTo_S8x32x128_S_d0_1_2 h_S_)
    (constant S_ .f32 0x47000000#32)

/-- The logistic function of a pooled array read as 8×256: 1 / (1 + exp(−x)). -/
def sigm (c : FVec F S8x2x1x128 .f32) : FVec F S8x256 .f32 :=
  Host.divf (broadcastInDim S8x256 ![] bcast_S_S8x256 (constant S_ .f32 0x3F800000#32))
    (addf (broadcastInDim S8x256 ![] bcast_S_S8x256 (constant S_ .f32 0x3F800000#32))
      (Host.exp (Host.negf (flat c))))

/-- The attention weight: the logistic function of 10 times the mean of the difference map. -/
def attW (d8 : FVec F S8x32x128 .f32) : FVec F S_ .f32 :=
  Host.divf (constant S_ .f32 0x3F800000#32)
    (addf (constant S_ .f32 0x3F800000#32)
      (Host.exp (Host.negf (mulf (optMean d8) (constant S_ .f32 0x41200000#32)))))

/-- The amplification map: 1 + weight · mask. -/
def amp (d8 : FVec F S8x32x128 .f32) : FVec F S8x32x128 .f32 :=
  addf (broadcastInDim S8x32x128 ![] bcast_S_S8x32x128 (constant S_ .f32 0x3F800000#32))
    (mulf (broadcastInDim S8x32x128 ![] bcast_S_S8x32x128 (attW d8)) (diffMask d8))

/-- The amplified mean-square difference of the two spatial maps. -/
def spatialLoss (d8 d10 d11 : FVec F S8x32x128 .f32) : FVec F S_ .f32 :=
  Host.divf
    (Host.reduceAdd
      (mulf (subf (mulf d11 (amp d8)) (mulf d10 (amp d8))) (subf (mulf d11 (amp d8)) (mulf d10 (amp d8))))
      (constant S_ .f32 0x00000000#32) reducesTo_S8x32x128_S_d0_1_2 h_S_)
    (constant S_ .f32 0x47000000#32)

/-- The mean-square difference of the two channel attentions (sum over 8×256, divided by 2048). -/
def chanLoss (c6 c7 : FVec F S8x2x1x128 .f32) : FVec F S_ .f32 :=
  Host.divf
    (Host.reduceAdd (mulf (subf (sigm c6) (sigm c7)) (subf (sigm c6) (sigm c7)))
      (constant S_ .f32 0x00000000#32) reducesTo_S8x256_S_d0_1 h_S_)
    (constant S_ .f32 0x45000000#32)

/-- The difference-attention loss: 0.5 · (1 + 0.5 w) · diffLoss + 0.3 · (1 − 0.3 w) · chanLoss + 0.2 · (1 + 0.5 w) · spatialLoss,
    w the attention weight. -/
def diffa (c6 c7 : FVec F S8x2x1x128 .f32) (d8 d9 d10 d11 : FVec F S8x32x128 .f32) : FVec F S_ .f32 :=
  addf
    (addf
      (mulf
        (mulf (constant S_ .f32 0x3F000000#32)
          (addf (constant S_ .f32 0x3F800000#32) (mulf (constant S_ .f32 0x3F000000#32) (attW d8))))
        (diffLoss d8 d9))
      (mulf
        (mulf (constant S_ .f32 0x3E99999A#32)
          (subf (constant S_ .f32 0x3F800000#32) (mulf (constant S_ .f32 0x3E99999A#32) (attW d8))))
        (chanLoss c6 c7)))
    (mulf
      (mulf (constant S_ .f32 0x3E4CCCCD#32)
        (addf (constant S_ .f32 0x3F800000#32) (mulf (constant S_ .f32 0x3F000000#32) (attW d8))))
      (spatialLoss d8 d10 d11))

/-! ## The total: 0.3 · feature + 0.4 · output + 0.3 · difference-attention -/

/-- The total loss of the three parts. -/
def total (f o d : FVec F S_ .f32) : FVec F S_ .f32 :=
  addf
    (addf (mulf (constant S_ .f32 0x3E99999A#32) f) (mulf (constant S_ .f32 0x3ECCCCCD#32) o))
    (mulf (constant S_ .f32 0x3E99999A#32) d)

end Cert.KernelIdeal.Tail

end
-- ==== Proof.Ideal.Tail.lean ====
/- The host tail of the kernel program: its four results as the structured functions of Ideal/TailDefs.lean
   applied to the contents the tail starts from. The 185 operations are read in two stretches — the first 46 (the
   feature loss, the scaling of the first logit array and the inlined logarithm of its softmax) and the remaining
   139 — and the facts of the second stretch take those of the first. Stated for any float instance. -/
import proofs.«129784_j68891275428342_2_alg».proof.Proof.Ideal.TailDefs
import Idealize.ShloMosaic.Lib.Pipeline.Frame

set_option maxRecDepth 8192

noncomputable section

namespace Cert.KernelIdeal.Tail

open Cert.KernelIdeal Cert.KernelIdeal.Gen
open Idealize.ShloMosaic Idealize.ShloMosaic.TcCoe Idealize.SL.Sem
open Idealize.ShloMosaic.StableHlo

variable {F : FTy → Type} [FloatOps F]

/-- Contents moved to a typed reference's buffer and back are the contents. -/
theorem ofBuf_toBuf {sig : RefSig} {Val : EltTy → Type} {T : BufTy} (x : TRef sig T) (v : T.Contents Val) :
    x.ofBuf (x.toBuf v) = v := by
  obtain ⟨r, h, h2, h3⟩ := x
  subst h
  rfl

/-! ## The first stretch: 31 operations of the program and the 15 of the inlined callee -/

/-- The first pooled array, read as 8×256. -/
theorem pre_v7 (W : Valuation τ sig (Elt F)) :
    after hostOps1_1 (after hostOps1 W) (Proc.devRef .tc main_v7) = flat (W (Proc.devRef .tc main_v6_0)) := by
  after_results_simp <;> rfl

/-- The second pooled array, read as 8×256. -/
theorem pre_v8 (W : Valuation τ sig (Elt F)) :
    after hostOps1_1 (after hostOps1 W) (Proc.devRef .tc main_v8) = flat (W (Proc.devRef .tc main_v6_1)) := by
  after_results_simp <;> rfl

/-- The feature loss. -/
theorem pre_v25 (W : Valuation τ sig (Elt F)) :
    after hostOps1_1 (after hostOps1 W) (Proc.devRef .tc main_v25)
      = feat (W (Proc.devRef .tc main_v6_0)) (W (Proc.devRef .tc main_v6_1)) (W (Proc.devRef .tc main_v6_6)) := by
  after_results_simp <;> rfl

/-- The logarithm of the softmax of the first logit array over 4. -/
theorem pre_v28 (W : Valuation τ sig (Elt F)) :
    after hostOps1_1 (after hostOps1 W) (Proc.devRef .tc main_v28) = logSoftmax (scaled (W (Proc.devRef .tc main_arg2))) := by
  have e27 : ∀ u, (TRef.of main_v27 : TRef sig ⟨S8x2x256x256, .f32⟩).ofBuf (Val := Elt F) u = u := fun _ => rfl
  have e28 : ∀ v, (TRef.of main_v28 : TRef sig ⟨S8x2x256x256, .f32⟩).toBuf (Val := Elt F) v = v := fun _ => rfl
  after_results_simp
  simp only [ofBuf_toBuf, e27, e28]
  rfl

/-- The first stretch leaves this array as it was. -/
theorem pre_arg3 (W : Valuation τ sig (Elt F)) :
    after hostOps1_1 (after hostOps1 W) (Proc.devRef .tc main_arg3) = W (Proc.devRef .tc main_arg3) := by
  after_results_simp

/-- The first stretch leaves this array as it was. -/
theorem pre_v6_2 (W : Valuation τ sig (Elt F)) :
    after hostOps1_1 (after hostOps1 W) (Proc.devRef .tc main_v6_2) = W (Proc.devRef .tc main_v6_2) := by
  after_results_simp

/-- The first stretch leaves this array as it was. -/
theorem pre_v6_3 (W : Valuation τ sig (Elt F)) :
    after hostOps1_1 (after hostOps1 W) (Proc.devRef .tc main_v6_3) = W (Proc.devRef .tc main_v6_3) := by
  after_results_simp

/-- The first stretch leaves this array as it was. -/
theorem pre_v6_4 (W : Valuation τ sig (Elt F)) :
    after hostOps1_1 (after hostOps1 W) (Proc.devRef .tc main_v6_4) = W (Proc.devRef .tc main_v6_4) := by
  after_results_simp

/-- The first stretch leaves this array as it was. -/
theorem pre_v6_5 (W : Valuation τ sig (Elt F)) :
    after hostOps1_1 (after hostOps1 W) (Proc.devRef .tc main_v6_5) = W (Proc.devRef .tc main_v6_5) := by
  after_results_simp

/-! ## The second stretch: the remaining 139 operations, from any contents -/

/-- The second stretch leaves the feature loss as it was. -/
theorem post_v25 (V : Valuation τ sig (Elt F)) :
    after hostOps1_2 V (Proc.devRef .tc main_v25) = V (Proc.devRef .tc main_v25) := by
  after_results_simp

set_option maxHeartbeats 2000000 in
/-- The output loss, of the first array's log-softmax as the stretch finds it and of the second logit array. -/
theorem post_v56 (V : Valuation τ sig (Elt F)) :
    after hostOps1_2 V (Proc.devRef .tc main_v56)
      = addf (klTerm (V (Proc.devRef .tc main_v28)) (softmax (scaled (V (Proc.devRef .tc main_arg3)))))
          (fgTerm (V (Proc.devRef .tc main_v28)) (softmax (scaled (V (Proc.devRef .tc main_arg3))))) := by
  after_results_simp
  simp only [klTerm, fgTerm, softmax, scaled, shifted, overClasses, classMax, expSum, class1]

set_option maxHeartbeats 2000000 in
/-- The difference-attention loss, the two pooled arrays read as 8×256 being what the stretch finds. -/
theorem post_v120 (V : Valuation τ sig (Elt F)) (c6 c7 : FVec F S8x2x1x128 .f32)
    (h7 : V (Proc.devRef .tc main_v7) = flat c6) (h8 : V (Proc.devRef .tc main_v8) = flat c7) :
    after hostOps1_2 V (Proc.devRef .tc main_v120)
      = diffa c6 c7 (V (Proc.devRef .tc main_v6_2)) (V (Proc.devRef .tc main_v6_3)) (V (Proc.devRef .tc main_v6_4)) (V (Proc.devRef .tc main_v6_5)) := by
  after_results_simp
  simp only [h7, h8, diffa, diffLoss, chanLoss, spatialLoss, sigm, attW, amp, wgt, diffMask, optMean]

set_option maxHeartbeats 4000000 in
/-- The total, of the feature loss as the stretch finds it and of the two losses the stretch computes. -/
theorem post_v125 (V : Valuation τ sig (Elt F)) (c6 c7 : FVec F S8x2x1x128 .f32)
    (h7 : V (Proc.devRef .tc main_v7) = flat c6) (h8 : V (Proc.devRef .tc main_v8) = flat c7) :
    after hostOps1_2 V (Proc.devRef .tc main_v125)
      = total (V (Proc.devRef .tc main_v25))
          (addf (klTerm (V (Proc.devRef .tc main_v28)) (softmax (scaled (V (Proc.devRef .tc main_arg3)))))
            (fgTerm (V (Proc.devRef .tc main_v28)) (softmax (scaled (V (Proc.devRef .tc main_arg3))))))
          (diffa c6 c7 (V (Proc.devRef .tc main_v6_2)) (V (Proc.devRef .tc main_v6_3)) (V (Proc.devRef .tc main_v6_4)) (V (Proc.devRef .tc main_v6_5))) := by
  after_results_simp
  simp only [h7, h8, total, klTerm, fgTerm, softmax, scaled, shifted, overClasses, classMax, expSum, class1,
    diffa, diffLoss, chanLoss, spatialLoss, sigm, attW, amp, wgt, diffMask, optMean]

/-! ## The four results of the tail -/

/-- The three lists in a row are the first stretch then the second. -/
theorem after_tail (W : Valuation τ sig (Elt F)) :
    after (List.flatten [hostOps1, hostOps1_1, hostOps1_2]) W = after hostOps1_2 (after hostOps1_1 (after hostOps1 W)) := by
  rw [List.flatten_cons, List.flatten_cons, List.flatten_cons, List.flatten_nil, List.append_nil,
    StableHlo.after_append, StableHlo.after_append]

/-- The feature loss. -/
theorem after_feat (W : Valuation τ sig (Elt F)) :
    after (List.flatten [hostOps1, hostOps1_1, hostOps1_2]) W (Proc.devRef .tc main_v25)
      = feat (W (Proc.devRef .tc main_v6_0)) (W (Proc.devRef .tc main_v6_1)) (W (Proc.devRef .tc main_v6_6)) := by
  rw [after_tail, post_v25, pre_v25]

/-- The output loss. -/
theorem after_outl (W : Valuation τ sig (Elt F)) :
    after (List.flatten [hostOps1, hostOps1_1, hostOps1_2]) W (Proc.devRef .tc main_v56)
      = outl (W (Proc.devRef .tc main_arg2)) (W (Proc.devRef .tc main_arg3)) := by
  rw [after_tail, post_v56, pre_v28, pre_arg3]
  rfl

/-- The difference-attention loss. -/
theorem after_diffa (W : Valuation τ sig (Elt F)) :
    after (List.flatten [hostOps1, hostOps1_1, hostOps1_2]) W (Proc.devRef .tc main_v120)
      = diffa (W (Proc.devRef .tc main_v6_0)) (W (Proc.devRef .tc main_v6_1)) (W (Proc.devRef .tc main_v6_2)) (W (Proc.devRef .tc main_v6_3))
          (W (Proc.devRef .tc main_v6_4)) (W (Proc.devRef .tc main_v6_5)) := by
  rw [after_tail, post_v120 _ _ _ (pre_v7 W) (pre_v8 W), pre_v6_2, pre_v6_3, pre_v6_4, pre_v6_5]

/-- The total of the three losses. -/
theorem after_total (W : Valuation τ sig (Elt F)) :
    after (List.flatten [hostOps1, hostOps1_1, hostOps1_2]) W (Proc.devRef .tc main_v125)
      = total (feat (W (Proc.devRef .tc main_v6_0)) (W (Proc.devRef .tc main_v6_1)) (W (Proc.devRef .tc main_v6_6)))
          (outl (W (Proc.devRef .tc main_arg2)) (W (Proc.devRef .tc main_arg3)))
          (diffa (W (Proc.devRef .tc main_v6_0)) (W (Proc.devRef .tc main_v6_1)) (W (Proc.devRef .tc main_v6_2)) (W (Proc.devRef .tc main_v6_3))
            (W (Proc.devRef .tc main_v6_4)) (W (Proc.devRef .tc main_v6_5))) := by
  rw [after_tail, post_v125 _ _ _ (pre_v7 W) (pre_v8 W), pre_v25, pre_v28, pre_arg3, pre_v6_2, pre_v6_3, pre_v6_4,
    pre_v6_5]
  rfl

end Cert.KernelIdeal.Tail

end
-- ==== Proof.Ideal.KernelRun.lean ====
/- The kernel program's four results from its frame run: the frame post read at the result buffers through the
   structured host tail — each result is the tail's function of the region's seven output arrays, as the region's
   proof data compute them, and of the two logit arrays; the eight argument arrays are unchanged.
   Stated for any float instance. -/
import proofs.«129784_j68891275428342_2_alg».proof.Proof.Ideal.FrameRun
import proofs.«129784_j68891275428342_2_alg».proof.Proof.Ideal.Tail

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The contents at the region's exit -/

/-- Core c's buffer contents when the region is left: its thirteen arrays as the proof data compute them, every
    other buffer as the region found it. -/
abbrev Wx (ds : (p : Fin 1) → (c : Dev nD) → Dat τ (Elt F) Unit ℕ (UR sig nD τ) ℕ (cfgs p) c) (c : Dev nD) : Valuation τ sig (Elt F) :=
  Pipeline.withArrays spec0 c (V0 m c) (fun w => (ds 0 c).arrAt w cfg0.N)

/-- At an array of the region, the exit contents are what the proof data compute. -/
theorem Wx_arr (ds : (p : Fin 1) → (c : Dev nD) → Dat τ (Elt F) Unit ℕ (UR sig nD τ) ℕ (cfgs p) c) (c : Dev nD)
    (w : Fin cfg0.W) : Wx m ds c (Proc.devRef .tc (Pipeline.arrRef spec0 w)) = (ds 0 c).arrAt w cfg0.N :=
  Pipeline.withArrays_arr spec0 launch0.win.arr_inj c _ _ w

/-- At an argument array, the exit contents are the launch contents. -/
theorem Wx_arg (ds : (p : Fin 1) → (c : Dev nD) → Dat τ (Elt F) Unit ℕ (UR sig nD τ) ℕ (cfgs p) c) (c : Dev nD)
    (b : Ref sig .tc) (hb : b ∈ ([main_arg0, main_arg1, main_arg2, main_arg3, main_arg4, main_arg5, main_arg6, main_arg7] : List (Ref sig .tc))) :
    Wx m ds c (Proc.devRef .tc b) = m ((c.tc : Thread nD τ).loc b) := by
  have hne : ∀ w, Pipeline.arrRef spec0 w ≠ b := by
    simp only [List.mem_cons, List.mem_nil_iff, or_false] at hb
    rcases hb with rfl | rfl | rfl | rfl | rfl | rfl | rfl | rfl <;> exact (by decide)
  exact (Pipeline.withArrays_of_ne _ c (V0 m c) _ b hne).trans (V_arg m c b hb)

theorem Wx_v6_0 (ds : (p : Fin 1) → (c : Dev nD) → Dat τ (Elt F) Unit ℕ (UR sig nD τ) ℕ (cfgs p) c) (c : Dev nD) : Wx m ds c (Proc.devRef .tc main_v6_0) = (ds 0 c).arrAt 6 cfg0.N := Wx_arr m ds c 6
theorem Wx_v6_1 (ds : (p : Fin 1) → (c : Dev nD) → Dat τ (Elt F) Unit ℕ (UR sig nD τ) ℕ (cfgs p) c) (c : Dev nD) : Wx m ds c (Proc.devRef .tc main_v6_1) = (ds 0 c).arrAt 7 cfg0.N := Wx_arr m ds c 7
theorem Wx_v6_2 (ds : (p : Fin 1) → (c : Dev nD) → Dat τ (Elt F) Unit ℕ (UR sig nD τ) ℕ (cfgs p) c) (c : Dev nD) : Wx m ds c (Proc.devRef .tc main_v6_2) = (ds 0 c).arrAt 8 cfg0.N := Wx_arr m ds c 8
theorem Wx_v6_3 (ds : (p : Fin 1) → (c : Dev nD) → Dat τ (Elt F) Unit ℕ (UR sig nD τ) ℕ (cfgs p) c) (c : Dev nD) : Wx m ds c (Proc.devRef .tc main_v6_3) = (ds 0 c).arrAt 9 cfg0.N := Wx_arr m ds c 9
theorem Wx_v6_4 (ds : (p : Fin 1) → (c : Dev nD) → Dat τ (Elt F) Unit ℕ (UR sig nD τ) ℕ (cfgs p) c) (c : Dev nD) : Wx m ds c (Proc.devRef .tc main_v6_4) = (ds 0 c).arrAt 10 cfg0.N := Wx_arr m ds c 10
theorem Wx_v6_5 (ds : (p : Fin 1) → (c : Dev nD) → Dat τ (Elt F) Unit ℕ (UR sig nD τ) ℕ (cfgs p) c) (c : Dev nD) : Wx m ds c (Proc.devRef .tc main_v6_5) = (ds 0 c).arrAt 11 cfg0.N := Wx_arr m ds c 11
theorem Wx_v6_6 (ds : (p : Fin 1) → (c : Dev nD) → Dat τ (Elt F) Unit ℕ (UR sig nD τ) ℕ (cfgs p) c) (c : Dev nD) : Wx m ds c (Proc.devRef .tc main_v6_6) = (ds 0 c).arrAt 12 cfg0.N := Wx_arr m ds c 12
theorem Wx_arg2 (ds : (p : Fin 1) → (c : Dev nD) → Dat τ (Elt F) Unit ℕ (UR sig nD τ) ℕ (cfgs p) c) (c : Dev nD) : Wx m ds c (Proc.devRef .tc main_arg2) = m ((c.tc : Thread nD τ).loc main_arg2) := Wx_arg m ds c main_arg2 (by simp)
theorem Wx_arg3 (ds : (p : Fin 1) → (c : Dev nD) → Dat τ (Elt F) Unit ℕ (UR sig nD τ) ℕ (cfgs p) c) (c : Dev nD) : Wx m ds c (Proc.devRef .tc main_arg3) = m ((c.tc : Thread nD τ).loc main_arg3) := Wx_arg m ds c main_arg3 (by simp)

/-! ## The later lines' four results, from the exit contents -/

/-- The total. -/
theorem tail_v125 (ds : (p : Fin 1) → (c : Dev nD) → Dat τ (Elt F) Unit ℕ (UR sig nD τ) ℕ (cfgs p) c) (c : Dev nD) :
    Pipeline.afterTail₀ cfgs ds 0 (V0 m) tailOps c main_v125 = Tail.total (Tail.feat ((ds 0 c).arrAt 6 cfg0.N) ((ds 0 c).arrAt 7 cfg0.N) ((ds 0 c).arrAt 12 cfg0.N)) (Tail.outl (m ((c.tc : Thread nD τ).loc main_arg2)) (m ((c.tc : Thread nD τ).loc main_arg3))) (Tail.diffa ((ds 0 c).arrAt 6 cfg0.N) ((ds 0 c).arrAt 7 cfg0.N) ((ds 0 c).arrAt 8 cfg0.N) ((ds 0 c).arrAt 9 cfg0.N) ((ds 0 c).arrAt 10 cfg0.N) ((ds 0 c).arrAt 11 cfg0.N)) :=
  (Tail.after_total (Wx m ds c)).trans (by
    rw [Wx_v6_0, Wx_v6_1, Wx_v6_2, Wx_v6_3, Wx_v6_4, Wx_v6_5, Wx_v6_6, Wx_arg2, Wx_arg3])

/-- The feature loss. -/
theorem tail_v25 (ds : (p : Fin 1) → (c : Dev nD) → Dat τ (Elt F) Unit ℕ (UR sig nD τ) ℕ (cfgs p) c) (c : Dev nD) :
    Pipeline.afterTail₀ cfgs ds 0 (V0 m) tailOps c main_v25 = Tail.feat ((ds 0 c).arrAt 6 cfg0.N) ((ds 0 c).arrAt 7 cfg0.N) ((ds 0 c).arrAt 12 cfg0.N) :=
  (Tail.after_feat (Wx m ds c)).trans (by rw [Wx_v6_0, Wx_v6_1, Wx_v6_6])

/-- The output loss. -/
theorem tail_v56 (ds : (p : Fin 1) → (c : Dev nD) → Dat τ (Elt F) Unit ℕ (UR sig nD τ) ℕ (cfgs p) c) (c : Dev nD) :
    Pipeline.afterTail₀ cfgs ds 0 (V0 m) tailOps c main_v56 = Tail.outl (m ((c.tc : Thread nD τ).loc main_arg2)) (m ((c.tc : Thread nD τ).loc main_arg3)) :=
  (Tail.after_outl (Wx m ds c)).trans (by rw [Wx_arg2, Wx_arg3])

/-- The difference-attention loss. -/
theorem tail_v120 (ds : (p : Fin 1) → (c : Dev nD) → Dat τ (Elt F) Unit ℕ (UR sig nD τ) ℕ (cfgs p) c) (c : Dev nD) :
    Pipeline.afterTail₀ cfgs ds 0 (V0 m) tailOps c main_v120 = Tail.diffa ((ds 0 c).arrAt 6 cfg0.N) ((ds 0 c).arrAt 7 cfg0.N) ((ds 0 c).arrAt 8 cfg0.N) ((ds 0 c).arrAt 9 cfg0.N) ((ds 0 c).arrAt 10 cfg0.N) ((ds 0 c).arrAt 11 cfg0.N) :=
  (Tail.after_diffa (Wx m ds c)).trans (by rw [Wx_v6_0, Wx_v6_1, Wx_v6_2, Wx_v6_3, Wx_v6_4, Wx_v6_5])

/-! ## The four results -/

/-- For any proof data, a run to the library's frame post read at the four result buffers (each bypasses the region
    and is written by the later lines) and at the eight argument arrays: the results are the tail's structured
    functions of the region's seven output arrays as the proof data compute them and of the two logit arrays. -/
theorem results_of (ds : (p : Fin 1) → (c : Dev nD) → Dat τ (Elt F) Unit ℕ (UR sig nD τ) ℕ (cfgs p) c)
    (h : θ_run defs (onTc (τ := τ) (main (F := F))) (s₀ m ρ) (Pipeline.FramePost cfgs ds 0 (Pipeline.afterTail₀ cfgs ds 0 (V0 m) tailOps))) :
    θ_run defs (onTc (τ := τ) (main (F := F))) ⟨m, fun _ => 0, ρ⟩ (fun r => ∀ c : Dev nD,
      r.2.mem ((c.tc : Thread nD τ).loc main_v125) = Tail.total (Tail.feat ((ds 0 c).arrAt 6 cfg0.N) ((ds 0 c).arrAt 7 cfg0.N) ((ds 0 c).arrAt 12 cfg0.N)) (Tail.outl (m ((c.tc : Thread nD τ).loc main_arg2)) (m ((c.tc : Thread nD τ).loc main_arg3))) (Tail.diffa ((ds 0 c).arrAt 6 cfg0.N) ((ds 0 c).arrAt 7 cfg0.N) ((ds 0 c).arrAt 8 cfg0.N) ((ds 0 c).arrAt 9 cfg0.N) ((ds 0 c).arrAt 10 cfg0.N) ((ds 0 c).arrAt 11 cfg0.N))
      ∧ r.2.mem ((c.tc : Thread nD τ).loc main_v25) = Tail.feat ((ds 0 c).arrAt 6 cfg0.N) ((ds 0 c).arrAt 7 cfg0.N) ((ds 0 c).arrAt 12 cfg0.N)
      ∧ r.2.mem ((c.tc : Thread nD τ).loc main_v56) = Tail.outl (m ((c.tc : Thread nD τ).loc main_arg2)) (m ((c.tc : Thread nD τ).loc main_arg3))
      ∧ r.2.mem ((c.tc : Thread nD τ).loc main_v120) = Tail.diffa ((ds 0 c).arrAt 6 cfg0.N) ((ds 0 c).arrAt 7 cfg0.N) ((ds 0 c).arrAt 8 cfg0.N) ((ds 0 c).arrAt 9 cfg0.N) ((ds 0 c).arrAt 10 cfg0.N) ((ds 0 c).arrAt 11 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨((h c).2 main_v125 (Pipeline.mem_restRefs_of main_v125 (by decide) (by decide))).trans (tail_v125 m ds c),
      ((h c).2 main_v25 (Pipeline.mem_restRefs_of main_v25 (by decide) (by decide))).trans (tail_v25 m ds c),
      ((h c).2 main_v56 (Pipeline.mem_restRefs_of main_v56 (by decide) (by decide))).trans (tail_v56 m ds c),
      ((h c).2 main_v120 (Pipeline.mem_restRefs_of main_v120 (by decide) (by decide))).trans (tail_v120 m ds c),
      ((h c).2 main_arg0 (Pipeline.mem_restRefs_of main_arg0 (by decide) (by decide))).trans (W_arg m ds c main_arg0 (by simp)),
      ((h c).2 main_arg1 (Pipeline.mem_restRefs_of main_arg1 (by decide) (by decide))).trans (W_arg m ds c main_arg1 (by simp)),
      ((h c).2 main_arg2 (Pipeline.mem_restRefs_of main_arg2 (by decide) (by decide))).trans (W_arg m ds c main_arg2 (by simp)),
      ((h c).2 main_arg3 (Pipeline.mem_restRefs_of main_arg3 (by decide) (by decide))).trans (W_arg m ds c main_arg3 (by simp)),
      ((h c).2 main_arg4 (Pipeline.mem_restRefs_of main_arg4 (by decide) (by decide))).trans (W_arg m ds c main_arg4 (by simp)),
      ((h c).2 main_arg5 (Pipeline.mem_restRefs_of main_arg5 (by decide) (by decide))).trans (W_arg m ds c main_arg5 (by simp)),
      ((h c).2 main_arg6 (Pipeline.mem_restRefs_of main_arg6 (by decide) (by decide))).trans (W_arg m ds c main_arg6 (by simp)),
      ((h c).2 main_arg7 (Pipeline.mem_restRefs_of main_arg7 (by decide) (by decide))).trans (W_arg m ds c main_arg7 (by simp))⟩) h

/-- Every weakly fair execution of the program terminates with its four results at the tail's structured functions of
    the region's seven output arrays (as the frame's proof data compute them) and of the two logit arrays, and the
    eight argument arrays as launched. -/
theorem run_results : θ_run defs (onTc (τ := τ) (main (F := F))) ⟨m, fun _ => 0, ρ⟩ (fun r => ∀ c : Dev nD,
      r.2.mem ((c.tc : Thread nD τ).loc main_v125) = Tail.total (Tail.feat ((dats m 0 c).arrAt 6 cfg0.N) ((dats m 0 c).arrAt 7 cfg0.N) ((dats m 0 c).arrAt 12 cfg0.N)) (Tail.outl (m ((c.tc : Thread nD τ).loc main_arg2)) (m ((c.tc : Thread nD τ).loc main_arg3))) (Tail.diffa ((dats m 0 c).arrAt 6 cfg0.N) ((dats m 0 c).arrAt 7 cfg0.N) ((dats m 0 c).arrAt 8 cfg0.N) ((dats m 0 c).arrAt 9 cfg0.N) ((dats m 0 c).arrAt 10 cfg0.N) ((dats m 0 c).arrAt 11 cfg0.N))
      ∧ r.2.mem ((c.tc : Thread nD τ).loc main_v25) = Tail.feat ((dats m 0 c).arrAt 6 cfg0.N) ((dats m 0 c).arrAt 7 cfg0.N) ((dats m 0 c).arrAt 12 cfg0.N)
      ∧ r.2.mem ((c.tc : Thread nD τ).loc main_v56) = Tail.outl (m ((c.tc : Thread nD τ).loc main_arg2)) (m ((c.tc : Thread nD τ).loc main_arg3))
      ∧ r.2.mem ((c.tc : Thread nD τ).loc main_v120) = Tail.diffa ((dats m 0 c).arrAt 6 cfg0.N) ((dats m 0 c).arrAt 7 cfg0.N) ((dats m 0 c).arrAt 8 cfg0.N) ((dats m 0 c).arrAt 9 cfg0.N) ((dats m 0 c).arrAt 10 cfg0.N) ((dats m 0 c).arrAt 11 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  results_of m ρ (dats m) (run_main m ρ)

end Cert.KernelIdeal.Fr

end
-- ==== Proof.Ideal.Reshaped.lean ====
/- What the region finds in the six re-laid input arrays: each is the row-major reshape of its argument array
   (the 64×64 spatial plane as 32×128), as the six host lines before the region compute it. -/
import proofs.«129784_j68891275428342_2_alg».proof.Proof.Ideal.Kit
import Idealize.ShloMosaic.Lib.StableHlo.Run

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem V_main_v0 (c : Dev nD) :
    (V m c main_v0 : S8x256x32x128.Idx → Elt F .f32) = shapeCast S8x256x32x128 (m ((c : Thread nD τ).loc main_arg0)) shapeCasts_S8x256x64x64_S8x256x32x128 := by
  dsimp only [V, V0]
  simp only [hostOps0, List.flatten_cons, List.flatten_nil, List.append_nil]
  after_results
  rfl

theorem V_main_v1 (c : Dev nD) :
    (V m c main_v1 : S8x256x32x128.Idx → Elt F .f32) = shapeCast S8x256x32x128 (m ((c : Thread nD τ).loc main_arg1)) shapeCasts_S8x256x64x64_S8x256x32x128 := by
  dsimp only [V, V0]
  simp only [hostOps0, List.flatten_cons, List.flatten_nil, List.append_nil]
  after_results
  rfl

theorem V_main_v2 (c : Dev nD) :
    (V m c main_v2 : S8x256x32x128.Idx → Elt F .f32) = shapeCast S8x256x32x128 (m ((c : Thread nD τ).loc main_arg4)) shapeCasts_S8x256x64x64_S8x256x32x128 := by
  dsimp only [V, V0]
  simp only [hostOps0, List.flatten_cons, List.flatten_nil, List.append_nil]
  after_results
  rfl

theorem V_main_v3 (c : Dev nD) :
    (V m c main_v3 : S8x256x32x128.Idx → Elt F .f32) = shapeCast S8x256x32x128 (m ((c : Thread nD τ).loc main_arg5)) shapeCasts_S8x256x64x64_S8x256x32x128 := by
  dsimp only [V, V0]
  simp only [hostOps0, List.flatten_cons, List.flatten_nil, List.append_nil]
  after_results
  rfl

theorem V_main_v4 (c : Dev nD) :
    (V m c main_v4 : S8x256x32x128.Idx → Elt F .f32) = shapeCast S8x256x32x128 (m ((c : Thread nD τ).loc main_arg6)) shapeCasts_S8x256x64x64_S8x256x32x128 := by
  dsimp only [V, V0]
  simp only [hostOps0, List.flatten_cons, List.flatten_nil, List.append_nil]
  after_results
  rfl

theorem V_main_v5 (c : Dev nD) :
    (V m c main_v5 : S8x1x32x128.Idx → Elt F .f32) = shapeCast S8x1x32x128 (m ((c : Thread nD τ).loc main_arg7)) shapeCasts_S8x1x64x64_S8x1x32x128 := by
  dsimp only [V, V0]
  simp only [hostOps0, List.flatten_cons, List.flatten_nil, List.append_nil]
  after_results
  rfl

end Cert.KernelIdeal.Fr

end
-- ==== Proof.LibSums.lean ====
/-
  General lemmas on sums, maxima and re-laid arrays at the ideal float instance, where a float is an extended
  real and an array of shape `S` is a function `S.Idx → EReal`. Indices are written by coordinates (`ix1` … `ix4`).

  * a sum (or a maximum) taken by the host over some axes of an array, read at an index as a `Fin`-indexed sum
    (a fold of `max`) over the coordinates on those axes;
  * the same for a vector reduction over one axis;
  * a row-major re-laying of an array (the flat position is preserved) read at an index, and the transport of a
    total sum along any bijection of index sets;
  * the split of a sum or a maximum over `m + n` coordinates into the two blocks;
  * a few identities of extended-real arithmetic: division by a power of two as a product, words of the f32 format
    evaluated, a difference of two scaled reals squared.
-/
import Idealize.ShloMosaic.Lib.ValueIdx
import Idealize.ShloMosaic.Lib.Pipeline.Value
import Idealize.ShloMosaic.PureOps.Ideal.Laws
import Mathlib.Algebra.BigOperators.Fin
import Mathlib.Order.Fin.Basic
import Mathlib.Tactic.Ring
import Mathlib.Tactic.NormNum

noncomputable section

open scoped BigOperators

namespace Idealize.ShloMosaic.LibSums

open Idealize.ShloMosaic Idealize.ShloMosaic.ValueIdx

/-! ## A sum over an index set, by coordinates -/

section ByCoordinates
variable {M : Type*} [AddCommMonoid M]

/-- A rank-1 index set is its one coordinate range … -/
def idxEquiv1 {n0 : Nat} : (⟨1, ![n0]⟩ : Shape).Idx ≃ Fin n0 where
  toFun i := i 0
  invFun a := ix1 a
  left_inv i := (eq_ix1 i).symm
  right_inv _ := rfl
/-- … so a sum over it is the sum over the coordinate. -/
theorem sum_idx1 {n0 : Nat} (f : (⟨1, ![n0]⟩ : Shape).Idx → M) : ∑ i, f i = ∑ a : Fin n0, f (ix1 a) := by
  rw [← Equiv.sum_comp (idxEquiv1 (n0 := n0)).symm f]
  rfl

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl
/-- … so a sum over it is the triple sum over the coordinates. -/
theorem sum_idx3 {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f]
  simp only [Fintype.sum_prod_type]
  rfl

/-- A rank-4 index set is the product of its four coordinate ranges … -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl
/-- … so a sum over it is the fourfold sum over the coordinates. -/
theorem sum_idx4 {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f]
  simp only [Fintype.sum_prod_type]
  rfl

end ByCoordinates

/-! ## The host's float sum, read at an index -/

section HostSum
variable {φ : FTy}

/-- The host's float sum at the ideal instance is the initial value's element plus the exact sum of the operand's
    elements that reduce to the index. -/
theorem hostReduceAdd_apply {s t u : Shape} {axes : List (Fin s.rank)} (x : FVec Ideal s φ) (init : u.Idx → Ideal φ)
    (h' : s.ReducesTo axes t) (hu : 0 < u.numel) (j : t.Idx) :
    Host.reduceAdd x init h' hu j = Ideal.hostReduceAdd h' x (init (Shape.Idx.first hu)) j := rfl

/-- The sum over the operand indices that reduce to `j`, re-indexed: if `lift` lists those indices without
    repetition (`proj` recovers the label of each), the sum runs over the labels. -/
theorem hostReduceAdd_of_lift {s t : Shape} {axes : List (Fin s.rank)} (h' : s.ReducesTo axes t) (x : s.Idx → EReal)
    (init : EReal) (j : t.Idx) {κ : Type} [Fintype κ] (lift : κ → s.Idx) (proj : s.Idx → κ)
    (h1 : ∀ k, h'.drop (lift k) = j) (h2 : ∀ k, proj (lift k) = k) (h3 : ∀ i, h'.drop i = j → lift (proj i) = i) :
    Ideal.hostReduceAdd h' x init j = init + ∑ k, x (lift k) := by
  unfold Ideal.hostReduceAdd
  refine congrArg (init + ·) ?_
  refine Finset.sum_nbij' proj lift ?_ ?_ ?_ ?_ ?_
  · intro i _; exact Finset.mem_univ _
  · intro k _; exact Finset.mem_filter.2 ⟨Finset.mem_univ _, h1 k⟩
  · intro i hi; exact h3 i (Finset.mem_filter.1 hi).2
  · intro k _; exact h2 k
  · intro i hi; rw [h3 i (Finset.mem_filter.1 hi).2]

/-- The total sum of a rank-4 array: a host sum into a result whose axes all have size one (the rank-0 result of a sum
    over every axis: `ht := fun b => b.elim0`) is the initial value plus the sum over the four coordinates. -/
theorem hostSum_all4 {n0 n1 n2 n3 : Nat} {t u : Shape} {axes : List (Fin 4)}
    (x : FVec Ideal ⟨4, ![n0, n1, n2, n3]⟩ φ) (init : u.Idx → Ideal φ)
    (h' : Shape.ReducesTo ⟨4, ![n0, n1, n2, n3]⟩ axes t) (hu : 0 < u.numel) (ht : ∀ b, t.size b = 1) (j : t.Idx) :
    Host.reduceAdd x init h' hu j
      = init (Shape.Idx.first hu) + ∑ a : Fin n0, ∑ b : Fin n1, ∑ c : Fin n2, ∑ d : Fin n3, x (ix4 a b c d) := by
  rw [hostReduceAdd_apply, Ideal.hostReduceAdd_total h' ht, sum_idx4]

/-- The total sum of a rank-3 array. -/
theorem hostSum_all3 {n0 n1 n2 : Nat} {t u : Shape} {axes : List (Fin 3)}
    (x : FVec Ideal ⟨3, ![n0, n1, n2]⟩ φ) (init : u.Idx → Ideal φ)
    (h' : Shape.ReducesTo ⟨3, ![n0, n1, n2]⟩ axes t) (hu : 0 < u.numel) (ht : ∀ b, t.size b = 1) (j : t.Idx) :
    Host.reduceAdd x init h' hu j
      = init (Shape.Idx.first hu) + ∑ a : Fin n0, ∑ b : Fin n1, ∑ c : Fin n2, x (ix3 a b c) := by
  rw [hostReduceAdd_apply, Ideal.hostReduceAdd_total h' ht, sum_idx3]

/-- The total sum of a rank-2 array. -/
theorem hostSum_all2 {n0 n1 : Nat} {t u : Shape} {axes : List (Fin 2)}
    (x : FVec Ideal ⟨2, ![n0, n1]⟩ φ) (init : u.Idx → Ideal φ)
    (h' : Shape.ReducesTo ⟨2, ![n0, n1]⟩ axes t) (hu : 0 < u.numel) (ht : ∀ b, t.size b = 1) (j : t.Idx) :
    Host.reduceAdd x init h' hu j = init (Shape.Idx.first hu) + ∑ a : Fin n0, ∑ b : Fin n1, x (ix2 a b) := by
  rw [hostReduceAdd_apply, Ideal.hostReduceAdd_total h' ht, sum_idx2]

/-- The total sum of a rank-1 array. -/
theorem hostSum_all1 {n0 : Nat} {t u : Shape} {axes : List (Fin 1)}
    (x : FVec Ideal ⟨1, ![n0]⟩ φ) (init : u.Idx → Ideal φ)
    (h' : Shape.ReducesTo ⟨1, ![n0]⟩ axes t) (hu : 0 < u.numel) (ht : ∀ b, t.size b = 1) (j : t.Idx) :
    Host.reduceAdd x init h' hu j = init (Shape.Idx.first hu) + ∑ a : Fin n0, x (ix1 a) := by
  rw [hostReduceAdd_apply, Ideal.hostReduceAdd_total h' ht, sum_idx1]

/-- The sum over axis 1 of a rank-4 array, at `(b, h, w)`: the initial value plus the sum over the coordinate `c` on
    that axis of the operand at `(b, c, h, w)`. -/
theorem hostSum_axis1_of4 {n0 n1 n2 n3 : Nat} {u : Shape}
    (x : FVec Ideal ⟨4, ![n0, n1, n2, n3]⟩ φ) (init : u.Idx → Ideal φ)
    (h' : Shape.ReducesTo ⟨4, ![n0, n1, n2, n3]⟩ [1] ⟨3, ![n0, n2, n3]⟩) (hu : 0 < u.numel)
    (j : (⟨3, ![n0, n2, n3]⟩ : Shape).Idx) :
    Host.reduceAdd x init h' hu j = init (Shape.Idx.first hu) + ∑ c : Fin n1, x (ix4 (j 0) c (j 1) (j 2)) := by
  rw [hostReduceAdd_apply]
  refine hostReduceAdd_of_lift h' x _ j (fun c => ix4 (j 0) c (j 1) (j 2)) (fun i => i 1) ?_ (fun _ => rfl) ?_
  · intro c; funext b
    match b with
    | ⟨0, _⟩ => rfl
    | ⟨1, _⟩ => rfl
    | ⟨2, _⟩ => rfl
  · intro i hi; subst hi; funext a
    match a with
    | ⟨0, _⟩ => rfl
    | ⟨1, _⟩ => rfl
    | ⟨2, _⟩ => rfl
    | ⟨3, _⟩ => rfl

/-- The sum over axes 2 and 3 of a rank-4 array, at `(b, c)`: the initial value plus the double sum over the
    coordinates `(h, w)` on those axes of the operand at `(b, c, h, w)`. -/
theorem hostSum_axes23_of4 {n0 n1 n2 n3 : Nat} {u : Shape}
    (x : FVec Ideal ⟨4, ![n0, n1, n2, n3]⟩ φ) (init : u.Idx → Ideal φ)
    (h' : Shape.ReducesTo ⟨4, ![n0, n1, n2, n3]⟩ [2, 3] ⟨2, ![n0, n1]⟩) (hu : 0 < u.numel)
    (j : (⟨2, ![n0, n1]⟩ : Shape).Idx) :
    Host.reduceAdd x init h' hu j
      = init (Shape.Idx.first hu) + ∑ h : Fin n2, ∑ w : Fin n3, x (ix4 (j 0) (j 1) h w) := by
  rw [hostReduceAdd_apply, ← Fintype.sum_prod_type (f := fun p : Fin n2 × Fin n3 => x (ix4 (j 0) (j 1) p.1 p.2))]
  refine hostReduceAdd_of_lift h' x _ j (fun p : Fin n2 × Fin n3 => ix4 (j 0) (j 1) p.1 p.2) (fun i => (i 2, i 3)) ?_
    (fun _ => rfl) ?_
  · intro p; funext b
    match b with
    | ⟨0, _⟩ => rfl
    | ⟨1, _⟩ => rfl
  · intro i hi; subst hi; funext a
    match a with
    | ⟨0, _⟩ => rfl
    | ⟨1, _⟩ => rfl
    | ⟨2, _⟩ => rfl
    | ⟨3, _⟩ => rfl

end HostSum

/-! ## The host's float maximum over one axis, read at an index -/

section HostMax
variable {φ : FTy}

/-- The fold of a commutative and associative operation over the operand indices that reduce to `j`, re-indexed: if
    `lift` lists those indices without repetition (`proj` recovers the label of each), the fold runs over the labels. -/
theorem fold_filter_drop_of_lift {α : Type} {s t : Shape} {axes : List (Fin s.rank)} (h' : s.ReducesTo axes t)
    (op : α → α → α) [Std.Commutative op] [Std.Associative op] (init : α) (x : s.Idx → α) (j : t.Idx)
    {κ : Type} [Fintype κ] (lift : κ → s.Idx) (proj : s.Idx → κ)
    (h1 : ∀ k, h'.drop (lift k) = j) (h2 : ∀ k, proj (lift k) = k) (h3 : ∀ i, h'.drop i = j → lift (proj i) = i) :
    (Finset.univ.filter fun i => h'.drop i = j).fold op init x
      = (Finset.univ : Finset κ).fold op init (fun k => x (lift k)) := by
  classical
  have himg : (Finset.univ.filter fun i => h'.drop i = j) = Finset.univ.image lift := by
    ext i
    simp only [Finset.mem_filter, Finset.mem_univ, true_and, Finset.mem_image]
    exact ⟨fun hi => ⟨proj i, h3 i hi⟩, fun ⟨k, hk⟩ => by rw [← hk]; exact h1 k⟩
  rw [himg, Finset.fold_image (fun k _ k' _ e => by rw [← h2 k, ← h2 k', e])]
  rfl

/-- The host's maximum over axis 1 of a rank-4 array, at `(b, h, w)`: the fold of `max`, from the initial value's
    element, over the coordinate `c` on that axis of the operand at `(b, c, h, w)`. -/
theorem hostMax_axis1_of4_fold {n0 n1 n2 n3 : Nat} {u : Shape}
    (x : FVec Ideal ⟨4, ![n0, n1, n2, n3]⟩ φ) (init : u.Idx → Ideal φ)
    (h' : Shape.ReducesTo ⟨4, ![n0, n1, n2, n3]⟩ [1] ⟨3, ![n0, n2, n3]⟩) (hu : 0 < u.numel)
    (j : (⟨3, ![n0, n2, n3]⟩ : Shape).Idx) :
    Host.reduce (FloatOps.maximumf (F := Ideal) (φ := φ)) x init h' hu j
      = (Finset.univ : Finset (Fin n1)).fold max (init (Shape.Idx.first hu)) (fun c => x (ix4 (j 0) c (j 1) (j 2))) := by
  rw [Host.reduce_eq_fold]
  refine fold_filter_drop_of_lift h' _ _ x j (fun c => ix4 (j 0) c (j 1) (j 2)) (fun i => i 1) ?_ (fun _ => rfl) ?_
  · intro c; funext b
    match b with
    | ⟨0, _⟩ => rfl
    | ⟨1, _⟩ => rfl
    | ⟨2, _⟩ => rfl
  · intro i hi; subst hi; funext a
    match a with
    | ⟨0, _⟩ => rfl
    | ⟨1, _⟩ => rfl
    | ⟨2, _⟩ => rfl
    | ⟨3, _⟩ => rfl

/-- A fold of `max` from the least element is the supremum of the family. -/
theorem fold_max_bot {κ : Type} (S : Finset κ) (f : κ → EReal) : S.fold max ⊥ f = S.sup f := rfl

/-- A fold of `max` from any start is the maximum of the start and the supremum of the family. -/
theorem fold_max_eq_sup {κ : Type} (S : Finset κ) (b : EReal) (f : κ → EReal) : S.fold max b f = max b (S.sup f) := by
  classical
  induction S using Finset.induction_on with
  | empty => simp
  | insert a S ha ih => rw [Finset.fold_insert ha, ih, Finset.sup_insert]; exact max_left_comm _ _ _

/-- So, from the initial value `-∞`, the host's maximum over axis 1 is the supremum over the coordinate on that axis. -/
theorem hostMax_axis1_of4 {n0 n1 n2 n3 : Nat} {u : Shape}
    (x : FVec Ideal ⟨4, ![n0, n1, n2, n3]⟩ φ) (init : u.Idx → Ideal φ)
    (h' : Shape.ReducesTo ⟨4, ![n0, n1, n2, n3]⟩ [1] ⟨3, ![n0, n2, n3]⟩) (hu : 0 < u.numel)
    (hinit : init (Shape.Idx.first hu) = ⊥) (j : (⟨3, ![n0, n2, n3]⟩ : Shape).Idx) :
    Host.reduce (FloatOps.maximumf (F := Ideal) (φ := φ)) x init h' hu j
      = (Finset.univ : Finset (Fin n1)).sup (fun c => x (ix4 (j 0) c (j 1) (j 2))) := by
  rw [hostMax_axis1_of4_fold, hinit, fold_max_bot]

end HostMax

/-! ## The same readings at an index written by coordinates -/

section AtCoordinates
variable {φ : FTy}

/-- The host's sum over axis 1 of a rank-4 array at `(r, s, w)`. -/
theorem hostSum_axis1_of4_ix {n0 n1 n2 n3 : Nat} {u : Shape}
    (x : FVec Ideal ⟨4, ![n0, n1, n2, n3]⟩ φ) (init : u.Idx → Ideal φ)
    (h' : Shape.ReducesTo ⟨4, ![n0, n1, n2, n3]⟩ [1] ⟨3, ![n0, n2, n3]⟩) (hu : 0 < u.numel)
    (r : Fin n0) (s : Fin n2) (w : Fin n3) :
    Host.reduceAdd x init h' hu (ix3 r s w) = init (Shape.Idx.first hu) + ∑ c : Fin n1, x (ix4 r c s w) :=
  hostSum_axis1_of4 x init h' hu (ix3 r s w)

/-- The host's sum over axes 2 and 3 of a rank-4 array at `(r, c)`. -/
theorem hostSum_axes23_of4_ix {n0 n1 n2 n3 : Nat} {u : Shape}
    (x : FVec Ideal ⟨4, ![n0, n1, n2, n3]⟩ φ) (init : u.Idx → Ideal φ)
    (h' : Shape.ReducesTo ⟨4, ![n0, n1, n2, n3]⟩ [2, 3] ⟨2, ![n0, n1]⟩) (hu : 0 < u.numel)
    (r : Fin n0) (c : Fin n1) :
    Host.reduceAdd x init h' hu (ix2 r c)
      = init (Shape.Idx.first hu) + ∑ s : Fin n2, ∑ w : Fin n3, x (ix4 r c s w) :=
  hostSum_axes23_of4 x init h' hu (ix2 r c)

/-- The host's maximum over axis 1 of a rank-4 array, from `-∞`, at `(r, s, w)`. -/
theorem hostMax_axis1_of4_ix {n0 n1 n2 n3 : Nat} {u : Shape}
    (x : FVec Ideal ⟨4, ![n0, n1, n2, n3]⟩ φ) (init : u.Idx → Ideal φ)
    (h' : Shape.ReducesTo ⟨4, ![n0, n1, n2, n3]⟩ [1] ⟨3, ![n0, n2, n3]⟩) (hu : 0 < u.numel)
    (hinit : init (Shape.Idx.first hu) = ⊥) (r : Fin n0) (s : Fin n2) (w : Fin n3) :
    Host.reduce (FloatOps.maximumf (F := Ideal) (φ := φ)) x init h' hu (ix3 r s w)
      = (Finset.univ : Finset (Fin n1)).sup (fun c => x (ix4 r c s w)) :=
  hostMax_axis1_of4 x init h' hu hinit (ix3 r s w)

end AtCoordinates

/-! ## A sum or a maximum over `m + n` coordinates, split into the two blocks -/

section Split

/-- A sum over `N = m + n` coordinates is the sum over the first `m` plus the sum over the last `n`. -/
theorem sum_split {M : Type*} [AddCommMonoid M] {N : Nat} (m n : Nat) (hN : N = m + n) (f : Fin N → M) :
    ∑ c : Fin N, f c
      = ∑ c : Fin m, f ⟨c.val, by omega⟩ + ∑ c : Fin n, f ⟨m + c.val, by omega⟩ := by
  subst hN
  exact Fin.sum_univ_add f

/-- A sum over 256 coordinates is the sum over the first 128 plus the sum over the last 128. -/
theorem sum_split_256 {M : Type*} [AddCommMonoid M] (f : Fin 256 → M) :
    ∑ c : Fin 256, f c = ∑ c : Fin 128, f ⟨c.val, by omega⟩ + ∑ c : Fin 128, f ⟨128 + c.val, by omega⟩ :=
  sum_split 128 128 rfl f

/-- A supremum over `N = m + n` coordinates is the maximum of the supremum over the first `m` and the supremum over
    the last `n`. -/
theorem sup_split {N : Nat} (m n : Nat) (hN : N = m + n) (f : Fin N → EReal) :
    (Finset.univ : Finset (Fin N)).sup f
      = max ((Finset.univ : Finset (Fin m)).sup fun c => f ⟨c.val, by omega⟩)
          ((Finset.univ : Finset (Fin n)).sup fun c => f ⟨m + c.val, by omega⟩) := by
  apply le_antisymm
  · refine Finset.sup_le fun c _ => ?_
    by_cases hc : c.val < m
    · exact le_max_of_le_left
        (Finset.le_sup (f := fun c : Fin m => f ⟨c.val, by omega⟩) (Finset.mem_univ (⟨c.val, hc⟩ : Fin m)))
    · have hlt : c.val - m < n := by have := c.isLt; omega
      have hle := Finset.le_sup (f := fun c : Fin n => f ⟨m + c.val, by omega⟩) (Finset.mem_univ (⟨c.val - m, hlt⟩ : Fin n))
      have hcc : (⟨m + (c.val - m), by omega⟩ : Fin N) = c := Fin.ext (by show m + (c.val - m) = c.val; omega)
      simp only [hcc] at hle
      exact le_max_of_le_right hle
  · exact max_le (Finset.sup_le fun c _ => Finset.le_sup (Finset.mem_univ _))
      (Finset.sup_le fun c _ => Finset.le_sup (Finset.mem_univ _))

/-- A supremum over 256 coordinates is the maximum of the suprema over the first and the last 128. -/
theorem sup_split_256 (f : Fin 256 → EReal) :
    (Finset.univ : Finset (Fin 256)).sup f
      = max ((Finset.univ : Finset (Fin 128)).sup fun c => f ⟨c.val, by omega⟩)
          ((Finset.univ : Finset (Fin 128)).sup fun c => f ⟨128 + c.val, by omega⟩) :=
  sup_split 128 128 rfl f

/-- Starting a running maximum from `-∞` changes nothing. -/
theorem max_max_bot (a b : EReal) : max (max ⊥ a) b = max a b := by rw [max_eq_right (bot_le : (⊥ : EReal) ≤ a)]

/-- The maximum of `-∞` and `a` is `a`. -/
theorem max_bot_left (a : EReal) : max ⊥ a = a := max_eq_right bot_le

/-- Starting a running sum from `0` changes nothing. -/
theorem zero_add_ereal (a : EReal) : 0 + a = a := zero_add a

end Split

/-! ## A row-major re-laying of an array: the flat position is preserved -/

section Relay

/-- The flat position of `(p, q)` in an `a' × b'` grid is below `a' * b'`. -/
theorem flat_lt {a' b' : Nat} (p : Fin a') (q : Fin b') : p.val * b' + q.val < a' * b' := by
  have h1 : p.val * b' + q.val < p.val * b' + b' := Nat.add_lt_add_left q.isLt _
  have h2 : p.val * b' + b' = (p.val + 1) * b' := by rw [Nat.add_mul, Nat.one_mul]
  have h3 : (p.val + 1) * b' ≤ a' * b' := Nat.mul_le_mul_right _ p.isLt
  omega

/-- The row of the flat position `p * b' + q` in a grid of row length `b'` is `p`. -/
theorem flat_div {a' b' : Nat} (p : Fin a') (q : Fin b') : (p.val * b' + q.val) / b' = p.val := by
  have hb : 0 < b' := Nat.lt_of_le_of_lt (Nat.zero_le _) q.isLt
  rw [Nat.add_comm, Nat.add_mul_div_right _ _ hb, Nat.div_eq_of_lt q.isLt, Nat.zero_add]

/-- The column of the flat position `p * b' + q` in a grid of row length `b'` is `q`. -/
theorem flat_mod {a' b' : Nat} (p : Fin a') (q : Fin b') : (p.val * b' + q.val) % b' = q.val := by
  rw [Nat.add_comm, Nat.add_mul_mod_self_right, Nat.mod_eq_of_lt q.isLt]

/-- A grid with an element has a positive row length. -/
theorem pos_of_lt_mul {a b k : Nat} (hk : k < a * b) : 0 < b := by
  rcases Nat.eq_zero_or_pos b with h | h
  · subst h; simp at hk
  · exact h

/-- The row, in the `a × b` grid, of the element at `(p, q)` of an `a' × b'` grid with as many elements: the two have
    the same flat position. -/
def relayRow {a b a' b' : Nat} (hab : a * b = a' * b') (p : Fin a') (q : Fin b') : Fin a :=
  ⟨(p.val * b' + q.val) / b, Nat.div_lt_of_lt_mul (by have h := flat_lt p q; rw [← hab, Nat.mul_comm a b] at h; exact h)⟩

/-- The column, in the `a × b` grid, of the element at `(p, q)` of an `a' × b'` grid with as many elements. -/
def relayCol {a b a' b' : Nat} (hab : a * b = a' * b') (p : Fin a') (q : Fin b') : Fin b :=
  ⟨(p.val * b' + q.val) % b, Nat.mod_lt _ (pos_of_lt_mul (hab ▸ flat_lt p q))⟩

theorem relayRow_val {a b a' b' : Nat} (hab : a * b = a' * b') (p : Fin a') (q : Fin b') :
    (relayRow hab p q).val = (p.val * b' + q.val) / b := rfl

theorem relayCol_val {a b a' b' : Nat} (hab : a * b = a' * b') (p : Fin a') (q : Fin b') :
    (relayCol hab p q).val = (p.val * b' + q.val) % b := rfl

/-- The re-laid element has the same flat position. -/
theorem relay_flat {a b a' b' : Nat} (hab : a * b = a' * b') (p : Fin a') (q : Fin b') :
    (relayRow hab p q).val * b + (relayCol hab p q).val = p.val * b' + q.val :=
  Nat.div_add_mod' _ _

/-- Re-laying back gives the row again … -/
theorem relayRow_relay {a b a' b' : Nat} (hab : a * b = a' * b') (p : Fin a') (q : Fin b') :
    relayRow hab.symm (relayRow hab p q) (relayCol hab p q) = p :=
  Fin.ext (by rw [relayRow_val, relay_flat, flat_div])

/-- … and the column. -/
theorem relayCol_relay {a b a' b' : Nat} (hab : a * b = a' * b') (p : Fin a') (q : Fin b') :
    relayCol hab.symm (relayRow hab p q) (relayCol hab p q) = q :=
  Fin.ext (by rw [relayCol_val, relay_flat, flat_mod])

/-- Two grids with as many elements correspond by flat position. -/
def relayEquiv {a b a' b' : Nat} (hab : a * b = a' * b') : Fin a' × Fin b' ≃ Fin a × Fin b where
  toFun pq := (relayRow hab pq.1 pq.2, relayCol hab pq.1 pq.2)
  invFun rs := (relayRow hab.symm rs.1 rs.2, relayCol hab.symm rs.1 rs.2)
  left_inv pq := Prod.ext (relayRow_relay hab pq.1 pq.2) (relayCol_relay hab pq.1 pq.2)
  right_inv rs := Prod.ext (relayRow_relay hab.symm rs.1 rs.2) (relayCol_relay hab.symm rs.1 rs.2)

/-- THE SUM TRANSPORT over two grids with as many elements: summing over `(p, q)` the term at the re-laid position is
    summing over every `(r, s)`. At `a = b = 64`, `a' = 32`, `b' = 128`:
    `∑ p : Fin 32, ∑ q : Fin 128, F ((p·128+q)/64) ((p·128+q)%64) = ∑ r : Fin 64, ∑ s : Fin 64, F r s`. -/
theorem sum_relay {M : Type*} [AddCommMonoid M] {a b a' b' : Nat} (hab : a * b = a' * b') (F : Fin a → Fin b → M) :
    ∑ p : Fin a', ∑ q : Fin b', F (relayRow hab p q) (relayCol hab p q) = ∑ r : Fin a, ∑ s : Fin b, F r s :=
  (Fintype.sum_prod_type' (fun p q => F (relayRow hab p q) (relayCol hab p q))).symm.trans
    ((Fintype.sum_equiv (relayEquiv hab) (fun pq => F (relayRow hab pq.1 pq.2) (relayCol hab pq.1 pq.2))
      (fun rs => F rs.1 rs.2) (fun _ => rfl)).trans (Fintype.sum_prod_type' F))

/-- The same transport for a term given as a function of the flat position:
    `∑ p q, g (p·b' + q) = ∑ r s, g (r·b + s)`. -/
theorem sum_flat_relay {M : Type*} [AddCommMonoid M] {a b a' b' : Nat} (hab : a * b = a' * b') (g : Nat → M) :
    ∑ p : Fin a', ∑ q : Fin b', g (p.val * b' + q.val) = ∑ r : Fin a, ∑ s : Fin b, g (r.val * b + s.val) := by
  rw [← sum_relay hab (fun r s => g (r.val * b + s.val))]
  exact Finset.sum_congr rfl fun p _ => Finset.sum_congr rfl fun q _ => congrArg g (relay_flat hab p q).symm

/-- The total sum is carried along any bijection of index sets: if `y` reads `x` through `e`, their sums agree. -/
theorem sum_eq_of_equiv {ι κ M : Type*} [Fintype ι] [Fintype κ] [AddCommMonoid M] (e : ι ≃ κ) (y : ι → M) (x : κ → M)
    (h : ∀ i, y i = x (e i)) : ∑ i, y i = ∑ k, x k :=
  Fintype.sum_equiv e y x h

/-- A re-laid array has the same total sum. -/
theorem sum_shapeCast {M : Type} [AddCommMonoid M] {s t : Shape} (x : s.Idx → M) (h : s.ShapeCasts t) :
    ∑ j, shapeCast t x h j = ∑ i, x i :=
  Fintype.sum_equiv (Shape.reshapeEquiv h) _ _ (fun _ => rfl)

variable {α : Type}

/-- A rank-4 array whose two inner axes `a × b` are re-laid as `a' × b'` (as many elements) reads, at `(i0, i1, p, q)`,
    the operand at `(i0, i1)` and the inner position with the same flat position: `[8,256,64,64]` as `[8,256,32,128]`
    at `(b, c, p, q)` is the operand at `(b, c, (p·128+q)/64, (p·128+q)%64)`, and the other way round. -/
theorem shapeCast4_inner_apply {n0 n1 a b a' b' : Nat} (hab : a * b = a' * b')
    (x : (⟨4, ![n0, n1, a, b]⟩ : Shape).Idx → α)
    (h : (⟨4, ![n0, n1, a, b]⟩ : Shape).ShapeCasts ⟨4, ![n0, n1, a', b']⟩)
    (i0 : Fin n0) (i1 : Fin n1) (p : Fin a') (q : Fin b') :
    shapeCast ⟨4, ![n0, n1, a', b']⟩ x h (ix4 i0 i1 p q) = x (ix4 i0 i1 (relayRow hab p q) (relayCol hab p q)) :=
  shapeCast_apply x h _ _ (by
    rw [Shape.rowMajor_val_four, Shape.rowMajor_val_four]
    show ((i0.val * n1 + i1.val) * a + (relayRow hab p q).val) * b + (relayCol hab p q).val
        = ((i0.val * n1 + i1.val) * a' + p.val) * b' + q.val
    have hf := relay_flat hab p q
    calc ((i0.val * n1 + i1.val) * a + (relayRow hab p q).val) * b + (relayCol hab p q).val
        = (i0.val * n1 + i1.val) * (a * b) + ((relayRow hab p q).val * b + (relayCol hab p q).val) := by ring
      _ = (i0.val * n1 + i1.val) * (a' * b') + (p.val * b' + q.val) := by rw [hab, hf]
      _ = ((i0.val * n1 + i1.val) * a' + p.val) * b' + q.val := by ring)

/-- A rank-4 array `[n0, 1, a, b]` re-laid as the rank-3 array `[n0, a', b']` (as many inner elements) reads, at
    `(i0, p, q)`, the operand at `(i0, 0)` and the inner position with the same flat position. -/
theorem shapeCast_n1ab_nab_apply {n0 a b a' b' : Nat} (hab : a * b = a' * b')
    (x : (⟨4, ![n0, 1, a, b]⟩ : Shape).Idx → α)
    (h : (⟨4, ![n0, 1, a, b]⟩ : Shape).ShapeCasts ⟨3, ![n0, a', b']⟩)
    (i0 : Fin n0) (p : Fin a') (q : Fin b') :
    shapeCast ⟨3, ![n0, a', b']⟩ x h (ix3 i0 p q)
      = x (ix4 i0 (0 : Fin 1) (relayRow hab p q) (relayCol hab p q)) :=
  shapeCast_apply x h _ _ (by
    rw [Shape.rowMajor_val_four, Shape.rowMajor_val_three]
    show ((i0.val * 1 + 0) * a + (relayRow hab p q).val) * b + (relayCol hab p q).val
        = (i0.val * a' + p.val) * b' + q.val
    have hf := relay_flat hab p q
    calc ((i0.val * 1 + 0) * a + (relayRow hab p q).val) * b + (relayCol hab p q).val
        = i0.val * (a * b) + ((relayRow hab p q).val * b + (relayCol hab p q).val) := by ring
      _ = i0.val * (a' * b') + (p.val * b' + q.val) := by rw [hab, hf]
      _ = (i0.val * a' + p.val) * b' + q.val := by ring)

/-- A rank-3 array `[n0, a, b]` re-laid as the rank-4 array `[n0, 1, a', b']` (as many inner elements) reads, at
    `(i0, u, p, q)`, the operand at `i0` and the inner position with the same flat position. -/
theorem shapeCast_nab_n1ab_apply {n0 a b a' b' : Nat} (hab : a * b = a' * b')
    (x : (⟨3, ![n0, a, b]⟩ : Shape).Idx → α)
    (h : (⟨3, ![n0, a, b]⟩ : Shape).ShapeCasts ⟨4, ![n0, 1, a', b']⟩)
    (i0 : Fin n0) (u : Fin 1) (p : Fin a') (q : Fin b') :
    shapeCast ⟨4, ![n0, 1, a', b']⟩ x h (ix4 i0 u p q) = x (ix3 i0 (relayRow hab p q) (relayCol hab p q)) :=
  shapeCast_apply x h _ _ (by
    have hu : u.val = 0 := by omega
    rw [Shape.rowMajor_val_four, Shape.rowMajor_val_three]
    show (i0.val * a + (relayRow hab p q).val) * b + (relayCol hab p q).val
        = ((i0.val * 1 + u.val) * a' + p.val) * b' + q.val
    have hf := relay_flat hab p q
    rw [hu]
    calc (i0.val * a + (relayRow hab p q).val) * b + (relayCol hab p q).val
        = i0.val * (a * b) + ((relayRow hab p q).val * b + (relayCol hab p q).val) := by ring
      _ = i0.val * (a' * b') + (p.val * b' + q.val) := by rw [hab, hf]
      _ = ((i0.val * 1 + 0) * a' + p.val) * b' + q.val := by ring)

/-- A rank-4 array `[n0, m, 1, n]` flattened to `[n0, N]` with `N = m * n` reads, at `(i0, k)`, the operand at
    `(i0, k / n, 0, k % n)`: `[8,2,1,128]` as `[8,256]` at `(b, c)` is the operand at `(b, c / 128, 0, c % 128)`. -/
theorem shapeCast_nm1k_nN_apply {n0 m n N : Nat} (hN : N = m * n)
    (x : (⟨4, ![n0, m, 1, n]⟩ : Shape).Idx → α)
    (h : (⟨4, ![n0, m, 1, n]⟩ : Shape).ShapeCasts ⟨2, ![n0, N]⟩)
    (i0 : Fin n0) (k : Fin N) :
    shapeCast ⟨2, ![n0, N]⟩ x h (ix2 i0 k)
      = x (ix4 i0 ⟨k.val / n, Nat.div_lt_of_lt_mul (by rw [Nat.mul_comm, ← hN]; exact k.isLt)⟩ (0 : Fin 1)
          ⟨k.val % n, Nat.mod_lt _ (pos_of_lt_mul (a := m) (by rw [← hN]; exact k.isLt))⟩) :=
  shapeCast_apply x h _ _ (by
    rw [Shape.rowMajor_val_four, Shape.rowMajor_val_two]
    show ((i0.val * m + k.val / n) * 1 + 0) * n + k.val % n = i0.val * N + k.val
    have hf : k.val / n * n + k.val % n = k.val := Nat.div_add_mod' _ _
    calc ((i0.val * m + k.val / n) * 1 + 0) * n + k.val % n
        = i0.val * (m * n) + (k.val / n * n + k.val % n) := by ring
      _ = i0.val * N + k.val := by rw [hf, ← hN])

end Relay

/-! ## A vector reduction over one axis, read at an index -/

section VectorReduce

/-- A vector sum over axis 0 of a rank-3 vector, at `(r, c)`: the sum over the coordinate `k` on that axis of the
    source at `(k, r, c)`. The accumulator's fact is typed as the printed program's proof of it is. -/
theorem vecSum_axis0_of3 {n0 n1 n2 : Nat} (x : FVec Ideal ⟨3, ![n0, n1, n2]⟩ .f32)
    (h : Shape.Reduces ⟨3, ![n0, n1, n2]⟩ [0] ⟨2, ![n1, n2]⟩) (hφ : FKind.Formats .f32)
    (hacc : (0x00000000#32 : BitVec 32) = 0x00000000#32) (j : (⟨2, ![n1, n2]⟩ : Shape).Idx) :
    multiReduction .add [0] ⟨2, ![n1, n2]⟩ x 0x00000000#32 h hφ hacc j = ∑ k : Fin n0, x (ix3 k (j 0) (j 1)) :=
  (Ideal.multiReduction_add_single x 0x00000000#32 h hφ hacc j).trans
    (Finset.sum_congr rfl fun k _ => congrArg x (funext fun a => Fin.ext (by
      match a with
      | ⟨0, _⟩ => rfl
      | ⟨1, _⟩ => rfl
      | ⟨2, _⟩ => rfl)))

/-- The same at an index written by coordinates. -/
theorem vecSum_axis0_of3_ix {n0 n1 n2 : Nat} (x : FVec Ideal ⟨3, ![n0, n1, n2]⟩ .f32)
    (h : Shape.Reduces ⟨3, ![n0, n1, n2]⟩ [0] ⟨2, ![n1, n2]⟩) (hφ : FKind.Formats .f32)
    (hacc : (0x00000000#32 : BitVec 32) = 0x00000000#32) (r : Fin n1) (c : Fin n2) :
    multiReduction .add [0] ⟨2, ![n1, n2]⟩ x 0x00000000#32 h hφ hacc (ix2 r c) = ∑ k : Fin n0, x (ix3 k r c) :=
  vecSum_axis0_of3 x h hφ hacc (ix2 r c)

/-- A vector sum over axis 2 of a rank-3 vector, at `(r, c)`: the sum over `k` of the source at `(r, c, k)`. -/
theorem vecSum_axis2_of3 {n0 n1 n2 : Nat} (x : FVec Ideal ⟨3, ![n0, n1, n2]⟩ .f32)
    (h : Shape.Reduces ⟨3, ![n0, n1, n2]⟩ [2] ⟨2, ![n0, n1]⟩) (hφ : FKind.Formats .f32)
    (hacc : (0x00000000#32 : BitVec 32) = 0x00000000#32) (j : (⟨2, ![n0, n1]⟩ : Shape).Idx) :
    multiReduction .add [2] ⟨2, ![n0, n1]⟩ x 0x00000000#32 h hφ hacc j = ∑ k : Fin n2, x (ix3 (j 0) (j 1) k) :=
  (Ideal.multiReduction_add_single x 0x00000000#32 h hφ hacc j).trans
    (Finset.sum_congr rfl fun k _ => congrArg x (funext fun a => Fin.ext (by
      match a with
      | ⟨0, _⟩ => rfl
      | ⟨1, _⟩ => rfl
      | ⟨2, _⟩ => rfl)))

/-- The same at an index written by coordinates. -/
theorem vecSum_axis2_of3_ix {n0 n1 n2 : Nat} (x : FVec Ideal ⟨3, ![n0, n1, n2]⟩ .f32)
    (h : Shape.Reduces ⟨3, ![n0, n1, n2]⟩ [2] ⟨2, ![n0, n1]⟩) (hφ : FKind.Formats .f32)
    (hacc : (0x00000000#32 : BitVec 32) = 0x00000000#32) (r : Fin n0) (c : Fin n1) :
    multiReduction .add [2] ⟨2, ![n0, n1]⟩ x 0x00000000#32 h hφ hacc (ix2 r c) = ∑ k : Fin n2, x (ix3 r c k) :=
  vecSum_axis2_of3 x h hφ hacc (ix2 r c)

/-- A vector sum over axis 1 of a rank-2 vector, at `r`: the sum over `k` of the source at `(r, k)`. -/
theorem vecSum_axis1_of2 {n0 n1 : Nat} (x : FVec Ideal ⟨2, ![n0, n1]⟩ .f32)
    (h : Shape.Reduces ⟨2, ![n0, n1]⟩ [1] ⟨1, ![n0]⟩) (hφ : FKind.Formats .f32)
    (hacc : (0x00000000#32 : BitVec 32) = 0x00000000#32) (j : (⟨1, ![n0]⟩ : Shape).Idx) :
    multiReduction .add [1] ⟨1, ![n0]⟩ x 0x00000000#32 h hφ hacc j = ∑ k : Fin n1, x (ix2 (j 0) k) :=
  (Ideal.multiReduction_add_single x 0x00000000#32 h hφ hacc j).trans
    (Finset.sum_congr rfl fun k _ => congrArg x (funext fun a => Fin.ext (by
      match a with
      | ⟨0, _⟩ => rfl
      | ⟨1, _⟩ => rfl)))

/-- The same at an index written by its coordinate. -/
theorem vecSum_axis1_of2_ix {n0 n1 : Nat} (x : FVec Ideal ⟨2, ![n0, n1]⟩ .f32)
    (h : Shape.Reduces ⟨2, ![n0, n1]⟩ [1] ⟨1, ![n0]⟩) (hφ : FKind.Formats .f32)
    (hacc : (0x00000000#32 : BitVec 32) = 0x00000000#32) (r : Fin n0) :
    multiReduction .add [1] ⟨1, ![n0]⟩ x 0x00000000#32 h hφ hacc (ix1 r) = ∑ k : Fin n1, x (ix2 r k) :=
  vecSum_axis1_of2 x h hφ hacc (ix1 r)

/-- A vector sum over axis 0 of a rank-2 vector, at `c`: the sum over `k` of the source at `(k, c)`. -/
theorem vecSum_axis0_of2 {n0 n1 : Nat} (x : FVec Ideal ⟨2, ![n0, n1]⟩ .f32)
    (h : Shape.Reduces ⟨2, ![n0, n1]⟩ [0] ⟨1, ![n1]⟩) (hφ : FKind.Formats .f32)
    (hacc : (0x00000000#32 : BitVec 32) = 0x00000000#32) (j : (⟨1, ![n1]⟩ : Shape).Idx) :
    multiReduction .add [0] ⟨1, ![n1]⟩ x 0x00000000#32 h hφ hacc j = ∑ k : Fin n0, x (ix2 k (j 0)) :=
  (Ideal.multiReduction_add_single x 0x00000000#32 h hφ hacc j).trans
    (Finset.sum_congr rfl fun k _ => congrArg x (funext fun a => Fin.ext (by
      match a with
      | ⟨0, _⟩ => rfl
      | ⟨1, _⟩ => rfl)))

/-- The same at an index written by its coordinate. -/
theorem vecSum_axis0_of2_ix {n0 n1 : Nat} (x : FVec Ideal ⟨2, ![n0, n1]⟩ .f32)
    (h : Shape.Reduces ⟨2, ![n0, n1]⟩ [0] ⟨1, ![n1]⟩) (hφ : FKind.Formats .f32)
    (hacc : (0x00000000#32 : BitVec 32) = 0x00000000#32) (c : Fin n1) :
    multiReduction .add [0] ⟨1, ![n1]⟩ x 0x00000000#32 h hφ hacc (ix1 c) = ∑ k : Fin n0, x (ix2 k c) :=
  vecSum_axis0_of2 x h hφ hacc (ix1 c)

/-- The f32 word of `-∞` is the least extended real. -/
theorem ofBits_neg_inf_f32 : Ideal.ofBits .f32 0xFF800000#32 = ⊥ := by
  simp [Ideal.ofBits, Ideal.ieee]

/-- A vector maximum over axis 0 of a rank-3 vector from the accumulator `-∞`, at `(r, c)`: the supremum over the
    coordinate `k` on that axis of the source at `(k, r, c)`. -/
theorem vecMax_axis0_of3 {n0 n1 n2 : Nat} (x : FVec Ideal ⟨3, ![n0, n1, n2]⟩ .f32)
    (h : Shape.Reduces ⟨3, ![n0, n1, n2]⟩ [0] ⟨2, ![n1, n2]⟩) (hφ : FKind.Formats .f32)
    (hacc : (0xFF800000#32 : BitVec 32) = 0xFF800000#32) (j : (⟨2, ![n1, n2]⟩ : Shape).Idx) :
    multiReduction .maximumf [0] ⟨2, ![n1, n2]⟩ x 0xFF800000#32 h hφ hacc j
      = (Finset.univ : Finset (Fin n0)).sup (fun k => x (ix3 k (j 0) (j 1))) := by
  refine (Ideal.multiReduction_maximumf_single x 0xFF800000#32 h hφ hacc j).trans ?_
  have hb : (FloatOps.ofBits .f32 0xFF800000#32 : Ideal .f32) = ⊥ := ofBits_neg_inf_f32
  rw [hb]
  refine (fold_max_bot _ _).trans (congrArg (Finset.univ : Finset (Fin n0)).sup (funext fun k => congrArg x (funext fun a => Fin.ext (by
      match a with
      | ⟨0, _⟩ => rfl
      | ⟨1, _⟩ => rfl
      | ⟨2, _⟩ => rfl))))

/-- The same at an index written by coordinates. -/
theorem vecMax_axis0_of3_ix {n0 n1 n2 : Nat} (x : FVec Ideal ⟨3, ![n0, n1, n2]⟩ .f32)
    (h : Shape.Reduces ⟨3, ![n0, n1, n2]⟩ [0] ⟨2, ![n1, n2]⟩) (hφ : FKind.Formats .f32)
    (hacc : (0xFF800000#32 : BitVec 32) = 0xFF800000#32) (r : Fin n1) (c : Fin n2) :
    multiReduction .maximumf [0] ⟨2, ![n1, n2]⟩ x 0xFF800000#32 h hφ hacc (ix2 r c)
      = (Finset.univ : Finset (Fin n0)).sup (fun k => x (ix3 k r c)) :=
  vecMax_axis0_of3 x h hφ hacc (ix2 r c)

end VectorReduce

/-! ## A trailing unit axis added to a vector, and a tile's total by two one-axis sums -/

section UnitAxis
variable {α : Type}

/-- An `[a]` vector cast to `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` vector cast to `[a]` reads, at `i`, the operand at `(i, 0)`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- The total of an `[n0, n1]` tile taken as a vector sum over axis 1, a cast of the `[n0]` result to `[n0, 1]`, and a vector
    sum over axis 0: the double sum over the tile. -/
theorem vecSum_all2 {n0 n1 : Nat} (x : FVec Ideal ⟨2, ![n0, n1]⟩ .f32)
    (h1 : Shape.Reduces ⟨2, ![n0, n1]⟩ [1] ⟨1, ![n0]⟩) (hc : (⟨1, ![n0]⟩ : Shape).ShapeCasts ⟨2, ![n0, 1]⟩)
    (h0 : Shape.Reduces ⟨2, ![n0, 1]⟩ [0] ⟨1, ![1]⟩) (hφ hφ' : FKind.Formats .f32)
    (hacc hacc' : (0x00000000#32 : BitVec 32) = 0x00000000#32) (j : (⟨1, ![1]⟩ : Shape).Idx) :
    multiReduction .add [0] ⟨1, ![1]⟩
        (shapeCast ⟨2, ![n0, 1]⟩ (multiReduction .add [1] ⟨1, ![n0]⟩ x 0x00000000#32 h1 hφ hacc) hc)
        0x00000000#32 h0 hφ' hacc' j
      = ∑ r : Fin n0, ∑ c : Fin n1, x (ix2 r c) :=
  (vecSum_axis0_of2 _ h0 hφ' hacc' j).trans (Finset.sum_congr rfl fun r _ =>
    (shapeCast_a_a1_apply _ hc r (j 0)).trans (vecSum_axis1_of2_ix x h1 hφ hacc r))

end UnitAxis

/-! ## Extended-real arithmetic: division by a power of two, words evaluated, a scaled difference squared -/

section Arithmetic

/-- Division by a power of two is the product with its reciprocal, at every extended real (the infinities included). -/
theorem div_two_pow (x : EReal) (k : ℕ) :
    Ideal.div x (((2 : ℝ) ^ k : ℝ) : EReal) = x * ((1 / (2 : ℝ) ^ k : ℝ) : EReal) :=
  Ideal.div_coe (pow_ne_zero k two_ne_zero) x

/-- Division by `4096` is the product with `1/4096`. -/
theorem div_4096 (x : EReal) : Ideal.div x ((4096 : ℝ) : EReal) = x * ((1 / 4096 : ℝ) : EReal) :=
  Ideal.div_coe (by norm_num) x

/-- Division by `256` is the product with `1/256`. -/
theorem div_256 (x : EReal) : Ideal.div x ((256 : ℝ) : EReal) = x * ((1 / 256 : ℝ) : EReal) :=
  Ideal.div_coe (by norm_num) x

/-- The f32 word `0x39800000` denotes `1/4096`. -/
theorem ofBits_f32_39800000 : Ideal.ofBits .f32 0x39800000#32 = ((1 / 4096 : ℝ) : EReal) := by
  simp [Ideal.ofBits, Ideal.ieee, -EReal.coe_mul] <;> norm_num

/-- The f32 word `0x45800000` denotes `4096`. -/
theorem ofBits_f32_45800000 : Ideal.ofBits .f32 0x45800000#32 = ((4096 : ℝ) : EReal) := by
  simp [Ideal.ofBits, Ideal.ieee, -EReal.coe_mul] <;> norm_num

/-- The f32 word `0x3B800000` denotes `1/256`. -/
theorem ofBits_f32_3B800000 : Ideal.ofBits .f32 0x3B800000#32 = ((1 / 256 : ℝ) : EReal) := by
  simp [Ideal.ofBits, Ideal.ieee, -EReal.coe_mul] <;> norm_num

/-- The f32 word `0x43800000` denotes `256`. -/
theorem ofBits_f32_43800000 : Ideal.ofBits .f32 0x43800000#32 = ((256 : ℝ) : EReal) := by
  simp [Ideal.ofBits, Ideal.ieee, -EReal.coe_mul] <;> norm_num

/-- The f32 word `0x45000000` denotes `2048`. -/
theorem ofBits_f32_45000000 : Ideal.ofBits .f32 0x45000000#32 = ((2048 : ℝ) : EReal) := by
  simp [Ideal.ofBits, Ideal.ieee, -EReal.coe_mul] <;> norm_num

/-- The f32 word `0x4B000000` denotes `8388608`. -/
theorem ofBits_f32_4B000000 : Ideal.ofBits .f32 0x4B000000#32 = ((8388608 : ℝ) : EReal) := by
  simp [Ideal.ofBits, Ideal.ieee, -EReal.coe_mul] <;> norm_num

/-- The f32 word `0x47000000` denotes `32768`. -/
theorem ofBits_f32_47000000 : Ideal.ofBits .f32 0x47000000#32 = ((32768 : ℝ) : EReal) := by
  simp [Ideal.ofBits, Ideal.ieee, -EReal.coe_mul] <;> norm_num

/-- The f32 word `0x49000000` denotes `524288`. -/
theorem ofBits_f32_49000000 : Ideal.ofBits .f32 0x49000000#32 = ((524288 : ℝ) : EReal) := by
  simp [Ideal.ofBits, Ideal.ieee, -EReal.coe_mul] <;> norm_num

/-- The f32 word `0x3F000000` denotes `1/2`. -/
theorem ofBits_f32_3F000000 : Ideal.ofBits .f32 0x3F000000#32 = ((1 / 2 : ℝ) : EReal) := by
  simp [Ideal.ofBits, Ideal.ieee, -EReal.coe_mul] <;> norm_num

/-- The f32 word `0x3F800000` denotes `1`. -/
theorem ofBits_f32_3F800000 : Ideal.ofBits .f32 0x3F800000#32 = ((1 : ℝ) : EReal) := by
  simp [Ideal.ofBits, Ideal.ieee, -EReal.coe_mul] <;> norm_num

/-- The f32 word `0x40000000` denotes `2`. -/
theorem ofBits_f32_40000000 : Ideal.ofBits .f32 0x40000000#32 = ((2 : ℝ) : EReal) := by
  simp [Ideal.ofBits, Ideal.ieee, -EReal.coe_mul] <;> norm_num

/-- The f32 word `0x40800000` denotes `4`. -/
theorem ofBits_f32_40800000 : Ideal.ofBits .f32 0x40800000#32 = ((4 : ℝ) : EReal) := by
  simp [Ideal.ofBits, Ideal.ieee, -EReal.coe_mul] <;> norm_num

/-- Division by the word of `4096` is the product with the word of `1/4096`, at every extended real. -/
theorem div_word_4096 (x : EReal) :
    Ideal.div x (Ideal.ofBits .f32 0x45800000#32) = x * Ideal.ofBits .f32 0x39800000#32 := by
  rw [ofBits_f32_45800000, ofBits_f32_39800000]; exact div_4096 x

/-- Division by the word of `256` is the product with the word of `1/256`, at every extended real. -/
theorem div_word_256 (x : EReal) :
    Ideal.div x (Ideal.ofBits .f32 0x43800000#32) = x * Ideal.ofBits .f32 0x3B800000#32 := by
  rw [ofBits_f32_43800000, ofBits_f32_3B800000]; exact div_256 x

/-- For reals, the difference of two numbers scaled by the same factor, squared, is the squared difference times the
    squared factor. -/
theorem scaled_diff_sq_real (s t k : ℝ) : (s * k - t * k) * (s * k - t * k) = (s - t) * (s - t) * (k * k) := by ring

/-- The same among the extended reals, for finite entries. -/
theorem scaled_diff_sq (s t k : ℝ) :
    ((s : EReal) * (k : EReal) - (t : EReal) * (k : EReal)) * ((s : EReal) * (k : EReal) - (t : EReal) * (k : EReal))
      = ((s : EReal) - (t : EReal)) * ((s : EReal) - (t : EReal)) * ((k : EReal) * (k : EReal)) := by
  have h := congrArg (fun r : ℝ => (r : EReal)) (scaled_diff_sq_real s t k)
  simpa only [EReal.coe_mul, EReal.coe_sub] using h

end Arithmetic

end Idealize.ShloMosaic.LibSums

end
-- ==== Proof.RefSpec.lean ====
/- The reference program's four results as structured terms: each definition below is one stage of
   the loss (a mean of squares, a channel statistic, a logistic, …) written with the same host
   operations, constants and shape evidence as the printed program, so that unfolding the
   definitions gives the composed term of the program's run. Generic in the float values. -/
import proofs.«129784_j68891275428342_2_alg».proof.ReferenceIdeal

noncomputable section

namespace Cert.ReferenceIdeal.Spec

open Idealize.ShloMosaic Cert.ReferenceIdeal Cert.ReferenceIdeal.Facts₀

variable {F : FTy → Type} [FloatOps F] [Facts₀]

/-! ## Splats of a scalar constant -/

/-- The scalar constant with bit pattern b, at every position of [8,1,64,64]. -/
def splatS (b : BitVec 32) : FVec F S8x1x64x64 .f32 :=
  broadcastInDim S8x1x64x64 ![] bcast_S_S8x1x64x64 (constant S_ .f32 b)

/-- The scalar constant with bit pattern b, at every position of [8,256,1,1]. -/
def splatC (b : BitVec 32) : FVec F S8x256x1x1 .f32 :=
  broadcastInDim S8x256x1x1 ![] bcast_S_S8x256x1x1 (constant S_ .f32 b)

/-- The scalar constant with bit pattern b, at every position of [8,2,256,256]. -/
def splatO (b : BitVec 32) : FVec F S8x2x256x256 .f32 :=
  broadcastInDim S8x2x256x256 ![] bcast_S_S8x2x256x256 (constant S_ .f32 b)

/-! ## Feature loss -/

/-- Mean of (a − b)² over all of [8,256,64,64]: the sum over the four axes divided by 2²³. -/
def mse4 (a b : FVec F S8x256x64x64 .f32) : FVec F S_ .f32 :=
  Host.divf (Host.reduceAdd (mulf (subf a b) (subf a b)) (constant S_ .f32 0x00000000#32) reducesTo_S8x256x64x64_S_d0_1_2_3 h_S_) (constant S_ .f32 0x4B000000#32)

/-- The mask [8,1,64,64] repeated along the channel axis. -/
def bmask (k : FVec F S8x1x64x64 .f32) : FVec F S8x256x64x64 .f32 :=
  broadcastInDim S8x256x64x64 ![0, 1, 2, 3] bcast_S8x1x64x64_S8x256x64x64_0_1_2_3 k

/-- Mean square difference of the two feature arrays. -/
def globalLoss (a0 a1 : FVec F S8x256x64x64 .f32) : FVec F S_ .f32 :=
  mse4 a0 a1

/-- Mean square difference of the two feature arrays, each multiplied by the mask. -/
def localLoss (a0 a1 : FVec F S8x256x64x64 .f32) (k : FVec F S8x1x64x64 .f32) : FVec F S_ .f32 :=
  mse4 (mulf a0 (bmask k)) (mulf a1 (bmask k))

/-- Mean over the two spatial axes, kept as [8,256,1,1]: the sum over axes 2, 3 divided by 4096. -/
def mean23 (a : FVec F S8x256x64x64 .f32) : FVec F S8x256x1x1 .f32 :=
  Host.divf (broadcastInDim S8x256x1x1 ![0, 1] bcast_S8x256_S8x256x1x1_0_1 (Host.reduceAdd a (constant S_ .f32 0x00000000#32) reducesTo_S8x256x64x64_S8x256_d2_3 h_S_)) (splatC 0x45800000#32)

/-- Mean of (x − y)² over [8,256,1,1]: the sum divided by 2048. -/
def mseC (x y : FVec F S8x256x1x1 .f32) : FVec F S_ .f32 :=
  Host.divf (Host.reduceAdd (mulf (subf x y) (subf x y)) (constant S_ .f32 0x00000000#32) reducesTo_S8x256x1x1_S_d0_1_2_3 h_S_) (constant S_ .f32 0x45000000#32)

/-- Mean square difference of the per-channel spatial means. -/
def chanLossF (a0 a1 : FVec F S8x256x64x64 .f32) : FVec F S_ .f32 :=
  mseC (mean23 a0) (mean23 a1)

/-- feat_loss = 0.3 · global + 0.5 · local + 0.2 · channel. -/
def feat (a0 a1 : FVec F S8x256x64x64 .f32) (k : FVec F S8x1x64x64 .f32) : FVec F S_ .f32 :=
  addf (addf (mulf (constant S_ .f32 0x3E99999A#32) (globalLoss a0 a1)) (mulf (constant S_ .f32 0x3F000000#32) (localLoss a0 a1 k))) (mulf (constant S_ .f32 0x3E4CCCCD#32) (chanLossF a0 a1))

/-! ## Output loss -/

/-- x / T with T = 4. -/
def scaleT (x : FVec F S8x2x256x256 .f32) : FVec F S8x2x256x256 .f32 :=
  Host.divf x (splatO 0x40800000#32)

/-- A per-pixel value [8,256,256] repeated over the two classes. -/
def overClasses (y : FVec F S8x256x256 .f32) : FVec F S8x2x256x256 .f32 :=
  broadcastInDim S8x2x256x256 ![0, 1, 2, 3] bcast_S8x1x256x256_S8x2x256x256_0_1_2_3 (broadcastInDim S8x1x256x256 ![0, 2, 3] bcast_S8x256x256_S8x1x256x256_0_2_3 y)

/-- x minus its maximum over the class axis (the maximum taken from −∞). -/
def shiftMax (x : FVec F S8x2x256x256 .f32) : FVec F S8x2x256x256 .f32 :=
  subf x (overClasses (maximumf (broadcastInDim S8x256x256 ![] bcast_S_S8x256x256 (constant S_ .f32 0xFF800000#32)) (Host.reduce FloatOps.maximumf x (constant S_ .f32 0xFF800000#32) reducesTo_S8x2x256x256_S8x256x256_d1 h_S_)))

/-- The sum over the class axis of exp of the shifted x. -/
def sumExp (x : FVec F S8x2x256x256 .f32) : FVec F S8x256x256 .f32 :=
  Host.reduceAdd (Host.exp (shiftMax x)) (constant S_ .f32 0x00000000#32) reducesTo_S8x2x256x256_S8x256x256_d1 h_S_

/-- log_softmax over the class axis: shifted x minus the log of the sum of exponentials. -/
def logSoftmax (x : FVec F S8x2x256x256 .f32) : FVec F S8x2x256x256 .f32 :=
  subf (shiftMax x) (broadcastInDim S8x2x256x256 ![0, 1, 2, 3] bcast_S8x1x256x256_S8x2x256x256_0_1_2_3 (Host.log (broadcastInDim S8x1x256x256 ![0, 2, 3] bcast_S8x256x256_S8x1x256x256_0_2_3 (sumExp x))))

/-- softmax over the class axis: exp of the shifted x divided by the sum of exponentials. -/
def softmax (x : FVec F S8x2x256x256 .f32) : FVec F S8x2x256x256 .f32 :=
  Host.divf (Host.exp (shiftMax x)) (overClasses (sumExp x))

/-- Class 1 of a two-class array, kept as [8,1,256,256]. -/
def class1 (x : FVec F S8x2x256x256 .f32) : FVec F S8x1x256x256 .f32 :=
  extractStridedSlice S8x1x256x256 ![0, 1, 0, 0] x slices_S8x2x256x256_S8x1x256x256_0_1_0_0

/-- The Kullback–Leibler term: Σ t · (log t − ls) / 8 · 16, for soft targets t and log-probabilities ls. -/
def klTerm (ls t : FVec F S8x2x256x256 .f32) : FVec F S_ .f32 :=
  mulf (Host.divf (Host.reduceAdd (mulf t (subf (Host.log t) ls)) (constant S_ .f32 0x00000000#32) reducesTo_S8x2x256x256_S_d0_1_2_3 h_S_) (constant S_ .f32 0x41000000#32)) (constant S_ .f32 0x41800000#32)

/-- The class-1 term: twice the mean of (exp ls₁ − t₁)² over [8,1,256,256]. -/
def class1Term (ls t : FVec F S8x2x256x256 .f32) : FVec F S_ .f32 :=
  mulf (Host.divf (Host.reduceAdd (mulf (subf (Host.exp (class1 ls)) (class1 t)) (subf (Host.exp (class1 ls)) (class1 t))) (constant S_ .f32 0x00000000#32) reducesTo_S8x1x256x256_S_d0_1_2_3 h_S_) (constant S_ .f32 0x49000000#32)) (constant S_ .f32 0x40000000#32)

/-- out_loss = KL term + class-1 term, of log_softmax (a2 / T) and softmax (a3 / T). -/
def outl (a2 a3 : FVec F S8x2x256x256 .f32) : FVec F S_ .f32 :=
  addf (klTerm (logSoftmax (scaleT a2)) (softmax (scaleT a3))) (class1Term (logSoftmax (scaleT a2)) (softmax (scaleT a3)))

/-! ## Difference maps and attentions -/

/-- Sum over the channel axis, kept as [8,1,64,64]. -/
def sumCh (x : FVec F S8x256x64x64 .f32) : FVec F S8x1x64x64 .f32 :=
  broadcastInDim S8x1x64x64 ![0, 2, 3] bcast_S8x64x64_S8x1x64x64_0_2_3 (Host.reduceAdd x (constant S_ .f32 0x00000000#32) reducesTo_S8x256x64x64_S8x64x64_d1 h_S_)

/-- Maximum over the channel axis (from −∞), kept as [8,1,64,64]. -/
def maxCh (x : FVec F S8x256x64x64 .f32) : FVec F S8x1x64x64 .f32 :=
  broadcastInDim S8x1x64x64 ![0, 2, 3] bcast_S8x64x64_S8x1x64x64_0_2_3 (Host.reduce FloatOps.maximumf x (constant S_ .f32 0xFF800000#32) reducesTo_S8x256x64x64_S8x64x64_d1 h_S_)

/-- The logistic 1 / (1 + exp (−x)) on [8,1,64,64]. -/
def logisticS (x : FVec F S8x1x64x64 .f32) : FVec F S8x1x64x64 .f32 :=
  Host.divf (splatS 0x3F800000#32) (addf (splatS 0x3F800000#32) (Host.exp (Host.negf x)))

/-- The logistic 1 / (1 + exp (−x)) on [8,256,1,1]. -/
def logisticC (x : FVec F S8x256x1x1 .f32) : FVec F S8x256x1x1 .f32 :=
  Host.divf (splatC 0x3F800000#32) (addf (splatC 0x3F800000#32) (Host.exp (Host.negf x)))

/-- The logistic 1 / (1 + exp (−x)) of a scalar. -/
def logistic0 (x : FVec F S_ .f32) : FVec F S_ .f32 :=
  Host.divf (constant S_ .f32 0x3F800000#32) (addf (constant S_ .f32 0x3F800000#32) (Host.exp (Host.negf x)))

/-- √(Σ_c (f1 − f2)² + 10⁻⁶). -/
def l2 (f1 f2 : FVec F S8x256x64x64 .f32) : FVec F S8x1x64x64 .f32 :=
  Host.sqrt (addf (sumCh (mulf (subf f1 f2) (subf f1 f2))) (splatS 0x358637BD#32))

/-- The channel mean of f1 · f2 / max (|f1| · |f2|, 10⁻⁸). -/
def cosMean (f1 f2 : FVec F S8x256x64x64 .f32) : FVec F S8x1x64x64 .f32 :=
  Host.divf (sumCh (Host.divf (mulf f1 f2) (maximumf (mulf (Host.absf f1) (Host.absf f2)) (broadcastInDim S8x256x64x64 ![] bcast_S_S8x256x64x64 (constant S_ .f32 0x322BCC77#32))))) (splatS 0x43800000#32)

/-- The difference map (l2 + (1 − cos)) · logistic (5 · l2). -/
def dmap (f1 f2 : FVec F S8x256x64x64 .f32) : FVec F S8x1x64x64 .f32 :=
  mulf (addf (l2 f1 f2) (subf (splatS 0x3F800000#32) (cosMean f1 f2))) (logisticS (mulf (l2 f1 f2) (splatS 0x40A00000#32)))

/-- Spatial attention: the logistic of channel mean + channel maximum. -/
def spAtt (a : FVec F S8x256x64x64 .f32) : FVec F S8x1x64x64 .f32 :=
  logisticS (addf (Host.divf (sumCh a) (splatS 0x43800000#32)) (maxCh a))

/-- Channel attention: the logistic of the spatial mean. -/
def chAtt (a : FVec F S8x256x64x64 .f32) : FVec F S8x256x1x1 .f32 :=
  logisticC (mean23 a)

/-! ## Difference-attention loss -/

/-- Mean of d over [8,1,64,64]: the sum divided by 32768. -/
def optMean (d : FVec F S8x1x64x64 .f32) : FVec F S_ .f32 :=
  Host.divf (Host.reduceAdd d (constant S_ .f32 0x00000000#32) reducesTo_S8x1x64x64_S_d0_1_2_3 h_S_) (constant S_ .f32 0x47000000#32)

/-- Mean of (x − y)² over [8,1,64,64]: the sum divided by 32768. -/
def mseS (x y : FVec F S8x1x64x64 .f32) : FVec F S_ .f32 :=
  Host.divf (Host.reduceAdd (mulf (subf x y) (subf x y)) (constant S_ .f32 0x00000000#32) reducesTo_S8x1x64x64_S_d0_1_2_3 h_S_) (constant S_ .f32 0x47000000#32)

/-- The mask d > 1.5 · mean d, as 0 / 1 floats. -/
def diffMask (d : FVec F S8x1x64x64 .f32) : FVec F S8x1x64x64 .f32 :=
  uitofp .f32 (cmpf .ogt d (broadcastInDim S8x1x64x64 ![] bcast_S_S8x1x64x64 (mulf (optMean d) (constant S_ .f32 0x3FC00000#32))))

/-- The weight 2 · mask + 0.5 · (1 − mask). -/
def wgt (d : FVec F S8x1x64x64 .f32) : FVec F S8x1x64x64 .f32 :=
  addf (mulf (diffMask d) (splatS 0x40000000#32)) (mulf (subf (splatS 0x3F800000#32) (diffMask d)) (splatS 0x3F000000#32))

/-- Mean square difference of the two difference maps, each weighted. -/
def diffLoss (d dh : FVec F S8x1x64x64 .f32) : FVec F S_ .f32 :=
  mseS (mulf dh (wgt d)) (mulf d (wgt d))

/-- The attention weight: the logistic of 10 · mean d. -/
def attW (d : FVec F S8x1x64x64 .f32) : FVec F S_ .f32 :=
  logistic0 (mulf (optMean d) (constant S_ .f32 0x41200000#32))

/-- The amplification 1 + weight · mask. -/
def amp (d : FVec F S8x1x64x64 .f32) : FVec F S8x1x64x64 .f32 :=
  addf (splatS 0x3F800000#32) (mulf (broadcastInDim S8x1x64x64 ![] bcast_S_S8x1x64x64 (attW d)) (diffMask d))

/-- Mean square difference of the two spatial attentions, each amplified. -/
def spatialLoss (d ssp tsp : FVec F S8x1x64x64 .f32) : FVec F S_ .f32 :=
  mseS (mulf ssp (amp d)) (mulf tsp (amp d))

/-- Mean square difference of the two channel attentions. -/
def chanLoss (sch tch : FVec F S8x256x1x1 .f32) : FVec F S_ .f32 :=
  mseC sch tch

/-- α = 0.5 · (1 + 0.5 · w). -/
def alphaA (w : FVec F S_ .f32) : FVec F S_ .f32 :=
  mulf (constant S_ .f32 0x3F000000#32) (addf (constant S_ .f32 0x3F800000#32) (mulf (constant S_ .f32 0x3F000000#32) w))

/-- β = 0.3 · (1 − 0.3 · w). -/
def betaA (w : FVec F S_ .f32) : FVec F S_ .f32 :=
  mulf (constant S_ .f32 0x3E99999A#32) (subf (constant S_ .f32 0x3F800000#32) (mulf (constant S_ .f32 0x3E99999A#32) w))

/-- γ = 0.2 · (1 + 0.5 · w). -/
def gammaA (w : FVec F S_ .f32) : FVec F S_ .f32 :=
  mulf (constant S_ .f32 0x3E4CCCCD#32) (addf (constant S_ .f32 0x3F800000#32) (mulf (constant S_ .f32 0x3F000000#32) w))

/-- diff_att_total = α · diff_loss + β · channel_loss + γ · spatial_loss, the difference maps those of
    (a4, a5) and (a4, a6), the attentions those of a0 (student) and a1 (teacher). -/
def diffa (a0 a1 a4 a5 a6 : FVec F S8x256x64x64 .f32) : FVec F S_ .f32 :=
  addf (addf (mulf (alphaA (attW (dmap a4 a5))) (diffLoss (dmap a4 a5) (dmap a4 a6))) (mulf (betaA (attW (dmap a4 a5))) (chanLoss (chAtt a0) (chAtt a1)))) (mulf (gammaA (attW (dmap a4 a5))) (spatialLoss (dmap a4 a5) (spAtt a0) (spAtt a1)))

/-- total = 0.3 · feat + 0.4 · out + 0.3 · diff. -/
def total (f o d : FVec F S_ .f32) : FVec F S_ .f32 :=
  addf (addf (mulf (constant S_ .f32 0x3E99999A#32) f) (mulf (constant S_ .f32 0x3ECCCCCD#32) o)) (mulf (constant S_ .f32 0x3E99999A#32) d)

end Cert.ReferenceIdeal.Spec

end
-- ==== Proof.Iface.lean ====
/- The facts about the region's seven final output arrays, as functions of the argument arrays: the statements the
   value lemmas of the kernel deliver and the bridges to the reference consume. Channel `chunk·128 + lane`; the
   64×64 spatial plane re-laid row-major as 32×128 (`rr`, `rc`: the row and column of flat position p·128+q). -/
import proofs.«129784_j68891275428342_2_alg».proof.Proof.RefSpec
import proofs.«129784_j68891275428342_2_alg».proof.Proof.LibSums

noncomputable section

namespace Cert.Iface

open Idealize.ShloMosaic Idealize.ShloMosaic.ValueIdx Idealize.ShloMosaic.LibSums
open Cert.ReferenceIdeal

/-- The channel of lane `ch` of chunk `cc`. -/
def chan (cc : Fin 2) (ch : Fin 128) : Fin 256 := ⟨cc.val * 128 + ch.val, by omega⟩

theorem hab : 64 * 64 = 32 * 128 := by norm_num

/-- Row and column, in the 64×64 plane, of position (p, q) of the 32×128 re-laid plane. -/
abbrev rr (p : Fin 32) (q : Fin 128) : Fin 64 := relayRow hab p q
abbrev rc (p : Fin 32) (q : Fin 128) : Fin 64 := relayCol hab p q

abbrev A4 := FVec Ideal S8x256x64x64 .f32
abbrev K4 := FVec Ideal S8x1x64x64 .f32
abbrev C4 := FVec Ideal (⟨4, ![8, 2, 1, 128]⟩ : Shape) .f32
abbrev D3 := FVec Ideal (⟨3, ![8, 32, 128]⟩ : Shape) .f32
abbrev SC3 := FVec Ideal (⟨3, ![8, 2, 128]⟩ : Shape) .f32

/-- A per-channel mean row: the spatial sum of channel `chan cc ch` of batch `b`, times the word 2⁻¹². -/
def HMean (c6 : C4) (a : A4) : Prop :=
  ∀ (b : Fin 8) (cc : Fin 2) (ch : Fin 128),
    c6 (ix4 b cc 0 ch) = (∑ h : Fin 64, ∑ w : Fin 64, a (ix4 b (chan cc ch) h w)) * Ideal.ofBits .f32 0x39800000#32

/-- Row 0 of the two sums: the batch's sum of squared differences, on every lane. -/
def HSumSq (sc : SC3) (a0 a1 : A4) : Prop :=
  ∀ (b : Fin 8) (l : Fin 128),
    sc (ix3 b 0 l) = ∑ c : Fin 256, ∑ h : Fin 64, ∑ w : Fin 64,
      (a0 (ix4 b c h w) - a1 (ix4 b c h w)) * (a0 (ix4 b c h w) - a1 (ix4 b c h w))

/-- Row 1: the same with each term times the squared mask. -/
def HSumSqMask (sc : SC3) (a0 a1 : A4) (k : K4) : Prop :=
  ∀ (b : Fin 8) (l : Fin 128),
    sc (ix3 b 1 l) = ∑ c : Fin 256, ∑ h : Fin 64, ∑ w : Fin 64,
      (a0 (ix4 b c h w) - a1 (ix4 b c h w)) * (a0 (ix4 b c h w) - a1 (ix4 b c h w)) * (k (ix4 b 0 h w) * k (ix4 b 0 h w))

/-- A map output is the reference's map `y` re-laid from 64×64 to 32×128. -/
def HRelaid (d : D3) (y : K4) : Prop :=
  ∀ (b : Fin 8) (p : Fin 32) (q : Fin 128), d (ix3 b p q) = y (ix4 b 0 (rr p q) (rc p q))

end Cert.Iface

end
-- ==== Proof.Ideal.Blocks.lean ====
/- The blocks of the six input windows at an index: the element of window J's block at a grid point is the element of
   its argument array at the point's batch, the chunk's channel, and the position of the 64×64 plane that the
   32×128 re-laid plane's position names. Stated for any float instance. -/
import proofs.«129784_j68891275428342_2_alg».proof.Proof.Ideal.Reshaped
import proofs.«129784_j68891275428342_2_alg».proof.Proof.LibSums
import proofs.«129784_j68891275428342_2_alg».proof.Proof.Iface

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Idealize.ShloMosaic.LibSums

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The index maps over the grid -/

/-- The printed index maps of the six input windows, decided over the grid: at point `t` the block index is the batch
    `t / 2` on axis 0, the channel chunk `t % 2` on axis 1 (0 for the one-channel mask), and 0 on the two plane axes. -/
theorem idx_in : ∀ t : Fin cfg0.N,
    (win0_0.index t (0 : Fin 4) = t.val / 2 ∧ win0_0.index t (1 : Fin 4) = t.val % 2 ∧ win0_0.index t (2 : Fin 4) = 0 ∧ win0_0.index t (3 : Fin 4) = 0)
    ∧ (win0_1.index t (0 : Fin 4) = t.val / 2 ∧ win0_1.index t (1 : Fin 4) = t.val % 2 ∧ win0_1.index t (2 : Fin 4) = 0 ∧ win0_1.index t (3 : Fin 4) = 0)
    ∧ (win0_2.index t (0 : Fin 4) = t.val / 2 ∧ win0_2.index t (1 : Fin 4) = t.val % 2 ∧ win0_2.index t (2 : Fin 4) = 0 ∧ win0_2.index t (3 : Fin 4) = 0)
    ∧ (win0_3.index t (0 : Fin 4) = t.val / 2 ∧ win0_3.index t (1 : Fin 4) = t.val % 2 ∧ win0_3.index t (2 : Fin 4) = 0 ∧ win0_3.index t (3 : Fin 4) = 0)
    ∧ (win0_4.index t (0 : Fin 4) = t.val / 2 ∧ win0_4.index t (1 : Fin 4) = t.val % 2 ∧ win0_4.index t (2 : Fin 4) = 0 ∧ win0_4.index t (3 : Fin 4) = 0)
    ∧ (win0_5.index t (0 : Fin 4) = t.val / 2 ∧ win0_5.index t (1 : Fin 4) = 0 ∧ win0_5.index t (2 : Fin 4) = 0 ∧ win0_5.index t (3 : Fin 4) = 0) :=
  (by decide +kernel : ∀ t : Fin grid0.N, _)

/-! ## A point's batch and chunk -/

/-- The batch of grid point `t` (the grid is 8 batches by 2 channel chunks, the chunk running fastest). -/
def batchOf (t : Fin cfg0.N) : Fin 8 := ⟨t.val / 2, by have h : t.val < 16 := lt_of_lt_of_eq t.isLt N_0; omega⟩

/-- The channel chunk of grid point `t`. -/
def chunkOf (t : Fin cfg0.N) : Fin 2 := ⟨t.val % 2, by omega⟩

/-- A point is its batch and its chunk. -/
theorem point_eq (t : Fin cfg0.N) : t.val = 2 * (batchOf t).val + (chunkOf t).val := by
  show t.val = 2 * (t.val / 2) + t.val % 2
  omega

/-! ## The five channel windows -/

/-- Window 0's block at a point of batch `b` and chunk `cc`, at lane `k` and plane position `(p, q)`: the argument array at
    the batch, the chunk's channel `k`, and the 64×64 position of the same flat place. -/
theorem iblk0_ix (c : Dev nD) (t : Fin cfg0.N) (b : Fin 8) (cc : Fin 2) (hb : t.val = 2 * b.val + cc.val)
    (k : Fin 128) (p : Fin 32) (q : Fin 128) :
    iblk m c 0 t (ix4 0 k p q)
      = m ((c : Thread nD τ).loc main_arg0) (ix4 b (Cert.Iface.chan cc k) (Cert.Iface.rr p q) (Cert.Iface.rc p q)) := by
  show V m c main_v0 (((cfg0.win 0).blk t).view.emb (ix4 0 k p q)) = _
  have he : ((cfg0.win 0).blk t).view.emb (ix4 (0 : Fin 1) k p q) = ix4 b (Cert.Iface.chan cc k) p q := by
    obtain ⟨e0, e1, e2, e3⟩ := (idx_in t).1
    have hbl := b.isLt
    have hcl := cc.isLt
    funext a; apply Fin.ext
    match a with
    | ⟨0, _⟩ => show win0_0.index t (0 : Fin 4) * 1 + 1 * (0 : Fin 1).val = b.val; rw [e0]; show t.val / 2 * 1 + 1 * 0 = b.val; omega
    | ⟨1, _⟩ => show win0_0.index t (1 : Fin 4) * 128 + 1 * k.val = cc.val * 128 + k.val; rw [e1]; omega
    | ⟨2, _⟩ => show win0_0.index t (2 : Fin 4) * 32 + 1 * p.val = p.val; rw [e2]; omega
    | ⟨3, _⟩ => show win0_0.index t (3 : Fin 4) * 128 + 1 * q.val = q.val; rw [e3]; omega
  rw [he, V_main_v0]
  exact shapeCast4_inner_apply Cert.Iface.hab _ _ b (Cert.Iface.chan cc k) p q

/-- Window 1's block at a point of batch `b` and chunk `cc`, at lane `k` and plane position `(p, q)`: the argument array at
    the batch, the chunk's channel `k`, and the 64×64 position of the same flat place. -/
theorem iblk1_ix (c : Dev nD) (t : Fin cfg0.N) (b : Fin 8) (cc : Fin 2) (hb : t.val = 2 * b.val + cc.val)
    (k : Fin 128) (p : Fin 32) (q : Fin 128) :
    iblk m c 1 t (ix4 0 k p q)
      = m ((c : Thread nD τ).loc main_arg1) (ix4 b (Cert.Iface.chan cc k) (Cert.Iface.rr p q) (Cert.Iface.rc p q)) := by
  show V m c main_v1 (((cfg0.win 1).blk t).view.emb (ix4 0 k p q)) = _
  have he : ((cfg0.win 1).blk t).view.emb (ix4 (0 : Fin 1) k p q) = ix4 b (Cert.Iface.chan cc k) p q := by
    obtain ⟨e0, e1, e2, e3⟩ := (idx_in t).2.1
    have hbl := b.isLt
    have hcl := cc.isLt
    funext a; apply Fin.ext
    match a with
    | ⟨0, _⟩ => show win0_1.index t (0 : Fin 4) * 1 + 1 * (0 : Fin 1).val = b.val; rw [e0]; show t.val / 2 * 1 + 1 * 0 = b.val; omega
    | ⟨1, _⟩ => show win0_1.index t (1 : Fin 4) * 128 + 1 * k.val = cc.val * 128 + k.val; rw [e1]; omega
    | ⟨2, _⟩ => show win0_1.index t (2 : Fin 4) * 32 + 1 * p.val = p.val; rw [e2]; omega
    | ⟨3, _⟩ => show win0_1.index t (3 : Fin 4) * 128 + 1 * q.val = q.val; rw [e3]; omega
  rw [he, V_main_v1]
  exact shapeCast4_inner_apply Cert.Iface.hab _ _ b (Cert.Iface.chan cc k) p q

/-- Window 2's block at a point of batch `b` and chunk `cc`, at lane `k` and plane position `(p, q)`: the argument array at
    the batch, the chunk's channel `k`, and the 64×64 position of the same flat place. -/
theorem iblk2_ix (c : Dev nD) (t : Fin cfg0.N) (b : Fin 8) (cc : Fin 2) (hb : t.val = 2 * b.val + cc.val)
    (k : Fin 128) (p : Fin 32) (q : Fin 128) :
    iblk m c 2 t (ix4 0 k p q)
      = m ((c : Thread nD τ).loc main_arg4) (ix4 b (Cert.Iface.chan cc k) (Cert.Iface.rr p q) (Cert.Iface.rc p q)) := by
  show V m c main_v2 (((cfg0.win 2).blk t).view.emb (ix4 0 k p q)) = _
  have he : ((cfg0.win 2).blk t).view.emb (ix4 (0 : Fin 1) k p q) = ix4 b (Cert.Iface.chan cc k) p q := by
    obtain ⟨e0, e1, e2, e3⟩ := (idx_in t).2.2.1
    have hbl := b.isLt
    have hcl := cc.isLt
    funext a; apply Fin.ext
    match a with
    | ⟨0, _⟩ => show win0_2.index t (0 : Fin 4) * 1 + 1 * (0 : Fin 1).val = b.val; rw [e0]; show t.val / 2 * 1 + 1 * 0 = b.val; omega
    | ⟨1, _⟩ => show win0_2.index t (1 : Fin 4) * 128 + 1 * k.val = cc.val * 128 + k.val; rw [e1]; omega
    | ⟨2, _⟩ => show win0_2.index t (2 : Fin 4) * 32 + 1 * p.val = p.val; rw [e2]; omega
    | ⟨3, _⟩ => show win0_2.index t (3 : Fin 4) * 128 + 1 * q.val = q.val; rw [e3]; omega
  rw [he, V_main_v2]
  exact shapeCast4_inner_apply Cert.Iface.hab _ _ b (Cert.Iface.chan cc k) p q

/-- Window 3's block at a point of batch `b` and chunk `cc`, at lane `k` and plane position `(p, q)`: the argument array at
    the batch, the chunk's channel `k`, and the 64×64 position of the same flat place. -/
theorem iblk3_ix (c : Dev nD) (t : Fin cfg0.N) (b : Fin 8) (cc : Fin 2) (hb : t.val = 2 * b.val + cc.val)
    (k : Fin 128) (p : Fin 32) (q : Fin 128) :
    iblk m c 3 t (ix4 0 k p q)
      = m ((c : Thread nD τ).loc main_arg5) (ix4 b (Cert.Iface.chan cc k) (Cert.Iface.rr p q) (Cert.Iface.rc p q)) := by
  show V m c main_v3 (((cfg0.win 3).blk t).view.emb (ix4 0 k p q)) = _
  have he : ((cfg0.win 3).blk t).view.emb (ix4 (0 : Fin 1) k p q) = ix4 b (Cert.Iface.chan cc k) p q := by
    obtain ⟨e0, e1, e2, e3⟩ := (idx_in t).2.2.2.1
    have hbl := b.isLt
    have hcl := cc.isLt
    funext a; apply Fin.ext
    match a with
    | ⟨0, _⟩ => show win0_3.index t (0 : Fin 4) * 1 + 1 * (0 : Fin 1).val = b.val; rw [e0]; show t.val / 2 * 1 + 1 * 0 = b.val; omega
    | ⟨1, _⟩ => show win0_3.index t (1 : Fin 4) * 128 + 1 * k.val = cc.val * 128 + k.val; rw [e1]; omega
    | ⟨2, _⟩ => show win0_3.index t (2 : Fin 4) * 32 + 1 * p.val = p.val; rw [e2]; omega
    | ⟨3, _⟩ => show win0_3.index t (3 : Fin 4) * 128 + 1 * q.val = q.val; rw [e3]; omega
  rw [he, V_main_v3]
  exact shapeCast4_inner_apply Cert.Iface.hab _ _ b (Cert.Iface.chan cc k) p q

/-- Window 4's block at a point of batch `b` and chunk `cc`, at lane `k` and plane position `(p, q)`: the argument array at
    the batch, the chunk's channel `k`, and the 64×64 position of the same flat place. -/
theorem iblk4_ix (c : Dev nD) (t : Fin cfg0.N) (b : Fin 8) (cc : Fin 2) (hb : t.val = 2 * b.val + cc.val)
    (k : Fin 128) (p : Fin 32) (q : Fin 128) :
    iblk m c 4 t (ix4 0 k p q)
      = m ((c : Thread nD τ).loc main_arg6) (ix4 b (Cert.Iface.chan cc k) (Cert.Iface.rr p q) (Cert.Iface.rc p q)) := by
  show V m c main_v4 (((cfg0.win 4).blk t).view.emb (ix4 0 k p q)) = _
  have he : ((cfg0.win 4).blk t).view.emb (ix4 (0 : Fin 1) k p q) = ix4 b (Cert.Iface.chan cc k) p q := by
    obtain ⟨e0, e1, e2, e3⟩ := (idx_in t).2.2.2.2.1
    have hbl := b.isLt
    have hcl := cc.isLt
    funext a; apply Fin.ext
    match a with
    | ⟨0, _⟩ => show win0_4.index t (0 : Fin 4) * 1 + 1 * (0 : Fin 1).val = b.val; rw [e0]; show t.val / 2 * 1 + 1 * 0 = b.val; omega
    | ⟨1, _⟩ => show win0_4.index t (1 : Fin 4) * 128 + 1 * k.val = cc.val * 128 + k.val; rw [e1]; omega
    | ⟨2, _⟩ => show win0_4.index t (2 : Fin 4) * 32 + 1 * p.val = p.val; rw [e2]; omega
    | ⟨3, _⟩ => show win0_4.index t (3 : Fin 4) * 128 + 1 * q.val = q.val; rw [e3]; omega
  rw [he, V_main_v4]
  exact shapeCast4_inner_apply Cert.Iface.hab _ _ b (Cert.Iface.chan cc k) p q

/-! ## The mask window -/

/-- Window 5's block (the one-channel mask) at a point of batch `b`, at plane position `(p, q)`: the mask argument at the
    batch and the 64×64 position of the same flat place. -/
theorem iblk5_ix (c : Dev nD) (t : Fin cfg0.N) (b : Fin 8) (cc : Fin 2) (hb : t.val = 2 * b.val + cc.val)
    (p : Fin 32) (q : Fin 128) :
    iblk m c 5 t (ix4 0 0 p q)
      = m ((c : Thread nD τ).loc main_arg7) (ix4 b 0 (Cert.Iface.rr p q) (Cert.Iface.rc p q)) := by
  show V m c main_v5 (((cfg0.win 5).blk t).view.emb (ix4 0 0 p q)) = _
  have he : ((cfg0.win 5).blk t).view.emb (ix4 (0 : Fin 1) (0 : Fin 1) p q) = ix4 b (0 : Fin 1) p q := by
    obtain ⟨e0, e1, e2, e3⟩ := (idx_in t).2.2.2.2.2
    have hbl := b.isLt
    have hcl := cc.isLt
    funext a; apply Fin.ext
    match a with
    | ⟨0, _⟩ => show win0_5.index t (0 : Fin 4) * 1 + 1 * (0 : Fin 1).val = b.val; rw [e0]; show t.val / 2 * 1 + 1 * 0 = b.val; omega
    | ⟨1, _⟩ => show win0_5.index t (1 : Fin 4) * 1 + 1 * (0 : Fin 1).val = (0 : Fin 1).val; rw [e1]; rfl
    | ⟨2, _⟩ => show win0_5.index t (2 : Fin 4) * 32 + 1 * p.val = p.val; rw [e2]; omega
    | ⟨3, _⟩ => show win0_5.index t (3 : Fin 4) * 128 + 1 * q.val = q.val; rw [e3]; omega
  rw [he, V_main_v5]
  exact shapeCast4_inner_apply Cert.Iface.hab _ _ b (0 : Fin 1) p q

end Cert.KernelIdeal.Fr

end
-- ==== Proof.Ideal.ValPay1.lean ====
/- The values of the per-channel mean rows and of the two squared-difference sums, first part: the kernel's pure
   payloads read at an index at the ideal instance (a float is an extended real), the accumulation over the two channel
   chunks, and the passage from a block of a re-laid array to the original array, ending in the closed forms:
   a mean row's lane is the mean of its channel's 64 × 64 plane; the first sum is the sum over all 256 channels and the
   plane of the squared difference; the second weights each squared difference by the squared mask at its position. -/
import proofs.«129784_j68891275428342_2_alg».proof.Proof.Gen.KernelIdeal.Skeleton
import proofs.«129784_j68891275428342_2_alg».proof.Proof.Iface
import Idealize.ShloMosaic.Lib.ValueLayout

noncomputable section

namespace Cert.KernelIdeal.V1

open Cert.KernelIdeal Cert.KernelIdeal.Gen
open Idealize.ShloMosaic Idealize.ShloMosaic.ValueIdx Idealize.ShloMosaic.LibSums
open scoped BigOperators
open Cert.Iface (chan hab rr rc)

/-! ## Layout casts of this kernel read at an index -/

section Casts
variable {α : Type}

/-- A `[1, a]` row cast to `[1, 1, 1, a]` reads, at `(u0, u1, u2, i)`, the row at `i`. -/
theorem cast_1a_111a_apply {a : ℕ} (x : (⟨2, ![1, a]⟩ : Shape).Idx → α)
    (h : (⟨2, ![1, a]⟩ : Shape).ShapeCasts ⟨4, ![1, 1, 1, a]⟩) (u0 u1 u2 : Fin 1) (i : Fin a) :
    shapeCast ⟨4, ![1, 1, 1, a]⟩ x h (ix4 u0 u1 u2 i) = x (ix2 (0 : Fin 1) i) :=
  shapeCast_apply x h _ _ (by
    have h0 : u0.val = 0 := by omega
    have h1 : u1.val = 0 := by omega
    have h2 : u2.val = 0 := by omega
    rw [Shape.rowMajor_val_two, Shape.rowMajor_val_four]
    show 0 * a + i.val = ((u0.val * 1 + u1.val) * 1 + u2.val) * a + i.val
    rw [h0, h1, h2])

/-- A `[1, 1, a, b]` block cast to `[a, b]` reads, at `(i, j)`, the block at `(0, 0, i, j)`. -/
theorem cast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_two, Shape.rowMajor_val_four]
    show ((0 * 1 + 0) * a + i.val) * b + j.val = i.val * b + j.val
    simp only [Nat.zero_mul, Nat.zero_add, Nat.mul_one, Nat.add_zero])

/-- A one-element vector cast to `[1, 1]` reads the element. -/
theorem cast_1_11_apply (x : (⟨1, ![1]⟩ : Shape).Idx → α)
    (h : (⟨1, ![1]⟩ : Shape).ShapeCasts ⟨2, ![1, 1]⟩) (u v : Fin 1) :
    shapeCast ⟨2, ![1, 1]⟩ x h (ix2 u v) = x (ix1 (0 : Fin 1)) :=
  shapeCast_apply x h _ _ (by
    have hu : u.val = 0 := by omega
    have hv : v.val = 0 := by omega
    rw [Shape.rowMajor_val_two, Shape.rowMajor_val_one]
    show 0 = u.val * 1 + v.val
    rw [hu, hv])

/-- An `[a]` vector cast to `[1, 1, a]` reads, at `(u, v, i)`, the vector at `i`. -/
theorem cast_a_11a_apply {a : ℕ} (x : (⟨1, ![a]⟩ : Shape).Idx → α)
    (h : (⟨1, ![a]⟩ : Shape).ShapeCasts ⟨3, ![1, 1, a]⟩) (u v : Fin 1) (i : Fin a) :
    shapeCast ⟨3, ![1, 1, a]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * a + i.val
    rw [hu, hv]; simp only [Nat.zero_mul, Nat.zero_add, Nat.mul_one, Nat.add_zero])

/-- A `[1, a, b]` tile broadcast over a new leading extent reads, at `(k, i, j)`, the tile at `(0, i, j)`. -/
theorem bcast_1ab_mab_apply {m a b : ℕ} (x : (⟨3, ![1, a, b]⟩ : Shape).Idx → α)
    (h : (⟨3, ![1, a, b]⟩ : Shape).Broadcasts ⟨3, ![m, a, b]⟩) (k : Fin m) (i : Fin a) (j : Fin b) :
    broadcastTo ⟨3, ![m, a, b]⟩ x h (ix3 k i j) = x (ix3 (0 : Fin 1) i j) := by
  refine broadcastTo_apply x h (ix3 k i j) (ix3 (0 : Fin 1) i j) fun ax => ?_
  match ax with
  | ⟨0, _⟩ => rfl
  | ⟨1, _⟩ =>
    show i.val = if a = 1 then 0 else i.val
    split
    · have := i.isLt; omega
    · rfl
  | ⟨2, _⟩ =>
    show j.val = if b = 1 then 0 else j.val
    split
    · have := j.isLt; omega
    · rfl

end Casts

/-- The element of a `[1, 1]` vector extracted at `[0, 0]`. -/
theorem extractAt_00 {α : Type} (x : (⟨2, ![1, 1]⟩ : Shape).Idx → α)
    (h : ∀ a, (![0, 0] : Fin 2 → Nat) a < (⟨2, ![1, 1]⟩ : Shape).size a) :
    extractAt ![0, 0] x h = x (ix2 (0 : Fin 1) (0 : Fin 1)) :=
  congrArg x (funext fun a => by
    match a with
    | ⟨0, _⟩ => rfl
    | ⟨1, _⟩ => rfl)

/-! ## The payloads read at an index, at the ideal instance -/

/-- An input block with its leading unit axis dropped. -/
theorem pay23_ix (v3 : FVec Ideal S1x128x32x128 .f32) (k : Fin 128) (p : Fin 32) (q : Fin 128) :
    k0_pay23 (F := Ideal) v3 (ix3 k p q) = v3 (ix4 (0 : Fin 1) k p q) := by
  unfold k0_pay23
  exact shapeCast_1abc_abc_apply v3 _ k p q

theorem pay24_ix (v5 : FVec Ideal S1x128x32x128 .f32) (k : Fin 128) (p : Fin 32) (q : Fin 128) :
    k0_pay24 (F := Ideal) v5 (ix3 k p q) = v5 (ix4 (0 : Fin 1) k p q) := by
  unfold k0_pay24
  exact shapeCast_1abc_abc_apply v5 _ k p q

/-- The mask block with its two leading unit axes dropped. -/
theorem pay28_ix (v13 : FVec Ideal S1x1x32x128 .f32) (p : Fin 32) (q : Fin 128) :
    k0_pay28 (F := Ideal) v13 (ix2 p q) = v13 (ix4 (0 : Fin 1) (0 : Fin 1) p q) := by
  unfold k0_pay28
  exact cast_11ab_ab_apply v13 _ p q

/-- The reset value of the first sum's accumulator is zero. -/
theorem pay21_ix (p : Fin 32) (q : Fin 128) : k0_pay21 (F := Ideal) (ix2 p q) = 0 := by
  unfold k0_pay21
  refine (congrFun (shapeCast_self _ _) (ix2 p q)).trans ?_
  exact Ideal.ofBits_zero_f32

/-- The reset value of the second sum's accumulator is zero. -/
theorem pay22_ix (p : Fin 32) (q : Fin 128) : k0_pay22 (F := Ideal) (ix2 p q) = 0 := by
  unfold k0_pay22
  refine (congrFun (shapeCast_self _ _) (ix2 p q)).trans ?_
  exact Ideal.ofBits_zero_f32

/-- The per-channel mean row of a tile `[128, 32, 128]`: at lane `ch`, the sum of channel `ch`'s plane times `1/4096`. -/
theorem pay30_ix (v6 : FVec Ideal S128x32x128 .f32) (u0 u1 u2 : Fin 1) (ch : Fin 128) :
    k0_pay30 (F := Ideal) v6 (ix4 u0 u1 u2 ch)
      = (∑ p : Fin 32, ∑ q : Fin 128, v6 (ix3 ch p q)) * Ideal.ofBits .f32 0x39800000#32 := by
  unfold k0_pay30
  refine (cast_1a_111a_apply _ _ u0 u1 u2 ch).trans ?_
  refine (shapeCast_a_1a_apply _ _ (0 : Fin 1) ch).trans ?_
  refine (mulf_apply _ _ (ix1 ch)).trans ?_
  refine congrArg (· * Ideal.ofBits .f32 0x39800000#32) ?_
  refine (vecSum_axis1_of2_ix _ _ _ _ ch).trans ?_
  exact Finset.sum_congr rfl fun p _ => vecSum_axis2_of3_ix v6 _ _ _ ch p

/-- The same for the first input's block. -/
theorem pay29_ix (v3 : FVec Ideal S1x128x32x128 .f32) (u0 u1 u2 : Fin 1) (ch : Fin 128) :
    k0_pay29 (F := Ideal) v3 (ix4 u0 u1 u2 ch)
      = (∑ p : Fin 32, ∑ q : Fin 128, v3 (ix4 (0 : Fin 1) ch p q)) * Ideal.ofBits .f32 0x39800000#32 := by
  unfold k0_pay29
  refine (cast_1a_111a_apply _ _ u0 u1 u2 ch).trans ?_
  refine (shapeCast_a_1a_apply _ _ (0 : Fin 1) ch).trans ?_
  refine (mulf_apply _ _ (ix1 ch)).trans ?_
  refine congrArg (· * Ideal.ofBits .f32 0x39800000#32) ?_
  refine (vecSum_axis1_of2_ix _ _ _ _ ch).trans ?_
  refine Finset.sum_congr rfl fun p _ => ?_
  refine (vecSum_axis2_of3_ix _ _ _ _ ch p).trans ?_
  exact Finset.sum_congr rfl fun q _ => pay23_ix v3 ch p q

/-- The squared difference of two tiles, pointwise. -/
theorem pay31_ix (v4 v6 : FVec Ideal S128x32x128 .f32) (k : Fin 128) (p : Fin 32) (q : Fin 128) :
    k0_pay31 (F := Ideal) v4 v6 (ix3 k p q)
      = (v4 (ix3 k p q) - v6 (ix3 k p q)) * (v4 (ix3 k p q) - v6 (ix3 k p q)) := rfl

/-- The first sum's accumulator updated: what it held plus the sum over the tile's 128 channels of the squared difference. -/
theorem pay32_ix (v4 v6 : FVec Ideal S128x32x128 .f32) (v33 : FVec Ideal S32x128 .f32) (p : Fin 32) (q : Fin 128) :
    k0_pay32 (F := Ideal) v4 v6 v33 (ix2 p q)
      = v33 (ix2 p q) + ∑ k : Fin 128, (v4 (ix3 k p q) - v6 (ix3 k p q)) * (v4 (ix3 k p q) - v6 (ix3 k p q)) := by
  unfold k0_pay32
  refine (congrFun (shapeCast_self _ _) (ix2 p q)).trans ?_
  refine (addf_apply _ _ (ix2 p q)).trans ?_
  refine congrArg (v33 (ix2 p q) + ·) ?_
  refine (vecSum_axis0_of3_ix _ _ _ _ p q).trans ?_
  exact Finset.sum_congr rfl fun k _ => pay31_ix v4 v6 k p q

/-- The second sum's accumulator updated: the squared difference is weighted by the squared mask at the position. -/
theorem pay33_ix (v4 v6 : FVec Ideal S128x32x128 .f32) (v14 v43 : FVec Ideal S32x128 .f32) (p : Fin 32) (q : Fin 128) :
    k0_pay33 (F := Ideal) v4 v6 v14 v43 (ix2 p q)
      = v43 (ix2 p q) + ∑ k : Fin 128, (v4 (ix3 k p q) - v6 (ix3 k p q)) * (v4 (ix3 k p q) - v6 (ix3 k p q))
          * (v14 (ix2 p q) * v14 (ix2 p q)) := by
  unfold k0_pay33
  refine (congrFun (shapeCast_self _ _) (ix2 p q)).trans ?_
  refine (addf_apply _ _ (ix2 p q)).trans ?_
  refine congrArg (v43 (ix2 p q) + ·) ?_
  refine (vecSum_axis0_of3_ix _ _ _ _ p q).trans ?_
  refine Finset.sum_congr rfl fun k _ => ?_
  refine (mulf_apply _ _ (ix3 k p q)).trans ?_
  refine congrArg₂ (· * ·) (pay31_ix v4 v6 k p q) ?_
  refine (bcast_1ab_mab_apply _ _ k p q).trans ?_
  exact shapeCast_ab_1ab_apply _ _ (0 : Fin 1) p q

/-- The total of a `[32, 128]` accumulator as a `[1, 1]` vector. -/
theorem pay18_ix (v175 : FVec Ideal S32x128 .f32) (u v : Fin 1) :
    k0_pay18 (F := Ideal) v175 (ix2 u v) = ∑ p : Fin 32, ∑ q : Fin 128, v175 (ix2 p q) := by
  unfold k0_pay18
  refine (cast_1_11_apply _ _ u v).trans ?_
  exact vecSum_all2 v175 _ _ _ _ _ _ _ (ix1 (0 : Fin 1))

/-- A `[1, 1]` vector's element splat over the 128 lanes of a row. -/
theorem pay5_ix (v179 : FVec Ideal S1x1 .f32) (u v : Fin 1) (l : Fin 128) :
    k0_pay5 (F := Ideal) v179 (ix3 u v l) = v179 (ix2 (0 : Fin 1) (0 : Fin 1)) := by
  unfold k0_pay5
  refine (cast_a_11a_apply _ _ u v l).trans ?_
  exact extractAt_00 v179 _

/-- The total of a `[32, 128]` accumulator splat over the 128 lanes of a row. -/
theorem pay19_ix (v170 : FVec Ideal S32x128 .f32) (u v : Fin 1) (l : Fin 128) :
    k0_pay19 (F := Ideal) v170 (ix3 u v l) = ∑ p : Fin 32, ∑ q : Fin 128, v170 (ix2 p q) := by
  unfold k0_pay19
  refine (cast_a_11a_apply _ _ u v l).trans ?_
  refine (extractAt_00 _ _).trans ?_
  refine (cast_1_11_apply _ _ (0 : Fin 1) (0 : Fin 1)).trans ?_
  exact vecSum_all2 v170 _ _ _ _ _ _ _ (ix1 (0 : Fin 1))

/-! ## From a re-laid block to the original array, and the two chunks to the 256 channels -/

/-- Summing over the re-laid plane is summing over the plane. -/
theorem sum_plane (f : Fin 64 → Fin 64 → EReal) :
    ∑ p : Fin 32, ∑ q : Fin 128, f (rr p q) (rc p q) = ∑ h : Fin 64, ∑ w : Fin 64, f h w :=
  sum_relay hab f

/-- A chunk's 128 channels summed at every position of the re-laid plane, then over the plane: the sum over the
    chunk's channels of each channel's plane. -/
theorem sum_chunk (f : Fin 256 → Fin 64 → Fin 64 → EReal) (cc : Fin 2) :
    ∑ p : Fin 32, ∑ q : Fin 128, ∑ k : Fin 128, f (chan cc k) (rr p q) (rc p q)
      = ∑ k : Fin 128, ∑ h : Fin 64, ∑ w : Fin 64, f (chan cc k) h w :=
  (sum_relay hab (fun h w => ∑ k : Fin 128, f (chan cc k) h w)).trans
    ((Finset.sum_congr rfl fun h _ => Finset.sum_comm).trans Finset.sum_comm)

/-- An accumulator reset to zero, the first chunk added and then the second, summed over the re-laid plane: the sum over
    all 256 channels and the plane. -/
theorem two_chunks (f : Fin 256 → Fin 64 → Fin 64 → EReal) :
    ∑ p : Fin 32, ∑ q : Fin 128,
        ((0 + ∑ k : Fin 128, f (chan 0 k) (rr p q) (rc p q)) + ∑ k : Fin 128, f (chan 1 k) (rr p q) (rc p q))
      = ∑ c : Fin 256, ∑ h : Fin 64, ∑ w : Fin 64, f c h w := by
  have h0 : ∀ k : Fin 128, chan 0 k = ⟨k.val, by omega⟩ := fun k =>
    Fin.ext (by show (0 : Fin 2).val * 128 + k.val = k.val; simp)
  have h1 : ∀ k : Fin 128, chan 1 k = ⟨128 + k.val, by omega⟩ := fun k =>
    Fin.ext (by show (1 : Fin 2).val * 128 + k.val = 128 + k.val; simp)
  simp only [zero_add, Finset.sum_add_distrib]
  rw [sum_chunk f 0, sum_chunk f 1, sum_split_256 (fun c => ∑ h : Fin 64, ∑ w : Fin 64, f c h w)]
  simp only [h0, h1]

/-! ## The blocks of the re-laid arrays, and the two mean rows and the two sums in terms of the original arrays -/

/-- `x` is block `(b, cc)` of the feature array `a` re-laid as `[8, 256, 32, 128]`. -/
def IsBlk (a : FVec Ideal S8x256x64x64 .f32) (b : Fin 8) (cc : Fin 2) (x : FVec Ideal S1x128x32x128 .f32) : Prop :=
  ∀ (k : Fin 128) (p : Fin 32) (q : Fin 128), x (ix4 (0 : Fin 1) k p q) = a (ix4 b (chan cc k) (rr p q) (rc p q))

/-- `x` is block `(b, 0)` of the mask array `a` re-laid as `[8, 1, 32, 128]`. -/
def IsMaskBlk (a : FVec Ideal S8x1x64x64 .f32) (b : Fin 8) (x : FVec Ideal S1x1x32x128 .f32) : Prop :=
  ∀ (p : Fin 32) (q : Fin 128), x (ix4 (0 : Fin 1) (0 : Fin 1) p q) = a (ix4 b (0 : Fin 1) (rr p q) (rc p q))

/-- The first mean row at a point: lane `ch` holds the mean of channel `cc·128 + ch`'s plane. -/
theorem mean6_H (a0 : FVec Ideal S8x256x64x64 .f32) (b : Fin 8) (cc : Fin 2) (x0 : FVec Ideal S1x128x32x128 .f32)
    (hx : IsBlk a0 b cc x0) (u0 u1 u2 : Fin 1) (ch : Fin 128) :
    k0_pay29 (F := Ideal) x0 (ix4 u0 u1 u2 ch)
      = (∑ h : Fin 64, ∑ w : Fin 64, a0 (ix4 b (chan cc ch) h w)) * Ideal.ofBits .f32 0x39800000#32 := by
  refine (pay29_ix x0 u0 u1 u2 ch).trans (congrArg (· * Ideal.ofBits .f32 0x39800000#32) ?_)
  exact (Finset.sum_congr rfl fun p _ => Finset.sum_congr rfl fun q _ => hx ch p q).trans
    (sum_plane fun h w => a0 (ix4 b (chan cc ch) h w))

/-- The second mean row at a point. -/
theorem mean7_H (a1 : FVec Ideal S8x256x64x64 .f32) (b : Fin 8) (cc : Fin 2) (x1 : FVec Ideal S1x128x32x128 .f32)
    (hx : IsBlk a1 b cc x1) (u0 u1 u2 : Fin 1) (ch : Fin 128) :
    k0_pay30 (F := Ideal) (k0_pay24 (F := Ideal) x1) (ix4 u0 u1 u2 ch)
      = (∑ h : Fin 64, ∑ w : Fin 64, a1 (ix4 b (chan cc ch) h w)) * Ideal.ofBits .f32 0x39800000#32 := by
  refine (pay30_ix (k0_pay24 (F := Ideal) x1) u0 u1 u2 ch).trans (congrArg (· * Ideal.ofBits .f32 0x39800000#32) ?_)
  exact (Finset.sum_congr rfl fun p _ => Finset.sum_congr rfl fun q _ => (pay24_ix x1 ch p q).trans (hx ch p q)).trans
    (sum_plane fun h w => a1 (ix4 b (chan cc ch) h w))

/-- The first sum: the accumulator reset, chunk 0 added, chunk 1 added, totalled over the tile and splat over the lanes. -/
theorem sum12a_H (a0 a1 : FVec Ideal S8x256x64x64 .f32) (b : Fin 8) (x0 x1 y0 y1 : FVec Ideal S1x128x32x128 .f32)
    (hx0 : IsBlk a0 b 0 x0) (hx1 : IsBlk a1 b 0 x1) (hy0 : IsBlk a0 b 1 y0) (hy1 : IsBlk a1 b 1 y1)
    (u v : Fin 1) (l : Fin 128) :
    k0_pay19 (F := Ideal) (k0_pay32 (F := Ideal) (k0_pay23 (F := Ideal) y0) (k0_pay24 (F := Ideal) y1)
        (k0_pay32 (F := Ideal) (k0_pay23 (F := Ideal) x0) (k0_pay24 (F := Ideal) x1) (k0_pay21 (F := Ideal)))) (ix3 u v l)
      = ∑ c : Fin 256, ∑ h : Fin 64, ∑ w : Fin 64,
          (a0 (ix4 b c h w) - a1 (ix4 b c h w)) * (a0 (ix4 b c h w) - a1 (ix4 b c h w)) := by
  refine (pay19_ix _ u v l).trans ?_
  refine Eq.trans ?_ (two_chunks fun c h w => (a0 (ix4 b c h w) - a1 (ix4 b c h w)) * (a0 (ix4 b c h w) - a1 (ix4 b c h w)))
  refine Finset.sum_congr rfl fun p _ => Finset.sum_congr rfl fun q _ => ?_
  have e0 : ∀ k, x0 (ix4 (0 : Fin 1) k p q) = a0 (ix4 b (chan 0 k) (rr p q) (rc p q)) := fun k => hx0 k p q
  have e1 : ∀ k, x1 (ix4 (0 : Fin 1) k p q) = a1 (ix4 b (chan 0 k) (rr p q) (rc p q)) := fun k => hx1 k p q
  have e2 : ∀ k, y0 (ix4 (0 : Fin 1) k p q) = a0 (ix4 b (chan 1 k) (rr p q) (rc p q)) := fun k => hy0 k p q
  have e3 : ∀ k, y1 (ix4 (0 : Fin 1) k p q) = a1 (ix4 b (chan 1 k) (rr p q) (rc p q)) := fun k => hy1 k p q
  rw [pay32_ix, pay32_ix, pay21_ix]
  simp only [pay23_ix, pay24_ix, e0, e1, e2, e3]

/-- The second sum: the same with every squared difference weighted by the squared mask at its position. -/
theorem sum12b_H (a0 a1 : FVec Ideal S8x256x64x64 .f32) (a7 : FVec Ideal S8x1x64x64 .f32) (b : Fin 8)
    (x0 x1 y0 y1 : FVec Ideal S1x128x32x128 .f32) (x5 y5 : FVec Ideal S1x1x32x128 .f32)
    (hx0 : IsBlk a0 b 0 x0) (hx1 : IsBlk a1 b 0 x1) (hy0 : IsBlk a0 b 1 y0) (hy1 : IsBlk a1 b 1 y1)
    (hx5 : IsMaskBlk a7 b x5) (hy5 : IsMaskBlk a7 b y5) (u v : Fin 1) (l : Fin 128) :
    k0_pay5 (F := Ideal) (k0_pay18 (F := Ideal) (k0_pay33 (F := Ideal) (k0_pay23 (F := Ideal) y0) (k0_pay24 (F := Ideal) y1) (k0_pay28 (F := Ideal) y5)
        (k0_pay33 (F := Ideal) (k0_pay23 (F := Ideal) x0) (k0_pay24 (F := Ideal) x1) (k0_pay28 (F := Ideal) x5) (k0_pay22 (F := Ideal))))) (ix3 u v l)
      = ∑ c : Fin 256, ∑ h : Fin 64, ∑ w : Fin 64,
          (a0 (ix4 b c h w) - a1 (ix4 b c h w)) * (a0 (ix4 b c h w) - a1 (ix4 b c h w))
            * (a7 (ix4 b (0 : Fin 1) h w) * a7 (ix4 b (0 : Fin 1) h w)) := by
  refine (pay5_ix _ u v l).trans ?_
  refine (pay18_ix _ (0 : Fin 1) (0 : Fin 1)).trans ?_
  refine Eq.trans ?_ (two_chunks fun c h w => (a0 (ix4 b c h w) - a1 (ix4 b c h w)) * (a0 (ix4 b c h w) - a1 (ix4 b c h w))
    * (a7 (ix4 b (0 : Fin 1) h w) * a7 (ix4 b (0 : Fin 1) h w)))
  refine Finset.sum_congr rfl fun p _ => Finset.sum_congr rfl fun q _ => ?_
  have e0 : ∀ k, x0 (ix4 (0 : Fin 1) k p q) = a0 (ix4 b (chan 0 k) (rr p q) (rc p q)) := fun k => hx0 k p q
  have e1 : ∀ k, x1 (ix4 (0 : Fin 1) k p q) = a1 (ix4 b (chan 0 k) (rr p q) (rc p q)) := fun k => hx1 k p q
  have e2 : ∀ k, y0 (ix4 (0 : Fin 1) k p q) = a0 (ix4 b (chan 1 k) (rr p q) (rc p q)) := fun k => hy0 k p q
  have e3 : ∀ k, y1 (ix4 (0 : Fin 1) k p q) = a1 (ix4 b (chan 1 k) (rr p q) (rc p q)) := fun k => hy1 k p q
  rw [pay33_ix, pay33_ix, pay22_ix]
  simp only [pay23_ix, pay24_ix, pay28_ix, e0, e1, e2, e3, hx5 p q, hy5 p q]

end Cert.KernelIdeal.V1
end
-- ==== Proof.Ideal.ValRun1.lean ====
/- The values of the per-channel mean rows and of the two squared-difference sums, second part: the pieces the two
   whole-body runs of the kernel body find in the two mean-row blocks, in the two accumulators of the sums and in the
   sums' block, read back as the pure payloads of the point's input blocks and of what the accumulators held.
   Stated for any float instance. -/
import proofs.«129784_j68891275428342_2_alg».proof.Proof.Ideal.RunA
import proofs.«129784_j68891275428342_2_alg».proof.Proof.Ideal.RunB
import proofs.«129784_j68891275428342_2_alg».proof.Proof.Ideal.ValPay1

set_option maxRecDepth 16384

noncomputable section
namespace Cert.KernelIdeal.V1
open Cert.KernelIdeal Cert.KernelIdeal.Gen Cert.KernelIdeal.Fr
open Idealize.ShloMosaic Idealize.ShloMosaic.TcCoe Idealize.ShloMosaic.Tactic
open Idealize.SL Idealize.SL.Sem
open Idealize.ShloMosaic.Pipeline (Dat)
open Idealize.ShloMosaic.ValueIdx Idealize.ShloMosaic.LibSums

/-! ## Two row stores into a `[1, 2, 128]` block -/

section Rows
variable {Val : EltTy → Type} [∀ e, Nonempty (Val e)]

theorem row0_not_mem_row1 (inb1 : ∀ a, (![0, 1, 0] : Fin 3 → Nat) a + S1x1x128.size a ≤ S1x2x128.size a) (u : Fin 1) (l : Fin 128) :
    ix3 u (0 : Fin 2) l ∉ (Rect.unit (s := S1x2x128) ![0, 1, 0] S1x1x128.size inb1).set := by
  rw [Rect.mem_set_unit]
  intro h
  have h1 : (1 : Nat) ≤ 0 := (h 1).1
  omega

theorem row0_emb (inb0 : ∀ a, (![0, 0, 0] : Fin 3 → Nat) a + S1x1x128.size a ≤ S1x2x128.size a) (u : Fin 1) (l : Fin 128) :
    (Rect.unit (s := S1x2x128) ![0, 0, 0] S1x1x128.size inb0).emb (ix3 (0 : Fin 1) (0 : Fin 1) l) = ix3 u (0 : Fin 2) l := by
  have hu : u.val = 0 := by omega
  funext a
  apply Fin.ext
  match a with
  | ⟨0, _⟩ => show 0 + 1 * 0 = u.val; omega
  | ⟨1, _⟩ => show 0 + 1 * 0 = 0; omega
  | ⟨2, _⟩ => show 0 + 1 * l.val = l.val; omega

theorem row1_emb (inb1 : ∀ a, (![0, 1, 0] : Fin 3 → Nat) a + S1x1x128.size a ≤ S1x2x128.size a) (u : Fin 1) (l : Fin 128) :
    (Rect.unit (s := S1x2x128) ![0, 1, 0] S1x1x128.size inb1).emb (ix3 (0 : Fin 1) (0 : Fin 1) l) = ix3 u (1 : Fin 2) l := by
  have hu : u.val = 0 := by omega
  funext a
  apply Fin.ext
  match a with
  | ⟨0, _⟩ => show 0 + 1 * 0 = u.val; omega
  | ⟨1, _⟩ => show 1 + 1 * 0 = 1; omega
  | ⟨2, _⟩ => show 0 + 1 * l.val = l.val; omega

/-- Row 0 of the block reads the store at row 0, the later store at row 1 leaving it alone. -/
theorem canon_rows_0 (inb0 : ∀ a, (![0, 0, 0] : Fin 3 → Nat) a + S1x1x128.size a ≤ S1x2x128.size a)
    (inb1 : ∀ a, (![0, 1, 0] : Fin 3 → Nat) a + S1x1x128.size a ≤ S1x2x128.size a)
    (w0 w1 : S1x1x128.Idx → Val .f32) (u : Fin 1) (l : Fin 128) :
    View.canon [(⟨Rect.unit (s := S1x2x128) ![0, 1, 0] S1x1x128.size inb1, w1⟩ : View.Piece Val S1x2x128 .f32),
        ⟨Rect.unit (s := S1x2x128) ![0, 0, 0] S1x1x128.size inb0, w0⟩] (ix3 u (0 : Fin 2) l)
      = w0 (ix3 (0 : Fin 1) (0 : Fin 1) l) :=
  (View.canon_cons_of_not_mem (⟨Rect.unit (s := S1x2x128) ![0, 1, 0] S1x1x128.size inb1, w1⟩ : View.Piece Val S1x2x128 .f32)
      [⟨Rect.unit (s := S1x2x128) ![0, 0, 0] S1x1x128.size inb0, w0⟩] (row0_not_mem_row1 inb1 u l)).trans
    ((congrArg (View.canon [(⟨Rect.unit (s := S1x2x128) ![0, 0, 0] S1x1x128.size inb0, w0⟩ : View.Piece Val S1x2x128 .f32)])
        (row0_emb inb0 u l).symm).trans
      (View.canon_cons_emb (Rect.unit (s := S1x2x128) ![0, 0, 0] S1x1x128.size inb0) w0 [] (ix3 (0 : Fin 1) (0 : Fin 1) l)))

/-- Row 1 reads the later store. -/
theorem canon_rows_1 (inb1 : ∀ a, (![0, 1, 0] : Fin 3 → Nat) a + S1x1x128.size a ≤ S1x2x128.size a)
    (w1 : S1x1x128.Idx → Val .f32) (L : List (View.Piece Val S1x2x128 .f32)) (u : Fin 1) (l : Fin 128) :
    View.canon ((⟨Rect.unit (s := S1x2x128) ![0, 1, 0] S1x1x128.size inb1, w1⟩ : View.Piece Val S1x2x128 .f32) :: L)
        (ix3 u (1 : Fin 2) l)
      = w1 (ix3 (0 : Fin 1) (0 : Fin 1) l) :=
  (congrArg (View.canon ((⟨Rect.unit (s := S1x2x128) ![0, 1, 0] S1x1x128.size inb1, w1⟩ : View.Piece Val S1x2x128 .f32) :: L))
      (row1_emb inb1 u l).symm).trans
    (View.canon_cons_emb (Rect.unit (s := S1x2x128) ![0, 1, 0] S1x1x128.size inb1) w1 L (ix3 (0 : Fin 1) (0 : Fin 1) l))

end Rows

/-! ## The pieces the whole-body run of an even point found -/

section RunA
variable {F : FTy → Type} [FloatOps F]

theorem hz2 : (![0, 0] : Fin 2 → Nat) = fun _ => 0 := funext fun a => by fin_cases a <;> rfl
theorem hz4 : (![0, 0, 0, 0] : Fin 4 → Nat) = fun _ => 0 := funext fun a => by fin_cases a <;> rfl

set_option maxHeartbeats 1600000 in
/-- The first mean row's one store: the mean payload of the first input block. -/
theorem runA_o6 (c : Dev nD) (i : grid0.Coords) (arg2 : Memref sig .tc .vmem S1x128x32x128 .f32) (harg2 : arg2.IsWhole) (arg3 : Memref sig .tc .vmem S1x128x32x128 .f32) (harg3 : arg3.IsWhole) (arg4 : Memref sig .tc .vmem S1x128x32x128 .f32) (harg4 : arg4.IsWhole) (arg5 : Memref sig .tc .vmem S1x128x32x128 .f32) (harg5 : arg5.IsWhole) (arg6 : Memref sig .tc .vmem S1x128x32x128 .f32) (harg6 : arg6.IsWhole) (arg7 : Memref sig .tc .vmem S1x1x32x128 .f32) (harg7 : arg7.IsWhole) (arg8 : Memref sig .tc .vmem S1x1x1x128 .f32) (harg8 : arg8.IsWhole) (arg9 : Memref sig .tc .vmem S1x1x1x128 .f32) (harg9 : arg9.IsWhole) (arg10 : Memref sig .tc .vmem S1x32x128 .f32) (harg10 : arg10.IsWhole) (arg11 : Memref sig .tc .vmem S1x32x128 .f32) (harg11 : arg11.IsWhole) (arg12 : Memref sig .tc .vmem S1x32x128 .f32) (harg12 : arg12.IsWhole) (arg13 : Memref sig .tc .vmem S1x32x128 .f32) (harg13 : arg13.IsWhole) (arg14 : Memref sig .tc .vmem S1x2x128 .f32) (harg14 : arg14.IsWhole) (arg15 : Memref sig .tc .vmem S32x128 .f32) (harg15 : arg15.IsWhole) (arg16 : Memref sig .tc .vmem S32x128 .f32) (harg16 : arg16.IsWhole) (arg17 : Memref sig .tc .vmem S32x128 .f32) (harg17 : arg17.IsWhole) (arg18 : Memref sig .tc .vmem S32x128 .f32) (harg18 : arg18.IsWhole) (arg19 : Memref sig .tc .vmem S32x128 .f32) (harg19 : arg19.IsWhole) (arg20 : Memref sig .tc .vmem S32x128 .f32) (harg20 : arg20.IsWhole) (arg21 : Memref sig .tc .vmem S32x128 .f32) (harg21 : arg21.IsWhole) (arg22 : Memref sig .tc .vmem S32x128 .f32) (harg22 : arg22.IsWhole) (arg23 : Memref sig .tc .vmem S32x128 .f32) (harg23 : arg23.IsWhole) (arg24 : Memref sig .tc .vmem S32x128 .f32) (harg24 : arg24.IsWhole) (hc0 : cond0_0 i) (hc1 : ¬cond0_1 i)
    (x0 x1 x2 x3 x4 : Vec F S1x128x32x128 .f32) (x5 : Vec F S1x1x32x128 .f32) :
    View.canon (kernelRun0_A (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5).1 = k0_pay29 x0 := by
  unfold kernelRun0_A
  dsimp only
  sl_unfold_words
  rw [View.canon_unit_zero (S := S1x1x1x128) hz4]
  simp only [View.readAt_eq_ld, Memref.IsWhole.read_unread, View.ld_unit_zero (S := S1x128x32x128) hz4]

set_option maxHeartbeats 1600000 in
/-- The second mean row's one store. -/
theorem runA_o7 (c : Dev nD) (i : grid0.Coords) (arg2 : Memref sig .tc .vmem S1x128x32x128 .f32) (harg2 : arg2.IsWhole) (arg3 : Memref sig .tc .vmem S1x128x32x128 .f32) (harg3 : arg3.IsWhole) (arg4 : Memref sig .tc .vmem S1x128x32x128 .f32) (harg4 : arg4.IsWhole) (arg5 : Memref sig .tc .vmem S1x128x32x128 .f32) (harg5 : arg5.IsWhole) (arg6 : Memref sig .tc .vmem S1x128x32x128 .f32) (harg6 : arg6.IsWhole) (arg7 : Memref sig .tc .vmem S1x1x32x128 .f32) (harg7 : arg7.IsWhole) (arg8 : Memref sig .tc .vmem S1x1x1x128 .f32) (harg8 : arg8.IsWhole) (arg9 : Memref sig .tc .vmem S1x1x1x128 .f32) (harg9 : arg9.IsWhole) (arg10 : Memref sig .tc .vmem S1x32x128 .f32) (harg10 : arg10.IsWhole) (arg11 : Memref sig .tc .vmem S1x32x128 .f32) (harg11 : arg11.IsWhole) (arg12 : Memref sig .tc .vmem S1x32x128 .f32) (harg12 : arg12.IsWhole) (arg13 : Memref sig .tc .vmem S1x32x128 .f32) (harg13 : arg13.IsWhole) (arg14 : Memref sig .tc .vmem S1x2x128 .f32) (harg14 : arg14.IsWhole) (arg15 : Memref sig .tc .vmem S32x128 .f32) (harg15 : arg15.IsWhole) (arg16 : Memref sig .tc .vmem S32x128 .f32) (harg16 : arg16.IsWhole) (arg17 : Memref sig .tc .vmem S32x128 .f32) (harg17 : arg17.IsWhole) (arg18 : Memref sig .tc .vmem S32x128 .f32) (harg18 : arg18.IsWhole) (arg19 : Memref sig .tc .vmem S32x128 .f32) (harg19 : arg19.IsWhole) (arg20 : Memref sig .tc .vmem S32x128 .f32) (harg20 : arg20.IsWhole) (arg21 : Memref sig .tc .vmem S32x128 .f32) (harg21 : arg21.IsWhole) (arg22 : Memref sig .tc .vmem S32x128 .f32) (harg22 : arg22.IsWhole) (arg23 : Memref sig .tc .vmem S32x128 .f32) (harg23 : arg23.IsWhole) (arg24 : Memref sig .tc .vmem S32x128 .f32) (harg24 : arg24.IsWhole) (hc0 : cond0_0 i) (hc1 : ¬cond0_1 i)
    (x0 x1 x2 x3 x4 : Vec F S1x128x32x128 .f32) (x5 : Vec F S1x1x32x128 .f32) :
    View.canon (kernelRun0_A (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5).2.1 = k0_pay30 (k0_pay24 x1) := by
  unfold kernelRun0_A
  dsimp only
  sl_unfold_words
  rw [View.canon_unit_zero (S := S1x1x1x128) hz4]
  simp only [View.readAt_eq_ld, Memref.IsWhole.read_unread, View.ld_unit_zero (S := S1x128x32x128) hz4]

set_option maxHeartbeats 1600000 in
/-- The first sum's accumulator: the reset, read back, and the chunk added. -/
theorem runA_s8 (c : Dev nD) (i : grid0.Coords) (arg2 : Memref sig .tc .vmem S1x128x32x128 .f32) (harg2 : arg2.IsWhole) (arg3 : Memref sig .tc .vmem S1x128x32x128 .f32) (harg3 : arg3.IsWhole) (arg4 : Memref sig .tc .vmem S1x128x32x128 .f32) (harg4 : arg4.IsWhole) (arg5 : Memref sig .tc .vmem S1x128x32x128 .f32) (harg5 : arg5.IsWhole) (arg6 : Memref sig .tc .vmem S1x128x32x128 .f32) (harg6 : arg6.IsWhole) (arg7 : Memref sig .tc .vmem S1x1x32x128 .f32) (harg7 : arg7.IsWhole) (arg8 : Memref sig .tc .vmem S1x1x1x128 .f32) (harg8 : arg8.IsWhole) (arg9 : Memref sig .tc .vmem S1x1x1x128 .f32) (harg9 : arg9.IsWhole) (arg10 : Memref sig .tc .vmem S1x32x128 .f32) (harg10 : arg10.IsWhole) (arg11 : Memref sig .tc .vmem S1x32x128 .f32) (harg11 : arg11.IsWhole) (arg12 : Memref sig .tc .vmem S1x32x128 .f32) (harg12 : arg12.IsWhole) (arg13 : Memref sig .tc .vmem S1x32x128 .f32) (harg13 : arg13.IsWhole) (arg14 : Memref sig .tc .vmem S1x2x128 .f32) (harg14 : arg14.IsWhole) (arg15 : Memref sig .tc .vmem S32x128 .f32) (harg15 : arg15.IsWhole) (arg16 : Memref sig .tc .vmem S32x128 .f32) (harg16 : arg16.IsWhole) (arg17 : Memref sig .tc .vmem S32x128 .f32) (harg17 : arg17.IsWhole) (arg18 : Memref sig .tc .vmem S32x128 .f32) (harg18 : arg18.IsWhole) (arg19 : Memref sig .tc .vmem S32x128 .f32) (harg19 : arg19.IsWhole) (arg20 : Memref sig .tc .vmem S32x128 .f32) (harg20 : arg20.IsWhole) (arg21 : Memref sig .tc .vmem S32x128 .f32) (harg21 : arg21.IsWhole) (arg22 : Memref sig .tc .vmem S32x128 .f32) (harg22 : arg22.IsWhole) (arg23 : Memref sig .tc .vmem S32x128 .f32) (harg23 : arg23.IsWhole) (arg24 : Memref sig .tc .vmem S32x128 .f32) (harg24 : arg24.IsWhole) (hc0 : cond0_0 i) (hc1 : ¬cond0_1 i)
    (x0 x1 x2 x3 x4 : Vec F S1x128x32x128 .f32) (x5 : Vec F S1x1x32x128 .f32) :
    View.canon (kernelRun0_A (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5).2.2.2.2.2.2.2.2.2.2.1 = k0_pay32 (k0_pay23 x0) (k0_pay24 x1) k0_pay21 := by
  unfold kernelRun0_A
  dsimp only
  sl_unfold_words
  rw [View.canon_cons_unit_zero (S := S32x128) hz2]
  simp only [View.readAt_eq_ld, Memref.IsWhole.read_unread, View.ld_unit_zero (S := S1x128x32x128) hz4,
    View.readCov_unit_zero (S := S32x128) _ hz2]

set_option maxHeartbeats 1600000 in
/-- The second sum's accumulator. -/
theorem runA_s9 (c : Dev nD) (i : grid0.Coords) (arg2 : Memref sig .tc .vmem S1x128x32x128 .f32) (harg2 : arg2.IsWhole) (arg3 : Memref sig .tc .vmem S1x128x32x128 .f32) (harg3 : arg3.IsWhole) (arg4 : Memref sig .tc .vmem S1x128x32x128 .f32) (harg4 : arg4.IsWhole) (arg5 : Memref sig .tc .vmem S1x128x32x128 .f32) (harg5 : arg5.IsWhole) (arg6 : Memref sig .tc .vmem S1x128x32x128 .f32) (harg6 : arg6.IsWhole) (arg7 : Memref sig .tc .vmem S1x1x32x128 .f32) (harg7 : arg7.IsWhole) (arg8 : Memref sig .tc .vmem S1x1x1x128 .f32) (harg8 : arg8.IsWhole) (arg9 : Memref sig .tc .vmem S1x1x1x128 .f32) (harg9 : arg9.IsWhole) (arg10 : Memref sig .tc .vmem S1x32x128 .f32) (harg10 : arg10.IsWhole) (arg11 : Memref sig .tc .vmem S1x32x128 .f32) (harg11 : arg11.IsWhole) (arg12 : Memref sig .tc .vmem S1x32x128 .f32) (harg12 : arg12.IsWhole) (arg13 : Memref sig .tc .vmem S1x32x128 .f32) (harg13 : arg13.IsWhole) (arg14 : Memref sig .tc .vmem S1x2x128 .f32) (harg14 : arg14.IsWhole) (arg15 : Memref sig .tc .vmem S32x128 .f32) (harg15 : arg15.IsWhole) (arg16 : Memref sig .tc .vmem S32x128 .f32) (harg16 : arg16.IsWhole) (arg17 : Memref sig .tc .vmem S32x128 .f32) (harg17 : arg17.IsWhole) (arg18 : Memref sig .tc .vmem S32x128 .f32) (harg18 : arg18.IsWhole) (arg19 : Memref sig .tc .vmem S32x128 .f32) (harg19 : arg19.IsWhole) (arg20 : Memref sig .tc .vmem S32x128 .f32) (harg20 : arg20.IsWhole) (arg21 : Memref sig .tc .vmem S32x128 .f32) (harg21 : arg21.IsWhole) (arg22 : Memref sig .tc .vmem S32x128 .f32) (harg22 : arg22.IsWhole) (arg23 : Memref sig .tc .vmem S32x128 .f32) (harg23 : arg23.IsWhole) (arg24 : Memref sig .tc .vmem S32x128 .f32) (harg24 : arg24.IsWhole) (hc0 : cond0_0 i) (hc1 : ¬cond0_1 i)
    (x0 x1 x2 x3 x4 : Vec F S1x128x32x128 .f32) (x5 : Vec F S1x1x32x128 .f32) :
    View.canon (kernelRun0_A (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5).2.2.2.2.2.2.2.2.2.2.2.1 = k0_pay33 (k0_pay23 x0) (k0_pay24 x1) (k0_pay28 x5) k0_pay22 := by
  unfold kernelRun0_A
  dsimp only
  sl_unfold_words
  rw [View.canon_cons_unit_zero (S := S32x128) hz2]
  simp only [View.readAt_eq_ld, Memref.IsWhole.read_unread, View.ld_unit_zero (S := S1x128x32x128) hz4,
    View.ld_unit_zero (S := S1x1x32x128) hz4, View.readCov_unit_zero (S := S32x128) _ hz2]

end RunA

/-! ## The pieces the whole-body run of an odd point found -/

section RunB
variable {F : FTy → Type} [FloatOps F]

set_option maxHeartbeats 1600000 in
/-- The first mean row's one store. -/
theorem runB_o6 (c : Dev nD) (i : grid0.Coords) (arg2 : Memref sig .tc .vmem S1x128x32x128 .f32) (harg2 : arg2.IsWhole) (arg3 : Memref sig .tc .vmem S1x128x32x128 .f32) (harg3 : arg3.IsWhole) (arg4 : Memref sig .tc .vmem S1x128x32x128 .f32) (harg4 : arg4.IsWhole) (arg5 : Memref sig .tc .vmem S1x128x32x128 .f32) (harg5 : arg5.IsWhole) (arg6 : Memref sig .tc .vmem S1x128x32x128 .f32) (harg6 : arg6.IsWhole) (arg7 : Memref sig .tc .vmem S1x1x32x128 .f32) (harg7 : arg7.IsWhole) (arg8 : Memref sig .tc .vmem S1x1x1x128 .f32) (harg8 : arg8.IsWhole) (arg9 : Memref sig .tc .vmem S1x1x1x128 .f32) (harg9 : arg9.IsWhole) (arg10 : Memref sig .tc .vmem S1x32x128 .f32) (harg10 : arg10.IsWhole) (arg11 : Memref sig .tc .vmem S1x32x128 .f32) (harg11 : arg11.IsWhole) (arg12 : Memref sig .tc .vmem S1x32x128 .f32) (harg12 : arg12.IsWhole) (arg13 : Memref sig .tc .vmem S1x32x128 .f32) (harg13 : arg13.IsWhole) (arg14 : Memref sig .tc .vmem S1x2x128 .f32) (harg14 : arg14.IsWhole) (arg15 : Memref sig .tc .vmem S32x128 .f32) (harg15 : arg15.IsWhole) (arg16 : Memref sig .tc .vmem S32x128 .f32) (harg16 : arg16.IsWhole) (arg17 : Memref sig .tc .vmem S32x128 .f32) (harg17 : arg17.IsWhole) (arg18 : Memref sig .tc .vmem S32x128 .f32) (harg18 : arg18.IsWhole) (arg19 : Memref sig .tc .vmem S32x128 .f32) (harg19 : arg19.IsWhole) (arg20 : Memref sig .tc .vmem S32x128 .f32) (harg20 : arg20.IsWhole) (arg21 : Memref sig .tc .vmem S32x128 .f32) (harg21 : arg21.IsWhole) (arg22 : Memref sig .tc .vmem S32x128 .f32) (harg22 : arg22.IsWhole) (arg23 : Memref sig .tc .vmem S32x128 .f32) (harg23 : arg23.IsWhole) (arg24 : Memref sig .tc .vmem S32x128 .f32) (harg24 : arg24.IsWhole) (hc0 : ¬cond0_0 i) (hc1 : cond0_1 i)
    (x0 x1 x2 x3 x4 : Vec F S1x128x32x128 .f32) (x5 : Vec F S1x1x32x128 .f32) (xs0 xs1 xs2 xs3 xs4 xs5 xs6 xs7 xs8 xs9 : Vec F S32x128 .f32) :
    View.canon (kernelRun0_B (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 xs0 xs1 xs2 xs3 xs4 xs5 xs6 xs7 xs8 xs9).1 = k0_pay29 x0 := by
  unfold kernelRun0_B
  dsimp only
  sl_unfold_words
  rw [View.canon_unit_zero (S := S1x1x1x128) hz4]
  simp only [View.readAt_eq_ld, Memref.IsWhole.read_unread, View.ld_unit_zero (S := S1x128x32x128) hz4]

set_option maxHeartbeats 1600000 in
/-- The second mean row's one store. -/
theorem runB_o7 (c : Dev nD) (i : grid0.Coords) (arg2 : Memref sig .tc .vmem S1x128x32x128 .f32) (harg2 : arg2.IsWhole) (arg3 : Memref sig .tc .vmem S1x128x32x128 .f32) (harg3 : arg3.IsWhole) (arg4 : Memref sig .tc .vmem S1x128x32x128 .f32) (harg4 : arg4.IsWhole) (arg5 : Memref sig .tc .vmem S1x128x32x128 .f32) (harg5 : arg5.IsWhole) (arg6 : Memref sig .tc .vmem S1x128x32x128 .f32) (harg6 : arg6.IsWhole) (arg7 : Memref sig .tc .vmem S1x1x32x128 .f32) (harg7 : arg7.IsWhole) (arg8 : Memref sig .tc .vmem S1x1x1x128 .f32) (harg8 : arg8.IsWhole) (arg9 : Memref sig .tc .vmem S1x1x1x128 .f32) (harg9 : arg9.IsWhole) (arg10 : Memref sig .tc .vmem S1x32x128 .f32) (harg10 : arg10.IsWhole) (arg11 : Memref sig .tc .vmem S1x32x128 .f32) (harg11 : arg11.IsWhole) (arg12 : Memref sig .tc .vmem S1x32x128 .f32) (harg12 : arg12.IsWhole) (arg13 : Memref sig .tc .vmem S1x32x128 .f32) (harg13 : arg13.IsWhole) (arg14 : Memref sig .tc .vmem S1x2x128 .f32) (harg14 : arg14.IsWhole) (arg15 : Memref sig .tc .vmem S32x128 .f32) (harg15 : arg15.IsWhole) (arg16 : Memref sig .tc .vmem S32x128 .f32) (harg16 : arg16.IsWhole) (arg17 : Memref sig .tc .vmem S32x128 .f32) (harg17 : arg17.IsWhole) (arg18 : Memref sig .tc .vmem S32x128 .f32) (harg18 : arg18.IsWhole) (arg19 : Memref sig .tc .vmem S32x128 .f32) (harg19 : arg19.IsWhole) (arg20 : Memref sig .tc .vmem S32x128 .f32) (harg20 : arg20.IsWhole) (arg21 : Memref sig .tc .vmem S32x128 .f32) (harg21 : arg21.IsWhole) (arg22 : Memref sig .tc .vmem S32x128 .f32) (harg22 : arg22.IsWhole) (arg23 : Memref sig .tc .vmem S32x128 .f32) (harg23 : arg23.IsWhole) (arg24 : Memref sig .tc .vmem S32x128 .f32) (harg24 : arg24.IsWhole) (hc0 : ¬cond0_0 i) (hc1 : cond0_1 i)
    (x0 x1 x2 x3 x4 : Vec F S1x128x32x128 .f32) (x5 : Vec F S1x1x32x128 .f32) (xs0 xs1 xs2 xs3 xs4 xs5 xs6 xs7 xs8 xs9 : Vec F S32x128 .f32) :
    View.canon (kernelRun0_B (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 xs0 xs1 xs2 xs3 xs4 xs5 xs6 xs7 xs8 xs9).2.1 = k0_pay30 (k0_pay24 x1) := by
  unfold kernelRun0_B
  dsimp only
  sl_unfold_words
  rw [View.canon_unit_zero (S := S1x1x1x128) hz4]
  simp only [View.readAt_eq_ld, Memref.IsWhole.read_unread, View.ld_unit_zero (S := S1x128x32x128) hz4]

set_option maxHeartbeats 1600000 in
/-- Row 0 of the sums' block: the first accumulator, the chunk added to what the point before left, totalled and splat. -/
theorem runB_o12_row0 (c : Dev nD) (i : grid0.Coords) (arg2 : Memref sig .tc .vmem S1x128x32x128 .f32) (harg2 : arg2.IsWhole) (arg3 : Memref sig .tc .vmem S1x128x32x128 .f32) (harg3 : arg3.IsWhole) (arg4 : Memref sig .tc .vmem S1x128x32x128 .f32) (harg4 : arg4.IsWhole) (arg5 : Memref sig .tc .vmem S1x128x32x128 .f32) (harg5 : arg5.IsWhole) (arg6 : Memref sig .tc .vmem S1x128x32x128 .f32) (harg6 : arg6.IsWhole) (arg7 : Memref sig .tc .vmem S1x1x32x128 .f32) (harg7 : arg7.IsWhole) (arg8 : Memref sig .tc .vmem S1x1x1x128 .f32) (harg8 : arg8.IsWhole) (arg9 : Memref sig .tc .vmem S1x1x1x128 .f32) (harg9 : arg9.IsWhole) (arg10 : Memref sig .tc .vmem S1x32x128 .f32) (harg10 : arg10.IsWhole) (arg11 : Memref sig .tc .vmem S1x32x128 .f32) (harg11 : arg11.IsWhole) (arg12 : Memref sig .tc .vmem S1x32x128 .f32) (harg12 : arg12.IsWhole) (arg13 : Memref sig .tc .vmem S1x32x128 .f32) (harg13 : arg13.IsWhole) (arg14 : Memref sig .tc .vmem S1x2x128 .f32) (harg14 : arg14.IsWhole) (arg15 : Memref sig .tc .vmem S32x128 .f32) (harg15 : arg15.IsWhole) (arg16 : Memref sig .tc .vmem S32x128 .f32) (harg16 : arg16.IsWhole) (arg17 : Memref sig .tc .vmem S32x128 .f32) (harg17 : arg17.IsWhole) (arg18 : Memref sig .tc .vmem S32x128 .f32) (harg18 : arg18.IsWhole) (arg19 : Memref sig .tc .vmem S32x128 .f32) (harg19 : arg19.IsWhole) (arg20 : Memref sig .tc .vmem S32x128 .f32) (harg20 : arg20.IsWhole) (arg21 : Memref sig .tc .vmem S32x128 .f32) (harg21 : arg21.IsWhole) (arg22 : Memref sig .tc .vmem S32x128 .f32) (harg22 : arg22.IsWhole) (arg23 : Memref sig .tc .vmem S32x128 .f32) (harg23 : arg23.IsWhole) (arg24 : Memref sig .tc .vmem S32x128 .f32) (harg24 : arg24.IsWhole) (hc0 : ¬cond0_0 i) (hc1 : cond0_1 i)
    (x0 x1 x2 x3 x4 : Vec F S1x128x32x128 .f32) (x5 : Vec F S1x1x32x128 .f32) (xs0 xs1 xs2 xs3 xs4 xs5 xs6 xs7 xs8 xs9 : Vec F S32x128 .f32) (u : Fin 1) (l : Fin 128) :
    View.canon (kernelRun0_B (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 xs0 xs1 xs2 xs3 xs4 xs5 xs6 xs7 xs8 xs9).2.2.2.2.2.2.1 (ix3 u (0 : Fin 2) l)
      = k0_pay19 (k0_pay32 (k0_pay23 x0) (k0_pay24 x1) xs8) (ix3 (0 : Fin 1) (0 : Fin 1) l) := by
  unfold kernelRun0_B
  dsimp only
  sl_unfold_words
  refine (canon_rows_0 _ _ _ _ u l).trans ?_
  simp only [View.readAt_eq_ld, Memref.IsWhole.read_unread, View.ld_unit_zero (S := S1x128x32x128) hz4,
    View.ld_unit_zero (S := S32x128) hz2, View.readCov_unit_zero (S := S32x128) _ hz2]

set_option maxHeartbeats 1600000 in
/-- Row 1: the second accumulator. -/
theorem runB_o12_row1 (c : Dev nD) (i : grid0.Coords) (arg2 : Memref sig .tc .vmem S1x128x32x128 .f32) (harg2 : arg2.IsWhole) (arg3 : Memref sig .tc .vmem S1x128x32x128 .f32) (harg3 : arg3.IsWhole) (arg4 : Memref sig .tc .vmem S1x128x32x128 .f32) (harg4 : arg4.IsWhole) (arg5 : Memref sig .tc .vmem S1x128x32x128 .f32) (harg5 : arg5.IsWhole) (arg6 : Memref sig .tc .vmem S1x128x32x128 .f32) (harg6 : arg6.IsWhole) (arg7 : Memref sig .tc .vmem S1x1x32x128 .f32) (harg7 : arg7.IsWhole) (arg8 : Memref sig .tc .vmem S1x1x1x128 .f32) (harg8 : arg8.IsWhole) (arg9 : Memref sig .tc .vmem S1x1x1x128 .f32) (harg9 : arg9.IsWhole) (arg10 : Memref sig .tc .vmem S1x32x128 .f32) (harg10 : arg10.IsWhole) (arg11 : Memref sig .tc .vmem S1x32x128 .f32) (harg11 : arg11.IsWhole) (arg12 : Memref sig .tc .vmem S1x32x128 .f32) (harg12 : arg12.IsWhole) (arg13 : Memref sig .tc .vmem S1x32x128 .f32) (harg13 : arg13.IsWhole) (arg14 : Memref sig .tc .vmem S1x2x128 .f32) (harg14 : arg14.IsWhole) (arg15 : Memref sig .tc .vmem S32x128 .f32) (harg15 : arg15.IsWhole) (arg16 : Memref sig .tc .vmem S32x128 .f32) (harg16 : arg16.IsWhole) (arg17 : Memref sig .tc .vmem S32x128 .f32) (harg17 : arg17.IsWhole) (arg18 : Memref sig .tc .vmem S32x128 .f32) (harg18 : arg18.IsWhole) (arg19 : Memref sig .tc .vmem S32x128 .f32) (harg19 : arg19.IsWhole) (arg20 : Memref sig .tc .vmem S32x128 .f32) (harg20 : arg20.IsWhole) (arg21 : Memref sig .tc .vmem S32x128 .f32) (harg21 : arg21.IsWhole) (arg22 : Memref sig .tc .vmem S32x128 .f32) (harg22 : arg22.IsWhole) (arg23 : Memref sig .tc .vmem S32x128 .f32) (harg23 : arg23.IsWhole) (arg24 : Memref sig .tc .vmem S32x128 .f32) (harg24 : arg24.IsWhole) (hc0 : ¬cond0_0 i) (hc1 : cond0_1 i)
    (x0 x1 x2 x3 x4 : Vec F S1x128x32x128 .f32) (x5 : Vec F S1x1x32x128 .f32) (xs0 xs1 xs2 xs3 xs4 xs5 xs6 xs7 xs8 xs9 : Vec F S32x128 .f32) (u : Fin 1) (l : Fin 128) :
    View.canon (kernelRun0_B (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 xs0 xs1 xs2 xs3 xs4 xs5 xs6 xs7 xs8 xs9).2.2.2.2.2.2.1 (ix3 u (1 : Fin 2) l)
      = k0_pay5 (k0_pay18 (k0_pay33 (k0_pay23 x0) (k0_pay24 x1) (k0_pay28 x5) xs9)) (ix3 (0 : Fin 1) (0 : Fin 1) l) := by
  unfold kernelRun0_B
  dsimp only
  sl_unfold_words
  refine (canon_rows_1 _ _ _ u l).trans ?_
  simp only [View.readAt_eq_ld, Memref.IsWhole.read_unread, View.ld_unit_zero (S := S1x128x32x128) hz4,
    View.ld_unit_zero (S := S1x1x32x128) hz4, View.ld_unit_zero (S := S32x128) hz2,
    View.readCov_unit_zero (S := S32x128) _ hz2]

end RunB

end Cert.KernelIdeal.V1
end
-- ==== Proof.Ideal.ValBlk1.lean ====
/- The values of the per-channel mean rows and of the two squared-difference sums, third part: what the body leaves at a point as payloads
   of the point's input blocks; what each point leaves in the three windows; each window's block
   written back as a block of one whole-array function of the argument arrays; the blocks cover the arrays; so the
   three arrays end holding the closed forms. -/
import proofs.«129784_j68891275428342_2_alg».proof.Proof.Ideal.Frame
import proofs.«129784_j68891275428342_2_alg».proof.Proof.Ideal.Blocks
import proofs.«129784_j68891275428342_2_alg».proof.Proof.Ideal.ValRun1

set_option maxRecDepth 16384

noncomputable section

namespace Cert.KernelIdeal.V1

open Cert.KernelIdeal Cert.KernelIdeal.Gen Cert.KernelIdeal.Fr
open Idealize.ShloMosaic Idealize.ShloMosaic.TcCoe Idealize.ShloMosaic.Tactic
open Idealize.SL Idealize.SL.Sem
open Idealize.ShloMosaic.Pipeline (Dat)
open Idealize.ShloMosaic.ValueIdx Idealize.ShloMosaic.LibSums
open Cert.Iface (chan hab rr rc)
open scoped BigOperators

/-! ## The grid: point `t` is batch `t / 2`, channel chunk `t % 2` -/

/-- The printed index maps, decided over the grid. -/
theorem idx_facts : ∀ t : Fin cfg0.N,
    win0_6.index t = ![t.val / 2, t.val % 2, 0, 0] ∧ win0_7.index t = ![t.val / 2, t.val % 2, 0, 0]
    ∧ win0_12.index t = ![t.val / 2, 0, 0] :=
  (by decide +kernel : ∀ t : Fin grid0.N, _)

/-- Every block of the three windows is whole. -/
theorem xsize_facts : ∀ t : Fin cfg0.N,
    win0_6.xsize (grid0.coords t) = ![1, 1, 1, 128] ∧ win0_7.xsize (grid0.coords t) = ![1, 1, 1, 128]
    ∧ win0_12.xsize (grid0.coords t) = ![1, 2, 128] :=
  (by decide +kernel : ∀ t : Fin grid0.N, _)

/-- The point of batch `b` and chunk `cc`. -/
def tOf (b : Fin 8) (cc : Fin 2) : Fin cfg0.N := ⟨2 * b.val + cc.val, by rw [show cfg0.N = 16 from N_0]; omega⟩

theorem tOf_val (b : Fin 8) (cc : Fin 2) : (tOf b cc).val = 2 * b.val + cc.val := rfl

theorem mem_blk6 (t : Fin cfg0.N) (i : S8x2x1x128.Idx) :
    i ∈ ((cfg0.win 6).blk t).view.set ↔ ∀ a : Fin 4, win0_6.index t a * win0_6.size a ≤ (i a).val
      ∧ (i a).val < win0_6.index t a * win0_6.size a + win0_6.xsize (grid0.coords t) a := by
  show i ∈ ((View.whole main_v6_0).slice (win0_6.rect t)).set ↔ _
  rw [View.set_slice_whole, Rect.mem_set_unit]
  exact Iff.rfl

theorem cover6 (i : S8x2x1x128.Idx) : ∃ t : Fin cfg0.N, (cfg0.win 6).flush t = true ∧ i ∈ ((cfg0.win 6).blk t).view.set := by
  refine ⟨tOf (i 0) (i 1), flush0_6 _, (mem_blk6 _ i).mpr fun a => ?_⟩
  obtain ⟨e6, -, -⟩ := idx_facts (tOf (i 0) (i 1))
  obtain ⟨x6, -, -⟩ := xsize_facts (tOf (i 0) (i 1))
  rw [e6, x6]
  have h0 : (i 0).val < 8 := (i 0).isLt
  have h1 : (i 1).val < 2 := (i 1).isLt
  have h2 : (i 2).val < 1 := (i 2).isLt
  have h3 : (i 3).val < 128 := (i 3).isLt
  match a with
  | ⟨0, _⟩ => show (2 * (i 0).val + (i 1).val) / 2 * 1 ≤ (i 0).val ∧ (i 0).val < (2 * (i 0).val + (i 1).val) / 2 * 1 + 1; omega
  | ⟨1, _⟩ => show (2 * (i 0).val + (i 1).val) % 2 * 1 ≤ (i 1).val ∧ (i 1).val < (2 * (i 0).val + (i 1).val) % 2 * 1 + 1; omega
  | ⟨2, _⟩ => show 0 * 1 ≤ (i 2).val ∧ (i 2).val < 0 * 1 + 1; omega
  | ⟨3, _⟩ => show 0 * 128 ≤ (i 3).val ∧ (i 3).val < 0 * 128 + 128; omega

theorem mem_blk7 (t : Fin cfg0.N) (i : S8x2x1x128.Idx) :
    i ∈ ((cfg0.win 7).blk t).view.set ↔ ∀ a : Fin 4, win0_7.index t a * win0_7.size a ≤ (i a).val
      ∧ (i a).val < win0_7.index t a * win0_7.size a + win0_7.xsize (grid0.coords t) a := by
  show i ∈ ((View.whole main_v6_1).slice (win0_7.rect t)).set ↔ _
  rw [View.set_slice_whole, Rect.mem_set_unit]
  exact Iff.rfl

theorem cover7 (i : S8x2x1x128.Idx) : ∃ t : Fin cfg0.N, (cfg0.win 7).flush t = true ∧ i ∈ ((cfg0.win 7).blk t).view.set := by
  refine ⟨tOf (i 0) (i 1), flush0_7 _, (mem_blk7 _ i).mpr fun a => ?_⟩
  obtain ⟨-, e7, -⟩ := idx_facts (tOf (i 0) (i 1))
  obtain ⟨-, x7, -⟩ := xsize_facts (tOf (i 0) (i 1))
  rw [e7, x7]
  have h0 : (i 0).val < 8 := (i 0).isLt
  have h1 : (i 1).val < 2 := (i 1).isLt
  have h2 : (i 2).val < 1 := (i 2).isLt
  have h3 : (i 3).val < 128 := (i 3).isLt
  match a with
  | ⟨0, _⟩ => show (2 * (i 0).val + (i 1).val) / 2 * 1 ≤ (i 0).val ∧ (i 0).val < (2 * (i 0).val + (i 1).val) / 2 * 1 + 1; omega
  | ⟨1, _⟩ => show (2 * (i 0).val + (i 1).val) % 2 * 1 ≤ (i 1).val ∧ (i 1).val < (2 * (i 0).val + (i 1).val) % 2 * 1 + 1; omega
  | ⟨2, _⟩ => show 0 * 1 ≤ (i 2).val ∧ (i 2).val < 0 * 1 + 1; omega
  | ⟨3, _⟩ => show 0 * 128 ≤ (i 3).val ∧ (i 3).val < 0 * 128 + 128; omega

theorem mem_blk12 (t : Fin cfg0.N) (i : S8x2x128.Idx) :
    i ∈ ((cfg0.win 12).blk t).view.set ↔ ∀ a : Fin 3, win0_12.index t a * win0_12.size a ≤ (i a).val
      ∧ (i a).val < win0_12.index t a * win0_12.size a + win0_12.xsize (grid0.coords t) a := by
  show i ∈ ((View.whole main_v6_6).slice (win0_12.rect t)).set ↔ _
  rw [View.set_slice_whole, Rect.mem_set_unit]
  exact Iff.rfl

theorem cover12 (i : S8x2x128.Idx) : ∃ t : Fin cfg0.N, (cfg0.win 12).flush t = true ∧ i ∈ ((cfg0.win 12).blk t).view.set := by
  refine ⟨tOf (i 0) 1, (flush0_12 _).mpr (by show (2 * (i 0).val + 1) % 2 = 1; omega), (mem_blk12 _ i).mpr fun a => ?_⟩
  obtain ⟨-, -, e12⟩ := idx_facts (tOf (i 0) 1)
  obtain ⟨-, -, x12⟩ := xsize_facts (tOf (i 0) 1)
  rw [e12, x12]
  have h0 : (i 0).val < 8 := (i 0).isLt
  have h1 : (i 1).val < 2 := (i 1).isLt
  have h2 : (i 2).val < 128 := (i 2).isLt
  match a with
  | ⟨0, _⟩ => show (2 * (i 0).val + 1) / 2 * 1 ≤ (i 0).val ∧ (i 0).val < (2 * (i 0).val + 1) / 2 * 1 + 1; omega
  | ⟨1, _⟩ => show 0 * 2 ≤ (i 1).val ∧ (i 1).val < 0 * 2 + 2; omega
  | ⟨2, _⟩ => show 0 * 128 ≤ (i 2).val ∧ (i 2).val < 0 * 128 + 128; omega

/-- An element of window 6's block at a point of batch `b` and chunk `cc` sits in the array at `(b, cc, 0, ch)`. -/
theorem emb6 (t : Fin cfg0.N) (b : Fin 8) (cc : Fin 2) (hb : t.val = 2 * b.val + cc.val) (u0 u1 u2 : Fin 1) (ch : Fin 128) :
    ((cfg0.win 6).blk t).view.emb (ix4 u0 u1 u2 ch) = ix4 b cc (0 : Fin 1) ch := by
  obtain ⟨e6, -, -⟩ := idx_facts t
  have hcc : cc.val < 2 := cc.isLt
  funext a
  apply Fin.ext
  match a with
  | ⟨0, _⟩ => show win0_6.index t 0 * 1 + 1 * u0.val = b.val; rw [e6]; show t.val / 2 * 1 + 1 * u0.val = b.val; omega
  | ⟨1, _⟩ => show win0_6.index t 1 * 1 + 1 * u1.val = cc.val; rw [e6]; show t.val % 2 * 1 + 1 * u1.val = cc.val; omega
  | ⟨2, _⟩ => show win0_6.index t 2 * 1 + 1 * u2.val = 0; rw [e6]; show 0 * 1 + 1 * u2.val = 0; omega
  | ⟨3, _⟩ => show win0_6.index t 3 * 128 + 1 * ch.val = ch.val; rw [e6]; show 0 * 128 + 1 * ch.val = ch.val; omega

theorem emb7 (t : Fin cfg0.N) (b : Fin 8) (cc : Fin 2) (hb : t.val = 2 * b.val + cc.val) (u0 u1 u2 : Fin 1) (ch : Fin 128) :
    ((cfg0.win 7).blk t).view.emb (ix4 u0 u1 u2 ch) = ix4 b cc (0 : Fin 1) ch := by
  obtain ⟨-, e7, -⟩ := idx_facts t
  have hcc : cc.val < 2 := cc.isLt
  funext a
  apply Fin.ext
  match a with
  | ⟨0, _⟩ => show win0_7.index t 0 * 1 + 1 * u0.val = b.val; rw [e7]; show t.val / 2 * 1 + 1 * u0.val = b.val; omega
  | ⟨1, _⟩ => show win0_7.index t 1 * 1 + 1 * u1.val = cc.val; rw [e7]; show t.val % 2 * 1 + 1 * u1.val = cc.val; omega
  | ⟨2, _⟩ => show win0_7.index t 2 * 1 + 1 * u2.val = 0; rw [e7]; show 0 * 1 + 1 * u2.val = 0; omega
  | ⟨3, _⟩ => show win0_7.index t 3 * 128 + 1 * ch.val = ch.val; rw [e7]; show 0 * 128 + 1 * ch.val = ch.val; omega

/-- An element of window 12's block at a point of batch `b` sits in the array at `(b, r, l)`. -/
theorem emb12 (t : Fin cfg0.N) (b : Fin 8) (cc : Fin 2) (hb : t.val = 2 * b.val + cc.val) (u : Fin 1) (r : Fin 2) (l : Fin 128) :
    ((cfg0.win 12).blk t).view.emb (ix3 u r l) = ix3 b r l := by
  obtain ⟨-, -, e12⟩ := idx_facts t
  have hcc : cc.val < 2 := cc.isLt
  funext a
  apply Fin.ext
  match a with
  | ⟨0, _⟩ => show win0_12.index t 0 * 1 + 1 * u.val = b.val; rw [e12]; show t.val / 2 * 1 + 1 * u.val = b.val; omega
  | ⟨1, _⟩ => show win0_12.index t 1 * 2 + 1 * r.val = r.val; rw [e12]; show 0 * 2 + 1 * r.val = r.val; omega
  | ⟨2, _⟩ => show win0_12.index t 2 * 128 + 1 * l.val = l.val; rw [e12]; show 0 * 128 + 1 * l.val = l.val; omega

/-! ## What the body leaves at a point, as payloads of the point's blocks -/

section Pieces
variable {F : FTy → Type} [FloatOps F]
variable (m : (ℓ : Loc nD τ sig) → Buf (Elt F) ℓ)

/-- The point's block of the first feature array, of the second, and of the mask. -/
abbrev xb0 (c : Dev nD) (t : Fin cfg0.N) : Vec F S1x128x32x128 .f32 := iblk m c 0 t
abbrev xb1 (c : Dev nD) (t : Fin cfg0.N) : Vec F S1x128x32x128 .f32 := iblk m c 1 t
abbrev xb5 (c : Dev nD) (t : Fin cfg0.N) : Vec F S1x1x32x128 .f32 := iblk m c 5 t

/-- After an even point the first mean row is the mean payload of the point's first block. -/
theorem ptA_o6 (c : Dev nD) (t : Fin cfg0.N) (h0 : t.val % 2 = 0) :
    (ptA m c t h0).o6 = k0_pay29 (xb0 m c t) := by
  unfold ptA
  dsimp only
  rw [View.read_writes_eq_canon _ _ _ (cover0_A_6 m c t h0)]
  exact runA_o6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (hcA0 t h0) (hcA1 t h0) (iblk m c 0 t) (iblk m c 1 t) (iblk m c 2 t) (iblk m c 3 t) (iblk m c 4 t) (iblk m c 5 t)

/-- The second mean row, of the point's second block. -/
theorem ptA_o7 (c : Dev nD) (t : Fin cfg0.N) (h0 : t.val % 2 = 0) :
    (ptA m c t h0).o7 = k0_pay30 (k0_pay24 (xb1 m c t)) := by
  unfold ptA
  dsimp only
  rw [View.read_writes_eq_canon _ _ _ (cover0_A_7 m c t h0)]
  exact runA_o7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (hcA0 t h0) (hcA1 t h0) (iblk m c 0 t) (iblk m c 1 t) (iblk m c 2 t) (iblk m c 3 t) (iblk m c 4 t) (iblk m c 5 t)

/-- The first sum's accumulator after an even point: reset, then the chunk added. -/
theorem ptA_s8 (c : Dev nD) (t : Fin cfg0.N) (h0 : t.val % 2 = 0) :
    (ptA m c t h0).s8 = k0_pay32 (k0_pay23 (xb0 m c t)) (k0_pay24 (xb1 m c t)) k0_pay21 := by
  unfold ptA
  dsimp only
  rw [View.read_writes_eq_canon _ _ _ (scover0_A_8 m c t h0)]
  exact runA_s8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (hcA0 t h0) (hcA1 t h0) (iblk m c 0 t) (iblk m c 1 t) (iblk m c 2 t) (iblk m c 3 t) (iblk m c 4 t) (iblk m c 5 t)

/-- The second sum's accumulator after an even point. -/
theorem ptA_s9 (c : Dev nD) (t : Fin cfg0.N) (h0 : t.val % 2 = 0) :
    (ptA m c t h0).s9 = k0_pay33 (k0_pay23 (xb0 m c t)) (k0_pay24 (xb1 m c t)) (k0_pay28 (xb5 m c t)) k0_pay22 := by
  unfold ptA
  dsimp only
  rw [View.read_writes_eq_canon _ _ _ (scover0_A_9 m c t h0)]
  exact runA_s9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (hcA0 t h0) (hcA1 t h0) (iblk m c 0 t) (iblk m c 1 t) (iblk m c 2 t) (iblk m c 3 t) (iblk m c 4 t) (iblk m c 5 t)

/-- After an odd point the first mean row is again the mean payload of the point's first block. -/
theorem ptB_o6 (c : Dev nD) (t : Fin cfg0.N) (h0 : ¬t.val % 2 = 0) (p : Pt F) :
    (ptB m c t h0 p).o6 = k0_pay29 (xb0 m c t) := by
  unfold ptB
  dsimp only
  rw [View.read_writes_eq_canon _ _ _ (cover0_B_6 m c t h0 p.s0 p.s1 p.s2 p.s3 p.s4 p.s5 p.s6 p.s7 p.s8 p.s9)]
  exact runB_o6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (hcB0 t h0) (hcB1 t h0) (iblk m c 0 t) (iblk m c 1 t) (iblk m c 2 t) (iblk m c 3 t) (iblk m c 4 t) (iblk m c 5 t) p.s0 p.s1 p.s2 p.s3 p.s4 p.s5 p.s6 p.s7 p.s8 p.s9

/-- And the second mean row. -/
theorem ptB_o7 (c : Dev nD) (t : Fin cfg0.N) (h0 : ¬t.val % 2 = 0) (p : Pt F) :
    (ptB m c t h0 p).o7 = k0_pay30 (k0_pay24 (xb1 m c t)) := by
  unfold ptB
  dsimp only
  rw [View.read_writes_eq_canon _ _ _ (cover0_B_7 m c t h0 p.s0 p.s1 p.s2 p.s3 p.s4 p.s5 p.s6 p.s7 p.s8 p.s9)]
  exact runB_o7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (hcB0 t h0) (hcB1 t h0) (iblk m c 0 t) (iblk m c 1 t) (iblk m c 2 t) (iblk m c 3 t) (iblk m c 4 t) (iblk m c 5 t) p.s0 p.s1 p.s2 p.s3 p.s4 p.s5 p.s6 p.s7 p.s8 p.s9

/-- Row 0 of the sums' block after an odd point, over what the point before left in the first accumulator. -/
theorem ptB_o12_row0 (c : Dev nD) (t : Fin cfg0.N) (h0 : ¬t.val % 2 = 0) (p : Pt F) (u : Fin 1) (l : Fin 128) :
    (ptB m c t h0 p).o12 (ix3 u (0 : Fin 2) l)
      = k0_pay19 (k0_pay32 (k0_pay23 (xb0 m c t)) (k0_pay24 (xb1 m c t)) p.s8) (ix3 (0 : Fin 1) (0 : Fin 1) l) := by
  unfold ptB
  dsimp only
  rw [View.read_writes_eq_canon _ _ _ (cover0_B_12 m c t h0 p.s0 p.s1 p.s2 p.s3 p.s4 p.s5 p.s6 p.s7 p.s8 p.s9)]
  exact runB_o12_row0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (hcB0 t h0) (hcB1 t h0) (iblk m c 0 t) (iblk m c 1 t) (iblk m c 2 t) (iblk m c 3 t) (iblk m c 4 t) (iblk m c 5 t) p.s0 p.s1 p.s2 p.s3 p.s4 p.s5 p.s6 p.s7 p.s8 p.s9 u l

/-- Row 1, over what the point before left in the second accumulator. -/
theorem ptB_o12_row1 (c : Dev nD) (t : Fin cfg0.N) (h0 : ¬t.val % 2 = 0) (p : Pt F) (u : Fin 1) (l : Fin 128) :
    (ptB m c t h0 p).o12 (ix3 u (1 : Fin 2) l)
      = k0_pay5 (k0_pay18 (k0_pay33 (k0_pay23 (xb0 m c t)) (k0_pay24 (xb1 m c t)) (k0_pay28 (xb5 m c t)) p.s9))
          (ix3 (0 : Fin 1) (0 : Fin 1) l) := by
  unfold ptB
  dsimp only
  rw [View.read_writes_eq_canon _ _ _ (cover0_B_12 m c t h0 p.s0 p.s1 p.s2 p.s3 p.s4 p.s5 p.s6 p.s7 p.s8 p.s9)]
  exact runB_o12_row1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (hcB0 t h0) (hcB1 t h0) (iblk m c 0 t) (iblk m c 1 t) (iblk m c 2 t) (iblk m c 3 t) (iblk m c 4 t) (iblk m c 5 t) p.s0 p.s1 p.s2 p.s3 p.s4 p.s5 p.s6 p.s7 p.s8 p.s9 u l

end Pieces

/-! ## What each point leaves in the three windows -/

section After
variable {F : FTy → Type} [FloatOps F]
variable (m : (ℓ : Loc nD τ sig) → Buf (Elt F) ℓ)

/-- At every point the first mean row's block is the mean payload of the point's first block. -/
theorem after6 (c : Dev nD) (t : Fin cfg0.N) :
    (dats m 0 c).after 6 t = (k0_pay29 (xb0 m c t) : Vec F S1x1x1x128 .f32) := by
  rw [after0_6]
  by_cases h0 : t.val % 2 = 0
  · rw [outsAt0_A m c t h0]; exact ptA_o6 m c t h0
  · rw [outsAt0_B m c t h0]; exact ptB_o6 m c t h0 _

/-- The same for the second mean row. -/
theorem after7 (c : Dev nD) (t : Fin cfg0.N) :
    (dats m 0 c).after 7 t = (k0_pay30 (k0_pay24 (xb1 m c t)) : Vec F S1x1x1x128 .f32) := by
  rw [after0_7]
  by_cases h0 : t.val % 2 = 0
  · rw [outsAt0_A m c t h0]; exact ptA_o7 m c t h0
  · rw [outsAt0_B m c t h0]; exact ptB_o7 m c t h0 _

/-- The point before an odd point. -/
abbrev prev (t : Fin cfg0.N) : Fin cfg0.N := ⟨t.val - 1, Nat.lt_of_le_of_lt (Nat.sub_le _ _) t.isLt⟩

theorem prev_even (t : Fin cfg0.N) (h0 : ¬t.val % 2 = 0) : (prev t).val % 2 = 0 := by
  show (t.val - 1) % 2 = 0; omega

/-- At an odd point, row 0 of the sums' block: the first accumulator over the two chunks, totalled and splat. -/
theorem after12_row0 (c : Dev nD) (t : Fin cfg0.N) (h0 : ¬t.val % 2 = 0) (u : Fin 1) (l : Fin 128) :
    ((dats m 0 c).after 12 t : Vec F S1x2x128 .f32) (ix3 u (0 : Fin 2) l)
      = k0_pay19 (k0_pay32 (k0_pay23 (xb0 m c t)) (k0_pay24 (xb1 m c t))
          (k0_pay32 (k0_pay23 (xb0 m c (prev t))) (k0_pay24 (xb1 m c (prev t))) k0_pay21)) (ix3 (0 : Fin 1) (0 : Fin 1) l) := by
  rw [after0_12, outsAt0_B m c t h0]
  refine (ptB_o12_row0 m c t h0 _ u l).trans ?_
  have e : outsAt0 m c (t.val - 1) (Nat.lt_of_le_of_lt (Nat.sub_le _ _) t.isLt) = ptA m c (prev t) (prev_even t h0) :=
    outsAt0_A m c (prev t) (prev_even t h0)
  rw [e, ptA_s8 m c (prev t) (prev_even t h0)]

/-- Row 1: the second accumulator. -/
theorem after12_row1 (c : Dev nD) (t : Fin cfg0.N) (h0 : ¬t.val % 2 = 0) (u : Fin 1) (l : Fin 128) :
    ((dats m 0 c).after 12 t : Vec F S1x2x128 .f32) (ix3 u (1 : Fin 2) l)
      = k0_pay5 (k0_pay18 (k0_pay33 (k0_pay23 (xb0 m c t)) (k0_pay24 (xb1 m c t)) (k0_pay28 (xb5 m c t))
          (k0_pay33 (k0_pay23 (xb0 m c (prev t))) (k0_pay24 (xb1 m c (prev t))) (k0_pay28 (xb5 m c (prev t))) k0_pay22)))
          (ix3 (0 : Fin 1) (0 : Fin 1) l) := by
  rw [after0_12, outsAt0_B m c t h0]
  refine (ptB_o12_row1 m c t h0 _ u l).trans ?_
  have e : outsAt0 m c (t.val - 1) (Nat.lt_of_le_of_lt (Nat.sub_le _ _) t.isLt) = ptA m c (prev t) (prev_even t h0) :=
    outsAt0_A m c (prev t) (prev_even t h0)
  rw [e, ptA_s9 m c (prev t) (prev_even t h0)]

end After

/-! ## The final arrays -/

section Finals
variable (m : (ℓ : Loc nD τ sig) → Buf (Elt Ideal) ℓ)

/-- The three argument arrays the two mean rows and the two sums are functions of. -/
abbrev arr0 (c : Dev nD) : Cert.Iface.A4 := m ((c : Thread nD τ).loc main_arg0)
abbrev arr1 (c : Dev nD) : Cert.Iface.A4 := m ((c : Thread nD τ).loc main_arg1)
abbrev arr7 (c : Dev nD) : Cert.Iface.K4 := m ((c : Thread nD τ).loc main_arg7)

/-- What a mean array ends holding. -/
def GMean (a : Cert.Iface.A4) : Cert.Iface.C4 := fun i =>
  (∑ h : Fin 64, ∑ w : Fin 64, a (ix4 (i 0) (chan (i 1) (i 3)) h w)) * Ideal.ofBits .f32 0x39800000#32

/-- What the sums' array ends holding: row 0 the plain sum, row 1 the mask-weighted one, on every lane. -/
def GSums (a0 a1 : Cert.Iface.A4) (k : Cert.Iface.K4) : Cert.Iface.SC3 := fun i =>
  if (i 1).val = 0 then
    ∑ c : Fin 256, ∑ h : Fin 64, ∑ w : Fin 64,
      (a0 (ix4 (i 0) c h w) - a1 (ix4 (i 0) c h w)) * (a0 (ix4 (i 0) c h w) - a1 (ix4 (i 0) c h w))
  else
    ∑ c : Fin 256, ∑ h : Fin 64, ∑ w : Fin 64,
      (a0 (ix4 (i 0) c h w) - a1 (ix4 (i 0) c h w)) * (a0 (ix4 (i 0) c h w) - a1 (ix4 (i 0) c h w))
        * (k (ix4 (i 0) (0 : Fin 1) h w) * k (ix4 (i 0) (0 : Fin 1) h w))

theorem isBlk0 (c : Dev nD) (t : Fin cfg0.N) (b : Fin 8) (cc : Fin 2) (hb : t.val = 2 * b.val + cc.val) :
    IsBlk (arr0 m c) b cc (xb0 m c t) := fun k p q => iblk0_ix m c t b cc hb k p q
theorem isBlk1 (c : Dev nD) (t : Fin cfg0.N) (b : Fin 8) (cc : Fin 2) (hb : t.val = 2 * b.val + cc.val) :
    IsBlk (arr1 m c) b cc (xb1 m c t) := fun k p q => iblk1_ix m c t b cc hb k p q
theorem isMask (c : Dev nD) (t : Fin cfg0.N) (b : Fin 8) (cc : Fin 2) (hb : t.val = 2 * b.val + cc.val) :
    IsMaskBlk (arr7 m c) b (xb5 m c t) := fun p q => iblk5_ix m c t b cc hb p q

/-- What every point writes back of the first mean row is its block of `GMean` of the first feature array. -/
theorem flushed6_eq (c : Dev nD) (t : Fin cfg0.N) (hf : (cfg0.win 6).flush t = true) :
    (dats m 0 c).flushed 6 t = ((cfg0.win 6).blk t).view.read (Elt Ideal) (GMean (arr0 m c)) := by
  show (cfg0.win 6).cut (grid0.coords t) ((dats m 0 c).after 6 t) = _
  rw [after6]
  funext y
  obtain ⟨u0, u1, u2, ch, rfl⟩ : ∃ (u0 u1 u2 : Fin 1) (ch : Fin 128), y = (ix4 u0 u1 u2 ch : S1x1x1x128.Idx) :=
    ⟨y 0, y 1, y 2, y 3, eq_ix4 (n0 := 1) (n1 := 1) (n2 := 1) (n3 := 128) y⟩
  rw [View.read_apply]
  show k0_pay29 (F := Ideal) (xb0 m c t) (ix4 u0 u1 u2 ch) = GMean (arr0 m c) (((cfg0.win 6).blk t).view.emb (ix4 u0 u1 u2 ch))
  rw [emb6 t (batchOf t) (chunkOf t) (point_eq t) u0 u1 u2 ch]
  exact mean6_H (arr0 m c) (batchOf t) (chunkOf t) (xb0 m c t) (isBlk0 m c t _ _ (point_eq t)) u0 u1 u2 ch

theorem flushed7_eq (c : Dev nD) (t : Fin cfg0.N) (hf : (cfg0.win 7).flush t = true) :
    (dats m 0 c).flushed 7 t = ((cfg0.win 7).blk t).view.read (Elt Ideal) (GMean (arr1 m c)) := by
  show (cfg0.win 7).cut (grid0.coords t) ((dats m 0 c).after 7 t) = _
  rw [after7]
  funext y
  obtain ⟨u0, u1, u2, ch, rfl⟩ : ∃ (u0 u1 u2 : Fin 1) (ch : Fin 128), y = (ix4 u0 u1 u2 ch : S1x1x1x128.Idx) :=
    ⟨y 0, y 1, y 2, y 3, eq_ix4 (n0 := 1) (n1 := 1) (n2 := 1) (n3 := 128) y⟩
  rw [View.read_apply]
  show k0_pay30 (F := Ideal) (k0_pay24 (F := Ideal) (xb1 m c t)) (ix4 u0 u1 u2 ch) = GMean (arr1 m c) (((cfg0.win 7).blk t).view.emb (ix4 u0 u1 u2 ch))
  rw [emb7 t (batchOf t) (chunkOf t) (point_eq t) u0 u1 u2 ch]
  exact mean7_H (arr1 m c) (batchOf t) (chunkOf t) (xb1 m c t) (isBlk1 m c t _ _ (point_eq t)) u0 u1 u2 ch

/-- What an odd point writes back of the sums is its block of `GSums`. -/
theorem flushed12_eq (c : Dev nD) (t : Fin cfg0.N) (hf : (cfg0.win 12).flush t = true) :
    (dats m 0 c).flushed 12 t = ((cfg0.win 12).blk t).view.read (Elt Ideal) (GSums (arr0 m c) (arr1 m c) (arr7 m c)) := by
  have h1 : t.val % 2 = 1 := (flush0_12 t).mp hf
  have h0 : ¬t.val % 2 = 0 := by omega
  have hb : t.val = 2 * (batchOf t).val + (1 : Fin 2).val := by
    have := point_eq t; show t.val = 2 * (t.val / 2) + 1; omega
  have hb' : (prev t).val = 2 * (batchOf t).val + (0 : Fin 2).val := by
    show t.val - 1 = 2 * (t.val / 2) + 0; omega
  show (cfg0.win 12).cut (grid0.coords t) ((dats m 0 c).after 12 t) = _
  funext y
  obtain ⟨u, r, l, rfl⟩ : ∃ (u : Fin 1) (r : Fin 2) (l : Fin 128), y = (ix3 u r l : S1x2x128.Idx) :=
    ⟨y 0, y 1, y 2, eq_ix3 (n0 := 1) (n1 := 2) (n2 := 128) y⟩
  rw [View.read_apply, emb12 t (batchOf t) (1 : Fin 2) hb u r l]
  show ((dats m 0 c).after 12 t : Vec Ideal S1x2x128 .f32) (ix3 u r l) = GSums (arr0 m c) (arr1 m c) (arr7 m c) (ix3 (batchOf t) r l)
  match r with
  | ⟨0, _⟩ =>
    refine (after12_row0 m c t h0 u l).trans ?_
    exact sum12a_H (arr0 m c) (arr1 m c) (batchOf t) (xb0 m c (prev t)) (xb1 m c (prev t)) (xb0 m c t) (xb1 m c t)
      (isBlk0 m c (prev t) _ 0 hb') (isBlk1 m c (prev t) _ 0 hb') (isBlk0 m c t _ 1 hb) (isBlk1 m c t _ 1 hb) 0 0 l
  | ⟨1, _⟩ =>
    refine (after12_row1 m c t h0 u l).trans ?_
    exact sum12b_H (arr0 m c) (arr1 m c) (arr7 m c) (batchOf t) (xb0 m c (prev t)) (xb1 m c (prev t)) (xb0 m c t) (xb1 m c t)
      (xb5 m c (prev t)) (xb5 m c t)
      (isBlk0 m c (prev t) _ 0 hb') (isBlk1 m c (prev t) _ 0 hb') (isBlk0 m c t _ 1 hb) (isBlk1 m c t _ 1 hb)
      (isMask m c (prev t) _ 0 hb') (isMask m c t _ 1 hb) 0 0 l

/-- The first mean array after the run. -/
theorem final6 (c : Dev nD) : Cert.Iface.HMean ((dats m 0 c).arrAt 6 cfg0.N) (arr0 m c) := by
  intro b cc ch
  rw [(dats m 0 c).arrAt_eq_of_cover 6 (GMean (arr0 m c)) (flushed6_eq m c) cover6]
  rfl

/-- The second mean array after the run. -/
theorem final7 (c : Dev nD) : Cert.Iface.HMean ((dats m 0 c).arrAt 7 cfg0.N) (arr1 m c) := by
  intro b cc ch
  rw [(dats m 0 c).arrAt_eq_of_cover 7 (GMean (arr1 m c)) (flushed7_eq m c) cover7]
  rfl

/-- Row 0 of the sums' array after the run. -/
theorem final12a (c : Dev nD) : Cert.Iface.HSumSq ((dats m 0 c).arrAt 12 cfg0.N) (arr0 m c) (arr1 m c) := by
  intro b l
  rw [(dats m 0 c).arrAt_eq_of_cover 12 (GSums (arr0 m c) (arr1 m c) (arr7 m c)) (flushed12_eq m c) cover12]
  rfl

/-- Row 1 of the sums' array after the run. -/
theorem final12b (c : Dev nD) :
    Cert.Iface.HSumSqMask ((dats m 0 c).arrAt 12 cfg0.N) (arr0 m c) (arr1 m c) (arr7 m c) := by
  intro b l
  rw [(dats m 0 c).arrAt_eq_of_cover 12 (GSums (arr0 m c) (arr1 m c) (arr7 m c)) (flushed12_eq m c) cover12]
  rfl

end Finals

end Cert.KernelIdeal.V1
end
-- ==== Proof.Ideal.ValPay89.lean ====
/- The two difference maps (opt_diff, hetero_diff), read at an index, at the ideal float instance.
   For a pair of feature arrays f1, f2 the map at a pixel is built from two sums over the 256 channels:
   S = Σ_c (f1 − f2)²  and  T = Σ_c f1·f2 / max(|f1|·|f2|, 10⁻⁸);  the map is
   (√(S + 10⁻⁶) + (1 − T/256)) · logistic(5·√(S + 10⁻⁶)).
   Here: the kernel's stored values (reset, update over one chunk of 128 channels, final map) and the reference's map,
   each read at an index by coordinates, in terms of the same two per-channel terms and the same closing function. -/
import proofs.«129784_j68891275428342_2_alg».proof.Proof.Gen.KernelIdeal.Skeleton
import proofs.«129784_j68891275428342_2_alg».proof.Proof.LibSums
import proofs.«129784_j68891275428342_2_alg».proof.Proof.RefSpec
import proofs.«129784_j68891275428342_2_alg».proof.Proof.Iface

noncomputable section

namespace Cert.KernelIdeal.Val89

open Cert.KernelIdeal Cert.KernelIdeal.Gen
open Idealize.ShloMosaic Idealize.ShloMosaic.ValueIdx Idealize.ShloMosaic.LibSums
open Cert.Iface (chan hab rr rc)
open scoped BigOperators

/-! ## The per-channel terms and the closing function -/

/-- The squared difference (x − y)². -/
def sqd (x y : EReal) : EReal := (x - y) * (x - y)

/-- The cosine term x·y / max(|x|·|y|, 10⁻⁸). -/
def cosT (x y : EReal) : EReal :=
  Ideal.div (x * y)
    (max (FloatOps.absf (F := Ideal) (φ := .f32) x * FloatOps.absf (F := Ideal) (φ := .f32) y) (Ideal.ofBits .f32 0x322BCC77#32))

/-- The map from the two channel sums: (√(s + 10⁻⁶) + (1 − t/256)) · logistic(5·√(s + 10⁻⁶)). -/
def dfin (s t : EReal) : EReal :=
  (Ideal.sqrt (s + Ideal.ofBits .f32 0x358637BD#32)
      + (Ideal.ofBits .f32 0x3F800000#32 - t * Ideal.ofBits .f32 0x3B800000#32))
    * Ideal.logistic (Ideal.sqrt (s + Ideal.ofBits .f32 0x358637BD#32) * Ideal.ofBits .f32 0x40A00000#32)

/-- The f32 word of +0 is zero. -/
theorem ofBits_f32_zero : Ideal.ofBits .f32 0x00000000#32 = 0 := by
  simp [Ideal.ofBits, Ideal.ieee]

/-! ## The kernel's stored values at an index -/

/-- The reset value of the four accumulators: zero everywhere. -/
theorem pay6_apply (r : Fin 32) (c : Fin 128) : k0_pay6 (F := Ideal) (ix2 r c) = 0 := by
  unfold k0_pay6
  rw [shapeCast_self]
  exact ofBits_f32_zero
theorem pay7_apply (r : Fin 32) (c : Fin 128) : k0_pay7 (F := Ideal) (ix2 r c) = 0 := by
  unfold k0_pay7
  rw [shapeCast_self]
  exact ofBits_f32_zero
theorem pay8_apply (r : Fin 32) (c : Fin 128) : k0_pay8 (F := Ideal) (ix2 r c) = 0 := by
  unfold k0_pay8
  rw [shapeCast_self]
  exact ofBits_f32_zero
theorem pay9_apply (r : Fin 32) (c : Fin 128) : k0_pay9 (F := Ideal) (ix2 r c) = 0 := by
  unfold k0_pay9
  rw [shapeCast_self]
  exact ofBits_f32_zero

/-- The update of the squared-difference accumulator over one chunk: the old value plus the sum over the chunk's
    128 channels of (x − y)². -/
theorem pay34_apply (v8 v10 : FVec Ideal S128x32x128 .f32) (v50 : Vec Ideal S32x128 .f32) (r : Fin 32) (c : Fin 128) :
    k0_pay34 v8 v10 v50 (ix2 r c) = v50 (ix2 r c) + ∑ k : Fin 128, sqd (v8 (ix3 k r c)) (v10 (ix3 k r c)) := by
  unfold k0_pay34
  rw [shapeCast_self]
  refine (addf_apply _ _ _).trans (congrArg (v50 (ix2 r c) + ·) ?_)
  exact vecSum_axis0_of3_ix _ _ _ _ r c

/-- The update of the cosine accumulator over one chunk. -/
theorem pay35_apply (v8 v10 : FVec Ideal S128x32x128 .f32) (v62 : Vec Ideal S32x128 .f32) (r : Fin 32) (c : Fin 128) :
    k0_pay35 v8 v10 v62 (ix2 r c) = v62 (ix2 r c) + ∑ k : Fin 128, cosT (v8 (ix3 k r c)) (v10 (ix3 k r c)) := by
  unfold k0_pay35
  rw [shapeCast_self]
  refine (addf_apply _ _ _).trans (congrArg (v62 (ix2 r c) + ·) ?_)
  exact vecSum_axis0_of3_ix _ _ _ _ r c

theorem pay36_apply (v8 v12 : FVec Ideal S128x32x128 .f32) (v71 : Vec Ideal S32x128 .f32) (r : Fin 32) (c : Fin 128) :
    k0_pay36 v8 v12 v71 (ix2 r c) = v71 (ix2 r c) + ∑ k : Fin 128, sqd (v8 (ix3 k r c)) (v12 (ix3 k r c)) := by
  unfold k0_pay36
  rw [shapeCast_self]
  refine (addf_apply _ _ _).trans (congrArg (v71 (ix2 r c) + ·) ?_)
  exact vecSum_axis0_of3_ix _ _ _ _ r c

theorem pay37_apply (v8 v12 : FVec Ideal S128x32x128 .f32) (v83 : Vec Ideal S32x128 .f32) (r : Fin 32) (c : Fin 128) :
    k0_pay37 v8 v12 v83 (ix2 r c) = v83 (ix2 r c) + ∑ k : Fin 128, cosT (v8 (ix3 k r c)) (v12 (ix3 k r c)) := by
  unfold k0_pay37
  rw [shapeCast_self]
  refine (addf_apply _ _ _).trans (congrArg (v83 (ix2 r c) + ·) ?_)
  exact vecSum_axis0_of3_ix _ _ _ _ r c

/-- A [32,128] tile with a leading unit axis added reads, at (u, r, c), the tile at (r, c). -/
theorem cast_unit_apply {α : Type} (x : S32x128.Idx → α) (h : S32x128.ShapeCasts S1x32x128) (u : Fin 1) (r : Fin 32) (c : Fin 128) :
    shapeCast S1x32x128 x h (ix3 u r c) = x (ix2 r c) :=
  shapeCast_apply x h _ _ (by
    have hu : u.val = 0 := by omega
    rw [Shape.rowMajor_val_two, Shape.rowMajor_val_three]
    show r.val * 128 + c.val = (u.val * 32 + r.val) * 128 + c.val
    rw [hu]; ring)

/-- A [1,128,32,128] block with its leading unit axis dropped reads, at (k, r, c), the block at (0, k, r, c). -/
theorem drop_unit_apply {α : Type} (x : S1x128x32x128.Idx → α) (h : S1x128x32x128.ShapeCasts S128x32x128) (k : Fin 128) (r : Fin 32) (c : Fin 128) :
    shapeCast S128x32x128 x h (ix3 k r c) = x (ix4 (0 : Fin 1) k r c) :=
  shapeCast_apply x h _ _ (by
    rw [Shape.rowMajor_val_four, Shape.rowMajor_val_three]
    show (((0 : Fin 1).val * 128 + k.val) * 32 + r.val) * 128 + c.val = (k.val * 32 + r.val) * 128 + c.val
    simp)

/-- The final opt_diff map from its two accumulators. -/
theorem pay14_apply (v118 v122 : Vec Ideal S32x128 .f32) (u : Fin 1) (r : Fin 32) (c : Fin 128) :
    k0_pay14 v118 v122 (ix3 u r c) = dfin (v118 (ix2 r c)) (v122 (ix2 r c)) := by
  unfold k0_pay14
  exact cast_unit_apply _ _ u r c

/-- The final hetero_diff map from its two accumulators. -/
theorem pay15_apply (v135 v139 : Vec Ideal S32x128 .f32) (u : Fin 1) (r : Fin 32) (c : Fin 128) :
    k0_pay15 v135 v139 (ix3 u r c) = dfin (v135 (ix2 r c)) (v139 (ix2 r c)) := by
  unfold k0_pay15
  exact cast_unit_apply _ _ u r c

/-- The three feature blocks as the body reads them: the leading unit axis dropped. -/
theorem pay25_apply (v7 : Vec Ideal S1x128x32x128 .f32) (k : Fin 128) (r : Fin 32) (c : Fin 128) :
    k0_pay25 v7 (ix3 k r c) = v7 (ix4 (0 : Fin 1) k r c) := by
  unfold k0_pay25
  exact drop_unit_apply _ _ k r c
theorem pay26_apply (v9 : Vec Ideal S1x128x32x128 .f32) (k : Fin 128) (r : Fin 32) (c : Fin 128) :
    k0_pay26 v9 (ix3 k r c) = v9 (ix4 (0 : Fin 1) k r c) := by
  unfold k0_pay26
  exact drop_unit_apply _ _ k r c
theorem pay27_apply (v11 : Vec Ideal S1x128x32x128 .f32) (k : Fin 128) (r : Fin 32) (c : Fin 128) :
    k0_pay27 v11 (ix3 k r c) = v11 (ix4 (0 : Fin 1) k r c) := by
  unfold k0_pay27
  exact drop_unit_apply _ _ k r c

/-! ## Two chunks of 128 channels make the 256 -/

/-- A sum over the 256 channels is the sum over chunk 0 plus the sum over chunk 1. -/
theorem sum_chunks (f : Fin 256 → EReal) :
    ∑ k : Fin 128, f (chan 0 k) + ∑ k : Fin 128, f (chan 1 k) = ∑ c : Fin 256, f c := by
  rw [sum_split_256 f]
  refine congrArg₂ (· + ·) (Finset.sum_congr rfl fun k _ => congrArg f (Fin.ext ?_))
    (Finset.sum_congr rfl fun k _ => congrArg f (Fin.ext ?_))
  · show (0 : Fin 2).val * 128 + k.val = k.val
    simp
  · show (1 : Fin 2).val * 128 + k.val = 128 + k.val
    simp

/-- The squared-difference accumulator after the two chunks (reset, then chunk 0 and chunk 1 added), at (p, q). -/
theorem acc_sq34 (X0 Y0 X1 Y1 : Vec Ideal S1x128x32x128 .f32) (p : Fin 32) (q : Fin 128) :
    k0_pay34 (k0_pay25 X1) (k0_pay26 Y1) (k0_pay34 (k0_pay25 X0) (k0_pay26 Y0) (k0_pay6 (F := Ideal))) (ix2 p q)
      = ∑ k : Fin 128, sqd (X0 (ix4 (0 : Fin 1) k p q)) (Y0 (ix4 (0 : Fin 1) k p q))
        + ∑ k : Fin 128, sqd (X1 (ix4 (0 : Fin 1) k p q)) (Y1 (ix4 (0 : Fin 1) k p q)) := by
  rw [pay34_apply, pay34_apply, pay6_apply, zero_add]
  simp only [pay25_apply, pay26_apply]

/-- The cosine accumulator after the two chunks, at (p, q). -/
theorem acc_cos35 (X0 Y0 X1 Y1 : Vec Ideal S1x128x32x128 .f32) (p : Fin 32) (q : Fin 128) :
    k0_pay35 (k0_pay25 X1) (k0_pay26 Y1) (k0_pay35 (k0_pay25 X0) (k0_pay26 Y0) (k0_pay7 (F := Ideal))) (ix2 p q)
      = ∑ k : Fin 128, cosT (X0 (ix4 (0 : Fin 1) k p q)) (Y0 (ix4 (0 : Fin 1) k p q))
        + ∑ k : Fin 128, cosT (X1 (ix4 (0 : Fin 1) k p q)) (Y1 (ix4 (0 : Fin 1) k p q)) := by
  rw [pay35_apply, pay35_apply, pay7_apply, zero_add]
  simp only [pay25_apply, pay26_apply]

theorem acc_sq36 (X0 Y0 X1 Y1 : Vec Ideal S1x128x32x128 .f32) (p : Fin 32) (q : Fin 128) :
    k0_pay36 (k0_pay25 X1) (k0_pay27 Y1) (k0_pay36 (k0_pay25 X0) (k0_pay27 Y0) (k0_pay8 (F := Ideal))) (ix2 p q)
      = ∑ k : Fin 128, sqd (X0 (ix4 (0 : Fin 1) k p q)) (Y0 (ix4 (0 : Fin 1) k p q))
        + ∑ k : Fin 128, sqd (X1 (ix4 (0 : Fin 1) k p q)) (Y1 (ix4 (0 : Fin 1) k p q)) := by
  rw [pay36_apply, pay36_apply, pay8_apply, zero_add]
  simp only [pay25_apply, pay27_apply]

theorem acc_cos37 (X0 Y0 X1 Y1 : Vec Ideal S1x128x32x128 .f32) (p : Fin 32) (q : Fin 128) :
    k0_pay37 (k0_pay25 X1) (k0_pay27 Y1) (k0_pay37 (k0_pay25 X0) (k0_pay27 Y0) (k0_pay9 (F := Ideal))) (ix2 p q)
      = ∑ k : Fin 128, cosT (X0 (ix4 (0 : Fin 1) k p q)) (Y0 (ix4 (0 : Fin 1) k p q))
        + ∑ k : Fin 128, cosT (X1 (ix4 (0 : Fin 1) k p q)) (Y1 (ix4 (0 : Fin 1) k p q)) := by
  rw [pay37_apply, pay37_apply, pay9_apply, zero_add]
  simp only [pay25_apply, pay27_apply]

/-! ## The reference's map at an index -/

section Reference
variable [Cert.ReferenceIdeal.Facts₀]
open Cert.ReferenceIdeal (Spec.splatS Spec.sumCh Spec.l2 Spec.cosMean Spec.logisticS Spec.dmap)

/-- A splat of a scalar word reads that word everywhere. -/
theorem splatS_apply (w : BitVec 32) (j : S8x1x64x64.Idx) : Spec.splatS (F := Ideal) w j = Ideal.ofBits .f32 w := rfl

/-- The channel sum kept as [8,1,64,64], at (b, u, h, w): the sum over the 256 channels (from the word of +0). -/
theorem sumCh_apply (x : FVec Ideal S8x256x64x64 .f32) (b : Fin 8) (u : Fin 1) (h w : Fin 64) :
    Spec.sumCh x (ix4 b u h w) = ∑ c : Fin 256, x (ix4 b c h w) := by
  unfold Spec.sumCh
  rw [broadcastInDim_apply _ _ _ _ (ix3 b h w) (fun a => by
    match a with
    | ⟨0, _⟩ => rfl
    | ⟨1, _⟩ => rfl
    | ⟨2, _⟩ => rfl)]
  refine (hostSum_axis1_of4_ix x _ _ _ b h w).trans ?_
  rw [constant_apply, ofBits_f32_zero, zero_add]

/-- The logistic written with the host's operations is the logistic function. -/
theorem logisticS_apply (x : FVec Ideal S8x1x64x64 .f32) (j : S8x1x64x64.Idx) :
    Spec.logisticS x j = Ideal.logistic (x j) := by
  show Ideal.div (Ideal.ofBits .f32 0x3F800000#32) (Ideal.ofBits .f32 0x3F800000#32 + Ideal.exp (- x j)) = Ideal.div 1 (1 + Ideal.exp (- x j))
  rw [ofBits_f32_3F800000, EReal.coe_one]

/-- The reference's difference map at a pixel: the closing function of the two sums over the 256 channels. -/
theorem dmap_apply (f1 f2 : FVec Ideal S8x256x64x64 .f32) (b : Fin 8) (u : Fin 1) (h w : Fin 64) :
    Spec.dmap f1 f2 (ix4 b u h w)
      = dfin (∑ c : Fin 256, sqd (f1 (ix4 b c h w)) (f2 (ix4 b c h w)))
          (∑ c : Fin 256, cosT (f1 (ix4 b c h w)) (f2 (ix4 b c h w))) := by
  have hl : Spec.l2 f1 f2 (ix4 b u h w)
      = Ideal.sqrt ((∑ c : Fin 256, sqd (f1 (ix4 b c h w)) (f2 (ix4 b c h w))) + Ideal.ofBits .f32 0x358637BD#32) := by
    unfold Spec.l2
    show Ideal.sqrt (Spec.sumCh (F := Ideal) _ (ix4 b u h w) + Spec.splatS (F := Ideal) _ _) = _
    rw [sumCh_apply, splatS_apply]
    rfl
  have hc : Spec.cosMean f1 f2 (ix4 b u h w)
      = (∑ c : Fin 256, cosT (f1 (ix4 b c h w)) (f2 (ix4 b c h w))) * Ideal.ofBits .f32 0x3B800000#32 := by
    unfold Spec.cosMean
    show Ideal.div (Spec.sumCh (F := Ideal) _ (ix4 b u h w)) (Spec.splatS (F := Ideal) _ _) = _
    rw [sumCh_apply, splatS_apply, div_word_256]
    rfl
  unfold Spec.dmap
  show (Spec.l2 f1 f2 (ix4 b u h w) + (Spec.splatS (F := Ideal) _ _ - Spec.cosMean f1 f2 (ix4 b u h w)))
      * Spec.logisticS (mulf (Spec.l2 f1 f2) (Spec.splatS (F := Ideal) _)) (ix4 b u h w) = _
  rw [logisticS_apply, mulf_apply, hl, hc, splatS_apply, splatS_apply]
  rfl

/-- THE MAP FROM THE BLOCKS. If the two chunks' blocks of the two re-laid feature arrays read the arrays f1, f2 at batch
    b (block element (0, k, p, q) of chunk cc is the array at channel cc·128 + k and the pixel re-laid from (p, q)),
    the opt_diff value the body stores after the second chunk is the reference's map of f1, f2 at that pixel. -/
theorem dmap_of_chunks14 (f1 f2 : FVec Ideal S8x256x64x64 .f32) (b : Fin 8) (X0 Y0 X1 Y1 : Vec Ideal S1x128x32x128 .f32)
    (hX0 : ∀ k p q, X0 (ix4 (0 : Fin 1) k p q) = f1 (ix4 b (chan 0 k) (rr p q) (rc p q)))
    (hY0 : ∀ k p q, Y0 (ix4 (0 : Fin 1) k p q) = f2 (ix4 b (chan 0 k) (rr p q) (rc p q)))
    (hX1 : ∀ k p q, X1 (ix4 (0 : Fin 1) k p q) = f1 (ix4 b (chan 1 k) (rr p q) (rc p q)))
    (hY1 : ∀ k p q, Y1 (ix4 (0 : Fin 1) k p q) = f2 (ix4 b (chan 1 k) (rr p q) (rc p q)))
    (u : Fin 1) (p : Fin 32) (q : Fin 128) :
    k0_pay14 (k0_pay34 (k0_pay25 X1) (k0_pay26 Y1) (k0_pay34 (k0_pay25 X0) (k0_pay26 Y0) (k0_pay6 (F := Ideal))))
        (k0_pay35 (k0_pay25 X1) (k0_pay26 Y1) (k0_pay35 (k0_pay25 X0) (k0_pay26 Y0) (k0_pay7 (F := Ideal)))) (ix3 u p q)
      = Spec.dmap f1 f2 (ix4 b (0 : Fin 1) (rr p q) (rc p q)) := by
  rw [pay14_apply, acc_sq34, acc_cos35, dmap_apply]
  simp only [hX0, hY0, hX1, hY1]
  rw [sum_chunks (fun c => sqd (f1 (ix4 b c (rr p q) (rc p q))) (f2 (ix4 b c (rr p q) (rc p q)))),
    sum_chunks (fun c => cosT (f1 (ix4 b c (rr p q) (rc p q))) (f2 (ix4 b c (rr p q) (rc p q))))]

/-- The same for hetero_diff. -/
theorem dmap_of_chunks15 (f1 f2 : FVec Ideal S8x256x64x64 .f32) (b : Fin 8) (X0 Y0 X1 Y1 : Vec Ideal S1x128x32x128 .f32)
    (hX0 : ∀ k p q, X0 (ix4 (0 : Fin 1) k p q) = f1 (ix4 b (chan 0 k) (rr p q) (rc p q)))
    (hY0 : ∀ k p q, Y0 (ix4 (0 : Fin 1) k p q) = f2 (ix4 b (chan 0 k) (rr p q) (rc p q)))
    (hX1 : ∀ k p q, X1 (ix4 (0 : Fin 1) k p q) = f1 (ix4 b (chan 1 k) (rr p q) (rc p q)))
    (hY1 : ∀ k p q, Y1 (ix4 (0 : Fin 1) k p q) = f2 (ix4 b (chan 1 k) (rr p q) (rc p q)))
    (u : Fin 1) (p : Fin 32) (q : Fin 128) :
    k0_pay15 (k0_pay36 (k0_pay25 X1) (k0_pay27 Y1) (k0_pay36 (k0_pay25 X0) (k0_pay27 Y0) (k0_pay8 (F := Ideal))))
        (k0_pay37 (k0_pay25 X1) (k0_pay27 Y1) (k0_pay37 (k0_pay25 X0) (k0_pay27 Y0) (k0_pay9 (F := Ideal)))) (ix3 u p q)
      = Spec.dmap f1 f2 (ix4 b (0 : Fin 1) (rr p q) (rc p q)) := by
  rw [pay15_apply, acc_sq36, acc_cos37, dmap_apply]
  simp only [hX0, hY0, hX1, hY1]
  rw [sum_chunks (fun c => sqd (f1 (ix4 b c (rr p q) (rc p q))) (f2 (ix4 b c (rr p q) (rc p q)))),
    sum_chunks (fun c => cosT (f1 (ix4 b c (rr p q) (rc p q))) (f2 (ix4 b c (rr p q) (rc p q))))]

end Reference

end Cert.KernelIdeal.Val89

end
-- ==== Proof.Ideal.ValFin89.lean ====
/- The two difference maps (opt_diff, hetero_diff) as the region leaves them in their arrays, at the ideal float
   instance. At an even point (channel chunk 0) the body resets the four accumulators and adds the chunk's sums; at the
   odd point after it (chunk 1) it adds the second chunk's sums and stores the two maps' blocks, which are written back
   to batch b = (point number)/2 of the [8,32,128] arrays. Each accumulator after the two chunks is the sum over the
   256 channels; the stored block, element by element, is the reference's map at the pixel re-laid from (p, q); the
   eight odd points' blocks tile the array. -/
import proofs.«129784_j68891275428342_2_alg».proof.Proof.Ideal.Frame
import proofs.«129784_j68891275428342_2_alg».proof.Proof.Ideal.Reshaped
import proofs.«129784_j68891275428342_2_alg».proof.Proof.Ideal.ValPay89
import Idealize.ShloMosaic.Lib.Pipeline.Value

set_option maxRecDepth 16384

noncomputable section

namespace Cert.KernelIdeal.Val89

open Cert.KernelIdeal Cert.KernelIdeal.Gen Cert.KernelIdeal.Fr
open Idealize.ShloMosaic Idealize.ShloMosaic.TcCoe Idealize.ShloMosaic.Tactic Idealize.SL.Sem
open Idealize.ShloMosaic.ValueIdx Idealize.ShloMosaic.LibSums
open Idealize.ShloMosaic.Pipeline (Dat)
open Cert.Iface (chan hab rr rc)
open scoped BigOperators

/-! ## Where the windows' blocks lie -/

set_option maxHeartbeats 400000 in
/-- The printed index maps of the three feature windows and the two map windows, decided over the grid: the batch is
    the point's number halved, the channel chunk its parity. -/
theorem idx_facts : ∀ t : Fin cfg0.N,
    win0_2.index t (0 : Fin 4) = t.val / 2 ∧ win0_2.index t (1 : Fin 4) = t.val % 2 ∧ win0_2.index t (2 : Fin 4) = 0 ∧ win0_2.index t (3 : Fin 4) = 0
    ∧ win0_3.index t (0 : Fin 4) = t.val / 2 ∧ win0_3.index t (1 : Fin 4) = t.val % 2 ∧ win0_3.index t (2 : Fin 4) = 0 ∧ win0_3.index t (3 : Fin 4) = 0
    ∧ win0_4.index t (0 : Fin 4) = t.val / 2 ∧ win0_4.index t (1 : Fin 4) = t.val % 2 ∧ win0_4.index t (2 : Fin 4) = 0 ∧ win0_4.index t (3 : Fin 4) = 0
    ∧ win0_8.index t (0 : Fin 3) = t.val / 2 ∧ win0_8.index t (1 : Fin 3) = 0 ∧ win0_8.index t (2 : Fin 3) = 0
    ∧ win0_9.index t (0 : Fin 3) = t.val / 2 ∧ win0_9.index t (1 : Fin 3) = 0 ∧ win0_9.index t (2 : Fin 3) = 0 :=
  (by decide +kernel : ∀ t : Fin grid0.N, _)

set_option maxHeartbeats 400000 in
/-- An element (u, p, q) of the block of map window 8 at point t lies at (t/2, p, q) of the array. -/
theorem emb8 (t : Fin cfg0.N) (u : Fin 1) (p : Fin 32) (q : Fin 128) (hb : t.val / 2 < 8) :
    ((cfg0.win 8).blk t).view.emb (ix3 u p q) = (ix3 (⟨t.val / 2, hb⟩ : Fin 8) p q : S8x32x128.Idx) := by
  obtain ⟨-, -, -, -, -, -, -, -, -, -, -, -, e0, e1, e2, -⟩ := idx_facts t
  have hu : u.val = 0 := by omega
  funext a
  apply Fin.ext
  match a with
  | ⟨0, _⟩ => show win0_8.index t (0 : Fin 3) * 1 + 1 * u.val = t.val / 2; rw [e0, hu]; omega
  | ⟨1, _⟩ => show win0_8.index t (1 : Fin 3) * 32 + 1 * p.val = p.val; rw [e1]; omega
  | ⟨2, _⟩ => show win0_8.index t (2 : Fin 3) * 128 + 1 * q.val = q.val; rw [e2]; omega

set_option maxHeartbeats 400000 in
/-- Every element of the [8,32,128] array of map window 8 is in the block of the odd point of its batch. -/
theorem cover8 (i : S8x32x128.Idx) :
    ∃ t : Fin cfg0.N, (cfg0.win 8).flush t = true ∧ i ∈ ((cfg0.win 8).blk t).view.set := by
  have hN : cfg0.N = 16 := N_0
  have hi0 : (i 0).val < 8 := (i 0).isLt
  have hi1 : (i 1).val < 32 := (i 1).isLt
  have hi2 : (i 2).val < 128 := (i 2).isLt
  let t : Fin cfg0.N := ⟨2 * (i 0).val + 1, by rw [hN]; omega⟩
  have ht : t.val = 2 * (i 0).val + 1 := rfl
  obtain ⟨-, -, -, -, -, -, -, -, -, -, -, -, e0, e1, e2, -⟩ := idx_facts t
  refine ⟨t, (flush0_8 t).mpr (by rw [ht]; omega), ?_⟩
  show i ∈ ((View.whole main_v6_2).slice (win0_8.rect t)).set
  rw [View.set_slice_whole, Rect.mem_set_unit]
  intro a
  match a with
  | ⟨0, _⟩ => show win0_8.index t (0 : Fin 3) * 1 ≤ (i 0).val ∧ (i 0).val < win0_8.index t (0 : Fin 3) * 1 + 1; rw [e0, ht]; omega
  | ⟨1, _⟩ => show win0_8.index t (1 : Fin 3) * 32 ≤ (i 1).val ∧ (i 1).val < win0_8.index t (1 : Fin 3) * 32 + 32; rw [e1]; omega
  | ⟨2, _⟩ => show win0_8.index t (2 : Fin 3) * 128 ≤ (i 2).val ∧ (i 2).val < win0_8.index t (2 : Fin 3) * 128 + 128; rw [e2]; omega

set_option maxHeartbeats 400000 in
/-- An element (u, p, q) of the block of map window 9 at point t lies at (t/2, p, q) of the array. -/
theorem emb9 (t : Fin cfg0.N) (u : Fin 1) (p : Fin 32) (q : Fin 128) (hb : t.val / 2 < 8) :
    ((cfg0.win 9).blk t).view.emb (ix3 u p q) = (ix3 (⟨t.val / 2, hb⟩ : Fin 8) p q : S8x32x128.Idx) := by
  obtain ⟨-, -, -, -, -, -, -, -, -, -, -, -, -, -, -, e0, e1, e2⟩ := idx_facts t
  have hu : u.val = 0 := by omega
  funext a
  apply Fin.ext
  match a with
  | ⟨0, _⟩ => show win0_9.index t (0 : Fin 3) * 1 + 1 * u.val = t.val / 2; rw [e0, hu]; omega
  | ⟨1, _⟩ => show win0_9.index t (1 : Fin 3) * 32 + 1 * p.val = p.val; rw [e1]; omega
  | ⟨2, _⟩ => show win0_9.index t (2 : Fin 3) * 128 + 1 * q.val = q.val; rw [e2]; omega

set_option maxHeartbeats 400000 in
/-- Every element of the [8,32,128] array of map window 9 is in the block of the odd point of its batch. -/
theorem cover9 (i : S8x32x128.Idx) :
    ∃ t : Fin cfg0.N, (cfg0.win 9).flush t = true ∧ i ∈ ((cfg0.win 9).blk t).view.set := by
  have hN : cfg0.N = 16 := N_0
  have hi0 : (i 0).val < 8 := (i 0).isLt
  have hi1 : (i 1).val < 32 := (i 1).isLt
  have hi2 : (i 2).val < 128 := (i 2).isLt
  let t : Fin cfg0.N := ⟨2 * (i 0).val + 1, by rw [hN]; omega⟩
  have ht : t.val = 2 * (i 0).val + 1 := rfl
  obtain ⟨-, -, -, -, -, -, -, -, -, -, -, -, -, -, -, e0, e1, e2⟩ := idx_facts t
  refine ⟨t, (flush0_9 t).mpr (by rw [ht]; omega), ?_⟩
  show i ∈ ((View.whole main_v6_3).slice (win0_9.rect t)).set
  rw [View.set_slice_whole, Rect.mem_set_unit]
  intro a
  match a with
  | ⟨0, _⟩ => show win0_9.index t (0 : Fin 3) * 1 ≤ (i 0).val ∧ (i 0).val < win0_9.index t (0 : Fin 3) * 1 + 1; rw [e0, ht]; omega
  | ⟨1, _⟩ => show win0_9.index t (1 : Fin 3) * 32 ≤ (i 1).val ∧ (i 1).val < win0_9.index t (1 : Fin 3) * 32 + 32; rw [e1]; omega
  | ⟨2, _⟩ => show win0_9.index t (2 : Fin 3) * 128 ≤ (i 2).val ∧ (i 2).val < win0_9.index t (2 : Fin 3) * 128 + 128; rw [e2]; omega

section Pieces
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-! ### An even point: each accumulator is reset, read back, and the chunk's sum added -/

set_option maxHeartbeats 4000000 in
/-- Accumulator 0 after an even point: the first chunk's squared differences of the opt pair, from zero. -/
theorem runA_S0 (c : Dev nD) (i : grid0.Coords) (arg2 : Memref sig .tc .vmem S1x128x32x128 .f32) (harg2 : arg2.IsWhole) (arg3 : Memref sig .tc .vmem S1x128x32x128 .f32) (harg3 : arg3.IsWhole) (arg4 : Memref sig .tc .vmem S1x128x32x128 .f32) (harg4 : arg4.IsWhole) (arg5 : Memref sig .tc .vmem S1x128x32x128 .f32) (harg5 : arg5.IsWhole) (arg6 : Memref sig .tc .vmem S1x128x32x128 .f32) (harg6 : arg6.IsWhole) (arg7 : Memref sig .tc .vmem S1x1x32x128 .f32) (harg7 : arg7.IsWhole) (arg8 : Memref sig .tc .vmem S1x1x1x128 .f32) (harg8 : arg8.IsWhole) (arg9 : Memref sig .tc .vmem S1x1x1x128 .f32) (harg9 : arg9.IsWhole) (arg10 : Memref sig .tc .vmem S1x32x128 .f32) (harg10 : arg10.IsWhole) (arg11 : Memref sig .tc .vmem S1x32x128 .f32) (harg11 : arg11.IsWhole) (arg12 : Memref sig .tc .vmem S1x32x128 .f32) (harg12 : arg12.IsWhole) (arg13 : Memref sig .tc .vmem S1x32x128 .f32) (harg13 : arg13.IsWhole) (arg14 : Memref sig .tc .vmem S1x2x128 .f32) (harg14 : arg14.IsWhole) (arg15 : Memref sig .tc .vmem S32x128 .f32) (harg15 : arg15.IsWhole) (arg16 : Memref sig .tc .vmem S32x128 .f32) (harg16 : arg16.IsWhole) (arg17 : Memref sig .tc .vmem S32x128 .f32) (harg17 : arg17.IsWhole) (arg18 : Memref sig .tc .vmem S32x128 .f32) (harg18 : arg18.IsWhole) (arg19 : Memref sig .tc .vmem S32x128 .f32) (harg19 : arg19.IsWhole) (arg20 : Memref sig .tc .vmem S32x128 .f32) (harg20 : arg20.IsWhole) (arg21 : Memref sig .tc .vmem S32x128 .f32) (harg21 : arg21.IsWhole) (arg22 : Memref sig .tc .vmem S32x128 .f32) (harg22 : arg22.IsWhole) (arg23 : Memref sig .tc .vmem S32x128 .f32) (harg23 : arg23.IsWhole) (arg24 : Memref sig .tc .vmem S32x128 .f32) (harg24 : arg24.IsWhole) (hc0 : cond0_0 i) (hc1 : ¬cond0_1 i)
    (x0 x1 x2 x3 x4 : Vec F S1x128x32x128 .f32) (x5 : Vec F S1x1x32x128 .f32) :
    View.canon (kernelRun0_A (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5).2.2.1 = k0_pay34 (k0_pay25 x2) (k0_pay26 x3) k0_pay6 := by
  unfold kernelRun0_A
  dsimp only
  sl_unfold_words
  rw [View.canon_cons_unit_zero (S := S32x128) hz2]
  simp only [View.readAt_eq_ld, harg4.read_unread, harg5.read_unread, harg6.read_unread, harg15.read_unread, harg16.read_unread, harg17.read_unread, harg18.read_unread, View.ld_unit_zero (S := S1x128x32x128) hz4, View.ld_unit_zero (S := S32x128) hz2, View.readCov_unit_zero (S := S32x128) _ hz2]

set_option maxHeartbeats 4000000 in
/-- Accumulator 1 after an even point: the first chunk's cosine terms of the opt pair, from zero. -/
theorem runA_S1 (c : Dev nD) (i : grid0.Coords) (arg2 : Memref sig .tc .vmem S1x128x32x128 .f32) (harg2 : arg2.IsWhole) (arg3 : Memref sig .tc .vmem S1x128x32x128 .f32) (harg3 : arg3.IsWhole) (arg4 : Memref sig .tc .vmem S1x128x32x128 .f32) (harg4 : arg4.IsWhole) (arg5 : Memref sig .tc .vmem S1x128x32x128 .f32) (harg5 : arg5.IsWhole) (arg6 : Memref sig .tc .vmem S1x128x32x128 .f32) (harg6 : arg6.IsWhole) (arg7 : Memref sig .tc .vmem S1x1x32x128 .f32) (harg7 : arg7.IsWhole) (arg8 : Memref sig .tc .vmem S1x1x1x128 .f32) (harg8 : arg8.IsWhole) (arg9 : Memref sig .tc .vmem S1x1x1x128 .f32) (harg9 : arg9.IsWhole) (arg10 : Memref sig .tc .vmem S1x32x128 .f32) (harg10 : arg10.IsWhole) (arg11 : Memref sig .tc .vmem S1x32x128 .f32) (harg11 : arg11.IsWhole) (arg12 : Memref sig .tc .vmem S1x32x128 .f32) (harg12 : arg12.IsWhole) (arg13 : Memref sig .tc .vmem S1x32x128 .f32) (harg13 : arg13.IsWhole) (arg14 : Memref sig .tc .vmem S1x2x128 .f32) (harg14 : arg14.IsWhole) (arg15 : Memref sig .tc .vmem S32x128 .f32) (harg15 : arg15.IsWhole) (arg16 : Memref sig .tc .vmem S32x128 .f32) (harg16 : arg16.IsWhole) (arg17 : Memref sig .tc .vmem S32x128 .f32) (harg17 : arg17.IsWhole) (arg18 : Memref sig .tc .vmem S32x128 .f32) (harg18 : arg18.IsWhole) (arg19 : Memref sig .tc .vmem S32x128 .f32) (harg19 : arg19.IsWhole) (arg20 : Memref sig .tc .vmem S32x128 .f32) (harg20 : arg20.IsWhole) (arg21 : Memref sig .tc .vmem S32x128 .f32) (harg21 : arg21.IsWhole) (arg22 : Memref sig .tc .vmem S32x128 .f32) (harg22 : arg22.IsWhole) (arg23 : Memref sig .tc .vmem S32x128 .f32) (harg23 : arg23.IsWhole) (arg24 : Memref sig .tc .vmem S32x128 .f32) (harg24 : arg24.IsWhole) (hc0 : cond0_0 i) (hc1 : ¬cond0_1 i)
    (x0 x1 x2 x3 x4 : Vec F S1x128x32x128 .f32) (x5 : Vec F S1x1x32x128 .f32) :
    View.canon (kernelRun0_A (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5).2.2.2.1 = k0_pay35 (k0_pay25 x2) (k0_pay26 x3) k0_pay7 := by
  unfold kernelRun0_A
  dsimp only
  sl_unfold_words
  rw [View.canon_cons_unit_zero (S := S32x128) hz2]
  simp only [View.readAt_eq_ld, harg4.read_unread, harg5.read_unread, harg6.read_unread, harg15.read_unread, harg16.read_unread, harg17.read_unread, harg18.read_unread, View.ld_unit_zero (S := S1x128x32x128) hz4, View.ld_unit_zero (S := S32x128) hz2, View.readCov_unit_zero (S := S32x128) _ hz2]

set_option maxHeartbeats 4000000 in
/-- Accumulator 2 after an even point: the first chunk's squared differences of the hetero pair, from zero. -/
theorem runA_S2 (c : Dev nD) (i : grid0.Coords) (arg2 : Memref sig .tc .vmem S1x128x32x128 .f32) (harg2 : arg2.IsWhole) (arg3 : Memref sig .tc .vmem S1x128x32x128 .f32) (harg3 : arg3.IsWhole) (arg4 : Memref sig .tc .vmem S1x128x32x128 .f32) (harg4 : arg4.IsWhole) (arg5 : Memref sig .tc .vmem S1x128x32x128 .f32) (harg5 : arg5.IsWhole) (arg6 : Memref sig .tc .vmem S1x128x32x128 .f32) (harg6 : arg6.IsWhole) (arg7 : Memref sig .tc .vmem S1x1x32x128 .f32) (harg7 : arg7.IsWhole) (arg8 : Memref sig .tc .vmem S1x1x1x128 .f32) (harg8 : arg8.IsWhole) (arg9 : Memref sig .tc .vmem S1x1x1x128 .f32) (harg9 : arg9.IsWhole) (arg10 : Memref sig .tc .vmem S1x32x128 .f32) (harg10 : arg10.IsWhole) (arg11 : Memref sig .tc .vmem S1x32x128 .f32) (harg11 : arg11.IsWhole) (arg12 : Memref sig .tc .vmem S1x32x128 .f32) (harg12 : arg12.IsWhole) (arg13 : Memref sig .tc .vmem S1x32x128 .f32) (harg13 : arg13.IsWhole) (arg14 : Memref sig .tc .vmem S1x2x128 .f32) (harg14 : arg14.IsWhole) (arg15 : Memref sig .tc .vmem S32x128 .f32) (harg15 : arg15.IsWhole) (arg16 : Memref sig .tc .vmem S32x128 .f32) (harg16 : arg16.IsWhole) (arg17 : Memref sig .tc .vmem S32x128 .f32) (harg17 : arg17.IsWhole) (arg18 : Memref sig .tc .vmem S32x128 .f32) (harg18 : arg18.IsWhole) (arg19 : Memref sig .tc .vmem S32x128 .f32) (harg19 : arg19.IsWhole) (arg20 : Memref sig .tc .vmem S32x128 .f32) (harg20 : arg20.IsWhole) (arg21 : Memref sig .tc .vmem S32x128 .f32) (harg21 : arg21.IsWhole) (arg22 : Memref sig .tc .vmem S32x128 .f32) (harg22 : arg22.IsWhole) (arg23 : Memref sig .tc .vmem S32x128 .f32) (harg23 : arg23.IsWhole) (arg24 : Memref sig .tc .vmem S32x128 .f32) (harg24 : arg24.IsWhole) (hc0 : cond0_0 i) (hc1 : ¬cond0_1 i)
    (x0 x1 x2 x3 x4 : Vec F S1x128x32x128 .f32) (x5 : Vec F S1x1x32x128 .f32) :
    View.canon (kernelRun0_A (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5).2.2.2.2.1 = k0_pay36 (k0_pay25 x2) (k0_pay27 x4) k0_pay8 := by
  unfold kernelRun0_A
  dsimp only
  sl_unfold_words
  rw [View.canon_cons_unit_zero (S := S32x128) hz2]
  simp only [View.readAt_eq_ld, harg4.read_unread, harg5.read_unread, harg6.read_unread, harg15.read_unread, harg16.read_unread, harg17.read_unread, harg18.read_unread, View.ld_unit_zero (S := S1x128x32x128) hz4, View.ld_unit_zero (S := S32x128) hz2, View.readCov_unit_zero (S := S32x128) _ hz2]

set_option maxHeartbeats 4000000 in
/-- Accumulator 3 after an even point: the first chunk's cosine terms of the hetero pair, from zero. -/
theorem runA_S3 (c : Dev nD) (i : grid0.Coords) (arg2 : Memref sig .tc .vmem S1x128x32x128 .f32) (harg2 : arg2.IsWhole) (arg3 : Memref sig .tc .vmem S1x128x32x128 .f32) (harg3 : arg3.IsWhole) (arg4 : Memref sig .tc .vmem S1x128x32x128 .f32) (harg4 : arg4.IsWhole) (arg5 : Memref sig .tc .vmem S1x128x32x128 .f32) (harg5 : arg5.IsWhole) (arg6 : Memref sig .tc .vmem S1x128x32x128 .f32) (harg6 : arg6.IsWhole) (arg7 : Memref sig .tc .vmem S1x1x32x128 .f32) (harg7 : arg7.IsWhole) (arg8 : Memref sig .tc .vmem S1x1x1x128 .f32) (harg8 : arg8.IsWhole) (arg9 : Memref sig .tc .vmem S1x1x1x128 .f32) (harg9 : arg9.IsWhole) (arg10 : Memref sig .tc .vmem S1x32x128 .f32) (harg10 : arg10.IsWhole) (arg11 : Memref sig .tc .vmem S1x32x128 .f32) (harg11 : arg11.IsWhole) (arg12 : Memref sig .tc .vmem S1x32x128 .f32) (harg12 : arg12.IsWhole) (arg13 : Memref sig .tc .vmem S1x32x128 .f32) (harg13 : arg13.IsWhole) (arg14 : Memref sig .tc .vmem S1x2x128 .f32) (harg14 : arg14.IsWhole) (arg15 : Memref sig .tc .vmem S32x128 .f32) (harg15 : arg15.IsWhole) (arg16 : Memref sig .tc .vmem S32x128 .f32) (harg16 : arg16.IsWhole) (arg17 : Memref sig .tc .vmem S32x128 .f32) (harg17 : arg17.IsWhole) (arg18 : Memref sig .tc .vmem S32x128 .f32) (harg18 : arg18.IsWhole) (arg19 : Memref sig .tc .vmem S32x128 .f32) (harg19 : arg19.IsWhole) (arg20 : Memref sig .tc .vmem S32x128 .f32) (harg20 : arg20.IsWhole) (arg21 : Memref sig .tc .vmem S32x128 .f32) (harg21 : arg21.IsWhole) (arg22 : Memref sig .tc .vmem S32x128 .f32) (harg22 : arg22.IsWhole) (arg23 : Memref sig .tc .vmem S32x128 .f32) (harg23 : arg23.IsWhole) (arg24 : Memref sig .tc .vmem S32x128 .f32) (harg24 : arg24.IsWhole) (hc0 : cond0_0 i) (hc1 : ¬cond0_1 i)
    (x0 x1 x2 x3 x4 : Vec F S1x128x32x128 .f32) (x5 : Vec F S1x1x32x128 .f32) :
    View.canon (kernelRun0_A (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5).2.2.2.2.2.1 = k0_pay37 (k0_pay25 x2) (k0_pay27 x4) k0_pay9 := by
  unfold kernelRun0_A
  dsimp only
  sl_unfold_words
  rw [View.canon_cons_unit_zero (S := S32x128) hz2]
  simp only [View.readAt_eq_ld, harg4.read_unread, harg5.read_unread, harg6.read_unread, harg15.read_unread, harg16.read_unread, harg17.read_unread, harg18.read_unread, View.ld_unit_zero (S := S1x128x32x128) hz4, View.ld_unit_zero (S := S32x128) hz2, View.readCov_unit_zero (S := S32x128) _ hz2]

/-! ### An odd point: the second chunk's sums are added to what the point before left, and the maps are stored -/

set_option maxHeartbeats 4000000 in
/-- The opt_diff block an odd point stores: the closing function of the two accumulators after the second chunk. -/
theorem runB_O8 (c : Dev nD) (i : grid0.Coords) (arg2 : Memref sig .tc .vmem S1x128x32x128 .f32) (harg2 : arg2.IsWhole) (arg3 : Memref sig .tc .vmem S1x128x32x128 .f32) (harg3 : arg3.IsWhole) (arg4 : Memref sig .tc .vmem S1x128x32x128 .f32) (harg4 : arg4.IsWhole) (arg5 : Memref sig .tc .vmem S1x128x32x128 .f32) (harg5 : arg5.IsWhole) (arg6 : Memref sig .tc .vmem S1x128x32x128 .f32) (harg6 : arg6.IsWhole) (arg7 : Memref sig .tc .vmem S1x1x32x128 .f32) (harg7 : arg7.IsWhole) (arg8 : Memref sig .tc .vmem S1x1x1x128 .f32) (harg8 : arg8.IsWhole) (arg9 : Memref sig .tc .vmem S1x1x1x128 .f32) (harg9 : arg9.IsWhole) (arg10 : Memref sig .tc .vmem S1x32x128 .f32) (harg10 : arg10.IsWhole) (arg11 : Memref sig .tc .vmem S1x32x128 .f32) (harg11 : arg11.IsWhole) (arg12 : Memref sig .tc .vmem S1x32x128 .f32) (harg12 : arg12.IsWhole) (arg13 : Memref sig .tc .vmem S1x32x128 .f32) (harg13 : arg13.IsWhole) (arg14 : Memref sig .tc .vmem S1x2x128 .f32) (harg14 : arg14.IsWhole) (arg15 : Memref sig .tc .vmem S32x128 .f32) (harg15 : arg15.IsWhole) (arg16 : Memref sig .tc .vmem S32x128 .f32) (harg16 : arg16.IsWhole) (arg17 : Memref sig .tc .vmem S32x128 .f32) (harg17 : arg17.IsWhole) (arg18 : Memref sig .tc .vmem S32x128 .f32) (harg18 : arg18.IsWhole) (arg19 : Memref sig .tc .vmem S32x128 .f32) (harg19 : arg19.IsWhole) (arg20 : Memref sig .tc .vmem S32x128 .f32) (harg20 : arg20.IsWhole) (arg21 : Memref sig .tc .vmem S32x128 .f32) (harg21 : arg21.IsWhole) (arg22 : Memref sig .tc .vmem S32x128 .f32) (harg22 : arg22.IsWhole) (arg23 : Memref sig .tc .vmem S32x128 .f32) (harg23 : arg23.IsWhole) (arg24 : Memref sig .tc .vmem S32x128 .f32) (harg24 : arg24.IsWhole) (hc0 : ¬cond0_0 i) (hc1 : cond0_1 i)
    (x0 x1 x2 x3 x4 : Vec F S1x128x32x128 .f32) (x5 : Vec F S1x1x32x128 .f32) (xs0 xs1 xs2 xs3 xs4 xs5 xs6 xs7 xs8 xs9 : Vec F S32x128 .f32) :
    View.canon (kernelRun0_B (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 xs0 xs1 xs2 xs3 xs4 xs5 xs6 xs7 xs8 xs9).2.2.1 = k0_pay14 (k0_pay34 (k0_pay25 x2) (k0_pay26 x3) xs0) (k0_pay35 (k0_pay25 x2) (k0_pay26 x3) xs1) := by
  unfold kernelRun0_B
  dsimp only
  sl_unfold_words
  rw [View.canon_unit_zero (S := S1x32x128) hz3]
  simp only [View.readAt_eq_ld, harg4.read_unread, harg5.read_unread, harg6.read_unread, harg15.read_unread, harg16.read_unread, harg17.read_unread, harg18.read_unread, View.ld_unit_zero (S := S1x128x32x128) hz4, View.ld_unit_zero (S := S32x128) hz2, View.readCov_unit_zero (S := S32x128) _ hz2]

set_option maxHeartbeats 4000000 in
/-- The hetero_diff block an odd point stores. -/
theorem runB_O9 (c : Dev nD) (i : grid0.Coords) (arg2 : Memref sig .tc .vmem S1x128x32x128 .f32) (harg2 : arg2.IsWhole) (arg3 : Memref sig .tc .vmem S1x128x32x128 .f32) (harg3 : arg3.IsWhole) (arg4 : Memref sig .tc .vmem S1x128x32x128 .f32) (harg4 : arg4.IsWhole) (arg5 : Memref sig .tc .vmem S1x128x32x128 .f32) (harg5 : arg5.IsWhole) (arg6 : Memref sig .tc .vmem S1x128x32x128 .f32) (harg6 : arg6.IsWhole) (arg7 : Memref sig .tc .vmem S1x1x32x128 .f32) (harg7 : arg7.IsWhole) (arg8 : Memref sig .tc .vmem S1x1x1x128 .f32) (harg8 : arg8.IsWhole) (arg9 : Memref sig .tc .vmem S1x1x1x128 .f32) (harg9 : arg9.IsWhole) (arg10 : Memref sig .tc .vmem S1x32x128 .f32) (harg10 : arg10.IsWhole) (arg11 : Memref sig .tc .vmem S1x32x128 .f32) (harg11 : arg11.IsWhole) (arg12 : Memref sig .tc .vmem S1x32x128 .f32) (harg12 : arg12.IsWhole) (arg13 : Memref sig .tc .vmem S1x32x128 .f32) (harg13 : arg13.IsWhole) (arg14 : Memref sig .tc .vmem S1x2x128 .f32) (harg14 : arg14.IsWhole) (arg15 : Memref sig .tc .vmem S32x128 .f32) (harg15 : arg15.IsWhole) (arg16 : Memref sig .tc .vmem S32x128 .f32) (harg16 : arg16.IsWhole) (arg17 : Memref sig .tc .vmem S32x128 .f32) (harg17 : arg17.IsWhole) (arg18 : Memref sig .tc .vmem S32x128 .f32) (harg18 : arg18.IsWhole) (arg19 : Memref sig .tc .vmem S32x128 .f32) (harg19 : arg19.IsWhole) (arg20 : Memref sig .tc .vmem S32x128 .f32) (harg20 : arg20.IsWhole) (arg21 : Memref sig .tc .vmem S32x128 .f32) (harg21 : arg21.IsWhole) (arg22 : Memref sig .tc .vmem S32x128 .f32) (harg22 : arg22.IsWhole) (arg23 : Memref sig .tc .vmem S32x128 .f32) (harg23 : arg23.IsWhole) (arg24 : Memref sig .tc .vmem S32x128 .f32) (harg24 : arg24.IsWhole) (hc0 : ¬cond0_0 i) (hc1 : cond0_1 i)
    (x0 x1 x2 x3 x4 : Vec F S1x128x32x128 .f32) (x5 : Vec F S1x1x32x128 .f32) (xs0 xs1 xs2 xs3 xs4 xs5 xs6 xs7 xs8 xs9 : Vec F S32x128 .f32) :
    View.canon (kernelRun0_B (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 xs0 xs1 xs2 xs3 xs4 xs5 xs6 xs7 xs8 xs9).2.2.2.1 = k0_pay15 (k0_pay36 (k0_pay25 x2) (k0_pay27 x4) xs2) (k0_pay37 (k0_pay25 x2) (k0_pay27 x4) xs3) := by
  unfold kernelRun0_B
  dsimp only
  sl_unfold_words
  rw [View.canon_unit_zero (S := S1x32x128) hz3]
  simp only [View.readAt_eq_ld, harg4.read_unread, harg5.read_unread, harg6.read_unread, harg15.read_unread, harg16.read_unread, harg17.read_unread, harg18.read_unread, View.ld_unit_zero (S := S1x128x32x128) hz4, View.ld_unit_zero (S := S32x128) hz2, View.readCov_unit_zero (S := S32x128) _ hz2]

end Pieces

/-! ## What the two kinds of point leave, as payloads of the point's blocks -/

section AtPoints
variable {F : FTy → Type} [FloatOps F]
variable (m : (ℓ : Loc nD τ sig) → Buf (Elt F) ℓ)

set_option maxHeartbeats 2000000 in
theorem ptA_s0 (c : Dev nD) (t : Fin cfg0.N) (h0 : t.val % 2 = 0) :
    (ptA m c t h0).s0 = k0_pay34 (k0_pay25 (iblk m c 2 t)) (k0_pay26 (iblk m c 3 t)) k0_pay6 := by
  show VS0_0.read (Elt F) (VS0_0.writes (Elt F) VS0_0.junk (runA m c t h0).2.2.1) = _
  rw [View.read_writes_eq_canon _ _ _ (scover0_A_0 m c t h0)]
  exact runA_S0 ..
set_option maxHeartbeats 2000000 in
theorem ptA_s1 (c : Dev nD) (t : Fin cfg0.N) (h0 : t.val % 2 = 0) :
    (ptA m c t h0).s1 = k0_pay35 (k0_pay25 (iblk m c 2 t)) (k0_pay26 (iblk m c 3 t)) k0_pay7 := by
  show VS0_1.read (Elt F) (VS0_1.writes (Elt F) VS0_1.junk (runA m c t h0).2.2.2.1) = _
  rw [View.read_writes_eq_canon _ _ _ (scover0_A_1 m c t h0)]
  exact runA_S1 ..
set_option maxHeartbeats 2000000 in
theorem ptA_s2 (c : Dev nD) (t : Fin cfg0.N) (h0 : t.val % 2 = 0) :
    (ptA m c t h0).s2 = k0_pay36 (k0_pay25 (iblk m c 2 t)) (k0_pay27 (iblk m c 4 t)) k0_pay8 := by
  show VS0_2.read (Elt F) (VS0_2.writes (Elt F) VS0_2.junk (runA m c t h0).2.2.2.2.1) = _
  rw [View.read_writes_eq_canon _ _ _ (scover0_A_2 m c t h0)]
  exact runA_S2 ..
set_option maxHeartbeats 2000000 in
theorem ptA_s3 (c : Dev nD) (t : Fin cfg0.N) (h0 : t.val % 2 = 0) :
    (ptA m c t h0).s3 = k0_pay37 (k0_pay25 (iblk m c 2 t)) (k0_pay27 (iblk m c 4 t)) k0_pay9 := by
  show VS0_3.read (Elt F) (VS0_3.writes (Elt F) VS0_3.junk (runA m c t h0).2.2.2.2.2.1) = _
  rw [View.read_writes_eq_canon _ _ _ (scover0_A_3 m c t h0)]
  exact runA_S3 ..

set_option maxHeartbeats 2000000 in
theorem ptB_o8 (c : Dev nD) (t : Fin cfg0.N) (h0 : ¬t.val % 2 = 0) (p : Pt F) :
    (ptB m c t h0 p).o8 = k0_pay14 (k0_pay34 (k0_pay25 (iblk m c 2 t)) (k0_pay26 (iblk m c 3 t)) p.s0)
      (k0_pay35 (k0_pay25 (iblk m c 2 t)) (k0_pay26 (iblk m c 3 t)) p.s1) := by
  show VO0_8.read (Elt F) (VO0_8.writes (Elt F) VO0_8.junk (runB m c t h0 p.s0 p.s1 p.s2 p.s3 p.s4 p.s5 p.s6 p.s7 p.s8 p.s9).2.2.1) = _
  rw [View.read_writes_eq_canon _ _ _ (cover0_B_8 m c t h0 _ _ _ _ _ _ _ _ _ _)]
  exact runB_O8 ..
set_option maxHeartbeats 2000000 in
theorem ptB_o9 (c : Dev nD) (t : Fin cfg0.N) (h0 : ¬t.val % 2 = 0) (p : Pt F) :
    (ptB m c t h0 p).o9 = k0_pay15 (k0_pay36 (k0_pay25 (iblk m c 2 t)) (k0_pay27 (iblk m c 4 t)) p.s2)
      (k0_pay37 (k0_pay25 (iblk m c 2 t)) (k0_pay27 (iblk m c 4 t)) p.s3) := by
  show VO0_9.read (Elt F) (VO0_9.writes (Elt F) VO0_9.junk (runB m c t h0 p.s0 p.s1 p.s2 p.s3 p.s4 p.s5 p.s6 p.s7 p.s8 p.s9).2.2.2.1) = _
  rw [View.read_writes_eq_canon _ _ _ (cover0_B_9 m c t h0 _ _ _ _ _ _ _ _ _ _)]
  exact runB_O9 ..
end AtPoints

/-! ## At the ideal instance: blocks to arrays -/

section AtIdeal
variable (m : (ℓ : Loc nD τ sig) → Buf (Elt Ideal) ℓ)

set_option maxHeartbeats 400000 in
/-- Element (0, k, p, q) of the block of feature window 2 at point t = 2·b + cc is the argument array at batch b,
    channel cc·128 + k, and the pixel re-laid from (p, q). -/
theorem iblk2_at (c : Dev nD) (t : Fin cfg0.N) (b : Fin 8) (cc : Fin 2) (ht : t.val = 2 * b.val + cc.val)
    (k : Fin 128) (p : Fin 32) (q : Fin 128) :
    iblk m c 2 t (ix4 (0 : Fin 1) k p q)
      = (m ((c.tc : Thread nD τ).loc main_arg4) : FVec Ideal S8x256x64x64 .f32) (ix4 b (chan cc k) (rr p q) (rc p q)) := by
  obtain ⟨e0, e1, e2, e3, -⟩ := idx_facts t
  have hb : b.val < 8 := b.isLt
  have hcc : cc.val < 2 := cc.isLt
  unfold iblk
  rw [View.read_apply]
  show V m c main_v2 _ = _
  rw [V_main_v2]
  refine (congrArg _ ?_).trans (shapeCast4_inner_apply hab _ _ b (chan cc k) p q)
  funext a
  apply Fin.ext
  match a with
  | ⟨0, _⟩ => show win0_2.index t (0 : Fin 4) * 1 + 1 * (0 : Fin 1).val = b.val; rw [e0, ht]; simp; omega
  | ⟨1, _⟩ => show win0_2.index t (1 : Fin 4) * 128 + 1 * k.val = cc.val * 128 + k.val; rw [e1, ht]; omega
  | ⟨2, _⟩ => show win0_2.index t (2 : Fin 4) * 32 + 1 * p.val = p.val; rw [e2]; omega
  | ⟨3, _⟩ => show win0_2.index t (3 : Fin 4) * 128 + 1 * q.val = q.val; rw [e3]; omega

set_option maxHeartbeats 400000 in
/-- Element (0, k, p, q) of the block of feature window 3 at point t = 2·b + cc is the argument array at batch b,
    channel cc·128 + k, and the pixel re-laid from (p, q). -/
theorem iblk3_at (c : Dev nD) (t : Fin cfg0.N) (b : Fin 8) (cc : Fin 2) (ht : t.val = 2 * b.val + cc.val)
    (k : Fin 128) (p : Fin 32) (q : Fin 128) :
    iblk m c 3 t (ix4 (0 : Fin 1) k p q)
      = (m ((c.tc : Thread nD τ).loc main_arg5) : FVec Ideal S8x256x64x64 .f32) (ix4 b (chan cc k) (rr p q) (rc p q)) := by
  obtain ⟨-, -, -, -, e0, e1, e2, e3, -⟩ := idx_facts t
  have hb : b.val < 8 := b.isLt
  have hcc : cc.val < 2 := cc.isLt
  unfold iblk
  rw [View.read_apply]
  show V m c main_v3 _ = _
  rw [V_main_v3]
  refine (congrArg _ ?_).trans (shapeCast4_inner_apply hab _ _ b (chan cc k) p q)
  funext a
  apply Fin.ext
  match a with
  | ⟨0, _⟩ => show win0_3.index t (0 : Fin 4) * 1 + 1 * (0 : Fin 1).val = b.val; rw [e0, ht]; simp; omega
  | ⟨1, _⟩ => show win0_3.index t (1 : Fin 4) * 128 + 1 * k.val = cc.val * 128 + k.val; rw [e1, ht]; omega
  | ⟨2, _⟩ => show win0_3.index t (2 : Fin 4) * 32 + 1 * p.val = p.val; rw [e2]; omega
  | ⟨3, _⟩ => show win0_3.index t (3 : Fin 4) * 128 + 1 * q.val = q.val; rw [e3]; omega

set_option maxHeartbeats 400000 in
/-- Element (0, k, p, q) of the block of feature window 4 at point t = 2·b + cc is the argument array at batch b,
    channel cc·128 + k, and the pixel re-laid from (p, q). -/
theorem iblk4_at (c : Dev nD) (t : Fin cfg0.N) (b : Fin 8) (cc : Fin 2) (ht : t.val = 2 * b.val + cc.val)
    (k : Fin 128) (p : Fin 32) (q : Fin 128) :
    iblk m c 4 t (ix4 (0 : Fin 1) k p q)
      = (m ((c.tc : Thread nD τ).loc main_arg6) : FVec Ideal S8x256x64x64 .f32) (ix4 b (chan cc k) (rr p q) (rc p q)) := by
  obtain ⟨-, -, -, -, -, -, -, -, e0, e1, e2, e3, -⟩ := idx_facts t
  have hb : b.val < 8 := b.isLt
  have hcc : cc.val < 2 := cc.isLt
  unfold iblk
  rw [View.read_apply]
  show V m c main_v4 _ = _
  rw [V_main_v4]
  refine (congrArg _ ?_).trans (shapeCast4_inner_apply hab _ _ b (chan cc k) p q)
  funext a
  apply Fin.ext
  match a with
  | ⟨0, _⟩ => show win0_4.index t (0 : Fin 4) * 1 + 1 * (0 : Fin 1).val = b.val; rw [e0, ht]; simp; omega
  | ⟨1, _⟩ => show win0_4.index t (1 : Fin 4) * 128 + 1 * k.val = cc.val * 128 + k.val; rw [e1, ht]; omega
  | ⟨2, _⟩ => show win0_4.index t (2 : Fin 4) * 32 + 1 * p.val = p.val; rw [e2]; omega
  | ⟨3, _⟩ => show win0_4.index t (3 : Fin 4) * 128 + 1 * q.val = q.val; rw [e3]; omega

variable [Cert.ReferenceIdeal.Facts₀]
open Cert.ReferenceIdeal (Spec.dmap)

/-- The reference's map of two argument arrays, re-laid from 64×64 to 32×128. -/
def relaid (f1 f2 : FVec Ideal S8x256x64x64 .f32) : FVec Ideal S8x32x128 .f32 :=
  fun j => Spec.dmap f1 f2 (ix4 (j 0) (0 : Fin 1) (rr (j 1) (j 2)) (rc (j 1) (j 2)))

/-- The contents map window 8's array ends with: the reference's map of opt_t1, opt_t2, re-laid. -/
def G8 (c : Dev nD) : Buf (Elt Ideal) ((cfg0.win 8).arr.view.loc (c.tc : Thread nD τ)) :=
  relaid (m ((c.tc : Thread nD τ).loc main_arg4)) (m ((c.tc : Thread nD τ).loc main_arg5))

/-- The contents map window 9's array ends with: the reference's map of opt_t1, sar_t2, re-laid. -/
def G9 (c : Dev nD) : Buf (Elt Ideal) ((cfg0.win 9).arr.view.loc (c.tc : Thread nD τ)) :=
  relaid (m ((c.tc : Thread nD τ).loc main_arg4)) (m ((c.tc : Thread nD τ).loc main_arg6))

set_option maxHeartbeats 2000000 in
/-- What the odd point t writes back to map window 8: block t of the reference's map of the two argument arrays,
    re-laid. -/
theorem flushed8_eq (c : Dev nD) (t : Fin cfg0.N) (hf : (cfg0.win 8).flush t = true) :
    (dats m 0 c).flushed 8 t = ((cfg0.win 8).blk t).view.read (Elt Ideal) (G8 m c) := by
  have htN : t.val < 16 := lt_of_lt_of_eq t.isLt N_0
  have h1 : t.val % 2 = 1 := (flush0_8 t).mp hf
  have hB : ¬t.val % 2 = 0 := by omega
  have hlt : t.val - 1 < cfg0.N := lt_of_le_of_lt (Nat.sub_le _ _) t.isLt
  have hA : (⟨t.val - 1, hlt⟩ : Fin cfg0.N).val % 2 = 0 := by show (t.val - 1) % 2 = 0; omega
  have hb : t.val / 2 < 8 := by omega
  show (cfg0.win 8).cut (grid0.coords t) ((dats m 0 c).after 8 t) = _
  rw [after0_8, outsAt0_B m c t hB, ptB_o8,
    show outsAt0 m c (t.val - 1) _ = ptA m c ⟨t.val - 1, hlt⟩ hA from outsAt0_A m c ⟨t.val - 1, hlt⟩ hA,
    ptA_s0, ptA_s1]
  funext j
  obtain ⟨u, p, q, rfl⟩ : ∃ (u : Fin 1) (p : Fin 32) (q : Fin 128), j = ix3 u p q := ⟨j 0, j 1, j 2, eq_ix3 j⟩
  rw [View.read_apply, emb8 t u p q hb]
  exact dmap_of_chunks14 _ _ ⟨t.val / 2, hb⟩
    (iblk m c 2 ⟨t.val - 1, hlt⟩) (iblk m c 3 ⟨t.val - 1, hlt⟩) (iblk m c 2 t) (iblk m c 3 t)
    (fun k p q => iblk2_at m c ⟨t.val - 1, hlt⟩ ⟨t.val / 2, hb⟩ 0 (by show t.val - 1 = 2 * (t.val / 2) + 0; omega) k p q)
    (fun k p q => iblk3_at m c ⟨t.val - 1, hlt⟩ ⟨t.val / 2, hb⟩ 0 (by show t.val - 1 = 2 * (t.val / 2) + 0; omega) k p q)
    (fun k p q => iblk2_at m c t ⟨t.val / 2, hb⟩ 1 (by show t.val = 2 * (t.val / 2) + 1; omega) k p q)
    (fun k p q => iblk3_at m c t ⟨t.val / 2, hb⟩ 1 (by show t.val = 2 * (t.val / 2) + 1; omega) k p q)
    u p q

set_option maxHeartbeats 1000000 in
/-- THE ARRAY of map window 8 after the run: the reference's map of the two argument arrays, re-laid. -/
theorem final8 (c : Dev nD) :
    Cert.Iface.HRelaid ((dats m 0 c).arrAt 8 cfg0.N)
      (Spec.dmap (m ((c.tc : Thread nD τ).loc main_arg4)) (m ((c.tc : Thread nD τ).loc main_arg5))) := by
  intro b p q
  rw [(dats m 0 c).arrAt_eq_of_cover 8 (G8 m c) (flushed8_eq m c) cover8]
  rfl

set_option maxHeartbeats 2000000 in
/-- What the odd point t writes back to map window 9: block t of the reference's map of the two argument arrays,
    re-laid. -/
theorem flushed9_eq (c : Dev nD) (t : Fin cfg0.N) (hf : (cfg0.win 9).flush t = true) :
    (dats m 0 c).flushed 9 t = ((cfg0.win 9).blk t).view.read (Elt Ideal) (G9 m c) := by
  have htN : t.val < 16 := lt_of_lt_of_eq t.isLt N_0
  have h1 : t.val % 2 = 1 := (flush0_9 t).mp hf
  have hB : ¬t.val % 2 = 0 := by omega
  have hlt : t.val - 1 < cfg0.N := lt_of_le_of_lt (Nat.sub_le _ _) t.isLt
  have hA : (⟨t.val - 1, hlt⟩ : Fin cfg0.N).val % 2 = 0 := by show (t.val - 1) % 2 = 0; omega
  have hb : t.val / 2 < 8 := by omega
  show (cfg0.win 9).cut (grid0.coords t) ((dats m 0 c).after 9 t) = _
  rw [after0_9, outsAt0_B m c t hB, ptB_o9,
    show outsAt0 m c (t.val - 1) _ = ptA m c ⟨t.val - 1, hlt⟩ hA from outsAt0_A m c ⟨t.val - 1, hlt⟩ hA,
    ptA_s2, ptA_s3]
  funext j
  obtain ⟨u, p, q, rfl⟩ : ∃ (u : Fin 1) (p : Fin 32) (q : Fin 128), j = ix3 u p q := ⟨j 0, j 1, j 2, eq_ix3 j⟩
  rw [View.read_apply, emb9 t u p q hb]
  exact dmap_of_chunks15 _ _ ⟨t.val / 2, hb⟩
    (iblk m c 2 ⟨t.val - 1, hlt⟩) (iblk m c 4 ⟨t.val - 1, hlt⟩) (iblk m c 2 t) (iblk m c 4 t)
    (fun k p q => iblk2_at m c ⟨t.val - 1, hlt⟩ ⟨t.val / 2, hb⟩ 0 (by show t.val - 1 = 2 * (t.val / 2) + 0; omega) k p q)
    (fun k p q => iblk4_at m c ⟨t.val - 1, hlt⟩ ⟨t.val / 2, hb⟩ 0 (by show t.val - 1 = 2 * (t.val / 2) + 0; omega) k p q)
    (fun k p q => iblk2_at m c t ⟨t.val / 2, hb⟩ 1 (by show t.val = 2 * (t.val / 2) + 1; omega) k p q)
    (fun k p q => iblk4_at m c t ⟨t.val / 2, hb⟩ 1 (by show t.val = 2 * (t.val / 2) + 1; omega) k p q)
    u p q

set_option maxHeartbeats 1000000 in
/-- THE ARRAY of map window 9 after the run: the reference's map of the two argument arrays, re-laid. -/
theorem final9 (c : Dev nD) :
    Cert.Iface.HRelaid ((dats m 0 c).arrAt 9 cfg0.N)
      (Spec.dmap (m ((c.tc : Thread nD τ).loc main_arg4)) (m ((c.tc : Thread nD τ).loc main_arg6))) := by
  intro b p q
  rw [(dats m 0 c).arrAt_eq_of_cover 9 (G9 m c) (flushed9_eq m c) cover9]
  rfl

end AtIdeal

end Cert.KernelIdeal.Val89

end
-- ==== Proof.Ideal.FinalsGen.lean ====
/- From the blocks the body leaves at the grid points to the region's seven output arrays, for any proof data of the
   region: a window's array ends at a whole-array function G as soon as the block left at each point that writes back
   agrees with G's block there — the two pooled-mean windows at every point (batch t / 2, chunk t % 2), the four map
   windows and the totals window at the odd point of each batch. Stated for any float instance. -/
import proofs.«129784_j68891275428342_2_alg».proof.Proof.Gen.KernelIdeal.Launch
import proofs.«129784_j68891275428342_2_alg».proof.Proof.Gen.KernelIdeal.Points
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## A block read against the array, by coordinates -/

/-- A row block [1,1,1,128] agrees with the array [8,2,1,128] at an index whose coordinates are (b, cc, 0, lane), when
    it agrees with row (b, cc) lane by lane. -/
theorem row_read (X : Vec F S1x1x1x128 .f32) (G : FVec F S8x2x1x128 .f32) (b : Fin 8) (cc : Fin 2)
    (hX : ∀ ch : Fin 128, X (ix4 (0 : Fin 1) (0 : Fin 1) (0 : Fin 1) ch) = G (ix4 b cc (0 : Fin 1) ch))
    (j : S1x1x1x128.Idx) (i : S8x2x1x128.Idx) (h0 : (i 0).val = b.val) (h1 : (i 1).val = cc.val) (h2 : (i 2).val = 0)
    (h3 : (i 3).val = (j 3).val) : X j = G i := by
  have hj : j = ix4 (0 : Fin 1) (0 : Fin 1) (0 : Fin 1) (j 3) := by
    funext a
    match a with
    | ⟨0, _⟩ => exact Fin.ext (by have hlt : (j 0).val < 1 := (j 0).isLt; show (j 0).val = 0; omega)
    | ⟨1, _⟩ => exact Fin.ext (by have hlt : (j 1).val < 1 := (j 1).isLt; show (j 1).val = 0; omega)
    | ⟨2, _⟩ => exact Fin.ext (by have hlt : (j 2).val < 1 := (j 2).isLt; show (j 2).val = 0; omega)
    | ⟨3, _⟩ => rfl
  have hi : i = ix4 b cc (0 : Fin 1) (j 3) := by
    funext a
    match a with
    | ⟨0, _⟩ => exact Fin.ext h0
    | ⟨1, _⟩ => exact Fin.ext h1
    | ⟨2, _⟩ => exact Fin.ext h2
    | ⟨3, _⟩ => exact Fin.ext h3
  rw [hj, hi]
  exact hX (j 3)

/-- A block S1x32x128 agrees with the array S8x32x128 at an index whose coordinates are (b, row, lane), when it agrees with
    plane b entry by entry. -/
theorem map_read (X : Vec F S1x32x128 .f32) (G : FVec F S8x32x128 .f32) (b : Fin 8)
    (hX : ∀ (p : Fin 32) (q : Fin 128), X (ix3 (0 : Fin 1) p q) = G (ix3 b p q))
    (j : S1x32x128.Idx) (i : S8x32x128.Idx) (h0 : (i 0).val = b.val) (h1 : (i 1).val = (j 1).val)
    (h2 : (i 2).val = (j 2).val) : X j = G i := by
  have hj : j = ix3 (0 : Fin 1) (j 1) (j 2) := by
    funext a
    match a with
    | ⟨0, _⟩ => exact Fin.ext (by have hlt : (j 0).val < 1 := (j 0).isLt; show (j 0).val = 0; omega)
    | ⟨1, _⟩ => rfl
    | ⟨2, _⟩ => rfl
  have hi : i = ix3 b (j 1) (j 2) := by
    funext a
    match a with
    | ⟨0, _⟩ => exact Fin.ext h0
    | ⟨1, _⟩ => exact Fin.ext h1
    | ⟨2, _⟩ => exact Fin.ext h2
  rw [hj, hi]
  exact hX (j 1) (j 2)

/-- A block S1x2x128 agrees with the array S8x2x128 at an index whose coordinates are (b, row, lane), when it agrees with
    plane b entry by entry. -/
theorem pair_read (X : Vec F S1x2x128 .f32) (G : FVec F S8x2x128 .f32) (b : Fin 8)
    (hX : ∀ (p : Fin 2) (q : Fin 128), X (ix3 (0 : Fin 1) p q) = G (ix3 b p q))
    (j : S1x2x128.Idx) (i : S8x2x128.Idx) (h0 : (i 0).val = b.val) (h1 : (i 1).val = (j 1).val)
    (h2 : (i 2).val = (j 2).val) : X j = G i := by
  have hj : j = ix3 (0 : Fin 1) (j 1) (j 2) := by
    funext a
    match a with
    | ⟨0, _⟩ => exact Fin.ext (by have hlt : (j 0).val < 1 := (j 0).isLt; show (j 0).val = 0; omega)
    | ⟨1, _⟩ => rfl
    | ⟨2, _⟩ => rfl
  have hi : i = ix3 b (j 1) (j 2) := by
    funext a
    match a with
    | ⟨0, _⟩ => exact Fin.ext h0
    | ⟨1, _⟩ => exact Fin.ext h1
    | ⟨2, _⟩ => exact Fin.ext h2
  rw [hj, hi]
  exact hX (j 1) (j 2)

/-! ## Output window 6: one row of 128 lanes per point, at block index (batch, chunk, 0, 0) -/

/-- The window's block index at point t: batch t / 2, chunk t % 2. -/
theorem idx0_6 : ∀ t : Fin cfg0.N, win0_6.index t (0 : Fin 4) = t.val / 2 ∧ win0_6.index t (1 : Fin 4) = t.val % 2
    ∧ win0_6.index t (2 : Fin 4) = 0 ∧ win0_6.index t (3 : Fin 4) = 0 :=
  (by decide +kernel : ∀ t : Fin grid0.N, _)

/-- Every (batch, chunk) is some point's block. -/
theorem onto0_6 : ∀ (b : Fin 8) (cc : Fin 2), ∃ t : Fin cfg0.N, t.val = 2 * b.val + cc.val :=
  (by decide +kernel : ∀ (b : Fin 8) (cc : Fin 2), ∃ t : Fin grid0.N, t.val = 2 * b.val + cc.val)

/-- What point t writes back is block t of G, when the block the body left agrees with G lane by lane. -/
theorem flushed6_eq {c : Dev nD} (dat : Dat τ (Elt F) Unit ℕ (UR sig nD τ) ℕ cfg0 c) (G : FVec F S8x2x1x128 .f32)
    (h : ∀ (t : Fin cfg0.N) (b : Fin 8) (cc : Fin 2), t.val = 2 * b.val + cc.val → ∀ ch : Fin 128,
      dat.after 6 t (ix4 (0 : Fin 1) (0 : Fin 1) (0 : Fin 1) ch) = G (ix4 b cc (0 : Fin 1) ch)) (t : Fin cfg0.N) :
    dat.flushed 6 t = ((cfg0.win 6).blk t).view.read (Elt F) G := by
  obtain ⟨e0, e1, e2, e3⟩ := idx0_6 t
  have ht : t.val < 16 := Nat.lt_of_lt_of_eq t.isLt N_0
  funext j
  exact row_read (dat.after 6 t) G ⟨t.val / 2, by omega⟩ ⟨t.val % 2, by omega⟩
    (h t ⟨t.val / 2, by omega⟩ ⟨t.val % 2, by omega⟩ (by show t.val = 2 * (t.val / 2) + t.val % 2; omega)) j _
    (by show win0_6.index t (0 : Fin 4) * 1 + 1 * (j 0).val = t.val / 2; have : (j 0).val < 1 := (j 0).isLt; omega)
    (by show win0_6.index t (1 : Fin 4) * 1 + 1 * (j 1).val = t.val % 2; have : (j 1).val < 1 := (j 1).isLt; omega)
    (by show win0_6.index t (2 : Fin 4) * 1 + 1 * (j 2).val = 0; have : (j 2).val < 1 := (j 2).isLt; omega)
    (by show win0_6.index t (3 : Fin 4) * 128 + 1 * (j 3).val = (j 3).val; omega)

/-- An index of the array is in point t's block iff each coordinate is in the block's range on its axis. -/
theorem mem_blk6 (t : Fin cfg0.N) (i : S8x2x1x128.Idx) :
    i ∈ ((cfg0.win 6).blk t).view.set ↔ ∀ a : Fin 4, win0_6.index t a * S1x1x1x128.size a ≤ (i a).val ∧ (i a).val < win0_6.index t a * S1x1x1x128.size a + S1x1x1x128.size a := by
  show i ∈ ((View.whole main_v6_0).slice (win0_6.rect t)).set ↔ _
  rw [View.set_slice_whole, Rect.mem_set_unit]
  exact Iff.rfl

/-- Every index of the array is in some point's block. -/
theorem cover6 (i : S8x2x1x128.Idx) : ∃ t : Fin cfg0.N, (cfg0.win 6).flush t = true ∧ i ∈ ((cfg0.win 6).blk t).view.set := by
  obtain ⟨t, ht⟩ := onto0_6 (i 0) (i 1)
  obtain ⟨e0, e1, e2, e3⟩ := idx0_6 t
  have hi0 : (i 0).val < 8 := (i 0).isLt
  have hi1 : (i 1).val < 2 := (i 1).isLt
  have hi2 : (i 2).val < 1 := (i 2).isLt
  have hi3 : (i 3).val < 128 := (i 3).isLt
  refine ⟨t, flush0_6 t, ?_⟩
  rw [mem_blk6]
  intro a
  match a with
  | ⟨0, _⟩ => show win0_6.index t (0 : Fin 4) * 1 ≤ (i 0).val ∧ (i 0).val < win0_6.index t (0 : Fin 4) * 1 + 1; omega
  | ⟨1, _⟩ => show win0_6.index t (1 : Fin 4) * 1 ≤ (i 1).val ∧ (i 1).val < win0_6.index t (1 : Fin 4) * 1 + 1; omega
  | ⟨2, _⟩ => show win0_6.index t (2 : Fin 4) * 1 ≤ (i 2).val ∧ (i 2).val < win0_6.index t (2 : Fin 4) * 1 + 1; omega
  | ⟨3, _⟩ => show win0_6.index t (3 : Fin 4) * 128 ≤ (i 3).val ∧ (i 3).val < win0_6.index t (3 : Fin 4) * 128 + 128; omega

/-- The array after the run is G, when every point's block agrees with G lane by lane. -/
theorem arrAt6_gen {c : Dev nD} (dat : Dat τ (Elt F) Unit ℕ (UR sig nD τ) ℕ cfg0 c) (G : FVec F S8x2x1x128 .f32)
    (h : ∀ (t : Fin cfg0.N) (b : Fin 8) (cc : Fin 2), t.val = 2 * b.val + cc.val → ∀ ch : Fin 128,
      dat.after 6 t (ix4 (0 : Fin 1) (0 : Fin 1) (0 : Fin 1) ch) = G (ix4 b cc (0 : Fin 1) ch)) :
    dat.arrAt 6 cfg0.N = G :=
  dat.arrAt_eq_of_cover 6 G (fun t _ => flushed6_eq dat G h t) cover6

/-! ## Output window 7: one row of 128 lanes per point, at block index (batch, chunk, 0, 0) -/

/-- The window's block index at point t: batch t / 2, chunk t % 2. -/
theorem idx0_7 : ∀ t : Fin cfg0.N, win0_7.index t (0 : Fin 4) = t.val / 2 ∧ win0_7.index t (1 : Fin 4) = t.val % 2
    ∧ win0_7.index t (2 : Fin 4) = 0 ∧ win0_7.index t (3 : Fin 4) = 0 :=
  (by decide +kernel : ∀ t : Fin grid0.N, _)

/-- Every (batch, chunk) is some point's block. -/
theorem onto0_7 : ∀ (b : Fin 8) (cc : Fin 2), ∃ t : Fin cfg0.N, t.val = 2 * b.val + cc.val :=
  (by decide +kernel : ∀ (b : Fin 8) (cc : Fin 2), ∃ t : Fin grid0.N, t.val = 2 * b.val + cc.val)

/-- What point t writes back is block t of G, when the block the body left agrees with G lane by lane. -/
theorem flushed7_eq {c : Dev nD} (dat : Dat τ (Elt F) Unit ℕ (UR sig nD τ) ℕ cfg0 c) (G : FVec F S8x2x1x128 .f32)
    (h : ∀ (t : Fin cfg0.N) (b : Fin 8) (cc : Fin 2), t.val = 2 * b.val + cc.val → ∀ ch : Fin 128,
      dat.after 7 t (ix4 (0 : Fin 1) (0 : Fin 1) (0 : Fin 1) ch) = G (ix4 b cc (0 : Fin 1) ch)) (t : Fin cfg0.N) :
    dat.flushed 7 t = ((cfg0.win 7).blk t).view.read (Elt F) G := by
  obtain ⟨e0, e1, e2, e3⟩ := idx0_7 t
  have ht : t.val < 16 := Nat.lt_of_lt_of_eq t.isLt N_0
  funext j
  exact row_read (dat.after 7 t) G ⟨t.val / 2, by omega⟩ ⟨t.val % 2, by omega⟩
    (h t ⟨t.val / 2, by omega⟩ ⟨t.val % 2, by omega⟩ (by show t.val = 2 * (t.val / 2) + t.val % 2; omega)) j _
    (by show win0_7.index t (0 : Fin 4) * 1 + 1 * (j 0).val = t.val / 2; have : (j 0).val < 1 := (j 0).isLt; omega)
    (by show win0_7.index t (1 : Fin 4) * 1 + 1 * (j 1).val = t.val % 2; have : (j 1).val < 1 := (j 1).isLt; omega)
    (by show win0_7.index t (2 : Fin 4) * 1 + 1 * (j 2).val = 0; have : (j 2).val < 1 := (j 2).isLt; omega)
    (by show win0_7.index t (3 : Fin 4) * 128 + 1 * (j 3).val = (j 3).val; omega)

/-- An index of the array is in point t's block iff each coordinate is in the block's range on its axis. -/
theorem mem_blk7 (t : Fin cfg0.N) (i : S8x2x1x128.Idx) :
    i ∈ ((cfg0.win 7).blk t).view.set ↔ ∀ a : Fin 4, win0_7.index t a * S1x1x1x128.size a ≤ (i a).val ∧ (i a).val < win0_7.index t a * S1x1x1x128.size a + S1x1x1x128.size a := by
  show i ∈ ((View.whole main_v6_1).slice (win0_7.rect t)).set ↔ _
  rw [View.set_slice_whole, Rect.mem_set_unit]
  exact Iff.rfl

/-- Every index of the array is in some point's block. -/
theorem cover7 (i : S8x2x1x128.Idx) : ∃ t : Fin cfg0.N, (cfg0.win 7).flush t = true ∧ i ∈ ((cfg0.win 7).blk t).view.set := by
  obtain ⟨t, ht⟩ := onto0_7 (i 0) (i 1)
  obtain ⟨e0, e1, e2, e3⟩ := idx0_7 t
  have hi0 : (i 0).val < 8 := (i 0).isLt
  have hi1 : (i 1).val < 2 := (i 1).isLt
  have hi2 : (i 2).val < 1 := (i 2).isLt
  have hi3 : (i 3).val < 128 := (i 3).isLt
  refine ⟨t, flush0_7 t, ?_⟩
  rw [mem_blk7]
  intro a
  match a with
  | ⟨0, _⟩ => show win0_7.index t (0 : Fin 4) * 1 ≤ (i 0).val ∧ (i 0).val < win0_7.index t (0 : Fin 4) * 1 + 1; omega
  | ⟨1, _⟩ => show win0_7.index t (1 : Fin 4) * 1 ≤ (i 1).val ∧ (i 1).val < win0_7.index t (1 : Fin 4) * 1 + 1; omega
  | ⟨2, _⟩ => show win0_7.index t (2 : Fin 4) * 1 ≤ (i 2).val ∧ (i 2).val < win0_7.index t (2 : Fin 4) * 1 + 1; omega
  | ⟨3, _⟩ => show win0_7.index t (3 : Fin 4) * 128 ≤ (i 3).val ∧ (i 3).val < win0_7.index t (3 : Fin 4) * 128 + 128; omega

/-- The array after the run is G, when every point's block agrees with G lane by lane. -/
theorem arrAt7_gen {c : Dev nD} (dat : Dat τ (Elt F) Unit ℕ (UR sig nD τ) ℕ cfg0 c) (G : FVec F S8x2x1x128 .f32)
    (h : ∀ (t : Fin cfg0.N) (b : Fin 8) (cc : Fin 2), t.val = 2 * b.val + cc.val → ∀ ch : Fin 128,
      dat.after 7 t (ix4 (0 : Fin 1) (0 : Fin 1) (0 : Fin 1) ch) = G (ix4 b cc (0 : Fin 1) ch)) :
    dat.arrAt 7 cfg0.N = G :=
  dat.arrAt_eq_of_cover 7 G (fun t _ => flushed7_eq dat G h t) cover7

/-! ## Output window 8: one 32×128 plane per batch, written back at the odd point of each batch, at block index (batch, 0, 0) -/

/-- The window's block index at point t: batch t / 2. -/
theorem idx0_8 : ∀ t : Fin cfg0.N, win0_8.index t (0 : Fin 3) = t.val / 2 ∧ win0_8.index t (1 : Fin 3) = 0
    ∧ win0_8.index t (2 : Fin 3) = 0 :=
  (by decide +kernel : ∀ t : Fin grid0.N, _)

/-- Every batch has its odd point. -/
theorem onto0_8 : ∀ b : Fin 8, ∃ t : Fin cfg0.N, t.val = 2 * b.val + 1 :=
  (by decide +kernel : ∀ b : Fin 8, ∃ t : Fin grid0.N, t.val = 2 * b.val + 1)

/-- What a point that writes back writes is block t of G, when the block the body left there agrees with G entry by entry. -/
theorem flushed8_eq {c : Dev nD} (dat : Dat τ (Elt F) Unit ℕ (UR sig nD τ) ℕ cfg0 c) (G : FVec F S8x32x128 .f32)
    (h : ∀ (t : Fin cfg0.N) (b : Fin 8), t.val = 2 * b.val + 1 → ∀ (p : Fin 32) (q : Fin 128),
      dat.after 8 t (ix3 (0 : Fin 1) p q) = G (ix3 b p q)) (t : Fin cfg0.N) (hf : (cfg0.win 8).flush t = true) :
    dat.flushed 8 t = ((cfg0.win 8).blk t).view.read (Elt F) G := by
  obtain ⟨e0, e1, e2⟩ := idx0_8 t
  have ht : t.val < 16 := Nat.lt_of_lt_of_eq t.isLt N_0
  have hodd : t.val % 2 = 1 := (flush0_8 t).mp hf
  funext j
  exact map_read (dat.after 8 t) G ⟨t.val / 2, by omega⟩
    (h t ⟨t.val / 2, by omega⟩ (by show t.val = 2 * (t.val / 2) + 1; omega)) j _
    (by show win0_8.index t (0 : Fin 3) * 1 + 1 * (j 0).val = t.val / 2; have : (j 0).val < 1 := (j 0).isLt; omega)
    (by show win0_8.index t (1 : Fin 3) * 32 + 1 * (j 1).val = (j 1).val; omega)
    (by show win0_8.index t (2 : Fin 3) * 128 + 1 * (j 2).val = (j 2).val; omega)

/-- An index of the array is in point t's block iff each coordinate is in the block's range on its axis. -/
theorem mem_blk8 (t : Fin cfg0.N) (i : S8x32x128.Idx) :
    i ∈ ((cfg0.win 8).blk t).view.set ↔ ∀ a : Fin 3, win0_8.index t a * S1x32x128.size a ≤ (i a).val ∧ (i a).val < win0_8.index t a * S1x32x128.size a + S1x32x128.size a := by
  show i ∈ ((View.whole main_v6_2).slice (win0_8.rect t)).set ↔ _
  rw [View.set_slice_whole, Rect.mem_set_unit]
  exact Iff.rfl

/-- Every index of the array is in the block of a point that writes back. -/
theorem cover8 (i : S8x32x128.Idx) : ∃ t : Fin cfg0.N, (cfg0.win 8).flush t = true ∧ i ∈ ((cfg0.win 8).blk t).view.set := by
  obtain ⟨t, ht⟩ := onto0_8 (i 0)
  obtain ⟨e0, e1, e2⟩ := idx0_8 t
  have hi0 : (i 0).val < 8 := (i 0).isLt
  have hi1 : (i 1).val < 32 := (i 1).isLt
  have hi2 : (i 2).val < 128 := (i 2).isLt
  refine ⟨t, (flush0_8 t).mpr (by omega), ?_⟩
  rw [mem_blk8]
  intro a
  match a with
  | ⟨0, _⟩ => show win0_8.index t (0 : Fin 3) * 1 ≤ (i 0).val ∧ (i 0).val < win0_8.index t (0 : Fin 3) * 1 + 1; omega
  | ⟨1, _⟩ => show win0_8.index t (1 : Fin 3) * 32 ≤ (i 1).val ∧ (i 1).val < win0_8.index t (1 : Fin 3) * 32 + 32; omega
  | ⟨2, _⟩ => show win0_8.index t (2 : Fin 3) * 128 ≤ (i 2).val ∧ (i 2).val < win0_8.index t (2 : Fin 3) * 128 + 128; omega

/-- The array after the run is G, when the block left at each batch's odd point agrees with G entry by entry. -/
theorem arrAt8_gen {c : Dev nD} (dat : Dat τ (Elt F) Unit ℕ (UR sig nD τ) ℕ cfg0 c) (G : FVec F S8x32x128 .f32)
    (h : ∀ (t : Fin cfg0.N) (b : Fin 8), t.val = 2 * b.val + 1 → ∀ (p : Fin 32) (q : Fin 128),
      dat.after 8 t (ix3 (0 : Fin 1) p q) = G (ix3 b p q)) :
    dat.arrAt 8 cfg0.N = G :=
  dat.arrAt_eq_of_cover 8 G (fun t hf => flushed8_eq dat G h t hf) cover8

/-! ## Output window 9: one 32×128 plane per batch, written back at the odd point of each batch, at block index (batch, 0, 0) -/

/-- The window's block index at point t: batch t / 2. -/
theorem idx0_9 : ∀ t : Fin cfg0.N, win0_9.index t (0 : Fin 3) = t.val / 2 ∧ win0_9.index t (1 : Fin 3) = 0
    ∧ win0_9.index t (2 : Fin 3) = 0 :=
  (by decide +kernel : ∀ t : Fin grid0.N, _)

/-- Every batch has its odd point. -/
theorem onto0_9 : ∀ b : Fin 8, ∃ t : Fin cfg0.N, t.val = 2 * b.val + 1 :=
  (by decide +kernel : ∀ b : Fin 8, ∃ t : Fin grid0.N, t.val = 2 * b.val + 1)

/-- What a point that writes back writes is block t of G, when the block the body left there agrees with G entry by entry. -/
theorem flushed9_eq {c : Dev nD} (dat : Dat τ (Elt F) Unit ℕ (UR sig nD τ) ℕ cfg0 c) (G : FVec F S8x32x128 .f32)
    (h : ∀ (t : Fin cfg0.N) (b : Fin 8), t.val = 2 * b.val + 1 → ∀ (p : Fin 32) (q : Fin 128),
      dat.after 9 t (ix3 (0 : Fin 1) p q) = G (ix3 b p q)) (t : Fin cfg0.N) (hf : (cfg0.win 9).flush t = true) :
    dat.flushed 9 t = ((cfg0.win 9).blk t).view.read (Elt F) G := by
  obtain ⟨e0, e1, e2⟩ := idx0_9 t
  have ht : t.val < 16 := Nat.lt_of_lt_of_eq t.isLt N_0
  have hodd : t.val % 2 = 1 := (flush0_9 t).mp hf
  funext j
  exact map_read (dat.after 9 t) G ⟨t.val / 2, by omega⟩
    (h t ⟨t.val / 2, by omega⟩ (by show t.val = 2 * (t.val / 2) + 1; omega)) j _
    (by show win0_9.index t (0 : Fin 3) * 1 + 1 * (j 0).val = t.val / 2; have : (j 0).val < 1 := (j 0).isLt; omega)
    (by show win0_9.index t (1 : Fin 3) * 32 + 1 * (j 1).val = (j 1).val; omega)
    (by show win0_9.index t (2 : Fin 3) * 128 + 1 * (j 2).val = (j 2).val; omega)

/-- An index of the array is in point t's block iff each coordinate is in the block's range on its axis. -/
theorem mem_blk9 (t : Fin cfg0.N) (i : S8x32x128.Idx) :
    i ∈ ((cfg0.win 9).blk t).view.set ↔ ∀ a : Fin 3, win0_9.index t a * S1x32x128.size a ≤ (i a).val ∧ (i a).val < win0_9.index t a * S1x32x128.size a + S1x32x128.size a := by
  show i ∈ ((View.whole main_v6_3).slice (win0_9.rect t)).set ↔ _
  rw [View.set_slice_whole, Rect.mem_set_unit]
  exact Iff.rfl

/-- Every index of the array is in the block of a point that writes back. -/
theorem cover9 (i : S8x32x128.Idx) : ∃ t : Fin cfg0.N, (cfg0.win 9).flush t = true ∧ i ∈ ((cfg0.win 9).blk t).view.set := by
  obtain ⟨t, ht⟩ := onto0_9 (i 0)
  obtain ⟨e0, e1, e2⟩ := idx0_9 t
  have hi0 : (i 0).val < 8 := (i 0).isLt
  have hi1 : (i 1).val < 32 := (i 1).isLt
  have hi2 : (i 2).val < 128 := (i 2).isLt
  refine ⟨t, (flush0_9 t).mpr (by omega), ?_⟩
  rw [mem_blk9]
  intro a
  match a with
  | ⟨0, _⟩ => show win0_9.index t (0 : Fin 3) * 1 ≤ (i 0).val ∧ (i 0).val < win0_9.index t (0 : Fin 3) * 1 + 1; omega
  | ⟨1, _⟩ => show win0_9.index t (1 : Fin 3) * 32 ≤ (i 1).val ∧ (i 1).val < win0_9.index t (1 : Fin 3) * 32 + 32; omega
  | ⟨2, _⟩ => show win0_9.index t (2 : Fin 3) * 128 ≤ (i 2).val ∧ (i 2).val < win0_9.index t (2 : Fin 3) * 128 + 128; omega

/-- The array after the run is G, when the block left at each batch's odd point agrees with G entry by entry. -/
theorem arrAt9_gen {c : Dev nD} (dat : Dat τ (Elt F) Unit ℕ (UR sig nD τ) ℕ cfg0 c) (G : FVec F S8x32x128 .f32)
    (h : ∀ (t : Fin cfg0.N) (b : Fin 8), t.val = 2 * b.val + 1 → ∀ (p : Fin 32) (q : Fin 128),
      dat.after 9 t (ix3 (0 : Fin 1) p q) = G (ix3 b p q)) :
    dat.arrAt 9 cfg0.N = G :=
  dat.arrAt_eq_of_cover 9 G (fun t hf => flushed9_eq dat G h t hf) cover9

/-! ## Output window 10: one 32×128 plane per batch, written back at the odd point of each batch, at block index (batch, 0, 0) -/

/-- The window's block index at point t: batch t / 2. -/
theorem idx0_10 : ∀ t : Fin cfg0.N, win0_10.index t (0 : Fin 3) = t.val / 2 ∧ win0_10.index t (1 : Fin 3) = 0
    ∧ win0_10.index t (2 : Fin 3) = 0 :=
  (by decide +kernel : ∀ t : Fin grid0.N, _)

/-- Every batch has its odd point. -/
theorem onto0_10 : ∀ b : Fin 8, ∃ t : Fin cfg0.N, t.val = 2 * b.val + 1 :=
  (by decide +kernel : ∀ b : Fin 8, ∃ t : Fin grid0.N, t.val = 2 * b.val + 1)

/-- What a point that writes back writes is block t of G, when the block the body left there agrees with G entry by entry. -/
theorem flushed10_eq {c : Dev nD} (dat : Dat τ (Elt F) Unit ℕ (UR sig nD τ) ℕ cfg0 c) (G : FVec F S8x32x128 .f32)
    (h : ∀ (t : Fin cfg0.N) (b : Fin 8), t.val = 2 * b.val + 1 → ∀ (p : Fin 32) (q : Fin 128),
      dat.after 10 t (ix3 (0 : Fin 1) p q) = G (ix3 b p q)) (t : Fin cfg0.N) (hf : (cfg0.win 10).flush t = true) :
    dat.flushed 10 t = ((cfg0.win 10).blk t).view.read (Elt F) G := by
  obtain ⟨e0, e1, e2⟩ := idx0_10 t
  have ht : t.val < 16 := Nat.lt_of_lt_of_eq t.isLt N_0
  have hodd : t.val % 2 = 1 := (flush0_10 t).mp hf
  funext j
  exact map_read (dat.after 10 t) G ⟨t.val / 2, by omega⟩
    (h t ⟨t.val / 2, by omega⟩ (by show t.val = 2 * (t.val / 2) + 1; omega)) j _
    (by show win0_10.index t (0 : Fin 3) * 1 + 1 * (j 0).val = t.val / 2; have : (j 0).val < 1 := (j 0).isLt; omega)
    (by show win0_10.index t (1 : Fin 3) * 32 + 1 * (j 1).val = (j 1).val; omega)
    (by show win0_10.index t (2 : Fin 3) * 128 + 1 * (j 2).val = (j 2).val; omega)

/-- An index of the array is in point t's block iff each coordinate is in the block's range on its axis. -/
theorem mem_blk10 (t : Fin cfg0.N) (i : S8x32x128.Idx) :
    i ∈ ((cfg0.win 10).blk t).view.set ↔ ∀ a : Fin 3, win0_10.index t a * S1x32x128.size a ≤ (i a).val ∧ (i a).val < win0_10.index t a * S1x32x128.size a + S1x32x128.size a := by
  show i ∈ ((View.whole main_v6_4).slice (win0_10.rect t)).set ↔ _
  rw [View.set_slice_whole, Rect.mem_set_unit]
  exact Iff.rfl

/-- Every index of the array is in the block of a point that writes back. -/
theorem cover10 (i : S8x32x128.Idx) : ∃ t : Fin cfg0.N, (cfg0.win 10).flush t = true ∧ i ∈ ((cfg0.win 10).blk t).view.set := by
  obtain ⟨t, ht⟩ := onto0_10 (i 0)
  obtain ⟨e0, e1, e2⟩ := idx0_10 t
  have hi0 : (i 0).val < 8 := (i 0).isLt
  have hi1 : (i 1).val < 32 := (i 1).isLt
  have hi2 : (i 2).val < 128 := (i 2).isLt
  refine ⟨t, (flush0_10 t).mpr (by omega), ?_⟩
  rw [mem_blk10]
  intro a
  match a with
  | ⟨0, _⟩ => show win0_10.index t (0 : Fin 3) * 1 ≤ (i 0).val ∧ (i 0).val < win0_10.index t (0 : Fin 3) * 1 + 1; omega
  | ⟨1, _⟩ => show win0_10.index t (1 : Fin 3) * 32 ≤ (i 1).val ∧ (i 1).val < win0_10.index t (1 : Fin 3) * 32 + 32; omega
  | ⟨2, _⟩ => show win0_10.index t (2 : Fin 3) * 128 ≤ (i 2).val ∧ (i 2).val < win0_10.index t (2 : Fin 3) * 128 + 128; omega

/-- The array after the run is G, when the block left at each batch's odd point agrees with G entry by entry. -/
theorem arrAt10_gen {c : Dev nD} (dat : Dat τ (Elt F) Unit ℕ (UR sig nD τ) ℕ cfg0 c) (G : FVec F S8x32x128 .f32)
    (h : ∀ (t : Fin cfg0.N) (b : Fin 8), t.val = 2 * b.val + 1 → ∀ (p : Fin 32) (q : Fin 128),
      dat.after 10 t (ix3 (0 : Fin 1) p q) = G (ix3 b p q)) :
    dat.arrAt 10 cfg0.N = G :=
  dat.arrAt_eq_of_cover 10 G (fun t hf => flushed10_eq dat G h t hf) cover10

/-! ## Output window 11: one 32×128 plane per batch, written back at the odd point of each batch, at block index (batch, 0, 0) -/

/-- The window's block index at point t: batch t / 2. -/
theorem idx0_11 : ∀ t : Fin cfg0.N, win0_11.index t (0 : Fin 3) = t.val / 2 ∧ win0_11.index t (1 : Fin 3) = 0
    ∧ win0_11.index t (2 : Fin 3) = 0 :=
  (by decide +kernel : ∀ t : Fin grid0.N, _)

/-- Every batch has its odd point. -/
theorem onto0_11 : ∀ b : Fin 8, ∃ t : Fin cfg0.N, t.val = 2 * b.val + 1 :=
  (by decide +kernel : ∀ b : Fin 8, ∃ t : Fin grid0.N, t.val = 2 * b.val + 1)

/-- What a point that writes back writes is block t of G, when the block the body left there agrees with G entry by entry. -/
theorem flushed11_eq {c : Dev nD} (dat : Dat τ (Elt F) Unit ℕ (UR sig nD τ) ℕ cfg0 c) (G : FVec F S8x32x128 .f32)
    (h : ∀ (t : Fin cfg0.N) (b : Fin 8), t.val = 2 * b.val + 1 → ∀ (p : Fin 32) (q : Fin 128),
      dat.after 11 t (ix3 (0 : Fin 1) p q) = G (ix3 b p q)) (t : Fin cfg0.N) (hf : (cfg0.win 11).flush t = true) :
    dat.flushed 11 t = ((cfg0.win 11).blk t).view.read (Elt F) G := by
  obtain ⟨e0, e1, e2⟩ := idx0_11 t
  have ht : t.val < 16 := Nat.lt_of_lt_of_eq t.isLt N_0
  have hodd : t.val % 2 = 1 := (flush0_11 t).mp hf
  funext j
  exact map_read (dat.after 11 t) G ⟨t.val / 2, by omega⟩
    (h t ⟨t.val / 2, by omega⟩ (by show t.val = 2 * (t.val / 2) + 1; omega)) j _
    (by show win0_11.index t (0 : Fin 3) * 1 + 1 * (j 0).val = t.val / 2; have : (j 0).val < 1 := (j 0).isLt; omega)
    (by show win0_11.index t (1 : Fin 3) * 32 + 1 * (j 1).val = (j 1).val; omega)
    (by show win0_11.index t (2 : Fin 3) * 128 + 1 * (j 2).val = (j 2).val; omega)

/-- An index of the array is in point t's block iff each coordinate is in the block's range on its axis. -/
theorem mem_blk11 (t : Fin cfg0.N) (i : S8x32x128.Idx) :
    i ∈ ((cfg0.win 11).blk t).view.set ↔ ∀ a : Fin 3, win0_11.index t a * S1x32x128.size a ≤ (i a).val ∧ (i a).val < win0_11.index t a * S1x32x128.size a + S1x32x128.size a := by
  show i ∈ ((View.whole main_v6_5).slice (win0_11.rect t)).set ↔ _
  rw [View.set_slice_whole, Rect.mem_set_unit]
  exact Iff.rfl

/-- Every index of the array is in the block of a point that writes back. -/
theorem cover11 (i : S8x32x128.Idx) : ∃ t : Fin cfg0.N, (cfg0.win 11).flush t = true ∧ i ∈ ((cfg0.win 11).blk t).view.set := by
  obtain ⟨t, ht⟩ := onto0_11 (i 0)
  obtain ⟨e0, e1, e2⟩ := idx0_11 t
  have hi0 : (i 0).val < 8 := (i 0).isLt
  have hi1 : (i 1).val < 32 := (i 1).isLt
  have hi2 : (i 2).val < 128 := (i 2).isLt
  refine ⟨t, (flush0_11 t).mpr (by omega), ?_⟩
  rw [mem_blk11]
  intro a
  match a with
  | ⟨0, _⟩ => show win0_11.index t (0 : Fin 3) * 1 ≤ (i 0).val ∧ (i 0).val < win0_11.index t (0 : Fin 3) * 1 + 1; omega
  | ⟨1, _⟩ => show win0_11.index t (1 : Fin 3) * 32 ≤ (i 1).val ∧ (i 1).val < win0_11.index t (1 : Fin 3) * 32 + 32; omega
  | ⟨2, _⟩ => show win0_11.index t (2 : Fin 3) * 128 ≤ (i 2).val ∧ (i 2).val < win0_11.index t (2 : Fin 3) * 128 + 128; omega

/-- The array after the run is G, when the block left at each batch's odd point agrees with G entry by entry. -/
theorem arrAt11_gen {c : Dev nD} (dat : Dat τ (Elt F) Unit ℕ (UR sig nD τ) ℕ cfg0 c) (G : FVec F S8x32x128 .f32)
    (h : ∀ (t : Fin cfg0.N) (b : Fin 8), t.val = 2 * b.val + 1 → ∀ (p : Fin 32) (q : Fin 128),
      dat.after 11 t (ix3 (0 : Fin 1) p q) = G (ix3 b p q)) :
    dat.arrAt 11 cfg0.N = G :=
  dat.arrAt_eq_of_cover 11 G (fun t hf => flushed11_eq dat G h t hf) cover11

/-! ## Output window 12: the two rows of per-batch totals, written back at the odd point of each batch, at block index (batch, 0, 0) -/

/-- The window's block index at point t: batch t / 2. -/
theorem idx0_12 : ∀ t : Fin cfg0.N, win0_12.index t (0 : Fin 3) = t.val / 2 ∧ win0_12.index t (1 : Fin 3) = 0
    ∧ win0_12.index t (2 : Fin 3) = 0 :=
  (by decide +kernel : ∀ t : Fin grid0.N, _)

/-- Every batch has its odd point. -/
theorem onto0_12 : ∀ b : Fin 8, ∃ t : Fin cfg0.N, t.val = 2 * b.val + 1 :=
  (by decide +kernel : ∀ b : Fin 8, ∃ t : Fin grid0.N, t.val = 2 * b.val + 1)

/-- What a point that writes back writes is block t of G, when the block the body left there agrees with G entry by entry. -/
theorem flushed12_eq {c : Dev nD} (dat : Dat τ (Elt F) Unit ℕ (UR sig nD τ) ℕ cfg0 c) (G : FVec F S8x2x128 .f32)
    (h : ∀ (t : Fin cfg0.N) (b : Fin 8), t.val = 2 * b.val + 1 → ∀ (p : Fin 2) (q : Fin 128),
      dat.after 12 t (ix3 (0 : Fin 1) p q) = G (ix3 b p q)) (t : Fin cfg0.N) (hf : (cfg0.win 12).flush t = true) :
    dat.flushed 12 t = ((cfg0.win 12).blk t).view.read (Elt F) G := by
  obtain ⟨e0, e1, e2⟩ := idx0_12 t
  have ht : t.val < 16 := Nat.lt_of_lt_of_eq t.isLt N_0
  have hodd : t.val % 2 = 1 := (flush0_12 t).mp hf
  funext j
  exact pair_read (dat.after 12 t) G ⟨t.val / 2, by omega⟩
    (h t ⟨t.val / 2, by omega⟩ (by show t.val = 2 * (t.val / 2) + 1; omega)) j _
    (by show win0_12.index t (0 : Fin 3) * 1 + 1 * (j 0).val = t.val / 2; have : (j 0).val < 1 := (j 0).isLt; omega)
    (by show win0_12.index t (1 : Fin 3) * 2 + 1 * (j 1).val = (j 1).val; omega)
    (by show win0_12.index t (2 : Fin 3) * 128 + 1 * (j 2).val = (j 2).val; omega)

/-- An index of the array is in point t's block iff each coordinate is in the block's range on its axis. -/
theorem mem_blk12 (t : Fin cfg0.N) (i : S8x2x128.Idx) :
    i ∈ ((cfg0.win 12).blk t).view.set ↔ ∀ a : Fin 3, win0_12.index t a * S1x2x128.size a ≤ (i a).val ∧ (i a).val < win0_12.index t a * S1x2x128.size a + S1x2x128.size a := by
  show i ∈ ((View.whole main_v6_6).slice (win0_12.rect t)).set ↔ _
  rw [View.set_slice_whole, Rect.mem_set_unit]
  exact Iff.rfl

/-- Every index of the array is in the block of a point that writes back. -/
theorem cover12 (i : S8x2x128.Idx) : ∃ t : Fin cfg0.N, (cfg0.win 12).flush t = true ∧ i ∈ ((cfg0.win 12).blk t).view.set := by
  obtain ⟨t, ht⟩ := onto0_12 (i 0)
  obtain ⟨e0, e1, e2⟩ := idx0_12 t
  have hi0 : (i 0).val < 8 := (i 0).isLt
  have hi1 : (i 1).val < 2 := (i 1).isLt
  have hi2 : (i 2).val < 128 := (i 2).isLt
  refine ⟨t, (flush0_12 t).mpr (by omega), ?_⟩
  rw [mem_blk12]
  intro a
  match a with
  | ⟨0, _⟩ => show win0_12.index t (0 : Fin 3) * 1 ≤ (i 0).val ∧ (i 0).val < win0_12.index t (0 : Fin 3) * 1 + 1; omega
  | ⟨1, _⟩ => show win0_12.index t (1 : Fin 3) * 2 ≤ (i 1).val ∧ (i 1).val < win0_12.index t (1 : Fin 3) * 2 + 2; omega
  | ⟨2, _⟩ => show win0_12.index t (2 : Fin 3) * 128 ≤ (i 2).val ∧ (i 2).val < win0_12.index t (2 : Fin 3) * 128 + 128; omega

/-- The array after the run is G, when the block left at each batch's odd point agrees with G entry by entry. -/
theorem arrAt12_gen {c : Dev nD} (dat : Dat τ (Elt F) Unit ℕ (UR sig nD τ) ℕ cfg0 c) (G : FVec F S8x2x128 .f32)
    (h : ∀ (t : Fin cfg0.N) (b : Fin 8), t.val = 2 * b.val + 1 → ∀ (p : Fin 2) (q : Fin 128),
      dat.after 12 t (ix3 (0 : Fin 1) p q) = G (ix3 b p q)) :
    dat.arrAt 12 cfg0.N = G :=
  dat.arrAt_eq_of_cover 12 G (fun t hf => flushed12_eq dat G h t hf) cover12

end Cert.KernelIdeal.Fr

end
-- ==== Proof.Ideal.Finals.lean ====
/- The region's seven output arrays after the run, from the blocks the body leaves at the grid points: each array is
   a whole-array function G as soon as the blocks of the frame's proof data agree with G's blocks.
   Stated for any float instance. -/
import proofs.«129784_j68891275428342_2_alg».proof.Proof.Ideal.Frame
import proofs.«129784_j68891275428342_2_alg».proof.Proof.Ideal.FinalsGen

set_option maxRecDepth 16384

noncomputable section

namespace Cert.KernelIdeal.Fr

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The array of output window 6 after the run is G, when the block the body leaves at each point (batch b, chunk cc)
    agrees with row (b, cc) of G lane by lane. -/
theorem arrAt6_of (c : Dev nD) (G : FVec F S8x2x1x128 .f32)
    (h : ∀ (t : Fin cfg0.N) (b : Fin 8) (cc : Fin 2), t.val = 2 * b.val + cc.val → ∀ ch : Fin 128,
      (outsAt0 m c t.val t.isLt).o6 (ix4 (0 : Fin 1) (0 : Fin 1) (0 : Fin 1) ch) = G (ix4 b cc (0 : Fin 1) ch)) :
    (dats m 0 c).arrAt 6 cfg0.N = G :=
  arrAt6_gen (dats m 0 c) G (fun t b cc ht ch => (congrFun (after0_6 m c t) _).trans (h t b cc ht ch))

/-- The array of output window 7 after the run is G, when the block the body leaves at each point (batch b, chunk cc)
    agrees with row (b, cc) of G lane by lane. -/
theorem arrAt7_of (c : Dev nD) (G : FVec F S8x2x1x128 .f32)
    (h : ∀ (t : Fin cfg0.N) (b : Fin 8) (cc : Fin 2), t.val = 2 * b.val + cc.val → ∀ ch : Fin 128,
      (outsAt0 m c t.val t.isLt).o7 (ix4 (0 : Fin 1) (0 : Fin 1) (0 : Fin 1) ch) = G (ix4 b cc (0 : Fin 1) ch)) :
    (dats m 0 c).arrAt 7 cfg0.N = G :=
  arrAt7_gen (dats m 0 c) G (fun t b cc ht ch => (congrFun (after0_7 m c t) _).trans (h t b cc ht ch))

/-- The array of output window 8 after the run is G, when the block the body leaves at each batch's odd point agrees
    with plane b of G entry by entry. -/
theorem arrAt8_of (c : Dev nD) (G : FVec F S8x32x128 .f32)
    (h : ∀ (t : Fin cfg0.N) (b : Fin 8), t.val = 2 * b.val + 1 → ∀ (p : Fin 32) (q : Fin 128),
      (outsAt0 m c t.val t.isLt).o8 (ix3 (0 : Fin 1) p q) = G (ix3 b p q)) :
    (dats m 0 c).arrAt 8 cfg0.N = G :=
  arrAt8_gen (dats m 0 c) G (fun t b ht p q => (congrFun (after0_8 m c t) _).trans (h t b ht p q))

/-- The array of output window 9 after the run is G, when the block the body leaves at each batch's odd point agrees
    with plane b of G entry by entry. -/
theorem arrAt9_of (c : Dev nD) (G : FVec F S8x32x128 .f32)
    (h : ∀ (t : Fin cfg0.N) (b : Fin 8), t.val = 2 * b.val + 1 → ∀ (p : Fin 32) (q : Fin 128),
      (outsAt0 m c t.val t.isLt).o9 (ix3 (0 : Fin 1) p q) = G (ix3 b p q)) :
    (dats m 0 c).arrAt 9 cfg0.N = G :=
  arrAt9_gen (dats m 0 c) G (fun t b ht p q => (congrFun (after0_9 m c t) _).trans (h t b ht p q))

/-- The array of output window 10 after the run is G, when the block the body leaves at each batch's odd point agrees
    with plane b of G entry by entry. -/
theorem arrAt10_of (c : Dev nD) (G : FVec F S8x32x128 .f32)
    (h : ∀ (t : Fin cfg0.N) (b : Fin 8), t.val = 2 * b.val + 1 → ∀ (p : Fin 32) (q : Fin 128),
      (outsAt0 m c t.val t.isLt).o10 (ix3 (0 : Fin 1) p q) = G (ix3 b p q)) :
    (dats m 0 c).arrAt 10 cfg0.N = G :=
  arrAt10_gen (dats m 0 c) G (fun t b ht p q => (congrFun (after0_10 m c t) _).trans (h t b ht p q))

/-- The array of output window 11 after the run is G, when the block the body leaves at each batch's odd point agrees
    with plane b of G entry by entry. -/
theorem arrAt11_of (c : Dev nD) (G : FVec F S8x32x128 .f32)
    (h : ∀ (t : Fin cfg0.N) (b : Fin 8), t.val = 2 * b.val + 1 → ∀ (p : Fin 32) (q : Fin 128),
      (outsAt0 m c t.val t.isLt).o11 (ix3 (0 : Fin 1) p q) = G (ix3 b p q)) :
    (dats m 0 c).arrAt 11 cfg0.N = G :=
  arrAt11_gen (dats m 0 c) G (fun t b ht p q => (congrFun (after0_11 m c t) _).trans (h t b ht p q))

/-- The array of output window 12 after the run is G, when the block the body leaves at each batch's odd point agrees
    with the pair of rows b of G entry by entry. -/
theorem arrAt12_of (c : Dev nD) (G : FVec F S8x2x128 .f32)
    (h : ∀ (t : Fin cfg0.N) (b : Fin 8), t.val = 2 * b.val + 1 → ∀ (p : Fin 2) (q : Fin 128),
      (outsAt0 m c t.val t.isLt).o12 (ix3 (0 : Fin 1) p q) = G (ix3 b p q)) :
    (dats m 0 c).arrAt 12 cfg0.N = G :=
  arrAt12_gen (dats m 0 c) G (fun t b ht p q => (congrFun (after0_12 m c t) _).trans (h t b ht p q))

end Cert.KernelIdeal.Fr

end
-- ==== Proof.Ideal.ValAtt.lean ====
/- The two spatial-attention maps of the kernel, read at an index: what the four accumulators (teacher and student
   channel sum, teacher and student channel maximum) hold after a reset and after each chunk of 128 channels, the
   finished block as the logistic of sum · 2⁻⁸ + maximum, the reference's spatial attention at a pixel, and the
   two chunks joined into the 256 channels. At the ideal values. -/
import proofs.«129784_j68891275428342_2_alg».proof.Proof.Gen.KernelIdeal.Skeleton
import proofs.«129784_j68891275428342_2_alg».proof.Proof.LibSums
import proofs.«129784_j68891275428342_2_alg».proof.Proof.RefSpec
import proofs.«129784_j68891275428342_2_alg».proof.Proof.Iface
import Idealize.ShloMosaic.Lib.ValueLayout
import Idealize.ShloMosaic.Lib.IdealHost

noncomputable section

open scoped BigOperators

namespace Cert.KernelIdeal.Val

open Idealize.ShloMosaic Idealize.ShloMosaic.ValueIdx Idealize.ShloMosaic.LibSums
open Cert.KernelIdeal Cert.KernelIdeal.Gen

/-! ## The resets -/

theorem pay10_ix (r : Fin 32) (c : Fin 128) : k0_pay10 (F := Ideal) (ix2 r c) = 0 := by
  unfold k0_pay10
  rw [shapeCast_self]
  exact Ideal.ofBits_zero_f32

theorem pay12_ix (r : Fin 32) (c : Fin 128) : k0_pay12 (F := Ideal) (ix2 r c) = 0 := by
  unfold k0_pay12
  rw [shapeCast_self]
  exact Ideal.ofBits_zero_f32

theorem pay11_ix (r : Fin 32) (c : Fin 128) : k0_pay11 (F := Ideal) (ix2 r c) = ⊥ := by
  unfold k0_pay11
  rw [shapeCast_self]
  exact ofBits_neg_inf_f32

theorem pay13_ix (r : Fin 32) (c : Fin 128) : k0_pay13 (F := Ideal) (ix2 r c) = ⊥ := by
  unfold k0_pay13
  exact ofBits_neg_inf_f32

theorem pay20_eq (v : FVec Ideal S32x128 .f32) : k0_pay20 v = v := by
  unfold k0_pay20
  rw [shapeCast_self]

theorem pay1_eq (v : FVec Ideal S32x128 .f32) : k0_pay1 v = v := by
  unfold k0_pay1
  rw [shapeCast_self]

/-! ## The updates -/

theorem pay38_ix (v6 : FVec Ideal S128x32x128 .f32) (v91 : Vec Ideal S32x128 .f32) (r : Fin 32) (c : Fin 128) :
    k0_pay38 v6 v91 (ix2 r c) = v91 (ix2 r c) + ∑ k : Fin 128, v6 (ix3 k r c) := by
  unfold k0_pay38
  rw [addf_apply, vecSum_axis0_of3_ix]

theorem pay3_ix (v4 : FVec Ideal S128x32x128 .f32) (v : Vec Ideal S32x128 .f32) (r : Fin 32) (c : Fin 128) :
    k0_pay3 v4 v (ix2 r c) = v (ix2 r c) + ∑ k : Fin 128, v4 (ix3 k r c) := by
  unfold k0_pay3
  rw [shapeCast_self, addf_apply, vecSum_axis0_of3_ix]

theorem pay2_ix (v6 : FVec Ideal S128x32x128 .f32) (v : Vec Ideal S32x128 .f32) (r : Fin 32) (c : Fin 128) :
    k0_pay2 v6 v (ix2 r c) = max (v (ix2 r c)) ((Finset.univ : Finset (Fin 128)).sup fun k => v6 (ix3 k r c)) := by
  unfold k0_pay2
  rw [shapeCast_self, maximumf_apply, vecMax_axis0_of3_ix]

theorem pay4_ix (v4 : FVec Ideal S128x32x128 .f32) (v : Vec Ideal S32x128 .f32) (r : Fin 32) (c : Fin 128) :
    k0_pay4 v4 v (ix2 r c) = max (v (ix2 r c)) ((Finset.univ : Finset (Fin 128)).sup fun k => v4 (ix3 k r c)) := by
  unfold k0_pay4
  rw [shapeCast_self, maximumf_apply, vecMax_axis0_of3_ix]

/-! ## The input blocks without their unit axis -/

theorem pay23_ix (v : Vec Ideal S1x128x32x128 .f32) (k : Fin 128) (r : Fin 32) (c : Fin 128) :
    k0_pay23 v (ix3 k r c) = v (ix4 (0 : Fin 1) k r c) := by
  unfold k0_pay23
  exact shapeCast_1abc_abc_apply _ _ k r c

theorem pay24_ix (v : Vec Ideal S1x128x32x128 .f32) (k : Fin 128) (r : Fin 32) (c : Fin 128) :
    k0_pay24 v (ix3 k r c) = v (ix4 (0 : Fin 1) k r c) := by
  unfold k0_pay24
  exact shapeCast_1abc_abc_apply _ _ k r c

/-! ## The finals -/

theorem pay16_ix (s mx : Vec Ideal S32x128 .f32) (u : Fin 1) (r : Fin 32) (c : Fin 128) :
    k0_pay16 s mx (ix3 u r c)
      = Ideal.logistic (s (ix2 r c) * Ideal.ofBits .f32 0x3B800000#32 + mx (ix2 r c)) := by
  unfold k0_pay16
  rw [shapeCast_ab_1ab_apply]
  rfl

theorem pay17_ix (s mx : Vec Ideal S32x128 .f32) (u : Fin 1) (r : Fin 32) (c : Fin 128) :
    k0_pay17 s mx (ix3 u r c)
      = Ideal.logistic (s (ix2 r c) * Ideal.ofBits .f32 0x3B800000#32 + mx (ix2 r c)) := by
  unfold k0_pay17
  rw [shapeCast_ab_1ab_apply]
  rfl

/-! ## The reference's spatial attention at an index -/

section Spec
open Cert.ReferenceIdeal Cert.ReferenceIdeal.Spec

/-- The host's exponential at an index is the exponential of the element. -/
theorem hostExp_apply {s : Shape} {φ : FTy} (x : FVec Ideal s φ) (i : s.Idx) : Host.exp x i = Ideal.exp (x i) := rfl
/-- The host's negation at an index is the negation of the element. -/
theorem hostNegf_apply {s : Shape} {φ : FTy} (x : FVec Ideal s φ) (i : s.Idx) : Host.negf x i = -(x i) := rfl

/-- A scalar constant broadcast to every position reads the constant's word. -/
theorem splat_apply {T : Shape} (hb : (⟨0, ![]⟩ : Shape).BroadcastsInDim T ![]) (wd : BitVec 32) (j : T.Idx) :
    broadcastInDim T ![] hb (constant (F := Ideal) ⟨0, ![]⟩ .f32 wd) j = Ideal.ofBits .f32 wd := by
  rw [broadcastInDim_scalar_apply]; rfl

/-- A per-pixel array [8,64,64] kept as [8,1,64,64] reads the pixel. -/
theorem keep1_apply {α : Type} (hb : (⟨3, ![8, 64, 64]⟩ : Shape).BroadcastsInDim ⟨4, ![8, 1, 64, 64]⟩ ![0, 2, 3])
    (y : (⟨3, ![8, 64, 64]⟩ : Shape).Idx → α) (b : Fin 8) (u : Fin 1) (h w : Fin 64) :
    broadcastInDim ⟨4, ![8, 1, 64, 64]⟩ ![0, 2, 3] hb y (ix4 b u h w) = y (ix3 b h w) :=
  broadcastInDim_apply _ hb y _ (ix3 b h w) (fun a => match a with | ⟨0, _⟩ => rfl | ⟨1, _⟩ => rfl | ⟨2, _⟩ => rfl)

variable [Cert.ReferenceIdeal.Facts₀]

/-- The reference's spatial attention at a pixel: the logistic of the channel sum times 1/256 plus the channel
    maximum. -/
theorem spAtt_ix (a : FVec Ideal Cert.ReferenceIdeal.S8x256x64x64 .f32) (b : Fin 8) (h w : Fin 64) :
    Spec.spAtt a (ix4 b (0 : Fin 1) h w)
      = Ideal.logistic ((∑ c : Fin 256, a (ix4 b c h w)) * Ideal.ofBits .f32 0x3B800000#32
          + (Finset.univ : Finset (Fin 256)).sup fun c => a (ix4 b c h w)) := by
  unfold Spec.spAtt Spec.logisticS Spec.sumCh Spec.maxCh Spec.splatS
  rw [hostDivf_apply, addf_apply, hostExp_apply, hostNegf_apply, addf_apply, hostDivf_apply]
  rw [splat_apply, splat_apply, keep1_apply, keep1_apply]
  rw [hostSum_axis1_of4_ix, hostMax_axis1_of4_ix _ _ _ _ (by rw [constant_apply]; exact ofBits_neg_inf_f32)]
  rw [constant_apply, Ideal.ofBits_zero_f32, zero_add, div_word_256, ofBits_f32_3F800000, EReal.coe_one]
  rfl
end Spec

/-! ## The two chunks make the 256 channels -/

section Law
open Cert.Iface

/-- The channels of chunk 0 are the first 128, those of chunk 1 the last 128. -/
theorem chan_zero (k : Fin 128) : chan 0 k = ⟨k.val, by omega⟩ :=
  Fin.ext (show 0 * 128 + k.val = k.val by omega)
theorem chan_one (k : Fin 128) : chan 1 k = ⟨128 + k.val, by omega⟩ :=
  Fin.ext (show 1 * 128 + k.val = 128 + k.val by omega)

/-- A sum started from 0, the first chunk's channels added and then the second chunk's, is the sum over all channels. -/
theorem sum_two_chunks (f : Fin 256 → EReal) :
    (0 + ∑ k : Fin 128, f (chan 0 k)) + ∑ k : Fin 128, f (chan 1 k) = ∑ c : Fin 256, f c := by
  rw [zero_add, sum_split_256 f]
  simp only [chan_zero, chan_one]

/-- A maximum started from -∞, the first chunk's channels taken in and then the second chunk's, is the maximum over all
    channels. -/
theorem sup_two_chunks (f : Fin 256 → EReal) :
    max (max ⊥ ((Finset.univ : Finset (Fin 128)).sup fun k => f (chan 0 k)))
        ((Finset.univ : Finset (Fin 128)).sup fun k => f (chan 1 k))
      = (Finset.univ : Finset (Fin 256)).sup f := by
  rw [max_max_bot, sup_split_256 f]
  simp only [chan_zero, chan_one]

/-! ## The accumulators after each chunk, and the finished maps -/

/-- The teacher's running sum after a chunk: what it held plus the chunk's channel sum. -/
theorem tsum_step (v6 : FVec Ideal S128x32x128 .f32) (old : Vec Ideal S32x128 .f32) (p : Fin 32) (q : Fin 128) :
    k0_pay1 (k0_pay38 v6 old) (ix2 p q) = old (ix2 p q) + ∑ k : Fin 128, v6 (ix3 k p q) := by
  rw [pay1_eq, pay38_ix]

variable [Cert.ReferenceIdeal.Facts₀]

/-- The teacher's attention block: from accumulators holding the channel sum and the channel maximum of `a` at batch
    `b`, the finished block is the reference's spatial attention re-laid. -/
theorem tatt_final (a : FVec Ideal Cert.ReferenceIdeal.S8x256x64x64 .f32) (b : Fin 8) (S M : Vec Ideal S32x128 .f32)
    (hS : ∀ p q, S (ix2 p q) = ∑ c : Fin 256, a (ix4 b c (rr p q) (rc p q)))
    (hM : ∀ p q, M (ix2 p q) = (Finset.univ : Finset (Fin 256)).sup fun c => a (ix4 b c (rr p q) (rc p q)))
    (u : Fin 1) (p : Fin 32) (q : Fin 128) :
    k0_pay16 S M (ix3 u p q) = Cert.ReferenceIdeal.Spec.spAtt a (ix4 b (0 : Fin 1) (rr p q) (rc p q)) := by
  rw [pay16_ix, spAtt_ix, hS, hM]

/-- The student's attention block, likewise. -/
theorem satt_final (a : FVec Ideal Cert.ReferenceIdeal.S8x256x64x64 .f32) (b : Fin 8) (S M : Vec Ideal S32x128 .f32)
    (hS : ∀ p q, S (ix2 p q) = ∑ c : Fin 256, a (ix4 b c (rr p q) (rc p q)))
    (hM : ∀ p q, M (ix2 p q) = (Finset.univ : Finset (Fin 256)).sup fun c => a (ix4 b c (rr p q) (rc p q)))
    (u : Fin 1) (p : Fin 32) (q : Fin 128) :
    k0_pay17 S M (ix3 u p q) = Cert.ReferenceIdeal.Spec.spAtt a (ix4 b (0 : Fin 1) (rr p q) (rc p q)) := by
  rw [pay17_ix, spAtt_ix, hS, hM]

end Law

end Cert.KernelIdeal.Val

end
-- ==== Proof.Ideal.ValAttPieces.lean ====
/- What the body's runs leave in the four spatial-attention accumulators and in the two attention output blocks, as
   terms of the point's input blocks and of what the accumulators held: after a point of the first kind (reset, then the
   chunk's channels taken in) and after a point of the second kind (the chunk's channels taken in, the maps finished).
   Each is the canonical contents of the covering stores the run found. Stated for any float instance. -/
import proofs.«129784_j68891275428342_2_alg».proof.Proof.Ideal.RunB
import Idealize.ShloMosaic.Lib.Pipeline.Value
import Idealize.ShloMosaic.Lib.Tactic

set_option maxRecDepth 16384

noncomputable section

namespace Cert.KernelIdeal.Val

open Idealize.ShloMosaic Idealize.ShloMosaic.TcCoe Idealize.ShloMosaic.Tactic
open Idealize.SL Idealize.SL.Sem
open Cert.KernelIdeal Cert.KernelIdeal.Gen Cert.KernelIdeal.Fr

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-! ## After a point of the first kind: reset, then the first chunk -/

set_option maxHeartbeats 1000000 in
/-- The teacher's sum accumulator: zeroed, read back, the chunk's channel sum of the teacher's block added. -/
theorem runA_s4 (c : Dev nD) (i : grid0.Coords) (arg2 : Memref sig .tc .vmem S1x128x32x128 .f32) (harg2 : arg2.IsWhole) (arg3 : Memref sig .tc .vmem S1x128x32x128 .f32) (harg3 : arg3.IsWhole) (arg4 : Memref sig .tc .vmem S1x128x32x128 .f32) (harg4 : arg4.IsWhole) (arg5 : Memref sig .tc .vmem S1x128x32x128 .f32) (harg5 : arg5.IsWhole) (arg6 : Memref sig .tc .vmem S1x128x32x128 .f32) (harg6 : arg6.IsWhole) (arg7 : Memref sig .tc .vmem S1x1x32x128 .f32) (harg7 : arg7.IsWhole) (arg8 : Memref sig .tc .vmem S1x1x1x128 .f32) (harg8 : arg8.IsWhole) (arg9 : Memref sig .tc .vmem S1x1x1x128 .f32) (harg9 : arg9.IsWhole) (arg10 : Memref sig .tc .vmem S1x32x128 .f32) (harg10 : arg10.IsWhole) (arg11 : Memref sig .tc .vmem S1x32x128 .f32) (harg11 : arg11.IsWhole) (arg12 : Memref sig .tc .vmem S1x32x128 .f32) (harg12 : arg12.IsWhole) (arg13 : Memref sig .tc .vmem S1x32x128 .f32) (harg13 : arg13.IsWhole) (arg14 : Memref sig .tc .vmem S1x2x128 .f32) (harg14 : arg14.IsWhole) (arg15 : Memref sig .tc .vmem S32x128 .f32) (harg15 : arg15.IsWhole) (arg16 : Memref sig .tc .vmem S32x128 .f32) (harg16 : arg16.IsWhole) (arg17 : Memref sig .tc .vmem S32x128 .f32) (harg17 : arg17.IsWhole) (arg18 : Memref sig .tc .vmem S32x128 .f32) (harg18 : arg18.IsWhole) (arg19 : Memref sig .tc .vmem S32x128 .f32) (harg19 : arg19.IsWhole) (arg20 : Memref sig .tc .vmem S32x128 .f32) (harg20 : arg20.IsWhole) (arg21 : Memref sig .tc .vmem S32x128 .f32) (harg21 : arg21.IsWhole) (arg22 : Memref sig .tc .vmem S32x128 .f32) (harg22 : arg22.IsWhole) (arg23 : Memref sig .tc .vmem S32x128 .f32) (harg23 : arg23.IsWhole) (arg24 : Memref sig .tc .vmem S32x128 .f32) (harg24 : arg24.IsWhole) (hc0 : cond0_0 i) (hc1 : ¬cond0_1 i)
    (x0 x1 x2 x3 x4 : Vec F S1x128x32x128 .f32) (x5 : Vec F S1x1x32x128 .f32) (v : View sig .tc .vmem S32x128 .f32) :
    v.read (Elt F) (v.writes (Elt F) v.junk (kernelRun0_A (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5).2.2.2.2.2.2.1)
      = k0_pay1 (k0_pay38 (k0_pay24 x1) (k0_pay10 (F := F))) := by
  rw [View.read_writes_eq_canon _ _ _ (fun y => View.cover_of_tiledL _ S32x128.size (by sl_kernel_rfl) y)]
  unfold kernelRun0_A
  dsimp only
  rw [View.canon_cons_unit_zero (S := S32x128) hz2]
  sl_unfold_words
  rw [View.readCov_unit_zero (S := S32x128) _ hz2]
  simp only [View.readAt_eq_ld, harg3.read_unread, View.ld_unit_zero (S := S1x128x32x128) hz4]

set_option maxHeartbeats 1000000 in
/-- The teacher's maximum accumulator: set to -∞, then the maximum with the chunk's channel maximum. -/
theorem runA_s5 (c : Dev nD) (i : grid0.Coords) (arg2 : Memref sig .tc .vmem S1x128x32x128 .f32) (harg2 : arg2.IsWhole) (arg3 : Memref sig .tc .vmem S1x128x32x128 .f32) (harg3 : arg3.IsWhole) (arg4 : Memref sig .tc .vmem S1x128x32x128 .f32) (harg4 : arg4.IsWhole) (arg5 : Memref sig .tc .vmem S1x128x32x128 .f32) (harg5 : arg5.IsWhole) (arg6 : Memref sig .tc .vmem S1x128x32x128 .f32) (harg6 : arg6.IsWhole) (arg7 : Memref sig .tc .vmem S1x1x32x128 .f32) (harg7 : arg7.IsWhole) (arg8 : Memref sig .tc .vmem S1x1x1x128 .f32) (harg8 : arg8.IsWhole) (arg9 : Memref sig .tc .vmem S1x1x1x128 .f32) (harg9 : arg9.IsWhole) (arg10 : Memref sig .tc .vmem S1x32x128 .f32) (harg10 : arg10.IsWhole) (arg11 : Memref sig .tc .vmem S1x32x128 .f32) (harg11 : arg11.IsWhole) (arg12 : Memref sig .tc .vmem S1x32x128 .f32) (harg12 : arg12.IsWhole) (arg13 : Memref sig .tc .vmem S1x32x128 .f32) (harg13 : arg13.IsWhole) (arg14 : Memref sig .tc .vmem S1x2x128 .f32) (harg14 : arg14.IsWhole) (arg15 : Memref sig .tc .vmem S32x128 .f32) (harg15 : arg15.IsWhole) (arg16 : Memref sig .tc .vmem S32x128 .f32) (harg16 : arg16.IsWhole) (arg17 : Memref sig .tc .vmem S32x128 .f32) (harg17 : arg17.IsWhole) (arg18 : Memref sig .tc .vmem S32x128 .f32) (harg18 : arg18.IsWhole) (arg19 : Memref sig .tc .vmem S32x128 .f32) (harg19 : arg19.IsWhole) (arg20 : Memref sig .tc .vmem S32x128 .f32) (harg20 : arg20.IsWhole) (arg21 : Memref sig .tc .vmem S32x128 .f32) (harg21 : arg21.IsWhole) (arg22 : Memref sig .tc .vmem S32x128 .f32) (harg22 : arg22.IsWhole) (arg23 : Memref sig .tc .vmem S32x128 .f32) (harg23 : arg23.IsWhole) (arg24 : Memref sig .tc .vmem S32x128 .f32) (harg24 : arg24.IsWhole) (hc0 : cond0_0 i) (hc1 : ¬cond0_1 i)
    (x0 x1 x2 x3 x4 : Vec F S1x128x32x128 .f32) (x5 : Vec F S1x1x32x128 .f32) (v : View sig .tc .vmem S32x128 .f32) :
    v.read (Elt F) (v.writes (Elt F) v.junk (kernelRun0_A (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5).2.2.2.2.2.2.2.1)
      = k0_pay2 (k0_pay24 x1) (k0_pay11 (F := F)) := by
  rw [View.read_writes_eq_canon _ _ _ (fun y => View.cover_of_tiledL _ S32x128.size (by sl_kernel_rfl) y)]
  unfold kernelRun0_A
  dsimp only
  rw [View.canon_cons_unit_zero (S := S32x128) hz2]
  sl_unfold_words
  rw [View.readCov_unit_zero (S := S32x128) _ hz2]
  simp only [View.readAt_eq_ld, harg3.read_unread, View.ld_unit_zero (S := S1x128x32x128) hz4]

set_option maxHeartbeats 1000000 in
/-- The student's sum accumulator, likewise over the student's block. -/
theorem runA_s6 (c : Dev nD) (i : grid0.Coords) (arg2 : Memref sig .tc .vmem S1x128x32x128 .f32) (harg2 : arg2.IsWhole) (arg3 : Memref sig .tc .vmem S1x128x32x128 .f32) (harg3 : arg3.IsWhole) (arg4 : Memref sig .tc .vmem S1x128x32x128 .f32) (harg4 : arg4.IsWhole) (arg5 : Memref sig .tc .vmem S1x128x32x128 .f32) (harg5 : arg5.IsWhole) (arg6 : Memref sig .tc .vmem S1x128x32x128 .f32) (harg6 : arg6.IsWhole) (arg7 : Memref sig .tc .vmem S1x1x32x128 .f32) (harg7 : arg7.IsWhole) (arg8 : Memref sig .tc .vmem S1x1x1x128 .f32) (harg8 : arg8.IsWhole) (arg9 : Memref sig .tc .vmem S1x1x1x128 .f32) (harg9 : arg9.IsWhole) (arg10 : Memref sig .tc .vmem S1x32x128 .f32) (harg10 : arg10.IsWhole) (arg11 : Memref sig .tc .vmem S1x32x128 .f32) (harg11 : arg11.IsWhole) (arg12 : Memref sig .tc .vmem S1x32x128 .f32) (harg12 : arg12.IsWhole) (arg13 : Memref sig .tc .vmem S1x32x128 .f32) (harg13 : arg13.IsWhole) (arg14 : Memref sig .tc .vmem S1x2x128 .f32) (harg14 : arg14.IsWhole) (arg15 : Memref sig .tc .vmem S32x128 .f32) (harg15 : arg15.IsWhole) (arg16 : Memref sig .tc .vmem S32x128 .f32) (harg16 : arg16.IsWhole) (arg17 : Memref sig .tc .vmem S32x128 .f32) (harg17 : arg17.IsWhole) (arg18 : Memref sig .tc .vmem S32x128 .f32) (harg18 : arg18.IsWhole) (arg19 : Memref sig .tc .vmem S32x128 .f32) (harg19 : arg19.IsWhole) (arg20 : Memref sig .tc .vmem S32x128 .f32) (harg20 : arg20.IsWhole) (arg21 : Memref sig .tc .vmem S32x128 .f32) (harg21 : arg21.IsWhole) (arg22 : Memref sig .tc .vmem S32x128 .f32) (harg22 : arg22.IsWhole) (arg23 : Memref sig .tc .vmem S32x128 .f32) (harg23 : arg23.IsWhole) (arg24 : Memref sig .tc .vmem S32x128 .f32) (harg24 : arg24.IsWhole) (hc0 : cond0_0 i) (hc1 : ¬cond0_1 i)
    (x0 x1 x2 x3 x4 : Vec F S1x128x32x128 .f32) (x5 : Vec F S1x1x32x128 .f32) (v : View sig .tc .vmem S32x128 .f32) :
    v.read (Elt F) (v.writes (Elt F) v.junk (kernelRun0_A (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5).2.2.2.2.2.2.2.2.1)
      = k0_pay3 (k0_pay23 x0) (k0_pay12 (F := F)) := by
  rw [View.read_writes_eq_canon _ _ _ (fun y => View.cover_of_tiledL _ S32x128.size (by sl_kernel_rfl) y)]
  unfold kernelRun0_A
  dsimp only
  rw [View.canon_cons_unit_zero (S := S32x128) hz2]
  sl_unfold_words
  rw [View.readCov_unit_zero (S := S32x128) _ hz2]
  simp only [View.readAt_eq_ld, harg2.read_unread, View.ld_unit_zero (S := S1x128x32x128) hz4]

set_option maxHeartbeats 1000000 in
/-- The student's maximum accumulator, likewise. -/
theorem runA_s7 (c : Dev nD) (i : grid0.Coords) (arg2 : Memref sig .tc .vmem S1x128x32x128 .f32) (harg2 : arg2.IsWhole) (arg3 : Memref sig .tc .vmem S1x128x32x128 .f32) (harg3 : arg3.IsWhole) (arg4 : Memref sig .tc .vmem S1x128x32x128 .f32) (harg4 : arg4.IsWhole) (arg5 : Memref sig .tc .vmem S1x128x32x128 .f32) (harg5 : arg5.IsWhole) (arg6 : Memref sig .tc .vmem S1x128x32x128 .f32) (harg6 : arg6.IsWhole) (arg7 : Memref sig .tc .vmem S1x1x32x128 .f32) (harg7 : arg7.IsWhole) (arg8 : Memref sig .tc .vmem S1x1x1x128 .f32) (harg8 : arg8.IsWhole) (arg9 : Memref sig .tc .vmem S1x1x1x128 .f32) (harg9 : arg9.IsWhole) (arg10 : Memref sig .tc .vmem S1x32x128 .f32) (harg10 : arg10.IsWhole) (arg11 : Memref sig .tc .vmem S1x32x128 .f32) (harg11 : arg11.IsWhole) (arg12 : Memref sig .tc .vmem S1x32x128 .f32) (harg12 : arg12.IsWhole) (arg13 : Memref sig .tc .vmem S1x32x128 .f32) (harg13 : arg13.IsWhole) (arg14 : Memref sig .tc .vmem S1x2x128 .f32) (harg14 : arg14.IsWhole) (arg15 : Memref sig .tc .vmem S32x128 .f32) (harg15 : arg15.IsWhole) (arg16 : Memref sig .tc .vmem S32x128 .f32) (harg16 : arg16.IsWhole) (arg17 : Memref sig .tc .vmem S32x128 .f32) (harg17 : arg17.IsWhole) (arg18 : Memref sig .tc .vmem S32x128 .f32) (harg18 : arg18.IsWhole) (arg19 : Memref sig .tc .vmem S32x128 .f32) (harg19 : arg19.IsWhole) (arg20 : Memref sig .tc .vmem S32x128 .f32) (harg20 : arg20.IsWhole) (arg21 : Memref sig .tc .vmem S32x128 .f32) (harg21 : arg21.IsWhole) (arg22 : Memref sig .tc .vmem S32x128 .f32) (harg22 : arg22.IsWhole) (arg23 : Memref sig .tc .vmem S32x128 .f32) (harg23 : arg23.IsWhole) (arg24 : Memref sig .tc .vmem S32x128 .f32) (harg24 : arg24.IsWhole) (hc0 : cond0_0 i) (hc1 : ¬cond0_1 i)
    (x0 x1 x2 x3 x4 : Vec F S1x128x32x128 .f32) (x5 : Vec F S1x1x32x128 .f32) (v : View sig .tc .vmem S32x128 .f32) :
    v.read (Elt F) (v.writes (Elt F) v.junk (kernelRun0_A (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5).2.2.2.2.2.2.2.2.2.1)
      = k0_pay4 (k0_pay23 x0) (k0_pay20 (k0_pay13 (F := F))) := by
  rw [View.read_writes_eq_canon _ _ _ (fun y => View.cover_of_tiledL _ S32x128.size (by sl_kernel_rfl) y)]
  unfold kernelRun0_A
  dsimp only
  rw [View.canon_cons_unit_zero (S := S32x128) hz2]
  sl_unfold_words
  rw [View.readCov_unit_zero (S := S32x128) _ hz2]
  simp only [View.readAt_eq_ld, harg2.read_unread, View.ld_unit_zero (S := S1x128x32x128) hz4]

/-! ## After a point of the second kind: the second chunk, the maps finished -/

set_option maxHeartbeats 1000000 in
/-- The teacher's attention block: finished from the two accumulators as this point's stores leave them. -/
theorem runB_o10 (c : Dev nD) (i : grid0.Coords) (arg2 : Memref sig .tc .vmem S1x128x32x128 .f32) (harg2 : arg2.IsWhole) (arg3 : Memref sig .tc .vmem S1x128x32x128 .f32) (harg3 : arg3.IsWhole) (arg4 : Memref sig .tc .vmem S1x128x32x128 .f32) (harg4 : arg4.IsWhole) (arg5 : Memref sig .tc .vmem S1x128x32x128 .f32) (harg5 : arg5.IsWhole) (arg6 : Memref sig .tc .vmem S1x128x32x128 .f32) (harg6 : arg6.IsWhole) (arg7 : Memref sig .tc .vmem S1x1x32x128 .f32) (harg7 : arg7.IsWhole) (arg8 : Memref sig .tc .vmem S1x1x1x128 .f32) (harg8 : arg8.IsWhole) (arg9 : Memref sig .tc .vmem S1x1x1x128 .f32) (harg9 : arg9.IsWhole) (arg10 : Memref sig .tc .vmem S1x32x128 .f32) (harg10 : arg10.IsWhole) (arg11 : Memref sig .tc .vmem S1x32x128 .f32) (harg11 : arg11.IsWhole) (arg12 : Memref sig .tc .vmem S1x32x128 .f32) (harg12 : arg12.IsWhole) (arg13 : Memref sig .tc .vmem S1x32x128 .f32) (harg13 : arg13.IsWhole) (arg14 : Memref sig .tc .vmem S1x2x128 .f32) (harg14 : arg14.IsWhole) (arg15 : Memref sig .tc .vmem S32x128 .f32) (harg15 : arg15.IsWhole) (arg16 : Memref sig .tc .vmem S32x128 .f32) (harg16 : arg16.IsWhole) (arg17 : Memref sig .tc .vmem S32x128 .f32) (harg17 : arg17.IsWhole) (arg18 : Memref sig .tc .vmem S32x128 .f32) (harg18 : arg18.IsWhole) (arg19 : Memref sig .tc .vmem S32x128 .f32) (harg19 : arg19.IsWhole) (arg20 : Memref sig .tc .vmem S32x128 .f32) (harg20 : arg20.IsWhole) (arg21 : Memref sig .tc .vmem S32x128 .f32) (harg21 : arg21.IsWhole) (arg22 : Memref sig .tc .vmem S32x128 .f32) (harg22 : arg22.IsWhole) (arg23 : Memref sig .tc .vmem S32x128 .f32) (harg23 : arg23.IsWhole) (arg24 : Memref sig .tc .vmem S32x128 .f32) (harg24 : arg24.IsWhole) (hc0 : ¬cond0_0 i) (hc1 : cond0_1 i)
    (x0 x1 x2 x3 x4 : Vec F S1x128x32x128 .f32) (x5 : Vec F S1x1x32x128 .f32)
    (xs0 xs1 xs2 xs3 xs4 xs5 xs6 xs7 xs8 xs9 : Vec F S32x128 .f32) (v : View sig .tc .vmem S1x32x128 .f32) :
    v.read (Elt F) (v.writes (Elt F) v.junk (kernelRun0_B (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 xs0 xs1 xs2 xs3 xs4 xs5 xs6 xs7 xs8 xs9).2.2.2.2.1)
      = k0_pay16 (k0_pay1 (k0_pay38 (k0_pay24 x1) xs4)) (k0_pay2 (k0_pay24 x1) xs5) := by
  rw [View.read_writes_eq_canon _ _ _ (fun y => View.cover_of_tiledL _ S1x32x128.size (by sl_kernel_rfl) y)]
  unfold kernelRun0_B
  dsimp only
  rw [View.canon_cons_unit_zero (S := S1x32x128) hz3]
  sl_unfold_words
  rw [View.readCov_unit_zero (S := S32x128) _ hz2, View.readCov_unit_zero (S := S32x128) _ hz2]
  simp only [View.readAt_eq_ld, harg3.read_unread, harg19.read_unread, harg20.read_unread,
    View.ld_unit_zero (S := S1x128x32x128) hz4, View.ld_unit_zero (S := S32x128) hz2]

set_option maxHeartbeats 1000000 in
/-- The student's attention block, likewise. -/
theorem runB_o11 (c : Dev nD) (i : grid0.Coords) (arg2 : Memref sig .tc .vmem S1x128x32x128 .f32) (harg2 : arg2.IsWhole) (arg3 : Memref sig .tc .vmem S1x128x32x128 .f32) (harg3 : arg3.IsWhole) (arg4 : Memref sig .tc .vmem S1x128x32x128 .f32) (harg4 : arg4.IsWhole) (arg5 : Memref sig .tc .vmem S1x128x32x128 .f32) (harg5 : arg5.IsWhole) (arg6 : Memref sig .tc .vmem S1x128x32x128 .f32) (harg6 : arg6.IsWhole) (arg7 : Memref sig .tc .vmem S1x1x32x128 .f32) (harg7 : arg7.IsWhole) (arg8 : Memref sig .tc .vmem S1x1x1x128 .f32) (harg8 : arg8.IsWhole) (arg9 : Memref sig .tc .vmem S1x1x1x128 .f32) (harg9 : arg9.IsWhole) (arg10 : Memref sig .tc .vmem S1x32x128 .f32) (harg10 : arg10.IsWhole) (arg11 : Memref sig .tc .vmem S1x32x128 .f32) (harg11 : arg11.IsWhole) (arg12 : Memref sig .tc .vmem S1x32x128 .f32) (harg12 : arg12.IsWhole) (arg13 : Memref sig .tc .vmem S1x32x128 .f32) (harg13 : arg13.IsWhole) (arg14 : Memref sig .tc .vmem S1x2x128 .f32) (harg14 : arg14.IsWhole) (arg15 : Memref sig .tc .vmem S32x128 .f32) (harg15 : arg15.IsWhole) (arg16 : Memref sig .tc .vmem S32x128 .f32) (harg16 : arg16.IsWhole) (arg17 : Memref sig .tc .vmem S32x128 .f32) (harg17 : arg17.IsWhole) (arg18 : Memref sig .tc .vmem S32x128 .f32) (harg18 : arg18.IsWhole) (arg19 : Memref sig .tc .vmem S32x128 .f32) (harg19 : arg19.IsWhole) (arg20 : Memref sig .tc .vmem S32x128 .f32) (harg20 : arg20.IsWhole) (arg21 : Memref sig .tc .vmem S32x128 .f32) (harg21 : arg21.IsWhole) (arg22 : Memref sig .tc .vmem S32x128 .f32) (harg22 : arg22.IsWhole) (arg23 : Memref sig .tc .vmem S32x128 .f32) (harg23 : arg23.IsWhole) (arg24 : Memref sig .tc .vmem S32x128 .f32) (harg24 : arg24.IsWhole) (hc0 : ¬cond0_0 i) (hc1 : cond0_1 i)
    (x0 x1 x2 x3 x4 : Vec F S1x128x32x128 .f32) (x5 : Vec F S1x1x32x128 .f32)
    (xs0 xs1 xs2 xs3 xs4 xs5 xs6 xs7 xs8 xs9 : Vec F S32x128 .f32) (v : View sig .tc .vmem S1x32x128 .f32) :
    v.read (Elt F) (v.writes (Elt F) v.junk (kernelRun0_B (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 xs0 xs1 xs2 xs3 xs4 xs5 xs6 xs7 xs8 xs9).2.2.2.2.2.1)
      = k0_pay17 (k0_pay3 (k0_pay23 x0) xs6) (k0_pay4 (k0_pay23 x0) xs7) := by
  rw [View.read_writes_eq_canon _ _ _ (fun y => View.cover_of_tiledL _ S1x32x128.size (by sl_kernel_rfl) y)]
  unfold kernelRun0_B
  dsimp only
  rw [View.canon_cons_unit_zero (S := S1x32x128) hz3]
  sl_unfold_words
  rw [View.readCov_unit_zero (S := S32x128) _ hz2, View.readCov_unit_zero (S := S32x128) _ hz2]
  simp only [View.readAt_eq_ld, harg2.read_unread, harg21.read_unread, harg22.read_unread,
    View.ld_unit_zero (S := S1x128x32x128) hz4, View.ld_unit_zero (S := S32x128) hz2]

end Cert.KernelIdeal.Val

end
-- ==== Proof.Ideal.ValAttFinal.lean ====
/- The two spatial-attention arrays after the region: what the four attention accumulators hold after the first point of a
   batch (from their resets, the first chunk's 128 channels), what the two attention blocks hold after the second point
   (the second chunk joined in: the sum and the maximum over all 256 channels, then the logistic), and so each array
   as the reference's spatial attention with the 64×64 plane re-laid as 32×128. At the ideal values. -/
import proofs.«129784_j68891275428342_2_alg».proof.Proof.Ideal.Frame
import proofs.«129784_j68891275428342_2_alg».proof.Proof.Ideal.Blocks
import proofs.«129784_j68891275428342_2_alg».proof.Proof.Ideal.Finals
import proofs.«129784_j68891275428342_2_alg».proof.Proof.Ideal.ValAtt
import proofs.«129784_j68891275428342_2_alg».proof.Proof.Ideal.ValAttPieces

set_option maxRecDepth 16384

noncomputable section

open scoped BigOperators

namespace Cert.KernelIdeal.Val

open Idealize.ShloMosaic Idealize.ShloMosaic.ValueIdx Idealize.ShloMosaic.LibSums Idealize.ShloMosaic.TcCoe
open Idealize.SL Idealize.SL.Sem
open Cert.KernelIdeal Cert.KernelIdeal.Gen Cert.KernelIdeal.Fr Cert.Iface
open Idealize.ShloMosaic.Pipeline (Dat)

variable (m : (ℓ : Loc nD τ sig) → Buf (Elt Ideal) ℓ)

/-! ## The frame's points, by the runs' pieces -/

/-- The teacher's sum accumulator after an even point. -/
theorem ptA_s4 (c : Dev nD) (t : Fin cfg0.N) (h0 : t.val % 2 = 0) :
    (ptA m c t h0).s4 = k0_pay1 (k0_pay38 (k0_pay24 (iblk m c 1 t)) (k0_pay10 (F := Ideal))) :=
  runA_s4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (hcA0 t h0) (hcA1 t h0) (iblk m c 0 t) (iblk m c 1 t) (iblk m c 2 t) (iblk m c 3 t) (iblk m c 4 t) (iblk m c 5 t) VS0_4
/-- The teacher's maximum accumulator after an even point. -/
theorem ptA_s5 (c : Dev nD) (t : Fin cfg0.N) (h0 : t.val % 2 = 0) :
    (ptA m c t h0).s5 = k0_pay2 (k0_pay24 (iblk m c 1 t)) (k0_pay11 (F := Ideal)) :=
  runA_s5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (hcA0 t h0) (hcA1 t h0) (iblk m c 0 t) (iblk m c 1 t) (iblk m c 2 t) (iblk m c 3 t) (iblk m c 4 t) (iblk m c 5 t) VS0_5
/-- The student's sum accumulator after an even point. -/
theorem ptA_s6 (c : Dev nD) (t : Fin cfg0.N) (h0 : t.val % 2 = 0) :
    (ptA m c t h0).s6 = k0_pay3 (k0_pay23 (iblk m c 0 t)) (k0_pay12 (F := Ideal)) :=
  runA_s6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (hcA0 t h0) (hcA1 t h0) (iblk m c 0 t) (iblk m c 1 t) (iblk m c 2 t) (iblk m c 3 t) (iblk m c 4 t) (iblk m c 5 t) VS0_6
/-- The student's maximum accumulator after an even point. -/
theorem ptA_s7 (c : Dev nD) (t : Fin cfg0.N) (h0 : t.val % 2 = 0) :
    (ptA m c t h0).s7 = k0_pay4 (k0_pay23 (iblk m c 0 t)) (k0_pay20 (k0_pay13 (F := Ideal))) :=
  runA_s7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (hcA0 t h0) (hcA1 t h0) (iblk m c 0 t) (iblk m c 1 t) (iblk m c 2 t) (iblk m c 3 t) (iblk m c 4 t) (iblk m c 5 t) VS0_7
set_option maxHeartbeats 1000000 in
/-- The teacher's attention block after an odd point, over what the point before left. -/
theorem ptB_o10 (c : Dev nD) (t : Fin cfg0.N) (h0 : ¬t.val % 2 = 0) (pv : Pt Ideal) :
    (ptB m c t h0 pv).o10
      = k0_pay16 (k0_pay1 (k0_pay38 (k0_pay24 (iblk m c 1 t)) pv.s4)) (k0_pay2 (k0_pay24 (iblk m c 1 t)) pv.s5) := by
  unfold ptB
  exact runB_o10 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (hcB0 t h0) (hcB1 t h0) (iblk m c 0 t) (iblk m c 1 t) (iblk m c 2 t) (iblk m c 3 t) (iblk m c 4 t) (iblk m c 5 t) pv.s0 pv.s1 pv.s2 pv.s3 pv.s4 pv.s5 pv.s6 pv.s7 pv.s8 pv.s9 VO0_10
set_option maxHeartbeats 1000000 in
/-- The student's attention block after an odd point, over what the point before left. -/
theorem ptB_o11 (c : Dev nD) (t : Fin cfg0.N) (h0 : ¬t.val % 2 = 0) (pv : Pt Ideal) :
    (ptB m c t h0 pv).o11
      = k0_pay17 (k0_pay3 (k0_pay23 (iblk m c 0 t)) pv.s6) (k0_pay4 (k0_pay23 (iblk m c 0 t)) pv.s7) := by
  unfold ptB
  exact runB_o11 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (hcB0 t h0) (hcB1 t h0) (iblk m c 0 t) (iblk m c 1 t) (iblk m c 2 t) (iblk m c 3 t) (iblk m c 4 t) (iblk m c 5 t) pv.s0 pv.s1 pv.s2 pv.s3 pv.s4 pv.s5 pv.s6 pv.s7 pv.s8 pv.s9 VO0_11

/-! ## A batch's two chunks, from the resets to the finished blocks -/

section TwoChunks
variable [Cert.ReferenceIdeal.Facts₀]

/-- The teacher's attention block from the two chunk blocks of batch `b` of the array `a`: the sum accumulator from 0
    and the maximum accumulator from -∞ take in the first chunk's channels, then the second chunk's, and the finished
    block is the reference's spatial attention of `a`, re-laid. -/
theorem tatt_two (a : FVec Ideal Cert.ReferenceIdeal.S8x256x64x64 .f32) (b : Fin 8) (xA xB : Vec Ideal S1x128x32x128 .f32)
    (hA : ∀ (k : Fin 128) (p : Fin 32) (q : Fin 128), xA (ix4 (0 : Fin 1) k p q) = a (ix4 b (chan 0 k) (rr p q) (rc p q)))
    (hB : ∀ (k : Fin 128) (p : Fin 32) (q : Fin 128), xB (ix4 (0 : Fin 1) k p q) = a (ix4 b (chan 1 k) (rr p q) (rc p q)))
    (u : Fin 1) (p : Fin 32) (q : Fin 128) :
    k0_pay16 (k0_pay1 (k0_pay38 (k0_pay24 xB) (k0_pay1 (k0_pay38 (k0_pay24 xA) (k0_pay10 (F := Ideal))))))
        (k0_pay2 (k0_pay24 xB) (k0_pay2 (k0_pay24 xA) (k0_pay11 (F := Ideal)))) (ix3 u p q)
      = Cert.ReferenceIdeal.Spec.spAtt a (ix4 b (0 : Fin 1) (rr p q) (rc p q)) := by
  refine tatt_final a b _ _ (fun p q => ?_) (fun p q => ?_) u p q
  · rw [tsum_step, tsum_step, pay10_ix]
    simp only [pay24_ix, hA, hB]
    exact sum_two_chunks fun c' => a (ix4 b c' (rr p q) (rc p q))
  · rw [pay2_ix, pay2_ix, pay11_ix]
    simp only [pay24_ix, hA, hB]
    exact sup_two_chunks fun c' => a (ix4 b c' (rr p q) (rc p q))

/-- The student's attention block from the two chunk blocks of batch `b`, likewise. -/
theorem satt_two (a : FVec Ideal Cert.ReferenceIdeal.S8x256x64x64 .f32) (b : Fin 8) (xA xB : Vec Ideal S1x128x32x128 .f32)
    (hA : ∀ (k : Fin 128) (p : Fin 32) (q : Fin 128), xA (ix4 (0 : Fin 1) k p q) = a (ix4 b (chan 0 k) (rr p q) (rc p q)))
    (hB : ∀ (k : Fin 128) (p : Fin 32) (q : Fin 128), xB (ix4 (0 : Fin 1) k p q) = a (ix4 b (chan 1 k) (rr p q) (rc p q)))
    (u : Fin 1) (p : Fin 32) (q : Fin 128) :
    k0_pay17 (k0_pay3 (k0_pay23 xB) (k0_pay3 (k0_pay23 xA) (k0_pay12 (F := Ideal))))
        (k0_pay4 (k0_pay23 xB) (k0_pay4 (k0_pay23 xA) (k0_pay20 (k0_pay13 (F := Ideal))))) (ix3 u p q)
      = Cert.ReferenceIdeal.Spec.spAtt a (ix4 b (0 : Fin 1) (rr p q) (rc p q)) := by
  refine satt_final a b _ _ (fun p q => ?_) (fun p q => ?_) u p q
  · rw [pay3_ix, pay3_ix, pay12_ix]
    simp only [pay23_ix, hA, hB]
    exact sum_two_chunks fun c' => a (ix4 b c' (rr p q) (rc p q))
  · rw [pay4_ix, pay4_ix, pay20_eq, pay13_ix]
    simp only [pay23_ix, hA, hB]
    exact sup_two_chunks fun c' => a (ix4 b c' (rr p q) (rc p q))

end TwoChunks

/-! ## The finished blocks at the second point of a batch -/

section Finished
variable [Cert.ReferenceIdeal.Facts₀]

/-- After the second point of batch `b` the teacher's attention block is the reference's spatial attention of the teacher's
    features, re-laid. -/
theorem o10_val (c : Dev nD) (t : Fin cfg0.N) (b : Fin 8) (hb : t.val = 2 * b.val + 1)
    (u : Fin 1) (p : Fin 32) (q : Fin 128) :
    (outsAt0 m c t.val t.isLt).o10 (ix3 u p q)
      = Cert.ReferenceIdeal.Spec.spAtt (F := Ideal) (m ((c.tc : Thread nD τ).loc main_arg1)) (ix4 b (0 : Fin 1) (rr p q) (rc p q)) := by
  have hN : cfg0.N = 16 := N_0
  have htN : t.val < cfg0.N := t.isLt
  have h1 : ¬t.val % 2 = 0 := by omega
  have ht1 : t.val - 1 < cfg0.N := by omega
  have h0' : (⟨t.val - 1, ht1⟩ : Fin cfg0.N).val % 2 = 0 := by show (t.val - 1) % 2 = 0; omega
  have hb' : (⟨t.val - 1, ht1⟩ : Fin cfg0.N).val = 2 * b.val + (0 : Fin 2).val := by
    show t.val - 1 = 2 * b.val + 0; omega
  have hb1 : t.val = 2 * b.val + (1 : Fin 2).val := hb
  rw [outsAt0_B m c t h1,
    show outsAt0 m c (t.val - 1) (Nat.lt_of_le_of_lt (Nat.sub_le _ _) t.isLt) = ptA m c ⟨t.val - 1, ht1⟩ h0' from
      outsAt0_A m c ⟨t.val - 1, ht1⟩ h0',
    ptB_o10, ptA_s4, ptA_s5]
  exact tatt_two _ b _ _ (iblk1_ix m c _ b 0 hb') (iblk1_ix m c t b 1 hb1) u p q

/-- After the second point of batch `b` the student's attention block is the reference's spatial attention of the student's
    features, re-laid. -/
theorem o11_val (c : Dev nD) (t : Fin cfg0.N) (b : Fin 8) (hb : t.val = 2 * b.val + 1)
    (u : Fin 1) (p : Fin 32) (q : Fin 128) :
    (outsAt0 m c t.val t.isLt).o11 (ix3 u p q)
      = Cert.ReferenceIdeal.Spec.spAtt (F := Ideal) (m ((c.tc : Thread nD τ).loc main_arg0)) (ix4 b (0 : Fin 1) (rr p q) (rc p q)) := by
  have hN : cfg0.N = 16 := N_0
  have htN : t.val < cfg0.N := t.isLt
  have h1 : ¬t.val % 2 = 0 := by omega
  have ht1 : t.val - 1 < cfg0.N := by omega
  have h0' : (⟨t.val - 1, ht1⟩ : Fin cfg0.N).val % 2 = 0 := by show (t.val - 1) % 2 = 0; omega
  have hb' : (⟨t.val - 1, ht1⟩ : Fin cfg0.N).val = 2 * b.val + (0 : Fin 2).val := by
    show t.val - 1 = 2 * b.val + 0; omega
  have hb1 : t.val = 2 * b.val + (1 : Fin 2).val := hb
  rw [outsAt0_B m c t h1,
    show outsAt0 m c (t.val - 1) (Nat.lt_of_le_of_lt (Nat.sub_le _ _) t.isLt) = ptA m c ⟨t.val - 1, ht1⟩ h0' from
      outsAt0_A m c ⟨t.val - 1, ht1⟩ h0',
    ptB_o11, ptA_s6, ptA_s7]
  exact satt_two _ b _ _ (iblk0_ix m c _ b 0 hb') (iblk0_ix m c t b 1 hb1) u p q
/-! ## The arrays -/

/-- The teacher's spatial-attention array after the region: the reference's spatial attention of the teacher's features,
    the 64×64 plane re-laid as 32×128. -/
theorem final10 (c : Dev nD) (b : Fin 8) (p : Fin 32) (q : Fin 128) :
    ((dats m 0 c).arrAt 10 cfg0.N : S8x32x128.Idx → EReal) (ix3 b p q)
      = Cert.ReferenceIdeal.Spec.spAtt (F := Ideal) (m ((c.tc : Thread nD τ).loc main_arg1)) (ix4 b (0 : Fin 1) (rr p q) (rc p q)) := by
  rw [arrAt10_of m c (fun i => Cert.ReferenceIdeal.Spec.spAtt (F := Ideal) (m ((c.tc : Thread nD τ).loc main_arg1))
      (ix4 (i 0) (0 : Fin 1) (rr (i 1) (i 2)) (rc (i 1) (i 2))))
    (fun t b hb p q => o10_val m c t b hb 0 p q)]

/-- The student's spatial-attention array after the region, likewise of the student's features. -/
theorem final11 (c : Dev nD) (b : Fin 8) (p : Fin 32) (q : Fin 128) :
    ((dats m 0 c).arrAt 11 cfg0.N : S8x32x128.Idx → EReal) (ix3 b p q)
      = Cert.ReferenceIdeal.Spec.spAtt (F := Ideal) (m ((c.tc : Thread nD τ).loc main_arg0)) (ix4 b (0 : Fin 1) (rr p q) (rc p q)) := by
  rw [arrAt11_of m c (fun i => Cert.ReferenceIdeal.Spec.spAtt (F := Ideal) (m ((c.tc : Thread nD τ).loc main_arg0))
      (ix4 (i 0) (0 : Fin 1) (rr (i 1) (i 2)) (rc (i 1) (i 2))))
    (fun t b hb p q => o11_val m c t b hb 0 p q)]

end Finished

end Cert.KernelIdeal.Val

end
-- ==== Proof.RefRunHandOps.lean ====
import proofs.«129784_j68891275428342_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 1 … 45 of @main's 329, in order. -/
abbrev ops0 : List (HloOp τ sig (Elt F)) :=
  [ binary main_arg0 main_arg1 main_v0 (subf : (⟨S8x256x64x64, .f32⟩ : BufTy).Contents (Elt F) → (⟨S8x256x64x64, .f32⟩ : BufTy).Contents (Elt F) → (⟨S8x256x64x64, .f32⟩ : BufTy).Contents (Elt F)),
    binary main_v0 main_v0 main_v1 (mulf : (⟨S8x256x64x64, .f32⟩ : BufTy).Contents (Elt F) → (⟨S8x256x64x64, .f32⟩ : BufTy).Contents (Elt F) → (⟨S8x256x64x64, .f32⟩ : BufTy).Contents (Elt F)),
    nullary main_cst (constant S_ .f32 0x00000000#32),
    binary main_v1 main_cst main_v2 ((fun x v => Host.reduceAdd x v reducesTo_S8x256x64x64_S_d0_1_2_3 h_S_) : (⟨S8x256x64x64, .f32⟩ : BufTy).Contents (Elt F) → (⟨S_, .f32⟩ : BufTy).Contents (Elt F) → (⟨S_, .f32⟩ : BufTy).Contents (Elt F)),
    nullary main_cst_0 (constant S_ .f32 0x4B000000#32),
    binary main_v2 main_cst_0 main_v3 (Host.divf : (⟨S_, .f32⟩ : BufTy).Contents (Elt F) → (⟨S_, .f32⟩ : BufTy).Contents (Elt F) → (⟨S_, .f32⟩ : BufTy).Contents (Elt F)),
    unary main_arg7 main_v4 (broadcastInDim S8x256x64x64 ![0, 1, 2, 3] bcast_S8x1x64x64_S8x256x64x64_0_1_2_3 : (⟨S8x1x64x64, .f32⟩ : BufTy).Contents (Elt F) → (⟨S8x256x64x64, .f32⟩ : BufTy).Contents (Elt F)),
    binary main_arg0 main_v4 main_v5 (mulf : (⟨S8x256x64x64, .f32⟩ : BufTy).Contents (Elt F) → (⟨S8x256x64x64, .f32⟩ : BufTy).Contents (Elt F) → (⟨S8x256x64x64, .f32⟩ : BufTy).Contents (Elt F)),
    unary main_arg7 main_v6 (broadcastInDim S8x256x64x64 ![0, 1, 2, 3] bcast_S8x1x64x64_S8x256x64x64_0_1_2_3 : (⟨S8x1x64x64, .f32⟩ : BufTy).Contents (Elt F) → (⟨S8x256x64x64, .f32⟩ : BufTy).Contents (Elt F)),
    binary main_arg1 main_v6 main_v7 (mulf : (⟨S8x256x64x64, .f32⟩ : BufTy).Contents (Elt F) → (⟨S8x256x64x64, .f32⟩ : BufTy).Contents (Elt F) → (⟨S8x256x64x64, .f32⟩ : BufTy).Contents (Elt F)),
    binary main_v5 main_v7 main_v8 (subf : (⟨S8x256x64x64, .f32⟩ : BufTy).Contents (Elt F) → (⟨S8x256x64x64, .f32⟩ : BufTy).Contents (Elt F) → (⟨S8x256x64x64, .f32⟩ : BufTy).Contents (Elt F)),
    binary main_v8 main_v8 main_v9 (mulf : (⟨S8x256x64x64, .f32⟩ : BufTy).Contents (Elt F) → (⟨S8x256x64x64, .f32⟩ : BufTy).Contents (Elt F) → (⟨S8x256x64x64, .f32⟩ : BufTy).Contents (Elt F)),
    nullary main_cst_1 (constant S_ .f32 0x00000000#32),
    binary main_v9 main_cst_1 main_v10 ((fun x v => Host.reduceAdd x v reducesTo_S8x256x64x64_S_d0_1_2_3 h_S_) : (⟨S8x256x64x64, .f32⟩ : BufTy).Contents (Elt F) → (⟨S_, .f32⟩ : BufTy).Contents (Elt F) → (⟨S_, .f32⟩ : BufTy).Contents (Elt F)),
    nullary main_cst_2 (constant S_ .f32 0x4B000000#32),
    binary main_v10 main_cst_2 main_v11 (Host.divf : (⟨S_, .f32⟩ : BufTy).Contents (Elt F) → (⟨S_, .f32⟩ : BufTy).Contents (Elt F) → (⟨S_, .f32⟩ : BufTy).Contents (Elt F)),
    nullary main_cst_3 (constant S_ .f32 0x00000000#32),
    binary main_arg0 main_cst_3 main_v12 ((fun x v => Host.reduceAdd x v reducesTo_S8x256x64x64_S8x256_d2_3 h_S_) : (⟨S8x256x64x64, .f32⟩ : BufTy).Contents (Elt F) → (⟨S_, .f32⟩ : BufTy).Contents (Elt F) → (⟨S8x256, .f32⟩ : BufTy).Contents (Elt F)),
    unary main_v12 main_v13 (broadcastInDim S8x256x1x1 ![0, 1] bcast_S8x256_S8x256x1x1_0_1 : (⟨S8x256, .f32⟩ : BufTy).Contents (Elt F) → (⟨S8x256x1x1, .f32⟩ : BufTy).Contents (Elt F)),
    nullary main_cst_4 (constant S_ .f32 0x45800000#32),
    unary main_cst_4 main_v14 (broadcastInDim S8x256x1x1 ![] bcast_S_S8x256x1x1 : (⟨S_, .f32⟩ : BufTy).Contents (Elt F) → (⟨S8x256x1x1, .f32⟩ : BufTy).Contents (Elt F)),
    binary main_v13 main_v14 main_v15 (Host.divf : (⟨S8x256x1x1, .f32⟩ : BufTy).Contents (Elt F) → (⟨S8x256x1x1, .f32⟩ : BufTy).Contents (Elt F) → (⟨S8x256x1x1, .f32⟩ : BufTy).Contents (Elt F)),
    nullary main_cst_5 (constant S_ .f32 0x00000000#32),
    binary main_arg1 main_cst_5 main_v16 ((fun x v => Host.reduceAdd x v reducesTo_S8x256x64x64_S8x256_d2_3 h_S_) : (⟨S8x256x64x64, .f32⟩ : BufTy).Contents (Elt F) → (⟨S_, .f32⟩ : BufTy).Contents (Elt F) → (⟨S8x256, .f32⟩ : BufTy).Contents (Elt F)),
    unary main_v16 main_v17 (broadcastInDim S8x256x1x1 ![0, 1] bcast_S8x256_S8x256x1x1_0_1 : (⟨S8x256, .f32⟩ : BufTy).Contents (Elt F) → (⟨S8x256x1x1, .f32⟩ : BufTy).Contents (Elt F)),
    nullary main_cst_6 (constant S_ .f32 0x45800000#32),
    unary main_cst_6 main_v18 (broadcastInDim S8x256x1x1 ![] bcast_S_S8x256x1x1 : (⟨S_, .f32⟩ : BufTy).Contents (Elt F) → (⟨S8x256x1x1, .f32⟩ : BufTy).Contents (Elt F)),
    binary main_v17 main_v18 main_v19 (Host.divf : (⟨S8x256x1x1, .f32⟩ : BufTy).Contents (Elt F) → (⟨S8x256x1x1, .f32⟩ : BufTy).Contents (Elt F) → (⟨S8x256x1x1, .f32⟩ : BufTy).Contents (Elt F)),
    binary main_v15 main_v19 main_v20 (subf : (⟨S8x256x1x1, .f32⟩ : BufTy).Contents (Elt F) → (⟨S8x256x1x1, .f32⟩ : BufTy).Contents (Elt F) → (⟨S8x256x1x1, .f32⟩ : BufTy).Contents (Elt F)),
    binary main_v20 main_v20 main_v21 (mulf : (⟨S8x256x1x1, .f32⟩ : BufTy).Contents (Elt F) → (⟨S8x256x1x1, .f32⟩ : BufTy).Contents (Elt F) → (⟨S8x256x1x1, .f32⟩ : BufTy).Contents (Elt F)),
    nullary main_cst_7 (constant S_ .f32 0x00000000#32),
    binary main_v21 main_cst_7 main_v22 ((fun x v => Host.reduceAdd x v reducesTo_S8x256x1x1_S_d0_1_2_3 h_S_) : (⟨S8x256x1x1, .f32⟩ : BufTy).Contents (Elt F) → (⟨S_, .f32⟩ : BufTy).Contents (Elt F) → (⟨S_, .f32⟩ : BufTy).Contents (Elt F)),
    nullary main_cst_8 (constant S_ .f32 0x45000000#32),
    binary main_v22 main_cst_8 main_v23 (Host.divf : (⟨S_, .f32⟩ : BufTy).Contents (Elt F) → (⟨S_, .f32⟩ : BufTy).Contents (Elt F) → (⟨S_, .f32⟩ : BufTy).Contents (Elt F)),
    nullary main_cst_9 (constant S_ .f32 0x3E99999A#32),
    binary main_cst_9 main_v3 main_v24 (mulf : (⟨S_, .f32⟩ : BufTy).Contents (Elt F) → (⟨S_, .f32⟩ : BufTy).Contents (Elt F) → (⟨S_, .f32⟩ : BufTy).Contents (Elt F)),
    nullary main_cst_10 (constant S_ .f32 0x3F000000#32),
    binary main_cst_10 main_v11 main_v25 (mulf : (⟨S_, .f32⟩ : BufTy).Contents (Elt F) → (⟨S_, .f32⟩ : BufTy).Contents (Elt F) → (⟨S_, .f32⟩ : BufTy).Contents (Elt F)),
    binary main_v24 main_v25 main_v26 (addf : (⟨S_, .f32⟩ : BufTy).Contents (Elt F) → (⟨S_, .f32⟩ : BufTy).Contents (Elt F) → (⟨S_, .f32⟩ : BufTy).Contents (Elt F)),
    nullary main_cst_11 (constant S_ .f32 0x3E4CCCCD#32),
    binary main_cst_11 main_v23 main_v27 (mulf : (⟨S_, .f32⟩ : BufTy).Contents (Elt F) → (⟨S_, .f32⟩ : BufTy).Contents (Elt F) → (⟨S_, .f32⟩ : BufTy).Contents (Elt F)),
    binary main_v26 main_v27 main_v28 (addf : (⟨S_, .f32⟩ : BufTy).Contents (Elt F) → (⟨S_, .f32⟩ : BufTy).Contents (Elt F) → (⟨S_, .f32⟩ : BufTy).Contents (Elt F)),
    nullary main_cst_12 (constant S_ .f32 0x40800000#32),
    unary main_cst_12 main_v29 (broadcastInDim S8x2x256x256 ![] bcast_S_S8x2x256x256 : (⟨S_, .f32⟩ : BufTy).Contents (Elt F) → (⟨S8x2x256x256, .f32⟩ : BufTy).Contents (Elt F)),
    binary main_arg2 main_v29 main_v30 (Host.divf : (⟨S8x2x256x256, .f32⟩ : BufTy).Contents (Elt F) → (⟨S8x2x256x256, .f32⟩ : BufTy).Contents (Elt F) → (⟨S8x2x256x256, .f32⟩ : BufTy).Contents (Elt F)) ]

set_option maxRecDepth 8192 in
/-- Every operation of the chunk touches TensorCore references only. -/
theorem ops0_sub : (ops0 : List (HloOp τ sig (Elt F))).Forall fun op => op.bufs ⊆ tcRefs τ sig :=
  ⟨binary_bufs_sub .., binary_bufs_sub .., nullary_bufs_sub .., binary_bufs_sub .., nullary_bufs_sub .., binary_bufs_sub .., unary_bufs_sub .., binary_bufs_sub .., unary_bufs_sub .., binary_bufs_sub .., binary_bufs_sub .., binary_bufs_sub .., nullary_bufs_sub .., binary_bufs_sub .., nullary_bufs_sub .., binary_bufs_sub .., nullary_bufs_sub .., binary_bufs_sub .., unary_bufs_sub .., nullary_bufs_sub .., unary_bufs_sub .., binary_bufs_sub .., nullary_bufs_sub .., binary_bufs_sub .., unary_bufs_sub .., nullary_bufs_sub .., unary_bufs_sub .., binary_bufs_sub .., binary_bufs_sub .., binary_bufs_sub .., nullary_bufs_sub .., binary_bufs_sub .., nullary_bufs_sub .., binary_bufs_sub .., nullary_bufs_sub .., binary_bufs_sub .., nullary_bufs_sub .., binary_bufs_sub .., binary_bufs_sub .., nullary_bufs_sub .., binary_bufs_sub .., binary_bufs_sub .., nullary_bufs_sub .., unary_bufs_sub .., binary_bufs_sub ..⟩

set_option maxRecDepth 8192 in
/-- Every operation of the chunk determines its results. -/
theorem ops0_fresh : ∀ op ∈ (ops0 : List (HloOp τ sig (Elt F))), op.fresh = ∅ := by
  intro _ h; (repeat (cases h with | head => rfl | tail _ h => ?_)); exact nomatch h

/-- Operations 46 … 60 of @main's 329, in order. -/
abbrev ops1 : List (HloOp τ sig (Elt F)) :=
  [ TRef.nullary (TRef.of (T := ⟨S_, .f32⟩) main_call0_cst) (constant S_ .f32 0xFF800000#32),
    TRef.binary (TRef.of (T := ⟨S8x2x256x256, .f32⟩) main_v30) (TRef.of (T := ⟨S_, .f32⟩) main_call0_cst) (TRef.of (T := ⟨S8x256x256, .f32⟩) main_call0_v0) (fun x v => Host.reduce FloatOps.maximumf x v reducesTo_S8x2x256x256_S8x256x256_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S8x256x256, .f32⟩) main_call0_v1) (broadcastInDim S8x256x256 ![] bcast_S_S8x256x256),
    TRef.binary (TRef.of (T := ⟨S8x256x256, .f32⟩) main_call0_v1) (TRef.of (T := ⟨S8x256x256, .f32⟩) main_call0_v0) (TRef.of (T := ⟨S8x256x256, .f32⟩) main_call0_v2) maximumf,
    TRef.unary (TRef.of (T := ⟨S8x256x256, .f32⟩) main_call0_v2) (TRef.of (T := ⟨S8x1x256x256, .f32⟩) main_call0_v3) (broadcastInDim S8x1x256x256 ![0, 2, 3] bcast_S8x256x256_S8x1x256x256_0_2_3),
    TRef.unary (TRef.of (T := ⟨S8x1x256x256, .f32⟩) main_call0_v3) (TRef.of (T := ⟨S8x2x256x256, .f32⟩) main_call0_v4) (broadcastInDim S8x2x256x256 ![0, 1, 2, 3] bcast_S8x1x256x256_S8x2x256x256_0_1_2_3),
    TRef.binary (TRef.of (T := ⟨S8x2x256x256, .f32⟩) main_v30) (TRef.of (T := ⟨S8x2x256x256, .f32⟩) main_call0_v4) (TRef.of (T := ⟨S8x2x256x256, .f32⟩) main_call0_v5) subf,
    TRef.unary (TRef.of (T := ⟨S8x2x256x256, .f32⟩) main_call0_v5) (TRef.of (T := ⟨S8x2x256x256, .f32⟩) main_call0_v6) Host.exp,
    TRef.nullary (TRef.of (T := ⟨S_, .f32⟩) main_call0_cst_1) (constant S_ .f32 0x00000000#32),
    TRef.binary (TRef.of (T := ⟨S8x2x256x256, .f32⟩) main_call0_v6) (TRef.of (T := ⟨S_, .f32⟩) main_call0_cst_1) (TRef.of (T := ⟨S8x256x256, .f32⟩) main_call0_v7) (fun x v => Host.reduceAdd x v reducesTo_S8x2x256x256_S8x256x256_d1 h_S_),
    TRef.unary (TRef.of (T := ⟨S8x256x256, .f32⟩) main_call0_v7) (TRef.of (T := ⟨S8x1x256x256, .f32⟩) main_call0_v8) (broadcastInDim S8x1x256x256 ![0, 2, 3] bcast_S8x256x256_S8x1x256x256_0_2_3),
    TRef.unary (TRef.of (T := ⟨S8x1x256x256, .f32⟩) main_call0_v8) (TRef.of (T := ⟨S8x1x256x256, .f32⟩) main_call0_v9) Host.log,
    TRef.unary (TRef.of (T := ⟨S8x1x256x256, .f32⟩) main_call0_v9) (TRef.of (T := ⟨S8x2x256x256, .f32⟩) main_call0_v10) (broadcastInDim S8x2x256x256 ![0, 1, 2, 3] bcast_S8x1x256x256_S8x2x256x256_0_1_2_3),
    TRef.binary (TRef.of (T := ⟨S8x2x256x256, .f32⟩) main_call0_v5) (TRef.of (T := ⟨S8x2x256x256, .f32⟩) main_call0_v10) (TRef.of (T := ⟨S8x2x256x256, .f32⟩) main_v31) subf ]

set_option maxRecDepth 8192 in
/-- Every operation of the chunk touches TensorCore references only. -/
theorem ops1_sub : (ops1 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

set_option maxRecDepth 8192 in
/-- Every operation of the chunk determines its results. -/
theorem ops1_fresh : ∀ op ∈ (ops1 : List (HloOp τ sig (Elt F))), op.fresh = ∅ := by
  intro _ h; (repeat (cases h with | head => rfl | tail _ h => ?_)); exact nomatch h

/-- Operations 61 … 74 of @main's 329, in order. -/
abbrev ops2 : List (HloOp τ sig (Elt F)) :=
  [ nullary main_cst_13 (constant S_ .f32 0x40800000#32),
    unary main_cst_13 main_v32 (broadcastInDim S8x2x256x256 ![] bcast_S_S8x2x256x256 : (⟨S_, .f32⟩ : BufTy).Contents (Elt F) → (⟨S8x2x256x256, .f32⟩ : BufTy).Contents (Elt F)),
    binary main_arg3 main_v32 main_v33 (Host.divf : (⟨S8x2x256x256, .f32⟩ : BufTy).Contents (Elt F) → (⟨S8x2x256x256, .f32⟩ : BufTy).Contents (Elt F) → (⟨S8x2x256x256, .f32⟩ : BufTy).Contents (Elt F)),
    nullary main_cst_14 (constant S_ .f32 0xFF800000#32),
    binary main_v33 main_cst_14 main_v34 ((fun x v => Host.reduce FloatOps.maximumf x v reducesTo_S8x2x256x256_S8x256x256_d1 h_S_) : (⟨S8x2x256x256, .f32⟩ : BufTy).Contents (Elt F) → (⟨S_, .f32⟩ : BufTy).Contents (Elt F) → (⟨S8x256x256, .f32⟩ : BufTy).Contents (Elt F)),
    nullary main_cst_15 (constant S_ .f32 0xFF800000#32),
    unary main_cst_15 main_v35 (broadcastInDim S8x256x256 ![] bcast_S_S8x256x256 : (⟨S_, .f32⟩ : BufTy).Contents (Elt F) → (⟨S8x256x256, .f32⟩ : BufTy).Contents (Elt F)),
    binary main_v35 main_v34 main_v36 (maximumf : (⟨S8x256x256, .f32⟩ : BufTy).Contents (Elt F) → (⟨S8x256x256, .f32⟩ : BufTy).Contents (Elt F) → (⟨S8x256x256, .f32⟩ : BufTy).Contents (Elt F)),
    unary main_v36 main_v37 (broadcastInDim S8x1x256x256 ![0, 2, 3] bcast_S8x256x256_S8x1x256x256_0_2_3 : (⟨S8x256x256, .f32⟩ : BufTy).Contents (Elt F) → (⟨S8x1x256x256, .f32⟩ : BufTy).Contents (Elt F)),
    unary main_v37 main_v38 (broadcastInDim S8x2x256x256 ![0, 1, 2, 3] bcast_S8x1x256x256_S8x2x256x256_0_1_2_3 : (⟨S8x1x256x256, .f32⟩ : BufTy).Contents (Elt F) → (⟨S8x2x256x256, .f32⟩ : BufTy).Contents (Elt F)),
    binary main_v33 main_v38 main_v39 (subf : (⟨S8x2x256x256, .f32⟩ : BufTy).Contents (Elt F) → (⟨S8x2x256x256, .f32⟩ : BufTy).Contents (Elt F) → (⟨S8x2x256x256, .f32⟩ : BufTy).Contents (Elt F)),
    unary main_v39 main_v40 (Host.exp : (⟨S8x2x256x256, .f32⟩ : BufTy).Contents (Elt F) → (⟨S8x2x256x256, .f32⟩ : BufTy).Contents (Elt F)),
    nullary main_cst_16 (constant S_ .f32 0x00000000#32),
    binary main_v40 main_cst_16 main_v41 ((fun x v => Host.reduceAdd x v reducesTo_S8x2x256x256_S8x256x256_d1 h_S_) : (⟨S8x2x256x256, .f32⟩ : BufTy).Contents (Elt F) → (⟨S_, .f32⟩ : BufTy).Contents (Elt F) → (⟨S8x256x256, .f32⟩ : BufTy).Contents (Elt F)) ]

set_option maxRecDepth 8192 in
/-- Every operation of the chunk touches TensorCore references only. -/
theorem ops2_sub : (ops2 : List (HloOp τ sig (Elt F))).Forall fun op => op.bufs ⊆ tcRefs τ sig :=
  ⟨nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub ..⟩

set_option maxRecDepth 8192 in
/-- Every operation of the chunk determines its results. -/
theorem ops2_fresh : ∀ op ∈ (ops2 : List (HloOp τ sig (Elt F))), op.fresh = ∅ := by
  intro _ h; (repeat (cases h with | head => rfl | tail _ h => ?_)); exact nomatch h

/-- Operations 75 … 134 of @main's 329, in order. -/
abbrev ops3 : List (HloOp τ sig (Elt F)) :=
  [ unary main_v41 main_v42 (broadcastInDim S8x1x256x256 ![0, 2, 3] bcast_S8x256x256_S8x1x256x256_0_2_3 : (⟨S8x256x256, .f32⟩ : BufTy).Contents (Elt F) → (⟨S8x1x256x256, .f32⟩ : BufTy).Contents (Elt F)),
    unary main_v42 main_v43 (broadcastInDim S8x2x256x256 ![0, 1, 2, 3] bcast_S8x1x256x256_S8x2x256x256_0_1_2_3 : (⟨S8x1x256x256, .f32⟩ : BufTy).Contents (Elt F) → (⟨S8x2x256x256, .f32⟩ : BufTy).Contents (Elt F)),
    binary main_v40 main_v43 main_v44 (Host.divf : (⟨S8x2x256x256, .f32⟩ : BufTy).Contents (Elt F) → (⟨S8x2x256x256, .f32⟩ : BufTy).Contents (Elt F) → (⟨S8x2x256x256, .f32⟩ : BufTy).Contents (Elt F)),
    unary main_v44 main_v45 (Host.log : (⟨S8x2x256x256, .f32⟩ : BufTy).Contents (Elt F) → (⟨S8x2x256x256, .f32⟩ : BufTy).Contents (Elt F)),
    binary main_v45 main_v31 main_v46 (subf : (⟨S8x2x256x256, .f32⟩ : BufTy).Contents (Elt F) → (⟨S8x2x256x256, .f32⟩ : BufTy).Contents (Elt F) → (⟨S8x2x256x256, .f32⟩ : BufTy).Contents (Elt F)),
    binary main_v44 main_v46 main_v47 (mulf : (⟨S8x2x256x256, .f32⟩ : BufTy).Contents (Elt F) → (⟨S8x2x256x256, .f32⟩ : BufTy).Contents (Elt F) → (⟨S8x2x256x256, .f32⟩ : BufTy).Contents (Elt F)),
    nullary main_cst_17 (constant S_ .f32 0x00000000#32),
    binary main_v47 main_cst_17 main_v48 ((fun x v => Host.reduceAdd x v reducesTo_S8x2x256x256_S_d0_1_2_3 h_S_) : (⟨S8x2x256x256, .f32⟩ : BufTy).Contents (Elt F) → (⟨S_, .f32⟩ : BufTy).Contents (Elt F) → (⟨S_, .f32⟩ : BufTy).Contents (Elt F)),
    nullary main_cst_18 (constant S_ .f32 0x41000000#32),
    binary main_v48 main_cst_18 main_v49 (Host.divf : (⟨S_, .f32⟩ : BufTy).Contents (Elt F) → (⟨S_, .f32⟩ : BufTy).Contents (Elt F) → (⟨S_, .f32⟩ : BufTy).Contents (Elt F)),
    nullary main_cst_19 (constant S_ .f32 0x41800000#32),
    binary main_v49 main_cst_19 main_v50 (mulf : (⟨S_, .f32⟩ : BufTy).Contents (Elt F) → (⟨S_, .f32⟩ : BufTy).Contents (Elt F) → (⟨S_, .f32⟩ : BufTy).Contents (Elt F)),
    unary main_v31 main_v51 ((extractStridedSlice S8x1x256x256 ![0, 1, 0, 0] · slices_S8x2x256x256_S8x1x256x256_0_1_0_0) : (⟨S8x2x256x256, .f32⟩ : BufTy).Contents (Elt F) → (⟨S8x1x256x256, .f32⟩ : BufTy).Contents (Elt F)),
    unary main_v51 main_v52 (Host.exp : (⟨S8x1x256x256, .f32⟩ : BufTy).Contents (Elt F) → (⟨S8x1x256x256, .f32⟩ : BufTy).Contents (Elt F)),
    unary main_v44 main_v53 ((extractStridedSlice S8x1x256x256 ![0, 1, 0, 0] · slices_S8x2x256x256_S8x1x256x256_0_1_0_0) : (⟨S8x2x256x256, .f32⟩ : BufTy).Contents (Elt F) → (⟨S8x1x256x256, .f32⟩ : BufTy).Contents (Elt F)),
    binary main_v52 main_v53 main_v54 (subf : (⟨S8x1x256x256, .f32⟩ : BufTy).Contents (Elt F) → (⟨S8x1x256x256, .f32⟩ : BufTy).Contents (Elt F) → (⟨S8x1x256x256, .f32⟩ : BufTy).Contents (Elt F)),
    binary main_v54 main_v54 main_v55 (mulf : (⟨S8x1x256x256, .f32⟩ : BufTy).Contents (Elt F) → (⟨S8x1x256x256, .f32⟩ : BufTy).Contents (Elt F) → (⟨S8x1x256x256, .f32⟩ : BufTy).Contents (Elt F)),
    nullary main_cst_20 (constant S_ .f32 0x00000000#32),
    binary main_v55 main_cst_20 main_v56 ((fun x v => Host.reduceAdd x v reducesTo_S8x1x256x256_S_d0_1_2_3 h_S_) : (⟨S8x1x256x256, .f32⟩ : BufTy).Contents (Elt F) → (⟨S_, .f32⟩ : BufTy).Contents (Elt F) → (⟨S_, .f32⟩ : BufTy).Contents (Elt F)),
    nullary main_cst_21 (constant S_ .f32 0x49000000#32),
    binary main_v56 main_cst_21 main_v57 (Host.divf : (⟨S_, .f32⟩ : BufTy).Contents (Elt F) → (⟨S_, .f32⟩ : BufTy).Contents (Elt F) → (⟨S_, .f32⟩ : BufTy).Contents (Elt F)),
    nullary main_cst_22 (constant S_ .f32 0x40000000#32),
    binary main_v57 main_cst_22 main_v58 (mulf : (⟨S_, .f32⟩ : BufTy).Contents (Elt F) → (⟨S_, .f32⟩ : BufTy).Contents (Elt F) → (⟨S_, .f32⟩ : BufTy).Contents (Elt F)),
    binary main_v50 main_v58 main_v59 (addf : (⟨S_, .f32⟩ : BufTy).Contents (Elt F) → (⟨S_, .f32⟩ : BufTy).Contents (Elt F) → (⟨S_, .f32⟩ : BufTy).Contents (Elt F)),
    binary main_arg4 main_arg5 main_v60 (subf : (⟨S8x256x64x64, .f32⟩ : BufTy).Contents (Elt F) → (⟨S8x256x64x64, .f32⟩ : BufTy).Contents (Elt F) → (⟨S8x256x64x64, .f32⟩ : BufTy).Contents (Elt F)),
    binary main_v60 main_v60 main_v61 (mulf : (⟨S8x256x64x64, .f32⟩ : BufTy).Contents (Elt F) → (⟨S8x256x64x64, .f32⟩ : BufTy).Contents (Elt F) → (⟨S8x256x64x64, .f32⟩ : BufTy).Contents (Elt F)),
    nullary main_cst_23 (constant S_ .f32 0x00000000#32),
    binary main_v61 main_cst_23 main_v62 ((fun x v => Host.reduceAdd x v reducesTo_S8x256x64x64_S8x64x64_d1 h_S_) : (⟨S8x256x64x64, .f32⟩ : BufTy).Contents (Elt F) → (⟨S_, .f32⟩ : BufTy).Contents (Elt F) → (⟨S8x64x64, .f32⟩ : BufTy).Contents (Elt F)),
    unary main_v62 main_v63 (broadcastInDim S8x1x64x64 ![0, 2, 3] bcast_S8x64x64_S8x1x64x64_0_2_3 : (⟨S8x64x64, .f32⟩ : BufTy).Contents (Elt F) → (⟨S8x1x64x64, .f32⟩ : BufTy).Contents (Elt F)),
    nullary main_cst_24 (constant S_ .f32 0x358637BD#32),
    unary main_cst_24 main_v64 (broadcastInDim S8x1x64x64 ![] bcast_S_S8x1x64x64 : (⟨S_, .f32⟩ : BufTy).Contents (Elt F) → (⟨S8x1x64x64, .f32⟩ : BufTy).Contents (Elt F)),
    binary main_v63 main_v64 main_v65 (addf : (⟨S8x1x64x64, .f32⟩ : BufTy).Contents (Elt F) → (⟨S8x1x64x64, .f32⟩ : BufTy).Contents (Elt F) → (⟨S8x1x64x64, .f32⟩ : BufTy).Contents (Elt F)),
    unary main_v65 main_v66 (Host.sqrt : (⟨S8x1x64x64, .f32⟩ : BufTy).Contents (Elt F) → (⟨S8x1x64x64, .f32⟩ : BufTy).Contents (Elt F)),
    binary main_arg4 main_arg5 main_v67 (mulf : (⟨S8x256x64x64, .f32⟩ : BufTy).Contents (Elt F) → (⟨S8x256x64x64, .f32⟩ : BufTy).Contents (Elt F) → (⟨S8x256x64x64, .f32⟩ : BufTy).Contents (Elt F)),
    unary main_arg4 main_v68 (Host.absf : (⟨S8x256x64x64, .f32⟩ : BufTy).Contents (Elt F) → (⟨S8x256x64x64, .f32⟩ : BufTy).Contents (Elt F)),
    unary main_arg5 main_v69 (Host.absf : (⟨S8x256x64x64, .f32⟩ : BufTy).Contents (Elt F) → (⟨S8x256x64x64, .f32⟩ : BufTy).Contents (Elt F)),
    binary main_v68 main_v69 main_v70 (mulf : (⟨S8x256x64x64, .f32⟩ : BufTy).Contents (Elt F) → (⟨S8x256x64x64, .f32⟩ : BufTy).Contents (Elt F) → (⟨S8x256x64x64, .f32⟩ : BufTy).Contents (Elt F)),
    nullary main_cst_25 (constant S_ .f32 0x322BCC77#32),
    unary main_cst_25 main_v71 (broadcastInDim S8x256x64x64 ![] bcast_S_S8x256x64x64 : (⟨S_, .f32⟩ : BufTy).Contents (Elt F) → (⟨S8x256x64x64, .f32⟩ : BufTy).Contents (Elt F)),
    binary main_v70 main_v71 main_v72 (maximumf : (⟨S8x256x64x64, .f32⟩ : BufTy).Contents (Elt F) → (⟨S8x256x64x64, .f32⟩ : BufTy).Contents (Elt F) → (⟨S8x256x64x64, .f32⟩ : BufTy).Contents (Elt F)),
    binary main_v67 main_v72 main_v73 (Host.divf : (⟨S8x256x64x64, .f32⟩ : BufTy).Contents (Elt F) → (⟨S8x256x64x64, .f32⟩ : BufTy).Contents (Elt F) → (⟨S8x256x64x64, .f32⟩ : BufTy).Contents (Elt F)),
    nullary main_cst_26 (constant S_ .f32 0x00000000#32),
    binary main_v73 main_cst_26 main_v74 ((fun x v => Host.reduceAdd x v reducesTo_S8x256x64x64_S8x64x64_d1 h_S_) : (⟨S8x256x64x64, .f32⟩ : BufTy).Contents (Elt F) → (⟨S_, .f32⟩ : BufTy).Contents (Elt F) → (⟨S8x64x64, .f32⟩ : BufTy).Contents (Elt F)),
    unary main_v74 main_v75 (broadcastInDim S8x1x64x64 ![0, 2, 3] bcast_S8x64x64_S8x1x64x64_0_2_3 : (⟨S8x64x64, .f32⟩ : BufTy).Contents (Elt F) → (⟨S8x1x64x64, .f32⟩ : BufTy).Contents (Elt F)),
    nullary main_cst_27 (constant S_ .f32 0x43800000#32),
    unary main_cst_27 main_v76 (broadcastInDim S8x1x64x64 ![] bcast_S_S8x1x64x64 : (⟨S_, .f32⟩ : BufTy).Contents (Elt F) → (⟨S8x1x64x64, .f32⟩ : BufTy).Contents (Elt F)),
    binary main_v75 main_v76 main_v77 (Host.divf : (⟨S8x1x64x64, .f32⟩ : BufTy).Contents (Elt F) → (⟨S8x1x64x64, .f32⟩ : BufTy).Contents (Elt F) → (⟨S8x1x64x64, .f32⟩ : BufTy).Contents (Elt F)),
    nullary main_cst_28 (constant S_ .f32 0x3F800000#32),
    unary main_cst_28 main_v78 (broadcastInDim S8x1x64x64 ![] bcast_S_S8x1x64x64 : (⟨S_, .f32⟩ : BufTy).Contents (Elt F) → (⟨S8x1x64x64, .f32⟩ : BufTy).Contents (Elt F)),
    binary main_v78 main_v77 main_v79 (subf : (⟨S8x1x64x64, .f32⟩ : BufTy).Contents (Elt F) → (⟨S8x1x64x64, .f32⟩ : BufTy).Contents (Elt F) → (⟨S8x1x64x64, .f32⟩ : BufTy).Contents (Elt F)),
    binary main_v66 main_v79 main_v80 (addf : (⟨S8x1x64x64, .f32⟩ : BufTy).Contents (Elt F) → (⟨S8x1x64x64, .f32⟩ : BufTy).Contents (Elt F) → (⟨S8x1x64x64, .f32⟩ : BufTy).Contents (Elt F)),
    nullary main_cst_29 (constant S_ .f32 0x40A00000#32),
    unary main_cst_29 main_v81 (broadcastInDim S8x1x64x64 ![] bcast_S_S8x1x64x64 : (⟨S_, .f32⟩ : BufTy).Contents (Elt F) → (⟨S8x1x64x64, .f32⟩ : BufTy).Contents (Elt F)),
    binary main_v66 main_v81 main_v82 (mulf : (⟨S8x1x64x64, .f32⟩ : BufTy).Contents (Elt F) → (⟨S8x1x64x64, .f32⟩ : BufTy).Contents (Elt F) → (⟨S8x1x64x64, .f32⟩ : BufTy).Contents (Elt F)),
    unary main_v82 main_v83 (Host.negf : (⟨S8x1x64x64, .f32⟩ : BufTy).Contents (Elt F) → (⟨S8x1x64x64, .f32⟩ : BufTy).Contents (Elt F)),
    unary main_v83 main_v84 (Host.exp : (⟨S8x1x64x64, .f32⟩ : BufTy).Contents (Elt F) → (⟨S8x1x64x64, .f32⟩ : BufTy).Contents (Elt F)),
    nullary main_cst_30 (constant S_ .f32 0x3F800000#32),
    unary main_cst_30 main_v85 (broadcastInDim S8x1x64x64 ![] bcast_S_S8x1x64x64 : (⟨S_, .f32⟩ : BufTy).Contents (Elt F) → (⟨S8x1x64x64, .f32⟩ : BufTy).Contents (Elt F)),
    binary main_v85 main_v84 main_v86 (addf : (⟨S8x1x64x64, .f32⟩ : BufTy).Contents (Elt F) → (⟨S8x1x64x64, .f32⟩ : BufTy).Contents (Elt F) → (⟨S8x1x64x64, .f32⟩ : BufTy).Contents (Elt F)),
    nullary main_cst_31 (constant S_ .f32 0x3F800000#32) ]

set_option maxRecDepth 8192 in
/-- Every operation of the chunk touches TensorCore references only. -/
theorem ops3_sub : (ops3 : List (HloOp τ sig (Elt F))).Forall fun op => op.bufs ⊆ tcRefs τ sig :=
  ⟨unary_bufs_sub .., unary_bufs_sub .., binary_bufs_sub .., unary_bufs_sub .., binary_bufs_sub .., binary_bufs_sub .., nullary_bufs_sub .., binary_bufs_sub .., nullary_bufs_sub .., binary_bufs_sub .., nullary_bufs_sub .., binary_bufs_sub .., unary_bufs_sub .., unary_bufs_sub .., unary_bufs_sub .., binary_bufs_sub .., binary_bufs_sub .., nullary_bufs_sub .., binary_bufs_sub .., nullary_bufs_sub .., binary_bufs_sub .., nullary_bufs_sub .., binary_bufs_sub .., binary_bufs_sub .., binary_bufs_sub .., binary_bufs_sub .., nullary_bufs_sub .., binary_bufs_sub .., unary_bufs_sub .., nullary_bufs_sub .., unary_bufs_sub .., binary_bufs_sub .., unary_bufs_sub .., binary_bufs_sub .., unary_bufs_sub .., unary_bufs_sub .., binary_bufs_sub .., nullary_bufs_sub .., unary_bufs_sub .., binary_bufs_sub .., binary_bufs_sub .., nullary_bufs_sub .., binary_bufs_sub .., unary_bufs_sub .., nullary_bufs_sub .., unary_bufs_sub .., binary_bufs_sub .., nullary_bufs_sub .., unary_bufs_sub .., binary_bufs_sub .., binary_bufs_sub .., nullary_bufs_sub .., unary_bufs_sub .., binary_bufs_sub .., unary_bufs_sub .., unary_bufs_sub .., nullary_bufs_sub .., unary_bufs_sub .., binary_bufs_sub .., nullary_bufs_sub ..⟩

set_option maxRecDepth 8192 in
/-- Every operation of the chunk determines its results. -/
theorem ops3_fresh : ∀ op ∈ (ops3 : List (HloOp τ sig (Elt F))), op.fresh = ∅ := by
  intro _ h; (repeat (cases h with | head => rfl | tail _ h => ?_)); exact nomatch h

/-- Operations 135 … 194 of @main's 329, in order. -/
abbrev ops4 : List (HloOp τ sig (Elt F)) :=
  [ unary main_cst_31 main_v87 (broadcastInDim S8x1x64x64 ![] bcast_S_S8x1x64x64 : (⟨S_, .f32⟩ : BufTy).Contents (Elt F) → (⟨S8x1x64x64, .f32⟩ : BufTy).Contents (Elt F)),
    binary main_v87 main_v86 main_v88 (Host.divf : (⟨S8x1x64x64, .f32⟩ : BufTy).Contents (Elt F) → (⟨S8x1x64x64, .f32⟩ : BufTy).Contents (Elt F) → (⟨S8x1x64x64, .f32⟩ : BufTy).Contents (Elt F)),
    binary main_v80 main_v88 main_v89 (mulf : (⟨S8x1x64x64, .f32⟩ : BufTy).Contents (Elt F) → (⟨S8x1x64x64, .f32⟩ : BufTy).Contents (Elt F) → (⟨S8x1x64x64, .f32⟩ : BufTy).Contents (Elt F)),
    binary main_arg4 main_arg6 main_v90 (subf : (⟨S8x256x64x64, .f32⟩ : BufTy).Contents (Elt F) → (⟨S8x256x64x64, .f32⟩ : BufTy).Contents (Elt F) → (⟨S8x256x64x64, .f32⟩ : BufTy).Contents (Elt F)),
    binary main_v90 main_v90 main_v91 (mulf : (⟨S8x256x64x64, .f32⟩ : BufTy).Contents (Elt F) → (⟨S8x256x64x64, .f32⟩ : BufTy).Contents (Elt F) → (⟨S8x256x64x64, .f32⟩ : BufTy).Contents (Elt F)),
    nullary main_cst_32 (constant S_ .f32 0x00000000#32),
    binary main_v91 main_cst_32 main_v92 ((fun x v => Host.reduceAdd x v reducesTo_S8x256x64x64_S8x64x64_d1 h_S_) : (⟨S8x256x64x64, .f32⟩ : BufTy).Contents (Elt F) → (⟨S_, .f32⟩ : BufTy).Contents (Elt F) → (⟨S8x64x64, .f32⟩ : BufTy).Contents (Elt F)),
    unary main_v92 main_v93 (broadcastInDim S8x1x64x64 ![0, 2, 3] bcast_S8x64x64_S8x1x64x64_0_2_3 : (⟨S8x64x64, .f32⟩ : BufTy).Contents (Elt F) → (⟨S8x1x64x64, .f32⟩ : BufTy).Contents (Elt F)),
    nullary main_cst_33 (constant S_ .f32 0x358637BD#32),
    unary main_cst_33 main_v94 (broadcastInDim S8x1x64x64 ![] bcast_S_S8x1x64x64 : (⟨S_, .f32⟩ : BufTy).Contents (Elt F) → (⟨S8x1x64x64, .f32⟩ : BufTy).Contents (Elt F)),
    binary main_v93 main_v94 main_v95 (addf : (⟨S8x1x64x64, .f32⟩ : BufTy).Contents (Elt F) → (⟨S8x1x64x64, .f32⟩ : BufTy).Contents (Elt F) → (⟨S8x1x64x64, .f32⟩ : BufTy).Contents (Elt F)),
    unary main_v95 main_v96 (Host.sqrt : (⟨S8x1x64x64, .f32⟩ : BufTy).Contents (Elt F) → (⟨S8x1x64x64, .f32⟩ : BufTy).Contents (Elt F)),
    binary main_arg4 main_arg6 main_v97 (mulf : (⟨S8x256x64x64, .f32⟩ : BufTy).Contents (Elt F) → (⟨S8x256x64x64, .f32⟩ : BufTy).Contents (Elt F) → (⟨S8x256x64x64, .f32⟩ : BufTy).Contents (Elt F)),
    unary main_arg4 main_v98 (Host.absf : (⟨S8x256x64x64, .f32⟩ : BufTy).Contents (Elt F) → (⟨S8x256x64x64, .f32⟩ : BufTy).Contents (Elt F)),
    unary main_arg6 main_v99 (Host.absf : (⟨S8x256x64x64, .f32⟩ : BufTy).Contents (Elt F) → (⟨S8x256x64x64, .f32⟩ : BufTy).Contents (Elt F)),
    binary main_v98 main_v99 main_v100 (mulf : (⟨S8x256x64x64, .f32⟩ : BufTy).Contents (Elt F) → (⟨S8x256x64x64, .f32⟩ : BufTy).Contents (Elt F) → (⟨S8x256x64x64, .f32⟩ : BufTy).Contents (Elt F)),
    nullary main_cst_34 (constant S_ .f32 0x322BCC77#32),
    unary main_cst_34 main_v101 (broadcastInDim S8x256x64x64 ![] bcast_S_S8x256x64x64 : (⟨S_, .f32⟩ : BufTy).Contents (Elt F) → (⟨S8x256x64x64, .f32⟩ : BufTy).Contents (Elt F)),
    binary main_v100 main_v101 main_v102 (maximumf : (⟨S8x256x64x64, .f32⟩ : BufTy).Contents (Elt F) → (⟨S8x256x64x64, .f32⟩ : BufTy).Contents (Elt F) → (⟨S8x256x64x64, .f32⟩ : BufTy).Contents (Elt F)),
    binary main_v97 main_v102 main_v103 (Host.divf : (⟨S8x256x64x64, .f32⟩ : BufTy).Contents (Elt F) → (⟨S8x256x64x64, .f32⟩ : BufTy).Contents (Elt F) → (⟨S8x256x64x64, .f32⟩ : BufTy).Contents (Elt F)),
    nullary main_cst_35 (constant S_ .f32 0x00000000#32),
    binary main_v103 main_cst_35 main_v104 ((fun x v => Host.reduceAdd x v reducesTo_S8x256x64x64_S8x64x64_d1 h_S_) : (⟨S8x256x64x64, .f32⟩ : BufTy).Contents (Elt F) → (⟨S_, .f32⟩ : BufTy).Contents (Elt F) → (⟨S8x64x64, .f32⟩ : BufTy).Contents (Elt F)),
    unary main_v104 main_v105 (broadcastInDim S8x1x64x64 ![0, 2, 3] bcast_S8x64x64_S8x1x64x64_0_2_3 : (⟨S8x64x64, .f32⟩ : BufTy).Contents (Elt F) → (⟨S8x1x64x64, .f32⟩ : BufTy).Contents (Elt F)),
    nullary main_cst_36 (constant S_ .f32 0x43800000#32),
    unary main_cst_36 main_v106 (broadcastInDim S8x1x64x64 ![] bcast_S_S8x1x64x64 : (⟨S_, .f32⟩ : BufTy).Contents (Elt F) → (⟨S8x1x64x64, .f32⟩ : BufTy).Contents (Elt F)),
    binary main_v105 main_v106 main_v107 (Host.divf : (⟨S8x1x64x64, .f32⟩ : BufTy).Contents (Elt F) → (⟨S8x1x64x64, .f32⟩ : BufTy).Contents (Elt F) → (⟨S8x1x64x64, .f32⟩ : BufTy).Contents (Elt F)),
    nullary main_cst_37 (constant S_ .f32 0x3F800000#32),
    unary main_cst_37 main_v108 (broadcastInDim S8x1x64x64 ![] bcast_S_S8x1x64x64 : (⟨S_, .f32⟩ : BufTy).Contents (Elt F) → (⟨S8x1x64x64, .f32⟩ : BufTy).Contents (Elt F)),
    binary main_v108 main_v107 main_v109 (subf : (⟨S8x1x64x64, .f32⟩ : BufTy).Contents (Elt F) → (⟨S8x1x64x64, .f32⟩ : BufTy).Contents (Elt F) → (⟨S8x1x64x64, .f32⟩ : BufTy).Contents (Elt F)),
    binary main_v96 main_v109 main_v110 (addf : (⟨S8x1x64x64, .f32⟩ : BufTy).Contents (Elt F) → (⟨S8x1x64x64, .f32⟩ : BufTy).Contents (Elt F) → (⟨S8x1x64x64, .f32⟩ : BufTy).Contents (Elt F)),
    nullary main_cst_38 (constant S_ .f32 0x40A00000#32),
    unary main_cst_38 main_v111 (broadcastInDim S8x1x64x64 ![] bcast_S_S8x1x64x64 : (⟨S_, .f32⟩ : BufTy).Contents (Elt F) → (⟨S8x1x64x64, .f32⟩ : BufTy).Contents (Elt F)),
    binary main_v96 main_v111 main_v112 (mulf : (⟨S8x1x64x64, .f32⟩ : BufTy).Contents (Elt F) → (⟨S8x1x64x64, .f32⟩ : BufTy).Contents (Elt F) → (⟨S8x1x64x64, .f32⟩ : BufTy).Contents (Elt F)),
    unary main_v112 main_v113 (Host.negf : (⟨S8x1x64x64, .f32⟩ : BufTy).Contents (Elt F) → (⟨S8x1x64x64, .f32⟩ : BufTy).Contents (Elt F)),
    unary main_v113 main_v114 (Host.exp : (⟨S8x1x64x64, .f32⟩ : BufTy).Contents (Elt F) → (⟨S8x1x64x64, .f32⟩ : BufTy).Contents (Elt F)),
    nullary main_cst_39 (constant S_ .f32 0x3F800000#32),
    unary main_cst_39 main_v115 (broadcastInDim S8x1x64x64 ![] bcast_S_S8x1x64x64 : (⟨S_, .f32⟩ : BufTy).Contents (Elt F) → (⟨S8x1x64x64, .f32⟩ : BufTy).Contents (Elt F)),
    binary main_v115 main_v114 main_v116 (addf : (⟨S8x1x64x64, .f32⟩ : BufTy).Contents (Elt F) → (⟨S8x1x64x64, .f32⟩ : BufTy).Contents (Elt F) → (⟨S8x1x64x64, .f32⟩ : BufTy).Contents (Elt F)),
    nullary main_cst_40 (constant S_ .f32 0x3F800000#32),
    unary main_cst_40 main_v117 (broadcastInDim S8x1x64x64 ![] bcast_S_S8x1x64x64 : (⟨S_, .f32⟩ : BufTy).Contents (Elt F) → (⟨S8x1x64x64, .f32⟩ : BufTy).Contents (Elt F)),
    binary main_v117 main_v116 main_v118 (Host.divf : (⟨S8x1x64x64, .f32⟩ : BufTy).Contents (Elt F) → (⟨S8x1x64x64, .f32⟩ : BufTy).Contents (Elt F) → (⟨S8x1x64x64, .f32⟩ : BufTy).Contents (Elt F)),
    binary main_v110 main_v118 main_v119 (mulf : (⟨S8x1x64x64, .f32⟩ : BufTy).Contents (Elt F) → (⟨S8x1x64x64, .f32⟩ : BufTy).Contents (Elt F) → (⟨S8x1x64x64, .f32⟩ : BufTy).Contents (Elt F)),
    nullary main_cst_41 (constant S_ .f32 0x00000000#32),
    binary main_v89 main_cst_41 main_v120 ((fun x v => Host.reduceAdd x v reducesTo_S8x1x64x64_S_d0_1_2_3 h_S_) : (⟨S8x1x64x64, .f32⟩ : BufTy).Contents (Elt F) → (⟨S_, .f32⟩ : BufTy).Contents (Elt F) → (⟨S_, .f32⟩ : BufTy).Contents (Elt F)),
    nullary main_cst_42 (constant S_ .f32 0x47000000#32),
    binary main_v120 main_cst_42 main_v121 (Host.divf : (⟨S_, .f32⟩ : BufTy).Contents (Elt F) → (⟨S_, .f32⟩ : BufTy).Contents (Elt F) → (⟨S_, .f32⟩ : BufTy).Contents (Elt F)),
    nullary main_cst_43 (constant S_ .f32 0x3FC00000#32),
    binary main_v121 main_cst_43 main_v122 (mulf : (⟨S_, .f32⟩ : BufTy).Contents (Elt F) → (⟨S_, .f32⟩ : BufTy).Contents (Elt F) → (⟨S_, .f32⟩ : BufTy).Contents (Elt F)),
    unary main_v122 main_v123 (broadcastInDim S8x1x64x64 ![] bcast_S_S8x1x64x64 : (⟨S_, .f32⟩ : BufTy).Contents (Elt F) → (⟨S8x1x64x64, .f32⟩ : BufTy).Contents (Elt F)),
    binary main_v89 main_v123 main_v124 (cmpf .ogt : (⟨S8x1x64x64, .f32⟩ : BufTy).Contents (Elt F) → (⟨S8x1x64x64, .f32⟩ : BufTy).Contents (Elt F) → (⟨S8x1x64x64, .i1⟩ : BufTy).Contents (Elt F)),
    unary main_v124 main_v125 (uitofp .f32 : (⟨S8x1x64x64, .i1⟩ : BufTy).Contents (Elt F) → (⟨S8x1x64x64, .f32⟩ : BufTy).Contents (Elt F)),
    nullary main_cst_44 (constant S_ .f32 0x40000000#32),
    unary main_cst_44 main_v126 (broadcastInDim S8x1x64x64 ![] bcast_S_S8x1x64x64 : (⟨S_, .f32⟩ : BufTy).Contents (Elt F) → (⟨S8x1x64x64, .f32⟩ : BufTy).Contents (Elt F)),
    binary main_v125 main_v126 main_v127 (mulf : (⟨S8x1x64x64, .f32⟩ : BufTy).Contents (Elt F) → (⟨S8x1x64x64, .f32⟩ : BufTy).Contents (Elt F) → (⟨S8x1x64x64, .f32⟩ : BufTy).Contents (Elt F)),
    nullary main_cst_45 (constant S_ .f32 0x3F800000#32),
    unary main_cst_45 main_v128 (broadcastInDim S8x1x64x64 ![] bcast_S_S8x1x64x64 : (⟨S_, .f32⟩ : BufTy).Contents (Elt F) → (⟨S8x1x64x64, .f32⟩ : BufTy).Contents (Elt F)),
    binary main_v128 main_v125 main_v129 (subf : (⟨S8x1x64x64, .f32⟩ : BufTy).Contents (Elt F) → (⟨S8x1x64x64, .f32⟩ : BufTy).Contents (Elt F) → (⟨S8x1x64x64, .f32⟩ : BufTy).Contents (Elt F)),
    nullary main_cst_46 (constant S_ .f32 0x3F000000#32),
    unary main_cst_46 main_v130 (broadcastInDim S8x1x64x64 ![] bcast_S_S8x1x64x64 : (⟨S_, .f32⟩ : BufTy).Contents (Elt F) → (⟨S8x1x64x64, .f32⟩ : BufTy).Contents (Elt F)),
    binary main_v129 main_v130 main_v131 (mulf : (⟨S8x1x64x64, .f32⟩ : BufTy).Contents (Elt F) → (⟨S8x1x64x64, .f32⟩ : BufTy).Contents (Elt F) → (⟨S8x1x64x64, .f32⟩ : BufTy).Contents (Elt F)) ]

set_option maxRecDepth 8192 in
/-- Every operation of the chunk touches TensorCore references only. -/
theorem ops4_sub : (ops4 : List (HloOp τ sig (Elt F))).Forall fun op => op.bufs ⊆ tcRefs τ sig :=
  ⟨unary_bufs_sub .., binary_bufs_sub .., binary_bufs_sub .., binary_bufs_sub .., binary_bufs_sub .., nullary_bufs_sub .., binary_bufs_sub .., unary_bufs_sub .., nullary_bufs_sub .., unary_bufs_sub .., binary_bufs_sub .., unary_bufs_sub .., binary_bufs_sub .., unary_bufs_sub .., unary_bufs_sub .., binary_bufs_sub .., nullary_bufs_sub .., unary_bufs_sub .., binary_bufs_sub .., binary_bufs_sub .., nullary_bufs_sub .., binary_bufs_sub .., unary_bufs_sub .., nullary_bufs_sub .., unary_bufs_sub .., binary_bufs_sub .., nullary_bufs_sub .., unary_bufs_sub .., binary_bufs_sub .., binary_bufs_sub .., nullary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., nullary_bufs_sub .., binary_bufs_sub .., nullary_bufs_sub .., binary_bufs_sub .., nullary_bufs_sub .., binary_bufs_sub .., unary_bufs_sub .., binary_bufs_sub .., unary_bufs_sub .., nullary_bufs_sub .., unary_bufs_sub .., binary_bufs_sub .., nullary_bufs_sub .., unary_bufs_sub .., binary_bufs_sub .., nullary_bufs_sub .., unary_bufs_sub .., binary_bufs_sub ..⟩

set_option maxRecDepth 8192 in
/-- Every operation of the chunk determines its results. -/
theorem ops4_fresh : ∀ op ∈ (ops4 : List (HloOp τ sig (Elt F))), op.fresh = ∅ := by
  intro _ h; (repeat (cases h with | head => rfl | tail _ h => ?_)); exact nomatch h

/-- Operations 195 … 254 of @main's 329, in order. -/
abbrev ops5 : List (HloOp τ sig (Elt F)) :=
  [ binary main_v127 main_v131 main_v132 (addf : (⟨S8x1x64x64, .f32⟩ : BufTy).Contents (Elt F) → (⟨S8x1x64x64, .f32⟩ : BufTy).Contents (Elt F) → (⟨S8x1x64x64, .f32⟩ : BufTy).Contents (Elt F)),
    binary main_v119 main_v132 main_v133 (mulf : (⟨S8x1x64x64, .f32⟩ : BufTy).Contents (Elt F) → (⟨S8x1x64x64, .f32⟩ : BufTy).Contents (Elt F) → (⟨S8x1x64x64, .f32⟩ : BufTy).Contents (Elt F)),
    binary main_v89 main_v132 main_v134 (mulf : (⟨S8x1x64x64, .f32⟩ : BufTy).Contents (Elt F) → (⟨S8x1x64x64, .f32⟩ : BufTy).Contents (Elt F) → (⟨S8x1x64x64, .f32⟩ : BufTy).Contents (Elt F)),
    binary main_v133 main_v134 main_v135 (subf : (⟨S8x1x64x64, .f32⟩ : BufTy).Contents (Elt F) → (⟨S8x1x64x64, .f32⟩ : BufTy).Contents (Elt F) → (⟨S8x1x64x64, .f32⟩ : BufTy).Contents (Elt F)),
    binary main_v135 main_v135 main_v136 (mulf : (⟨S8x1x64x64, .f32⟩ : BufTy).Contents (Elt F) → (⟨S8x1x64x64, .f32⟩ : BufTy).Contents (Elt F) → (⟨S8x1x64x64, .f32⟩ : BufTy).Contents (Elt F)),
    nullary main_cst_47 (constant S_ .f32 0x00000000#32),
    binary main_v136 main_cst_47 main_v137 ((fun x v => Host.reduceAdd x v reducesTo_S8x1x64x64_S_d0_1_2_3 h_S_) : (⟨S8x1x64x64, .f32⟩ : BufTy).Contents (Elt F) → (⟨S_, .f32⟩ : BufTy).Contents (Elt F) → (⟨S_, .f32⟩ : BufTy).Contents (Elt F)),
    nullary main_cst_48 (constant S_ .f32 0x47000000#32),
    binary main_v137 main_cst_48 main_v138 (Host.divf : (⟨S_, .f32⟩ : BufTy).Contents (Elt F) → (⟨S_, .f32⟩ : BufTy).Contents (Elt F) → (⟨S_, .f32⟩ : BufTy).Contents (Elt F)),
    nullary main_cst_49 (constant S_ .f32 0x00000000#32),
    binary main_arg1 main_cst_49 main_v139 ((fun x v => Host.reduceAdd x v reducesTo_S8x256x64x64_S8x256_d2_3 h_S_) : (⟨S8x256x64x64, .f32⟩ : BufTy).Contents (Elt F) → (⟨S_, .f32⟩ : BufTy).Contents (Elt F) → (⟨S8x256, .f32⟩ : BufTy).Contents (Elt F)),
    unary main_v139 main_v140 (broadcastInDim S8x256x1x1 ![0, 1] bcast_S8x256_S8x256x1x1_0_1 : (⟨S8x256, .f32⟩ : BufTy).Contents (Elt F) → (⟨S8x256x1x1, .f32⟩ : BufTy).Contents (Elt F)),
    nullary main_cst_50 (constant S_ .f32 0x45800000#32),
    unary main_cst_50 main_v141 (broadcastInDim S8x256x1x1 ![] bcast_S_S8x256x1x1 : (⟨S_, .f32⟩ : BufTy).Contents (Elt F) → (⟨S8x256x1x1, .f32⟩ : BufTy).Contents (Elt F)),
    binary main_v140 main_v141 main_v142 (Host.divf : (⟨S8x256x1x1, .f32⟩ : BufTy).Contents (Elt F) → (⟨S8x256x1x1, .f32⟩ : BufTy).Contents (Elt F) → (⟨S8x256x1x1, .f32⟩ : BufTy).Contents (Elt F)),
    unary main_v142 main_v143 (Host.negf : (⟨S8x256x1x1, .f32⟩ : BufTy).Contents (Elt F) → (⟨S8x256x1x1, .f32⟩ : BufTy).Contents (Elt F)),
    unary main_v143 main_v144 (Host.exp : (⟨S8x256x1x1, .f32⟩ : BufTy).Contents (Elt F) → (⟨S8x256x1x1, .f32⟩ : BufTy).Contents (Elt F)),
    nullary main_cst_51 (constant S_ .f32 0x3F800000#32),
    unary main_cst_51 main_v145 (broadcastInDim S8x256x1x1 ![] bcast_S_S8x256x1x1 : (⟨S_, .f32⟩ : BufTy).Contents (Elt F) → (⟨S8x256x1x1, .f32⟩ : BufTy).Contents (Elt F)),
    binary main_v145 main_v144 main_v146 (addf : (⟨S8x256x1x1, .f32⟩ : BufTy).Contents (Elt F) → (⟨S8x256x1x1, .f32⟩ : BufTy).Contents (Elt F) → (⟨S8x256x1x1, .f32⟩ : BufTy).Contents (Elt F)),
    nullary main_cst_52 (constant S_ .f32 0x3F800000#32),
    unary main_cst_52 main_v147 (broadcastInDim S8x256x1x1 ![] bcast_S_S8x256x1x1 : (⟨S_, .f32⟩ : BufTy).Contents (Elt F) → (⟨S8x256x1x1, .f32⟩ : BufTy).Contents (Elt F)),
    binary main_v147 main_v146 main_v148 (Host.divf : (⟨S8x256x1x1, .f32⟩ : BufTy).Contents (Elt F) → (⟨S8x256x1x1, .f32⟩ : BufTy).Contents (Elt F) → (⟨S8x256x1x1, .f32⟩ : BufTy).Contents (Elt F)),
    nullary main_cst_53 (constant S_ .f32 0x00000000#32),
    binary main_arg1 main_cst_53 main_v149 ((fun x v => Host.reduceAdd x v reducesTo_S8x256x64x64_S8x64x64_d1 h_S_) : (⟨S8x256x64x64, .f32⟩ : BufTy).Contents (Elt F) → (⟨S_, .f32⟩ : BufTy).Contents (Elt F) → (⟨S8x64x64, .f32⟩ : BufTy).Contents (Elt F)),
    unary main_v149 main_v150 (broadcastInDim S8x1x64x64 ![0, 2, 3] bcast_S8x64x64_S8x1x64x64_0_2_3 : (⟨S8x64x64, .f32⟩ : BufTy).Contents (Elt F) → (⟨S8x1x64x64, .f32⟩ : BufTy).Contents (Elt F)),
    nullary main_cst_54 (constant S_ .f32 0x43800000#32),
    unary main_cst_54 main_v151 (broadcastInDim S8x1x64x64 ![] bcast_S_S8x1x64x64 : (⟨S_, .f32⟩ : BufTy).Contents (Elt F) → (⟨S8x1x64x64, .f32⟩ : BufTy).Contents (Elt F)),
    binary main_v150 main_v151 main_v152 (Host.divf : (⟨S8x1x64x64, .f32⟩ : BufTy).Contents (Elt F) → (⟨S8x1x64x64, .f32⟩ : BufTy).Contents (Elt F) → (⟨S8x1x64x64, .f32⟩ : BufTy).Contents (Elt F)),
    nullary main_cst_55 (constant S_ .f32 0xFF800000#32),
    binary main_arg1 main_cst_55 main_v153 ((fun x v => Host.reduce FloatOps.maximumf x v reducesTo_S8x256x64x64_S8x64x64_d1 h_S_) : (⟨S8x256x64x64, .f32⟩ : BufTy).Contents (Elt F) → (⟨S_, .f32⟩ : BufTy).Contents (Elt F) → (⟨S8x64x64, .f32⟩ : BufTy).Contents (Elt F)),
    unary main_v153 main_v154 (broadcastInDim S8x1x64x64 ![0, 2, 3] bcast_S8x64x64_S8x1x64x64_0_2_3 : (⟨S8x64x64, .f32⟩ : BufTy).Contents (Elt F) → (⟨S8x1x64x64, .f32⟩ : BufTy).Contents (Elt F)),
    binary main_v152 main_v154 main_v155 (addf : (⟨S8x1x64x64, .f32⟩ : BufTy).Contents (Elt F) → (⟨S8x1x64x64, .f32⟩ : BufTy).Contents (Elt F) → (⟨S8x1x64x64, .f32⟩ : BufTy).Contents (Elt F)),
    unary main_v155 main_v156 (Host.negf : (⟨S8x1x64x64, .f32⟩ : BufTy).Contents (Elt F) → (⟨S8x1x64x64, .f32⟩ : BufTy).Contents (Elt F)),
    unary main_v156 main_v157 (Host.exp : (⟨S8x1x64x64, .f32⟩ : BufTy).Contents (Elt F) → (⟨S8x1x64x64, .f32⟩ : BufTy).Contents (Elt F)),
    nullary main_cst_56 (constant S_ .f32 0x3F800000#32),
    unary main_cst_56 main_v158 (broadcastInDim S8x1x64x64 ![] bcast_S_S8x1x64x64 : (⟨S_, .f32⟩ : BufTy).Contents (Elt F) → (⟨S8x1x64x64, .f32⟩ : BufTy).Contents (Elt F)),
    binary main_v158 main_v157 main_v159 (addf : (⟨S8x1x64x64, .f32⟩ : BufTy).Contents (Elt F) → (⟨S8x1x64x64, .f32⟩ : BufTy).Contents (Elt F) → (⟨S8x1x64x64, .f32⟩ : BufTy).Contents (Elt F)),
    nullary main_cst_57 (constant S_ .f32 0x3F800000#32),
    unary main_cst_57 main_v160 (broadcastInDim S8x1x64x64 ![] bcast_S_S8x1x64x64 : (⟨S_, .f32⟩ : BufTy).Contents (Elt F) → (⟨S8x1x64x64, .f32⟩ : BufTy).Contents (Elt F)),
    binary main_v160 main_v159 main_v161 (Host.divf : (⟨S8x1x64x64, .f32⟩ : BufTy).Contents (Elt F) → (⟨S8x1x64x64, .f32⟩ : BufTy).Contents (Elt F) → (⟨S8x1x64x64, .f32⟩ : BufTy).Contents (Elt F)),
    nullary main_cst_58 (constant S_ .f32 0x00000000#32),
    binary main_arg0 main_cst_58 main_v162 ((fun x v => Host.reduceAdd x v reducesTo_S8x256x64x64_S8x256_d2_3 h_S_) : (⟨S8x256x64x64, .f32⟩ : BufTy).Contents (Elt F) → (⟨S_, .f32⟩ : BufTy).Contents (Elt F) → (⟨S8x256, .f32⟩ : BufTy).Contents (Elt F)),
    unary main_v162 main_v163 (broadcastInDim S8x256x1x1 ![0, 1] bcast_S8x256_S8x256x1x1_0_1 : (⟨S8x256, .f32⟩ : BufTy).Contents (Elt F) → (⟨S8x256x1x1, .f32⟩ : BufTy).Contents (Elt F)),
    nullary main_cst_59 (constant S_ .f32 0x45800000#32),
    unary main_cst_59 main_v164 (broadcastInDim S8x256x1x1 ![] bcast_S_S8x256x1x1 : (⟨S_, .f32⟩ : BufTy).Contents (Elt F) → (⟨S8x256x1x1, .f32⟩ : BufTy).Contents (Elt F)),
    binary main_v163 main_v164 main_v165 (Host.divf : (⟨S8x256x1x1, .f32⟩ : BufTy).Contents (Elt F) → (⟨S8x256x1x1, .f32⟩ : BufTy).Contents (Elt F) → (⟨S8x256x1x1, .f32⟩ : BufTy).Contents (Elt F)),
    unary main_v165 main_v166 (Host.negf : (⟨S8x256x1x1, .f32⟩ : BufTy).Contents (Elt F) → (⟨S8x256x1x1, .f32⟩ : BufTy).Contents (Elt F)),
    unary main_v166 main_v167 (Host.exp : (⟨S8x256x1x1, .f32⟩ : BufTy).Contents (Elt F) → (⟨S8x256x1x1, .f32⟩ : BufTy).Contents (Elt F)),
    nullary main_cst_60 (constant S_ .f32 0x3F800000#32),
    unary main_cst_60 main_v168 (broadcastInDim S8x256x1x1 ![] bcast_S_S8x256x1x1 : (⟨S_, .f32⟩ : BufTy).Contents (Elt F) → (⟨S8x256x1x1, .f32⟩ : BufTy).Contents (Elt F)),
    binary main_v168 main_v167 main_v169 (addf : (⟨S8x256x1x1, .f32⟩ : BufTy).Contents (Elt F) → (⟨S8x256x1x1, .f32⟩ : BufTy).Contents (Elt F) → (⟨S8x256x1x1, .f32⟩ : BufTy).Contents (Elt F)),
    nullary main_cst_61 (constant S_ .f32 0x3F800000#32),
    unary main_cst_61 main_v170 (broadcastInDim S8x256x1x1 ![] bcast_S_S8x256x1x1 : (⟨S_, .f32⟩ : BufTy).Contents (Elt F) → (⟨S8x256x1x1, .f32⟩ : BufTy).Contents (Elt F)),
    binary main_v170 main_v169 main_v171 (Host.divf : (⟨S8x256x1x1, .f32⟩ : BufTy).Contents (Elt F) → (⟨S8x256x1x1, .f32⟩ : BufTy).Contents (Elt F) → (⟨S8x256x1x1, .f32⟩ : BufTy).Contents (Elt F)),
    nullary main_cst_62 (constant S_ .f32 0x00000000#32),
    binary main_arg0 main_cst_62 main_v172 ((fun x v => Host.reduceAdd x v reducesTo_S8x256x64x64_S8x64x64_d1 h_S_) : (⟨S8x256x64x64, .f32⟩ : BufTy).Contents (Elt F) → (⟨S_, .f32⟩ : BufTy).Contents (Elt F) → (⟨S8x64x64, .f32⟩ : BufTy).Contents (Elt F)),
    unary main_v172 main_v173 (broadcastInDim S8x1x64x64 ![0, 2, 3] bcast_S8x64x64_S8x1x64x64_0_2_3 : (⟨S8x64x64, .f32⟩ : BufTy).Contents (Elt F) → (⟨S8x1x64x64, .f32⟩ : BufTy).Contents (Elt F)),
    nullary main_cst_63 (constant S_ .f32 0x43800000#32),
    unary main_cst_63 main_v174 (broadcastInDim S8x1x64x64 ![] bcast_S_S8x1x64x64 : (⟨S_, .f32⟩ : BufTy).Contents (Elt F) → (⟨S8x1x64x64, .f32⟩ : BufTy).Contents (Elt F)) ]

set_option maxRecDepth 8192 in
/-- Every operation of the chunk touches TensorCore references only. -/
theorem ops5_sub : (ops5 : List (HloOp τ sig (Elt F))).Forall fun op => op.bufs ⊆ tcRefs τ sig :=
  ⟨binary_bufs_sub .., binary_bufs_sub .., binary_bufs_sub .., binary_bufs_sub .., binary_bufs_sub .., nullary_bufs_sub .., binary_bufs_sub .., nullary_bufs_sub .., binary_bufs_sub .., nullary_bufs_sub .., binary_bufs_sub .., unary_bufs_sub .., nullary_bufs_sub .., unary_bufs_sub .., binary_bufs_sub .., unary_bufs_sub .., unary_bufs_sub .., nullary_bufs_sub .., unary_bufs_sub .., binary_bufs_sub .., nullary_bufs_sub .., unary_bufs_sub .., binary_bufs_sub .., nullary_bufs_sub .., binary_bufs_sub .., unary_bufs_sub .., nullary_bufs_sub .., unary_bufs_sub .., binary_bufs_sub .., nullary_bufs_sub .., binary_bufs_sub .., unary_bufs_sub .., binary_bufs_sub .., unary_bufs_sub .., unary_bufs_sub .., nullary_bufs_sub .., unary_bufs_sub .., binary_bufs_sub .., nullary_bufs_sub .., unary_bufs_sub .., binary_bufs_sub .., nullary_bufs_sub .., binary_bufs_sub .., unary_bufs_sub .., nullary_bufs_sub .., unary_bufs_sub .., binary_bufs_sub .., unary_bufs_sub .., unary_bufs_sub .., nullary_bufs_sub .., unary_bufs_sub .., binary_bufs_sub .., nullary_bufs_sub .., unary_bufs_sub .., binary_bufs_sub .., nullary_bufs_sub .., binary_bufs_sub .., unary_bufs_sub .., nullary_bufs_sub .., unary_bufs_sub ..⟩

set_option maxRecDepth 8192 in
/-- Every operation of the chunk determines its results. -/
theorem ops5_fresh : ∀ op ∈ (ops5 : List (HloOp τ sig (Elt F))), op.fresh = ∅ := by
  intro _ h; (repeat (cases h with | head => rfl | tail _ h => ?_)); exact nomatch h

/-- Operations 255 … 314 of @main's 329, in order. -/
abbrev ops6 : List (HloOp τ sig (Elt F)) :=
  [ binary main_v173 main_v174 main_v175 (Host.divf : (⟨S8x1x64x64, .f32⟩ : BufTy).Contents (Elt F) → (⟨S8x1x64x64, .f32⟩ : BufTy).Contents (Elt F) → (⟨S8x1x64x64, .f32⟩ : BufTy).Contents (Elt F)),
    nullary main_cst_64 (constant S_ .f32 0xFF800000#32),
    binary main_arg0 main_cst_64 main_v176 ((fun x v => Host.reduce FloatOps.maximumf x v reducesTo_S8x256x64x64_S8x64x64_d1 h_S_) : (⟨S8x256x64x64, .f32⟩ : BufTy).Contents (Elt F) → (⟨S_, .f32⟩ : BufTy).Contents (Elt F) → (⟨S8x64x64, .f32⟩ : BufTy).Contents (Elt F)),
    unary main_v176 main_v177 (broadcastInDim S8x1x64x64 ![0, 2, 3] bcast_S8x64x64_S8x1x64x64_0_2_3 : (⟨S8x64x64, .f32⟩ : BufTy).Contents (Elt F) → (⟨S8x1x64x64, .f32⟩ : BufTy).Contents (Elt F)),
    binary main_v175 main_v177 main_v178 (addf : (⟨S8x1x64x64, .f32⟩ : BufTy).Contents (Elt F) → (⟨S8x1x64x64, .f32⟩ : BufTy).Contents (Elt F) → (⟨S8x1x64x64, .f32⟩ : BufTy).Contents (Elt F)),
    unary main_v178 main_v179 (Host.negf : (⟨S8x1x64x64, .f32⟩ : BufTy).Contents (Elt F) → (⟨S8x1x64x64, .f32⟩ : BufTy).Contents (Elt F)),
    unary main_v179 main_v180 (Host.exp : (⟨S8x1x64x64, .f32⟩ : BufTy).Contents (Elt F) → (⟨S8x1x64x64, .f32⟩ : BufTy).Contents (Elt F)),
    nullary main_cst_65 (constant S_ .f32 0x3F800000#32),
    unary main_cst_65 main_v181 (broadcastInDim S8x1x64x64 ![] bcast_S_S8x1x64x64 : (⟨S_, .f32⟩ : BufTy).Contents (Elt F) → (⟨S8x1x64x64, .f32⟩ : BufTy).Contents (Elt F)),
    binary main_v181 main_v180 main_v182 (addf : (⟨S8x1x64x64, .f32⟩ : BufTy).Contents (Elt F) → (⟨S8x1x64x64, .f32⟩ : BufTy).Contents (Elt F) → (⟨S8x1x64x64, .f32⟩ : BufTy).Contents (Elt F)),
    nullary main_cst_66 (constant S_ .f32 0x3F800000#32),
    unary main_cst_66 main_v183 (broadcastInDim S8x1x64x64 ![] bcast_S_S8x1x64x64 : (⟨S_, .f32⟩ : BufTy).Contents (Elt F) → (⟨S8x1x64x64, .f32⟩ : BufTy).Contents (Elt F)),
    binary main_v183 main_v182 main_v184 (Host.divf : (⟨S8x1x64x64, .f32⟩ : BufTy).Contents (Elt F) → (⟨S8x1x64x64, .f32⟩ : BufTy).Contents (Elt F) → (⟨S8x1x64x64, .f32⟩ : BufTy).Contents (Elt F)),
    nullary main_cst_67 (constant S_ .f32 0x00000000#32),
    binary main_v89 main_cst_67 main_v185 ((fun x v => Host.reduceAdd x v reducesTo_S8x1x64x64_S_d0_1_2_3 h_S_) : (⟨S8x1x64x64, .f32⟩ : BufTy).Contents (Elt F) → (⟨S_, .f32⟩ : BufTy).Contents (Elt F) → (⟨S_, .f32⟩ : BufTy).Contents (Elt F)),
    nullary main_cst_68 (constant S_ .f32 0x47000000#32),
    binary main_v185 main_cst_68 main_v186 (Host.divf : (⟨S_, .f32⟩ : BufTy).Contents (Elt F) → (⟨S_, .f32⟩ : BufTy).Contents (Elt F) → (⟨S_, .f32⟩ : BufTy).Contents (Elt F)),
    nullary main_cst_69 (constant S_ .f32 0x41200000#32),
    binary main_v186 main_cst_69 main_v187 (mulf : (⟨S_, .f32⟩ : BufTy).Contents (Elt F) → (⟨S_, .f32⟩ : BufTy).Contents (Elt F) → (⟨S_, .f32⟩ : BufTy).Contents (Elt F)),
    unary main_v187 main_v188 (Host.negf : (⟨S_, .f32⟩ : BufTy).Contents (Elt F) → (⟨S_, .f32⟩ : BufTy).Contents (Elt F)),
    unary main_v188 main_v189 (Host.exp : (⟨S_, .f32⟩ : BufTy).Contents (Elt F) → (⟨S_, .f32⟩ : BufTy).Contents (Elt F)),
    nullary main_cst_70 (constant S_ .f32 0x3F800000#32),
    binary main_cst_70 main_v189 main_v190 (addf : (⟨S_, .f32⟩ : BufTy).Contents (Elt F) → (⟨S_, .f32⟩ : BufTy).Contents (Elt F) → (⟨S_, .f32⟩ : BufTy).Contents (Elt F)),
    nullary main_cst_71 (constant S_ .f32 0x3F800000#32),
    binary main_cst_71 main_v190 main_v191 (Host.divf : (⟨S_, .f32⟩ : BufTy).Contents (Elt F) → (⟨S_, .f32⟩ : BufTy).Contents (Elt F) → (⟨S_, .f32⟩ : BufTy).Contents (Elt F)),
    unary main_v191 main_v192 (broadcastInDim S8x1x64x64 ![] bcast_S_S8x1x64x64 : (⟨S_, .f32⟩ : BufTy).Contents (Elt F) → (⟨S8x1x64x64, .f32⟩ : BufTy).Contents (Elt F)),
    binary main_v192 main_v125 main_v193 (mulf : (⟨S8x1x64x64, .f32⟩ : BufTy).Contents (Elt F) → (⟨S8x1x64x64, .f32⟩ : BufTy).Contents (Elt F) → (⟨S8x1x64x64, .f32⟩ : BufTy).Contents (Elt F)),
    nullary main_cst_72 (constant S_ .f32 0x3F800000#32),
    unary main_cst_72 main_v194 (broadcastInDim S8x1x64x64 ![] bcast_S_S8x1x64x64 : (⟨S_, .f32⟩ : BufTy).Contents (Elt F) → (⟨S8x1x64x64, .f32⟩ : BufTy).Contents (Elt F)),
    binary main_v194 main_v193 main_v195 (addf : (⟨S8x1x64x64, .f32⟩ : BufTy).Contents (Elt F) → (⟨S8x1x64x64, .f32⟩ : BufTy).Contents (Elt F) → (⟨S8x1x64x64, .f32⟩ : BufTy).Contents (Elt F)),
    binary main_v184 main_v195 main_v196 (mulf : (⟨S8x1x64x64, .f32⟩ : BufTy).Contents (Elt F) → (⟨S8x1x64x64, .f32⟩ : BufTy).Contents (Elt F) → (⟨S8x1x64x64, .f32⟩ : BufTy).Contents (Elt F)),
    binary main_v161 main_v195 main_v197 (mulf : (⟨S8x1x64x64, .f32⟩ : BufTy).Contents (Elt F) → (⟨S8x1x64x64, .f32⟩ : BufTy).Contents (Elt F) → (⟨S8x1x64x64, .f32⟩ : BufTy).Contents (Elt F)),
    binary main_v196 main_v197 main_v198 (subf : (⟨S8x1x64x64, .f32⟩ : BufTy).Contents (Elt F) → (⟨S8x1x64x64, .f32⟩ : BufTy).Contents (Elt F) → (⟨S8x1x64x64, .f32⟩ : BufTy).Contents (Elt F)),
    binary main_v198 main_v198 main_v199 (mulf : (⟨S8x1x64x64, .f32⟩ : BufTy).Contents (Elt F) → (⟨S8x1x64x64, .f32⟩ : BufTy).Contents (Elt F) → (⟨S8x1x64x64, .f32⟩ : BufTy).Contents (Elt F)),
    nullary main_cst_73 (constant S_ .f32 0x00000000#32),
    binary main_v199 main_cst_73 main_v200 ((fun x v => Host.reduceAdd x v reducesTo_S8x1x64x64_S_d0_1_2_3 h_S_) : (⟨S8x1x64x64, .f32⟩ : BufTy).Contents (Elt F) → (⟨S_, .f32⟩ : BufTy).Contents (Elt F) → (⟨S_, .f32⟩ : BufTy).Contents (Elt F)),
    nullary main_cst_74 (constant S_ .f32 0x47000000#32),
    binary main_v200 main_cst_74 main_v201 (Host.divf : (⟨S_, .f32⟩ : BufTy).Contents (Elt F) → (⟨S_, .f32⟩ : BufTy).Contents (Elt F) → (⟨S_, .f32⟩ : BufTy).Contents (Elt F)),
    binary main_v171 main_v148 main_v202 (subf : (⟨S8x256x1x1, .f32⟩ : BufTy).Contents (Elt F) → (⟨S8x256x1x1, .f32⟩ : BufTy).Contents (Elt F) → (⟨S8x256x1x1, .f32⟩ : BufTy).Contents (Elt F)),
    binary main_v202 main_v202 main_v203 (mulf : (⟨S8x256x1x1, .f32⟩ : BufTy).Contents (Elt F) → (⟨S8x256x1x1, .f32⟩ : BufTy).Contents (Elt F) → (⟨S8x256x1x1, .f32⟩ : BufTy).Contents (Elt F)),
    nullary main_cst_75 (constant S_ .f32 0x00000000#32),
    binary main_v203 main_cst_75 main_v204 ((fun x v => Host.reduceAdd x v reducesTo_S8x256x1x1_S_d0_1_2_3 h_S_) : (⟨S8x256x1x1, .f32⟩ : BufTy).Contents (Elt F) → (⟨S_, .f32⟩ : BufTy).Contents (Elt F) → (⟨S_, .f32⟩ : BufTy).Contents (Elt F)),
    nullary main_cst_76 (constant S_ .f32 0x45000000#32),
    binary main_v204 main_cst_76 main_v205 (Host.divf : (⟨S_, .f32⟩ : BufTy).Contents (Elt F) → (⟨S_, .f32⟩ : BufTy).Contents (Elt F) → (⟨S_, .f32⟩ : BufTy).Contents (Elt F)),
    nullary main_cst_77 (constant S_ .f32 0x3F000000#32),
    binary main_cst_77 main_v191 main_v206 (mulf : (⟨S_, .f32⟩ : BufTy).Contents (Elt F) → (⟨S_, .f32⟩ : BufTy).Contents (Elt F) → (⟨S_, .f32⟩ : BufTy).Contents (Elt F)),
    nullary main_cst_78 (constant S_ .f32 0x3F800000#32),
    binary main_cst_78 main_v206 main_v207 (addf : (⟨S_, .f32⟩ : BufTy).Contents (Elt F) → (⟨S_, .f32⟩ : BufTy).Contents (Elt F) → (⟨S_, .f32⟩ : BufTy).Contents (Elt F)),
    nullary main_cst_79 (constant S_ .f32 0x3F000000#32),
    binary main_cst_79 main_v207 main_v208 (mulf : (⟨S_, .f32⟩ : BufTy).Contents (Elt F) → (⟨S_, .f32⟩ : BufTy).Contents (Elt F) → (⟨S_, .f32⟩ : BufTy).Contents (Elt F)),
    nullary main_cst_80 (constant S_ .f32 0x3E99999A#32),
    binary main_cst_80 main_v191 main_v209 (mulf : (⟨S_, .f32⟩ : BufTy).Contents (Elt F) → (⟨S_, .f32⟩ : BufTy).Contents (Elt F) → (⟨S_, .f32⟩ : BufTy).Contents (Elt F)),
    nullary main_cst_81 (constant S_ .f32 0x3F800000#32),
    binary main_cst_81 main_v209 main_v210 (subf : (⟨S_, .f32⟩ : BufTy).Contents (Elt F) → (⟨S_, .f32⟩ : BufTy).Contents (Elt F) → (⟨S_, .f32⟩ : BufTy).Contents (Elt F)),
    nullary main_cst_82 (constant S_ .f32 0x3E99999A#32),
    binary main_cst_82 main_v210 main_v211 (mulf : (⟨S_, .f32⟩ : BufTy).Contents (Elt F) → (⟨S_, .f32⟩ : BufTy).Contents (Elt F) → (⟨S_, .f32⟩ : BufTy).Contents (Elt F)),
    nullary main_cst_83 (constant S_ .f32 0x3F000000#32),
    binary main_cst_83 main_v191 main_v212 (mulf : (⟨S_, .f32⟩ : BufTy).Contents (Elt F) → (⟨S_, .f32⟩ : BufTy).Contents (Elt F) → (⟨S_, .f32⟩ : BufTy).Contents (Elt F)),
    nullary main_cst_84 (constant S_ .f32 0x3F800000#32),
    binary main_cst_84 main_v212 main_v213 (addf : (⟨S_, .f32⟩ : BufTy).Contents (Elt F) → (⟨S_, .f32⟩ : BufTy).Contents (Elt F) → (⟨S_, .f32⟩ : BufTy).Contents (Elt F)) ]

set_option maxRecDepth 8192 in
/-- Every operation of the chunk touches TensorCore references only. -/
theorem ops6_sub : (ops6 : List (HloOp τ sig (Elt F))).Forall fun op => op.bufs ⊆ tcRefs τ sig :=
  ⟨binary_bufs_sub .., nullary_bufs_sub .., binary_bufs_sub .., unary_bufs_sub .., binary_bufs_sub .., unary_bufs_sub .., unary_bufs_sub .., nullary_bufs_sub .., unary_bufs_sub .., binary_bufs_sub .., nullary_bufs_sub .., unary_bufs_sub .., binary_bufs_sub .., nullary_bufs_sub .., binary_bufs_sub .., nullary_bufs_sub .., binary_bufs_sub .., nullary_bufs_sub .., binary_bufs_sub .., unary_bufs_sub .., unary_bufs_sub .., nullary_bufs_sub .., binary_bufs_sub .., nullary_bufs_sub .., binary_bufs_sub .., unary_bufs_sub .., binary_bufs_sub .., nullary_bufs_sub .., unary_bufs_sub .., binary_bufs_sub .., binary_bufs_sub .., binary_bufs_sub .., binary_bufs_sub .., binary_bufs_sub .., nullary_bufs_sub .., binary_bufs_sub .., nullary_bufs_sub .., binary_bufs_sub .., binary_bufs_sub .., binary_bufs_sub .., nullary_bufs_sub .., binary_bufs_sub .., nullary_bufs_sub .., binary_bufs_sub .., nullary_bufs_sub .., binary_bufs_sub .., nullary_bufs_sub .., binary_bufs_sub .., nullary_bufs_sub .., binary_bufs_sub .., nullary_bufs_sub .., binary_bufs_sub .., nullary_bufs_sub .., binary_bufs_sub .., nullary_bufs_sub .., binary_bufs_sub .., nullary_bufs_sub .., binary_bufs_sub .., nullary_bufs_sub .., binary_bufs_sub ..⟩

set_option maxRecDepth 8192 in
/-- Every operation of the chunk determines its results. -/
theorem ops6_fresh : ∀ op ∈ (ops6 : List (HloOp τ sig (Elt F))), op.fresh = ∅ := by
  intro _ h; (repeat (cases h with | head => rfl | tail _ h => ?_)); exact nomatch h

/-- Operations 315 … 329 of @main's 329, in order. -/
abbrev ops7 : List (HloOp τ sig (Elt F)) :=
  [ nullary main_cst_85 (constant S_ .f32 0x3E4CCCCD#32),
    binary main_cst_85 main_v213 main_v214 (mulf : (⟨S_, .f32⟩ : BufTy).Contents (Elt F) → (⟨S_, .f32⟩ : BufTy).Contents (Elt F) → (⟨S_, .f32⟩ : BufTy).Contents (Elt F)),
    binary main_v208 main_v138 main_v215 (mulf : (⟨S_, .f32⟩ : BufTy).Contents (Elt F) → (⟨S_, .f32⟩ : BufTy).Contents (Elt F) → (⟨S_, .f32⟩ : BufTy).Contents (Elt F)),
    binary main_v211 main_v205 main_v216 (mulf : (⟨S_, .f32⟩ : BufTy).Contents (Elt F) → (⟨S_, .f32⟩ : BufTy).Contents (Elt F) → (⟨S_, .f32⟩ : BufTy).Contents (Elt F)),
    binary main_v215 main_v216 main_v217 (addf : (⟨S_, .f32⟩ : BufTy).Contents (Elt F) → (⟨S_, .f32⟩ : BufTy).Contents (Elt F) → (⟨S_, .f32⟩ : BufTy).Contents (Elt F)),
    binary main_v214 main_v201 main_v218 (mulf : (⟨S_, .f32⟩ : BufTy).Contents (Elt F) → (⟨S_, .f32⟩ : BufTy).Contents (Elt F) → (⟨S_, .f32⟩ : BufTy).Contents (Elt F)),
    binary main_v217 main_v218 main_v219 (addf : (⟨S_, .f32⟩ : BufTy).Contents (Elt F) → (⟨S_, .f32⟩ : BufTy).Contents (Elt F) → (⟨S_, .f32⟩ : BufTy).Contents (Elt F)),
    nullary main_cst_86 (constant S_ .f32 0x3E99999A#32),
    binary main_cst_86 main_v28 main_v220 (mulf : (⟨S_, .f32⟩ : BufTy).Contents (Elt F) → (⟨S_, .f32⟩ : BufTy).Contents (Elt F) → (⟨S_, .f32⟩ : BufTy).Contents (Elt F)),
    nullary main_cst_87 (constant S_ .f32 0x3ECCCCCD#32),
    binary main_cst_87 main_v59 main_v221 (mulf : (⟨S_, .f32⟩ : BufTy).Contents (Elt F) → (⟨S_, .f32⟩ : BufTy).Contents (Elt F) → (⟨S_, .f32⟩ : BufTy).Contents (Elt F)),
    binary main_v220 main_v221 main_v222 (addf : (⟨S_, .f32⟩ : BufTy).Contents (Elt F) → (⟨S_, .f32⟩ : BufTy).Contents (Elt F) → (⟨S_, .f32⟩ : BufTy).Contents (Elt F)),
    nullary main_cst_88 (constant S_ .f32 0x3E99999A#32),
    binary main_cst_88 main_v219 main_v223 (mulf : (⟨S_, .f32⟩ : BufTy).Contents (Elt F) → (⟨S_, .f32⟩ : BufTy).Contents (Elt F) → (⟨S_, .f32⟩ : BufTy).Contents (Elt F)),
    binary main_v222 main_v223 main_v224 (addf : (⟨S_, .f32⟩ : BufTy).Contents (Elt F) → (⟨S_, .f32⟩ : BufTy).Contents (Elt F) → (⟨S_, .f32⟩ : BufTy).Contents (Elt F)) ]

set_option maxRecDepth 8192 in
/-- Every operation of the chunk touches TensorCore references only. -/
theorem ops7_sub : (ops7 : List (HloOp τ sig (Elt F))).Forall fun op => op.bufs ⊆ tcRefs τ sig :=
  ⟨nullary_bufs_sub .., binary_bufs_sub .., binary_bufs_sub .., binary_bufs_sub .., binary_bufs_sub .., binary_bufs_sub .., binary_bufs_sub .., nullary_bufs_sub .., binary_bufs_sub .., nullary_bufs_sub .., binary_bufs_sub .., binary_bufs_sub .., nullary_bufs_sub .., binary_bufs_sub .., binary_bufs_sub ..⟩

set_option maxRecDepth 8192 in
/-- Every operation of the chunk determines its results. -/
theorem ops7_fresh : ∀ op ∈ (ops7 : List (HloOp τ sig (Elt F))), op.fresh = ∅ := by
  intro _ h; (repeat (cases h with | head => rfl | tail _ h => ?_)); exact nomatch h

set_option maxRecDepth 8192 in
set_option maxHeartbeats 4000000 in
/-- Window 0 of @main is the line of its chunks. -/
theorem main_part0_eq (c : Dev nD) : main_part0 (F := F) c = seq (ops0 ++ ops1 ++ ops2) := rfl

set_option maxRecDepth 8192 in
set_option maxHeartbeats 4000000 in
/-- Window 1 of @main is the line of its chunks. -/
theorem main_part1_eq (c : Dev nD) : main_part1 (F := F) c = seq (ops3) := rfl

set_option maxRecDepth 8192 in
set_option maxHeartbeats 4000000 in
/-- Window 2 of @main is the line of its chunks. -/
theorem main_part2_eq (c : Dev nD) : main_part2 (F := F) c = seq (ops4) := rfl

set_option maxRecDepth 8192 in
set_option maxHeartbeats 4000000 in
/-- Window 3 of @main is the line of its chunks. -/
theorem main_part3_eq (c : Dev nD) : main_part3 (F := F) c = seq (ops5) := rfl

set_option maxRecDepth 8192 in
set_option maxHeartbeats 4000000 in
/-- Window 4 of @main is the line of its chunks. -/
theorem main_part4_eq (c : Dev nD) : main_part4 (F := F) c = seq (ops6) := rfl

set_option maxRecDepth 8192 in
set_option maxHeartbeats 4000000 in
/-- Window 5 of @main is the line of its chunks. -/
theorem main_part5_eq (c : Dev nD) : main_part5 (F := F) c = seq (ops7) := rfl

end Cert.ReferenceIdeal.Hand

end
-- ==== Proof.RefRunHandVals.lean ====
import proofs.«129784_j68891275428342_2_alg».proof.Proof.RefRunHandOps

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- After chunk 7, the buffer main_v224 over the contents at the chunk's entry. -/
theorem ops7_main_v224 (V : Valuation τ sig (Elt F)) :
    after (ops7 (F := F)) V (Proc.devRef .tc main_v224) = addf (addf (mulf (constant S_ .f32 0x3E99999A#32) (V (Proc.devRef .tc main_v28))) (mulf (constant S_ .f32 0x3ECCCCCD#32) (V (Proc.devRef .tc main_v59)))) (mulf (constant S_ .f32 0x3E99999A#32) (addf (addf (mulf (V (Proc.devRef .tc main_v208)) (V (Proc.devRef .tc main_v138))) (mulf (V (Proc.devRef .tc main_v211)) (V (Proc.devRef .tc main_v205)))) (mulf (mulf (constant S_ .f32 0x3E4CCCCD#32) (V (Proc.devRef .tc main_v213))) (V (Proc.devRef .tc main_v201))))) := by
  after_results_simp <;> rfl

set_option maxRecDepth 8192 in
set_option maxHeartbeats 4000000 in
/-- Chunk 6 leaves the buffer main_v138 as it was. -/
theorem ops6_keep_main_v138 (V : Valuation τ sig (Elt F)) :
    after (ops6 (F := F)) V (Proc.devRef .tc main_v138) = V (Proc.devRef .tc main_v138) := by
  after_results_simp

set_option maxRecDepth 8192 in
set_option maxHeartbeats 4000000 in
/-- After chunk 6, the buffer main_v201 over the contents at the chunk's entry. -/
theorem ops6_main_v201 (V : Valuation τ sig (Elt F)) :
    after (ops6 (F := F)) V (Proc.devRef .tc main_v201) = Host.divf (Host.reduceAdd (mulf (subf (mulf (Host.divf (broadcastInDim S8x1x64x64 ![] bcast_S_S8x1x64x64 (constant S_ .f32 0x3F800000#32)) (addf (broadcastInDim S8x1x64x64 ![] bcast_S_S8x1x64x64 (constant S_ .f32 0x3F800000#32)) (Host.exp (Host.negf (addf (Host.divf (V (Proc.devRef .tc main_v173)) (V (Proc.devRef .tc main_v174))) (broadcastInDim S8x1x64x64 ![0, 2, 3] bcast_S8x64x64_S8x1x64x64_0_2_3 (Host.reduce FloatOps.maximumf (V (Proc.devRef .tc main_arg0)) (constant S_ .f32 0xFF800000#32) reducesTo_S8x256x64x64_S8x64x64_d1 h_S_))))))) (addf (broadcastInDim S8x1x64x64 ![] bcast_S_S8x1x64x64 (constant S_ .f32 0x3F800000#32)) (mulf (broadcastInDim S8x1x64x64 ![] bcast_S_S8x1x64x64 (Host.divf (constant S_ .f32 0x3F800000#32) (addf (constant S_ .f32 0x3F800000#32) (Host.exp (Host.negf (mulf (Host.divf (Host.reduceAdd (V (Proc.devRef .tc main_v89)) (constant S_ .f32 0x00000000#32) reducesTo_S8x1x64x64_S_d0_1_2_3 h_S_) (constant S_ .f32 0x47000000#32)) (constant S_ .f32 0x41200000#32))))))) (V (Proc.devRef .tc main_v125))))) (mulf (V (Proc.devRef .tc main_v161)) (addf (broadcastInDim S8x1x64x64 ![] bcast_S_S8x1x64x64 (constant S_ .f32 0x3F800000#32)) (mulf (broadcastInDim S8x1x64x64 ![] bcast_S_S8x1x64x64 (Host.divf (constant S_ .f32 0x3F800000#32) (addf (constant S_ .f32 0x3F800000#32) (Host.exp (Host.negf (mulf (Host.divf (Host.reduceAdd (V (Proc.devRef .tc main_v89)) (constant S_ .f32 0x00000000#32) reducesTo_S8x1x64x64_S_d0_1_2_3 h_S_) (constant S_ .f32 0x47000000#32)) (constant S_ .f32 0x41200000#32))))))) (V (Proc.devRef .tc main_v125)))))) (subf (mulf (Host.divf (broadcastInDim S8x1x64x64 ![] bcast_S_S8x1x64x64 (constant S_ .f32 0x3F800000#32)) (addf (broadcastInDim S8x1x64x64 ![] bcast_S_S8x1x64x64 (constant S_ .f32 0x3F800000#32)) (Host.exp (Host.negf (addf (Host.divf (V (Proc.devRef .tc main_v173)) (V (Proc.devRef .tc main_v174))) (broadcastInDim S8x1x64x64 ![0, 2, 3] bcast_S8x64x64_S8x1x64x64_0_2_3 (Host.reduce FloatOps.maximumf (V (Proc.devRef .tc main_arg0)) (constant S_ .f32 0xFF800000#32) reducesTo_S8x256x64x64_S8x64x64_d1 h_S_))))))) (addf (broadcastInDim S8x1x64x64 ![] bcast_S_S8x1x64x64 (constant S_ .f32 0x3F800000#32)) (mulf (broadcastInDim S8x1x64x64 ![] bcast_S_S8x1x64x64 (Host.divf (constant S_ .f32 0x3F800000#32) (addf (constant S_ .f32 0x3F800000#32) (Host.exp (Host.negf (mulf (Host.divf (Host.reduceAdd (V (Proc.devRef .tc main_v89)) (constant S_ .f32 0x00000000#32) reducesTo_S8x1x64x64_S_d0_1_2_3 h_S_) (constant S_ .f32 0x47000000#32)) (constant S_ .f32 0x41200000#32))))))) (V (Proc.devRef .tc main_v125))))) (mulf (V (Proc.devRef .tc main_v161)) (addf (broadcastInDim S8x1x64x64 ![] bcast_S_S8x1x64x64 (constant S_ .f32 0x3F800000#32)) (mulf (broadcastInDim S8x1x64x64 ![] bcast_S_S8x1x64x64 (Host.divf (constant S_ .f32 0x3F800000#32) (addf (constant S_ .f32 0x3F800000#32) (Host.exp (Host.negf (mulf (Host.divf (Host.reduceAdd (V (Proc.devRef .tc main_v89)) (constant S_ .f32 0x00000000#32) reducesTo_S8x1x64x64_S_d0_1_2_3 h_S_) (constant S_ .f32 0x47000000#32)) (constant S_ .f32 0x41200000#32))))))) (V (Proc.devRef .tc main_v125))))))) (constant S_ .f32 0x00000000#32) reducesTo_S8x1x64x64_S_d0_1_2_3 h_S_) (constant S_ .f32 0x47000000#32) := by
  after_results_simp <;> rfl

set_option maxRecDepth 8192 in
set_option maxHeartbeats 4000000 in
/-- After chunk 6, the buffer main_v205 over the contents at the chunk's entry. -/
theorem ops6_main_v205 (V : Valuation τ sig (Elt F)) :
    after (ops6 (F := F)) V (Proc.devRef .tc main_v205) = Host.divf (Host.reduceAdd (mulf (subf (V (Proc.devRef .tc main_v171)) (V (Proc.devRef .tc main_v148))) (subf (V (Proc.devRef .tc main_v171)) (V (Proc.devRef .tc main_v148)))) (constant S_ .f32 0x00000000#32) reducesTo_S8x256x1x1_S_d0_1_2_3 h_S_) (constant S_ .f32 0x45000000#32) := by
  after_results_simp <;> rfl

set_option maxRecDepth 8192 in
set_option maxHeartbeats 4000000 in
/-- After chunk 6, the buffer main_v208 over the contents at the chunk's entry. -/
theorem ops6_main_v208 (V : Valuation τ sig (Elt F)) :
    after (ops6 (F := F)) V (Proc.devRef .tc main_v208) = mulf (constant S_ .f32 0x3F000000#32) (addf (constant S_ .f32 0x3F800000#32) (mulf (constant S_ .f32 0x3F000000#32) (Host.divf (constant S_ .f32 0x3F800000#32) (addf (constant S_ .f32 0x3F800000#32) (Host.exp (Host.negf (mulf (Host.divf (Host.reduceAdd (V (Proc.devRef .tc main_v89)) (constant S_ .f32 0x00000000#32) reducesTo_S8x1x64x64_S_d0_1_2_3 h_S_) (constant S_ .f32 0x47000000#32)) (constant S_ .f32 0x41200000#32)))))))) := by
  after_results_simp <;> rfl

set_option maxRecDepth 8192 in
set_option maxHeartbeats 4000000 in
/-- After chunk 6, the buffer main_v211 over the contents at the chunk's entry. -/
theorem ops6_main_v211 (V : Valuation τ sig (Elt F)) :
    after (ops6 (F := F)) V (Proc.devRef .tc main_v211) = mulf (constant S_ .f32 0x3E99999A#32) (subf (constant S_ .f32 0x3F800000#32) (mulf (constant S_ .f32 0x3E99999A#32) (Host.divf (constant S_ .f32 0x3F800000#32) (addf (constant S_ .f32 0x3F800000#32) (Host.exp (Host.negf (mulf (Host.divf (Host.reduceAdd (V (Proc.devRef .tc main_v89)) (constant S_ .f32 0x00000000#32) reducesTo_S8x1x64x64_S_d0_1_2_3 h_S_) (constant S_ .f32 0x47000000#32)) (constant S_ .f32 0x41200000#32)))))))) := by
  after_results_simp <;> rfl

set_option maxRecDepth 8192 in
set_option maxHeartbeats 4000000 in
/-- After chunk 6, the buffer main_v213 over the contents at the chunk's entry. -/
theorem ops6_main_v213 (V : Valuation τ sig (Elt F)) :
    after (ops6 (F := F)) V (Proc.devRef .tc main_v213) = addf (constant S_ .f32 0x3F800000#32) (mulf (constant S_ .f32 0x3F000000#32) (Host.divf (constant S_ .f32 0x3F800000#32) (addf (constant S_ .f32 0x3F800000#32) (Host.exp (Host.negf (mulf (Host.divf (Host.reduceAdd (V (Proc.devRef .tc main_v89)) (constant S_ .f32 0x00000000#32) reducesTo_S8x1x64x64_S_d0_1_2_3 h_S_) (constant S_ .f32 0x47000000#32)) (constant S_ .f32 0x41200000#32))))))) := by
  after_results_simp <;> rfl

set_option maxRecDepth 8192 in
set_option maxHeartbeats 4000000 in
/-- Chunk 6 leaves the buffer main_v28 as it was. -/
theorem ops6_keep_main_v28 (V : Valuation τ sig (Elt F)) :
    after (ops6 (F := F)) V (Proc.devRef .tc main_v28) = V (Proc.devRef .tc main_v28) := by
  after_results_simp

set_option maxRecDepth 8192 in
set_option maxHeartbeats 4000000 in
/-- Chunk 6 leaves the buffer main_v59 as it was. -/
theorem ops6_keep_main_v59 (V : Valuation τ sig (Elt F)) :
    after (ops6 (F := F)) V (Proc.devRef .tc main_v59) = V (Proc.devRef .tc main_v59) := by
  after_results_simp

set_option maxRecDepth 8192 in
set_option maxHeartbeats 4000000 in
/-- Chunk 5 leaves the buffer main_arg0 as it was. -/
theorem ops5_keep_main_arg0 (V : Valuation τ sig (Elt F)) :
    after (ops5 (F := F)) V (Proc.devRef .tc main_arg0) = V (Proc.devRef .tc main_arg0) := by
  after_results_simp

set_option maxRecDepth 8192 in
set_option maxHeartbeats 4000000 in
/-- Chunk 5 leaves the buffer main_v125 as it was. -/
theorem ops5_keep_main_v125 (V : Valuation τ sig (Elt F)) :
    after (ops5 (F := F)) V (Proc.devRef .tc main_v125) = V (Proc.devRef .tc main_v125) := by
  after_results_simp

set_option maxRecDepth 8192 in
set_option maxHeartbeats 4000000 in
/-- After chunk 5, the buffer main_v138 over the contents at the chunk's entry. -/
theorem ops5_main_v138 (V : Valuation τ sig (Elt F)) :
    after (ops5 (F := F)) V (Proc.devRef .tc main_v138) = Host.divf (Host.reduceAdd (mulf (subf (mulf (V (Proc.devRef .tc main_v119)) (addf (V (Proc.devRef .tc main_v127)) (V (Proc.devRef .tc main_v131)))) (mulf (V (Proc.devRef .tc main_v89)) (addf (V (Proc.devRef .tc main_v127)) (V (Proc.devRef .tc main_v131))))) (subf (mulf (V (Proc.devRef .tc main_v119)) (addf (V (Proc.devRef .tc main_v127)) (V (Proc.devRef .tc main_v131)))) (mulf (V (Proc.devRef .tc main_v89)) (addf (V (Proc.devRef .tc main_v127)) (V (Proc.devRef .tc main_v131)))))) (constant S_ .f32 0x00000000#32) reducesTo_S8x1x64x64_S_d0_1_2_3 h_S_) (constant S_ .f32 0x47000000#32) := by
  after_results_simp <;> rfl

set_option maxRecDepth 8192 in
set_option maxHeartbeats 4000000 in
/-- After chunk 5, the buffer main_v148 over the contents at the chunk's entry. -/
theorem ops5_main_v148 (V : Valuation τ sig (Elt F)) :
    after (ops5 (F := F)) V (Proc.devRef .tc main_v148) = Host.divf (broadcastInDim S8x256x1x1 ![] bcast_S_S8x256x1x1 (constant S_ .f32 0x3F800000#32)) (addf (broadcastInDim S8x256x1x1 ![] bcast_S_S8x256x1x1 (constant S_ .f32 0x3F800000#32)) (Host.exp (Host.negf (Host.divf (broadcastInDim S8x256x1x1 ![0, 1] bcast_S8x256_S8x256x1x1_0_1 (Host.reduceAdd (V (Proc.devRef .tc main_arg1)) (constant S_ .f32 0x00000000#32) reducesTo_S8x256x64x64_S8x256_d2_3 h_S_)) (broadcastInDim S8x256x1x1 ![] bcast_S_S8x256x1x1 (constant S_ .f32 0x45800000#32)))))) := by
  after_results_simp <;> rfl

set_option maxRecDepth 8192 in
set_option maxHeartbeats 4000000 in
/-- After chunk 5, the buffer main_v161 over the contents at the chunk's entry. -/
theorem ops5_main_v161 (V : Valuation τ sig (Elt F)) :
    after (ops5 (F := F)) V (Proc.devRef .tc main_v161) = Host.divf (broadcastInDim S8x1x64x64 ![] bcast_S_S8x1x64x64 (constant S_ .f32 0x3F800000#32)) (addf (broadcastInDim S8x1x64x64 ![] bcast_S_S8x1x64x64 (constant S_ .f32 0x3F800000#32)) (Host.exp (Host.negf (addf (Host.divf (broadcastInDim S8x1x64x64 ![0, 2, 3] bcast_S8x64x64_S8x1x64x64_0_2_3 (Host.reduceAdd (V (Proc.devRef .tc main_arg1)) (constant S_ .f32 0x00000000#32) reducesTo_S8x256x64x64_S8x64x64_d1 h_S_)) (broadcastInDim S8x1x64x64 ![] bcast_S_S8x1x64x64 (constant S_ .f32 0x43800000#32))) (broadcastInDim S8x1x64x64 ![0, 2, 3] bcast_S8x64x64_S8x1x64x64_0_2_3 (Host.reduce FloatOps.maximumf (V (Proc.devRef .tc main_arg1)) (constant S_ .f32 0xFF800000#32) reducesTo_S8x256x64x64_S8x64x64_d1 h_S_)))))) := by
  after_results_simp <;> rfl

set_option maxRecDepth 8192 in
set_option maxHeartbeats 4000000 in
/-- After chunk 5, the buffer main_v171 over the contents at the chunk's entry. -/
theorem ops5_main_v171 (V : Valuation τ sig (Elt F)) :
    after (ops5 (F := F)) V (Proc.devRef .tc main_v171) = Host.divf (broadcastInDim S8x256x1x1 ![] bcast_S_S8x256x1x1 (constant S_ .f32 0x3F800000#32)) (addf (broadcastInDim S8x256x1x1 ![] bcast_S_S8x256x1x1 (constant S_ .f32 0x3F800000#32)) (Host.exp (Host.negf (Host.divf (broadcastInDim S8x256x1x1 ![0, 1] bcast_S8x256_S8x256x1x1_0_1 (Host.reduceAdd (V (Proc.devRef .tc main_arg0)) (constant S_ .f32 0x00000000#32) reducesTo_S8x256x64x64_S8x256_d2_3 h_S_)) (broadcastInDim S8x256x1x1 ![] bcast_S_S8x256x1x1 (constant S_ .f32 0x45800000#32)))))) := by
  after_results_simp <;> rfl

set_option maxRecDepth 8192 in
set_option maxHeartbeats 4000000 in
/-- After chunk 5, the buffer main_v173 over the contents at the chunk's entry. -/
theorem ops5_main_v173 (V : Valuation τ sig (Elt F)) :
    after (ops5 (F := F)) V (Proc.devRef .tc main_v173) = broadcastInDim S8x1x64x64 ![0, 2, 3] bcast_S8x64x64_S8x1x64x64_0_2_3 (Host.reduceAdd (V (Proc.devRef .tc main_arg0)) (constant S_ .f32 0x00000000#32) reducesTo_S8x256x64x64_S8x64x64_d1 h_S_) := by
  after_results_simp <;> rfl

set_option maxRecDepth 8192 in
set_option maxHeartbeats 4000000 in
/-- After chunk 5, the buffer main_v174 over the contents at the chunk's entry. -/
theorem ops5_main_v174 (V : Valuation τ sig (Elt F)) :
    after (ops5 (F := F)) V (Proc.devRef .tc main_v174) = broadcastInDim S8x1x64x64 ![] bcast_S_S8x1x64x64 (constant S_ .f32 0x43800000#32) := by
  after_results_simp <;> rfl

set_option maxRecDepth 8192 in
set_option maxHeartbeats 4000000 in
/-- Chunk 5 leaves the buffer main_v28 as it was. -/
theorem ops5_keep_main_v28 (V : Valuation τ sig (Elt F)) :
    after (ops5 (F := F)) V (Proc.devRef .tc main_v28) = V (Proc.devRef .tc main_v28) := by
  after_results_simp

set_option maxRecDepth 8192 in
set_option maxHeartbeats 4000000 in
/-- Chunk 5 leaves the buffer main_v59 as it was. -/
theorem ops5_keep_main_v59 (V : Valuation τ sig (Elt F)) :
    after (ops5 (F := F)) V (Proc.devRef .tc main_v59) = V (Proc.devRef .tc main_v59) := by
  after_results_simp

set_option maxRecDepth 8192 in
set_option maxHeartbeats 4000000 in
/-- Chunk 5 leaves the buffer main_v89 as it was. -/
theorem ops5_keep_main_v89 (V : Valuation τ sig (Elt F)) :
    after (ops5 (F := F)) V (Proc.devRef .tc main_v89) = V (Proc.devRef .tc main_v89) := by
  after_results_simp

set_option maxRecDepth 8192 in
set_option maxHeartbeats 4000000 in
/-- Chunk 4 leaves the buffer main_arg0 as it was. -/
theorem ops4_keep_main_arg0 (V : Valuation τ sig (Elt F)) :
    after (ops4 (F := F)) V (Proc.devRef .tc main_arg0) = V (Proc.devRef .tc main_arg0) := by
  after_results_simp

set_option maxRecDepth 8192 in
set_option maxHeartbeats 4000000 in
/-- Chunk 4 leaves the buffer main_arg1 as it was. -/
theorem ops4_keep_main_arg1 (V : Valuation τ sig (Elt F)) :
    after (ops4 (F := F)) V (Proc.devRef .tc main_arg1) = V (Proc.devRef .tc main_arg1) := by
  after_results_simp

set_option maxRecDepth 8192 in
set_option maxHeartbeats 4000000 in
/-- After chunk 4, the buffer main_v119 over the contents at the chunk's entry. -/
theorem ops4_main_v119 (V : Valuation τ sig (Elt F)) :
    after (ops4 (F := F)) V (Proc.devRef .tc main_v119) = mulf (addf (Host.sqrt (addf (broadcastInDim S8x1x64x64 ![0, 2, 3] bcast_S8x64x64_S8x1x64x64_0_2_3 (Host.reduceAdd (mulf (subf (V (Proc.devRef .tc main_arg4)) (V (Proc.devRef .tc main_arg6))) (subf (V (Proc.devRef .tc main_arg4)) (V (Proc.devRef .tc main_arg6)))) (constant S_ .f32 0x00000000#32) reducesTo_S8x256x64x64_S8x64x64_d1 h_S_)) (broadcastInDim S8x1x64x64 ![] bcast_S_S8x1x64x64 (constant S_ .f32 0x358637BD#32)))) (subf (broadcastInDim S8x1x64x64 ![] bcast_S_S8x1x64x64 (constant S_ .f32 0x3F800000#32)) (Host.divf (broadcastInDim S8x1x64x64 ![0, 2, 3] bcast_S8x64x64_S8x1x64x64_0_2_3 (Host.reduceAdd (Host.divf (mulf (V (Proc.devRef .tc main_arg4)) (V (Proc.devRef .tc main_arg6))) (maximumf (mulf (Host.absf (V (Proc.devRef .tc main_arg4))) (Host.absf (V (Proc.devRef .tc main_arg6)))) (broadcastInDim S8x256x64x64 ![] bcast_S_S8x256x64x64 (constant S_ .f32 0x322BCC77#32)))) (constant S_ .f32 0x00000000#32) reducesTo_S8x256x64x64_S8x64x64_d1 h_S_)) (broadcastInDim S8x1x64x64 ![] bcast_S_S8x1x64x64 (constant S_ .f32 0x43800000#32))))) (Host.divf (broadcastInDim S8x1x64x64 ![] bcast_S_S8x1x64x64 (constant S_ .f32 0x3F800000#32)) (addf (broadcastInDim S8x1x64x64 ![] bcast_S_S8x1x64x64 (constant S_ .f32 0x3F800000#32)) (Host.exp (Host.negf (mulf (Host.sqrt (addf (broadcastInDim S8x1x64x64 ![0, 2, 3] bcast_S8x64x64_S8x1x64x64_0_2_3 (Host.reduceAdd (mulf (subf (V (Proc.devRef .tc main_arg4)) (V (Proc.devRef .tc main_arg6))) (subf (V (Proc.devRef .tc main_arg4)) (V (Proc.devRef .tc main_arg6)))) (constant S_ .f32 0x00000000#32) reducesTo_S8x256x64x64_S8x64x64_d1 h_S_)) (broadcastInDim S8x1x64x64 ![] bcast_S_S8x1x64x64 (constant S_ .f32 0x358637BD#32)))) (broadcastInDim S8x1x64x64 ![] bcast_S_S8x1x64x64 (constant S_ .f32 0x40A00000#32))))))) := by
  after_results_simp <;> rfl

set_option maxRecDepth 8192 in
set_option maxHeartbeats 4000000 in
/-- After chunk 4, the buffer main_v125 over the contents at the chunk's entry. -/
theorem ops4_main_v125 (V : Valuation τ sig (Elt F)) :
    after (ops4 (F := F)) V (Proc.devRef .tc main_v125) = uitofp .f32 (cmpf .ogt (mulf (V (Proc.devRef .tc main_v80)) (Host.divf (broadcastInDim S8x1x64x64 ![] bcast_S_S8x1x64x64 (V (Proc.devRef .tc main_cst_31))) (V (Proc.devRef .tc main_v86)))) (broadcastInDim S8x1x64x64 ![] bcast_S_S8x1x64x64 (mulf (Host.divf (Host.reduceAdd (mulf (V (Proc.devRef .tc main_v80)) (Host.divf (broadcastInDim S8x1x64x64 ![] bcast_S_S8x1x64x64 (V (Proc.devRef .tc main_cst_31))) (V (Proc.devRef .tc main_v86)))) (constant S_ .f32 0x00000000#32) reducesTo_S8x1x64x64_S_d0_1_2_3 h_S_) (constant S_ .f32 0x47000000#32)) (constant S_ .f32 0x3FC00000#32)))) := by
  after_results_simp <;> rfl

set_option maxRecDepth 8192 in
set_option maxHeartbeats 4000000 in
/-- After chunk 4, the buffer main_v127 over the contents at the chunk's entry. -/
theorem ops4_main_v127 (V : Valuation τ sig (Elt F)) :
    after (ops4 (F := F)) V (Proc.devRef .tc main_v127) = mulf (uitofp .f32 (cmpf .ogt (mulf (V (Proc.devRef .tc main_v80)) (Host.divf (broadcastInDim S8x1x64x64 ![] bcast_S_S8x1x64x64 (V (Proc.devRef .tc main_cst_31))) (V (Proc.devRef .tc main_v86)))) (broadcastInDim S8x1x64x64 ![] bcast_S_S8x1x64x64 (mulf (Host.divf (Host.reduceAdd (mulf (V (Proc.devRef .tc main_v80)) (Host.divf (broadcastInDim S8x1x64x64 ![] bcast_S_S8x1x64x64 (V (Proc.devRef .tc main_cst_31))) (V (Proc.devRef .tc main_v86)))) (constant S_ .f32 0x00000000#32) reducesTo_S8x1x64x64_S_d0_1_2_3 h_S_) (constant S_ .f32 0x47000000#32)) (constant S_ .f32 0x3FC00000#32))))) (broadcastInDim S8x1x64x64 ![] bcast_S_S8x1x64x64 (constant S_ .f32 0x40000000#32)) := by
  after_results_simp <;> rfl

set_option maxRecDepth 8192 in
set_option maxHeartbeats 4000000 in
/-- After chunk 4, the buffer main_v131 over the contents at the chunk's entry. -/
theorem ops4_main_v131 (V : Valuation τ sig (Elt F)) :
    after (ops4 (F := F)) V (Proc.devRef .tc main_v131) = mulf (subf (broadcastInDim S8x1x64x64 ![] bcast_S_S8x1x64x64 (constant S_ .f32 0x3F800000#32)) (uitofp .f32 (cmpf .ogt (mulf (V (Proc.devRef .tc main_v80)) (Host.divf (broadcastInDim S8x1x64x64 ![] bcast_S_S8x1x64x64 (V (Proc.devRef .tc main_cst_31))) (V (Proc.devRef .tc main_v86)))) (broadcastInDim S8x1x64x64 ![] bcast_S_S8x1x64x64 (mulf (Host.divf (Host.reduceAdd (mulf (V (Proc.devRef .tc main_v80)) (Host.divf (broadcastInDim S8x1x64x64 ![] bcast_S_S8x1x64x64 (V (Proc.devRef .tc main_cst_31))) (V (Proc.devRef .tc main_v86)))) (constant S_ .f32 0x00000000#32) reducesTo_S8x1x64x64_S_d0_1_2_3 h_S_) (constant S_ .f32 0x47000000#32)) (constant S_ .f32 0x3FC00000#32)))))) (broadcastInDim S8x1x64x64 ![] bcast_S_S8x1x64x64 (constant S_ .f32 0x3F000000#32)) := by
  after_results_simp <;> rfl

set_option maxRecDepth 8192 in
set_option maxHeartbeats 4000000 in
/-- Chunk 4 leaves the buffer main_v28 as it was. -/
theorem ops4_keep_main_v28 (V : Valuation τ sig (Elt F)) :
    after (ops4 (F := F)) V (Proc.devRef .tc main_v28) = V (Proc.devRef .tc main_v28) := by
  after_results_simp

set_option maxRecDepth 8192 in
set_option maxHeartbeats 4000000 in
/-- Chunk 4 leaves the buffer main_v59 as it was. -/
theorem ops4_keep_main_v59 (V : Valuation τ sig (Elt F)) :
    after (ops4 (F := F)) V (Proc.devRef .tc main_v59) = V (Proc.devRef .tc main_v59) := by
  after_results_simp

set_option maxRecDepth 8192 in
set_option maxHeartbeats 4000000 in
/-- After chunk 4, the buffer main_v89 over the contents at the chunk's entry. -/
theorem ops4_main_v89 (V : Valuation τ sig (Elt F)) :
    after (ops4 (F := F)) V (Proc.devRef .tc main_v89) = mulf (V (Proc.devRef .tc main_v80)) (Host.divf (broadcastInDim S8x1x64x64 ![] bcast_S_S8x1x64x64 (V (Proc.devRef .tc main_cst_31))) (V (Proc.devRef .tc main_v86))) := by
  after_results_simp <;> rfl

set_option maxRecDepth 8192 in
set_option maxHeartbeats 4000000 in
/-- Chunk 3 leaves the buffer main_arg0 as it was. -/
theorem ops3_keep_main_arg0 (V : Valuation τ sig (Elt F)) :
    after (ops3 (F := F)) V (Proc.devRef .tc main_arg0) = V (Proc.devRef .tc main_arg0) := by
  after_results_simp

set_option maxRecDepth 8192 in
set_option maxHeartbeats 4000000 in
/-- Chunk 3 leaves the buffer main_arg1 as it was. -/
theorem ops3_keep_main_arg1 (V : Valuation τ sig (Elt F)) :
    after (ops3 (F := F)) V (Proc.devRef .tc main_arg1) = V (Proc.devRef .tc main_arg1) := by
  after_results_simp

set_option maxRecDepth 8192 in
set_option maxHeartbeats 4000000 in
/-- Chunk 3 leaves the buffer main_arg4 as it was. -/
theorem ops3_keep_main_arg4 (V : Valuation τ sig (Elt F)) :
    after (ops3 (F := F)) V (Proc.devRef .tc main_arg4) = V (Proc.devRef .tc main_arg4) := by
  after_results_simp

set_option maxRecDepth 8192 in
set_option maxHeartbeats 4000000 in
/-- Chunk 3 leaves the buffer main_arg6 as it was. -/
theorem ops3_keep_main_arg6 (V : Valuation τ sig (Elt F)) :
    after (ops3 (F := F)) V (Proc.devRef .tc main_arg6) = V (Proc.devRef .tc main_arg6) := by
  after_results_simp

set_option maxRecDepth 8192 in
set_option maxHeartbeats 4000000 in
/-- After chunk 3, the buffer main_cst_31 over the contents at the chunk's entry. -/
theorem ops3_main_cst_31 (V : Valuation τ sig (Elt F)) :
    after (ops3 (F := F)) V (Proc.devRef .tc main_cst_31) = constant S_ .f32 0x3F800000#32 := by
  after_results_simp <;> rfl

set_option maxRecDepth 8192 in
set_option maxHeartbeats 4000000 in
/-- Chunk 3 leaves the buffer main_v28 as it was. -/
theorem ops3_keep_main_v28 (V : Valuation τ sig (Elt F)) :
    after (ops3 (F := F)) V (Proc.devRef .tc main_v28) = V (Proc.devRef .tc main_v28) := by
  after_results_simp

set_option maxRecDepth 8192 in
set_option maxHeartbeats 4000000 in
/-- After chunk 3, the buffer main_v59 over the contents at the chunk's entry. -/
theorem ops3_main_v59 (V : Valuation τ sig (Elt F)) :
    after (ops3 (F := F)) V (Proc.devRef .tc main_v59) = addf (mulf (Host.divf (Host.reduceAdd (mulf (Host.divf (V (Proc.devRef .tc main_v40)) (broadcastInDim S8x2x256x256 ![0, 1, 2, 3] bcast_S8x1x256x256_S8x2x256x256_0_1_2_3 (broadcastInDim S8x1x256x256 ![0, 2, 3] bcast_S8x256x256_S8x1x256x256_0_2_3 (V (Proc.devRef .tc main_v41))))) (subf (Host.log (Host.divf (V (Proc.devRef .tc main_v40)) (broadcastInDim S8x2x256x256 ![0, 1, 2, 3] bcast_S8x1x256x256_S8x2x256x256_0_1_2_3 (broadcastInDim S8x1x256x256 ![0, 2, 3] bcast_S8x256x256_S8x1x256x256_0_2_3 (V (Proc.devRef .tc main_v41)))))) (V (Proc.devRef .tc main_v31)))) (constant S_ .f32 0x00000000#32) reducesTo_S8x2x256x256_S_d0_1_2_3 h_S_) (constant S_ .f32 0x41000000#32)) (constant S_ .f32 0x41800000#32)) (mulf (Host.divf (Host.reduceAdd (mulf (subf (Host.exp (extractStridedSlice S8x1x256x256 ![0, 1, 0, 0] (V (Proc.devRef .tc main_v31)) slices_S8x2x256x256_S8x1x256x256_0_1_0_0)) (extractStridedSlice S8x1x256x256 ![0, 1, 0, 0] (Host.divf (V (Proc.devRef .tc main_v40)) (broadcastInDim S8x2x256x256 ![0, 1, 2, 3] bcast_S8x1x256x256_S8x2x256x256_0_1_2_3 (broadcastInDim S8x1x256x256 ![0, 2, 3] bcast_S8x256x256_S8x1x256x256_0_2_3 (V (Proc.devRef .tc main_v41))))) slices_S8x2x256x256_S8x1x256x256_0_1_0_0)) (subf (Host.exp (extractStridedSlice S8x1x256x256 ![0, 1, 0, 0] (V (Proc.devRef .tc main_v31)) slices_S8x2x256x256_S8x1x256x256_0_1_0_0)) (extractStridedSlice S8x1x256x256 ![0, 1, 0, 0] (Host.divf (V (Proc.devRef .tc main_v40)) (broadcastInDim S8x2x256x256 ![0, 1, 2, 3] bcast_S8x1x256x256_S8x2x256x256_0_1_2_3 (broadcastInDim S8x1x256x256 ![0, 2, 3] bcast_S8x256x256_S8x1x256x256_0_2_3 (V (Proc.devRef .tc main_v41))))) slices_S8x2x256x256_S8x1x256x256_0_1_0_0))) (constant S_ .f32 0x00000000#32) reducesTo_S8x1x256x256_S_d0_1_2_3 h_S_) (constant S_ .f32 0x49000000#32)) (constant S_ .f32 0x40000000#32)) := by
  after_results_simp <;> rfl

set_option maxRecDepth 8192 in
set_option maxHeartbeats 4000000 in
/-- After chunk 3, the buffer main_v80 over the contents at the chunk's entry. -/
theorem ops3_main_v80 (V : Valuation τ sig (Elt F)) :
    after (ops3 (F := F)) V (Proc.devRef .tc main_v80) = addf (Host.sqrt (addf (broadcastInDim S8x1x64x64 ![0, 2, 3] bcast_S8x64x64_S8x1x64x64_0_2_3 (Host.reduceAdd (mulf (subf (V (Proc.devRef .tc main_arg4)) (V (Proc.devRef .tc main_arg5))) (subf (V (Proc.devRef .tc main_arg4)) (V (Proc.devRef .tc main_arg5)))) (constant S_ .f32 0x00000000#32) reducesTo_S8x256x64x64_S8x64x64_d1 h_S_)) (broadcastInDim S8x1x64x64 ![] bcast_S_S8x1x64x64 (constant S_ .f32 0x358637BD#32)))) (subf (broadcastInDim S8x1x64x64 ![] bcast_S_S8x1x64x64 (constant S_ .f32 0x3F800000#32)) (Host.divf (broadcastInDim S8x1x64x64 ![0, 2, 3] bcast_S8x64x64_S8x1x64x64_0_2_3 (Host.reduceAdd (Host.divf (mulf (V (Proc.devRef .tc main_arg4)) (V (Proc.devRef .tc main_arg5))) (maximumf (mulf (Host.absf (V (Proc.devRef .tc main_arg4))) (Host.absf (V (Proc.devRef .tc main_arg5)))) (broadcastInDim S8x256x64x64 ![] bcast_S_S8x256x64x64 (constant S_ .f32 0x322BCC77#32)))) (constant S_ .f32 0x00000000#32) reducesTo_S8x256x64x64_S8x64x64_d1 h_S_)) (broadcastInDim S8x1x64x64 ![] bcast_S_S8x1x64x64 (constant S_ .f32 0x43800000#32)))) := by
  after_results_simp <;> rfl

set_option maxRecDepth 8192 in
set_option maxHeartbeats 4000000 in
/-- After chunk 3, the buffer main_v86 over the contents at the chunk's entry. -/
theorem ops3_main_v86 (V : Valuation τ sig (Elt F)) :
    after (ops3 (F := F)) V (Proc.devRef .tc main_v86) = addf (broadcastInDim S8x1x64x64 ![] bcast_S_S8x1x64x64 (constant S_ .f32 0x3F800000#32)) (Host.exp (Host.negf (mulf (Host.sqrt (addf (broadcastInDim S8x1x64x64 ![0, 2, 3] bcast_S8x64x64_S8x1x64x64_0_2_3 (Host.reduceAdd (mulf (subf (V (Proc.devRef .tc main_arg4)) (V (Proc.devRef .tc main_arg5))) (subf (V (Proc.devRef .tc main_arg4)) (V (Proc.devRef .tc main_arg5)))) (constant S_ .f32 0x00000000#32) reducesTo_S8x256x64x64_S8x64x64_d1 h_S_)) (broadcastInDim S8x1x64x64 ![] bcast_S_S8x1x64x64 (constant S_ .f32 0x358637BD#32)))) (broadcastInDim S8x1x64x64 ![] bcast_S_S8x1x64x64 (constant S_ .f32 0x40A00000#32))))) := by
  after_results_simp <;> rfl

set_option maxRecDepth 8192 in
set_option maxHeartbeats 4000000 in
/-- Chunk 2 leaves the buffer main_arg0 as it was. -/
theorem ops2_keep_main_arg0 (V : Valuation τ sig (Elt F)) :
    after (ops2 (F := F)) V (Proc.devRef .tc main_arg0) = V (Proc.devRef .tc main_arg0) := by
  after_results_simp

set_option maxRecDepth 8192 in
set_option maxHeartbeats 4000000 in
/-- Chunk 2 leaves the buffer main_arg1 as it was. -/
theorem ops2_keep_main_arg1 (V : Valuation τ sig (Elt F)) :
    after (ops2 (F := F)) V (Proc.devRef .tc main_arg1) = V (Proc.devRef .tc main_arg1) := by
  after_results_simp

set_option maxRecDepth 8192 in
set_option maxHeartbeats 4000000 in
/-- Chunk 2 leaves the buffer main_arg4 as it was. -/
theorem ops2_keep_main_arg4 (V : Valuation τ sig (Elt F)) :
    after (ops2 (F := F)) V (Proc.devRef .tc main_arg4) = V (Proc.devRef .tc main_arg4) := by
  after_results_simp

set_option maxRecDepth 8192 in
set_option maxHeartbeats 4000000 in
/-- Chunk 2 leaves the buffer main_arg5 as it was. -/
theorem ops2_keep_main_arg5 (V : Valuation τ sig (Elt F)) :
    after (ops2 (F := F)) V (Proc.devRef .tc main_arg5) = V (Proc.devRef .tc main_arg5) := by
  after_results_simp

set_option maxRecDepth 8192 in
set_option maxHeartbeats 4000000 in
/-- Chunk 2 leaves the buffer main_arg6 as it was. -/
theorem ops2_keep_main_arg6 (V : Valuation τ sig (Elt F)) :
    after (ops2 (F := F)) V (Proc.devRef .tc main_arg6) = V (Proc.devRef .tc main_arg6) := by
  after_results_simp

set_option maxRecDepth 8192 in
set_option maxHeartbeats 4000000 in
/-- Chunk 2 leaves the buffer main_v28 as it was. -/
theorem ops2_keep_main_v28 (V : Valuation τ sig (Elt F)) :
    after (ops2 (F := F)) V (Proc.devRef .tc main_v28) = V (Proc.devRef .tc main_v28) := by
  after_results_simp

set_option maxRecDepth 8192 in
set_option maxHeartbeats 4000000 in
/-- Chunk 2 leaves the buffer main_v31 as it was. -/
theorem ops2_keep_main_v31 (V : Valuation τ sig (Elt F)) :
    after (ops2 (F := F)) V (Proc.devRef .tc main_v31) = V (Proc.devRef .tc main_v31) := by
  after_results_simp

set_option maxRecDepth 8192 in
set_option maxHeartbeats 4000000 in
/-- After chunk 2, the buffer main_v40 over the contents at the chunk's entry. -/
theorem ops2_main_v40 (V : Valuation τ sig (Elt F)) :
    after (ops2 (F := F)) V (Proc.devRef .tc main_v40) = Host.exp (subf (Host.divf (V (Proc.devRef .tc main_arg3)) (broadcastInDim S8x2x256x256 ![] bcast_S_S8x2x256x256 (constant S_ .f32 0x40800000#32))) (broadcastInDim S8x2x256x256 ![0, 1, 2, 3] bcast_S8x1x256x256_S8x2x256x256_0_1_2_3 (broadcastInDim S8x1x256x256 ![0, 2, 3] bcast_S8x256x256_S8x1x256x256_0_2_3 (maximumf (broadcastInDim S8x256x256 ![] bcast_S_S8x256x256 (constant S_ .f32 0xFF800000#32)) (Host.reduce FloatOps.maximumf (Host.divf (V (Proc.devRef .tc main_arg3)) (broadcastInDim S8x2x256x256 ![] bcast_S_S8x2x256x256 (constant S_ .f32 0x40800000#32))) (constant S_ .f32 0xFF800000#32) reducesTo_S8x2x256x256_S8x256x256_d1 h_S_))))) := by
  after_results_simp <;> rfl

set_option maxRecDepth 8192 in
set_option maxHeartbeats 4000000 in
/-- After chunk 2, the buffer main_v41 over the contents at the chunk's entry. -/
theorem ops2_main_v41 (V : Valuation τ sig (Elt F)) :
    after (ops2 (F := F)) V (Proc.devRef .tc main_v41) = Host.reduceAdd (Host.exp (subf (Host.divf (V (Proc.devRef .tc main_arg3)) (broadcastInDim S8x2x256x256 ![] bcast_S_S8x2x256x256 (constant S_ .f32 0x40800000#32))) (broadcastInDim S8x2x256x256 ![0, 1, 2, 3] bcast_S8x1x256x256_S8x2x256x256_0_1_2_3 (broadcastInDim S8x1x256x256 ![0, 2, 3] bcast_S8x256x256_S8x1x256x256_0_2_3 (maximumf (broadcastInDim S8x256x256 ![] bcast_S_S8x256x256 (constant S_ .f32 0xFF800000#32)) (Host.reduce FloatOps.maximumf (Host.divf (V (Proc.devRef .tc main_arg3)) (broadcastInDim S8x2x256x256 ![] bcast_S_S8x2x256x256 (constant S_ .f32 0x40800000#32))) (constant S_ .f32 0xFF800000#32) reducesTo_S8x2x256x256_S8x256x256_d1 h_S_)))))) (constant S_ .f32 0x00000000#32) reducesTo_S8x2x256x256_S8x256x256_d1 h_S_ := by
  after_results_simp <;> rfl

set_option maxRecDepth 8192 in
set_option maxHeartbeats 4000000 in
/-- Chunk 1 leaves the buffer main_arg0 as it was. -/
theorem ops1_keep_main_arg0 (V : Valuation τ sig (Elt F)) :
    after (ops1 (F := F)) V (Proc.devRef .tc main_arg0) = V (Proc.devRef .tc main_arg0) := by
  after_results_simp

set_option maxRecDepth 8192 in
set_option maxHeartbeats 4000000 in
/-- Chunk 1 leaves the buffer main_arg1 as it was. -/
theorem ops1_keep_main_arg1 (V : Valuation τ sig (Elt F)) :
    after (ops1 (F := F)) V (Proc.devRef .tc main_arg1) = V (Proc.devRef .tc main_arg1) := by
  after_results_simp

set_option maxRecDepth 8192 in
set_option maxHeartbeats 4000000 in
/-- Chunk 1 leaves the buffer main_arg3 as it was. -/
theorem ops1_keep_main_arg3 (V : Valuation τ sig (Elt F)) :
    after (ops1 (F := F)) V (Proc.devRef .tc main_arg3) = V (Proc.devRef .tc main_arg3) := by
  after_results_simp

set_option maxRecDepth 8192 in
set_option maxHeartbeats 4000000 in
/-- Chunk 1 leaves the buffer main_arg4 as it was. -/
theorem ops1_keep_main_arg4 (V : Valuation τ sig (Elt F)) :
    after (ops1 (F := F)) V (Proc.devRef .tc main_arg4) = V (Proc.devRef .tc main_arg4) := by
  after_results_simp

set_option maxRecDepth 8192 in
set_option maxHeartbeats 4000000 in
/-- Chunk 1 leaves the buffer main_arg5 as it was. -/
theorem ops1_keep_main_arg5 (V : Valuation τ sig (Elt F)) :
    after (ops1 (F := F)) V (Proc.devRef .tc main_arg5) = V (Proc.devRef .tc main_arg5) := by
  after_results_simp

set_option maxRecDepth 8192 in
set_option maxHeartbeats 4000000 in
/-- Chunk 1 leaves the buffer main_arg6 as it was. -/
theorem ops1_keep_main_arg6 (V : Valuation τ sig (Elt F)) :
    after (ops1 (F := F)) V (Proc.devRef .tc main_arg6) = V (Proc.devRef .tc main_arg6) := by
  after_results_simp

set_option maxRecDepth 8192 in
set_option maxHeartbeats 4000000 in
/-- Chunk 1 leaves the buffer main_v28 as it was. -/
theorem ops1_keep_main_v28 (V : Valuation τ sig (Elt F)) :
    after (ops1 (F := F)) V (Proc.devRef .tc main_v28) = V (Proc.devRef .tc main_v28) := by
  after_results_simp

set_option maxRecDepth 8192 in
set_option maxHeartbeats 4000000 in
/-- After chunk 1, the buffer main_v31 over the contents at the chunk's entry. -/
theorem ops1_main_v31 (V : Valuation τ sig (Elt F)) :
    after (ops1 (F := F)) V (Proc.devRef .tc main_v31) = subf (subf (V (Proc.devRef .tc main_v30)) (broadcastInDim S8x2x256x256 ![0, 1, 2, 3] bcast_S8x1x256x256_S8x2x256x256_0_1_2_3 (broadcastInDim S8x1x256x256 ![0, 2, 3] bcast_S8x256x256_S8x1x256x256_0_2_3 (maximumf (broadcastInDim S8x256x256 ![] bcast_S_S8x256x256 (constant S_ .f32 0xFF800000#32)) (Host.reduce FloatOps.maximumf (V (Proc.devRef .tc main_v30)) (constant S_ .f32 0xFF800000#32) reducesTo_S8x2x256x256_S8x256x256_d1 h_S_))))) (broadcastInDim S8x2x256x256 ![0, 1, 2, 3] bcast_S8x1x256x256_S8x2x256x256_0_1_2_3 (Host.log (broadcastInDim S8x1x256x256 ![0, 2, 3] bcast_S8x256x256_S8x1x256x256_0_2_3 (Host.reduceAdd (Host.exp (subf (V (Proc.devRef .tc main_v30)) (broadcastInDim S8x2x256x256 ![0, 1, 2, 3] bcast_S8x1x256x256_S8x2x256x256_0_1_2_3 (broadcastInDim S8x1x256x256 ![0, 2, 3] bcast_S8x256x256_S8x1x256x256_0_2_3 (maximumf (broadcastInDim S8x256x256 ![] bcast_S_S8x256x256 (constant S_ .f32 0xFF800000#32)) (Host.reduce FloatOps.maximumf (V (Proc.devRef .tc main_v30)) (constant S_ .f32 0xFF800000#32) reducesTo_S8x2x256x256_S8x256x256_d1 h_S_)))))) (constant S_ .f32 0x00000000#32) reducesTo_S8x2x256x256_S8x256x256_d1 h_S_)))) := by
  have eo_main_call0_v5 : ∀ u, (TRef.of main_call0_v5 : TRef sig ⟨S8x2x256x256, .f32⟩).ofBuf (Val := Elt F) u = u := fun _ => rfl
  have et_main_call0_v5 : ∀ v, (TRef.of main_call0_v5 : TRef sig ⟨S8x2x256x256, .f32⟩).toBuf (Val := Elt F) v = v := fun _ => rfl
  have eo_main_call0_v10 : ∀ u, (TRef.of main_call0_v10 : TRef sig ⟨S8x2x256x256, .f32⟩).ofBuf (Val := Elt F) u = u := fun _ => rfl
  have et_main_call0_v10 : ∀ v, (TRef.of main_call0_v10 : TRef sig ⟨S8x2x256x256, .f32⟩).toBuf (Val := Elt F) v = v := fun _ => rfl
  have eo_main_v31 : ∀ u, (TRef.of main_v31 : TRef sig ⟨S8x2x256x256, .f32⟩).ofBuf (Val := Elt F) u = u := fun _ => rfl
  have et_main_v31 : ∀ v, (TRef.of main_v31 : TRef sig ⟨S8x2x256x256, .f32⟩).toBuf (Val := Elt F) v = v := fun _ => rfl
  have eo_main_v30 : ∀ u, (TRef.of main_v30 : TRef sig ⟨S8x2x256x256, .f32⟩).ofBuf (Val := Elt F) u = u := fun _ => rfl
  have et_main_v30 : ∀ v, (TRef.of main_v30 : TRef sig ⟨S8x2x256x256, .f32⟩).toBuf (Val := Elt F) v = v := fun _ => rfl
  have eo_main_call0_v4 : ∀ u, (TRef.of main_call0_v4 : TRef sig ⟨S8x2x256x256, .f32⟩).ofBuf (Val := Elt F) u = u := fun _ => rfl
  have et_main_call0_v4 : ∀ v, (TRef.of main_call0_v4 : TRef sig ⟨S8x2x256x256, .f32⟩).toBuf (Val := Elt F) v = v := fun _ => rfl
  have eo_main_call0_v3 : ∀ u, (TRef.of main_call0_v3 : TRef sig ⟨S8x1x256x256, .f32⟩).ofBuf (Val := Elt F) u = u := fun _ => rfl
  have et_main_call0_v3 : ∀ v, (TRef.of main_call0_v3 : TRef sig ⟨S8x1x256x256, .f32⟩).toBuf (Val := Elt F) v = v := fun _ => rfl
  have eo_main_call0_v2 : ∀ u, (TRef.of main_call0_v2 : TRef sig ⟨S8x256x256, .f32⟩).ofBuf (Val := Elt F) u = u := fun _ => rfl
  have et_main_call0_v2 : ∀ v, (TRef.of main_call0_v2 : TRef sig ⟨S8x256x256, .f32⟩).toBuf (Val := Elt F) v = v := fun _ => rfl
  have eo_main_call0_v1 : ∀ u, (TRef.of main_call0_v1 : TRef sig ⟨S8x256x256, .f32⟩).ofBuf (Val := Elt F) u = u := fun _ => rfl
  have et_main_call0_v1 : ∀ v, (TRef.of main_call0_v1 : TRef sig ⟨S8x256x256, .f32⟩).toBuf (Val := Elt F) v = v := fun _ => rfl
  have eo_main_call0_v0 : ∀ u, (TRef.of main_call0_v0 : TRef sig ⟨S8x256x256, .f32⟩).ofBuf (Val := Elt F) u = u := fun _ => rfl
  have et_main_call0_v0 : ∀ v, (TRef.of main_call0_v0 : TRef sig ⟨S8x256x256, .f32⟩).toBuf (Val := Elt F) v = v := fun _ => rfl
  have eo_main_call0_cst_0 : ∀ u, (TRef.of main_call0_cst_0 : TRef sig ⟨S_, .f32⟩).ofBuf (Val := Elt F) u = u := fun _ => rfl
  have et_main_call0_cst_0 : ∀ v, (TRef.of main_call0_cst_0 : TRef sig ⟨S_, .f32⟩).toBuf (Val := Elt F) v = v := fun _ => rfl
  have eo_main_call0_cst : ∀ u, (TRef.of main_call0_cst : TRef sig ⟨S_, .f32⟩).ofBuf (Val := Elt F) u = u := fun _ => rfl
  have et_main_call0_cst : ∀ v, (TRef.of main_call0_cst : TRef sig ⟨S_, .f32⟩).toBuf (Val := Elt F) v = v := fun _ => rfl
  have eo_main_call0_v9 : ∀ u, (TRef.of main_call0_v9 : TRef sig ⟨S8x1x256x256, .f32⟩).ofBuf (Val := Elt F) u = u := fun _ => rfl
  have et_main_call0_v9 : ∀ v, (TRef.of main_call0_v9 : TRef sig ⟨S8x1x256x256, .f32⟩).toBuf (Val := Elt F) v = v := fun _ => rfl
  have eo_main_call0_v8 : ∀ u, (TRef.of main_call0_v8 : TRef sig ⟨S8x1x256x256, .f32⟩).ofBuf (Val := Elt F) u = u := fun _ => rfl
  have et_main_call0_v8 : ∀ v, (TRef.of main_call0_v8 : TRef sig ⟨S8x1x256x256, .f32⟩).toBuf (Val := Elt F) v = v := fun _ => rfl
  have eo_main_call0_v7 : ∀ u, (TRef.of main_call0_v7 : TRef sig ⟨S8x256x256, .f32⟩).ofBuf (Val := Elt F) u = u := fun _ => rfl
  have et_main_call0_v7 : ∀ v, (TRef.of main_call0_v7 : TRef sig ⟨S8x256x256, .f32⟩).toBuf (Val := Elt F) v = v := fun _ => rfl
  have eo_main_call0_v6 : ∀ u, (TRef.of main_call0_v6 : TRef sig ⟨S8x2x256x256, .f32⟩).ofBuf (Val := Elt F) u = u := fun _ => rfl
  have et_main_call0_v6 : ∀ v, (TRef.of main_call0_v6 : TRef sig ⟨S8x2x256x256, .f32⟩).toBuf (Val := Elt F) v = v := fun _ => rfl
  have eo_main_call0_cst_1 : ∀ u, (TRef.of main_call0_cst_1 : TRef sig ⟨S_, .f32⟩).ofBuf (Val := Elt F) u = u := fun _ => rfl
  have et_main_call0_cst_1 : ∀ v, (TRef.of main_call0_cst_1 : TRef sig ⟨S_, .f32⟩).toBuf (Val := Elt F) v = v := fun _ => rfl
  after_results_simp
  simp only [eo_main_call0_v5, et_main_call0_v5, eo_main_call0_v10, et_main_call0_v10, eo_main_v31, et_main_v31, eo_main_v30, et_main_v30, eo_main_call0_v4, et_main_call0_v4, eo_main_call0_v3, et_main_call0_v3, eo_main_call0_v2, et_main_call0_v2, eo_main_call0_v1, et_main_call0_v1, eo_main_call0_v0, et_main_call0_v0, eo_main_call0_cst_0, et_main_call0_cst_0, eo_main_call0_cst, et_main_call0_cst, eo_main_call0_v9, et_main_call0_v9, eo_main_call0_v8, et_main_call0_v8, eo_main_call0_v7, et_main_call0_v7, eo_main_call0_v6, et_main_call0_v6, eo_main_call0_cst_1, et_main_call0_cst_1]
  try rfl

set_option maxRecDepth 8192 in
set_option maxHeartbeats 4000000 in
/-- Chunk 0 leaves the buffer main_arg0 as it was. -/
theorem ops0_keep_main_arg0 (V : Valuation τ sig (Elt F)) :
    after (ops0 (F := F)) V (Proc.devRef .tc main_arg0) = V (Proc.devRef .tc main_arg0) := by
  after_results_simp

set_option maxRecDepth 8192 in
set_option maxHeartbeats 4000000 in
/-- Chunk 0 leaves the buffer main_arg1 as it was. -/
theorem ops0_keep_main_arg1 (V : Valuation τ sig (Elt F)) :
    after (ops0 (F := F)) V (Proc.devRef .tc main_arg1) = V (Proc.devRef .tc main_arg1) := by
  after_results_simp

set_option maxRecDepth 8192 in
set_option maxHeartbeats 4000000 in
/-- Chunk 0 leaves the buffer main_arg3 as it was. -/
theorem ops0_keep_main_arg3 (V : Valuation τ sig (Elt F)) :
    after (ops0 (F := F)) V (Proc.devRef .tc main_arg3) = V (Proc.devRef .tc main_arg3) := by
  after_results_simp

set_option maxRecDepth 8192 in
set_option maxHeartbeats 4000000 in
/-- Chunk 0 leaves the buffer main_arg4 as it was. -/
theorem ops0_keep_main_arg4 (V : Valuation τ sig (Elt F)) :
    after (ops0 (F := F)) V (Proc.devRef .tc main_arg4) = V (Proc.devRef .tc main_arg4) := by
  after_results_simp

set_option maxRecDepth 8192 in
set_option maxHeartbeats 4000000 in
/-- Chunk 0 leaves the buffer main_arg5 as it was. -/
theorem ops0_keep_main_arg5 (V : Valuation τ sig (Elt F)) :
    after (ops0 (F := F)) V (Proc.devRef .tc main_arg5) = V (Proc.devRef .tc main_arg5) := by
  after_results_simp

set_option maxRecDepth 8192 in
set_option maxHeartbeats 4000000 in
/-- Chunk 0 leaves the buffer main_arg6 as it was. -/
theorem ops0_keep_main_arg6 (V : Valuation τ sig (Elt F)) :
    after (ops0 (F := F)) V (Proc.devRef .tc main_arg6) = V (Proc.devRef .tc main_arg6) := by
  after_results_simp

set_option maxRecDepth 8192 in
set_option maxHeartbeats 4000000 in
/-- After chunk 0, the buffer main_v28 over the contents at the chunk's entry. -/
theorem ops0_main_v28 (V : Valuation τ sig (Elt F)) :
    after (ops0 (F := F)) V (Proc.devRef .tc main_v28) = addf (addf (mulf (constant S_ .f32 0x3E99999A#32) (Host.divf (Host.reduceAdd (mulf (subf (V (Proc.devRef .tc main_arg0)) (V (Proc.devRef .tc main_arg1))) (subf (V (Proc.devRef .tc main_arg0)) (V (Proc.devRef .tc main_arg1)))) (constant S_ .f32 0x00000000#32) reducesTo_S8x256x64x64_S_d0_1_2_3 h_S_) (constant S_ .f32 0x4B000000#32))) (mulf (constant S_ .f32 0x3F000000#32) (Host.divf (Host.reduceAdd (mulf (subf (mulf (V (Proc.devRef .tc main_arg0)) (broadcastInDim S8x256x64x64 ![0, 1, 2, 3] bcast_S8x1x64x64_S8x256x64x64_0_1_2_3 (V (Proc.devRef .tc main_arg7)))) (mulf (V (Proc.devRef .tc main_arg1)) (broadcastInDim S8x256x64x64 ![0, 1, 2, 3] bcast_S8x1x64x64_S8x256x64x64_0_1_2_3 (V (Proc.devRef .tc main_arg7))))) (subf (mulf (V (Proc.devRef .tc main_arg0)) (broadcastInDim S8x256x64x64 ![0, 1, 2, 3] bcast_S8x1x64x64_S8x256x64x64_0_1_2_3 (V (Proc.devRef .tc main_arg7)))) (mulf (V (Proc.devRef .tc main_arg1)) (broadcastInDim S8x256x64x64 ![0, 1, 2, 3] bcast_S8x1x64x64_S8x256x64x64_0_1_2_3 (V (Proc.devRef .tc main_arg7)))))) (constant S_ .f32 0x00000000#32) reducesTo_S8x256x64x64_S_d0_1_2_3 h_S_) (constant S_ .f32 0x4B000000#32)))) (mulf (constant S_ .f32 0x3E4CCCCD#32) (Host.divf (Host.reduceAdd (mulf (subf (Host.divf (broadcastInDim S8x256x1x1 ![0, 1] bcast_S8x256_S8x256x1x1_0_1 (Host.reduceAdd (V (Proc.devRef .tc main_arg0)) (constant S_ .f32 0x00000000#32) reducesTo_S8x256x64x64_S8x256_d2_3 h_S_)) (broadcastInDim S8x256x1x1 ![] bcast_S_S8x256x1x1 (constant S_ .f32 0x45800000#32))) (Host.divf (broadcastInDim S8x256x1x1 ![0, 1] bcast_S8x256_S8x256x1x1_0_1 (Host.reduceAdd (V (Proc.devRef .tc main_arg1)) (constant S_ .f32 0x00000000#32) reducesTo_S8x256x64x64_S8x256_d2_3 h_S_)) (broadcastInDim S8x256x1x1 ![] bcast_S_S8x256x1x1 (constant S_ .f32 0x45800000#32)))) (subf (Host.divf (broadcastInDim S8x256x1x1 ![0, 1] bcast_S8x256_S8x256x1x1_0_1 (Host.reduceAdd (V (Proc.devRef .tc main_arg0)) (constant S_ .f32 0x00000000#32) reducesTo_S8x256x64x64_S8x256_d2_3 h_S_)) (broadcastInDim S8x256x1x1 ![] bcast_S_S8x256x1x1 (constant S_ .f32 0x45800000#32))) (Host.divf (broadcastInDim S8x256x1x1 ![0, 1] bcast_S8x256_S8x256x1x1_0_1 (Host.reduceAdd (V (Proc.devRef .tc main_arg1)) (constant S_ .f32 0x00000000#32) reducesTo_S8x256x64x64_S8x256_d2_3 h_S_)) (broadcastInDim S8x256x1x1 ![] bcast_S_S8x256x1x1 (constant S_ .f32 0x45800000#32))))) (constant S_ .f32 0x00000000#32) reducesTo_S8x256x1x1_S_d0_1_2_3 h_S_) (constant S_ .f32 0x45000000#32))) := by
  after_results_simp <;> rfl

set_option maxRecDepth 8192 in
set_option maxHeartbeats 4000000 in
/-- After chunk 0, the buffer main_v30 over the contents at the chunk's entry. -/
theorem ops0_main_v30 (V : Valuation τ sig (Elt F)) :
    after (ops0 (F := F)) V (Proc.devRef .tc main_v30) = Host.divf (V (Proc.devRef .tc main_arg2)) (broadcastInDim S8x2x256x256 ![] bcast_S_S8x2x256x256 (constant S_ .f32 0x40800000#32)) := by
  after_results_simp <;> rfl

set_option maxRecDepth 8192 in
set_option maxHeartbeats 4000000 in
/-- Chunk 7 leaves the buffer main_v28 as it was. -/
theorem ops7_keep_main_v28 (V : Valuation τ sig (Elt F)) :
    after (ops7 (F := F)) V (Proc.devRef .tc main_v28) = V (Proc.devRef .tc main_v28) := by
  after_results_simp

set_option maxRecDepth 8192 in
set_option maxHeartbeats 4000000 in
/-- Chunk 7 leaves the buffer main_v59 as it was. -/
theorem ops7_keep_main_v59 (V : Valuation τ sig (Elt F)) :
    after (ops7 (F := F)) V (Proc.devRef .tc main_v59) = V (Proc.devRef .tc main_v59) := by
  after_results_simp

set_option maxRecDepth 8192 in
set_option maxHeartbeats 4000000 in
/-- After chunk 7, the buffer main_v219 over the contents at the chunk's entry. -/
theorem ops7_main_v219 (V : Valuation τ sig (Elt F)) :
    after (ops7 (F := F)) V (Proc.devRef .tc main_v219) = addf (addf (mulf (V (Proc.devRef .tc main_v208)) (V (Proc.devRef .tc main_v138))) (mulf (V (Proc.devRef .tc main_v211)) (V (Proc.devRef .tc main_v205)))) (mulf (mulf (constant S_ .f32 0x3E4CCCCD#32) (V (Proc.devRef .tc main_v213))) (V (Proc.devRef .tc main_v201))) := by
  after_results_simp <;> rfl

set_option maxRecDepth 8192 in
set_option maxHeartbeats 4000000 in
/-- Chunk 7 leaves the buffer main_arg0 as it was. -/
theorem ops7_keep_main_arg0 (V : Valuation τ sig (Elt F)) :
    after (ops7 (F := F)) V (Proc.devRef .tc main_arg0) = V (Proc.devRef .tc main_arg0) := by
  after_results_simp

set_option maxRecDepth 8192 in
set_option maxHeartbeats 4000000 in
/-- Chunk 6 leaves the buffer main_arg0 as it was. -/
theorem ops6_keep_main_arg0 (V : Valuation τ sig (Elt F)) :
    after (ops6 (F := F)) V (Proc.devRef .tc main_arg0) = V (Proc.devRef .tc main_arg0) := by
  after_results_simp

set_option maxRecDepth 8192 in
set_option maxHeartbeats 4000000 in
/-- Chunk 7 leaves the buffer main_arg1 as it was. -/
theorem ops7_keep_main_arg1 (V : Valuation τ sig (Elt F)) :
    after (ops7 (F := F)) V (Proc.devRef .tc main_arg1) = V (Proc.devRef .tc main_arg1) := by
  after_results_simp

set_option maxRecDepth 8192 in
set_option maxHeartbeats 4000000 in
/-- Chunk 6 leaves the buffer main_arg1 as it was. -/
theorem ops6_keep_main_arg1 (V : Valuation τ sig (Elt F)) :
    after (ops6 (F := F)) V (Proc.devRef .tc main_arg1) = V (Proc.devRef .tc main_arg1) := by
  after_results_simp

set_option maxRecDepth 8192 in
set_option maxHeartbeats 4000000 in
/-- Chunk 5 leaves the buffer main_arg1 as it was. -/
theorem ops5_keep_main_arg1 (V : Valuation τ sig (Elt F)) :
    after (ops5 (F := F)) V (Proc.devRef .tc main_arg1) = V (Proc.devRef .tc main_arg1) := by
  after_results_simp

set_option maxRecDepth 8192 in
set_option maxHeartbeats 4000000 in
/-- Chunk 7 leaves the buffer main_arg2 as it was. -/
theorem ops7_keep_main_arg2 (V : Valuation τ sig (Elt F)) :
    after (ops7 (F := F)) V (Proc.devRef .tc main_arg2) = V (Proc.devRef .tc main_arg2) := by
  after_results_simp

set_option maxRecDepth 8192 in
set_option maxHeartbeats 4000000 in
/-- Chunk 6 leaves the buffer main_arg2 as it was. -/
theorem ops6_keep_main_arg2 (V : Valuation τ sig (Elt F)) :
    after (ops6 (F := F)) V (Proc.devRef .tc main_arg2) = V (Proc.devRef .tc main_arg2) := by
  after_results_simp

set_option maxRecDepth 8192 in
set_option maxHeartbeats 4000000 in
/-- Chunk 5 leaves the buffer main_arg2 as it was. -/
theorem ops5_keep_main_arg2 (V : Valuation τ sig (Elt F)) :
    after (ops5 (F := F)) V (Proc.devRef .tc main_arg2) = V (Proc.devRef .tc main_arg2) := by
  after_results_simp

set_option maxRecDepth 8192 in
set_option maxHeartbeats 4000000 in
/-- Chunk 4 leaves the buffer main_arg2 as it was. -/
theorem ops4_keep_main_arg2 (V : Valuation τ sig (Elt F)) :
    after (ops4 (F := F)) V (Proc.devRef .tc main_arg2) = V (Proc.devRef .tc main_arg2) := by
  after_results_simp

set_option maxRecDepth 8192 in
set_option maxHeartbeats 4000000 in
/-- Chunk 3 leaves the buffer main_arg2 as it was. -/
theorem ops3_keep_main_arg2 (V : Valuation τ sig (Elt F)) :
    after (ops3 (F := F)) V (Proc.devRef .tc main_arg2) = V (Proc.devRef .tc main_arg2) := by
  after_results_simp

set_option maxRecDepth 8192 in
set_option maxHeartbeats 4000000 in
/-- Chunk 2 leaves the buffer main_arg2 as it was. -/
theorem ops2_keep_main_arg2 (V : Valuation τ sig (Elt F)) :
    after (ops2 (F := F)) V (Proc.devRef .tc main_arg2) = V (Proc.devRef .tc main_arg2) := by
  after_results_simp

set_option maxRecDepth 8192 in
set_option maxHeartbeats 4000000 in
/-- Chunk 1 leaves the buffer main_arg2 as it was. -/
theorem ops1_keep_main_arg2 (V : Valuation τ sig (Elt F)) :
    after (ops1 (F := F)) V (Proc.devRef .tc main_arg2) = V (Proc.devRef .tc main_arg2) := by
  after_results_simp

set_option maxRecDepth 8192 in
set_option maxHeartbeats 4000000 in
/-- Chunk 0 leaves the buffer main_arg2 as it was. -/
theorem ops0_keep_main_arg2 (V : Valuation τ sig (Elt F)) :
    after (ops0 (F := F)) V (Proc.devRef .tc main_arg2) = V (Proc.devRef .tc main_arg2) := by
  after_results_simp

set_option maxRecDepth 8192 in
set_option maxHeartbeats 4000000 in
/-- Chunk 7 leaves the buffer main_arg3 as it was. -/
theorem ops7_keep_main_arg3 (V : Valuation τ sig (Elt F)) :
    after (ops7 (F := F)) V (Proc.devRef .tc main_arg3) = V (Proc.devRef .tc main_arg3) := by
  after_results_simp

set_option maxRecDepth 8192 in
set_option maxHeartbeats 4000000 in
/-- Chunk 6 leaves the buffer main_arg3 as it was. -/
theorem ops6_keep_main_arg3 (V : Valuation τ sig (Elt F)) :
    after (ops6 (F := F)) V (Proc.devRef .tc main_arg3) = V (Proc.devRef .tc main_arg3) := by
  after_results_simp

set_option maxRecDepth 8192 in
set_option maxHeartbeats 4000000 in
/-- Chunk 5 leaves the buffer main_arg3 as it was. -/
theorem ops5_keep_main_arg3 (V : Valuation τ sig (Elt F)) :
    after (ops5 (F := F)) V (Proc.devRef .tc main_arg3) = V (Proc.devRef .tc main_arg3) := by
  after_results_simp

set_option maxRecDepth 8192 in
set_option maxHeartbeats 4000000 in
/-- Chunk 4 leaves the buffer main_arg3 as it was. -/
theorem ops4_keep_main_arg3 (V : Valuation τ sig (Elt F)) :
    after (ops4 (F := F)) V (Proc.devRef .tc main_arg3) = V (Proc.devRef .tc main_arg3) := by
  after_results_simp

set_option maxRecDepth 8192 in
set_option maxHeartbeats 4000000 in
/-- Chunk 3 leaves the buffer main_arg3 as it was. -/
theorem ops3_keep_main_arg3 (V : Valuation τ sig (Elt F)) :
    after (ops3 (F := F)) V (Proc.devRef .tc main_arg3) = V (Proc.devRef .tc main_arg3) := by
  after_results_simp

set_option maxRecDepth 8192 in
set_option maxHeartbeats 4000000 in
/-- Chunk 2 leaves the buffer main_arg3 as it was. -/
theorem ops2_keep_main_arg3 (V : Valuation τ sig (Elt F)) :
    after (ops2 (F := F)) V (Proc.devRef .tc main_arg3) = V (Proc.devRef .tc main_arg3) := by
  after_results_simp

set_option maxRecDepth 8192 in
set_option maxHeartbeats 4000000 in
/-- Chunk 7 leaves the buffer main_arg4 as it was. -/
theorem ops7_keep_main_arg4 (V : Valuation τ sig (Elt F)) :
    after (ops7 (F := F)) V (Proc.devRef .tc main_arg4) = V (Proc.devRef .tc main_arg4) := by
  after_results_simp

set_option maxRecDepth 8192 in
set_option maxHeartbeats 4000000 in
/-- Chunk 6 leaves the buffer main_arg4 as it was. -/
theorem ops6_keep_main_arg4 (V : Valuation τ sig (Elt F)) :
    after (ops6 (F := F)) V (Proc.devRef .tc main_arg4) = V (Proc.devRef .tc main_arg4) := by
  after_results_simp

set_option maxRecDepth 8192 in
set_option maxHeartbeats 4000000 in
/-- Chunk 5 leaves the buffer main_arg4 as it was. -/
theorem ops5_keep_main_arg4 (V : Valuation τ sig (Elt F)) :
    after (ops5 (F := F)) V (Proc.devRef .tc main_arg4) = V (Proc.devRef .tc main_arg4) := by
  after_results_simp

set_option maxRecDepth 8192 in
set_option maxHeartbeats 4000000 in
/-- Chunk 4 leaves the buffer main_arg4 as it was. -/
theorem ops4_keep_main_arg4 (V : Valuation τ sig (Elt F)) :
    after (ops4 (F := F)) V (Proc.devRef .tc main_arg4) = V (Proc.devRef .tc main_arg4) := by
  after_results_simp

set_option maxRecDepth 8192 in
set_option maxHeartbeats 4000000 in
/-- Chunk 7 leaves the buffer main_arg5 as it was. -/
theorem ops7_keep_main_arg5 (V : Valuation τ sig (Elt F)) :
    after (ops7 (F := F)) V (Proc.devRef .tc main_arg5) = V (Proc.devRef .tc main_arg5) := by
  after_results_simp

set_option maxRecDepth 8192 in
set_option maxHeartbeats 4000000 in
/-- Chunk 6 leaves the buffer main_arg5 as it was. -/
theorem ops6_keep_main_arg5 (V : Valuation τ sig (Elt F)) :
    after (ops6 (F := F)) V (Proc.devRef .tc main_arg5) = V (Proc.devRef .tc main_arg5) := by
  after_results_simp

set_option maxRecDepth 8192 in
set_option maxHeartbeats 4000000 in
/-- Chunk 5 leaves the buffer main_arg5 as it was. -/
theorem ops5_keep_main_arg5 (V : Valuation τ sig (Elt F)) :
    after (ops5 (F := F)) V (Proc.devRef .tc main_arg5) = V (Proc.devRef .tc main_arg5) := by
  after_results_simp

set_option maxRecDepth 8192 in
set_option maxHeartbeats 4000000 in
/-- Chunk 4 leaves the buffer main_arg5 as it was. -/
theorem ops4_keep_main_arg5 (V : Valuation τ sig (Elt F)) :
    after (ops4 (F := F)) V (Proc.devRef .tc main_arg5) = V (Proc.devRef .tc main_arg5) := by
  after_results_simp

set_option maxRecDepth 8192 in
set_option maxHeartbeats 4000000 in
/-- Chunk 3 leaves the buffer main_arg5 as it was. -/
theorem ops3_keep_main_arg5 (V : Valuation τ sig (Elt F)) :
    after (ops3 (F := F)) V (Proc.devRef .tc main_arg5) = V (Proc.devRef .tc main_arg5) := by
  after_results_simp

set_option maxRecDepth 8192 in
set_option maxHeartbeats 4000000 in
/-- Chunk 7 leaves the buffer main_arg6 as it was. -/
theorem ops7_keep_main_arg6 (V : Valuation τ sig (Elt F)) :
    after (ops7 (F := F)) V (Proc.devRef .tc main_arg6) = V (Proc.devRef .tc main_arg6) := by
  after_results_simp

set_option maxRecDepth 8192 in
set_option maxHeartbeats 4000000 in
/-- Chunk 6 leaves the buffer main_arg6 as it was. -/
theorem ops6_keep_main_arg6 (V : Valuation τ sig (Elt F)) :
    after (ops6 (F := F)) V (Proc.devRef .tc main_arg6) = V (Proc.devRef .tc main_arg6) := by
  after_results_simp

set_option maxRecDepth 8192 in
set_option maxHeartbeats 4000000 in
/-- Chunk 5 leaves the buffer main_arg6 as it was. -/
theorem ops5_keep_main_arg6 (V : Valuation τ sig (Elt F)) :
    after (ops5 (F := F)) V (Proc.devRef .tc main_arg6) = V (Proc.devRef .tc main_arg6) := by
  after_results_simp

set_option maxRecDepth 8192 in
set_option maxHeartbeats 4000000 in
/-- Chunk 4 leaves the buffer main_arg6 as it was. -/
theorem ops4_keep_main_arg6 (V : Valuation τ sig (Elt F)) :
    after (ops4 (F := F)) V (Proc.devRef .tc main_arg6) = V (Proc.devRef .tc main_arg6) := by
  after_results_simp

set_option maxRecDepth 8192 in
set_option maxHeartbeats 4000000 in
/-- Chunk 7 leaves the buffer main_arg7 as it was. -/
theorem ops7_keep_main_arg7 (V : Valuation τ sig (Elt F)) :
    after (ops7 (F := F)) V (Proc.devRef .tc main_arg7) = V (Proc.devRef .tc main_arg7) := by
  after_results_simp

set_option maxRecDepth 8192 in
set_option maxHeartbeats 4000000 in
/-- Chunk 6 leaves the buffer main_arg7 as it was. -/
theorem ops6_keep_main_arg7 (V : Valuation τ sig (Elt F)) :
    after (ops6 (F := F)) V (Proc.devRef .tc main_arg7) = V (Proc.devRef .tc main_arg7) := by
  after_results_simp

set_option maxRecDepth 8192 in
set_option maxHeartbeats 4000000 in
/-- Chunk 5 leaves the buffer main_arg7 as it was. -/
theorem ops5_keep_main_arg7 (V : Valuation τ sig (Elt F)) :
    after (ops5 (F := F)) V (Proc.devRef .tc main_arg7) = V (Proc.devRef .tc main_arg7) := by
  after_results_simp

set_option maxRecDepth 8192 in
set_option maxHeartbeats 4000000 in
/-- Chunk 4 leaves the buffer main_arg7 as it was. -/
theorem ops4_keep_main_arg7 (V : Valuation τ sig (Elt F)) :
    after (ops4 (F := F)) V (Proc.devRef .tc main_arg7) = V (Proc.devRef .tc main_arg7) := by
  after_results_simp

set_option maxRecDepth 8192 in
set_option maxHeartbeats 4000000 in
/-- Chunk 3 leaves the buffer main_arg7 as it was. -/
theorem ops3_keep_main_arg7 (V : Valuation τ sig (Elt F)) :
    after (ops3 (F := F)) V (Proc.devRef .tc main_arg7) = V (Proc.devRef .tc main_arg7) := by
  after_results_simp

set_option maxRecDepth 8192 in
set_option maxHeartbeats 4000000 in
/-- Chunk 2 leaves the buffer main_arg7 as it was. -/
theorem ops2_keep_main_arg7 (V : Valuation τ sig (Elt F)) :
    after (ops2 (F := F)) V (Proc.devRef .tc main_arg7) = V (Proc.devRef .tc main_arg7) := by
  after_results_simp

set_option maxRecDepth 8192 in
set_option maxHeartbeats 4000000 in
/-- Chunk 1 leaves the buffer main_arg7 as it was. -/
theorem ops1_keep_main_arg7 (V : Valuation τ sig (Elt F)) :
    after (ops1 (F := F)) V (Proc.devRef .tc main_arg7) = V (Proc.devRef .tc main_arg7) := by
  after_results_simp

set_option maxRecDepth 8192 in
set_option maxHeartbeats 4000000 in
/-- Chunk 0 leaves the buffer main_arg7 as it was. -/
theorem ops0_keep_main_arg7 (V : Valuation τ sig (Elt F)) :
    after (ops0 (F := F)) V (Proc.devRef .tc main_arg7) = V (Proc.devRef .tc main_arg7) := by
  after_results_simp

/-! The chains, last chunk first: for each result, the lemmas above that rewrite it down to the launch contents.
  main_v224: ops7_main_v224, ops6_keep_main_v138, ops6_main_v201, ops6_main_v205, ops6_main_v208, ops6_main_v211, ops6_main_v213, ops6_keep_main_v28, ops6_keep_main_v59, ops5_keep_main_arg0, ops5_keep_main_v125, ops5_main_v138, ops5_main_v148, ops5_main_v161, ops5_main_v171, ops5_main_v173, ops5_main_v174, ops5_keep_main_v28, ops5_keep_main_v59, ops5_keep_main_v89, ops4_keep_main_arg0, ops4_keep_main_arg1, ops4_main_v119, ops4_main_v125, ops4_main_v127, ops4_main_v131, ops4_keep_main_v28, ops4_keep_main_v59, ops4_main_v89, ops3_keep_main_arg0, ops3_keep_main_arg1, ops3_keep_main_arg4, ops3_keep_main_arg6, ops3_main_cst_31, ops3_keep_main_v28, ops3_main_v59, ops3_main_v80, ops3_main_v86, ops2_keep_main_arg0, ops2_keep_main_arg1, ops2_keep_main_arg4, ops2_keep_main_arg5, ops2_keep_main_arg6, ops2_keep_main_v28, ops2_keep_main_v31, ops2_main_v40, ops2_main_v41, ops1_keep_main_arg0, ops1_keep_main_arg1, ops1_keep_main_arg3, ops1_keep_main_arg4, ops1_keep_main_arg5, ops1_keep_main_arg6, ops1_keep_main_v28, ops1_main_v31, ops0_keep_main_arg0, ops0_keep_main_arg1, ops0_keep_main_arg3, ops0_keep_main_arg4, ops0_keep_main_arg5, ops0_keep_main_arg6, ops0_main_v28, ops0_main_v30
  main_v28: ops7_keep_main_v28, ops6_keep_main_v28, ops5_keep_main_v28, ops4_keep_main_v28, ops3_keep_main_v28, ops2_keep_main_v28, ops1_keep_main_v28, ops0_main_v28
  main_v59: ops7_keep_main_v59, ops6_keep_main_v59, ops5_keep_main_v59, ops4_keep_main_v59, ops3_main_v59, ops2_keep_main_v31, ops2_main_v40, ops2_main_v41, ops1_keep_main_arg3, ops1_main_v31, ops0_keep_main_arg3, ops0_main_v30
  main_v219: ops7_main_v219, ops6_keep_main_v138, ops6_main_v201, ops6_main_v205, ops6_main_v208, ops6_main_v211, ops6_main_v213, ops5_keep_main_arg0, ops5_keep_main_v125, ops5_main_v138, ops5_main_v148, ops5_main_v161, ops5_main_v171, ops5_main_v173, ops5_main_v174, ops5_keep_main_v89, ops4_keep_main_arg0, ops4_keep_main_arg1, ops4_main_v119, ops4_main_v125, ops4_main_v127, ops4_main_v131, ops4_main_v89, ops3_keep_main_arg0, ops3_keep_main_arg1, ops3_keep_main_arg4, ops3_keep_main_arg6, ops3_main_cst_31, ops3_main_v80, ops3_main_v86, ops2_keep_main_arg0, ops2_keep_main_arg1, ops2_keep_main_arg4, ops2_keep_main_arg5, ops2_keep_main_arg6, ops1_keep_main_arg0, ops1_keep_main_arg1, ops1_keep_main_arg4, ops1_keep_main_arg5, ops1_keep_main_arg6, ops0_keep_main_arg0, ops0_keep_main_arg1, ops0_keep_main_arg4, ops0_keep_main_arg5, ops0_keep_main_arg6
  main_arg0: ops7_keep_main_arg0, ops6_keep_main_arg0, ops5_keep_main_arg0, ops4_keep_main_arg0, ops3_keep_main_arg0, ops2_keep_main_arg0, ops1_keep_main_arg0, ops0_keep_main_arg0
  main_arg1: ops7_keep_main_arg1, ops6_keep_main_arg1, ops5_keep_main_arg1, ops4_keep_main_arg1, ops3_keep_main_arg1, ops2_keep_main_arg1, ops1_keep_main_arg1, ops0_keep_main_arg1
  main_arg2: ops7_keep_main_arg2, ops6_keep_main_arg2, ops5_keep_main_arg2, ops4_keep_main_arg2, ops3_keep_main_arg2, ops2_keep_main_arg2, ops1_keep_main_arg2, ops0_keep_main_arg2
  main_arg3: ops7_keep_main_arg3, ops6_keep_main_arg3, ops5_keep_main_arg3, ops4_keep_main_arg3, ops3_keep_main_arg3, ops2_keep_main_arg3, ops1_keep_main_arg3, ops0_keep_main_arg3
  main_arg4: ops7_keep_main_arg4, ops6_keep_main_arg4, ops5_keep_main_arg4, ops4_keep_main_arg4, ops3_keep_main_arg4, ops2_keep_main_arg4, ops1_keep_main_arg4, ops0_keep_main_arg4
  main_arg5: ops7_keep_main_arg5, ops6_keep_main_arg5, ops5_keep_main_arg5, ops4_keep_main_arg5, ops3_keep_main_arg5, ops2_keep_main_arg5, ops1_keep_main_arg5, ops0_keep_main_arg5
  main_arg6: ops7_keep_main_arg6, ops6_keep_main_arg6, ops5_keep_main_arg6, ops4_keep_main_arg6, ops3_keep_main_arg6, ops2_keep_main_arg6, ops1_keep_main_arg6, ops0_keep_main_arg6
  main_arg7: ops7_keep_main_arg7, ops6_keep_main_arg7, ops5_keep_main_arg7, ops4_keep_main_arg7, ops3_keep_main_arg7, ops2_keep_main_arg7, ops1_keep_main_arg7, ops0_keep_main_arg7
-/

end Cert.ReferenceIdeal.Hand

end
-- ==== Proof.RefRunHand.lean ====
/-
  The run of the reference program. The program is a straight line of host operations; its operation list is the
  concatenation of eight chunks (each window of @main is the line of its chunks, by computation), the line of the whole
  list runs by the rule for a straight line, and what a buffer holds at the end is read chunk by chunk: each chunk's
  lemmas give the buffers it writes over the contents at its entry and say which buffers it leaves alone, and the chains
  below rewrite each result down to the launch contents of the arguments. The composed terms are then the structured
  specification's stages, by unfolding, for any float values.
-/
import proofs.«129784_j68891275428342_2_alg».proof.Proof.RefRunHandVals
import proofs.«129784_j68891275428342_2_alg».proof.Proof.RefSpec

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The contents after two lines run one after the other: the second line's, from the first line's. -/
theorem after_append' : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append' l₁ l₂]

/-- @main's operations, in order: the chunks one after the other. -/
abbrev ops : List (HloOp τ sig (Elt F)) := ops0 ++ (ops1 ++ (ops2 ++ (ops3 ++ (ops4 ++ (ops5 ++ (ops6 ++ (ops7)))))))

/-- @main is the line of its operations: each window is the line of its chunks, and lines compose. -/
theorem main_eq (c : Dev nD) : main (F := F) c = seq ops := by
  unfold main
  rw [main_part0_eq, main_part1_eq, main_part2_eq, main_part3_eq, main_part4_eq, main_part5_eq]
  simp only [ops, seq_append, bind_assoc]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig := by
  refine List.forall_iff_forall_mem.2 fun op h => ?_
  rcases List.mem_append.1 h with h | h
  · exact List.forall_iff_forall_mem.1 ops0_sub op h
  rcases List.mem_append.1 h with h | h
  · exact List.forall_iff_forall_mem.1 ops1_sub op h
  rcases List.mem_append.1 h with h | h
  · exact List.forall_iff_forall_mem.1 ops2_sub op h
  rcases List.mem_append.1 h with h | h
  · exact List.forall_iff_forall_mem.1 ops3_sub op h
  rcases List.mem_append.1 h with h | h
  · exact List.forall_iff_forall_mem.1 ops4_sub op h
  rcases List.mem_append.1 h with h | h
  · exact List.forall_iff_forall_mem.1 ops5_sub op h
  rcases List.mem_append.1 h with h | h
  · exact List.forall_iff_forall_mem.1 ops6_sub op h
  exact List.forall_iff_forall_mem.1 ops7_sub op h

/-- Every operation determines its results. -/
theorem ops_fresh (op : HloOp τ sig (Elt F)) (h : op ∈ (ops : List (HloOp τ sig (Elt F)))) : op.fresh = ∅ := by
  rcases List.mem_append.1 h with h | h
  · exact ops0_fresh op h
  rcases List.mem_append.1 h with h | h
  · exact ops1_fresh op h
  rcases List.mem_append.1 h with h | h
  · exact ops2_fresh op h
  rcases List.mem_append.1 h with h | h
  · exact ops3_fresh op h
  rcases List.mem_append.1 h with h | h
  · exact ops4_fresh op h
  rcases List.mem_append.1 h with h | h
  · exact ops5_fresh op h
  rcases List.mem_append.1 h with h | h
  · exact ops6_fresh op h
  exact ops7_fresh op h

/-- The run, with every TensorCore buffer read at the end as the chunks' contents folded from the launch contents. -/
theorem run_after (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b)
        = after ops7 (after ops6 (after ops5 (after ops4 (after ops3 (after ops2 (after ops1 (after ops0 (launchContents m c)))))))) (Proc.devRef .tc b) :=
  (θ_run defs _ _).mono (fun _ h c b => (h c b).trans (by simp only [ops, after_append']))
    (run_seq scopedRefs_eq scopedSems_eq defs main (fun _ => ops) main_eq (fun _ => ops_sub) m ρ (fun _ op h => ops_fresh op h))

set_option maxRecDepth 16384 in
set_option maxHeartbeats 40000000 in
/-- The total loss at the end of the run is the structured term. -/
theorem end_main_v224 (m : (ℓ : Loc nD τ sig) → Buf (Elt F) ℓ) (c : Dev nD) :
    after ops7 (after ops6 (after ops5 (after ops4 (after ops3 (after ops2 (after ops1 (after ops0 (launchContents m c)))))))) (Proc.devRef .tc main_v224) = Spec.total (Spec.feat (m ((c.tc : Thread nD τ).loc main_arg0)) (m ((c.tc : Thread nD τ).loc main_arg1)) (m ((c.tc : Thread nD τ).loc main_arg7))) (Spec.outl (m ((c.tc : Thread nD τ).loc main_arg2)) (m ((c.tc : Thread nD τ).loc main_arg3))) (Spec.diffa (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6))) := by
  rw [ops7_main_v224, ops6_keep_main_v138, ops6_main_v201, ops6_main_v205, ops6_main_v208, ops6_main_v211,
    ops6_main_v213, ops6_keep_main_v28, ops6_keep_main_v59, ops5_keep_main_arg0, ops5_keep_main_v125, ops5_main_v138,
    ops5_main_v148, ops5_main_v161, ops5_main_v171, ops5_main_v173, ops5_main_v174, ops5_keep_main_v28,
    ops5_keep_main_v59, ops5_keep_main_v89, ops4_keep_main_arg0, ops4_keep_main_arg1, ops4_main_v119, ops4_main_v125,
    ops4_main_v127, ops4_main_v131, ops4_keep_main_v28, ops4_keep_main_v59, ops4_main_v89, ops3_keep_main_arg0,
    ops3_keep_main_arg1, ops3_keep_main_arg4, ops3_keep_main_arg6, ops3_main_cst_31, ops3_keep_main_v28, ops3_main_v59,
    ops3_main_v80, ops3_main_v86, ops2_keep_main_arg0, ops2_keep_main_arg1, ops2_keep_main_arg4, ops2_keep_main_arg5,
    ops2_keep_main_arg6, ops2_keep_main_v28, ops2_keep_main_v31, ops2_main_v40, ops2_main_v41, ops1_keep_main_arg0,
    ops1_keep_main_arg1, ops1_keep_main_arg3, ops1_keep_main_arg4, ops1_keep_main_arg5, ops1_keep_main_arg6, ops1_keep_main_v28,
    ops1_main_v31, ops0_keep_main_arg0, ops0_keep_main_arg1, ops0_keep_main_arg3, ops0_keep_main_arg4, ops0_keep_main_arg5,
    ops0_keep_main_arg6, ops0_main_v28, ops0_main_v30]
  rfl

set_option maxRecDepth 16384 in
set_option maxHeartbeats 40000000 in
/-- The feature loss at the end of the run is the structured term. -/
theorem end_main_v28 (m : (ℓ : Loc nD τ sig) → Buf (Elt F) ℓ) (c : Dev nD) :
    after ops7 (after ops6 (after ops5 (after ops4 (after ops3 (after ops2 (after ops1 (after ops0 (launchContents m c)))))))) (Proc.devRef .tc main_v28) = Spec.feat (m ((c.tc : Thread nD τ).loc main_arg0)) (m ((c.tc : Thread nD τ).loc main_arg1)) (m ((c.tc : Thread nD τ).loc main_arg7)) := by
  rw [ops7_keep_main_v28, ops6_keep_main_v28, ops5_keep_main_v28, ops4_keep_main_v28, ops3_keep_main_v28, ops2_keep_main_v28,
    ops1_keep_main_v28, ops0_main_v28]
  rfl

set_option maxRecDepth 16384 in
set_option maxHeartbeats 40000000 in
/-- The output loss at the end of the run is the structured term. -/
theorem end_main_v59 (m : (ℓ : Loc nD τ sig) → Buf (Elt F) ℓ) (c : Dev nD) :
    after ops7 (after ops6 (after ops5 (after ops4 (after ops3 (after ops2 (after ops1 (after ops0 (launchContents m c)))))))) (Proc.devRef .tc main_v59) = Spec.outl (m ((c.tc : Thread nD τ).loc main_arg2)) (m ((c.tc : Thread nD τ).loc main_arg3)) := by
  rw [ops7_keep_main_v59, ops6_keep_main_v59, ops5_keep_main_v59, ops4_keep_main_v59, ops3_main_v59, ops2_keep_main_v31,
    ops2_main_v40, ops2_main_v41, ops1_keep_main_arg3, ops1_main_v31, ops0_keep_main_arg3, ops0_main_v30]
  rfl

set_option maxRecDepth 16384 in
set_option maxHeartbeats 40000000 in
/-- The difference-attention loss at the end of the run is the structured term. -/
theorem end_main_v219 (m : (ℓ : Loc nD τ sig) → Buf (Elt F) ℓ) (c : Dev nD) :
    after ops7 (after ops6 (after ops5 (after ops4 (after ops3 (after ops2 (after ops1 (after ops0 (launchContents m c)))))))) (Proc.devRef .tc main_v219) = Spec.diffa (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) := by
  rw [ops7_main_v219, ops6_keep_main_v138, ops6_main_v201, ops6_main_v205, ops6_main_v208, ops6_main_v211,
    ops6_main_v213, ops5_keep_main_arg0, ops5_keep_main_v125, ops5_main_v138, ops5_main_v148, ops5_main_v161,
    ops5_main_v171, ops5_main_v173, ops5_main_v174, ops5_keep_main_v89, ops4_keep_main_arg0, ops4_keep_main_arg1,
    ops4_main_v119, ops4_main_v125, ops4_main_v127, ops4_main_v131, ops4_main_v89, ops3_keep_main_arg0,
    ops3_keep_main_arg1, ops3_keep_main_arg4, ops3_keep_main_arg6, ops3_main_cst_31, ops3_main_v80, ops3_main_v86,
    ops2_keep_main_arg0, ops2_keep_main_arg1, ops2_keep_main_arg4, ops2_keep_main_arg5, ops2_keep_main_arg6, ops1_keep_main_arg0,
    ops1_keep_main_arg1, ops1_keep_main_arg4, ops1_keep_main_arg5, ops1_keep_main_arg6, ops0_keep_main_arg0, ops0_keep_main_arg1,
    ops0_keep_main_arg4, ops0_keep_main_arg5, ops0_keep_main_arg6]
  rfl

/-- Argument 0 is as it was at the launch. -/
theorem end_main_arg0 (m : (ℓ : Loc nD τ sig) → Buf (Elt F) ℓ) (c : Dev nD) :
    after ops7 (after ops6 (after ops5 (after ops4 (after ops3 (after ops2 (after ops1 (after ops0 (launchContents m c)))))))) (Proc.devRef .tc main_arg0) = m ((c.tc : Thread nD τ).loc main_arg0) := by
  rw [ops7_keep_main_arg0, ops6_keep_main_arg0, ops5_keep_main_arg0, ops4_keep_main_arg0, ops3_keep_main_arg0, ops2_keep_main_arg0,
    ops1_keep_main_arg0, ops0_keep_main_arg0]

/-- Argument 1 is as it was at the launch. -/
theorem end_main_arg1 (m : (ℓ : Loc nD τ sig) → Buf (Elt F) ℓ) (c : Dev nD) :
    after ops7 (after ops6 (after ops5 (after ops4 (after ops3 (after ops2 (after ops1 (after ops0 (launchContents m c)))))))) (Proc.devRef .tc main_arg1) = m ((c.tc : Thread nD τ).loc main_arg1) := by
  rw [ops7_keep_main_arg1, ops6_keep_main_arg1, ops5_keep_main_arg1, ops4_keep_main_arg1, ops3_keep_main_arg1, ops2_keep_main_arg1,
    ops1_keep_main_arg1, ops0_keep_main_arg1]

/-- Argument 2 is as it was at the launch. -/
theorem end_main_arg2 (m : (ℓ : Loc nD τ sig) → Buf (Elt F) ℓ) (c : Dev nD) :
    after ops7 (after ops6 (after ops5 (after ops4 (after ops3 (after ops2 (after ops1 (after ops0 (launchContents m c)))))))) (Proc.devRef .tc main_arg2) = m ((c.tc : Thread nD τ).loc main_arg2) := by
  rw [ops7_keep_main_arg2, ops6_keep_main_arg2, ops5_keep_main_arg2, ops4_keep_main_arg2, ops3_keep_main_arg2, ops2_keep_main_arg2,
    ops1_keep_main_arg2, ops0_keep_main_arg2]

/-- Argument 3 is as it was at the launch. -/
theorem end_main_arg3 (m : (ℓ : Loc nD τ sig) → Buf (Elt F) ℓ) (c : Dev nD) :
    after ops7 (after ops6 (after ops5 (after ops4 (after ops3 (after ops2 (after ops1 (after ops0 (launchContents m c)))))))) (Proc.devRef .tc main_arg3) = m ((c.tc : Thread nD τ).loc main_arg3) := by
  rw [ops7_keep_main_arg3, ops6_keep_main_arg3, ops5_keep_main_arg3, ops4_keep_main_arg3, ops3_keep_main_arg3, ops2_keep_main_arg3,
    ops1_keep_main_arg3, ops0_keep_main_arg3]

/-- Argument 4 is as it was at the launch. -/
theorem end_main_arg4 (m : (ℓ : Loc nD τ sig) → Buf (Elt F) ℓ) (c : Dev nD) :
    after ops7 (after ops6 (after ops5 (after ops4 (after ops3 (after ops2 (after ops1 (after ops0 (launchContents m c)))))))) (Proc.devRef .tc main_arg4) = m ((c.tc : Thread nD τ).loc main_arg4) := by
  rw [ops7_keep_main_arg4, ops6_keep_main_arg4, ops5_keep_main_arg4, ops4_keep_main_arg4, ops3_keep_main_arg4, ops2_keep_main_arg4,
    ops1_keep_main_arg4, ops0_keep_main_arg4]

/-- Argument 5 is as it was at the launch. -/
theorem end_main_arg5 (m : (ℓ : Loc nD τ sig) → Buf (Elt F) ℓ) (c : Dev nD) :
    after ops7 (after ops6 (after ops5 (after ops4 (after ops3 (after ops2 (after ops1 (after ops0 (launchContents m c)))))))) (Proc.devRef .tc main_arg5) = m ((c.tc : Thread nD τ).loc main_arg5) := by
  rw [ops7_keep_main_arg5, ops6_keep_main_arg5, ops5_keep_main_arg5, ops4_keep_main_arg5, ops3_keep_main_arg5, ops2_keep_main_arg5,
    ops1_keep_main_arg5, ops0_keep_main_arg5]

/-- Argument 6 is as it was at the launch. -/
theorem end_main_arg6 (m : (ℓ : Loc nD τ sig) → Buf (Elt F) ℓ) (c : Dev nD) :
    after ops7 (after ops6 (after ops5 (after ops4 (after ops3 (after ops2 (after ops1 (after ops0 (launchContents m c)))))))) (Proc.devRef .tc main_arg6) = m ((c.tc : Thread nD τ).loc main_arg6) := by
  rw [ops7_keep_main_arg6, ops6_keep_main_arg6, ops5_keep_main_arg6, ops4_keep_main_arg6, ops3_keep_main_arg6, ops2_keep_main_arg6,
    ops1_keep_main_arg6, ops0_keep_main_arg6]

/-- Argument 7 is as it was at the launch. -/
theorem end_main_arg7 (m : (ℓ : Loc nD τ sig) → Buf (Elt F) ℓ) (c : Dev nD) :
    after ops7 (after ops6 (after ops5 (after ops4 (after ops3 (after ops2 (after ops1 (after ops0 (launchContents m c)))))))) (Proc.devRef .tc main_arg7) = m ((c.tc : Thread nD τ).loc main_arg7) := by
  rw [ops7_keep_main_arg7, ops6_keep_main_arg7, ops5_keep_main_arg7, ops4_keep_main_arg7, ops3_keep_main_arg7, ops2_keep_main_arg7,
    ops1_keep_main_arg7, ops0_keep_main_arg7]

/-- On every device, for any float values, from any memory with zero counters: every weakly fair execution of the
    reference program terminates with its four results at the structured terms of the argument arrays, and the arguments
    unchanged. -/
theorem run_spec (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v224) = Spec.total (Spec.feat (m ((c.tc : Thread nD τ).loc main_arg0)) (m ((c.tc : Thread nD τ).loc main_arg1)) (m ((c.tc : Thread nD τ).loc main_arg7))) (Spec.outl (m ((c.tc : Thread nD τ).loc main_arg2)) (m ((c.tc : Thread nD τ).loc main_arg3))) (Spec.diffa (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)))
      ∧ r.2.mem ((c.tc : Thread nD τ).loc main_v28) = Spec.feat (m ((c.tc : Thread nD τ).loc main_arg0)) (m ((c.tc : Thread nD τ).loc main_arg1)) (m ((c.tc : Thread nD τ).loc main_arg7))
      ∧ r.2.mem ((c.tc : Thread nD τ).loc main_v59) = Spec.outl (m ((c.tc : Thread nD τ).loc main_arg2)) (m ((c.tc : Thread nD τ).loc main_arg3))
      ∧ r.2.mem ((c.tc : Thread nD τ).loc main_v219) = Spec.diffa (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
      ⟨(h c main_v224).trans (end_main_v224 m c), (h c main_v28).trans (end_main_v28 m c),
        (h c main_v59).trans (end_main_v59 m c), (h c main_v219).trans (end_main_v219 m c),
        (h c main_arg0).trans (end_main_arg0 m c), (h c main_arg1).trans (end_main_arg1 m c), (h c main_arg2).trans (end_main_arg2 m c), (h c main_arg3).trans (end_main_arg3 m c), (h c main_arg4).trans (end_main_arg4 m c), (h c main_arg5).trans (end_main_arg5 m c), (h c main_arg6).trans (end_main_arg6 m c), (h c main_arg7).trans (end_main_arg7 m c)⟩)
    (run_after m ρ)

end Cert.ReferenceIdeal.Hand

end
-- ==== Proof.Finite.lean ====
/-
  Finiteness out of the precondition: the precondition says that, for each of the eight argument arrays, "every entry has
  absolute value below +∞" holds of all entries at once (a conjunction, over the arrays, of an all-entries reduction by
  `and`); read back entry by entry, every entry of every argument array is a real number.
-/
import proofs.«129784_j68891275428342_2_alg».proof.Defs
import proofs.«129784_j68891275428342_2_alg».proof.Proof.Gen.Pre_finite_inputs
import Idealize.ShloMosaic.Lib.ReduceAll
import Idealize.ShloMosaic.Lib.ValueIdx

noncomputable section

namespace Cert.Finite

open Idealize.ShloMosaic Idealize.SL.Sem

/-- An extended real whose absolute value `max x (-x)` is below `+∞` is a real: `-∞` and `+∞` both have absolute
    value `+∞`. -/
theorem real_of_abs_lt_top (x : EReal) (h : max x (-x) < ⊤) : ∃ r : ℝ, x = (r : EReal) := by
  induction x using EReal.rec with
  | bot => simp at h
  | coe r => exact ⟨r, rfl⟩
  | top => simp at h

/-- The f32 word `0x7F800000` denotes `+∞`. -/
theorem ofBits_pos_inf_f32 : Ideal.ofBits .f32 0x7F800000#32 = ⊤ := by
  simp [Ideal.ofBits, Ideal.ieee]

/-- An entry for which the comparison "absolute value below the word of `+∞`" came out true is a real. -/
theorem real_of_cmp (x : EReal) (h : Ideal.cmp .olt (max x (-x)) (Ideal.ofBits .f32 0x7F800000#32) = 1#1) :
    ∃ r : ℝ, x = (r : EReal) := by
  rw [ofBits_pos_inf_f32] at h
  refine real_of_abs_lt_top x ?_
  by_contra hn
  simp [Ideal.cmp, hn] at h

/-- If the reduction by `and`, into a result of one index, of the entrywise comparison "absolute value of `x` below
    `b`" came out true, and `b` is the word of `+∞` everywhere, then every entry of `x` is a real. -/
theorem all_real_of_all {s t u : Shape} {axes : List (Fin s.rank)} [Subsingleton t.Idx] (x b : FVec Ideal s .f32)
    (hb : ∀ i, b i = Ideal.ofBits .f32 0x7F800000#32) (init : u.Idx → BitVec 1) (h' : s.ReducesTo axes t)
    (hu : 0 < u.numel) (j : t.Idx)
    (e : Host.reduce IntOp.andi (cmpf .olt (Host.absf x) b) init h' hu j = 1#1) (i : s.Idx) :
    ∃ r : ℝ, x i = (r : EReal) := by
  have hi := Host.reduce_andi_all _ init h' hu j e i
  refine real_of_cmp (x i) ?_
  rw [← hb i]
  exact hi

/-- The rank-0 shape has one index. -/
instance : Subsingleton Cert.Pre_finite_inputs.S_.Idx := ⟨fun _ _ => funext fun d => d.elim0⟩

/-- Under the precondition every entry of each of the eight argument arrays is a real number, on every device. -/
theorem finite_of_pre [hP : Cert.Pre_finite_inputs.Facts] [Cert.KernelIdeal.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread _ _).loc Cert.KernelIdeal.main_arg0) i = (r : EReal))
      ∧ (∀ i, ∃ r : ℝ, m ((c.tc : Thread _ _).loc Cert.KernelIdeal.main_arg1) i = (r : EReal))
      ∧ (∀ i, ∃ r : ℝ, m ((c.tc : Thread _ _).loc Cert.KernelIdeal.main_arg7) i = (r : EReal))
      ∧ (∀ i, ∃ r : ℝ, m ((c.tc : Thread _ _).loc Cert.KernelIdeal.main_arg2) i = (r : EReal))
      ∧ (∀ i, ∃ r : ℝ, m ((c.tc : Thread _ _).loc Cert.KernelIdeal.main_arg3) i = (r : EReal))
      ∧ (∀ i, ∃ r : ℝ, m ((c.tc : Thread _ _).loc Cert.KernelIdeal.main_arg4) i = (r : EReal))
      ∧ (∀ i, ∃ r : ℝ, m ((c.tc : Thread _ _).loc Cert.KernelIdeal.main_arg5) i = (r : EReal))
      ∧ (∀ i, ∃ r : ℝ, m ((c.tc : Thread _ _).loc Cert.KernelIdeal.main_arg6) i = (r : EReal)) := by
  have h0 := congrFun (h c) ValueIdx.ix0
  dsimp only [Cert.Pre_finite_inputs.fn, Cert.Pre_finite_inputs.fn_part1, Cert.Pre_finite_inputs.fn_part2] at h0
  obtain ⟨h33, h37⟩ := IntOp.andi_eq_one.1 h0
  obtain ⟨h28, h32⟩ := IntOp.andi_eq_one.1 h33
  obtain ⟨h23, h27⟩ := IntOp.andi_eq_one.1 h28
  obtain ⟨h18, h22⟩ := IntOp.andi_eq_one.1 h23
  obtain ⟨h13, h17⟩ := IntOp.andi_eq_one.1 h18
  obtain ⟨h8, h12⟩ := IntOp.andi_eq_one.1 h13
  obtain ⟨h3, h7⟩ := IntOp.andi_eq_one.1 h8
  exact ⟨fun i => all_real_of_all _ _ (fun _ => rfl) _ _ _ _ h3 i,
    fun i => all_real_of_all _ _ (fun _ => rfl) _ _ _ _ h7 i,
    fun i => all_real_of_all _ _ (fun _ => rfl) _ _ _ _ h37 i,
    fun i => all_real_of_all _ _ (fun _ => rfl) _ _ _ _ h12 i,
    fun i => all_real_of_all _ _ (fun _ => rfl) _ _ _ _ h17 i,
    fun i => all_real_of_all _ _ (fun _ => rfl) _ _ _ _ h22 i,
    fun i => all_real_of_all _ _ (fun _ => rfl) _ _ _ _ h27 i,
    fun i => all_real_of_all _ _ (fun _ => rfl) _ _ _ _ h32 i⟩

end Cert.Finite

end
-- ==== Proof.BridgeFeat.lean ====
/- The feature loss of the kernel program's host tail, read over the kernel region's output arrays,
   is the feature loss of the reference specification, at the ideal float instance: the per-batch
   totals summed over the batch are the reference's full sums (the masked one for finite entries,
   where (s·k − t·k)² = (s − t)²·k²), and the re-laid per-channel spatial means are the reference's. -/
import proofs.«129784_j68891275428342_2_alg».proof.Proof.RefSpec
import proofs.«129784_j68891275428342_2_alg».proof.Proof.Ideal.TailDefs
import proofs.«129784_j68891275428342_2_alg».proof.Proof.LibSums
import proofs.«129784_j68891275428342_2_alg».proof.Proof.Iface

noncomputable section

open scoped BigOperators

namespace Cert.Bridge

open Idealize.ShloMosaic Idealize.ShloMosaic.ValueIdx Idealize.ShloMosaic.LibSums

variable [Cert.ReferenceIdeal.Facts₀]

/-! ## Reading the re-layings at an index -/

/-- An [a, 1, 1] array cast to [a] reads, at i, the operand at (i, 0, 0). -/
theorem shapeCast_a11_a_apply {α : Type} {a : ℕ} (x : (⟨3, ![a, 1, 1]⟩ : Shape).Idx → α)
    (h : (⟨3, ![a, 1, 1]⟩ : Shape).ShapeCasts ⟨1, ![a]⟩) (i : Fin a) :
    shapeCast ⟨1, ![a]⟩ x h (ix1 i) = x (ix3 i (0 : Fin 1) (0 : Fin 1)) :=
  shapeCast_apply x h _ _ (by
    rw [Shape.rowMajor_val_three, Shape.rowMajor_val_one]
    show (i.val * 1 + 0) * 1 + 0 = i.val
    omega)

/-- The mask repeated along the channel axis reads, at (b, c, h, w), the mask at (b, 0, h, w). -/
theorem bmask_apply (k : FVec Ideal Cert.ReferenceIdeal.S8x1x64x64 .f32) (b : Fin 8) (c : Fin 256) (h w : Fin 64) :
    Cert.ReferenceIdeal.Spec.bmask k (ix4 b c h w) = k (ix4 b (0 : Fin 1) h w) := by
  unfold Cert.ReferenceIdeal.Spec.bmask
  exact broadcastInDim_apply _ _ _ _ _ (fun a => match a with
    | ⟨0, _⟩ => rfl
    | ⟨1, _⟩ => rfl
    | ⟨2, _⟩ => rfl
    | ⟨3, _⟩ => rfl)

/-! ## The two full sums -/

/-- Row 0 of the per-batch totals, summed over the batch. -/
theorem sumRow0_apply (sc : FVec Ideal Cert.KernelIdeal.S8x2x128 .f32) (j : Cert.KernelIdeal.S_.Idx) :
    Cert.KernelIdeal.Tail.sumRow0 sc j = ∑ b : Fin 8, sc (ix3 b (0 : Fin 2) (0 : Fin 128)) := by
  unfold Cert.KernelIdeal.Tail.sumRow0
  refine (hostSum_all1 _ _ _ _ (fun b => b.elim0) j).trans ?_
  rw [constant_apply, Ideal.ofBits_zero_f32, zero_add]
  refine Finset.sum_congr rfl fun b _ => ?_
  refine (shapeCast_a11_a_apply _ _ b).trans ?_
  exact extractStridedSlice_apply _ _ _ _ _ (fun a => match a with
    | ⟨0, _⟩ => by show b.val = 0 + b.val; omega
    | ⟨1, _⟩ => rfl
    | ⟨2, _⟩ => rfl)

/-- Row 1 of the per-batch totals, summed over the batch. -/
theorem sumRow1_apply (sc : FVec Ideal Cert.KernelIdeal.S8x2x128 .f32) (j : Cert.KernelIdeal.S_.Idx) :
    Cert.KernelIdeal.Tail.sumRow1 sc j = ∑ b : Fin 8, sc (ix3 b (1 : Fin 2) (0 : Fin 128)) := by
  unfold Cert.KernelIdeal.Tail.sumRow1
  refine (hostSum_all1 _ _ _ _ (fun b => b.elim0) j).trans ?_
  rw [constant_apply, Ideal.ofBits_zero_f32, zero_add]
  refine Finset.sum_congr rfl fun b _ => ?_
  refine (shapeCast_a11_a_apply _ _ b).trans ?_
  exact extractStridedSlice_apply _ _ _ _ _ (fun a => match a with
    | ⟨0, _⟩ => by show b.val = 0 + b.val; omega
    | ⟨1, _⟩ => rfl
    | ⟨2, _⟩ => rfl)

/-- The reference's sum over all four axes of [8,256,64,64], from zero. -/
theorem refSum4_apply (x : FVec Ideal Cert.ReferenceIdeal.S8x256x64x64 .f32) (j : Cert.ReferenceIdeal.S_.Idx) :
    Host.reduceAdd x (constant Cert.ReferenceIdeal.S_ .f32 0x00000000#32)
        Cert.ReferenceIdeal.Facts₀.reducesTo_S8x256x64x64_S_d0_1_2_3 Cert.ReferenceIdeal.Facts₀.h_S_ j
      = ∑ b : Fin 8, ∑ c : Fin 256, ∑ h : Fin 64, ∑ w : Fin 64, x (ix4 b c h w) := by
  refine (hostSum_all4 _ _ _ _ (fun b => b.elim0) j).trans ?_
  rw [constant_apply, Ideal.ofBits_zero_f32, zero_add]

/-- The tail's row-0 total is the reference's full sum of (a0 − a1)². -/
theorem sumRow0_eq (a0 a1 : FVec Ideal Cert.ReferenceIdeal.S8x256x64x64 .f32)
    (sc : FVec Ideal Cert.KernelIdeal.S8x2x128 .f32)
    (h12a : ∀ (b : Fin 8) (l : Fin 128), sc (ix3 b (0 : Fin 2) l)
      = ∑ c : Fin 256, ∑ h : Fin 64, ∑ w : Fin 64,
          (a0 (ix4 b c h w) - a1 (ix4 b c h w)) * (a0 (ix4 b c h w) - a1 (ix4 b c h w))) :
    Cert.KernelIdeal.Tail.sumRow0 sc
      = Host.reduceAdd (mulf (subf a0 a1) (subf a0 a1)) (constant Cert.ReferenceIdeal.S_ .f32 0x00000000#32)
          Cert.ReferenceIdeal.Facts₀.reducesTo_S8x256x64x64_S_d0_1_2_3 Cert.ReferenceIdeal.Facts₀.h_S_ := by
  funext j
  rw [sumRow0_apply, refSum4_apply]
  refine Finset.sum_congr rfl fun b _ => ?_
  rw [h12a b 0]
  rfl

/-- The tail's row-1 total is the reference's full sum of (a0·k − a1·k)², for finite entries. -/
theorem sumRow1_eq (a0 a1 : FVec Ideal Cert.ReferenceIdeal.S8x256x64x64 .f32)
    (a7 : FVec Ideal Cert.ReferenceIdeal.S8x1x64x64 .f32)
    (sc : FVec Ideal Cert.KernelIdeal.S8x2x128 .f32)
    (hfin0 : ∀ i, ∃ r : ℝ, a0 i = (r : EReal)) (hfin1 : ∀ i, ∃ r : ℝ, a1 i = (r : EReal))
    (hfin7 : ∀ i, ∃ r : ℝ, a7 i = (r : EReal))
    (h12b : ∀ (b : Fin 8) (l : Fin 128), sc (ix3 b (1 : Fin 2) l)
      = ∑ c : Fin 256, ∑ h : Fin 64, ∑ w : Fin 64,
          (a0 (ix4 b c h w) - a1 (ix4 b c h w)) * (a0 (ix4 b c h w) - a1 (ix4 b c h w))
            * (a7 (ix4 b (0 : Fin 1) h w) * a7 (ix4 b (0 : Fin 1) h w))) :
    Cert.KernelIdeal.Tail.sumRow1 sc
      = Host.reduceAdd
          (mulf (subf (mulf a0 (Cert.ReferenceIdeal.Spec.bmask a7)) (mulf a1 (Cert.ReferenceIdeal.Spec.bmask a7)))
            (subf (mulf a0 (Cert.ReferenceIdeal.Spec.bmask a7)) (mulf a1 (Cert.ReferenceIdeal.Spec.bmask a7))))
          (constant Cert.ReferenceIdeal.S_ .f32 0x00000000#32)
          Cert.ReferenceIdeal.Facts₀.reducesTo_S8x256x64x64_S_d0_1_2_3 Cert.ReferenceIdeal.Facts₀.h_S_ := by
  funext j
  rw [sumRow1_apply, refSum4_apply]
  refine Finset.sum_congr rfl fun b _ => ?_
  rw [h12b b 0]
  refine Finset.sum_congr rfl fun c _ => Finset.sum_congr rfl fun h _ => Finset.sum_congr rfl fun w _ => ?_
  show _ = (a0 (ix4 b c h w) * Cert.ReferenceIdeal.Spec.bmask a7 (ix4 b c h w)
        - a1 (ix4 b c h w) * Cert.ReferenceIdeal.Spec.bmask a7 (ix4 b c h w))
      * (a0 (ix4 b c h w) * Cert.ReferenceIdeal.Spec.bmask a7 (ix4 b c h w)
        - a1 (ix4 b c h w) * Cert.ReferenceIdeal.Spec.bmask a7 (ix4 b c h w))
  rw [bmask_apply]
  obtain ⟨r0, hr0⟩ := hfin0 (ix4 b c h w)
  obtain ⟨r1, hr1⟩ := hfin1 (ix4 b c h w)
  obtain ⟨r7, hr7⟩ := hfin7 (ix4 b (0 : Fin 1) h w)
  rw [hr0, hr1, hr7]
  exact (scaled_diff_sq r0 r1 r7).symm

/-! ## The channel statistics -/

/-- The reference's spatial mean at (b, c, 0, 0): the sum over the plane times the word of 1/4096. -/
theorem mean23_apply (a : FVec Ideal Cert.ReferenceIdeal.S8x256x64x64 .f32) (b : Fin 8) (c : Fin 256) (u v : Fin 1) :
    Cert.ReferenceIdeal.Spec.mean23 a (ix4 b c u v)
      = (∑ h : Fin 64, ∑ w : Fin 64, a (ix4 b c h w)) * Ideal.ofBits .f32 0x39800000#32 := by
  unfold Cert.ReferenceIdeal.Spec.mean23 Cert.ReferenceIdeal.Spec.splatC
  show Ideal.div _ (Ideal.ofBits .f32 0x45800000#32) = _
  rw [div_word_4096]
  refine congrArg (· * Ideal.ofBits .f32 0x39800000#32) ?_
  refine (broadcastInDim_apply _ _ _ _ (ix2 b c) (fun a => match a with
    | ⟨0, _⟩ => rfl
    | ⟨1, _⟩ => rfl)).trans ?_
  rw [hostSum_axes23_of4_ix, constant_apply, Ideal.ofBits_zero_f32, zero_add]

/-- A pooled [8,2,1,128] array read as [8,256], at (b, k): the operand at (b, k / 128, 0, k % 128). -/
theorem flat_apply (c : FVec Ideal Cert.KernelIdeal.S8x2x1x128 .f32) (b : Fin 8) (k : Fin 256) :
    Cert.KernelIdeal.Tail.flat c (ix2 b k)
      = c (ix4 b (⟨k.val / 128, by omega⟩ : Fin 2) (0 : Fin 1) (⟨k.val % 128, by omega⟩ : Fin 128)) := by
  unfold Cert.KernelIdeal.Tail.flat
  exact shapeCast_nm1k_nN_apply (by norm_num : 256 = 2 * 128) c _ b k

/-- The re-laid kernel means are the reference's spatial means. -/
theorem flat_eq_mean23 (a : FVec Ideal Cert.ReferenceIdeal.S8x256x64x64 .f32)
    (c6 : FVec Ideal Cert.KernelIdeal.S8x2x1x128 .f32)
    (h6 : ∀ (b : Fin 8) (cc : Fin 2) (ch : Fin 128), c6 (ix4 b cc (0 : Fin 1) ch)
      = (∑ h : Fin 64, ∑ w : Fin 64, a (ix4 b (⟨cc.val * 128 + ch.val, by omega⟩ : Fin 256) h w))
          * Ideal.ofBits .f32 0x39800000#32)
    (b : Fin 8) (k : Fin 256) (u v : Fin 1) :
    Cert.KernelIdeal.Tail.flat c6 (ix2 b k) = Cert.ReferenceIdeal.Spec.mean23 a (ix4 b k u v) := by
  rw [flat_apply, h6, mean23_apply]
  have hk : (⟨k.val / 128 * 128 + k.val % 128, by omega⟩ : Fin 256) = k := Fin.ext (Nat.div_add_mod' k.val 128)
  rw [hk]

/-- The tail's channel loss over the re-laid kernel means is the reference's channel loss. -/
theorem chanLossF_eq (a0 a1 : FVec Ideal Cert.ReferenceIdeal.S8x256x64x64 .f32)
    (c6 c7 : FVec Ideal Cert.KernelIdeal.S8x2x1x128 .f32)
    (h6 : ∀ (b : Fin 8) (cc : Fin 2) (ch : Fin 128), c6 (ix4 b cc (0 : Fin 1) ch)
      = (∑ h : Fin 64, ∑ w : Fin 64, a0 (ix4 b (⟨cc.val * 128 + ch.val, by omega⟩ : Fin 256) h w))
          * Ideal.ofBits .f32 0x39800000#32)
    (h7 : ∀ (b : Fin 8) (cc : Fin 2) (ch : Fin 128), c7 (ix4 b cc (0 : Fin 1) ch)
      = (∑ h : Fin 64, ∑ w : Fin 64, a1 (ix4 b (⟨cc.val * 128 + ch.val, by omega⟩ : Fin 256) h w))
          * Ideal.ofBits .f32 0x39800000#32) :
    Cert.KernelIdeal.Tail.chanLossF c6 c7 = Cert.ReferenceIdeal.Spec.chanLossF a0 a1 := by
  unfold Cert.KernelIdeal.Tail.chanLossF Cert.ReferenceIdeal.Spec.chanLossF Cert.ReferenceIdeal.Spec.mseC
  funext j
  show Ideal.div _ (Ideal.ofBits .f32 0x45000000#32) = Ideal.div _ (Ideal.ofBits .f32 0x45000000#32)
  refine congrArg (fun x => Ideal.div x (Ideal.ofBits .f32 0x45000000#32)) ?_
  rw [hostSum_all2 _ _ _ _ (fun b => b.elim0), hostSum_all4 _ _ _ _ (fun b => b.elim0)]
  refine congrArg (_ + ·) (Finset.sum_congr rfl fun b _ => Finset.sum_congr rfl fun k _ => ?_)
  rw [Fin.sum_univ_one, Fin.sum_univ_one]
  show (Cert.KernelIdeal.Tail.flat c6 (ix2 b k) - Cert.KernelIdeal.Tail.flat c7 (ix2 b k))
      * (Cert.KernelIdeal.Tail.flat c6 (ix2 b k) - Cert.KernelIdeal.Tail.flat c7 (ix2 b k))
    = (Cert.ReferenceIdeal.Spec.mean23 a0 (ix4 b k (0 : Fin 1) (0 : Fin 1))
        - Cert.ReferenceIdeal.Spec.mean23 a1 (ix4 b k (0 : Fin 1) (0 : Fin 1)))
      * (Cert.ReferenceIdeal.Spec.mean23 a0 (ix4 b k (0 : Fin 1) (0 : Fin 1))
        - Cert.ReferenceIdeal.Spec.mean23 a1 (ix4 b k (0 : Fin 1) (0 : Fin 1)))
  rw [flat_eq_mean23 a0 c6 h6 b k 0 0, flat_eq_mean23 a1 c7 h7 b k 0 0]

/-! ## The feature loss -/

/-- The tail's feature loss over the kernel region's outputs is the reference's feature loss of the
    arguments, for finite argument entries. -/
theorem feat_bridge (a0 a1 : FVec Ideal Cert.ReferenceIdeal.S8x256x64x64 .f32)
    (a7 : FVec Ideal Cert.ReferenceIdeal.S8x1x64x64 .f32)
    (c6 c7 : FVec Ideal Cert.KernelIdeal.S8x2x1x128 .f32) (sc : FVec Ideal Cert.KernelIdeal.S8x2x128 .f32)
    (hfin0 : ∀ i, ∃ r : ℝ, a0 i = (r : EReal)) (hfin1 : ∀ i, ∃ r : ℝ, a1 i = (r : EReal))
    (hfin7 : ∀ i, ∃ r : ℝ, a7 i = (r : EReal))
    (h6 : Cert.Iface.HMean c6 a0) (h7 : Cert.Iface.HMean c7 a1)
    (h12a : Cert.Iface.HSumSq sc a0 a1) (h12b : Cert.Iface.HSumSqMask sc a0 a1 a7) :
    Cert.KernelIdeal.Tail.feat c6 c7 sc = Cert.ReferenceIdeal.Spec.feat a0 a1 a7 := by
  have e0 := sumRow0_eq a0 a1 sc h12a
  have e1 := sumRow1_eq a0 a1 a7 sc hfin0 hfin1 hfin7 h12b
  have e2 := chanLossF_eq a0 a1 c6 c7 h6 h7
  unfold Cert.KernelIdeal.Tail.feat Cert.ReferenceIdeal.Spec.feat Cert.ReferenceIdeal.Spec.globalLoss
    Cert.ReferenceIdeal.Spec.localLoss Cert.ReferenceIdeal.Spec.mse4
  rw [e0, e1, e2]

end Cert.Bridge

end
-- ==== Proof.BridgeOut.lean ====
/- The output loss of the kernel program's host tail and the output loss of the reference
   specification are the same function of the two logit arrays: the two texts use the same host
   operations, constants and shapes, and their shape evidence proves the same propositions. -/
import proofs.«129784_j68891275428342_2_alg».proof.Proof.RefSpec
import proofs.«129784_j68891275428342_2_alg».proof.Proof.Ideal.TailDefs

noncomputable section

namespace Cert.Bridge

open Idealize.ShloMosaic

variable {F : FTy → Type} [FloatOps F] [Cert.ReferenceIdeal.Facts₀]

set_option maxRecDepth 8192 in
/-- Both output losses are: the Kullback–Leibler term of log_softmax (a2 / 4) against softmax (a3 / 4)
    plus the class-1 term, with the same constants; they agree by unfolding. -/
theorem outl_bridge (a2 a3 : FVec F Cert.ReferenceIdeal.S8x2x256x256 .f32) :
    Cert.KernelIdeal.Tail.outl a2 a3 = Cert.ReferenceIdeal.Spec.outl a2 a3 := by
  unfold Cert.KernelIdeal.Tail.outl Cert.KernelIdeal.Tail.klTerm Cert.KernelIdeal.Tail.fgTerm
    Cert.KernelIdeal.Tail.class1 Cert.KernelIdeal.Tail.softmax Cert.KernelIdeal.Tail.logSoftmax
    Cert.KernelIdeal.Tail.expSum Cert.KernelIdeal.Tail.shifted Cert.KernelIdeal.Tail.overClasses
    Cert.KernelIdeal.Tail.classMax Cert.KernelIdeal.Tail.scaled
    Cert.ReferenceIdeal.Spec.outl Cert.ReferenceIdeal.Spec.klTerm Cert.ReferenceIdeal.Spec.class1Term
    Cert.ReferenceIdeal.Spec.class1 Cert.ReferenceIdeal.Spec.logSoftmax Cert.ReferenceIdeal.Spec.softmax
    Cert.ReferenceIdeal.Spec.sumExp Cert.ReferenceIdeal.Spec.shiftMax Cert.ReferenceIdeal.Spec.overClasses
    Cert.ReferenceIdeal.Spec.scaleT Cert.ReferenceIdeal.Spec.splatO
  rfl

end Cert.Bridge

end
-- ==== Proof.BridgeDiff.lean ====
/- The difference-attention loss of the kernel program's host tail, computed from the region's re-laid output
   arrays, equals the difference-attention loss of the reference specification computed from the argument arrays.
   The kernel side works on 8×32×128 maps and 8×256 rows, the reference side on 8×1×64×64 maps and 8×256×1×1
   columns; an array of the first kind that reads an array of the second kind at the position with the same flat
   offset is that array composed with an index map, every pointwise operation commutes with the composition, and
   a total sum is unchanged by it. -/
import proofs.«129784_j68891275428342_2_alg».proof.Proof.RefSpec
import proofs.«129784_j68891275428342_2_alg».proof.Proof.Ideal.TailDefs
import proofs.«129784_j68891275428342_2_alg».proof.Proof.LibSums
import proofs.«129784_j68891275428342_2_alg».proof.Proof.Iface
import Idealize.ShloMosaic.Lib.IdealHost

noncomputable section

open scoped BigOperators

namespace Cert.Bridge.Diff

open Idealize.ShloMosaic Idealize.ShloMosaic.ValueIdx Idealize.ShloMosaic.LibSums
open Cert.Iface (chan hab rr rc HMean HRelaid)

variable [Cert.ReferenceIdeal.Facts₀]

/-- The position of the 8×1×64×64 grid with the flat offset of a position of the 8×32×128 grid. -/
def σ (i : Cert.KernelIdeal.S8x32x128.Idx) : Cert.ReferenceIdeal.S8x1x64x64.Idx :=
  ix4 (i 0) (0 : Fin 1) (relayRow hab (i 1) (i 2)) (relayCol hab (i 1) (i 2))

/-- The position of the 8×256×1×1 grid of a position of the 8×256 grid. -/
def τ (i : Cert.KernelIdeal.S8x256.Idx) : Cert.ReferenceIdeal.S8x256x1x1.Idx :=
  ix4 (i 0) (i 1) (0 : Fin 1) (0 : Fin 1)

/-- An 8×32×128 array that reads `y` at the re-laid position of every coordinate triple is `y` composed with `σ`. -/
theorem eq_comp_σ (x : FVec Ideal Cert.KernelIdeal.S8x32x128 .f32) (y : FVec Ideal Cert.ReferenceIdeal.S8x1x64x64 .f32)
    (h : ∀ (b : Fin 8) (p : Fin 32) (q : Fin 128),
      x (ix3 b p q) = y (ix4 b (0 : Fin 1) (relayRow hab p q) (relayCol hab p q))) :
    x = fun i => y (σ i) := by
  funext i
  rw [eq_ix3 i]
  exact h _ _ _

/-- The total sum of an array composed with `σ` is the total sum of the array. -/
theorem sum_σ (x : FVec Ideal Cert.KernelIdeal.S8x32x128 .f32) (g : FVec Ideal Cert.ReferenceIdeal.S8x1x64x64 .f32)
    (init : FVec Ideal Cert.ReferenceIdeal.S_ .f32) (h : ∀ i, x i = g (σ i)) :
    Host.reduceAdd x init Cert.KernelIdeal.Gen.reducesTo_S8x32x128_S_d0_1_2 Cert.KernelIdeal.Gen.h_S_
      = Host.reduceAdd g init Cert.ReferenceIdeal.Facts₀.reducesTo_S8x1x64x64_S_d0_1_2_3 Cert.ReferenceIdeal.Facts₀.h_S_ := by
  funext j
  rw [hostSum_all3 x init _ _ (fun b => b.elim0) j, hostSum_all4 g init _ _ (fun b => b.elim0) j]
  refine congrArg (_ + ·) (Finset.sum_congr rfl fun b _ => ?_)
  rw [Fin.sum_univ_one, ← sum_relay hab (fun r s => g (ix4 b (0 : Fin 1) r s))]
  exact Finset.sum_congr rfl fun p _ => Finset.sum_congr rfl fun q _ => h (ix3 b p q)

/-- A scalar splat over the 8×32×128 grid is the scalar splat over the 8×1×64×64 grid composed with `σ`. -/
theorem splat_σ (c : FVec Ideal Cert.ReferenceIdeal.S_ .f32) :
    broadcastInDim Cert.KernelIdeal.S8x32x128 ![] Cert.KernelIdeal.Gen.bcast_S_S8x32x128 c
      = fun i => broadcastInDim Cert.ReferenceIdeal.S8x1x64x64 ![] Cert.ReferenceIdeal.Facts₀.bcast_S_S8x1x64x64 c (σ i) := by
  funext i
  rw [broadcastInDim_scalar_apply, broadcastInDim_scalar_apply]

/-! ## The sub-definitions on re-laid maps -/

/-- The mean of the difference map. -/
theorem optMean_σ (y : FVec Ideal Cert.ReferenceIdeal.S8x1x64x64 .f32) :
    Cert.KernelIdeal.Tail.optMean (fun i => y (σ i)) = Cert.ReferenceIdeal.Spec.optMean y := by
  unfold Cert.KernelIdeal.Tail.optMean Cert.ReferenceIdeal.Spec.optMean
  exact congrArg (fun s => Host.divf s _) (sum_σ _ y _ (fun i => rfl))

/-- The mask of the difference map. -/
theorem diffMask_σ (y : FVec Ideal Cert.ReferenceIdeal.S8x1x64x64 .f32) :
    Cert.KernelIdeal.Tail.diffMask (fun i => y (σ i)) = fun i => Cert.ReferenceIdeal.Spec.diffMask y (σ i) := by
  unfold Cert.KernelIdeal.Tail.diffMask Cert.ReferenceIdeal.Spec.diffMask
  rw [optMean_σ, splat_σ]
  rfl

/-- The weight map. -/
theorem wgt_σ (y : FVec Ideal Cert.ReferenceIdeal.S8x1x64x64 .f32) :
    Cert.KernelIdeal.Tail.wgt (fun i => y (σ i)) = fun i => Cert.ReferenceIdeal.Spec.wgt y (σ i) := by
  unfold Cert.KernelIdeal.Tail.wgt Cert.ReferenceIdeal.Spec.wgt Cert.ReferenceIdeal.Spec.splatS
  rw [diffMask_σ, splat_σ, splat_σ, splat_σ]
  rfl

/-- The weighted mean-square difference of the two difference maps. -/
theorem diffLoss_σ (y z : FVec Ideal Cert.ReferenceIdeal.S8x1x64x64 .f32) :
    Cert.KernelIdeal.Tail.diffLoss (fun i => y (σ i)) (fun i => z (σ i)) = Cert.ReferenceIdeal.Spec.diffLoss y z := by
  unfold Cert.KernelIdeal.Tail.diffLoss Cert.ReferenceIdeal.Spec.diffLoss Cert.ReferenceIdeal.Spec.mseS
  rw [wgt_σ]
  exact congrArg (fun s => Host.divf s _) (sum_σ _ _ _ (fun i => rfl))

/-- The attention weight. -/
theorem attW_σ (y : FVec Ideal Cert.ReferenceIdeal.S8x1x64x64 .f32) :
    Cert.KernelIdeal.Tail.attW (fun i => y (σ i)) = Cert.ReferenceIdeal.Spec.attW y := by
  unfold Cert.KernelIdeal.Tail.attW Cert.ReferenceIdeal.Spec.attW Cert.ReferenceIdeal.Spec.logistic0
  rw [optMean_σ]

/-- The amplification map. -/
theorem amp_σ (y : FVec Ideal Cert.ReferenceIdeal.S8x1x64x64 .f32) :
    Cert.KernelIdeal.Tail.amp (fun i => y (σ i)) = fun i => Cert.ReferenceIdeal.Spec.amp y (σ i) := by
  unfold Cert.KernelIdeal.Tail.amp Cert.ReferenceIdeal.Spec.amp Cert.ReferenceIdeal.Spec.splatS
  rw [attW_σ, diffMask_σ, splat_σ, splat_σ]
  rfl

/-- The amplified mean-square difference of the two spatial attentions (`t` the teacher's, `s` the student's). -/
theorem spatialLoss_σ (y t s : FVec Ideal Cert.ReferenceIdeal.S8x1x64x64 .f32) :
    Cert.KernelIdeal.Tail.spatialLoss (fun i => y (σ i)) (fun i => t (σ i)) (fun i => s (σ i))
      = Cert.ReferenceIdeal.Spec.spatialLoss y s t := by
  unfold Cert.KernelIdeal.Tail.spatialLoss Cert.ReferenceIdeal.Spec.spatialLoss Cert.ReferenceIdeal.Spec.mseS
  rw [amp_σ]
  exact congrArg (fun s => Host.divf s _) (sum_σ _ _ _ (fun i => rfl))

/-! ## The channel attentions on 8×256 rows -/

/-- The total sum of an array composed with `τ` is the total sum of the array. -/
theorem sum_τ (x : FVec Ideal Cert.KernelIdeal.S8x256 .f32) (g : FVec Ideal Cert.ReferenceIdeal.S8x256x1x1 .f32)
    (init : FVec Ideal Cert.ReferenceIdeal.S_ .f32) (h : ∀ i, x i = g (τ i)) :
    Host.reduceAdd x init Cert.KernelIdeal.Gen.reducesTo_S8x256_S_d0_1 Cert.KernelIdeal.Gen.h_S_
      = Host.reduceAdd g init Cert.ReferenceIdeal.Facts₀.reducesTo_S8x256x1x1_S_d0_1_2_3 Cert.ReferenceIdeal.Facts₀.h_S_ := by
  funext j
  rw [hostSum_all2 x init _ _ (fun b => b.elim0) j, hostSum_all4 g init _ _ (fun b => b.elim0) j]
  refine congrArg (_ + ·) (Finset.sum_congr rfl fun b _ => Finset.sum_congr rfl fun c _ => ?_)
  rw [Fin.sum_univ_one, Fin.sum_univ_one]
  exact h (ix2 b c)

/-- A scalar splat over the 8×256 grid is the scalar splat over the 8×256×1×1 grid composed with `τ`. -/
theorem splat_τ (c : FVec Ideal Cert.ReferenceIdeal.S_ .f32) :
    broadcastInDim Cert.KernelIdeal.S8x256 ![] Cert.KernelIdeal.Gen.bcast_S_S8x256 c
      = fun i => broadcastInDim Cert.ReferenceIdeal.S8x256x1x1 ![] Cert.ReferenceIdeal.Facts₀.bcast_S_S8x256x1x1 c (τ i) := by
  funext i
  rw [broadcastInDim_scalar_apply, broadcastInDim_scalar_apply]

/-- The spatial mean of the reference at `(b, k, 0, 0)`: the sum over the plane times the word of 1/4096. -/
theorem mean23_apply (a : FVec Ideal Cert.ReferenceIdeal.S8x256x64x64 .f32) (b : Fin 8) (k : Fin 256) :
    Cert.ReferenceIdeal.Spec.mean23 a (ix4 b k (0 : Fin 1) (0 : Fin 1))
      = (∑ h : Fin 64, ∑ w : Fin 64, a (ix4 b k h w)) * Ideal.ofBits .f32 0x39800000#32 := by
  unfold Cert.ReferenceIdeal.Spec.mean23 Cert.ReferenceIdeal.Spec.splatC
  show Ideal.div _ _ = _
  rw [broadcastInDim_apply ![0, 1] _ _ _ (ix2 b k) (by
      intro a
      match a with
      | ⟨0, _⟩ => rfl
      | ⟨1, _⟩ => rfl),
    broadcastInDim_scalar_apply, hostSum_axes23_of4 a _ _ _ (ix2 b k), constant_apply, constant_apply, Ideal.ofBits_zero_f32, zero_add,
    div_word_4096]

/-- The pooled array of the kernel, read as 8×256, is the reference's spatial mean composed with `τ`. -/
theorem flat_mean (a : FVec Ideal Cert.ReferenceIdeal.S8x256x64x64 .f32) (c : FVec Ideal Cert.KernelIdeal.S8x2x1x128 .f32)
    (h : ∀ (b : Fin 8) (cc : Fin 2) (ch : Fin 128), c (ix4 b cc (0 : Fin 1) ch)
      = (∑ h : Fin 64, ∑ w : Fin 64, a (ix4 b (chan cc ch) h w)) * Ideal.ofBits .f32 0x39800000#32) :
    Cert.KernelIdeal.Tail.flat c = fun i => Cert.ReferenceIdeal.Spec.mean23 a (τ i) := by
  funext i
  obtain ⟨b, k, rfl⟩ : ∃ (b : Fin 8) (k : Fin 256), i = ix2 b k := ⟨i 0, i 1, eq_ix2 i⟩
  show Cert.KernelIdeal.Tail.flat c (ix2 b k) = Cert.ReferenceIdeal.Spec.mean23 a (ix4 b k (0 : Fin 1) (0 : Fin 1))
  unfold Cert.KernelIdeal.Tail.flat
  rw [mean23_apply, shapeCast_nm1k_nN_apply (by norm_num : 256 = 2 * 128), h]
  have hk : chan ⟨k.val / 128, by have := k.isLt; omega⟩ ⟨k.val % 128, Nat.mod_lt _ (by norm_num)⟩ = k :=
    Fin.ext (Nat.div_add_mod' _ _)
  rw [hk]

/-- The logistic of the pooled array is the reference's channel attention composed with `τ`. -/
theorem sigm_τ (a : FVec Ideal Cert.ReferenceIdeal.S8x256x64x64 .f32) (c : FVec Ideal Cert.KernelIdeal.S8x2x1x128 .f32)
    (h : ∀ (b : Fin 8) (cc : Fin 2) (ch : Fin 128), c (ix4 b cc (0 : Fin 1) ch)
      = (∑ h : Fin 64, ∑ w : Fin 64, a (ix4 b (chan cc ch) h w)) * Ideal.ofBits .f32 0x39800000#32) :
    Cert.KernelIdeal.Tail.sigm c = fun i => Cert.ReferenceIdeal.Spec.chAtt a (τ i) := by
  unfold Cert.KernelIdeal.Tail.sigm Cert.ReferenceIdeal.Spec.chAtt Cert.ReferenceIdeal.Spec.logisticC
    Cert.ReferenceIdeal.Spec.splatC
  rw [flat_mean a c h, splat_τ]
  rfl

/-- The mean-square difference of the two channel attentions. -/
theorem chanLoss_τ (a0 a1 : FVec Ideal Cert.ReferenceIdeal.S8x256x64x64 .f32) (c6 c7 : FVec Ideal Cert.KernelIdeal.S8x2x1x128 .f32)
    (h6 : ∀ (b : Fin 8) (cc : Fin 2) (ch : Fin 128), c6 (ix4 b cc (0 : Fin 1) ch)
      = (∑ h : Fin 64, ∑ w : Fin 64, a0 (ix4 b (chan cc ch) h w)) * Ideal.ofBits .f32 0x39800000#32)
    (h7 : ∀ (b : Fin 8) (cc : Fin 2) (ch : Fin 128), c7 (ix4 b cc (0 : Fin 1) ch)
      = (∑ h : Fin 64, ∑ w : Fin 64, a1 (ix4 b (chan cc ch) h w)) * Ideal.ofBits .f32 0x39800000#32) :
    Cert.KernelIdeal.Tail.chanLoss c6 c7
      = Cert.ReferenceIdeal.Spec.chanLoss (Cert.ReferenceIdeal.Spec.chAtt a0) (Cert.ReferenceIdeal.Spec.chAtt a1) := by
  unfold Cert.KernelIdeal.Tail.chanLoss Cert.ReferenceIdeal.Spec.chanLoss Cert.ReferenceIdeal.Spec.mseC
  rw [sigm_τ a0 c6 h6, sigm_τ a1 c7 h7]
  exact congrArg (fun s => Host.divf s _) (sum_τ _ _ _ (fun i => rfl))

/-! ## The difference-attention loss -/

/-- The kernel program's difference-attention loss, of the region's pooled arrays `c6`, `c7` (the per-channel spatial
    means of the two feature arrays) and re-laid maps `d8` … `d11` (the two difference maps, the teacher's and the
    student's spatial attention), is the reference's difference-attention loss of the argument arrays. -/
theorem diffa_bridge (a0 a1 a4 a5 a6 : FVec Ideal Cert.ReferenceIdeal.S8x256x64x64 .f32)
    (c6 c7 : FVec Ideal Cert.KernelIdeal.S8x2x1x128 .f32) (d8 d9 d10 d11 : FVec Ideal Cert.KernelIdeal.S8x32x128 .f32)
    (h6 : HMean c6 a0) (h7 : HMean c7 a1)
    (h8 : HRelaid d8 (Cert.ReferenceIdeal.Spec.dmap a4 a5)) (h9 : HRelaid d9 (Cert.ReferenceIdeal.Spec.dmap a4 a6))
    (h10 : HRelaid d10 (Cert.ReferenceIdeal.Spec.spAtt a1)) (h11 : HRelaid d11 (Cert.ReferenceIdeal.Spec.spAtt a0)) :
    Cert.KernelIdeal.Tail.diffa c6 c7 d8 d9 d10 d11 = Cert.ReferenceIdeal.Spec.diffa a0 a1 a4 a5 a6 := by
  rw [eq_comp_σ d8 _ h8, eq_comp_σ d9 _ h9, eq_comp_σ d10 _ h10, eq_comp_σ d11 _ h11]
  unfold Cert.KernelIdeal.Tail.diffa Cert.ReferenceIdeal.Spec.diffa Cert.ReferenceIdeal.Spec.alphaA
    Cert.ReferenceIdeal.Spec.betaA Cert.ReferenceIdeal.Spec.gammaA
  rw [attW_σ, diffLoss_σ, spatialLoss_σ, chanLoss_τ a0 a1 c6 c7 h6 h7]

end Cert.Bridge.Diff

end
-- ==== Proof.lean ====
/- The proof of `Cert.Claim`: the kernel program runs and keeps its arguments (as printed and at the ideal instance),
   the reference program runs and keeps its arguments, the idealized kernel program is the printed one's own text, and at the ideal instance the
   kernel program and the reference program end with the same four losses.

   THE REFERENCE computes, from two feature arrays a0, a1 (8×256×64×64), two logit arrays a2, a3 (8×2×256×256), three
   more feature arrays a4, a5, a6 and a mask a7 (8×1×64×64):
     feat  = 0.3 · mean (a0 − a1)² + 0.5 · mean (a0·a7 − a1·a7)² + 0.2 · mean (μ a0 − μ a1)², μ the per-channel spatial mean;
     out   = 16 · Σ t · (log t − ls) / 8 + 2 · mean (exp ls₁ − t₁)², ls = log_softmax (a2 / 4), t = softmax (a3 / 4) over the class axis;
     diff  = α · diffLoss + β · chanLoss + γ · spatialLoss, of the two difference maps D (a4, a5), D (a4, a6)
             (D (f, g) = (‖f − g‖ + 1 − cos (f, g)) · logistic (5 ‖f − g‖) over the channel axis), of the mask
             D (a4, a5) > 1.5 · mean, of the spatial attentions logistic (channel mean + channel max) and of the channel
             attentions logistic (μ), with α, β, γ affine in w = logistic (10 · mean D (a4, a5));
     total = 0.3 · feat + 0.4 · out + 0.3 · diff.
   THE KERNEL streams a0, a1, a4, a5, a6, a7, re-laid so that each 64×64 plane is a 32×128 plane with the same flat
   positions, through one region over a grid of 8 batches × 2 chunks of 128 channels; the region accumulates over the
   two chunks and leaves seven small arrays: the per-channel spatial means of a0 and of a1 (the plane sum times
   2⁻¹²), the two difference maps and the two spatial attentions as 8×32×128 maps, and per batch the two sums
   Σ (a0 − a1)² and Σ (a0 − a1)² · a7². Its host tail computes the four losses from these seven arrays and from
   a2, a3.
   THE LAWS THAT JOIN THEM, at the ideal instance (floats are extended reals, operations exact):
   a total sum does not depend on the order or the grouping of its terms (two chunks of 128 channels are the 256
   channels; a plane summed as 32×128 is the plane summed as 64×64), nor does a maximum; every other operation of
   the two tails is pointwise, so it commutes with the re-laying of a plane; division by 4096 is the product with
   2⁻¹² at every extended real; for finite entries (the precondition) (a0·a7 − a1·a7)² = (a0 − a1)² · a7²; the
   output loss is the same text in both programs. -/
import proofs.«129784_j68891275428342_2_alg».proof.Defs
import proofs.«129784_j68891275428342_2_alg».proof.Proof.Gen.Kernel
import proofs.«129784_j68891275428342_2_alg».proof.Proof.Gen.Kernel.Skeleton
import proofs.«129784_j68891275428342_2_alg».proof.Proof.Gen.Kernel.Launch
import proofs.«129784_j68891275428342_2_alg».proof.Proof.Gen.Kernel.Points
import proofs.«129784_j68891275428342_2_alg».proof.Proof.Gen.KernelIdeal
import proofs.«129784_j68891275428342_2_alg».proof.Proof.Gen.KernelIdeal.Skeleton
import proofs.«129784_j68891275428342_2_alg».proof.Proof.Gen.KernelIdeal.Launch
import proofs.«129784_j68891275428342_2_alg».proof.Proof.Gen.KernelIdeal.Points
import proofs.«129784_j68891275428342_2_alg».proof.Proof.Gen.ReferenceIdeal
import proofs.«129784_j68891275428342_2_alg».proof.Proof.Gen.Pre_finite_inputs
import proofs.«129784_j68891275428342_2_alg».proof.Proof.Bits.FrameRun
import proofs.«129784_j68891275428342_2_alg».proof.Proof.Ideal.FrameRun
import proofs.«129784_j68891275428342_2_alg».proof.Proof.Ideal.KernelRun
import proofs.«129784_j68891275428342_2_alg».proof.Proof.Ideal.ValBlk1
import proofs.«129784_j68891275428342_2_alg».proof.Proof.Ideal.ValFin89
import proofs.«129784_j68891275428342_2_alg».proof.Proof.Ideal.ValAttFinal
import proofs.«129784_j68891275428342_2_alg».proof.Proof.RefRunHand
import proofs.«129784_j68891275428342_2_alg».proof.Proof.Finite
import proofs.«129784_j68891275428342_2_alg».proof.Proof.BridgeFeat
import proofs.«129784_j68891275428342_2_alg».proof.Proof.BridgeOut
import proofs.«129784_j68891275428342_2_alg».proof.Proof.BridgeDiff
import Idealize.ShloMosaic.Adequacy
import Idealize.ShloMosaic.Init

noncomputable section

namespace Cert.Proof

open Idealize.ShloMosaic Idealize.SL.Sem

/-- The two totals are one expression of the three losses. -/
theorem total_bridge (f o d : FVec Ideal Cert.ReferenceIdeal.S_ .f32) :
    Cert.KernelIdeal.Tail.total f o d = Cert.ReferenceIdeal.Spec.total f o d := rfl

/-- The kernel program at the ideal instance, from a memory whose argument arrays are finite: every weakly fair
    execution terminates with its four results at the reference specification's four losses of the argument arrays,
    and the arguments unchanged. The run gives the results as the host tail's functions of the region's seven output
    arrays; the feature loss, the output loss and the difference-attention loss of the tail are those of the
    specification (the three bridges, fed with the region's output arrays read as sums, means and re-laid maps of the
    arguments), and the totals are the same expression of the three. -/
theorem kernel_spec (m : (ℓ : Loc Cert.KernelIdeal.nD Cert.KernelIdeal.τ Cert.KernelIdeal.sig) → Buf (Elt Ideal) ℓ)
    (ρ : Dev Cert.KernelIdeal.nD → PrngReg) (hpre : Cert.Pre_KernelIdeal m) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
      r.2.mem ((c.tc : Thread Cert.KernelIdeal.nD Cert.KernelIdeal.τ).loc Cert.KernelIdeal.main_v125) = (Cert.ReferenceIdeal.Spec.total (Cert.ReferenceIdeal.Spec.feat (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg7))) (Cert.ReferenceIdeal.Spec.outl (F := Ideal) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) (Cert.ReferenceIdeal.Spec.diffa (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))))
      ∧ r.2.mem ((c.tc : Thread Cert.KernelIdeal.nD Cert.KernelIdeal.τ).loc Cert.KernelIdeal.main_v25) = (Cert.ReferenceIdeal.Spec.feat (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg7)))
      ∧ r.2.mem ((c.tc : Thread Cert.KernelIdeal.nD Cert.KernelIdeal.τ).loc Cert.KernelIdeal.main_v56) = (Cert.ReferenceIdeal.Spec.outl (F := Ideal) (m ((c.tc : Thread Cert.KernelIdeal.nD Cert.KernelIdeal.τ).loc Cert.KernelIdeal.main_arg2)) (m ((c.tc : Thread Cert.KernelIdeal.nD Cert.KernelIdeal.τ).loc Cert.KernelIdeal.main_arg3)))
      ∧ r.2.mem ((c.tc : Thread Cert.KernelIdeal.nD Cert.KernelIdeal.τ).loc Cert.KernelIdeal.main_v120) = (Cert.ReferenceIdeal.Spec.diffa (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)) := by
  refine (θ_run Cert.KernelIdeal.defs _ _).mono (fun _ h c => ?_) (Cert.KernelIdeal.Fr.run_results (F := Ideal) m ρ)
  obtain ⟨hf0, hf1, hf7, -⟩ := Cert.Finite.finite_of_pre m hpre c
  have eF := Cert.Bridge.feat_bridge _ _ _ _ _ _ hf0 hf1 hf7 (Cert.KernelIdeal.V1.final6 m c) (Cert.KernelIdeal.V1.final7 m c) (Cert.KernelIdeal.V1.final12a m c)
    (Cert.KernelIdeal.V1.final12b m c)
  have eO := Cert.Bridge.outl_bridge (F := Ideal) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
  have eD := Cert.Bridge.Diff.diffa_bridge _ _ _ _ _ _ _ _ _ _ _ (Cert.KernelIdeal.V1.final6 m c) (Cert.KernelIdeal.V1.final7 m c) (Cert.KernelIdeal.Val89.final8 m c)
    (Cert.KernelIdeal.Val89.final9 m c) (fun b p q => Cert.KernelIdeal.Val.final10 m c b p q) (fun b p q => Cert.KernelIdeal.Val.final11 m c b p q)
  obtain ⟨h0, h1, h2, h3, hargs⟩ := h c
  exact ⟨h0.trans ((total_bridge _ _ _).trans (congr (congr (congrArg Cert.ReferenceIdeal.Spec.total eF) eO) eD)),
    h1.trans eF, h2.trans eO, h3.trans eD, hargs⟩

/-- The kernel program as printed runs and leaves its arguments as they were. -/
theorem frame_k : Cert.frame_Kernel := fun m ρ _ => Cert.Kernel.Fr.frame m ρ

/-- The kernel program at the ideal instance runs and leaves its arguments as they were. -/
theorem frame_ki : Cert.frame_KernelIdeal := fun m ρ _ => Cert.KernelIdeal.Fr.frame (F := Ideal) m ρ

/-- The reference program at the ideal instance runs and leaves its arguments as they were: its run, the four
    results dropped. -/
theorem frame_ri : Cert.frame_ReferenceIdeal := fun m ρ _ =>
  (θ_run Cert.ReferenceIdeal.defs _ _).mono (fun _ h c => (h c).2.2.2.2) (Cert.ReferenceIdeal.Hand.run_spec (F := Ideal) m ρ)

/-- The idealization rewrote no operation of the kernel program. -/
theorem preserves : Cert.preserves_Kernel_KernelIdeal := trivial

/-- At the ideal instance, from memories that agree on the eight arguments, the kernel program and the reference
    program end with the same four losses: the specification's losses of the kernel memory's arguments, which the
    reference's run states of its own arguments, equal to the kernel's by the agreement. -/
theorem algebraic : Cert.algebraic_KernelIdeal_ReferenceIdeal := by
  intro m ρ m' ρ' hpre hagree
  refine ⟨_, _, _, _, kernel_spec m ρ hpre, ?_⟩
  refine (θ_run Cert.ReferenceIdeal.defs _ _).mono (fun _ h c => ?_) (Cert.ReferenceIdeal.Hand.run_spec (F := Ideal) m' ρ')
  obtain ⟨e0, e1, e2, e3, e4, e5, e6, e7⟩ := hagree c
  obtain ⟨r0, r1, r2, r3, rargs⟩ := h c
  rw [e0, e1, e2, e3, e4, e5, e6, e7] at r0
  rw [e0, e1, e7] at r1
  rw [e2, e3] at r2
  rw [e0, e1, e4, e5, e6] at r3
  exact ⟨r0, r1, r2, r3, rargs⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
